-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)) →
    ∃ (v0 : (c : Dev Cert.KernelIdeal.nD) → Buf (Elt Ideal) ((c.tc : Thread Cert.KernelIdeal.nD Cert.KernelIdeal.τ).loc Cert.KernelIdeal.main_v326)) (v1 : (c : Dev Cert.KernelIdeal.nD) → Buf (Elt Ideal) ((c.tc : Thread Cert.KernelIdeal.nD Cert.KernelIdeal.τ).loc Cert.KernelIdeal.main_v322)) (v2 : (c : Dev Cert.KernelIdeal.nD) → Buf (Elt Ideal) ((c.tc : Thread Cert.KernelIdeal.nD Cert.KernelIdeal.τ).loc Cert.KernelIdeal.main_v325)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v326) = v0 c
          ∧ r.2.mem ((c.tc : Thread Cert.KernelIdeal.nD Cert.KernelIdeal.τ).loc Cert.KernelIdeal.main_v322) = v1 c
          ∧ r.2.mem ((c.tc : Thread Cert.KernelIdeal.nD Cert.KernelIdeal.τ).loc Cert.KernelIdeal.main_v325) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v415) = v0 c
          ∧ r.2.mem ((c.tc : Thread Cert.ReferenceIdeal.nD Cert.ReferenceIdeal.τ).loc Cert.ReferenceIdeal.main_v410) = v1 c
          ∧ r.2.mem ((c.tc : Thread Cert.ReferenceIdeal.nD Cert.ReferenceIdeal.τ).loc Cert.ReferenceIdeal.main_v413) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12000x128 : Shape := ⟨2, ![12000, 128]⟩
abbrev S6000x128 : Shape := ⟨2, ![6000, 128]⟩
abbrev S2x384000 : Shape := ⟨2, ![2, 384000]⟩
abbrev S384000 : Shape := ⟨1, ![384000]⟩
abbrev S2x192000 : Shape := ⟨2, ![2, 192000]⟩
abbrev S192000 : Shape := ⟨1, ![192000]⟩
abbrev S128x128 : Shape := ⟨2, ![128, 128]⟩
abbrev S128 : Shape := ⟨1, ![128]⟩
abbrev S_ : Shape := ⟨0, ![]⟩
abbrev S1x384000 : Shape := ⟨2, ![1, 384000]⟩
abbrev S1x192000 : Shape := ⟨2, ![1, 192000]⟩

class Facts : Prop where
  bcast_S_S12000x128 : S_.BroadcastsInDim S12000x128 (![] : Fin 0 → Fin S12000x128.rank)
  reducesTo_S12000x128_S_d0_1 : S12000x128.ReducesTo [0, 1] S_
  h_S_ : 0 < S_.numel
  bcast_S_S6000x128 : S_.BroadcastsInDim S6000x128 (![] : Fin 0 → Fin S6000x128.rank)
  reducesTo_S6000x128_S_d0_1 : S6000x128.ReducesTo [0, 1] S_
  bcast_S_S384000 : S_.BroadcastsInDim S384000 (![] : Fin 0 → Fin S384000.rank)
  reducesTo_S384000_S_d0 : S384000.ReducesTo [0] S_
  bcast_S_S192000 : S_.BroadcastsInDim S192000 (![] : Fin 0 → Fin S192000.rank)
  reducesTo_S192000_S_d0 : S192000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  slices_S2x384000_S1x384000_0_0 : S2x384000.Slices ![0, 0] S1x384000
  shapeCasts_S1x384000_S384000 : S1x384000.ShapeCasts S384000
  slices_S2x192000_S1x192000_0_0 : S2x192000.Slices ![0, 0] S1x192000
  shapeCasts_S1x192000_S192000 : S1x192000.ShapeCasts S192000

variable [Facts]

def fn_part10 {F : FTy → Type} [FloatOps F] (main_v170 : IVec S_ 1) (main_v172 : IVec S192000 32) (main_c_64 : IVec S_ 32) : IVec S_ 1 :=
  let main_v173 : IVec S192000 32 := broadcastInDim S192000 ![] bcast_S_S192000 main_c_64
  let main_v174 : IVec S192000 1 := cmpi .slt main_v172 main_v173
  let main_c_65 : IVec S_ 1 := constantI S_ 1 1#1
  let main_v175 : IVec S_ 1 := (fun x v => Host.reduce IntOp.andi x v reducesTo_S192000_S_d0 h_S_) main_v174 main_c_65
  let main_v176 : IVec S_ 1 := andi main_v170 main_v175
  main_v176

def fn_part9 {F : FTy → Type} [FloatOps F] (main_arg6 : IVec S2x192000 32) (main_arg8 : IVec S2x192000 32) (main_v152 : IVec S_ 1) (main_v154 : IVec S192000 32) (main_c_58 : IVec S_ 32) : IVec S_ 1 :=
  let main_v155 : IVec S192000 32 := broadcastInDim S192000 ![] bcast_S_S192000 main_c_58
  let main_v156 : IVec S192000 1 := cmpi .sge main_v154 main_v155
  let main_c_59 : IVec S_ 1 := constantI S_ 1 1#1
  let main_v157 : IVec S_ 1 := (fun x v => Host.reduce IntOp.andi x v reducesTo_S192000_S_d0 h_S_) main_v156 main_c_59
  let main_v158 : IVec S_ 1 := andi main_v152 main_v157
  let main_v159 : IVec S1x192000 32 := (extractStridedSlice S1x192000 ![0, 0] · slices_S2x192000_S1x192000_0_0) main_arg6
  let main_v160 : IVec S192000 32 := shapeCast S192000 main_v159 shapeCasts_S1x192000_S192000
  let main_c_60 : IVec S_ 32 := constantI S_ 32 6000#32
  let main_v161 : IVec S192000 32 := broadcastInDim S192000 ![] bcast_S_S192000 main_c_60
  let main_v162 : IVec S192000 1 := cmpi .slt main_v160 main_v161
  let main_c_61 : IVec S_ 1 := constantI S_ 1 1#1
  let main_v163 : IVec S_ 1 := (fun x v => Host.reduce IntOp.andi x v reducesTo_S192000_S_d0 h_S_) main_v162 main_c_61
  let main_v164 : IVec S_ 1 := andi main_v158 main_v163
  let main_v165 : IVec S1x192000 32 := (extractStridedSlice S1x192000 ![0, 0] · slices_S2x192000_S1x192000_0_0) main_arg8
  let main_v166 : IVec S192000 32 := shapeCast S192000 main_v165 shapeCasts_S1x192000_S192000
  let main_c_62 : IVec S_ 32 := constantI S_ 32 0#32
  let main_v167 : IVec S192000 32 := broadcastInDim S192000 ![] bcast_S_S192000 main_c_62
  let main_v168 : IVec S192000 1 := cmpi .sge main_v166 main_v167
  let main_c_63 : IVec S_ 1 := constantI S_ 1 1#1
  let main_v169 : IVec S_ 1 := (fun x v => Host.reduce IntOp.andi x v reducesTo_S192000_S_d0 h_S_) main_v168 main_c_63
  let main_v170 : IVec S_ 1 := andi main_v164 main_v169
  let main_v171 : IVec S1x192000 32 := (extractStridedSlice S1x192000 ![0, 0] · slices_S2x192000_S1x192000_0_0) main_arg8
  let main_v172 : IVec S192000 32 := shapeCast S192000 main_v171 shapeCasts_S1x192000_S192000
  let main_c_64 : IVec S_ 32 := constantI S_ 32 6000#32
  fn_part10 (F := F) main_v170 main_v172 main_c_64

def fn_part8 {F : FTy → Type} [FloatOps F] (main_arg4 : IVec S2x384000 32) (main_arg6 : IVec S2x192000 32) (main_arg8 : IVec S2x192000 32) (main_v134 : IVec S_ 1) (main_v136 : IVec S384000 32) (main_c_52 : IVec S_ 32) : IVec S_ 1 :=
  let main_v137 : IVec S384000 32 := broadcastInDim S384000 ![] bcast_S_S384000 main_c_52
  let main_v138 : IVec S384000 1 := cmpi .slt main_v136 main_v137
  let main_c_53 : IVec S_ 1 := constantI S_ 1 1#1
  let main_v139 : IVec S_ 1 := (fun x v => Host.reduce IntOp.andi x v reducesTo_S384000_S_d0 h_S_) main_v138 main_c_53
  let main_v140 : IVec S_ 1 := andi main_v134 main_v139
  let main_v141 : IVec S1x384000 32 := (extractStridedSlice S1x384000 ![0, 0] · slices_S2x384000_S1x384000_0_0) main_arg4
  let main_v142 : IVec S384000 32 := shapeCast S384000 main_v141 shapeCasts_S1x384000_S384000
  let main_c_54 : IVec S_ 32 := constantI S_ 32 0#32
  let main_v143 : IVec S384000 32 := broadcastInDim S384000 ![] bcast_S_S384000 main_c_54
  let main_v144 : IVec S384000 1 := cmpi .sge main_v142 main_v143
  let main_c_55 : IVec S_ 1 := constantI S_ 1 1#1
  let main_v145 : IVec S_ 1 := (fun x v => Host.reduce IntOp.andi x v reducesTo_S384000_S_d0 h_S_) main_v144 main_c_55
  let main_v146 : IVec S_ 1 := andi main_v140 main_v145
  let main_v147 : IVec S1x384000 32 := (extractStridedSlice S1x384000 ![0, 0] · slices_S2x384000_S1x384000_0_0) main_arg4
  let main_v148 : IVec S384000 32 := shapeCast S384000 main_v147 shapeCasts_S1x384000_S384000
  let main_c_56 : IVec S_ 32 := constantI S_ 32 12000#32
  let main_v149 : IVec S384000 32 := broadcastInDim S384000 ![] bcast_S_S384000 main_c_56
  let main_v150 : IVec S384000 1 := cmpi .slt main_v148 main_v149
  let main_c_57 : IVec S_ 1 := constantI S_ 1 1#1
  let main_v151 : IVec S_ 1 := (fun x v => Host.reduce IntOp.andi x v reducesTo_S384000_S_d0 h_S_) main_v150 main_c_57
  let main_v152 : IVec S_ 1 := andi main_v146 main_v151
  let main_v153 : IVec S1x192000 32 := (extractStridedSlice S1x192000 ![0, 0] · slices_S2x192000_S1x192000_0_0) main_arg6
  let main_v154 : IVec S192000 32 := shapeCast S192000 main_v153 shapeCasts_S1x192000_S192000
  let main_c_58 : IVec S_ 32 := constantI S_ 32 0#32
  fn_part9 (F := F) main_arg6 main_arg8 main_v152 main_v154 main_c_58

def fn_part7 {F : FTy → Type} [FloatOps F] (main_arg2 : IVec S2x384000 32) (main_arg4 : IVec S2x384000 32) (main_arg6 : IVec S2x192000 32) (main_arg8 : IVec S2x192000 32) (main_arg29 : FVec F S128 .f32) (main_v118 : IVec S_ 1) (main_v119 : FVec F S128x128 .f32) : IVec S_ 1 :=
  let main_cst_46 : FVec F S_ .f32 := constant S_ .f32 0x7F800000#32
  let main_v120 : FVec F S128x128 .f32 := broadcastInDim S128x128 ![] bcast_S_S128x128 main_cst_46
  let main_v121 : IVec S128x128 1 := cmpf .olt main_v119 main_v120
  let main_c_47 : IVec S_ 1 := constantI S_ 1 1#1
  let main_v122 : IVec S_ 1 := (fun x v => Host.reduce IntOp.andi x v reducesTo_S128x128_S_d0_1 h_S_) main_v121 main_c_47
  let main_v123 : IVec S_ 1 := andi main_v118 main_v122
  let main_v124 : FVec F S128 .f32 := Host.absf main_arg29
  let main_cst_48 : FVec F S_ .f32 := constant S_ .f32 0x7F800000#32
  let main_v125 : FVec F S128 .f32 := broadcastInDim S128 ![] bcast_S_S128 main_cst_48
  let main_v126 : IVec S128 1 := cmpf .olt main_v124 main_v125
  let main_c_49 : IVec S_ 1 := constantI S_ 1 1#1
  let main_v127 : IVec S_ 1 := (fun x v => Host.reduce IntOp.andi x v reducesTo_S128_S_d0 h_S_) main_v126 main_c_49
  let main_v128 : IVec S_ 1 := andi main_v123 main_v127
  let main_v129 : IVec S1x384000 32 := (extractStridedSlice S1x384000 ![0, 0] · slices_S2x384000_S1x384000_0_0) main_arg2
  let main_v130 : IVec S384000 32 := shapeCast S384000 main_v129 shapeCasts_S1x384000_S384000
  let main_c_50 : IVec S_ 32 := constantI S_ 32 0#32
  let main_v131 : IVec S384000 32 := broadcastInDim S384000 ![] bcast_S_S384000 main_c_50
  let main_v132 : IVec S384000 1 := cmpi .sge main_v130 main_v131
  let main_c_51 : IVec S_ 1 := constantI S_ 1 1#1
  let main_v133 : IVec S_ 1 := (fun x v => Host.reduce IntOp.andi x v reducesTo_S384000_S_d0 h_S_) main_v132 main_c_51
  let main_v134 : IVec S_ 1 := andi main_v128 main_v133
  let main_v135 : IVec S1x384000 32 := (extractStridedSlice S1x384000 ![0, 0] · slices_S2x384000_S1x384000_0_0) main_arg2
  let main_v136 : IVec S384000 32 := shapeCast S384000 main_v135 shapeCasts_S1x384000_S384000
  let main_c_52 : IVec S_ 32 := constantI S_ 32 12000#32
  fn_part8 (F := F) main_arg4 main_arg6 main_arg8 main_v134 main_v136 main_c_52

def fn_part6 {F : FTy → Type} [FloatOps F] (main_arg2 : IVec S2x384000 32) (main_arg4 : IVec S2x384000 32) (main_arg6 : IVec S2x192000 32) (main_arg8 : IVec S2x192000 32) (main_arg25 : FVec F S128 .f32) (main_arg26 : FVec F S128x128 .f32) (main_arg27 : FVec F S128 .f32) (main_arg28 : FVec F S128x128 .f32) (main_arg29 : FVec F S128 .f32) (main_v98 : IVec S_ 1) (main_v101 : IVec S128x128 1) (main_c_39 : IVec S_ 1) : IVec S_ 1 :=
  let main_v102 : IVec S_ 1 := (fun x v => Host.reduce IntOp.andi x v reducesTo_S128x128_S_d0_1 h_S_) main_v101 main_c_39
  let main_v103 : IVec S_ 1 := andi main_v98 main_v102
  let main_v104 : FVec F S128 .f32 := Host.absf main_arg25
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S128x128 .f32 := Host.absf main_arg26
  let main_cst_42 : FVec F S_ .f32 := constant S_ .f32 0x7F800000#32
  let main_v110 : FVec F S128x128 .f32 := broadcastInDim S128x128 ![] bcast_S_S128x128 main_cst_42
  let main_v111 : IVec S128x128 1 := cmpf .olt main_v109 main_v110
  let main_c_43 : IVec S_ 1 := constantI S_ 1 1#1
  let main_v112 : IVec S_ 1 := (fun x v => Host.reduce IntOp.andi x v reducesTo_S128x128_S_d0_1 h_S_) main_v111 main_c_43
  let main_v113 : IVec S_ 1 := andi main_v108 main_v112
  let main_v114 : FVec F S128 .f32 := Host.absf main_arg27
  let main_cst_44 : FVec F S_ .f32 := constant S_ .f32 0x7F800000#32
  let main_v115 : FVec F S128 .f32 := broadcastInDim S128 ![] bcast_S_S128 main_cst_44
  let main_v116 : IVec S128 1 := cmpf .olt main_v114 main_v115
  let main_c_45 : IVec S_ 1 := constantI S_ 1 1#1
  let main_v117 : IVec S_ 1 := (fun x v => Host.reduce IntOp.andi x v reducesTo_S128_S_d0 h_S_) main_v116 main_c_45
  let main_v118 : IVec S_ 1 := andi main_v113 main_v117
  let main_v119 : FVec F S128x128 .f32 := Host.absf main_arg28
  fn_part7 (F := F) main_arg2 main_arg4 main_arg6 main_arg8 main_arg29 main_v118 main_v119

def fn_part5 {F : FTy → Type} [FloatOps F] (main_arg2 : IVec S2x384000 32) (main_arg4 : IVec S2x384000 32) (main_arg6 : IVec S2x192000 32) (main_arg8 : IVec S2x192000 32) (main_arg22 : FVec F S128x128 .f32) (main_arg23 : FVec F S128 .f32) (main_arg24 : FVec F S128x128 .f32) (main_arg25 : FVec F S128 .f32) (main_arg26 : FVec F S128x128 .f32) (main_arg27 : FVec F S128 .f32) (main_arg28 : FVec F S128x128 .f32) (main_arg29 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128x128 .f32 := Host.absf main_arg22
  let main_cst_34 : FVec F S_ .f32 := constant S_ .f32 0x7F800000#32
  let main_v90 : FVec F S128x128 .f32 := broadcastInDim S128x128 ![] bcast_S_S128x128 main_cst_34
  let main_v91 : IVec S128x128 1 := cmpf .olt main_v89 main_v90
  let main_c_35 : IVec S_ 1 := constantI S_ 1 1#1
  let main_v92 : IVec S_ 1 := (fun x v => Host.reduce IntOp.andi x v reducesTo_S128x128_S_d0_1 h_S_) main_v91 main_c_35
  let main_v93 : IVec S_ 1 := andi main_v88 main_v92
  let main_v94 : FVec F S128 .f32 := Host.absf main_arg23
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128x128 .f32 := Host.absf main_arg24
  let main_cst_38 : FVec F S_ .f32 := constant S_ .f32 0x7F800000#32
  let main_v100 : FVec F S128x128 .f32 := broadcastInDim S128x128 ![] bcast_S_S128x128 main_cst_38
  let main_v101 : IVec S128x128 1 := cmpf .olt main_v99 main_v100
  let main_c_39 : IVec S_ 1 := constantI S_ 1 1#1
  fn_part6 (F := F) main_arg2 main_arg4 main_arg6 main_arg8 main_arg25 main_arg26 main_arg27 main_arg28 main_arg29 main_v98 main_v101 main_c_39

def fn_part4 {F : FTy → Type} [FloatOps F] (main_arg2 : IVec S2x384000 32) (main_arg4 : IVec S2x384000 32) (main_arg6 : IVec S2x192000 32) (main_arg8 : IVec S2x192000 32) (main_arg18 : FVec F S128x128 .f32) (main_arg19 : FVec F S128 .f32) (main_arg20 : FVec F S128x128 .f32) (main_arg21 : FVec F S128 .f32) (main_arg22 : FVec F S128x128 .f32) (main_arg23 : FVec F S128 .f32) (main_arg24 : FVec F S128x128 .f32) (main_arg25 : FVec F S128 .f32) (main_arg26 : FVec F S128x128 .f32) (main_arg27 : FVec F S128 .f32) (main_arg28 : FVec F S128x128 .f32) (main_arg29 : FVec F S128 .f32) (main_v63 : IVec S_ 1) (main_v67 : IVec S_ 1) : IVec S_ 1 :=
  let main_v68 : IVec S_ 1 := andi main_v63 main_v67
  let main_v69 : FVec F S128x128 .f32 := Host.absf main_arg18
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg19
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg20
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg21
  let main_cst_32 : FVec F S_ .f32 := constant S_ .f32 0x7F800000#32
  fn_part5 (F := F) main_arg2 main_arg4 main_arg6 main_arg8 main_arg22 main_arg23 main_arg24 main_arg25 main_arg26 main_arg27 main_arg28 main_arg29 main_v83 main_v84 main_cst_32

def fn_part3 {F : FTy → Type} [FloatOps F] (main_arg2 : IVec S2x384000 32) (main_arg4 : IVec S2x384000 32) (main_arg6 : IVec S2x192000 32) (main_arg8 : IVec S2x192000 32) (main_arg15 : FVec F S128 .f32) (main_arg16 : FVec F S128x128 .f32) (main_arg17 : FVec F S128 .f32) (main_arg18 : FVec F S128x128 .f32) (main_arg19 : FVec F S128 .f32) (main_arg20 : FVec F S128x128 .f32) (main_arg21 : FVec F S128 .f32) (main_arg22 : FVec F S128x128 .f32) (main_arg23 : FVec F S128 .f32) (main_arg24 : FVec F S128x128 .f32) (main_arg25 : FVec F S128 .f32) (main_arg26 : FVec F S128x128 .f32) (main_arg27 : FVec F S128 .f32) (main_arg28 : FVec F S128x128 .f32) (main_arg29 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg15
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg16
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg17
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg2 main_arg4 main_arg6 main_arg8 main_arg18 main_arg19 main_arg20 main_arg21 main_arg22 main_arg23 main_arg24 main_arg25 main_arg26 main_arg27 main_arg28 main_arg29 main_v63 main_v67

def fn_part2 {F : FTy → Type} [FloatOps F] (main_arg2 : IVec S2x384000 32) (main_arg4 : IVec S2x384000 32) (main_arg6 : IVec S2x192000 32) (main_arg8 : IVec S2x192000 32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_arg20 : FVec F S128x128 .f32) (main_arg21 : FVec F S128 .f32) (main_arg22 : FVec F S128x128 .f32) (main_arg23 : FVec F S128 .f32) (main_arg24 : FVec F S128x128 .f32) (main_arg25 : FVec F S128 .f32) (main_arg26 : FVec F S128x128 .f32) (main_arg27 : FVec F S128 .f32) (main_arg28 : FVec F S128x128 .f32) (main_arg29 : FVec F S128 .f32) (main_v33 : IVec S_ 1) : IVec S_ 1 :=
  let main_v34 : FVec F S128 .f32 := Host.absf main_arg11
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg12
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg13
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg14
  let main_cst_18 : FVec F S_ .f32 := constant S_ .f32 0x7F800000#32
  let main_v50 : FVec F S128x128 .f32 := broadcastInDim S128x128 ![] bcast_S_S128x128 main_cst_18
  fn_part3 (F := F) main_arg2 main_arg4 main_arg6 main_arg8 main_arg15 main_arg16 main_arg17 main_arg18 main_arg19 main_arg20 main_arg21 main_arg22 main_arg23 main_arg24 main_arg25 main_arg26 main_arg27 main_arg28 main_arg29 main_v48 main_v49 main_v50

def fn_part1 {F : FTy → Type} [FloatOps F] (main_arg2 : IVec S2x384000 32) (main_arg4 : IVec S2x384000 32) (main_arg6 : IVec S2x192000 32) (main_arg7 : FVec F S192000 .f32) (main_arg8 : IVec S2x192000 32) (main_arg9 : FVec F S192000 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_arg20 : FVec F S128x128 .f32) (main_arg21 : FVec F S128 .f32) (main_arg22 : FVec F S128x128 .f32) (main_arg23 : FVec F S128 .f32) (main_arg24 : FVec F S128x128 .f32) (main_arg25 : FVec F S128 .f32) (main_arg26 : FVec F S128x128 .f32) (main_arg27 : FVec F S128 .f32) (main_arg28 : FVec F S128x128 .f32) (main_arg29 : FVec F S128 .f32) (main_v13 : IVec S_ 1) (main_v16 : IVec S384000 1) : IVec S_ 1 :=
  let main_c_5 : IVec S_ 1 := constantI S_ 1 1#1
  let main_v17 : IVec S_ 1 := (fun x v => Host.reduce IntOp.andi x v reducesTo_S384000_S_d0 h_S_) main_v16 main_c_5
  let main_v18 : IVec S_ 1 := andi main_v13 main_v17
  let main_v19 : FVec F S192000 .f32 := Host.absf main_arg7
  let main_cst_6 : FVec F S_ .f32 := constant S_ .f32 0x7F800000#32
  let main_v20 : FVec F S192000 .f32 := broadcastInDim S192000 ![] bcast_S_S192000 main_cst_6
  let main_v21 : IVec S192000 1 := cmpf .olt main_v19 main_v20
  let main_c_7 : IVec S_ 1 := constantI S_ 1 1#1
  let main_v22 : IVec S_ 1 := (fun x v => Host.reduce IntOp.andi x v reducesTo_S192000_S_d0 h_S_) main_v21 main_c_7
  let main_v23 : IVec S_ 1 := andi main_v18 main_v22
  let main_v24 : FVec F S192000 .f32 := Host.absf main_arg9
  let main_cst_8 : FVec F S_ .f32 := constant S_ .f32 0x7F800000#32
  let main_v25 : FVec F S192000 .f32 := broadcastInDim S192000 ![] bcast_S_S192000 main_cst_8
  let main_v26 : IVec S192000 1 := cmpf .olt main_v24 main_v25
  let main_c_9 : IVec S_ 1 := constantI S_ 1 1#1
  let main_v27 : IVec S_ 1 := (fun x v => Host.reduce IntOp.andi x v reducesTo_S192000_S_d0 h_S_) main_v26 main_c_9
  let main_v28 : IVec S_ 1 := andi main_v23 main_v27
  let main_v29 : FVec F S128x128 .f32 := Host.absf main_arg10
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg2 main_arg4 main_arg6 main_arg8 main_arg11 main_arg12 main_arg13 main_arg14 main_arg15 main_arg16 main_arg17 main_arg18 main_arg19 main_arg20 main_arg21 main_arg22 main_arg23 main_arg24 main_arg25 main_arg26 main_arg27 main_arg28 main_arg29 main_v33

def fn {F : FTy → Type} [FloatOps F] (main_arg0 : FVec F S12000x128 .f32) (main_arg1 : FVec F S6000x128 .f32) (main_arg2 : IVec S2x384000 32) (main_arg3 : FVec F S384000 .f32) (main_arg4 : IVec S2x384000 32) (main_arg5 : FVec F S384000 .f32) (main_arg6 : IVec S2x192000 32) (main_arg7 : FVec F S192000 .f32) (main_arg8 : IVec S2x192000 32) (main_arg9 : FVec F S192000 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_arg20 : FVec F S128x128 .f32) (main_arg21 : FVec F S128 .f32) (main_arg22 : FVec F S128x128 .f32) (main_arg23 : FVec F S128 .f32) (main_arg24 : FVec F S128x128 .f32) (main_arg25 : FVec F S128 .f32) (main_arg26 : FVec F S128x128 .f32) (main_arg27 : FVec F S128 .f32) (main_arg28 : FVec F S128x128 .f32) (main_arg29 : FVec F S128 .f32) : IVec S_ 1 :=
  let main_v0 : FVec F S12000x128 .f32 := Host.absf main_arg0
  let main_cst : FVec F S_ .f32 := constant S_ .f32 0x7F800000#32
  let main_v1 : FVec F S12000x128 .f32 := broadcastInDim S12000x128 ![] bcast_S_S12000x128 main_cst
  let main_v2 : IVec S12000x128 1 := cmpf .olt main_v0 main_v1
  let main_c : IVec S_ 1 := constantI S_ 1 1#1
  let main_v3 : IVec S_ 1 := (fun x v => Host.reduce IntOp.andi x v reducesTo_S12000x128_S_d0_1 h_S_) main_v2 main_c
  let main_v4 : FVec F S6000x128 .f32 := Host.absf main_arg1
  let main_cst_0 : FVec F S_ .f32 := constant S_ .f32 0x7F800000#32
  let main_v5 : FVec F S6000x128 .f32 := broadcastInDim S6000x128 ![] bcast_S_S6000x128 main_cst_0
  let main_v6 : IVec S6000x128 1 := cmpf .olt main_v4 main_v5
  let main_c_1 : IVec S_ 1 := constantI S_ 1 1#1
  let main_v7 : IVec S_ 1 := (fun x v => Host.reduce IntOp.andi x v reducesTo_S6000x128_S_d0_1 h_S_) main_v6 main_c_1
  let main_v8 : IVec S_ 1 := andi main_v3 main_v7
  let main_v9 : FVec F S384000 .f32 := Host.absf main_arg3
  let main_cst_2 : FVec F S_ .f32 := constant S_ .f32 0x7F800000#32
  let main_v10 : FVec F S384000 .f32 := broadcastInDim S384000 ![] bcast_S_S384000 main_cst_2
  let main_v11 : IVec S384000 1 := cmpf .olt main_v9 main_v10
  let main_c_3 : IVec S_ 1 := constantI S_ 1 1#1
  let main_v12 : IVec S_ 1 := (fun x v => Host.reduce IntOp.andi x v reducesTo_S384000_S_d0 h_S_) main_v11 main_c_3
  let main_v13 : IVec S_ 1 := andi main_v8 main_v12
  let main_v14 : FVec F S384000 .f32 := Host.absf main_arg5
  let main_cst_4 : FVec F S_ .f32 := constant S_ .f32 0x7F800000#32
  let main_v15 : FVec F S384000 .f32 := broadcastInDim S384000 ![] bcast_S_S384000 main_cst_4
  let main_v16 : IVec S384000 1 := cmpf .olt main_v14 main_v15
  fn_part1 (F := F) main_arg2 main_arg4 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_v13 main_v16
-- ==== Kernel.lean ====
abbrev S12000x128 : Shape := ⟨2, ![12000, 128]⟩
abbrev S6000x128 : Shape := ⟨2, ![6000, 128]⟩
abbrev S2x384000 : Shape := ⟨2, ![2, 384000]⟩
abbrev S384000 : Shape := ⟨1, ![384000]⟩
abbrev S2x192000 : Shape := ⟨2, ![2, 192000]⟩
abbrev S192000 : Shape := ⟨1, ![192000]⟩
abbrev S128x128 : Shape := ⟨2, ![128, 128]⟩
abbrev S128 : Shape := ⟨1, ![128]⟩
abbrev S1x384000 : Shape := ⟨2, ![1, 384000]⟩
abbrev S1200x128 : Shape := ⟨2, ![1200, 128]⟩
abbrev S_ : Shape := ⟨0, ![]⟩
abbrev S12000 : Shape := ⟨1, ![12000]⟩
abbrev S384000x1 : Shape := ⟨2, ![384000, 1]⟩
abbrev S1 : Shape := ⟨1, ![1]⟩
abbrev S1x1 : Shape := ⟨2, ![1, 1]⟩
abbrev S384000x128 : Shape := ⟨2, ![384000, 128]⟩
abbrev S12000x1 : Shape := ⟨2, ![12000, 1]⟩
abbrev S1x128 : Shape := ⟨2, ![1, 128]⟩
abbrev S1x192000 : Shape := ⟨2, ![1, 192000]⟩
abbrev S6000 : Shape := ⟨1, ![6000]⟩
abbrev S192000x1 : Shape := ⟨2, ![192000, 1]⟩
abbrev S192000x128 : Shape := ⟨2, ![192000, 128]⟩
abbrev S6000x1 : Shape := ⟨2, ![6000, 1]⟩
abbrev S12000x6000 : Shape := ⟨2, ![12000, 6000]⟩
abbrev S600x128 : Shape := ⟨2, ![600, 128]⟩
abbrev S600x6000 : Shape := ⟨2, ![600, 6000]⟩

abbrev nBuf : Space → Nat
  | .hbm => 589
  | .vmem => 121
  | .smem => 0
  | _ => 0

abbrev hbmTy0_0 (i : Nat) : BufTy := match i % 128 with
  | 0 => ⟨S12000x128, .f32⟩
  | 1 => ⟨S6000x128, .f32⟩
  | 2 => ⟨S2x384000, .i32⟩
  | 3 => ⟨S384000, .f32⟩
  | 4 => ⟨S2x384000, .i32⟩
  | 5 => ⟨S384000, .f32⟩
  | 6 => ⟨S2x192000, .i32⟩
  | 7 => ⟨S192000, .f32⟩
  | 8 => ⟨S2x192000, .i32⟩
  | 9 => ⟨S192000, .f32⟩
  | 10 => ⟨S128x128, .f32⟩
  | 11 => ⟨S128, .f32⟩
  | 12 => ⟨S128x128, .f32⟩
  | 13 => ⟨S128, .f32⟩
  | 14 => ⟨S128x128, .f32⟩
  | 15 => ⟨S128, .f32⟩
  | 16 => ⟨S128x128, .f32⟩
  | 17 => ⟨S128, .f32⟩
  | 18 => ⟨S128x128, .f32⟩
  | 19 => ⟨S128, .f32⟩
  | 20 => ⟨S128x128, .f32⟩
  | 21 => ⟨S128, .f32⟩
  | 22 => ⟨S128x128, .f32⟩
  | 23 => ⟨S128, .f32⟩
  | 24 => ⟨S128x128, .f32⟩
  | 25 => ⟨S128, .f32⟩
  | 26 => ⟨S128x128, .f32⟩
  | 27 => ⟨S128, .f32⟩
  | 28 => ⟨S128x128, .f32⟩
  | 29 => ⟨S128, .f32⟩
  | 30 => ⟨S1x384000, .i32⟩
  | 31 => ⟨S384000, .i32⟩
  | 32 => ⟨S1x384000, .i32⟩
  | 33 => ⟨S384000, .i32⟩
  | 34 => ⟨S12000x128, .f32⟩
  | 35 => ⟨S_, .f32⟩
  | 36 => ⟨S12000, .f32⟩
  | 37 => ⟨S384000x1, .i32⟩
  | 38 => ⟨S12000, .f32⟩
  | 39 => ⟨S_, .f32⟩
  | 40 => ⟨S12000, .f32⟩
  | 41 => ⟨S12000, .f32⟩
  | 42 => ⟨S12000, .f32⟩
  | 43 => ⟨S_, .i32⟩
  | 44 => ⟨S384000, .i32⟩
  | 45 => ⟨S384000, .i1⟩
  | 46 => ⟨S_, .i32⟩
  | 47 => ⟨S384000, .i32⟩
  | 48 => ⟨S384000, .i32⟩
  | 49 => ⟨S384000, .i32⟩
  | 50 => ⟨S384000x1, .i32⟩
  | 51 => ⟨S384000, .f32⟩
  | 52 => ⟨S384000, .f32⟩
  | 53 => ⟨S_, .i32⟩
  | 54 => ⟨S384000, .i32⟩
  | 55 => ⟨S384000, .i1⟩
  | 56 => ⟨S_, .i32⟩
  | 57 => ⟨S384000, .i32⟩
  | 58 => ⟨S384000, .i32⟩
  | 59 => ⟨S384000, .i32⟩
  | 60 => ⟨S384000x1, .i32⟩
  | 61 => ⟨S384000, .f32⟩
  | 62 => ⟨S384000, .f32⟩
  | 63 => ⟨S_, .i32⟩
  | 64 => ⟨S384000, .i32⟩
  | 65 => ⟨S384000, .i1⟩
  | 66 => ⟨S_, .i32⟩
  | 67 => ⟨S384000, .i32⟩
  | 68 => ⟨S384000, .i32⟩
  | 69 => ⟨S384000, .i32⟩
  | 70 => ⟨S384000x1, .i32⟩
  | 71 => ⟨S1, .i32⟩
  | 72 => ⟨S_, .i32⟩
  | 73 => ⟨S384000x1, .i32⟩
  | 74 => ⟨S384000x1, .i1⟩
  | 75 => ⟨S1x1, .i32⟩
  | 76 => ⟨S384000x1, .i32⟩
  | 77 => ⟨S384000x1, .i1⟩
  | 78 => ⟨S384000x1, .i1⟩
  | 79 => ⟨S_, .i1⟩
  | 80 => ⟨S384000, .i1⟩
  | 81 => ⟨S384000x128, .f32⟩
  | 82 => ⟨S384000x128, .i1⟩
  | 83 => ⟨S_, .f32⟩
  | 84 => ⟨S384000x128, .f32⟩
  | 85 => ⟨S384000x128, .f32⟩
  | 86 => ⟨S384000x1, .f32⟩
  | 87 => ⟨S384000x128, .f32⟩
  | 88 => ⟨S384000x128, .f32⟩
  | 89 => ⟨S_, .f32⟩
  | 90 => ⟨S12000x128, .f32⟩
  | 91 => ⟨S384000x1, .i32⟩
  | 92 => ⟨S12000x128, .f32⟩
  | 93 => ⟨S12000, .f32⟩
  | 94 => ⟨S12000x1, .f32⟩
  | 95 => ⟨S12000x128, .f32⟩
  | 96 => ⟨S12000x128, .f32⟩
  | 97 => ⟨S1x128, .f32⟩
  | 98 => ⟨S12000x128, .f32⟩
  | 99 => ⟨S1x384000, .i32⟩
  | 100 => ⟨S384000, .i32⟩
  | 101 => ⟨S1x384000, .i32⟩
  | 102 => ⟨S384000, .i32⟩
  | 103 => ⟨S12000x128, .f32⟩
  | 104 => ⟨S_, .f32⟩
  | 105 => ⟨S12000, .f32⟩
  | 106 => ⟨S384000x1, .i32⟩
  | 107 => ⟨S12000, .f32⟩
  | 108 => ⟨S_, .f32⟩
  | 109 => ⟨S12000, .f32⟩
  | 110 => ⟨S12000, .f32⟩
  | 111 => ⟨S12000, .f32⟩
  | 112 => ⟨S_, .i32⟩
  | 113 => ⟨S384000, .i32⟩
  | 114 => ⟨S384000, .i1⟩
  | 115 => ⟨S_, .i32⟩
  | 116 => ⟨S384000, .i32⟩
  | 117 => ⟨S384000, .i32⟩
  | 118 => ⟨S384000, .i32⟩
  | 119 => ⟨S384000x1, .i32⟩
  | 120 => ⟨S384000, .f32⟩
  | 121 => ⟨S384000, .f32⟩
  | 122 => ⟨S_, .i32⟩
  | 123 => ⟨S384000, .i32⟩
  | 124 => ⟨S384000, .i1⟩
  | 125 => ⟨S_, .i32⟩
  | 126 => ⟨S384000, .i32⟩
  | 127 => ⟨S384000, .i32⟩
  | _ => ⟨S12000x128, .f32⟩

abbrev hbmTy0_1 (i : Nat) : BufTy := match i % 128 with
  | 0 => ⟨S384000, .i32⟩
  | 1 => ⟨S384000x1, .i32⟩
  | 2 => ⟨S384000, .f32⟩
  | 3 => ⟨S384000, .f32⟩
  | 4 => ⟨S_, .i32⟩
  | 5 => ⟨S384000, .i32⟩
  | 6 => ⟨S384000, .i1⟩
  | 7 => ⟨S_, .i32⟩
  | 8 => ⟨S384000, .i32⟩
  | 9 => ⟨S384000, .i32⟩
  | 10 => ⟨S384000, .i32⟩
  | 11 => ⟨S384000x1, .i32⟩
  | 12 => ⟨S1, .i32⟩
  | 13 => ⟨S_, .i32⟩
  | 14 => ⟨S384000x1, .i32⟩
  | 15 => ⟨S384000x1, .i1⟩
  | 16 => ⟨S1x1, .i32⟩
  | 17 => ⟨S384000x1, .i32⟩
  | 18 => ⟨S384000x1, .i1⟩
  | 19 => ⟨S384000x1, .i1⟩
  | 20 => ⟨S_, .i1⟩
  | 21 => ⟨S384000, .i1⟩
  | 22 => ⟨S384000x128, .f32⟩
  | 23 => ⟨S384000x128, .i1⟩
  | 24 => ⟨S_, .f32⟩
  | 25 => ⟨S384000x128, .f32⟩
  | 26 => ⟨S384000x128, .f32⟩
  | 27 => ⟨S384000x1, .f32⟩
  | 28 => ⟨S384000x128, .f32⟩
  | 29 => ⟨S384000x128, .f32⟩
  | 30 => ⟨S_, .f32⟩
  | 31 => ⟨S12000x128, .f32⟩
  | 32 => ⟨S384000x1, .i32⟩
  | 33 => ⟨S12000x128, .f32⟩
  | 34 => ⟨S12000, .f32⟩
  | 35 => ⟨S12000x1, .f32⟩
  | 36 => ⟨S12000x128, .f32⟩
  | 37 => ⟨S12000x128, .f32⟩
  | 38 => ⟨S1x128, .f32⟩
  | 39 => ⟨S12000x128, .f32⟩
  | 40 => ⟨S1x384000, .i32⟩
  | 41 => ⟨S384000, .i32⟩
  | 42 => ⟨S1x384000, .i32⟩
  | 43 => ⟨S384000, .i32⟩
  | 44 => ⟨S12000x128, .f32⟩
  | 45 => ⟨S_, .f32⟩
  | 46 => ⟨S12000, .f32⟩
  | 47 => ⟨S384000x1, .i32⟩
  | 48 => ⟨S12000, .f32⟩
  | 49 => ⟨S_, .f32⟩
  | 50 => ⟨S12000, .f32⟩
  | 51 => ⟨S12000, .f32⟩
  | 52 => ⟨S12000, .f32⟩
  | 53 => ⟨S_, .i32⟩
  | 54 => ⟨S384000, .i32⟩
  | 55 => ⟨S384000, .i1⟩
  | 56 => ⟨S_, .i32⟩
  | 57 => ⟨S384000, .i32⟩
  | 58 => ⟨S384000, .i32⟩
  | 59 => ⟨S384000, .i32⟩
  | 60 => ⟨S384000x1, .i32⟩
  | 61 => ⟨S384000, .f32⟩
  | 62 => ⟨S384000, .f32⟩
  | 63 => ⟨S_, .i32⟩
  | 64 => ⟨S384000, .i32⟩
  | 65 => ⟨S384000, .i1⟩
  | 66 => ⟨S_, .i32⟩
  | 67 => ⟨S384000, .i32⟩
  | 68 => ⟨S384000, .i32⟩
  | 69 => ⟨S384000, .i32⟩
  | 70 => ⟨S384000x1, .i32⟩
  | 71 => ⟨S384000, .f32⟩
  | 72 => ⟨S384000, .f32⟩
  | 73 => ⟨S_, .i32⟩
  | 74 => ⟨S384000, .i32⟩
  | 75 => ⟨S384000, .i1⟩
  | 76 => ⟨S_, .i32⟩
  | 77 => ⟨S384000, .i32⟩
  | 78 => ⟨S384000, .i32⟩
  | 79 => ⟨S384000, .i32⟩
  | 80 => ⟨S384000x1, .i32⟩
  | 81 => ⟨S1, .i32⟩
  | 82 => ⟨S_, .i32⟩
  | 83 => ⟨S384000x1, .i32⟩
  | 84 => ⟨S384000x1, .i1⟩
  | 85 => ⟨S1x1, .i32⟩
  | 86 => ⟨S384000x1, .i32⟩
  | 87 => ⟨S384000x1, .i1⟩
  | 88 => ⟨S384000x1, .i1⟩
  | 89 => ⟨S_, .i1⟩
  | 90 => ⟨S384000, .i1⟩
  | 91 => ⟨S384000x128, .f32⟩
  | 92 => ⟨S384000x128, .i1⟩
  | 93 => ⟨S_, .f32⟩
  | 94 => ⟨S384000x128, .f32⟩
  | 95 => ⟨S384000x128, .f32⟩
  | 96 => ⟨S384000x1, .f32⟩
  | 97 => ⟨S384000x128, .f32⟩
  | 98 => ⟨S384000x128, .f32⟩
  | 99 => ⟨S_, .f32⟩
  | 100 => ⟨S12000x128, .f32⟩
  | 101 => ⟨S384000x1, .i32⟩
  | 102 => ⟨S12000x128, .f32⟩
  | 103 => ⟨S12000, .f32⟩
  | 104 => ⟨S12000x1, .f32⟩
  | 105 => ⟨S12000x128, .f32⟩
  | 106 => ⟨S12000x128, .f32⟩
  | 107 => ⟨S1x128, .f32⟩
  | 108 => ⟨S12000x128, .f32⟩
  | 109 => ⟨S1x384000, .i32⟩
  | 110 => ⟨S384000, .i32⟩
  | 111 => ⟨S1x384000, .i32⟩
  | 112 => ⟨S384000, .i32⟩
  | 113 => ⟨S12000x128, .f32⟩
  | 114 => ⟨S_, .f32⟩
  | 115 => ⟨S12000, .f32⟩
  | 116 => ⟨S384000x1, .i32⟩
  | 117 => ⟨S12000, .f32⟩
  | 118 => ⟨S_, .f32⟩
  | 119 => ⟨S12000, .f32⟩
  | 120 => ⟨S12000, .f32⟩
  | 121 => ⟨S12000, .f32⟩
  | 122 => ⟨S_, .i32⟩
  | 123 => ⟨S384000, .i32⟩
  | 124 => ⟨S384000, .i1⟩
  | 125 => ⟨S_, .i32⟩
  | 126 => ⟨S384000, .i32⟩
  | 127 => ⟨S384000, .i32⟩
  | _ => ⟨S12000x128, .f32⟩

abbrev hbmTy0_2 (i : Nat) : BufTy := match i % 128 with
  | 0 => ⟨S384000, .i32⟩
  | 1 => ⟨S384000x1, .i32⟩
  | 2 => ⟨S384000, .f32⟩
  | 3 => ⟨S384000, .f32⟩
  | 4 => ⟨S_, .i32⟩
  | 5 => ⟨S384000, .i32⟩
  | 6 => ⟨S384000, .i1⟩
  | 7 => ⟨S_, .i32⟩
  | 8 => ⟨S384000, .i32⟩
  | 9 => ⟨S384000, .i32⟩
  | 10 => ⟨S384000, .i32⟩
  | 11 => ⟨S384000x1, .i32⟩
  | 12 => ⟨S384000, .f32⟩
  | 13 => ⟨S384000, .f32⟩
  | 14 => ⟨S_, .i32⟩
  | 15 => ⟨S384000, .i32⟩
  | 16 => ⟨S384000, .i1⟩
  | 17 => ⟨S_, .i32⟩
  | 18 => ⟨S384000, .i32⟩
  | 19 => ⟨S384000, .i32⟩
  | 20 => ⟨S384000, .i32⟩
  | 21 => ⟨S384000x1, .i32⟩
  | 22 => ⟨S1, .i32⟩
  | 23 => ⟨S_, .i32⟩
  | 24 => ⟨S384000x1, .i32⟩
  | 25 => ⟨S384000x1, .i1⟩
  | 26 => ⟨S1x1, .i32⟩
  | 27 => ⟨S384000x1, .i32⟩
  | 28 => ⟨S384000x1, .i1⟩
  | 29 => ⟨S384000x1, .i1⟩
  | 30 => ⟨S_, .i1⟩
  | 31 => ⟨S384000, .i1⟩
  | 32 => ⟨S384000x128, .f32⟩
  | 33 => ⟨S384000x128, .i1⟩
  | 34 => ⟨S_, .f32⟩
  | 35 => ⟨S384000x128, .f32⟩
  | 36 => ⟨S384000x128, .f32⟩
  | 37 => ⟨S384000x1, .f32⟩
  | 38 => ⟨S384000x128, .f32⟩
  | 39 => ⟨S384000x128, .f32⟩
  | 40 => ⟨S_, .f32⟩
  | 41 => ⟨S12000x128, .f32⟩
  | 42 => ⟨S384000x1, .i32⟩
  | 43 => ⟨S12000x128, .f32⟩
  | 44 => ⟨S12000, .f32⟩
  | 45 => ⟨S12000x1, .f32⟩
  | 46 => ⟨S12000x128, .f32⟩
  | 47 => ⟨S12000x128, .f32⟩
  | 48 => ⟨S1x128, .f32⟩
  | 49 => ⟨S12000x128, .f32⟩
  | 50 => ⟨S1x192000, .i32⟩
  | 51 => ⟨S192000, .i32⟩
  | 52 => ⟨S1x192000, .i32⟩
  | 53 => ⟨S192000, .i32⟩
  | 54 => ⟨S6000x128, .f32⟩
  | 55 => ⟨S_, .f32⟩
  | 56 => ⟨S6000, .f32⟩
  | 57 => ⟨S192000x1, .i32⟩
  | 58 => ⟨S6000, .f32⟩
  | 59 => ⟨S_, .f32⟩
  | 60 => ⟨S6000, .f32⟩
  | 61 => ⟨S6000, .f32⟩
  | 62 => ⟨S6000, .f32⟩
  | 63 => ⟨S_, .i32⟩
  | 64 => ⟨S192000, .i32⟩
  | 65 => ⟨S192000, .i1⟩
  | 66 => ⟨S_, .i32⟩
  | 67 => ⟨S192000, .i32⟩
  | 68 => ⟨S192000, .i32⟩
  | 69 => ⟨S192000, .i32⟩
  | 70 => ⟨S192000x1, .i32⟩
  | 71 => ⟨S192000, .f32⟩
  | 72 => ⟨S192000, .f32⟩
  | 73 => ⟨S_, .i32⟩
  | 74 => ⟨S192000, .i32⟩
  | 75 => ⟨S192000, .i1⟩
  | 76 => ⟨S_, .i32⟩
  | 77 => ⟨S192000, .i32⟩
  | 78 => ⟨S192000, .i32⟩
  | 79 => ⟨S192000, .i32⟩
  | 80 => ⟨S192000x1, .i32⟩
  | 81 => ⟨S192000, .f32⟩
  | 82 => ⟨S192000, .f32⟩
  | 83 => ⟨S_, .i32⟩
  | 84 => ⟨S192000, .i32⟩
  | 85 => ⟨S192000, .i1⟩
  | 86 => ⟨S_, .i32⟩
  | 87 => ⟨S192000, .i32⟩
  | 88 => ⟨S192000, .i32⟩
  | 89 => ⟨S192000, .i32⟩
  | 90 => ⟨S192000x1, .i32⟩
  | 91 => ⟨S1, .i32⟩
  | 92 => ⟨S_, .i32⟩
  | 93 => ⟨S192000x1, .i32⟩
  | 94 => ⟨S192000x1, .i1⟩
  | 95 => ⟨S1x1, .i32⟩
  | 96 => ⟨S192000x1, .i32⟩
  | 97 => ⟨S192000x1, .i1⟩
  | 98 => ⟨S192000x1, .i1⟩
  | 99 => ⟨S_, .i1⟩
  | 100 => ⟨S192000, .i1⟩
  | 101 => ⟨S192000x128, .f32⟩
  | 102 => ⟨S192000x128, .i1⟩
  | 103 => ⟨S_, .f32⟩
  | 104 => ⟨S192000x128, .f32⟩
  | 105 => ⟨S192000x128, .f32⟩
  | 106 => ⟨S192000x1, .f32⟩
  | 107 => ⟨S192000x128, .f32⟩
  | 108 => ⟨S192000x128, .f32⟩
  | 109 => ⟨S_, .f32⟩
  | 110 => ⟨S6000x128, .f32⟩
  | 111 => ⟨S192000x1, .i32⟩
  | 112 => ⟨S6000x128, .f32⟩
  | 113 => ⟨S6000, .f32⟩
  | 114 => ⟨S6000x1, .f32⟩
  | 115 => ⟨S6000x128, .f32⟩
  | 116 => ⟨S6000x128, .f32⟩
  | 117 => ⟨S1x128, .f32⟩
  | 118 => ⟨S6000x128, .f32⟩
  | 119 => ⟨S1x192000, .i32⟩
  | 120 => ⟨S192000, .i32⟩
  | 121 => ⟨S1x192000, .i32⟩
  | 122 => ⟨S192000, .i32⟩
  | 123 => ⟨S6000x128, .f32⟩
  | 124 => ⟨S_, .f32⟩
  | 125 => ⟨S6000, .f32⟩
  | 126 => ⟨S192000x1, .i32⟩
  | 127 => ⟨S6000, .f32⟩
  | _ => ⟨S12000x128, .f32⟩

abbrev hbmTy0_3 (i : Nat) : BufTy := match i % 128 with
  | 0 => ⟨S_, .f32⟩
  | 1 => ⟨S6000, .f32⟩
  | 2 => ⟨S6000, .f32⟩
  | 3 => ⟨S6000, .f32⟩
  | 4 => ⟨S_, .i32⟩
  | 5 => ⟨S192000, .i32⟩
  | 6 => ⟨S192000, .i1⟩
  | 7 => ⟨S_, .i32⟩
  | 8 => ⟨S192000, .i32⟩
  | 9 => ⟨S192000, .i32⟩
  | 10 => ⟨S192000, .i32⟩
  | 11 => ⟨S192000x1, .i32⟩
  | 12 => ⟨S192000, .f32⟩
  | 13 => ⟨S192000, .f32⟩
  | 14 => ⟨S_, .i32⟩
  | 15 => ⟨S192000, .i32⟩
  | 16 => ⟨S192000, .i1⟩
  | 17 => ⟨S_, .i32⟩
  | 18 => ⟨S192000, .i32⟩
  | 19 => ⟨S192000, .i32⟩
  | 20 => ⟨S192000, .i32⟩
  | 21 => ⟨S192000x1, .i32⟩
  | 22 => ⟨S192000, .f32⟩
  | 23 => ⟨S192000, .f32⟩
  | 24 => ⟨S_, .i32⟩
  | 25 => ⟨S192000, .i32⟩
  | 26 => ⟨S192000, .i1⟩
  | 27 => ⟨S_, .i32⟩
  | 28 => ⟨S192000, .i32⟩
  | 29 => ⟨S192000, .i32⟩
  | 30 => ⟨S192000, .i32⟩
  | 31 => ⟨S192000x1, .i32⟩
  | 32 => ⟨S1, .i32⟩
  | 33 => ⟨S_, .i32⟩
  | 34 => ⟨S192000x1, .i32⟩
  | 35 => ⟨S192000x1, .i1⟩
  | 36 => ⟨S1x1, .i32⟩
  | 37 => ⟨S192000x1, .i32⟩
  | 38 => ⟨S192000x1, .i1⟩
  | 39 => ⟨S192000x1, .i1⟩
  | 40 => ⟨S_, .i1⟩
  | 41 => ⟨S192000, .i1⟩
  | 42 => ⟨S192000x128, .f32⟩
  | 43 => ⟨S192000x128, .i1⟩
  | 44 => ⟨S_, .f32⟩
  | 45 => ⟨S192000x128, .f32⟩
  | 46 => ⟨S192000x128, .f32⟩
  | 47 => ⟨S192000x1, .f32⟩
  | 48 => ⟨S192000x128, .f32⟩
  | 49 => ⟨S192000x128, .f32⟩
  | 50 => ⟨S_, .f32⟩
  | 51 => ⟨S6000x128, .f32⟩
  | 52 => ⟨S192000x1, .i32⟩
  | 53 => ⟨S6000x128, .f32⟩
  | 54 => ⟨S6000, .f32⟩
  | 55 => ⟨S6000x1, .f32⟩
  | 56 => ⟨S6000x128, .f32⟩
  | 57 => ⟨S6000x128, .f32⟩
  | 58 => ⟨S1x128, .f32⟩
  | 59 => ⟨S6000x128, .f32⟩
  | 60 => ⟨S1x192000, .i32⟩
  | 61 => ⟨S192000, .i32⟩
  | 62 => ⟨S1x192000, .i32⟩
  | 63 => ⟨S192000, .i32⟩
  | 64 => ⟨S6000x128, .f32⟩
  | 65 => ⟨S_, .f32⟩
  | 66 => ⟨S6000, .f32⟩
  | 67 => ⟨S192000x1, .i32⟩
  | 68 => ⟨S6000, .f32⟩
  | 69 => ⟨S_, .f32⟩
  | 70 => ⟨S6000, .f32⟩
  | 71 => ⟨S6000, .f32⟩
  | 72 => ⟨S6000, .f32⟩
  | 73 => ⟨S_, .i32⟩
  | 74 => ⟨S192000, .i32⟩
  | 75 => ⟨S192000, .i1⟩
  | 76 => ⟨S_, .i32⟩
  | 77 => ⟨S192000, .i32⟩
  | 78 => ⟨S192000, .i32⟩
  | 79 => ⟨S192000, .i32⟩
  | 80 => ⟨S192000x1, .i32⟩
  | 81 => ⟨S192000, .f32⟩
  | 82 => ⟨S192000, .f32⟩
  | 83 => ⟨S_, .i32⟩
  | 84 => ⟨S192000, .i32⟩
  | 85 => ⟨S192000, .i1⟩
  | 86 => ⟨S_, .i32⟩
  | 87 => ⟨S192000, .i32⟩
  | 88 => ⟨S192000, .i32⟩
  | 89 => ⟨S192000, .i32⟩
  | 90 => ⟨S192000x1, .i32⟩
  | 91 => ⟨S192000, .f32⟩
  | 92 => ⟨S192000, .f32⟩
  | 93 => ⟨S_, .i32⟩
  | 94 => ⟨S192000, .i32⟩
  | 95 => ⟨S192000, .i1⟩
  | 96 => ⟨S_, .i32⟩
  | 97 => ⟨S192000, .i32⟩
  | 98 => ⟨S192000, .i32⟩
  | 99 => ⟨S192000, .i32⟩
  | 100 => ⟨S192000x1, .i32⟩
  | 101 => ⟨S1, .i32⟩
  | 102 => ⟨S_, .i32⟩
  | 103 => ⟨S192000x1, .i32⟩
  | 104 => ⟨S192000x1, .i1⟩
  | 105 => ⟨S1x1, .i32⟩
  | 106 => ⟨S192000x1, .i32⟩
  | 107 => ⟨S192000x1, .i1⟩
  | 108 => ⟨S192000x1, .i1⟩
  | 109 => ⟨S_, .i1⟩
  | 110 => ⟨S192000, .i1⟩
  | 111 => ⟨S192000x128, .f32⟩
  | 112 => ⟨S192000x128, .i1⟩
  | 113 => ⟨S_, .f32⟩
  | 114 => ⟨S192000x128, .f32⟩
  | 115 => ⟨S192000x128, .f32⟩
  | 116 => ⟨S192000x1, .f32⟩
  | 117 => ⟨S192000x128, .f32⟩
  | 118 => ⟨S192000x128, .f32⟩
  | 119 => ⟨S_, .f32⟩
  | 120 => ⟨S6000x128, .f32⟩
  | 121 => ⟨S192000x1, .i32⟩
  | 122 => ⟨S6000x128, .f32⟩
  | 123 => ⟨S6000, .f32⟩
  | 124 => ⟨S6000x1, .f32⟩
  | 125 => ⟨S6000x128, .f32⟩
  | 126 => ⟨S6000x128, .f32⟩
  | 127 => ⟨S1x128, .f32⟩
  | _ => ⟨S12000x128, .f32⟩

abbrev hbmTy0_4 (i : Nat) : BufTy := match i % 128 with
  | 0 => ⟨S6000x128, .f32⟩
  | 1 => ⟨S1x192000, .i32⟩
  | 2 => ⟨S192000, .i32⟩
  | 3 => ⟨S1x192000, .i32⟩
  | 4 => ⟨S192000, .i32⟩
  | 5 => ⟨S6000x128, .f32⟩
  | 6 => ⟨S_, .f32⟩
  | 7 => ⟨S6000, .f32⟩
  | 8 => ⟨S192000x1, .i32⟩
  | 9 => ⟨S6000, .f32⟩
  | 10 => ⟨S_, .f32⟩
  | 11 => ⟨S6000, .f32⟩
  | 12 => ⟨S6000, .f32⟩
  | 13 => ⟨S6000, .f32⟩
  | 14 => ⟨S_, .i32⟩
  | 15 => ⟨S192000, .i32⟩
  | 16 => ⟨S192000, .i1⟩
  | 17 => ⟨S_, .i32⟩
  | 18 => ⟨S192000, .i32⟩
  | 19 => ⟨S192000, .i32⟩
  | 20 => ⟨S192000, .i32⟩
  | 21 => ⟨S192000x1, .i32⟩
  | 22 => ⟨S192000, .f32⟩
  | 23 => ⟨S192000, .f32⟩
  | 24 => ⟨S_, .i32⟩
  | 25 => ⟨S192000, .i32⟩
  | 26 => ⟨S192000, .i1⟩
  | 27 => ⟨S_, .i32⟩
  | 28 => ⟨S192000, .i32⟩
  | 29 => ⟨S192000, .i32⟩
  | 30 => ⟨S192000, .i32⟩
  | 31 => ⟨S192000x1, .i32⟩
  | 32 => ⟨S192000, .f32⟩
  | 33 => ⟨S192000, .f32⟩
  | 34 => ⟨S_, .i32⟩
  | 35 => ⟨S192000, .i32⟩
  | 36 => ⟨S192000, .i1⟩
  | 37 => ⟨S_, .i32⟩
  | 38 => ⟨S192000, .i32⟩
  | 39 => ⟨S192000, .i32⟩
  | 40 => ⟨S192000, .i32⟩
  | 41 => ⟨S192000x1, .i32⟩
  | 42 => ⟨S1, .i32⟩
  | 43 => ⟨S_, .i32⟩
  | 44 => ⟨S192000x1, .i32⟩
  | 45 => ⟨S192000x1, .i1⟩
  | 46 => ⟨S1x1, .i32⟩
  | 47 => ⟨S192000x1, .i32⟩
  | 48 => ⟨S192000x1, .i1⟩
  | 49 => ⟨S192000x1, .i1⟩
  | 50 => ⟨S_, .i1⟩
  | 51 => ⟨S192000, .i1⟩
  | 52 => ⟨S192000x128, .f32⟩
  | 53 => ⟨S192000x128, .i1⟩
  | 54 => ⟨S_, .f32⟩
  | 55 => ⟨S192000x128, .f32⟩
  | 56 => ⟨S192000x128, .f32⟩
  | 57 => ⟨S192000x1, .f32⟩
  | 58 => ⟨S192000x128, .f32⟩
  | 59 => ⟨S192000x128, .f32⟩
  | 60 => ⟨S_, .f32⟩
  | 61 => ⟨S6000x128, .f32⟩
  | 62 => ⟨S192000x1, .i32⟩
  | 63 => ⟨S6000x128, .f32⟩
  | 64 => ⟨S6000, .f32⟩
  | 65 => ⟨S6000x1, .f32⟩
  | 66 => ⟨S6000x128, .f32⟩
  | 67 => ⟨S6000x128, .f32⟩
  | 68 => ⟨S1x128, .f32⟩
  | 69 => ⟨S6000x128, .f32⟩
  | 70 => ⟨S1x128, .f32⟩
  | 71 => ⟨S1x128, .f32⟩
  | 72 => ⟨S12000x128, .f32⟩
  | 73 => ⟨S1x128, .f32⟩
  | 74 => ⟨S1x128, .f32⟩
  | 75 => ⟨S6000x128, .f32⟩
  | 76 => ⟨S12000x6000, .f32⟩
  | _ => ⟨S12000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S12000x128, .f32⟩

abbrev bufTy : (tb : Table) → Fin (tcTables nBuf tb) → BufTy
  | .hbm, ⟨i, _⟩ => hbmTy i
  | .local _ .vmem, ⟨0, _⟩ => ⟨S1200x128, .f32⟩
  | .local _ .vmem, ⟨1, _⟩ => ⟨S1200x128, .f32⟩
  | .local _ .vmem, ⟨2, _⟩ => ⟨S128x128, .f32⟩
  | .local _ .vmem, ⟨3, _⟩ => ⟨S1200x128, .f32⟩
  | .local _ .vmem, ⟨4, _⟩ => ⟨S1200x128, .f32⟩
  | .local _ .vmem, ⟨5, _⟩ => ⟨S1200x128, .f32⟩
  | .local _ .vmem, ⟨6, _⟩ => ⟨S1200x128, .f32⟩
  | .local _ .vmem, ⟨7, _⟩ => ⟨S1200x128, .f32⟩
  | .local _ .vmem, ⟨8, _⟩ => ⟨S1200x128, .f32⟩
  | .local _ .vmem, ⟨9, _⟩ => ⟨S1x128, .f32⟩
  | .local _ .vmem, ⟨10, _⟩ => ⟨S1200x128, .f32⟩
  | .local _ .vmem, ⟨11, _⟩ => ⟨S1200x128, .f32⟩
  | .local _ .vmem, ⟨12, _⟩ => ⟨S1200x128, .f32⟩
  | .local _ .vmem, ⟨13, _⟩ => ⟨S1200x128, .f32⟩
  | .local _ .vmem, ⟨14, _⟩ => ⟨S128x128, .f32⟩
  | .local _ .vmem, ⟨15, _⟩ => ⟨S1200x128, .f32⟩
  | .local _ .vmem, ⟨16, _⟩ => ⟨S1200x128, .f32⟩
  | .local _ .vmem, ⟨17, _⟩ => ⟨S1200x128, .f32⟩
  | .local _ .vmem, ⟨18, _⟩ => ⟨S1200x128, .f32⟩
  | .local _ .vmem, ⟨19, _⟩ => ⟨S1200x128, .f32⟩
  | .local _ .vmem, ⟨20, _⟩ => ⟨S1200x128, .f32⟩
  | .local _ .vmem, ⟨21, _⟩ => ⟨S1x128, .f32⟩
  | .local _ .vmem, ⟨22, _⟩ => ⟨S1200x128, .f32⟩
  | .local _ .vmem, ⟨23, _⟩ => ⟨S1200x128, .f32⟩
  | .local _ .vmem, ⟨24, _⟩ => ⟨S1200x128, .f32⟩
  | .local _ .vmem, ⟨25, _⟩ => ⟨S1200x128, .f32⟩
  | .local _ .vmem, ⟨26, _⟩ => ⟨S128x128, .f32⟩
  | .local _ .vmem, ⟨27, _⟩ => ⟨S1200x128, .f32⟩
  | .local _ .vmem, ⟨28, _⟩ => ⟨S1200x128, .f32⟩
  | .local _ .vmem, ⟨29, _⟩ => ⟨S1200x128, .f32⟩
  | .local _ .vmem, ⟨30, _⟩ => ⟨S1200x128, .f32⟩
  | .local _ .vmem, ⟨31, _⟩ => ⟨S1200x128, .f32⟩
  | .local _ .vmem, ⟨32, _⟩ => ⟨S1200x128, .f32⟩
  | .local _ .vmem, ⟨33, _⟩ => ⟨S1x128, .f32⟩
  | .local _ .vmem, ⟨34, _⟩ => ⟨S1200x128, .f32⟩
  | .local _ .vmem, ⟨35, _⟩ => ⟨S1200x128, .f32⟩
  | .local _ .vmem, ⟨36, _⟩ => ⟨S1200x128, .f32⟩
  | .local _ .vmem, ⟨37, _⟩ => ⟨S1200x128, .f32⟩
  | .local _ .vmem, ⟨38, _⟩ => ⟨S128x128, .f32⟩
  | .local _ .vmem, ⟨39, _⟩ => ⟨S1200x128, .f32⟩
  | .local _ .vmem, ⟨40, _⟩ => ⟨S1200x128, .f32⟩
  | .local _ .vmem, ⟨41, _⟩ => ⟨S1200x128, .f32⟩
  | .local _ .vmem, ⟨42, _⟩ => ⟨S1200x128, .f32⟩
  | .local _ .vmem, ⟨43, _⟩ => ⟨S1200x128, .f32⟩
  | .local _ .vmem, ⟨44, _⟩ => ⟨S1200x128, .f32⟩
  | .local _ .vmem, ⟨45, _⟩ => ⟨S1x128, .f32⟩
  | .local _ .vmem, ⟨46, _⟩ => ⟨S1200x128, .f32⟩
  | .local _ .vmem, ⟨47, _⟩ => ⟨S1200x128, .f32⟩
  | .local _ .vmem, ⟨48, _⟩ => ⟨S1200x128, .f32⟩
  | .local _ .vmem, ⟨49, _⟩ => ⟨S1200x128, .f32⟩
  | .local _ .vmem, ⟨50, _⟩ => ⟨S128x128, .f32⟩
  | .local _ .vmem, ⟨51, _⟩ => ⟨S1200x128, .f32⟩
  | .local _ .vmem, ⟨52, _⟩ => ⟨S1200x128, .f32⟩
  | .local _ .vmem, ⟨53, _⟩ => ⟨S1200x128, .f32⟩
  | .local _ .vmem, ⟨54, _⟩ => ⟨S1200x128, .f32⟩
  | .local _ .vmem, ⟨55, _⟩ => ⟨S1200x128, .f32⟩
  | .local _ .vmem, ⟨56, _⟩ => ⟨S1200x128, .f32⟩
  | .local _ .vmem, ⟨57, _⟩ => ⟨S1x128, .f32⟩
  | .local _ .vmem, ⟨58, _⟩ => ⟨S1200x128, .f32⟩
  | .local _ .vmem, ⟨59, _⟩ => ⟨S1200x128, .f32⟩
  | .local _ .vmem, ⟨60, _⟩ => ⟨S1200x128, .f32⟩
  | .local _ .vmem, ⟨61, _⟩ => ⟨S1200x128, .f32⟩
  | .local _ .vmem, ⟨62, _⟩ => ⟨S128x128, .f32⟩
  | .local _ .vmem, ⟨63, _⟩ => ⟨S1200x128, .f32⟩
  | .local _ .vmem, ⟨64, _⟩ => ⟨S1200x128, .f32⟩
  | .local _ .vmem, ⟨65, _⟩ => ⟨S1200x128, .f32⟩
  | .local _ .vmem, ⟨66, _⟩ => ⟨S1200x128, .f32⟩
  | .local _ .vmem, ⟨67, _⟩ => ⟨S1200x128, .f32⟩
  | .local _ .vmem, ⟨68, _⟩ => ⟨S1200x128, .f32⟩
  | .local _ .vmem, ⟨69, _⟩ => ⟨S1x128, .f32⟩
  | .local _ .vmem, ⟨70, _⟩ => ⟨S1200x128, .f32⟩
  | .local _ .vmem, ⟨71, _⟩ => ⟨S1200x128, .f32⟩
  | .local _ .vmem, ⟨72, _⟩ => ⟨S1200x128, .f32⟩
  | .local _ .vmem, ⟨73, _⟩ => ⟨S1200x128, .f32⟩
  | .local _ .vmem, ⟨74, _⟩ => ⟨S128x128, .f32⟩
  | .local _ .vmem, ⟨75, _⟩ => ⟨S1200x128, .f32⟩
  | .local _ .vmem, ⟨76, _⟩ => ⟨S1200x128, .f32⟩
  | .local _ .vmem, ⟨77, _⟩ => ⟨S1200x128, .f32⟩
  | .local _ .vmem, ⟨78, _⟩ => ⟨S1200x128, .f32⟩
  | .local _ .vmem, ⟨79, _⟩ => ⟨S1200x128, .f32⟩
  | .local _ .vmem, ⟨80, _⟩ => ⟨S1200x128, .f32⟩
  | .local _ .vmem, ⟨81, _⟩ => ⟨S1x128, .f32⟩
  | .local _ .vmem, ⟨82, _⟩ => ⟨S1200x128, .f32⟩
  | .local _ .vmem, ⟨83, _⟩ => ⟨S1200x128, .f32⟩
  | .local _ .vmem, ⟨84, _⟩ => ⟨S1200x128, .f32⟩
  | .local _ .vmem, ⟨85, _⟩ => ⟨S1200x128, .f32⟩
  | .local _ .vmem, ⟨86, _⟩ => ⟨S128x128, .f32⟩
  | .local _ .vmem, ⟨87, _⟩ => ⟨S1200x128, .f32⟩
  | .local _ .vmem, ⟨88, _⟩ => ⟨S1200x128, .f32⟩
  | .local _ .vmem, ⟨89, _⟩ => ⟨S1200x128, .f32⟩
  | .local _ .vmem, ⟨90, _⟩ => ⟨S1200x128, .f32⟩
  | .local _ .vmem, ⟨91, _⟩ => ⟨S1200x128, .f32⟩
  | .local _ .vmem, ⟨92, _⟩ => ⟨S1200x128, .f32⟩
  | .local _ .vmem, ⟨93, _⟩ => ⟨S1x128, .f32⟩
  | .local _ .vmem, ⟨94, _⟩ => ⟨S1200x128, .f32⟩
  | .local _ .vmem, ⟨95, _⟩ => ⟨S1200x128, .f32⟩
  | .local _ .vmem, ⟨96, _⟩ => ⟨S1200x128, .f32⟩
  | .local _ .vmem, ⟨97, _⟩ => ⟨S1200x128, .f32⟩
  | .local _ .vmem, ⟨98, _⟩ => ⟨S128x128, .f32⟩
  | .local _ .vmem, ⟨99, _⟩ => ⟨S1x128, .f32⟩
  | .local _ .vmem, ⟨100, _⟩ => ⟨S1200x128, .f32⟩
  | .local _ .vmem, ⟨101, _⟩ => ⟨S1200x128, .f32⟩
  | .local _ .vmem, ⟨102, _⟩ => ⟨S128x128, .f32⟩
  | .local _ .vmem, ⟨103, _⟩ => ⟨S1x128, .f32⟩
  | .local _ .vmem, ⟨104, _⟩ => ⟨S1200x128, .f32⟩
  | .local _ .vmem, ⟨105, _⟩ => ⟨S1200x128, .f32⟩
  | .local _ .vmem, ⟨106, _⟩ => ⟨S1200x128, .f32⟩
  | .local _ .vmem, ⟨107, _⟩ => ⟨S1200x128, .f32⟩
  | .local _ .vmem, ⟨108, _⟩ => ⟨S128x128, .f32⟩
  | .local _ .vmem, ⟨109, _⟩ => ⟨S1x128, .f32⟩
  | .local _ .vmem, ⟨110, _⟩ => ⟨S1200x128, .f32⟩
  | .local _ .vmem, ⟨111, _⟩ => ⟨S1200x128, .f32⟩
  | .local _ .vmem, ⟨112, _⟩ => ⟨S128x128, .f32⟩
  | .local _ .vmem, ⟨113, _⟩ => ⟨S1x128, .f32⟩
  | .local _ .vmem, ⟨114, _⟩ => ⟨S1200x128, .f32⟩
  | .local _ .vmem, ⟨115, _⟩ => ⟨S1200x128, .f32⟩
  | .local _ .vmem, ⟨116, _⟩ => ⟨S600x128, .f32⟩
  | .local _ .vmem, ⟨117, _⟩ => ⟨S600x128, .f32⟩
  | .local _ .vmem, ⟨118, _⟩ => ⟨S6000x128, .f32⟩
  | .local _ .vmem, ⟨119, _⟩ => ⟨S600x6000, .f32⟩
  | .local _ .vmem, ⟨120, _⟩ => ⟨S600x6000, .f32⟩
  | _, _ => ⟨S12000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | .vmem, ⟨117, _⟩ => true
  | .vmem, ⟨118, _⟩ => true
  | .vmem, ⟨119, _⟩ => true
  | .vmem, ⟨120, _⟩ => true
  | _, _ => false

abbrev semScoped : Fin 0 → Bool
  | ⟨_, h⟩ => absurd h (Nat.not_lt_zero _)

abbrev dmaSemScoped : Fin 121 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | _ => false

abbrev sig : RefSig :=
  ofTc nBuf bufTy 0 121 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_cst : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_cst_0 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_c : Ref sig .tc := ⟨.hbm, 43, rfl⟩
abbrev main_v11 : Ref sig .tc := ⟨.hbm, 44, rfl⟩
abbrev main_v12 : Ref sig .tc := ⟨.hbm, 45, rfl⟩
abbrev main_c_1 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_c_2 : Ref sig .tc := ⟨.hbm, 53, rfl⟩
abbrev main_v19 : Ref sig .tc := ⟨.hbm, 54, rfl⟩
abbrev main_v20 : Ref sig .tc := ⟨.hbm, 55, rfl⟩
abbrev main_c_3 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_call0_c : Ref sig .tc := ⟨.hbm, 63, rfl⟩
abbrev main_call0_v0 : Ref sig .tc := ⟨.hbm, 64, rfl⟩
abbrev main_call0_v1 : Ref sig .tc := ⟨.hbm, 65, rfl⟩
abbrev main_call0_c_0 : Ref sig .tc := ⟨.hbm, 66, rfl⟩
abbrev main_call0_v2 : Ref sig .tc := ⟨.hbm, 67, rfl⟩
abbrev main_call0_v3 : Ref sig .tc := ⟨.hbm, 68, rfl⟩
abbrev main_call0_v4 : Ref sig .tc := ⟨.hbm, 69, rfl⟩
abbrev main_call0_v5 : Ref sig .tc := ⟨.hbm, 70, rfl⟩
abbrev main_call0_c_1 : Ref sig .tc := ⟨.hbm, 71, rfl⟩
abbrev main_call0_c_2 : Ref sig .tc := ⟨.hbm, 72, rfl⟩
abbrev main_call0_v6 : Ref sig .tc := ⟨.hbm, 73, rfl⟩
abbrev main_call0_v7 : Ref sig .tc := ⟨.hbm, 74, rfl⟩
abbrev main_call0_v8 : Ref sig .tc := ⟨.hbm, 75, rfl⟩
abbrev main_call0_v9 : Ref sig .tc := ⟨.hbm, 76, rfl⟩
abbrev main_call0_v10 : Ref sig .tc := ⟨.hbm, 77, rfl⟩
abbrev main_call0_v11 : Ref sig .tc := ⟨.hbm, 78, rfl⟩
abbrev main_call0_c_3 : Ref sig .tc := ⟨.hbm, 79, rfl⟩
abbrev main_call0_v12 : Ref sig .tc := ⟨.hbm, 80, rfl⟩
abbrev main_call0_v13 : Ref sig .tc := ⟨.hbm, 81, rfl⟩
abbrev main_call0_v14 : Ref sig .tc := ⟨.hbm, 82, rfl⟩
abbrev main_call0_cst : Ref sig .tc := ⟨.hbm, 83, rfl⟩
abbrev main_call0_v15 : Ref sig .tc := ⟨.hbm, 84, rfl⟩
abbrev main_v27 : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩
abbrev main_cst_4 : Ref sig .tc := ⟨.hbm, 89, rfl⟩
abbrev main_v31 : Ref sig .tc := ⟨.hbm, 90, rfl⟩
abbrev main_v32 : Ref sig .tc := ⟨.hbm, 91, rfl⟩
abbrev main_v33 : Ref sig .tc := ⟨.hbm, 92, rfl⟩
abbrev main_v34 : Ref sig .tc := ⟨.hbm, 93, rfl⟩
abbrev main_v35 : Ref sig .tc := ⟨.hbm, 94, rfl⟩
abbrev main_v36 : Ref sig .tc := ⟨.hbm, 95, rfl⟩
abbrev main_v37 : Ref sig .tc := ⟨.hbm, 96, rfl⟩
abbrev main_v38 : Ref sig .tc := ⟨.hbm, 97, rfl⟩
abbrev main_v39 : Ref sig .tc := ⟨.hbm, 98, rfl⟩
abbrev main_v40 : Ref sig .tc := ⟨.hbm, 99, rfl⟩
abbrev main_v41 : Ref sig .tc := ⟨.hbm, 100, rfl⟩
abbrev main_v42 : Ref sig .tc := ⟨.hbm, 101, rfl⟩
abbrev main_v43 : Ref sig .tc := ⟨.hbm, 102, rfl⟩
abbrev main_v44 : Ref sig .tc := ⟨.hbm, 103, rfl⟩
abbrev main_cst_5 : Ref sig .tc := ⟨.hbm, 104, rfl⟩
abbrev main_v45 : Ref sig .tc := ⟨.hbm, 105, rfl⟩
abbrev main_v46 : Ref sig .tc := ⟨.hbm, 106, rfl⟩
abbrev main_v47 : Ref sig .tc := ⟨.hbm, 107, rfl⟩
abbrev main_cst_6 : Ref sig .tc := ⟨.hbm, 108, rfl⟩
abbrev main_v48 : Ref sig .tc := ⟨.hbm, 109, rfl⟩
abbrev main_v49 : Ref sig .tc := ⟨.hbm, 110, rfl⟩
abbrev main_v50 : Ref sig .tc := ⟨.hbm, 111, rfl⟩
abbrev main_c_7 : Ref sig .tc := ⟨.hbm, 112, rfl⟩
abbrev main_v51 : Ref sig .tc := ⟨.hbm, 113, rfl⟩
abbrev main_v52 : Ref sig .tc := ⟨.hbm, 114, rfl⟩
abbrev main_c_8 : Ref sig .tc := ⟨.hbm, 115, rfl⟩
abbrev main_v53 : Ref sig .tc := ⟨.hbm, 116, rfl⟩
abbrev main_v54 : Ref sig .tc := ⟨.hbm, 117, rfl⟩
abbrev main_v55 : Ref sig .tc := ⟨.hbm, 118, rfl⟩
abbrev main_v56 : Ref sig .tc := ⟨.hbm, 119, rfl⟩
abbrev main_v57 : Ref sig .tc := ⟨.hbm, 120, rfl⟩
abbrev main_v58 : Ref sig .tc := ⟨.hbm, 121, rfl⟩
abbrev main_c_9 : Ref sig .tc := ⟨.hbm, 122, rfl⟩
abbrev main_v59 : Ref sig .tc := ⟨.hbm, 123, rfl⟩
abbrev main_v60 : Ref sig .tc := ⟨.hbm, 124, rfl⟩
abbrev main_c_10 : Ref sig .tc := ⟨.hbm, 125, rfl⟩
abbrev main_v61 : Ref sig .tc := ⟨.hbm, 126, rfl⟩
abbrev main_v62 : Ref sig .tc := ⟨.hbm, 127, rfl⟩
abbrev main_v63 : Ref sig .tc := ⟨.hbm, 128, rfl⟩
abbrev main_v64 : Ref sig .tc := ⟨.hbm, 129, rfl⟩
abbrev main_v65 : Ref sig .tc := ⟨.hbm, 130, rfl⟩
abbrev main_v66 : Ref sig .tc := ⟨.hbm, 131, rfl⟩
abbrev main_call1_c : Ref sig .tc := ⟨.hbm, 132, rfl⟩
abbrev main_call1_v0 : Ref sig .tc := ⟨.hbm, 133, rfl⟩
abbrev main_call1_v1 : Ref sig .tc := ⟨.hbm, 134, rfl⟩
abbrev main_call1_c_0 : Ref sig .tc := ⟨.hbm, 135, rfl⟩
abbrev main_call1_v2 : Ref sig .tc := ⟨.hbm, 136, rfl⟩
abbrev main_call1_v3 : Ref sig .tc := ⟨.hbm, 137, rfl⟩
abbrev main_call1_v4 : Ref sig .tc := ⟨.hbm, 138, rfl⟩
abbrev main_call1_v5 : Ref sig .tc := ⟨.hbm, 139, rfl⟩
abbrev main_call1_c_1 : Ref sig .tc := ⟨.hbm, 140, rfl⟩
abbrev main_call1_c_2 : Ref sig .tc := ⟨.hbm, 141, rfl⟩
abbrev main_call1_v6 : Ref sig .tc := ⟨.hbm, 142, rfl⟩
abbrev main_call1_v7 : Ref sig .tc := ⟨.hbm, 143, rfl⟩
abbrev main_call1_v8 : Ref sig .tc := ⟨.hbm, 144, rfl⟩
abbrev main_call1_v9 : Ref sig .tc := ⟨.hbm, 145, rfl⟩
abbrev main_call1_v10 : Ref sig .tc := ⟨.hbm, 146, rfl⟩
abbrev main_call1_v11 : Ref sig .tc := ⟨.hbm, 147, rfl⟩
abbrev main_call1_c_3 : Ref sig .tc := ⟨.hbm, 148, rfl⟩
abbrev main_call1_v12 : Ref sig .tc := ⟨.hbm, 149, rfl⟩
abbrev main_call1_v13 : Ref sig .tc := ⟨.hbm, 150, rfl⟩
abbrev main_call1_v14 : Ref sig .tc := ⟨.hbm, 151, rfl⟩
abbrev main_call1_cst : Ref sig .tc := ⟨.hbm, 152, rfl⟩
abbrev main_call1_v15 : Ref sig .tc := ⟨.hbm, 153, rfl⟩
abbrev main_v67 : Ref sig .tc := ⟨.hbm, 154, rfl⟩
abbrev main_v68 : Ref sig .tc := ⟨.hbm, 155, rfl⟩
abbrev main_v69 : Ref sig .tc := ⟨.hbm, 156, rfl⟩
abbrev main_v70 : Ref sig .tc := ⟨.hbm, 157, rfl⟩
abbrev main_cst_11 : Ref sig .tc := ⟨.hbm, 158, rfl⟩
abbrev main_v71 : Ref sig .tc := ⟨.hbm, 159, rfl⟩
abbrev main_v72 : Ref sig .tc := ⟨.hbm, 160, rfl⟩
abbrev main_v73 : Ref sig .tc := ⟨.hbm, 161, rfl⟩
abbrev main_v74 : Ref sig .tc := ⟨.hbm, 162, rfl⟩
abbrev main_v75 : Ref sig .tc := ⟨.hbm, 163, rfl⟩
abbrev main_v76 : Ref sig .tc := ⟨.hbm, 164, rfl⟩
abbrev main_v77 : Ref sig .tc := ⟨.hbm, 165, rfl⟩
abbrev main_v78 : Ref sig .tc := ⟨.hbm, 166, rfl⟩
abbrev main_v79 : Ref sig .tc := ⟨.hbm, 167, rfl⟩
abbrev main_v80 : Ref sig .tc := ⟨.hbm, 168, rfl⟩
abbrev main_v81 : Ref sig .tc := ⟨.hbm, 169, rfl⟩
abbrev main_v82 : Ref sig .tc := ⟨.hbm, 170, rfl⟩
abbrev main_v83 : Ref sig .tc := ⟨.hbm, 171, rfl⟩
abbrev main_v84 : Ref sig .tc := ⟨.hbm, 172, rfl⟩
abbrev main_cst_12 : Ref sig .tc := ⟨.hbm, 173, rfl⟩
abbrev main_v85 : Ref sig .tc := ⟨.hbm, 174, rfl⟩
abbrev main_v86 : Ref sig .tc := ⟨.hbm, 175, rfl⟩
abbrev main_v87 : Ref sig .tc := ⟨.hbm, 176, rfl⟩
abbrev main_cst_13 : Ref sig .tc := ⟨.hbm, 177, rfl⟩
abbrev main_v88 : Ref sig .tc := ⟨.hbm, 178, rfl⟩
abbrev main_v89 : Ref sig .tc := ⟨.hbm, 179, rfl⟩
abbrev main_v90 : Ref sig .tc := ⟨.hbm, 180, rfl⟩
abbrev main_c_14 : Ref sig .tc := ⟨.hbm, 181, rfl⟩
abbrev main_v91 : Ref sig .tc := ⟨.hbm, 182, rfl⟩
abbrev main_v92 : Ref sig .tc := ⟨.hbm, 183, rfl⟩
abbrev main_c_15 : Ref sig .tc := ⟨.hbm, 184, rfl⟩
abbrev main_v93 : Ref sig .tc := ⟨.hbm, 185, rfl⟩
abbrev main_v94 : Ref sig .tc := ⟨.hbm, 186, rfl⟩
abbrev main_v95 : Ref sig .tc := ⟨.hbm, 187, rfl⟩
abbrev main_v96 : Ref sig .tc := ⟨.hbm, 188, rfl⟩
abbrev main_v97 : Ref sig .tc := ⟨.hbm, 189, rfl⟩
abbrev main_v98 : Ref sig .tc := ⟨.hbm, 190, rfl⟩
abbrev main_c_16 : Ref sig .tc := ⟨.hbm, 191, rfl⟩
abbrev main_v99 : Ref sig .tc := ⟨.hbm, 192, rfl⟩
abbrev main_v100 : Ref sig .tc := ⟨.hbm, 193, rfl⟩
abbrev main_c_17 : Ref sig .tc := ⟨.hbm, 194, rfl⟩
abbrev main_v101 : Ref sig .tc := ⟨.hbm, 195, rfl⟩
abbrev main_v102 : Ref sig .tc := ⟨.hbm, 196, rfl⟩
abbrev main_v103 : Ref sig .tc := ⟨.hbm, 197, rfl⟩
abbrev main_v104 : Ref sig .tc := ⟨.hbm, 198, rfl⟩
abbrev main_v105 : Ref sig .tc := ⟨.hbm, 199, rfl⟩
abbrev main_v106 : Ref sig .tc := ⟨.hbm, 200, rfl⟩
abbrev main_call2_c : Ref sig .tc := ⟨.hbm, 201, rfl⟩
abbrev main_call2_v0 : Ref sig .tc := ⟨.hbm, 202, rfl⟩
abbrev main_call2_v1 : Ref sig .tc := ⟨.hbm, 203, rfl⟩
abbrev main_call2_c_0 : Ref sig .tc := ⟨.hbm, 204, rfl⟩
abbrev main_call2_v2 : Ref sig .tc := ⟨.hbm, 205, rfl⟩
abbrev main_call2_v3 : Ref sig .tc := ⟨.hbm, 206, rfl⟩
abbrev main_call2_v4 : Ref sig .tc := ⟨.hbm, 207, rfl⟩
abbrev main_call2_v5 : Ref sig .tc := ⟨.hbm, 208, rfl⟩
abbrev main_call2_c_1 : Ref sig .tc := ⟨.hbm, 209, rfl⟩
abbrev main_call2_c_2 : Ref sig .tc := ⟨.hbm, 210, rfl⟩
abbrev main_call2_v6 : Ref sig .tc := ⟨.hbm, 211, rfl⟩
abbrev main_call2_v7 : Ref sig .tc := ⟨.hbm, 212, rfl⟩
abbrev main_call2_v8 : Ref sig .tc := ⟨.hbm, 213, rfl⟩
abbrev main_call2_v9 : Ref sig .tc := ⟨.hbm, 214, rfl⟩
abbrev main_call2_v10 : Ref sig .tc := ⟨.hbm, 215, rfl⟩
abbrev main_call2_v11 : Ref sig .tc := ⟨.hbm, 216, rfl⟩
abbrev main_call2_c_3 : Ref sig .tc := ⟨.hbm, 217, rfl⟩
abbrev main_call2_v12 : Ref sig .tc := ⟨.hbm, 218, rfl⟩
abbrev main_call2_v13 : Ref sig .tc := ⟨.hbm, 219, rfl⟩
abbrev main_call2_v14 : Ref sig .tc := ⟨.hbm, 220, rfl⟩
abbrev main_call2_cst : Ref sig .tc := ⟨.hbm, 221, rfl⟩
abbrev main_call2_v15 : Ref sig .tc := ⟨.hbm, 222, rfl⟩
abbrev main_v107 : Ref sig .tc := ⟨.hbm, 223, rfl⟩
abbrev main_v108 : Ref sig .tc := ⟨.hbm, 224, rfl⟩
abbrev main_v109 : Ref sig .tc := ⟨.hbm, 225, rfl⟩
abbrev main_v110 : Ref sig .tc := ⟨.hbm, 226, rfl⟩
abbrev main_cst_18 : Ref sig .tc := ⟨.hbm, 227, rfl⟩
abbrev main_v111 : Ref sig .tc := ⟨.hbm, 228, rfl⟩
abbrev main_v112 : Ref sig .tc := ⟨.hbm, 229, rfl⟩
abbrev main_v113 : Ref sig .tc := ⟨.hbm, 230, rfl⟩
abbrev main_v114 : Ref sig .tc := ⟨.hbm, 231, rfl⟩
abbrev main_v115 : Ref sig .tc := ⟨.hbm, 232, rfl⟩
abbrev main_v116 : Ref sig .tc := ⟨.hbm, 233, rfl⟩
abbrev main_v117 : Ref sig .tc := ⟨.hbm, 234, rfl⟩
abbrev main_v118 : Ref sig .tc := ⟨.hbm, 235, rfl⟩
abbrev main_v119 : Ref sig .tc := ⟨.hbm, 236, rfl⟩
abbrev main_v120 : Ref sig .tc := ⟨.hbm, 237, rfl⟩
abbrev main_v121 : Ref sig .tc := ⟨.hbm, 238, rfl⟩
abbrev main_v122 : Ref sig .tc := ⟨.hbm, 239, rfl⟩
abbrev main_v123 : Ref sig .tc := ⟨.hbm, 240, rfl⟩
abbrev main_v124 : Ref sig .tc := ⟨.hbm, 241, rfl⟩
abbrev main_cst_19 : Ref sig .tc := ⟨.hbm, 242, rfl⟩
abbrev main_v125 : Ref sig .tc := ⟨.hbm, 243, rfl⟩
abbrev main_v126 : Ref sig .tc := ⟨.hbm, 244, rfl⟩
abbrev main_v127 : Ref sig .tc := ⟨.hbm, 245, rfl⟩
abbrev main_cst_20 : Ref sig .tc := ⟨.hbm, 246, rfl⟩
abbrev main_v128 : Ref sig .tc := ⟨.hbm, 247, rfl⟩
abbrev main_v129 : Ref sig .tc := ⟨.hbm, 248, rfl⟩
abbrev main_v130 : Ref sig .tc := ⟨.hbm, 249, rfl⟩
abbrev main_c_21 : Ref sig .tc := ⟨.hbm, 250, rfl⟩
abbrev main_v131 : Ref sig .tc := ⟨.hbm, 251, rfl⟩
abbrev main_v132 : Ref sig .tc := ⟨.hbm, 252, rfl⟩
abbrev main_c_22 : Ref sig .tc := ⟨.hbm, 253, rfl⟩
abbrev main_v133 : Ref sig .tc := ⟨.hbm, 254, rfl⟩
abbrev main_v134 : Ref sig .tc := ⟨.hbm, 255, rfl⟩
abbrev main_v135 : Ref sig .tc := ⟨.hbm, 256, rfl⟩
abbrev main_v136 : Ref sig .tc := ⟨.hbm, 257, rfl⟩
abbrev main_v137 : Ref sig .tc := ⟨.hbm, 258, rfl⟩
abbrev main_v138 : Ref sig .tc := ⟨.hbm, 259, rfl⟩
abbrev main_c_23 : Ref sig .tc := ⟨.hbm, 260, rfl⟩
abbrev main_v139 : Ref sig .tc := ⟨.hbm, 261, rfl⟩
abbrev main_v140 : Ref sig .tc := ⟨.hbm, 262, rfl⟩
abbrev main_c_24 : Ref sig .tc := ⟨.hbm, 263, rfl⟩
abbrev main_v141 : Ref sig .tc := ⟨.hbm, 264, rfl⟩
abbrev main_v142 : Ref sig .tc := ⟨.hbm, 265, rfl⟩
abbrev main_v143 : Ref sig .tc := ⟨.hbm, 266, rfl⟩
abbrev main_v144 : Ref sig .tc := ⟨.hbm, 267, rfl⟩
abbrev main_v145 : Ref sig .tc := ⟨.hbm, 268, rfl⟩
abbrev main_v146 : Ref sig .tc := ⟨.hbm, 269, rfl⟩
abbrev main_call3_c : Ref sig .tc := ⟨.hbm, 270, rfl⟩
abbrev main_call3_v0 : Ref sig .tc := ⟨.hbm, 271, rfl⟩
abbrev main_call3_v1 : Ref sig .tc := ⟨.hbm, 272, rfl⟩
abbrev main_call3_c_0 : Ref sig .tc := ⟨.hbm, 273, rfl⟩
abbrev main_call3_v2 : Ref sig .tc := ⟨.hbm, 274, rfl⟩
abbrev main_call3_v3 : Ref sig .tc := ⟨.hbm, 275, rfl⟩
abbrev main_call3_v4 : Ref sig .tc := ⟨.hbm, 276, rfl⟩
abbrev main_call3_v5 : Ref sig .tc := ⟨.hbm, 277, rfl⟩
abbrev main_call3_c_1 : Ref sig .tc := ⟨.hbm, 278, rfl⟩
abbrev main_call3_c_2 : Ref sig .tc := ⟨.hbm, 279, rfl⟩
abbrev main_call3_v6 : Ref sig .tc := ⟨.hbm, 280, rfl⟩
abbrev main_call3_v7 : Ref sig .tc := ⟨.hbm, 281, rfl⟩
abbrev main_call3_v8 : Ref sig .tc := ⟨.hbm, 282, rfl⟩
abbrev main_call3_v9 : Ref sig .tc := ⟨.hbm, 283, rfl⟩
abbrev main_call3_v10 : Ref sig .tc := ⟨.hbm, 284, rfl⟩
abbrev main_call3_v11 : Ref sig .tc := ⟨.hbm, 285, rfl⟩
abbrev main_call3_c_3 : Ref sig .tc := ⟨.hbm, 286, rfl⟩
abbrev main_call3_v12 : Ref sig .tc := ⟨.hbm, 287, rfl⟩
abbrev main_call3_v13 : Ref sig .tc := ⟨.hbm, 288, rfl⟩
abbrev main_call3_v14 : Ref sig .tc := ⟨.hbm, 289, rfl⟩
abbrev main_call3_cst : Ref sig .tc := ⟨.hbm, 290, rfl⟩
abbrev main_call3_v15 : Ref sig .tc := ⟨.hbm, 291, rfl⟩
abbrev main_v147 : Ref sig .tc := ⟨.hbm, 292, rfl⟩
abbrev main_v148 : Ref sig .tc := ⟨.hbm, 293, rfl⟩
abbrev main_v149 : Ref sig .tc := ⟨.hbm, 294, rfl⟩
abbrev main_v150 : Ref sig .tc := ⟨.hbm, 295, rfl⟩
abbrev main_cst_25 : Ref sig .tc := ⟨.hbm, 296, rfl⟩
abbrev main_v151 : Ref sig .tc := ⟨.hbm, 297, rfl⟩
abbrev main_v152 : Ref sig .tc := ⟨.hbm, 298, rfl⟩
abbrev main_v153 : Ref sig .tc := ⟨.hbm, 299, rfl⟩
abbrev main_v154 : Ref sig .tc := ⟨.hbm, 300, rfl⟩
abbrev main_v155 : Ref sig .tc := ⟨.hbm, 301, rfl⟩
abbrev main_v156 : Ref sig .tc := ⟨.hbm, 302, rfl⟩
abbrev main_v157 : Ref sig .tc := ⟨.hbm, 303, rfl⟩
abbrev main_v158 : Ref sig .tc := ⟨.hbm, 304, rfl⟩
abbrev main_v159 : Ref sig .tc := ⟨.hbm, 305, rfl⟩
abbrev main_v160 : Ref sig .tc := ⟨.hbm, 306, rfl⟩
abbrev main_v161 : Ref sig .tc := ⟨.hbm, 307, rfl⟩
abbrev main_v162 : Ref sig .tc := ⟨.hbm, 308, rfl⟩
abbrev main_v163 : Ref sig .tc := ⟨.hbm, 309, rfl⟩
abbrev main_v164 : Ref sig .tc := ⟨.hbm, 310, rfl⟩
abbrev main_cst_26 : Ref sig .tc := ⟨.hbm, 311, rfl⟩
abbrev main_v165 : Ref sig .tc := ⟨.hbm, 312, rfl⟩
abbrev main_v166 : Ref sig .tc := ⟨.hbm, 313, rfl⟩
abbrev main_v167 : Ref sig .tc := ⟨.hbm, 314, rfl⟩
abbrev main_cst_27 : Ref sig .tc := ⟨.hbm, 315, rfl⟩
abbrev main_v168 : Ref sig .tc := ⟨.hbm, 316, rfl⟩
abbrev main_v169 : Ref sig .tc := ⟨.hbm, 317, rfl⟩
abbrev main_v170 : Ref sig .tc := ⟨.hbm, 318, rfl⟩
abbrev main_c_28 : Ref sig .tc := ⟨.hbm, 319, rfl⟩
abbrev main_v171 : Ref sig .tc := ⟨.hbm, 320, rfl⟩
abbrev main_v172 : Ref sig .tc := ⟨.hbm, 321, rfl⟩
abbrev main_c_29 : Ref sig .tc := ⟨.hbm, 322, rfl⟩
abbrev main_v173 : Ref sig .tc := ⟨.hbm, 323, rfl⟩
abbrev main_v174 : Ref sig .tc := ⟨.hbm, 324, rfl⟩
abbrev main_v175 : Ref sig .tc := ⟨.hbm, 325, rfl⟩
abbrev main_v176 : Ref sig .tc := ⟨.hbm, 326, rfl⟩
abbrev main_v177 : Ref sig .tc := ⟨.hbm, 327, rfl⟩
abbrev main_v178 : Ref sig .tc := ⟨.hbm, 328, rfl⟩
abbrev main_c_30 : Ref sig .tc := ⟨.hbm, 329, rfl⟩
abbrev main_v179 : Ref sig .tc := ⟨.hbm, 330, rfl⟩
abbrev main_v180 : Ref sig .tc := ⟨.hbm, 331, rfl⟩
abbrev main_c_31 : Ref sig .tc := ⟨.hbm, 332, rfl⟩
abbrev main_v181 : Ref sig .tc := ⟨.hbm, 333, rfl⟩
abbrev main_v182 : Ref sig .tc := ⟨.hbm, 334, rfl⟩
abbrev main_v183 : Ref sig .tc := ⟨.hbm, 335, rfl⟩
abbrev main_v184 : Ref sig .tc := ⟨.hbm, 336, rfl⟩
abbrev main_v185 : Ref sig .tc := ⟨.hbm, 337, rfl⟩
abbrev main_v186 : Ref sig .tc := ⟨.hbm, 338, rfl⟩
abbrev main_call4_c : Ref sig .tc := ⟨.hbm, 339, rfl⟩
abbrev main_call4_v0 : Ref sig .tc := ⟨.hbm, 340, rfl⟩
abbrev main_call4_v1 : Ref sig .tc := ⟨.hbm, 341, rfl⟩
abbrev main_call4_c_0 : Ref sig .tc := ⟨.hbm, 342, rfl⟩
abbrev main_call4_v2 : Ref sig .tc := ⟨.hbm, 343, rfl⟩
abbrev main_call4_v3 : Ref sig .tc := ⟨.hbm, 344, rfl⟩
abbrev main_call4_v4 : Ref sig .tc := ⟨.hbm, 345, rfl⟩
abbrev main_call4_v5 : Ref sig .tc := ⟨.hbm, 346, rfl⟩
abbrev main_call4_c_1 : Ref sig .tc := ⟨.hbm, 347, rfl⟩
abbrev main_call4_c_2 : Ref sig .tc := ⟨.hbm, 348, rfl⟩
abbrev main_call4_v6 : Ref sig .tc := ⟨.hbm, 349, rfl⟩
abbrev main_call4_v7 : Ref sig .tc := ⟨.hbm, 350, rfl⟩
abbrev main_call4_v8 : Ref sig .tc := ⟨.hbm, 351, rfl⟩
abbrev main_call4_v9 : Ref sig .tc := ⟨.hbm, 352, rfl⟩
abbrev main_call4_v10 : Ref sig .tc := ⟨.hbm, 353, rfl⟩
abbrev main_call4_v11 : Ref sig .tc := ⟨.hbm, 354, rfl⟩
abbrev main_call4_c_3 : Ref sig .tc := ⟨.hbm, 355, rfl⟩
abbrev main_call4_v12 : Ref sig .tc := ⟨.hbm, 356, rfl⟩
abbrev main_call4_v13 : Ref sig .tc := ⟨.hbm, 357, rfl⟩
abbrev main_call4_v14 : Ref sig .tc := ⟨.hbm, 358, rfl⟩
abbrev main_call4_cst : Ref sig .tc := ⟨.hbm, 359, rfl⟩
abbrev main_call4_v15 : Ref sig .tc := ⟨.hbm, 360, rfl⟩
abbrev main_v187 : Ref sig .tc := ⟨.hbm, 361, rfl⟩
abbrev main_v188 : Ref sig .tc := ⟨.hbm, 362, rfl⟩
abbrev main_v189 : Ref sig .tc := ⟨.hbm, 363, rfl⟩
abbrev main_v190 : Ref sig .tc := ⟨.hbm, 364, rfl⟩
abbrev main_cst_32 : Ref sig .tc := ⟨.hbm, 365, rfl⟩
abbrev main_v191 : Ref sig .tc := ⟨.hbm, 366, rfl⟩
abbrev main_v192 : Ref sig .tc := ⟨.hbm, 367, rfl⟩
abbrev main_v193 : Ref sig .tc := ⟨.hbm, 368, rfl⟩
abbrev main_v194 : Ref sig .tc := ⟨.hbm, 369, rfl⟩
abbrev main_v195 : Ref sig .tc := ⟨.hbm, 370, rfl⟩
abbrev main_v196 : Ref sig .tc := ⟨.hbm, 371, rfl⟩
abbrev main_v197 : Ref sig .tc := ⟨.hbm, 372, rfl⟩
abbrev main_v198 : Ref sig .tc := ⟨.hbm, 373, rfl⟩
abbrev main_v199 : Ref sig .tc := ⟨.hbm, 374, rfl⟩
abbrev main_v200 : Ref sig .tc := ⟨.hbm, 375, rfl⟩
abbrev main_v201 : Ref sig .tc := ⟨.hbm, 376, rfl⟩
abbrev main_v202 : Ref sig .tc := ⟨.hbm, 377, rfl⟩
abbrev main_v203 : Ref sig .tc := ⟨.hbm, 378, rfl⟩
abbrev main_v204 : Ref sig .tc := ⟨.hbm, 379, rfl⟩
abbrev main_cst_33 : Ref sig .tc := ⟨.hbm, 380, rfl⟩
abbrev main_v205 : Ref sig .tc := ⟨.hbm, 381, rfl⟩
abbrev main_v206 : Ref sig .tc := ⟨.hbm, 382, rfl⟩
abbrev main_v207 : Ref sig .tc := ⟨.hbm, 383, rfl⟩
abbrev main_cst_34 : Ref sig .tc := ⟨.hbm, 384, rfl⟩
abbrev main_v208 : Ref sig .tc := ⟨.hbm, 385, rfl⟩
abbrev main_v209 : Ref sig .tc := ⟨.hbm, 386, rfl⟩
abbrev main_v210 : Ref sig .tc := ⟨.hbm, 387, rfl⟩
abbrev main_c_35 : Ref sig .tc := ⟨.hbm, 388, rfl⟩
abbrev main_v211 : Ref sig .tc := ⟨.hbm, 389, rfl⟩
abbrev main_v212 : Ref sig .tc := ⟨.hbm, 390, rfl⟩
abbrev main_c_36 : Ref sig .tc := ⟨.hbm, 391, rfl⟩
abbrev main_v213 : Ref sig .tc := ⟨.hbm, 392, rfl⟩
abbrev main_v214 : Ref sig .tc := ⟨.hbm, 393, rfl⟩
abbrev main_v215 : Ref sig .tc := ⟨.hbm, 394, rfl⟩
abbrev main_v216 : Ref sig .tc := ⟨.hbm, 395, rfl⟩
abbrev main_v217 : Ref sig .tc := ⟨.hbm, 396, rfl⟩
abbrev main_v218 : Ref sig .tc := ⟨.hbm, 397, rfl⟩
abbrev main_c_37 : Ref sig .tc := ⟨.hbm, 398, rfl⟩
abbrev main_v219 : Ref sig .tc := ⟨.hbm, 399, rfl⟩
abbrev main_v220 : Ref sig .tc := ⟨.hbm, 400, rfl⟩
abbrev main_c_38 : Ref sig .tc := ⟨.hbm, 401, rfl⟩
abbrev main_v221 : Ref sig .tc := ⟨.hbm, 402, rfl⟩
abbrev main_v222 : Ref sig .tc := ⟨.hbm, 403, rfl⟩
abbrev main_v223 : Ref sig .tc := ⟨.hbm, 404, rfl⟩
abbrev main_v224 : Ref sig .tc := ⟨.hbm, 405, rfl⟩
abbrev main_v225 : Ref sig .tc := ⟨.hbm, 406, rfl⟩
abbrev main_v226 : Ref sig .tc := ⟨.hbm, 407, rfl⟩
abbrev main_call5_c : Ref sig .tc := ⟨.hbm, 408, rfl⟩
abbrev main_call5_v0 : Ref sig .tc := ⟨.hbm, 409, rfl⟩
abbrev main_call5_v1 : Ref sig .tc := ⟨.hbm, 410, rfl⟩
abbrev main_call5_c_0 : Ref sig .tc := ⟨.hbm, 411, rfl⟩
abbrev main_call5_v2 : Ref sig .tc := ⟨.hbm, 412, rfl⟩
abbrev main_call5_v3 : Ref sig .tc := ⟨.hbm, 413, rfl⟩
abbrev main_call5_v4 : Ref sig .tc := ⟨.hbm, 414, rfl⟩
abbrev main_call5_v5 : Ref sig .tc := ⟨.hbm, 415, rfl⟩
abbrev main_call5_c_1 : Ref sig .tc := ⟨.hbm, 416, rfl⟩
abbrev main_call5_c_2 : Ref sig .tc := ⟨.hbm, 417, rfl⟩
abbrev main_call5_v6 : Ref sig .tc := ⟨.hbm, 418, rfl⟩
abbrev main_call5_v7 : Ref sig .tc := ⟨.hbm, 419, rfl⟩
abbrev main_call5_v8 : Ref sig .tc := ⟨.hbm, 420, rfl⟩
abbrev main_call5_v9 : Ref sig .tc := ⟨.hbm, 421, rfl⟩
abbrev main_call5_v10 : Ref sig .tc := ⟨.hbm, 422, rfl⟩
abbrev main_call5_v11 : Ref sig .tc := ⟨.hbm, 423, rfl⟩
abbrev main_call5_c_3 : Ref sig .tc := ⟨.hbm, 424, rfl⟩
abbrev main_call5_v12 : Ref sig .tc := ⟨.hbm, 425, rfl⟩
abbrev main_call5_v13 : Ref sig .tc := ⟨.hbm, 426, rfl⟩
abbrev main_call5_v14 : Ref sig .tc := ⟨.hbm, 427, rfl⟩
abbrev main_call5_cst : Ref sig .tc := ⟨.hbm, 428, rfl⟩
abbrev main_call5_v15 : Ref sig .tc := ⟨.hbm, 429, rfl⟩
abbrev main_v227 : Ref sig .tc := ⟨.hbm, 430, rfl⟩
abbrev main_v228 : Ref sig .tc := ⟨.hbm, 431, rfl⟩
abbrev main_v229 : Ref sig .tc := ⟨.hbm, 432, rfl⟩
abbrev main_v230 : Ref sig .tc := ⟨.hbm, 433, rfl⟩
abbrev main_cst_39 : Ref sig .tc := ⟨.hbm, 434, rfl⟩
abbrev main_v231 : Ref sig .tc := ⟨.hbm, 435, rfl⟩
abbrev main_v232 : Ref sig .tc := ⟨.hbm, 436, rfl⟩
abbrev main_v233 : Ref sig .tc := ⟨.hbm, 437, rfl⟩
abbrev main_v234 : Ref sig .tc := ⟨.hbm, 438, rfl⟩
abbrev main_v235 : Ref sig .tc := ⟨.hbm, 439, rfl⟩
abbrev main_v236 : Ref sig .tc := ⟨.hbm, 440, rfl⟩
abbrev main_v237 : Ref sig .tc := ⟨.hbm, 441, rfl⟩
abbrev main_v238 : Ref sig .tc := ⟨.hbm, 442, rfl⟩
abbrev main_v239 : Ref sig .tc := ⟨.hbm, 443, rfl⟩
abbrev main_v240 : Ref sig .tc := ⟨.hbm, 444, rfl⟩
abbrev main_v241 : Ref sig .tc := ⟨.hbm, 445, rfl⟩
abbrev main_v242 : Ref sig .tc := ⟨.hbm, 446, rfl⟩
abbrev main_v243 : Ref sig .tc := ⟨.hbm, 447, rfl⟩
abbrev main_v244 : Ref sig .tc := ⟨.hbm, 448, rfl⟩
abbrev main_cst_40 : Ref sig .tc := ⟨.hbm, 449, rfl⟩
abbrev main_v245 : Ref sig .tc := ⟨.hbm, 450, rfl⟩
abbrev main_v246 : Ref sig .tc := ⟨.hbm, 451, rfl⟩
abbrev main_v247 : Ref sig .tc := ⟨.hbm, 452, rfl⟩
abbrev main_cst_41 : Ref sig .tc := ⟨.hbm, 453, rfl⟩
abbrev main_v248 : Ref sig .tc := ⟨.hbm, 454, rfl⟩
abbrev main_v249 : Ref sig .tc := ⟨.hbm, 455, rfl⟩
abbrev main_v250 : Ref sig .tc := ⟨.hbm, 456, rfl⟩
abbrev main_c_42 : Ref sig .tc := ⟨.hbm, 457, rfl⟩
abbrev main_v251 : Ref sig .tc := ⟨.hbm, 458, rfl⟩
abbrev main_v252 : Ref sig .tc := ⟨.hbm, 459, rfl⟩
abbrev main_c_43 : Ref sig .tc := ⟨.hbm, 460, rfl⟩
abbrev main_v253 : Ref sig .tc := ⟨.hbm, 461, rfl⟩
abbrev main_v254 : Ref sig .tc := ⟨.hbm, 462, rfl⟩
abbrev main_v255 : Ref sig .tc := ⟨.hbm, 463, rfl⟩
abbrev main_v256 : Ref sig .tc := ⟨.hbm, 464, rfl⟩
abbrev main_v257 : Ref sig .tc := ⟨.hbm, 465, rfl⟩
abbrev main_v258 : Ref sig .tc := ⟨.hbm, 466, rfl⟩
abbrev main_c_44 : Ref sig .tc := ⟨.hbm, 467, rfl⟩
abbrev main_v259 : Ref sig .tc := ⟨.hbm, 468, rfl⟩
abbrev main_v260 : Ref sig .tc := ⟨.hbm, 469, rfl⟩
abbrev main_c_45 : Ref sig .tc := ⟨.hbm, 470, rfl⟩
abbrev main_v261 : Ref sig .tc := ⟨.hbm, 471, rfl⟩
abbrev main_v262 : Ref sig .tc := ⟨.hbm, 472, rfl⟩
abbrev main_v263 : Ref sig .tc := ⟨.hbm, 473, rfl⟩
abbrev main_v264 : Ref sig .tc := ⟨.hbm, 474, rfl⟩
abbrev main_v265 : Ref sig .tc := ⟨.hbm, 475, rfl⟩
abbrev main_v266 : Ref sig .tc := ⟨.hbm, 476, rfl⟩
abbrev main_call6_c : Ref sig .tc := ⟨.hbm, 477, rfl⟩
abbrev main_call6_v0 : Ref sig .tc := ⟨.hbm, 478, rfl⟩
abbrev main_call6_v1 : Ref sig .tc := ⟨.hbm, 479, rfl⟩
abbrev main_call6_c_0 : Ref sig .tc := ⟨.hbm, 480, rfl⟩
abbrev main_call6_v2 : Ref sig .tc := ⟨.hbm, 481, rfl⟩
abbrev main_call6_v3 : Ref sig .tc := ⟨.hbm, 482, rfl⟩
abbrev main_call6_v4 : Ref sig .tc := ⟨.hbm, 483, rfl⟩
abbrev main_call6_v5 : Ref sig .tc := ⟨.hbm, 484, rfl⟩
abbrev main_call6_c_1 : Ref sig .tc := ⟨.hbm, 485, rfl⟩
abbrev main_call6_c_2 : Ref sig .tc := ⟨.hbm, 486, rfl⟩
abbrev main_call6_v6 : Ref sig .tc := ⟨.hbm, 487, rfl⟩
abbrev main_call6_v7 : Ref sig .tc := ⟨.hbm, 488, rfl⟩
abbrev main_call6_v8 : Ref sig .tc := ⟨.hbm, 489, rfl⟩
abbrev main_call6_v9 : Ref sig .tc := ⟨.hbm, 490, rfl⟩
abbrev main_call6_v10 : Ref sig .tc := ⟨.hbm, 491, rfl⟩
abbrev main_call6_v11 : Ref sig .tc := ⟨.hbm, 492, rfl⟩
abbrev main_call6_c_3 : Ref sig .tc := ⟨.hbm, 493, rfl⟩
abbrev main_call6_v12 : Ref sig .tc := ⟨.hbm, 494, rfl⟩
abbrev main_call6_v13 : Ref sig .tc := ⟨.hbm, 495, rfl⟩
abbrev main_call6_v14 : Ref sig .tc := ⟨.hbm, 496, rfl⟩
abbrev main_call6_cst : Ref sig .tc := ⟨.hbm, 497, rfl⟩
abbrev main_call6_v15 : Ref sig .tc := ⟨.hbm, 498, rfl⟩
abbrev main_v267 : Ref sig .tc := ⟨.hbm, 499, rfl⟩
abbrev main_v268 : Ref sig .tc := ⟨.hbm, 500, rfl⟩
abbrev main_v269 : Ref sig .tc := ⟨.hbm, 501, rfl⟩
abbrev main_v270 : Ref sig .tc := ⟨.hbm, 502, rfl⟩
abbrev main_cst_46 : Ref sig .tc := ⟨.hbm, 503, rfl⟩
abbrev main_v271 : Ref sig .tc := ⟨.hbm, 504, rfl⟩
abbrev main_v272 : Ref sig .tc := ⟨.hbm, 505, rfl⟩
abbrev main_v273 : Ref sig .tc := ⟨.hbm, 506, rfl⟩
abbrev main_v274 : Ref sig .tc := ⟨.hbm, 507, rfl⟩
abbrev main_v275 : Ref sig .tc := ⟨.hbm, 508, rfl⟩
abbrev main_v276 : Ref sig .tc := ⟨.hbm, 509, rfl⟩
abbrev main_v277 : Ref sig .tc := ⟨.hbm, 510, rfl⟩
abbrev main_v278 : Ref sig .tc := ⟨.hbm, 511, rfl⟩
abbrev main_v279 : Ref sig .tc := ⟨.hbm, 512, rfl⟩
abbrev main_v280 : Ref sig .tc := ⟨.hbm, 513, rfl⟩
abbrev main_v281 : Ref sig .tc := ⟨.hbm, 514, rfl⟩
abbrev main_v282 : Ref sig .tc := ⟨.hbm, 515, rfl⟩
abbrev main_v283 : Ref sig .tc := ⟨.hbm, 516, rfl⟩
abbrev main_v284 : Ref sig .tc := ⟨.hbm, 517, rfl⟩
abbrev main_cst_47 : Ref sig .tc := ⟨.hbm, 518, rfl⟩
abbrev main_v285 : Ref sig .tc := ⟨.hbm, 519, rfl⟩
abbrev main_v286 : Ref sig .tc := ⟨.hbm, 520, rfl⟩
abbrev main_v287 : Ref sig .tc := ⟨.hbm, 521, rfl⟩
abbrev main_cst_48 : Ref sig .tc := ⟨.hbm, 522, rfl⟩
abbrev main_v288 : Ref sig .tc := ⟨.hbm, 523, rfl⟩
abbrev main_v289 : Ref sig .tc := ⟨.hbm, 524, rfl⟩
abbrev main_v290 : Ref sig .tc := ⟨.hbm, 525, rfl⟩
abbrev main_c_49 : Ref sig .tc := ⟨.hbm, 526, rfl⟩
abbrev main_v291 : Ref sig .tc := ⟨.hbm, 527, rfl⟩
abbrev main_v292 : Ref sig .tc := ⟨.hbm, 528, rfl⟩
abbrev main_c_50 : Ref sig .tc := ⟨.hbm, 529, rfl⟩
abbrev main_v293 : Ref sig .tc := ⟨.hbm, 530, rfl⟩
abbrev main_v294 : Ref sig .tc := ⟨.hbm, 531, rfl⟩
abbrev main_v295 : Ref sig .tc := ⟨.hbm, 532, rfl⟩
abbrev main_v296 : Ref sig .tc := ⟨.hbm, 533, rfl⟩
abbrev main_v297 : Ref sig .tc := ⟨.hbm, 534, rfl⟩
abbrev main_v298 : Ref sig .tc := ⟨.hbm, 535, rfl⟩
abbrev main_c_51 : Ref sig .tc := ⟨.hbm, 536, rfl⟩
abbrev main_v299 : Ref sig .tc := ⟨.hbm, 537, rfl⟩
abbrev main_v300 : Ref sig .tc := ⟨.hbm, 538, rfl⟩
abbrev main_c_52 : Ref sig .tc := ⟨.hbm, 539, rfl⟩
abbrev main_v301 : Ref sig .tc := ⟨.hbm, 540, rfl⟩
abbrev main_v302 : Ref sig .tc := ⟨.hbm, 541, rfl⟩
abbrev main_v303 : Ref sig .tc := ⟨.hbm, 542, rfl⟩
abbrev main_v304 : Ref sig .tc := ⟨.hbm, 543, rfl⟩
abbrev main_v305 : Ref sig .tc := ⟨.hbm, 544, rfl⟩
abbrev main_v306 : Ref sig .tc := ⟨.hbm, 545, rfl⟩
abbrev main_call7_c : Ref sig .tc := ⟨.hbm, 546, rfl⟩
abbrev main_call7_v0 : Ref sig .tc := ⟨.hbm, 547, rfl⟩
abbrev main_call7_v1 : Ref sig .tc := ⟨.hbm, 548, rfl⟩
abbrev main_call7_c_0 : Ref sig .tc := ⟨.hbm, 549, rfl⟩
abbrev main_call7_v2 : Ref sig .tc := ⟨.hbm, 550, rfl⟩
abbrev main_call7_v3 : Ref sig .tc := ⟨.hbm, 551, rfl⟩
abbrev main_call7_v4 : Ref sig .tc := ⟨.hbm, 552, rfl⟩
abbrev main_call7_v5 : Ref sig .tc := ⟨.hbm, 553, rfl⟩
abbrev main_call7_c_1 : Ref sig .tc := ⟨.hbm, 554, rfl⟩
abbrev main_call7_c_2 : Ref sig .tc := ⟨.hbm, 555, rfl⟩
abbrev main_call7_v6 : Ref sig .tc := ⟨.hbm, 556, rfl⟩
abbrev main_call7_v7 : Ref sig .tc := ⟨.hbm, 557, rfl⟩
abbrev main_call7_v8 : Ref sig .tc := ⟨.hbm, 558, rfl⟩
abbrev main_call7_v9 : Ref sig .tc := ⟨.hbm, 559, rfl⟩
abbrev main_call7_v10 : Ref sig .tc := ⟨.hbm, 560, rfl⟩
abbrev main_call7_v11 : Ref sig .tc := ⟨.hbm, 561, rfl⟩
abbrev main_call7_c_3 : Ref sig .tc := ⟨.hbm, 562, rfl⟩
abbrev main_call7_v12 : Ref sig .tc := ⟨.hbm, 563, rfl⟩
abbrev main_call7_v13 : Ref sig .tc := ⟨.hbm, 564, rfl⟩
abbrev main_call7_v14 : Ref sig .tc := ⟨.hbm, 565, rfl⟩
abbrev main_call7_cst : Ref sig .tc := ⟨.hbm, 566, rfl⟩
abbrev main_call7_v15 : Ref sig .tc := ⟨.hbm, 567, rfl⟩
abbrev main_v307 : Ref sig .tc := ⟨.hbm, 568, rfl⟩
abbrev main_v308 : Ref sig .tc := ⟨.hbm, 569, rfl⟩
abbrev main_v309 : Ref sig .tc := ⟨.hbm, 570, rfl⟩
abbrev main_v310 : Ref sig .tc := ⟨.hbm, 571, rfl⟩
abbrev main_cst_53 : Ref sig .tc := ⟨.hbm, 572, rfl⟩
abbrev main_v311 : Ref sig .tc := ⟨.hbm, 573, rfl⟩
abbrev main_v312 : Ref sig .tc := ⟨.hbm, 574, rfl⟩
abbrev main_v313 : Ref sig .tc := ⟨.hbm, 575, rfl⟩
abbrev main_v314 : Ref sig .tc := ⟨.hbm, 576, rfl⟩
abbrev main_v315 : Ref sig .tc := ⟨.hbm, 577, rfl⟩
abbrev main_v316 : Ref sig .tc := ⟨.hbm, 578, rfl⟩
abbrev main_v317 : Ref sig .tc := ⟨.hbm, 579, rfl⟩
abbrev main_v318 : Ref sig .tc := ⟨.hbm, 580, rfl⟩
abbrev main_v319 : Ref sig .tc := ⟨.hbm, 581, rfl⟩
abbrev main_v320 : Ref sig .tc := ⟨.hbm, 582, rfl⟩
abbrev main_v321 : Ref sig .tc := ⟨.hbm, 583, rfl⟩
abbrev main_v322 : Ref sig .tc := ⟨.hbm, 584, rfl⟩
abbrev main_v323 : Ref sig .tc := ⟨.hbm, 585, rfl⟩
abbrev main_v324 : Ref sig .tc := ⟨.hbm, 586, rfl⟩
abbrev main_v325 : Ref sig .tc := ⟨.hbm, 587, rfl⟩
abbrev main_v326 : Ref sig .tc := ⟨.hbm, 588, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg1_1 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg3_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg2_0 : Ref sig .tc := ⟨.vmem, 39, rfl⟩
abbrev cc6_stg2_1 : Ref sig .tc := ⟨.vmem, 40, rfl⟩
abbrev cc7_stg0_0 : Ref sig .tc := ⟨.vmem, 41, rfl⟩
abbrev cc7_stg0_1 : Ref sig .tc := ⟨.vmem, 42, rfl⟩
abbrev cc7_stg1_0 : Ref sig .tc := ⟨.vmem, 43, rfl⟩
abbrev cc7_stg1_1 : Ref sig .tc := ⟨.vmem, 44, rfl⟩
abbrev cc7_stg2_0 : Ref sig .tc := ⟨.vmem, 45, rfl⟩
abbrev cc7_stg3_0 : Ref sig .tc := ⟨.vmem, 46, rfl⟩
abbrev cc7_stg3_1 : Ref sig .tc := ⟨.vmem, 47, rfl⟩
abbrev cc8_stg0_0 : Ref sig .tc := ⟨.vmem, 48, rfl⟩
abbrev cc8_stg0_1 : Ref sig .tc := ⟨.vmem, 49, rfl⟩
abbrev cc8_stg1_0 : Ref sig .tc := ⟨.vmem, 50, rfl⟩
abbrev cc8_stg2_0 : Ref sig .tc := ⟨.vmem, 51, rfl⟩
abbrev cc8_stg2_1 : Ref sig .tc := ⟨.vmem, 52, rfl⟩
abbrev cc9_stg0_0 : Ref sig .tc := ⟨.vmem, 53, rfl⟩
abbrev cc9_stg0_1 : Ref sig .tc := ⟨.vmem, 54, rfl⟩
abbrev cc9_stg1_0 : Ref sig .tc := ⟨.vmem, 55, rfl⟩
abbrev cc9_stg1_1 : Ref sig .tc := ⟨.vmem, 56, rfl⟩
abbrev cc9_stg2_0 : Ref sig .tc := ⟨.vmem, 57, rfl⟩
abbrev cc9_stg3_0 : Ref sig .tc := ⟨.vmem, 58, rfl⟩
abbrev cc9_stg3_1 : Ref sig .tc := ⟨.vmem, 59, rfl⟩
abbrev cc10_stg0_0 : Ref sig .tc := ⟨.vmem, 60, rfl⟩
abbrev cc10_stg0_1 : Ref sig .tc := ⟨.vmem, 61, rfl⟩
abbrev cc10_stg1_0 : Ref sig .tc := ⟨.vmem, 62, rfl⟩
abbrev cc10_stg2_0 : Ref sig .tc := ⟨.vmem, 63, rfl⟩
abbrev cc10_stg2_1 : Ref sig .tc := ⟨.vmem, 64, rfl⟩
abbrev cc11_stg0_0 : Ref sig .tc := ⟨.vmem, 65, rfl⟩
abbrev cc11_stg0_1 : Ref sig .tc := ⟨.vmem, 66, rfl⟩
abbrev cc11_stg1_0 : Ref sig .tc := ⟨.vmem, 67, rfl⟩
abbrev cc11_stg1_1 : Ref sig .tc := ⟨.vmem, 68, rfl⟩
abbrev cc11_stg2_0 : Ref sig .tc := ⟨.vmem, 69, rfl⟩
abbrev cc11_stg3_0 : Ref sig .tc := ⟨.vmem, 70, rfl⟩
abbrev cc11_stg3_1 : Ref sig .tc := ⟨.vmem, 71, rfl⟩
abbrev cc12_stg0_0 : Ref sig .tc := ⟨.vmem, 72, rfl⟩
abbrev cc12_stg0_1 : Ref sig .tc := ⟨.vmem, 73, rfl⟩
abbrev cc12_stg1_0 : Ref sig .tc := ⟨.vmem, 74, rfl⟩
abbrev cc12_stg2_0 : Ref sig .tc := ⟨.vmem, 75, rfl⟩
abbrev cc12_stg2_1 : Ref sig .tc := ⟨.vmem, 76, rfl⟩
abbrev cc13_stg0_0 : Ref sig .tc := ⟨.vmem, 77, rfl⟩
abbrev cc13_stg0_1 : Ref sig .tc := ⟨.vmem, 78, rfl⟩
abbrev cc13_stg1_0 : Ref sig .tc := ⟨.vmem, 79, rfl⟩
abbrev cc13_stg1_1 : Ref sig .tc := ⟨.vmem, 80, rfl⟩
abbrev cc13_stg2_0 : Ref sig .tc := ⟨.vmem, 81, rfl⟩
abbrev cc13_stg3_0 : Ref sig .tc := ⟨.vmem, 82, rfl⟩
abbrev cc13_stg3_1 : Ref sig .tc := ⟨.vmem, 83, rfl⟩
abbrev cc14_stg0_0 : Ref sig .tc := ⟨.vmem, 84, rfl⟩
abbrev cc14_stg0_1 : Ref sig .tc := ⟨.vmem, 85, rfl⟩
abbrev cc14_stg1_0 : Ref sig .tc := ⟨.vmem, 86, rfl⟩
abbrev cc14_stg2_0 : Ref sig .tc := ⟨.vmem, 87, rfl⟩
abbrev cc14_stg2_1 : Ref sig .tc := ⟨.vmem, 88, rfl⟩
abbrev cc15_stg0_0 : Ref sig .tc := ⟨.vmem, 89, rfl⟩
abbrev cc15_stg0_1 : Ref sig .tc := ⟨.vmem, 90, rfl⟩
abbrev cc15_stg1_0 : Ref sig .tc := ⟨.vmem, 91, rfl⟩
abbrev cc15_stg1_1 : Ref sig .tc := ⟨.vmem, 92, rfl⟩
abbrev cc15_stg2_0 : Ref sig .tc := ⟨.vmem, 93, rfl⟩
abbrev cc15_stg3_0 : Ref sig .tc := ⟨.vmem, 94, rfl⟩
abbrev cc15_stg3_1 : Ref sig .tc := ⟨.vmem, 95, rfl⟩
abbrev cc16_stg0_0 : Ref sig .tc := ⟨.vmem, 96, rfl⟩
abbrev cc16_stg0_1 : Ref sig .tc := ⟨.vmem, 97, rfl⟩
abbrev cc16_stg1_0 : Ref sig .tc := ⟨.vmem, 98, rfl⟩
abbrev cc16_stg2_0 : Ref sig .tc := ⟨.vmem, 99, rfl⟩
abbrev cc16_stg3_0 : Ref sig .tc := ⟨.vmem, 100, rfl⟩
abbrev cc16_stg3_1 : Ref sig .tc := ⟨.vmem, 101, rfl⟩
abbrev cc16_stg4_0 : Ref sig .tc := ⟨.vmem, 102, rfl⟩
abbrev cc16_stg5_0 : Ref sig .tc := ⟨.vmem, 103, rfl⟩
abbrev cc16_stg6_0 : Ref sig .tc := ⟨.vmem, 104, rfl⟩
abbrev cc16_stg6_1 : Ref sig .tc := ⟨.vmem, 105, rfl⟩
abbrev cc17_stg0_0 : Ref sig .tc := ⟨.vmem, 106, rfl⟩
abbrev cc17_stg0_1 : Ref sig .tc := ⟨.vmem, 107, rfl⟩
abbrev cc17_stg1_0 : Ref sig .tc := ⟨.vmem, 108, rfl⟩
abbrev cc17_stg2_0 : Ref sig .tc := ⟨.vmem, 109, rfl⟩
abbrev cc17_stg3_0 : Ref sig .tc := ⟨.vmem, 110, rfl⟩
abbrev cc17_stg3_1 : Ref sig .tc := ⟨.vmem, 111, rfl⟩
abbrev cc17_stg4_0 : Ref sig .tc := ⟨.vmem, 112, rfl⟩
abbrev cc17_stg5_0 : Ref sig .tc := ⟨.vmem, 113, rfl⟩
abbrev cc17_stg6_0 : Ref sig .tc := ⟨.vmem, 114, rfl⟩
abbrev cc17_stg6_1 : Ref sig .tc := ⟨.vmem, 115, rfl⟩
abbrev cc18_stg0_0 : Ref sig .tc := ⟨.vmem, 116, rfl⟩
abbrev cc18_stg0_1 : Ref sig .tc := ⟨.vmem, 117, rfl⟩
abbrev cc18_stg1_0 : Ref sig .tc := ⟨.vmem, 118, rfl⟩
abbrev cc18_stg2_0 : Ref sig .tc := ⟨.vmem, 119, rfl⟩
abbrev cc18_stg2_1 : Ref sig .tc := ⟨.vmem, 120, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem1_1 : DmaSem sig := 32
abbrev cc5_sem2_0 : DmaSem sig := 33
abbrev cc5_sem3_0 : DmaSem sig := 34
abbrev cc5_sem3_1 : DmaSem sig := 35
abbrev cc6_sem0_0 : DmaSem sig := 36
abbrev cc6_sem0_1 : DmaSem sig := 37
abbrev cc6_sem1_0 : DmaSem sig := 38
abbrev cc6_sem2_0 : DmaSem sig := 39
abbrev cc6_sem2_1 : DmaSem sig := 40
abbrev cc7_sem0_0 : DmaSem sig := 41
abbrev cc7_sem0_1 : DmaSem sig := 42
abbrev cc7_sem1_0 : DmaSem sig := 43
abbrev cc7_sem1_1 : DmaSem sig := 44
abbrev cc7_sem2_0 : DmaSem sig := 45
abbrev cc7_sem3_0 : DmaSem sig := 46
abbrev cc7_sem3_1 : DmaSem sig := 47
abbrev cc8_sem0_0 : DmaSem sig := 48
abbrev cc8_sem0_1 : DmaSem sig := 49
abbrev cc8_sem1_0 : DmaSem sig := 50
abbrev cc8_sem2_0 : DmaSem sig := 51
abbrev cc8_sem2_1 : DmaSem sig := 52
abbrev cc9_sem0_0 : DmaSem sig := 53
abbrev cc9_sem0_1 : DmaSem sig := 54
abbrev cc9_sem1_0 : DmaSem sig := 55
abbrev cc9_sem1_1 : DmaSem sig := 56
abbrev cc9_sem2_0 : DmaSem sig := 57
abbrev cc9_sem3_0 : DmaSem sig := 58
abbrev cc9_sem3_1 : DmaSem sig := 59
abbrev cc10_sem0_0 : DmaSem sig := 60
abbrev cc10_sem0_1 : DmaSem sig := 61
abbrev cc10_sem1_0 : DmaSem sig := 62
abbrev cc10_sem2_0 : DmaSem sig := 63
abbrev cc10_sem2_1 : DmaSem sig := 64
abbrev cc11_sem0_0 : DmaSem sig := 65
abbrev cc11_sem0_1 : DmaSem sig := 66
abbrev cc11_sem1_0 : DmaSem sig := 67
abbrev cc11_sem1_1 : DmaSem sig := 68
abbrev cc11_sem2_0 : DmaSem sig := 69
abbrev cc11_sem3_0 : DmaSem sig := 70
abbrev cc11_sem3_1 : DmaSem sig := 71
abbrev cc12_sem0_0 : DmaSem sig := 72
abbrev cc12_sem0_1 : DmaSem sig := 73
abbrev cc12_sem1_0 : DmaSem sig := 74
abbrev cc12_sem2_0 : DmaSem sig := 75
abbrev cc12_sem2_1 : DmaSem sig := 76
abbrev cc13_sem0_0 : DmaSem sig := 77
abbrev cc13_sem0_1 : DmaSem sig := 78
abbrev cc13_sem1_0 : DmaSem sig := 79
abbrev cc13_sem1_1 : DmaSem sig := 80
abbrev cc13_sem2_0 : DmaSem sig := 81
abbrev cc13_sem3_0 : DmaSem sig := 82
abbrev cc13_sem3_1 : DmaSem sig := 83
abbrev cc14_sem0_0 : DmaSem sig := 84
abbrev cc14_sem0_1 : DmaSem sig := 85
abbrev cc14_sem1_0 : DmaSem sig := 86
abbrev cc14_sem2_0 : DmaSem sig := 87
abbrev cc14_sem2_1 : DmaSem sig := 88
abbrev cc15_sem0_0 : DmaSem sig := 89
abbrev cc15_sem0_1 : DmaSem sig := 90
abbrev cc15_sem1_0 : DmaSem sig := 91
abbrev cc15_sem1_1 : DmaSem sig := 92
abbrev cc15_sem2_0 : DmaSem sig := 93
abbrev cc15_sem3_0 : DmaSem sig := 94
abbrev cc15_sem3_1 : DmaSem sig := 95
abbrev cc16_sem0_0 : DmaSem sig := 96
abbrev cc16_sem0_1 : DmaSem sig := 97
abbrev cc16_sem1_0 : DmaSem sig := 98
abbrev cc16_sem2_0 : DmaSem sig := 99
abbrev cc16_sem3_0 : DmaSem sig := 100
abbrev cc16_sem3_1 : DmaSem sig := 101
abbrev cc16_sem4_0 : DmaSem sig := 102
abbrev cc16_sem5_0 : DmaSem sig := 103
abbrev cc16_sem6_0 : DmaSem sig := 104
abbrev cc16_sem6_1 : DmaSem sig := 105
abbrev cc17_sem0_0 : DmaSem sig := 106
abbrev cc17_sem0_1 : DmaSem sig := 107
abbrev cc17_sem1_0 : DmaSem sig := 108
abbrev cc17_sem2_0 : DmaSem sig := 109
abbrev cc17_sem3_0 : DmaSem sig := 110
abbrev cc17_sem3_1 : DmaSem sig := 111
abbrev cc17_sem4_0 : DmaSem sig := 112
abbrev cc17_sem5_0 : DmaSem sig := 113
abbrev cc17_sem6_0 : DmaSem sig := 114
abbrev cc17_sem6_1 : DmaSem sig := 115
abbrev cc18_sem0_0 : DmaSem sig := 116
abbrev cc18_sem0_1 : DmaSem sig := 117
abbrev cc18_sem1_0 : DmaSem sig := 118
abbrev cc18_sem2_0 : DmaSem sig := 119
abbrev cc18_sem2_1 : DmaSem sig := 120

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1200x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1200x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1200x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1200x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1200x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1200x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1200x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1200x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1200x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1200x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1200x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1200x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1200x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1200x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S1200x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1200x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S1200x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S1200x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S1200x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S1200x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![5], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S1200x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S128x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S1200x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![5], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S1200x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S1200x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S1200x128 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev grid10 : Pipeline.Grid := ⟨1, ![5], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S1200x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S128x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S1200x128 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![5], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S1200x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S1200x128 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 1 → Memref sig .tc .vmem S1x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 2 → Memref sig .tc .vmem S1200x128 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

abbrev grid12 : Pipeline.Grid := ⟨1, ![5], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S1200x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S128x128 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 2 → Memref sig .tc .vmem S1200x128 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev grid13 : Pipeline.Grid := ⟨1, ![5], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S1200x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S1200x128 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 1 → Memref sig .tc .vmem S1x128 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 2 → Memref sig .tc .vmem S1200x128 .f32 := fun | 0 => Memref.whole cc13_stg3_0 | 1 => Memref.whole cc13_stg3_1 | ⟨_ + 2, h⟩ => absurd h (Nat.not_lt.2 (Nat.le_add_left _ _))
abbrev sem13_3 : Fin 2 → DmaSem sig := fun | 0 => cc13_sem3_0 | 1 => cc13_sem3_1 | ⟨_ + 2, h⟩ => absurd h (Nat.not_lt.2 (Nat.le_add_left _ _))
abbrev reads13_3 : Fin grid13.rank → Bool := ![true]

abbrev grid14 : Pipeline.Grid := ⟨1, ![5], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S1200x128 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S128x128 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 2 → Memref sig .tc .vmem S1200x128 .f32 := fun | 0 => Memref.whole cc14_stg2_0 | 1 => Memref.whole cc14_stg2_1 | ⟨_ + 2, h⟩ => absurd h (Nat.not_lt.2 (Nat.le_add_left _ _))
abbrev sem14_2 : Fin 2 → DmaSem sig := fun | 0 => cc14_sem2_0 | 1 => cc14_sem2_1 | ⟨_ + 2, h⟩ => absurd h (Nat.not_lt.2 (Nat.le_add_left _ _))
abbrev reads14_2 : Fin grid14.rank → Bool := ![true]

abbrev grid15 : Pipeline.Grid := ⟨1, ![5], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S1200x128 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 2 → Memref sig .tc .vmem S1200x128 .f32 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![true]

abbrev stage15_2 : Fin 1 → Memref sig .tc .vmem S1x128 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 2 → Memref sig .tc .vmem S1200x128 .f32 := fun | 0 => Memref.whole cc15_stg3_0 | 1 => Memref.whole cc15_stg3_1 | ⟨_ + 2, h⟩ => absurd h (Nat.not_lt.2 (Nat.le_add_left _ _))
abbrev sem15_3 : Fin 2 → DmaSem sig := fun | 0 => cc15_sem3_0 | 1 => cc15_sem3_1 | ⟨_ + 2, h⟩ => absurd h (Nat.not_lt.2 (Nat.le_add_left _ _))
abbrev reads15_3 : Fin grid15.rank → Bool := ![true]

abbrev grid16 : Pipeline.Grid := ⟨1, ![10], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_2 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_3 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_4 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_5 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_6 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 2 → Memref sig .tc .vmem S1200x128 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 1 → Memref sig .tc .vmem S128x128 .f32 := fun | 0 => Memref.whole cc16_stg1_0 | ⟨_ + 1, h⟩ => absurd h (Nat.not_lt.2 (Nat.le_add_left _ _))
abbrev sem16_1 : Fin 1 → DmaSem sig := fun | 0 => cc16_sem1_0 | ⟨_ + 1, h⟩ => absurd h (Nat.not_lt.2 (Nat.le_add_left _ _))
abbrev reads16_1 : Fin grid16.rank → Bool := ![false]

abbrev stage16_2 : Fin 1 → Memref sig .tc .vmem S1x128 .f32 := fun | 0 => Memref.whole cc16_stg2_0 | ⟨_ + 1, h⟩ => absurd h (Nat.not_lt.2 (Nat.le_add_left _ _))
abbrev sem16_2 : Fin 1 → DmaSem sig := fun | 0 => cc16_sem2_0 | ⟨_ + 1, h⟩ => absurd h (Nat.not_lt.2 (Nat.le_add_left _ _))
abbrev reads16_2 : Fin grid16.rank → Bool := ![false]

abbrev stage16_3 : Fin 2 → Memref sig .tc .vmem S1200x128 .f32 := fun | 0 => Memref.whole cc16_stg3_0 | 1 => Memref.whole cc16_stg3_1 | ⟨_ + 2, h⟩ => absurd h (Nat.not_lt.2 (Nat.le_add_left _ _))
abbrev sem16_3 : Fin 2 → DmaSem sig := fun | 0 => cc16_sem3_0 | 1 => cc16_sem3_1 | ⟨_ + 2, h⟩ => absurd h (Nat.not_lt.2 (Nat.le_add_left _ _))
abbrev reads16_3 : Fin grid16.rank → Bool := ![true]

abbrev stage16_4 : Fin 1 → Memref sig .tc .vmem S128x128 .f32 := fun | 0 => Memref.whole cc16_stg4_0 | ⟨_ + 1, h⟩ => absurd h (Nat.not_lt.2 (Nat.le_add_left _ _))
abbrev sem16_4 : Fin 1 → DmaSem sig := fun | 0 => cc16_sem4_0 | ⟨_ + 1, h⟩ => absurd h (Nat.not_lt.2 (Nat.le_add_left _ _))
abbrev reads16_4 : Fin grid16.rank → Bool := ![false]

abbrev stage16_5 : Fin 1 → Memref sig .tc .vmem S1x128 .f32 := fun | 0 => Memref.whole cc16_stg5_0 | ⟨_ + 1, h⟩ => absurd h (Nat.not_lt.2 (Nat.le_add_left _ _))
abbrev sem16_5 : Fin 1 → DmaSem sig := fun | 0 => cc16_sem5_0 | ⟨_ + 1, h⟩ => absurd h (Nat.not_lt.2 (Nat.le_add_left _ _))
abbrev reads16_5 : Fin grid16.rank → Bool := ![false]

abbrev stage16_6 : Fin 2 → Memref sig .tc .vmem S1200x128 .f32 := fun | 0 => Memref.whole cc16_stg6_0 | 1 => Memref.whole cc16_stg6_1 | ⟨_ + 2, h⟩ => absurd h (Nat.not_lt.2 (Nat.le_add_left _ _))
abbrev sem16_6 : Fin 2 → DmaSem sig := fun | 0 => cc16_sem6_0 | 1 => cc16_sem6_1 | ⟨_ + 2, h⟩ => absurd h (Nat.not_lt.2 (Nat.le_add_left _ _))
abbrev reads16_6 : Fin grid16.rank → Bool := ![true]

abbrev grid17 : Pipeline.Grid := ⟨1, ![5], ![false]⟩

def cc17_transform_0 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_1 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_2 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_3 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_4 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_5 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_6 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage17_0 : Fin 2 → Memref sig .tc .vmem S1200x128 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true]

abbrev stage17_1 : Fin 1 → Memref sig .tc .vmem S128x128 .f32 := fun | 0 => Memref.whole cc17_stg1_0 | ⟨_ + 1, h⟩ => absurd h (Nat.not_lt.2 (Nat.le_add_left _ _))
abbrev sem17_1 : Fin 1 → DmaSem sig := fun | 0 => cc17_sem1_0 | ⟨_ + 1, h⟩ => absurd h (Nat.not_lt.2 (Nat.le_add_left _ _))
abbrev reads17_1 : Fin grid17.rank → Bool := ![false]

abbrev stage17_2 : Fin 1 → Memref sig .tc .vmem S1x128 .f32 := fun | 0 => Memref.whole cc17_stg2_0 | ⟨_ + 1, h⟩ => absurd h (Nat.not_lt.2 (Nat.le_add_left _ _))
abbrev sem17_2 : Fin 1 → DmaSem sig := fun | 0 => cc17_sem2_0 | ⟨_ + 1, h⟩ => absurd h (Nat.not_lt.2 (Nat.le_add_left _ _))
abbrev reads17_2 : Fin grid17.rank → Bool := ![false]

abbrev stage17_3 : Fin 2 → Memref sig .tc .vmem S1200x128 .f32 := fun | 0 => Memref.whole cc17_stg3_0 | 1 => Memref.whole cc17_stg3_1 | ⟨_ + 2, h⟩ => absurd h (Nat.not_lt.2 (Nat.le_add_left _ _))
abbrev sem17_3 : Fin 2 → DmaSem sig := fun | 0 => cc17_sem3_0 | 1 => cc17_sem3_1 | ⟨_ + 2, h⟩ => absurd h (Nat.not_lt.2 (Nat.le_add_left _ _))
abbrev reads17_3 : Fin grid17.rank → Bool := ![true]

abbrev stage17_4 : Fin 1 → Memref sig .tc .vmem S128x128 .f32 := fun | 0 => Memref.whole cc17_stg4_0 | ⟨_ + 1, h⟩ => absurd h (Nat.not_lt.2 (Nat.le_add_left _ _))
abbrev sem17_4 : Fin 1 → DmaSem sig := fun | 0 => cc17_sem4_0 | ⟨_ + 1, h⟩ => absurd h (Nat.not_lt.2 (Nat.le_add_left _ _))
abbrev reads17_4 : Fin grid17.rank → Bool := ![false]

abbrev stage17_5 : Fin 1 → Memref sig .tc .vmem S1x128 .f32 := fun | 0 => Memref.whole cc17_stg5_0 | ⟨_ + 1, h⟩ => absurd h (Nat.not_lt.2 (Nat.le_add_left _ _))
abbrev sem17_5 : Fin 1 → DmaSem sig := fun | 0 => cc17_sem5_0 | ⟨_ + 1, h⟩ => absurd h (Nat.not_lt.2 (Nat.le_add_left _ _))
abbrev reads17_5 : Fin grid17.rank → Bool := ![false]

abbrev stage17_6 : Fin 2 → Memref sig .tc .vmem S1200x128 .f32 := fun | 0 => Memref.whole cc17_stg6_0 | 1 => Memref.whole cc17_stg6_1 | ⟨_ + 2, h⟩ => absurd h (Nat.not_lt.2 (Nat.le_add_left _ _))
abbrev sem17_6 : Fin 2 → DmaSem sig := fun | 0 => cc17_sem6_0 | 1 => cc17_sem6_1 | ⟨_ + 2, h⟩ => absurd h (Nat.not_lt.2 (Nat.le_add_left _ _))
abbrev reads17_6 : Fin grid17.rank → Bool := ![true]

abbrev grid18 : Pipeline.Grid := ⟨1, ![20], ![false]⟩

def cc18_transform_0 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_1 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_2 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage18_0 : Fin 2 → Memref sig .tc .vmem S600x128 .f32 := fun | 0 => Memref.whole cc18_stg0_0 | 1 => Memref.whole cc18_stg0_1 | ⟨_ + 2, h⟩ => absurd h (Nat.not_lt.2 (Nat.le_add_left _ _))
abbrev sem18_0 : Fin 2 → DmaSem sig := fun | 0 => cc18_sem0_0 | 1 => cc18_sem0_1 | ⟨_ + 2, h⟩ => absurd h (Nat.not_lt.2 (Nat.le_add_left _ _))
abbrev reads18_0 : Fin grid18.rank → Bool := ![true]

abbrev stage18_1 : Fin 1 → Memref sig .tc .vmem S6000x128 .f32 := fun | 0 => Memref.whole cc18_stg1_0 | ⟨_ + 1, h⟩ => absurd h (Nat.not_lt.2 (Nat.le_add_left _ _))
abbrev sem18_1 : Fin 1 → DmaSem sig := fun | 0 => cc18_sem1_0 | ⟨_ + 1, h⟩ => absurd h (Nat.not_lt.2 (Nat.le_add_left _ _))
abbrev reads18_1 : Fin grid18.rank → Bool := ![false]

abbrev stage18_2 : Fin 2 → Memref sig .tc .vmem S600x6000 .f32 := fun | 0 => Memref.whole cc18_stg2_0 | 1 => Memref.whole cc18_stg2_1 | ⟨_ + 2, h⟩ => absurd h (Nat.not_lt.2 (Nat.le_add_left _ _))
abbrev sem18_2 : Fin 2 → DmaSem sig := fun | 0 => cc18_sem2_0 | 1 => cc18_sem2_1 | ⟨_ + 2, h⟩ => absurd h (Nat.not_lt.2 (Nat.le_add_left _ _))
abbrev reads18_2 : Fin grid18.rank → Bool := ![true]

class Facts₀ : Prop where
  slices_S2x384000_S1x384000_0_0 : S2x384000.Slices ![0, 0] S1x384000
  shapeCasts_S1x384000_S384000 : S1x384000.ShapeCasts S384000
  slices_S2x384000_S1x384000_1_0 : S2x384000.Slices ![1, 0] S1x384000
  inb_S1200x128_S1200x128_0_0 : ∀ a, (![0, 0] : Fin 2 → Nat) a + S1200x128.size a ≤ S1200x128.size a
  h_S1200x128 : 0 < S1200x128.numel
  inb_S128x128_S128x128_0_0 : ∀ a, (![0, 0] : Fin 2 → Nat) a + S128x128.size a ≤ S128x128.size a
  h_S128x128 : 0 < S128x128.numel
  bcast_S_S12000 : S_.BroadcastsInDim S12000 (![] : Fin 0 → Fin S12000.rank)
  bcast_S384000_S384000x1_0 : S384000.BroadcastsInDim S384000x1 (![0] : Fin 1 → Fin S384000x1.rank)
  bcast_S_S384000 : S_.BroadcastsInDim S384000 (![] : Fin 0 → Fin S384000.rank)
  bcast_S_S384000x1 : S_.BroadcastsInDim S384000x1 (![] : Fin 0 → Fin S384000x1.rank)
  bcast_S1_S1x1_1 : S1.BroadcastsInDim S1x1 (![1] : Fin 1 → Fin S1x1.rank)
  bcast_S1x1_S384000x1_0_1 : S1x1.BroadcastsInDim S384000x1 (![0, 1] : Fin 2 → Fin S384000x1.rank)
  reducesTo_S384000x1_S384000_d1 : S384000x1.ReducesTo [1] S384000
  h_S_ : 0 < S_.numel
  bcast_S384000_S384000x128_0 : S384000.BroadcastsInDim S384000x128 (![0] : Fin 1 → Fin S384000x128.rank)
  bcast_S_S384000x128 : S_.BroadcastsInDim S384000x128 (![] : Fin 0 → Fin S384000x128.rank)
  bcast_S384000x1_S384000x128_0_1 : S384000x1.BroadcastsInDim S384000x128 (![0, 1] : Fin 2 → Fin S384000x128.rank)
  bcast_S_S12000x128 : S_.BroadcastsInDim S12000x128 (![] : Fin 0 → Fin S12000x128.rank)
  bcast_S12000_S12000x1_0 : S12000.BroadcastsInDim S12000x1 (![0] : Fin 1 → Fin S12000x1.rank)
  bcast_S12000x1_S12000x128_0_1 : S12000x1.BroadcastsInDim S12000x128 (![0, 1] : Fin 2 → Fin S12000x128.rank)
  shapeCasts_S128_S1x128 : S128.ShapeCasts S1x128
  shapeCasts_S1200x128_S1200x128 : S1200x128.ShapeCasts S1200x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1200x128 : S1x128.Broadcasts S1200x128
  slices_S2x192000_S1x192000_0_0 : S2x192000.Slices ![0, 0] S1x192000
  shapeCasts_S1x192000_S192000 : S1x192000.ShapeCasts S192000
  slices_S2x192000_S1x192000_1_0 : S2x192000.Slices ![1, 0] S1x192000
  bcast_S_S6000 : S_.BroadcastsInDim S6000 (![] : Fin 0 → Fin S6000.rank)
  bcast_S192000_S192000x1_0 : S192000.BroadcastsInDim S192000x1 (![0] : Fin 1 → Fin S192000x1.rank)
  bcast_S_S192000 : S_.BroadcastsInDim S192000 (![] : Fin 0 → Fin S192000.rank)
  bcast_S_S192000x1 : S_.BroadcastsInDim S192000x1 (![] : Fin 0 → Fin S192000x1.rank)
  bcast_S1x1_S192000x1_0_1 : S1x1.BroadcastsInDim S192000x1 (![0, 1] : Fin 2 → Fin S192000x1.rank)
  reducesTo_S192000x1_S192000_d1 : S192000x1.ReducesTo [1] S192000
  bcast_S192000_S192000x128_0 : S192000.BroadcastsInDim S192000x128 (![0] : Fin 1 → Fin S192000x128.rank)
  bcast_S_S192000x128 : S_.BroadcastsInDim S192000x128 (![] : Fin 0 → Fin S192000x128.rank)
  bcast_S192000x1_S192000x128_0_1 : S192000x1.BroadcastsInDim S192000x128 (![0, 1] : Fin 2 → Fin S192000x128.rank)
  bcast_S_S6000x128 : S_.BroadcastsInDim S6000x128 (![] : Fin 0 → Fin S6000x128.rank)
  bcast_S6000_S6000x1_0 : S6000.BroadcastsInDim S6000x1 (![0] : Fin 1 → Fin S6000x1.rank)
  bcast_S6000x1_S6000x128_0_1 : S6000x1.BroadcastsInDim S6000x128 (![0, 1] : Fin 2 → Fin S6000x128.rank)
  inb_S600x128_S600x128_0_0 : ∀ a, (![0, 0] : Fin 2 → Nat) a + S600x128.size a ≤ S600x128.size a
  h_S600x128 : 0 < S600x128.numel
  shapeCasts_S600x128_S600x128 : S600x128.ShapeCasts S600x128
  inb_S6000x128_S6000x128_0_0 : ∀ a, (![0, 0] : Fin 2 → Nat) a + S6000x128.size a ≤ S6000x128.size a
  h_S6000x128 : 0 < S6000x128.numel
  shapeCasts_S6000x128_S6000x128 : S6000x128.ShapeCasts S6000x128
  inb_S600x6000_S600x6000_0_0 : ∀ a, (![0, 0] : Fin 2 → Nat) a + S600x6000.size a ≤ S600x6000.size a
  h_S600x6000 : 0 < S600x6000.numel
  dot_S1200x128_S128x128_S1200x128_1_0_0_1_n_n_wf : DotDims.WF S1200x128 S128x128 S1200x128 [1] [0] [0] [1] [] []
  scatter_S12000_S384000x1_S384000_n_0_0_1_wf : ScatterDims.WF S12000 S384000x1 S384000 [] [0] [0] 1
  gather_S12000_S384000x1_S384000_n_0_n_n_0_1_1_wf : GatherDims.WF S12000 S384000x1 S384000 [] [0] [] [0] [] 1 ![1]
  gather_S12000x128_S384000x1_S384000x128_1_0_n_n_0_1_1128_wf : GatherDims.WF S12000x128 S384000x1 S384000x128 [1] [0] [] [0] [] 1 ![1, 128]
  scatter_S12000x128_S384000x1_S384000x128_1_0_0_1_wf : ScatterDims.WF S12000x128 S384000x1 S384000x128 [1] [0] [0] 1
  scatter_S6000_S192000x1_S192000_n_0_0_1_wf : ScatterDims.WF S6000 S192000x1 S192000 [] [0] [0] 1
  gather_S6000_S192000x1_S192000_n_0_n_n_0_1_1_wf : GatherDims.WF S6000 S192000x1 S192000 [] [0] [] [0] [] 1 ![1]
  gather_S6000x128_S192000x1_S192000x128_1_0_n_n_0_1_1128_wf : GatherDims.WF S6000x128 S192000x1 S192000x128 [1] [0] [] [0] [] 1 ![1, 128]
  scatter_S6000x128_S192000x1_S192000x128_1_0_0_1_wf : ScatterDims.WF S6000x128 S192000x1 S192000x128 [1] [0] [0] 1
  dot_S600x128_S6000x128_S600x6000_1_1_0_0_n_n_wf : DotDims.WF S600x128 S6000x128 S600x6000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1200x128.size a ≤ S12000x128.size a
  hwx0_0 : ∀ i : grid0.Coords, EltTy.bits .f32 = 32 ∨ (Rect.block (s := S12000x128) S1200x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1200x128.size a ≤ S12000x128.size a
  hwx0_2 : ∀ i : grid0.Coords, EltTy.bits .f32 = 32 ∨ (Rect.block (s := S12000x128) S1200x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1200x128.size a ≤ S12000x128.size a
  hwx1_0 : ∀ i : grid1.Coords, EltTy.bits .f32 = 32 ∨ (Rect.block (s := S12000x128) S1200x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1200x128.size a ≤ S12000x128.size a
  hwx1_1 : ∀ i : grid1.Coords, EltTy.bits .f32 = 32 ∨ (Rect.block (s := S12000x128) S1200x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1200x128.size a ≤ S12000x128.size a
  hwx1_3 : ∀ i : grid1.Coords, EltTy.bits .f32 = 32 ∨ (Rect.block (s := S12000x128) S1200x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1200x128.size a ≤ S12000x128.size a
  hwx2_0 : ∀ i : grid2.Coords, EltTy.bits .f32 = 32 ∨ (Rect.block (s := S12000x128) S1200x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1200x128.size a ≤ S12000x128.size a
  hwx2_2 : ∀ i : grid2.Coords, EltTy.bits .f32 = 32 ∨ (Rect.block (s := S12000x128) S1200x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1200x128.size a ≤ S12000x128.size a
  hwx3_0 : ∀ i : grid3.Coords, EltTy.bits .f32 = 32 ∨ (Rect.block (s := S12000x128) S1200x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1200x128.size a ≤ S12000x128.size a
  hwx3_1 : ∀ i : grid3.Coords, EltTy.bits .f32 = 32 ∨ (Rect.block (s := S12000x128) S1200x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1200x128.size a ≤ S12000x128.size a
  hwx3_3 : ∀ i : grid3.Coords, EltTy.bits .f32 = 32 ∨ (Rect.block (s := S12000x128) S1200x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1200x128.size a ≤ S12000x128.size a
  hwx4_0 : ∀ i : grid4.Coords, EltTy.bits .f32 = 32 ∨ (Rect.block (s := S12000x128) S1200x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1200x128.size a ≤ S12000x128.size a
  hwx4_2 : ∀ i : grid4.Coords, EltTy.bits .f32 = 32 ∨ (Rect.block (s := S12000x128) S1200x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1200x128.size a ≤ S12000x128.size a
  hwx5_0 : ∀ i : grid5.Coords, EltTy.bits .f32 = 32 ∨ (Rect.block (s := S12000x128) S1200x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1200x128.size a ≤ S12000x128.size a
  hwx5_1 : ∀ i : grid5.Coords, EltTy.bits .f32 = 32 ∨ (Rect.block (s := S12000x128) S1200x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1200x128.size a ≤ S12000x128.size a
  hwx5_3 : ∀ i : grid5.Coords, EltTy.bits .f32 = 32 ∨ (Rect.block (s := S12000x128) S1200x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1200x128.size a ≤ S12000x128.size a
  hwx6_0 : ∀ i : grid6.Coords, EltTy.bits .f32 = 32 ∨ (Rect.block (s := S12000x128) S1200x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1200x128.size a ≤ S12000x128.size a
  hwx6_2 : ∀ i : grid6.Coords, EltTy.bits .f32 = 32 ∨ (Rect.block (s := S12000x128) S1200x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1200x128.size a ≤ S12000x128.size a
  hwx7_0 : ∀ i : grid7.Coords, EltTy.bits .f32 = 32 ∨ (Rect.block (s := S12000x128) S1200x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S1200x128.size a ≤ S12000x128.size a
  hwx7_1 : ∀ i : grid7.Coords, EltTy.bits .f32 = 32 ∨ (Rect.block (s := S12000x128) S1200x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S1200x128.size a ≤ S12000x128.size a
  hwx7_3 : ∀ i : grid7.Coords, EltTy.bits .f32 = 32 ∨ (Rect.block (s := S12000x128) S1200x128.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1200x128.size a ≤ S6000x128.size a
  hwx8_0 : ∀ i : grid8.Coords, EltTy.bits .f32 = 32 ∨ (Rect.block (s := S6000x128) S1200x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x128.size a ≤ S128x128.size a
  hwx8_1 : ∀ i : grid8.Coords, EltTy.bits .f32 = 32 ∨ (Rect.block (s := S128x128) S128x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S1200x128.size a ≤ S6000x128.size a
  hwx8_2 : ∀ i : grid8.Coords, EltTy.bits .f32 = 32 ∨ (Rect.block (s := S6000x128) S1200x128.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S1200x128.size a ≤ S6000x128.size a
  hwx9_0 : ∀ i : grid9.Coords, EltTy.bits .f32 = 32 ∨ (Rect.block (s := S6000x128) S1200x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S1200x128.size a ≤ S6000x128.size a
  hwx9_1 : ∀ i : grid9.Coords, EltTy.bits .f32 = 32 ∨ (Rect.block (s := S6000x128) S1200x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S1200x128.size a ≤ S6000x128.size a
  hwx9_3 : ∀ i : grid9.Coords, EltTy.bits .f32 = 32 ∨ (Rect.block (s := S6000x128) S1200x128.size (cc9_transform_3 i) (hinb9_3 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S1200x128.size a ≤ S6000x128.size a
  hwx10_0 : ∀ i : grid10.Coords, EltTy.bits .f32 = 32 ∨ (Rect.block (s := S6000x128) S1200x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S128x128.size a ≤ S128x128.size a
  hwx10_1 : ∀ i : grid10.Coords, EltTy.bits .f32 = 32 ∨ (Rect.block (s := S128x128) S128x128.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S1200x128.size a ≤ S6000x128.size a
  hwx10_2 : ∀ i : grid10.Coords, EltTy.bits .f32 = 32 ∨ (Rect.block (s := S6000x128) S1200x128.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S1200x128.size a ≤ S6000x128.size a
  hwx11_0 : ∀ i : grid11.Coords, EltTy.bits .f32 = 32 ∨ (Rect.block (s := S6000x128) S1200x128.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S1200x128.size a ≤ S6000x128.size a
  hwx11_1 : ∀ i : grid11.Coords, EltTy.bits .f32 = 32 ∨ (Rect.block (s := S6000x128) S1200x128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x128.size a ≤ S1x128.size a
  hwx11_2 : ∀ i : grid11.Coords, EltTy.bits .f32 = 32 ∨ (Rect.block (s := S1x128) S1x128.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S1200x128.size a ≤ S6000x128.size a
  hwx11_3 : ∀ i : grid11.Coords, EltTy.bits .f32 = 32 ∨ (Rect.block (s := S6000x128) S1200x128.size (cc11_transform_3 i) (hinb11_3 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S1200x128.size a ≤ S6000x128.size a
  hwx12_0 : ∀ i : grid12.Coords, EltTy.bits .f32 = 32 ∨ (Rect.block (s := S6000x128) S1200x128.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S128x128.size a ≤ S128x128.size a
  hwx12_1 : ∀ i : grid12.Coords, EltTy.bits .f32 = 32 ∨ (Rect.block (s := S128x128) S128x128.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S1200x128.size a ≤ S6000x128.size a
  hwx12_2 : ∀ i : grid12.Coords, EltTy.bits .f32 = 32 ∨ (Rect.block (s := S6000x128) S1200x128.size (cc12_transform_2 i) (hinb12_2 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S1200x128.size a ≤ S6000x128.size a
  hwx13_0 : ∀ i : grid13.Coords, EltTy.bits .f32 = 32 ∨ (Rect.block (s := S6000x128) S1200x128.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S1200x128.size a ≤ S6000x128.size a
  hwx13_1 : ∀ i : grid13.Coords, EltTy.bits .f32 = 32 ∨ (Rect.block (s := S6000x128) S1200x128.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x128.size a ≤ S1x128.size a
  hwx13_2 : ∀ i : grid13.Coords, EltTy.bits .f32 = 32 ∨ (Rect.block (s := S1x128) S1x128.size (cc13_transform_2 i) (hinb13_2 i)).WholeWords (EltTy.packing .f32)
  hstage13_3 : ∀ j, (stage13_3 j).IsWhole
  nbuf13_3 : grid13.bufCount reads13_3 false = 2
  hreads13_3 : ∀ i i' : grid13.Coords, (∀ a, reads13_3 a = true → i a = i' a) → cc13_transform_3 i = cc13_transform_3 i'
  hinb13_3 : ∀ (i : grid13.Coords) a, (cc13_transform_3 i a + 1) * S1200x128.size a ≤ S6000x128.size a
  hwx13_3 : ∀ i : grid13.Coords, EltTy.bits .f32 = 32 ∨ (Rect.block (s := S6000x128) S1200x128.size (cc13_transform_3 i) (hinb13_3 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S1200x128.size a ≤ S6000x128.size a
  hwx14_0 : ∀ i : grid14.Coords, EltTy.bits .f32 = 32 ∨ (Rect.block (s := S6000x128) S1200x128.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S128x128.size a ≤ S128x128.size a
  hwx14_1 : ∀ i : grid14.Coords, EltTy.bits .f32 = 32 ∨ (Rect.block (s := S128x128) S128x128.size (cc14_transform_1 i) (hinb14_1 i)).WholeWords (EltTy.packing .f32)
  hstage14_2 : ∀ j, (stage14_2 j).IsWhole
  nbuf14_2 : grid14.bufCount reads14_2 false = 2
  hreads14_2 : ∀ i i' : grid14.Coords, (∀ a, reads14_2 a = true → i a = i' a) → cc14_transform_2 i = cc14_transform_2 i'
  hinb14_2 : ∀ (i : grid14.Coords) a, (cc14_transform_2 i a + 1) * S1200x128.size a ≤ S6000x128.size a
  hwx14_2 : ∀ i : grid14.Coords, EltTy.bits .f32 = 32 ∨ (Rect.block (s := S6000x128) S1200x128.size (cc14_transform_2 i) (hinb14_2 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S1200x128.size a ≤ S6000x128.size a
  hwx15_0 : ∀ i : grid15.Coords, EltTy.bits .f32 = 32 ∨ (Rect.block (s := S6000x128) S1200x128.size (cc15_transform_0 i) (hinb15_0 i)).WholeWords (EltTy.packing .f32)
  hstage15_1 : ∀ j, (stage15_1 j).IsWhole
  nbuf15_1 : grid15.bufCount reads15_1 false = 2
  hreads15_1 : ∀ i i' : grid15.Coords, (∀ a, reads15_1 a = true → i a = i' a) → cc15_transform_1 i = cc15_transform_1 i'
  hinb15_1 : ∀ (i : grid15.Coords) a, (cc15_transform_1 i a + 1) * S1200x128.size a ≤ S6000x128.size a
  hwx15_1 : ∀ i : grid15.Coords, EltTy.bits .f32 = 32 ∨ (Rect.block (s := S6000x128) S1200x128.size (cc15_transform_1 i) (hinb15_1 i)).WholeWords (EltTy.packing .f32)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S1x128.size a ≤ S1x128.size a
  hwx15_2 : ∀ i : grid15.Coords, EltTy.bits .f32 = 32 ∨ (Rect.block (s := S1x128) S1x128.size (cc15_transform_2 i) (hinb15_2 i)).WholeWords (EltTy.packing .f32)
  hstage15_3 : ∀ j, (stage15_3 j).IsWhole
  nbuf15_3 : grid15.bufCount reads15_3 false = 2
  hreads15_3 : ∀ i i' : grid15.Coords, (∀ a, reads15_3 a = true → i a = i' a) → cc15_transform_3 i = cc15_transform_3 i'
  hinb15_3 : ∀ (i : grid15.Coords) a, (cc15_transform_3 i a + 1) * S1200x128.size a ≤ S6000x128.size a
  hwx15_3 : ∀ i : grid15.Coords, EltTy.bits .f32 = 32 ∨ (Rect.block (s := S6000x128) S1200x128.size (cc15_transform_3 i) (hinb15_3 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S1200x128.size a ≤ S12000x128.size a
  hwx16_0 : ∀ i : grid16.Coords, EltTy.bits .f32 = 32 ∨ (Rect.block (s := S12000x128) S1200x128.size (cc16_transform_0 i) (hinb16_0 i)).WholeWords (EltTy.packing .f32)
  hstage16_1 : ∀ j, (stage16_1 j).IsWhole
  nbuf16_1 : grid16.bufCount reads16_1 true = 1
  hreads16_1 : ∀ i i' : grid16.Coords, (∀ a, reads16_1 a = true → i a = i' a) → cc16_transform_1 i = cc16_transform_1 i'
  hinb16_1 : ∀ (i : grid16.Coords) a, (cc16_transform_1 i a + 1) * S128x128.size a ≤ S128x128.size a
  hwx16_1 : ∀ i : grid16.Coords, EltTy.bits .f32 = 32 ∨ (Rect.block (s := S128x128) S128x128.size (cc16_transform_1 i) (hinb16_1 i)).WholeWords (EltTy.packing .f32)
  hstage16_2 : ∀ j, (stage16_2 j).IsWhole
  nbuf16_2 : grid16.bufCount reads16_2 true = 1
  hreads16_2 : ∀ i i' : grid16.Coords, (∀ a, reads16_2 a = true → i a = i' a) → cc16_transform_2 i = cc16_transform_2 i'
  hinb16_2 : ∀ (i : grid16.Coords) a, (cc16_transform_2 i a + 1) * S1x128.size a ≤ S1x128.size a
  hwx16_2 : ∀ i : grid16.Coords, EltTy.bits .f32 = 32 ∨ (Rect.block (s := S1x128) S1x128.size (cc16_transform_2 i) (hinb16_2 i)).WholeWords (EltTy.packing .f32)
  hstage16_3 : ∀ j, (stage16_3 j).IsWhole
  nbuf16_3 : grid16.bufCount reads16_3 false = 2
  hreads16_3 : ∀ i i' : grid16.Coords, (∀ a, reads16_3 a = true → i a = i' a) → cc16_transform_3 i = cc16_transform_3 i'
  hinb16_3 : ∀ (i : grid16.Coords) a, (cc16_transform_3 i a + 1) * S1200x128.size a ≤ S12000x128.size a
  hwx16_3 : ∀ i : grid16.Coords, EltTy.bits .f32 = 32 ∨ (Rect.block (s := S12000x128) S1200x128.size (cc16_transform_3 i) (hinb16_3 i)).WholeWords (EltTy.packing .f32)
  hstage16_4 : ∀ j, (stage16_4 j).IsWhole
  nbuf16_4 : grid16.bufCount reads16_4 true = 1
  hreads16_4 : ∀ i i' : grid16.Coords, (∀ a, reads16_4 a = true → i a = i' a) → cc16_transform_4 i = cc16_transform_4 i'
  hinb16_4 : ∀ (i : grid16.Coords) a, (cc16_transform_4 i a + 1) * S128x128.size a ≤ S128x128.size a
  hwx16_4 : ∀ i : grid16.Coords, EltTy.bits .f32 = 32 ∨ (Rect.block (s := S128x128) S128x128.size (cc16_transform_4 i) (hinb16_4 i)).WholeWords (EltTy.packing .f32)
  hstage16_5 : ∀ j, (stage16_5 j).IsWhole
  nbuf16_5 : grid16.bufCount reads16_5 true = 1
  hreads16_5 : ∀ i i' : grid16.Coords, (∀ a, reads16_5 a = true → i a = i' a) → cc16_transform_5 i = cc16_transform_5 i'
  hinb16_5 : ∀ (i : grid16.Coords) a, (cc16_transform_5 i a + 1) * S1x128.size a ≤ S1x128.size a
  hwx16_5 : ∀ i : grid16.Coords, EltTy.bits .f32 = 32 ∨ (Rect.block (s := S1x128) S1x128.size (cc16_transform_5 i) (hinb16_5 i)).WholeWords (EltTy.packing .f32)
  hstage16_6 : ∀ j, (stage16_6 j).IsWhole
  nbuf16_6 : grid16.bufCount reads16_6 false = 2
  hreads16_6 : ∀ i i' : grid16.Coords, (∀ a, reads16_6 a = true → i a = i' a) → cc16_transform_6 i = cc16_transform_6 i'
  hinb16_6 : ∀ (i : grid16.Coords) a, (cc16_transform_6 i a + 1) * S1200x128.size a ≤ S12000x128.size a
  hwx16_6 : ∀ i : grid16.Coords, EltTy.bits .f32 = 32 ∨ (Rect.block (s := S12000x128) S1200x128.size (cc16_transform_6 i) (hinb16_6 i)).WholeWords (EltTy.packing .f32)
  hrank17 : 0 < grid17.rank
  hstage17_0 : ∀ j, (stage17_0 j).IsWhole
  nbuf17_0 : grid17.bufCount reads17_0 false = 2
  hreads17_0 : ∀ i i' : grid17.Coords, (∀ a, reads17_0 a = true → i a = i' a) → cc17_transform_0 i = cc17_transform_0 i'
  hinb17_0 : ∀ (i : grid17.Coords) a, (cc17_transform_0 i a + 1) * S1200x128.size a ≤ S6000x128.size a
  hwx17_0 : ∀ i : grid17.Coords, EltTy.bits .f32 = 32 ∨ (Rect.block (s := S6000x128) S1200x128.size (cc17_transform_0 i) (hinb17_0 i)).WholeWords (EltTy.packing .f32)
  hstage17_1 : ∀ j, (stage17_1 j).IsWhole
  nbuf17_1 : grid17.bufCount reads17_1 true = 1
  hreads17_1 : ∀ i i' : grid17.Coords, (∀ a, reads17_1 a = true → i a = i' a) → cc17_transform_1 i = cc17_transform_1 i'
  hinb17_1 : ∀ (i : grid17.Coords) a, (cc17_transform_1 i a + 1) * S128x128.size a ≤ S128x128.size a
  hwx17_1 : ∀ i : grid17.Coords, EltTy.bits .f32 = 32 ∨ (Rect.block (s := S128x128) S128x128.size (cc17_transform_1 i) (hinb17_1 i)).WholeWords (EltTy.packing .f32)
  hstage17_2 : ∀ j, (stage17_2 j).IsWhole
  nbuf17_2 : grid17.bufCount reads17_2 true = 1
  hreads17_2 : ∀ i i' : grid17.Coords, (∀ a, reads17_2 a = true → i a = i' a) → cc17_transform_2 i = cc17_transform_2 i'
  hinb17_2 : ∀ (i : grid17.Coords) a, (cc17_transform_2 i a + 1) * S1x128.size a ≤ S1x128.size a
  hwx17_2 : ∀ i : grid17.Coords, EltTy.bits .f32 = 32 ∨ (Rect.block (s := S1x128) S1x128.size (cc17_transform_2 i) (hinb17_2 i)).WholeWords (EltTy.packing .f32)
  hstage17_3 : ∀ j, (stage17_3 j).IsWhole
  nbuf17_3 : grid17.bufCount reads17_3 false = 2
  hreads17_3 : ∀ i i' : grid17.Coords, (∀ a, reads17_3 a = true → i a = i' a) → cc17_transform_3 i = cc17_transform_3 i'
  hinb17_3 : ∀ (i : grid17.Coords) a, (cc17_transform_3 i a + 1) * S1200x128.size a ≤ S6000x128.size a
  hwx17_3 : ∀ i : grid17.Coords, EltTy.bits .f32 = 32 ∨ (Rect.block (s := S6000x128) S1200x128.size (cc17_transform_3 i) (hinb17_3 i)).WholeWords (EltTy.packing .f32)
  hstage17_4 : ∀ j, (stage17_4 j).IsWhole
  nbuf17_4 : grid17.bufCount reads17_4 true = 1
  hreads17_4 : ∀ i i' : grid17.Coords, (∀ a, reads17_4 a = true → i a = i' a) → cc17_transform_4 i = cc17_transform_4 i'
  hinb17_4 : ∀ (i : grid17.Coords) a, (cc17_transform_4 i a + 1) * S128x128.size a ≤ S128x128.size a
  hwx17_4 : ∀ i : grid17.Coords, EltTy.bits .f32 = 32 ∨ (Rect.block (s := S128x128) S128x128.size (cc17_transform_4 i) (hinb17_4 i)).WholeWords (EltTy.packing .f32)
  hstage17_5 : ∀ j, (stage17_5 j).IsWhole
  nbuf17_5 : grid17.bufCount reads17_5 true = 1
  hreads17_5 : ∀ i i' : grid17.Coords, (∀ a, reads17_5 a = true → i a = i' a) → cc17_transform_5 i = cc17_transform_5 i'
  hinb17_5 : ∀ (i : grid17.Coords) a, (cc17_transform_5 i a + 1) * S1x128.size a ≤ S1x128.size a
  hwx17_5 : ∀ i : grid17.Coords, EltTy.bits .f32 = 32 ∨ (Rect.block (s := S1x128) S1x128.size (cc17_transform_5 i) (hinb17_5 i)).WholeWords (EltTy.packing .f32)
  hstage17_6 : ∀ j, (stage17_6 j).IsWhole
  nbuf17_6 : grid17.bufCount reads17_6 false = 2
  hreads17_6 : ∀ i i' : grid17.Coords, (∀ a, reads17_6 a = true → i a = i' a) → cc17_transform_6 i = cc17_transform_6 i'
  hinb17_6 : ∀ (i : grid17.Coords) a, (cc17_transform_6 i a + 1) * S1200x128.size a ≤ S6000x128.size a
  hwx17_6 : ∀ i : grid17.Coords, EltTy.bits .f32 = 32 ∨ (Rect.block (s := S6000x128) S1200x128.size (cc17_transform_6 i) (hinb17_6 i)).WholeWords (EltTy.packing .f32)
  hrank18 : 0 < grid18.rank
  hstage18_0 : ∀ j, (stage18_0 j).IsWhole
  nbuf18_0 : grid18.bufCount reads18_0 false = 2
  hreads18_0 : ∀ i i' : grid18.Coords, (∀ a, reads18_0 a = true → i a = i' a) → cc18_transform_0 i = cc18_transform_0 i'
  hinb18_0 : ∀ (i : grid18.Coords) a, (cc18_transform_0 i a + 1) * S600x128.size a ≤ S12000x128.size a
  hwx18_0 : ∀ i : grid18.Coords, EltTy.bits .f32 = 32 ∨ (Rect.block (s := S12000x128) S600x128.size (cc18_transform_0 i) (hinb18_0 i)).WholeWords (EltTy.packing .f32)
  hstage18_1 : ∀ j, (stage18_1 j).IsWhole
  nbuf18_1 : grid18.bufCount reads18_1 true = 1
  hreads18_1 : ∀ i i' : grid18.Coords, (∀ a, reads18_1 a = true → i a = i' a) → cc18_transform_1 i = cc18_transform_1 i'
  hinb18_1 : ∀ (i : grid18.Coords) a, (cc18_transform_1 i a + 1) * S6000x128.size a ≤ S6000x128.size a
  hwx18_1 : ∀ i : grid18.Coords, EltTy.bits .f32 = 32 ∨ (Rect.block (s := S6000x128) S6000x128.size (cc18_transform_1 i) (hinb18_1 i)).WholeWords (EltTy.packing .f32)
  hstage18_2 : ∀ j, (stage18_2 j).IsWhole
  nbuf18_2 : grid18.bufCount reads18_2 false = 2
  hreads18_2 : ∀ i i' : grid18.Coords, (∀ a, reads18_2 a = true → i a = i' a) → cc18_transform_2 i = cc18_transform_2 i'
  hinb18_2 : ∀ (i : grid18.Coords) a, (cc18_transform_2 i a + 1) * S600x6000.size a ≤ S12000x6000.size a
  hwx18_2 : ∀ i : grid18.Coords, EltTy.bits .f32 = 32 ∨ (Rect.block (s := S12000x6000) S600x6000.size (cc18_transform_2 i) (hinb18_2 i)).WholeWords (EltTy.packing .f32)

variable [Facts₀]

def dot_S1200x128_S128x128_S1200x128_1_0_0_1_n_n : DotDims S1200x128 S128x128 S1200x128 where
  lhsContracting := [1]
  rhsContracting := [0]
  lhsNonContracting := [0]
  rhsNonContracting := [1]
  lhsBatch := []
  rhsBatch := []
  wf := dot_S1200x128_S128x128_S1200x128_1_0_0_1_n_n_wf
def scatter_S12000_S384000x1_S384000_n_0_0_1 : ScatterDims S12000 S384000x1 S384000 where
  updateWindowDims := []
  insertedWindowDims := [0]
  scatterDimsToOperandDims := [0]
  indexVectorDim := 1
  wf := scatter_S12000_S384000x1_S384000_n_0_0_1_wf
def gather_S12000_S384000x1_S384000_n_0_n_n_0_1_1 : GatherDims S12000 S384000x1 S384000 where
  offsetDims := []
  collapsedSliceDims := [0]
  operandBatchingDims := []
  startIndicesBatchingDims := []
  startIndexMap := [0]
  indexVectorDim := 1
  sliceSizes := ![1]
  wf := gather_S12000_S384000x1_S384000_n_0_n_n_0_1_1_wf
def gather_S12000x128_S384000x1_S384000x128_1_0_n_n_0_1_1128 : GatherDims S12000x128 S384000x1 S384000x128 where
  offsetDims := [1]
  collapsedSliceDims := [0]
  operandBatchingDims := []
  startIndicesBatchingDims := []
  startIndexMap := [0]
  indexVectorDim := 1
  sliceSizes := ![1, 128]
  wf := gather_S12000x128_S384000x1_S384000x128_1_0_n_n_0_1_1128_wf
def scatter_S12000x128_S384000x1_S384000x128_1_0_0_1 : ScatterDims S12000x128 S384000x1 S384000x128 where
  updateWindowDims := [1]
  insertedWindowDims := [0]
  scatterDimsToOperandDims := [0]
  indexVectorDim := 1
  wf := scatter_S12000x128_S384000x1_S384000x128_1_0_0_1_wf
def scatter_S6000_S192000x1_S192000_n_0_0_1 : ScatterDims S6000 S192000x1 S192000 where
  updateWindowDims := []
  insertedWindowDims := [0]
  scatterDimsToOperandDims := [0]
  indexVectorDim := 1
  wf := scatter_S6000_S192000x1_S192000_n_0_0_1_wf
def gather_S6000_S192000x1_S192000_n_0_n_n_0_1_1 : GatherDims S6000 S192000x1 S192000 where
  offsetDims := []
  collapsedSliceDims := [0]
  operandBatchingDims := []
  startIndicesBatchingDims := []
  startIndexMap := [0]
  indexVectorDim := 1
  sliceSizes := ![1]
  wf := gather_S6000_S192000x1_S192000_n_0_n_n_0_1_1_wf
def gather_S6000x128_S192000x1_S192000x128_1_0_n_n_0_1_1128 : GatherDims S6000x128 S192000x1 S192000x128 where
  offsetDims := [1]
  collapsedSliceDims := [0]
  operandBatchingDims := []
  startIndicesBatchingDims := []
  startIndexMap := [0]
  indexVectorDim := 1
  sliceSizes := ![1, 128]
  wf := gather_S6000x128_S192000x1_S192000x128_1_0_n_n_0_1_1128_wf
def scatter_S6000x128_S192000x1_S192000x128_1_0_0_1 : ScatterDims S6000x128 S192000x1 S192000x128 where
  updateWindowDims := [1]
  insertedWindowDims := [0]
  scatterDimsToOperandDims := [0]
  indexVectorDim := 1
  wf := scatter_S6000x128_S192000x1_S192000x128_1_0_0_1_wf
def dot_S600x128_S6000x128_S600x6000_1_1_0_0_n_n : DotDims S600x128 S6000x128 S600x6000 where
  lhsContracting := [1]
  rhsContracting := [1]
  lhsNonContracting := [0]
  rhsNonContracting := [0]
  lhsBatch := []
  rhsBatch := []
  wf := dot_S600x128_S6000x128_S600x6000_1_1_0_0_n_n_wf

abbrev win0_0 : Pipeline.Window sig grid0 :=
  Pipeline.Window.ofSpec (Memref.whole main_arg0) S1200x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg10) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1200x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v33) S1200x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S1200x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v38) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1200x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v39) S1200x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg12) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S1200x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v73) S1200x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v77) S1200x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v78) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v79) S1200x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_arg0) S1200x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg14) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v84) S1200x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v113) S1200x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v117) S1200x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v118) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v119) S1200x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v119) S1200x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg16) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v124) S1200x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v153) S1200x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v157) S1200x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v158) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v159) S1200x128.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_arg1) S1200x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg18) S128x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v164) S1200x128.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v193) S1200x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v197) S1200x128.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v198) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v199) S1200x128.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v199) S1200x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_arg20) S128x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v204) S1200x128.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v233) S1200x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v237) S1200x128.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v238) S1x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v239) S1200x128.size cc11_transform_3 reads11_3 true false 2 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

abbrev win12_0 : Pipeline.Window sig grid12 :=
  Pipeline.Window.ofSpec (Memref.whole main_arg1) S1200x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_arg22) S128x128.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v244) S1200x128.size cc12_transform_2 reads12_2 true false 2 stage12_2 sem12_2
    hrank12 hreads12_2 hinb12_2 nbuf12_2 (Memref.isWhole_whole _) hwx12_2 hstage12_2

abbrev win12 : Fin 3 → Pipeline.Window sig grid12 := fun | 0 => win12_0 | 1 => win12_1 | 2 => win12_2 | ⟨_ + 3, h⟩ => absurd h (Nat.not_lt.2 (Nat.le_add_left _ _))
abbrev spec12 : Fin 3 → Pipeline.WinSpec sig grid12.rank := fun w => (win12 w).toWinSpec

abbrev win13_0 : Pipeline.Window sig grid13 :=
  Pipeline.Window.ofSpec (Memref.whole main_v273) S1200x128.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v277) S1200x128.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v278) S1x128.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v279) S1200x128.size cc13_transform_3 reads13_3 true false 2 stage13_3 sem13_3
    hrank13 hreads13_3 hinb13_3 nbuf13_3 (Memref.isWhole_whole _) hwx13_3 hstage13_3

abbrev win13 : Fin 4 → Pipeline.Window sig grid13 := fun | 0 => win13_0 | 1 => win13_1 | 2 => win13_2 | 3 => win13_3 | ⟨_ + 4, h⟩ => absurd h (Nat.not_lt.2 (Nat.le_add_left _ _))
abbrev spec13 : Fin 4 → Pipeline.WinSpec sig grid13.rank := fun w => (win13 w).toWinSpec

abbrev win14_0 : Pipeline.Window sig grid14 :=
  Pipeline.Window.ofSpec (Memref.whole main_v279) S1200x128.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_arg24) S128x128.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v284) S1200x128.size cc14_transform_2 reads14_2 true false 2 stage14_2 sem14_2
    hrank14 hreads14_2 hinb14_2 nbuf14_2 (Memref.isWhole_whole _) hwx14_2 hstage14_2

abbrev win14 : Fin 3 → Pipeline.Window sig grid14 := fun | 0 => win14_0 | 1 => win14_1 | 2 => win14_2 | ⟨_ + 3, h⟩ => absurd h (Nat.not_lt.2 (Nat.le_add_left _ _))
abbrev spec14 : Fin 3 → Pipeline.WinSpec sig grid14.rank := fun w => (win14 w).toWinSpec

abbrev win15_0 : Pipeline.Window sig grid15 :=
  Pipeline.Window.ofSpec (Memref.whole main_v313) S1200x128.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v317) S1200x128.size cc15_transform_1 reads15_1 false false 2 stage15_1 sem15_1
    hrank15 hreads15_1 hinb15_1 nbuf15_1 (Memref.isWhole_whole _) hwx15_1 hstage15_1

abbrev win15_2 : Pipeline.Window sig grid15 :=
  Pipeline.Window.ofSpec (Memref.whole main_v318) S1x128.size cc15_transform_2 reads15_2 false true 1 stage15_2 sem15_2
    hrank15 hreads15_2 hinb15_2 nbuf15_2 (Memref.isWhole_whole _) hwx15_2 hstage15_2

abbrev win15_3 : Pipeline.Window sig grid15 :=
  Pipeline.Window.ofSpec (Memref.whole main_v319) S1200x128.size cc15_transform_3 reads15_3 true false 2 stage15_3 sem15_3
    hrank15 hreads15_3 hinb15_3 nbuf15_3 (Memref.isWhole_whole _) hwx15_3 hstage15_3

abbrev win15 : Fin 4 → Pipeline.Window sig grid15 := fun | 0 => win15_0 | 1 => win15_1 | 2 => win15_2 | 3 => win15_3 | ⟨_ + 4, h⟩ => absurd h (Nat.not_lt.2 (Nat.le_add_left _ _))
abbrev spec15 : Fin 4 → Pipeline.WinSpec sig grid15.rank := fun w => (win15 w).toWinSpec

abbrev win16_0 : Pipeline.Window sig grid16 :=
  Pipeline.Window.ofSpec (Memref.whole main_v79) S1200x128.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_arg26) S128x128.size cc16_transform_1 reads16_1 false true 1 stage16_1 sem16_1
    hrank16 hreads16_1 hinb16_1 nbuf16_1 (Memref.isWhole_whole _) hwx16_1 hstage16_1

abbrev win16_2 : Pipeline.Window sig grid16 :=
  Pipeline.Window.ofSpec (Memref.whole main_v320) S1x128.size cc16_transform_2 reads16_2 false true 1 stage16_2 sem16_2
    hrank16 hreads16_2 hinb16_2 nbuf16_2 (Memref.isWhole_whole _) hwx16_2 hstage16_2

abbrev win16_3 : Pipeline.Window sig grid16 :=
  Pipeline.Window.ofSpec (Memref.whole main_v159) S1200x128.size cc16_transform_3 reads16_3 false false 2 stage16_3 sem16_3
    hrank16 hreads16_3 hinb16_3 nbuf16_3 (Memref.isWhole_whole _) hwx16_3 hstage16_3

abbrev win16_4 : Pipeline.Window sig grid16 :=
  Pipeline.Window.ofSpec (Memref.whole main_arg28) S128x128.size cc16_transform_4 reads16_4 false true 1 stage16_4 sem16_4
    hrank16 hreads16_4 hinb16_4 nbuf16_4 (Memref.isWhole_whole _) hwx16_4 hstage16_4

abbrev win16_5 : Pipeline.Window sig grid16 :=
  Pipeline.Window.ofSpec (Memref.whole main_v321) S1x128.size cc16_transform_5 reads16_5 false true 1 stage16_5 sem16_5
    hrank16 hreads16_5 hinb16_5 nbuf16_5 (Memref.isWhole_whole _) hwx16_5 hstage16_5

abbrev win16_6 : Pipeline.Window sig grid16 :=
  Pipeline.Window.ofSpec (Memref.whole main_v322) S1200x128.size cc16_transform_6 reads16_6 true false 2 stage16_6 sem16_6
    hrank16 hreads16_6 hinb16_6 nbuf16_6 (Memref.isWhole_whole _) hwx16_6 hstage16_6

abbrev win16 : Fin 7 → Pipeline.Window sig grid16 := fun | 0 => win16_0 | 1 => win16_1 | 2 => win16_2 | 3 => win16_3 | 4 => win16_4 | 5 => win16_5 | 6 => win16_6 | ⟨_ + 7, h⟩ => absurd h (Nat.not_lt.2 (Nat.le_add_left _ _))
abbrev spec16 : Fin 7 → Pipeline.WinSpec sig grid16.rank := fun w => (win16 w).toWinSpec

abbrev win17_0 : Pipeline.Window sig grid17 :=
  Pipeline.Window.ofSpec (Memref.whole main_v239) S1200x128.size cc17_transform_0 reads17_0 false false 2 stage17_0 sem17_0
    hrank17 hreads17_0 hinb17_0 nbuf17_0 (Memref.isWhole_whole _) hwx17_0 hstage17_0

abbrev win17_1 : Pipeline.Window sig grid17 :=
  Pipeline.Window.ofSpec (Memref.whole main_arg26) S128x128.size cc17_transform_1 reads17_1 false true 1 stage17_1 sem17_1
    hrank17 hreads17_1 hinb17_1 nbuf17_1 (Memref.isWhole_whole _) hwx17_1 hstage17_1

abbrev win17_2 : Pipeline.Window sig grid17 :=
  Pipeline.Window.ofSpec (Memref.whole main_v323) S1x128.size cc17_transform_2 reads17_2 false true 1 stage17_2 sem17_2
    hrank17 hreads17_2 hinb17_2 nbuf17_2 (Memref.isWhole_whole _) hwx17_2 hstage17_2

abbrev win17_3 : Pipeline.Window sig grid17 :=
  Pipeline.Window.ofSpec (Memref.whole main_v319) S1200x128.size cc17_transform_3 reads17_3 false false 2 stage17_3 sem17_3
    hrank17 hreads17_3 hinb17_3 nbuf17_3 (Memref.isWhole_whole _) hwx17_3 hstage17_3

abbrev win17_4 : Pipeline.Window sig grid17 :=
  Pipeline.Window.ofSpec (Memref.whole main_arg28) S128x128.size cc17_transform_4 reads17_4 false true 1 stage17_4 sem17_4
    hrank17 hreads17_4 hinb17_4 nbuf17_4 (Memref.isWhole_whole _) hwx17_4 hstage17_4

abbrev win17_5 : Pipeline.Window sig grid17 :=
  Pipeline.Window.ofSpec (Memref.whole main_v324) S1x128.size cc17_transform_5 reads17_5 false true 1 stage17_5 sem17_5
    hrank17 hreads17_5 hinb17_5 nbuf17_5 (Memref.isWhole_whole _) hwx17_5 hstage17_5

abbrev win17_6 : Pipeline.Window sig grid17 :=
  Pipeline.Window.ofSpec (Memref.whole main_v325) S1200x128.size cc17_transform_6 reads17_6 true false 2 stage17_6 sem17_6
    hrank17 hreads17_6 hinb17_6 nbuf17_6 (Memref.isWhole_whole _) hwx17_6 hstage17_6

abbrev win17 : Fin 7 → Pipeline.Window sig grid17 := fun | 0 => win17_0 | 1 => win17_1 | 2 => win17_2 | 3 => win17_3 | 4 => win17_4 | 5 => win17_5 | 6 => win17_6 | ⟨_ + 7, h⟩ => absurd h (Nat.not_lt.2 (Nat.le_add_left _ _))
abbrev spec17 : Fin 7 → Pipeline.WinSpec sig grid17.rank := fun w => (win17 w).toWinSpec

abbrev win18_0 : Pipeline.Window sig grid18 :=
  Pipeline.Window.ofSpec (Memref.whole main_v322) S600x128.size cc18_transform_0 reads18_0 false false 2 stage18_0 sem18_0
    hrank18 hreads18_0 hinb18_0 nbuf18_0 (Memref.isWhole_whole _) hwx18_0 hstage18_0

abbrev win18_1 : Pipeline.Window sig grid18 :=
  Pipeline.Window.ofSpec (Memref.whole main_v325) S6000x128.size cc18_transform_1 reads18_1 false true 1 stage18_1 sem18_1
    hrank18 hreads18_1 hinb18_1 nbuf18_1 (Memref.isWhole_whole _) hwx18_1 hstage18_1

abbrev win18_2 : Pipeline.Window sig grid18 :=
  Pipeline.Window.ofSpec (Memref.whole main_v326) S600x6000.size cc18_transform_2 reads18_2 true false 2 stage18_2 sem18_2
    hrank18 hreads18_2 hinb18_2 nbuf18_2 (Memref.isWhole_whole _) hwx18_2 hstage18_2

abbrev win18 : Fin 3 → Pipeline.Window sig grid18 := fun | 0 => win18_0 | 1 => win18_1 | 2 => win18_2 | ⟨_ + 3, h⟩ => absurd h (Nat.not_lt.2 (Nat.le_add_left _ _))
abbrev spec18 : Fin 3 → Pipeline.WinSpec sig grid18.rank := fun w => (win18 w).toWinSpec

class Facts : Prop extends Facts₀ where

variable [Facts]
-- ==== ReferenceIdeal.lean ====
abbrev S12000x128 : Shape := ⟨2, ![12000, 128]⟩
abbrev S6000x128 : Shape := ⟨2, ![6000, 128]⟩
abbrev S2x384000 : Shape := ⟨2, ![2, 384000]⟩
abbrev S384000 : Shape := ⟨1, ![384000]⟩
abbrev S2x192000 : Shape := ⟨2, ![2, 192000]⟩
abbrev S192000 : Shape := ⟨1, ![192000]⟩
abbrev S128x128 : Shape := ⟨2, ![128, 128]⟩
abbrev S128 : Shape := ⟨1, ![128]⟩
abbrev S1x384000 : Shape := ⟨2, ![1, 384000]⟩
abbrev S_ : Shape := ⟨0, ![]⟩
abbrev S12000 : Shape := ⟨1, ![12000]⟩
abbrev S384000x1 : Shape := ⟨2, ![384000, 1]⟩
abbrev S384000x128 : Shape := ⟨2, ![384000, 128]⟩
abbrev S12000x1 : Shape := ⟨2, ![12000, 1]⟩
abbrev S1x128 : Shape := ⟨2, ![1, 128]⟩
abbrev S1x192000 : Shape := ⟨2, ![1, 192000]⟩
abbrev S6000 : Shape := ⟨1, ![6000]⟩
abbrev S192000x1 : Shape := ⟨2, ![192000, 1]⟩
abbrev S192000x128 : Shape := ⟨2, ![192000, 128]⟩
abbrev S6000x1 : Shape := ⟨2, ![6000, 1]⟩
abbrev S128x6000 : Shape := ⟨2, ![128, 6000]⟩
abbrev S12000x6000 : Shape := ⟨2, ![12000, 6000]⟩

abbrev nBuf : Space → Nat
  | .hbm => 536
  | .vmem => 0
  | .smem => 0
  | _ => 0

abbrev hbmTy0_0 (i : Nat) : BufTy := match i % 128 with
  | 0 => ⟨S12000x128, .f32⟩
  | 1 => ⟨S6000x128, .f32⟩
  | 2 => ⟨S2x384000, .i32⟩
  | 3 => ⟨S384000, .f32⟩
  | 4 => ⟨S2x384000, .i32⟩
  | 5 => ⟨S384000, .f32⟩
  | 6 => ⟨S2x192000, .i32⟩
  | 7 => ⟨S192000, .f32⟩
  | 8 => ⟨S2x192000, .i32⟩
  | 9 => ⟨S192000, .f32⟩
  | 10 => ⟨S128x128, .f32⟩
  | 11 => ⟨S128, .f32⟩
  | 12 => ⟨S128x128, .f32⟩
  | 13 => ⟨S128, .f32⟩
  | 14 => ⟨S128x128, .f32⟩
  | 15 => ⟨S128, .f32⟩
  | 16 => ⟨S128x128, .f32⟩
  | 17 => ⟨S128, .f32⟩
  | 18 => ⟨S128x128, .f32⟩
  | 19 => ⟨S128, .f32⟩
  | 20 => ⟨S128x128, .f32⟩
  | 21 => ⟨S128, .f32⟩
  | 22 => ⟨S128x128, .f32⟩
  | 23 => ⟨S128, .f32⟩
  | 24 => ⟨S128x128, .f32⟩
  | 25 => ⟨S128, .f32⟩
  | 26 => ⟨S128x128, .f32⟩
  | 27 => ⟨S128, .f32⟩
  | 28 => ⟨S128x128, .f32⟩
  | 29 => ⟨S128, .f32⟩
  | 30 => ⟨S1x384000, .i32⟩
  | 31 => ⟨S384000, .i32⟩
  | 32 => ⟨S1x384000, .i32⟩
  | 33 => ⟨S384000, .i32⟩
  | 34 => ⟨S12000x128, .f32⟩
  | 35 => ⟨S_, .f32⟩
  | 36 => ⟨S12000, .f32⟩
  | 37 => ⟨S384000x1, .i32⟩
  | 38 => ⟨S12000, .f32⟩
  | 39 => ⟨S_, .f32⟩
  | 40 => ⟨S12000, .f32⟩
  | 41 => ⟨S12000, .f32⟩
  | 42 => ⟨S12000, .f32⟩
  | 43 => ⟨S_, .i32⟩
  | 44 => ⟨S384000, .i32⟩
  | 45 => ⟨S384000, .i1⟩
  | 46 => ⟨S_, .i32⟩
  | 47 => ⟨S384000, .i32⟩
  | 48 => ⟨S384000, .i32⟩
  | 49 => ⟨S384000, .i32⟩
  | 50 => ⟨S384000x1, .i32⟩
  | 51 => ⟨S384000, .f32⟩
  | 52 => ⟨S384000, .f32⟩
  | 53 => ⟨S_, .i32⟩
  | 54 => ⟨S384000, .i32⟩
  | 55 => ⟨S384000, .i1⟩
  | 56 => ⟨S_, .i32⟩
  | 57 => ⟨S384000, .i32⟩
  | 58 => ⟨S384000, .i32⟩
  | 59 => ⟨S384000, .i32⟩
  | 60 => ⟨S384000x1, .i32⟩
  | 61 => ⟨S384000, .f32⟩
  | 62 => ⟨S384000, .f32⟩
  | 63 => ⟨S384000x1, .f32⟩
  | 64 => ⟨S_, .i32⟩
  | 65 => ⟨S384000, .i32⟩
  | 66 => ⟨S384000, .i1⟩
  | 67 => ⟨S_, .i32⟩
  | 68 => ⟨S384000, .i32⟩
  | 69 => ⟨S384000, .i32⟩
  | 70 => ⟨S384000, .i32⟩
  | 71 => ⟨S384000x1, .i32⟩
  | 72 => ⟨S384000x128, .f32⟩
  | 73 => ⟨S384000x128, .f32⟩
  | 74 => ⟨S384000x128, .f32⟩
  | 75 => ⟨S_, .f32⟩
  | 76 => ⟨S12000x128, .f32⟩
  | 77 => ⟨S384000x1, .i32⟩
  | 78 => ⟨S12000x128, .f32⟩
  | 79 => ⟨S12000, .f32⟩
  | 80 => ⟨S12000x1, .f32⟩
  | 81 => ⟨S12000x128, .f32⟩
  | 82 => ⟨S12000x128, .f32⟩
  | 83 => ⟨S12000x128, .f32⟩
  | 84 => ⟨S1x128, .f32⟩
  | 85 => ⟨S12000x128, .f32⟩
  | 86 => ⟨S12000x128, .f32⟩
  | 87 => ⟨S_, .f32⟩
  | 88 => ⟨S12000x128, .f32⟩
  | 89 => ⟨S12000x128, .f32⟩
  | 90 => ⟨S1x384000, .i32⟩
  | 91 => ⟨S384000, .i32⟩
  | 92 => ⟨S1x384000, .i32⟩
  | 93 => ⟨S384000, .i32⟩
  | 94 => ⟨S12000x128, .f32⟩
  | 95 => ⟨S_, .f32⟩
  | 96 => ⟨S12000, .f32⟩
  | 97 => ⟨S384000x1, .i32⟩
  | 98 => ⟨S12000, .f32⟩
  | 99 => ⟨S_, .f32⟩
  | 100 => ⟨S12000, .f32⟩
  | 101 => ⟨S12000, .f32⟩
  | 102 => ⟨S12000, .f32⟩
  | 103 => ⟨S_, .i32⟩
  | 104 => ⟨S384000, .i32⟩
  | 105 => ⟨S384000, .i1⟩
  | 106 => ⟨S_, .i32⟩
  | 107 => ⟨S384000, .i32⟩
  | 108 => ⟨S384000, .i32⟩
  | 109 => ⟨S384000, .i32⟩
  | 110 => ⟨S384000x1, .i32⟩
  | 111 => ⟨S384000, .f32⟩
  | 112 => ⟨S384000, .f32⟩
  | 113 => ⟨S_, .i32⟩
  | 114 => ⟨S384000, .i32⟩
  | 115 => ⟨S384000, .i1⟩
  | 116 => ⟨S_, .i32⟩
  | 117 => ⟨S384000, .i32⟩
  | 118 => ⟨S384000, .i32⟩
  | 119 => ⟨S384000, .i32⟩
  | 120 => ⟨S384000x1, .i32⟩
  | 121 => ⟨S384000, .f32⟩
  | 122 => ⟨S384000, .f32⟩
  | 123 => ⟨S384000x1, .f32⟩
  | 124 => ⟨S_, .i32⟩
  | 125 => ⟨S384000, .i32⟩
  | 126 => ⟨S384000, .i1⟩
  | 127 => ⟨S_, .i32⟩
  | _ => ⟨S12000x128, .f32⟩

abbrev hbmTy0_1 (i : Nat) : BufTy := match i % 128 with
  | 0 => ⟨S384000, .i32⟩
  | 1 => ⟨S384000, .i32⟩
  | 2 => ⟨S384000, .i32⟩
  | 3 => ⟨S384000x1, .i32⟩
  | 4 => ⟨S384000x128, .f32⟩
  | 5 => ⟨S384000x128, .f32⟩
  | 6 => ⟨S384000x128, .f32⟩
  | 7 => ⟨S_, .f32⟩
  | 8 => ⟨S12000x128, .f32⟩
  | 9 => ⟨S384000x1, .i32⟩
  | 10 => ⟨S12000x128, .f32⟩
  | 11 => ⟨S12000, .f32⟩
  | 12 => ⟨S12000x1, .f32⟩
  | 13 => ⟨S12000x128, .f32⟩
  | 14 => ⟨S12000x128, .f32⟩
  | 15 => ⟨S12000x128, .f32⟩
  | 16 => ⟨S1x128, .f32⟩
  | 17 => ⟨S12000x128, .f32⟩
  | 18 => ⟨S12000x128, .f32⟩
  | 19 => ⟨S_, .f32⟩
  | 20 => ⟨S12000x128, .f32⟩
  | 21 => ⟨S12000x128, .f32⟩
  | 22 => ⟨S1x384000, .i32⟩
  | 23 => ⟨S384000, .i32⟩
  | 24 => ⟨S1x384000, .i32⟩
  | 25 => ⟨S384000, .i32⟩
  | 26 => ⟨S12000x128, .f32⟩
  | 27 => ⟨S_, .f32⟩
  | 28 => ⟨S12000, .f32⟩
  | 29 => ⟨S384000x1, .i32⟩
  | 30 => ⟨S12000, .f32⟩
  | 31 => ⟨S_, .f32⟩
  | 32 => ⟨S12000, .f32⟩
  | 33 => ⟨S12000, .f32⟩
  | 34 => ⟨S12000, .f32⟩
  | 35 => ⟨S_, .i32⟩
  | 36 => ⟨S384000, .i32⟩
  | 37 => ⟨S384000, .i1⟩
  | 38 => ⟨S_, .i32⟩
  | 39 => ⟨S384000, .i32⟩
  | 40 => ⟨S384000, .i32⟩
  | 41 => ⟨S384000, .i32⟩
  | 42 => ⟨S384000x1, .i32⟩
  | 43 => ⟨S384000, .f32⟩
  | 44 => ⟨S384000, .f32⟩
  | 45 => ⟨S_, .i32⟩
  | 46 => ⟨S384000, .i32⟩
  | 47 => ⟨S384000, .i1⟩
  | 48 => ⟨S_, .i32⟩
  | 49 => ⟨S384000, .i32⟩
  | 50 => ⟨S384000, .i32⟩
  | 51 => ⟨S384000, .i32⟩
  | 52 => ⟨S384000x1, .i32⟩
  | 53 => ⟨S384000, .f32⟩
  | 54 => ⟨S384000, .f32⟩
  | 55 => ⟨S384000x1, .f32⟩
  | 56 => ⟨S_, .i32⟩
  | 57 => ⟨S384000, .i32⟩
  | 58 => ⟨S384000, .i1⟩
  | 59 => ⟨S_, .i32⟩
  | 60 => ⟨S384000, .i32⟩
  | 61 => ⟨S384000, .i32⟩
  | 62 => ⟨S384000, .i32⟩
  | 63 => ⟨S384000x1, .i32⟩
  | 64 => ⟨S384000x128, .f32⟩
  | 65 => ⟨S384000x128, .f32⟩
  | 66 => ⟨S384000x128, .f32⟩
  | 67 => ⟨S_, .f32⟩
  | 68 => ⟨S12000x128, .f32⟩
  | 69 => ⟨S384000x1, .i32⟩
  | 70 => ⟨S12000x128, .f32⟩
  | 71 => ⟨S12000, .f32⟩
  | 72 => ⟨S12000x1, .f32⟩
  | 73 => ⟨S12000x128, .f32⟩
  | 74 => ⟨S12000x128, .f32⟩
  | 75 => ⟨S12000x128, .f32⟩
  | 76 => ⟨S1x128, .f32⟩
  | 77 => ⟨S12000x128, .f32⟩
  | 78 => ⟨S12000x128, .f32⟩
  | 79 => ⟨S_, .f32⟩
  | 80 => ⟨S12000x128, .f32⟩
  | 81 => ⟨S12000x128, .f32⟩
  | 82 => ⟨S1x384000, .i32⟩
  | 83 => ⟨S384000, .i32⟩
  | 84 => ⟨S1x384000, .i32⟩
  | 85 => ⟨S384000, .i32⟩
  | 86 => ⟨S12000x128, .f32⟩
  | 87 => ⟨S_, .f32⟩
  | 88 => ⟨S12000, .f32⟩
  | 89 => ⟨S384000x1, .i32⟩
  | 90 => ⟨S12000, .f32⟩
  | 91 => ⟨S_, .f32⟩
  | 92 => ⟨S12000, .f32⟩
  | 93 => ⟨S12000, .f32⟩
  | 94 => ⟨S12000, .f32⟩
  | 95 => ⟨S_, .i32⟩
  | 96 => ⟨S384000, .i32⟩
  | 97 => ⟨S384000, .i1⟩
  | 98 => ⟨S_, .i32⟩
  | 99 => ⟨S384000, .i32⟩
  | 100 => ⟨S384000, .i32⟩
  | 101 => ⟨S384000, .i32⟩
  | 102 => ⟨S384000x1, .i32⟩
  | 103 => ⟨S384000, .f32⟩
  | 104 => ⟨S384000, .f32⟩
  | 105 => ⟨S_, .i32⟩
  | 106 => ⟨S384000, .i32⟩
  | 107 => ⟨S384000, .i1⟩
  | 108 => ⟨S_, .i32⟩
  | 109 => ⟨S384000, .i32⟩
  | 110 => ⟨S384000, .i32⟩
  | 111 => ⟨S384000, .i32⟩
  | 112 => ⟨S384000x1, .i32⟩
  | 113 => ⟨S384000, .f32⟩
  | 114 => ⟨S384000, .f32⟩
  | 115 => ⟨S384000x1, .f32⟩
  | 116 => ⟨S_, .i32⟩
  | 117 => ⟨S384000, .i32⟩
  | 118 => ⟨S384000, .i1⟩
  | 119 => ⟨S_, .i32⟩
  | 120 => ⟨S384000, .i32⟩
  | 121 => ⟨S384000, .i32⟩
  | 122 => ⟨S384000, .i32⟩
  | 123 => ⟨S384000x1, .i32⟩
  | 124 => ⟨S384000x128, .f32⟩
  | 125 => ⟨S384000x128, .f32⟩
  | 126 => ⟨S384000x128, .f32⟩
  | 127 => ⟨S_, .f32⟩
  | _ => ⟨S12000x128, .f32⟩

abbrev hbmTy0_2 (i : Nat) : BufTy := match i % 128 with
  | 0 => ⟨S12000x128, .f32⟩
  | 1 => ⟨S384000x1, .i32⟩
  | 2 => ⟨S12000x128, .f32⟩
  | 3 => ⟨S12000, .f32⟩
  | 4 => ⟨S12000x1, .f32⟩
  | 5 => ⟨S12000x128, .f32⟩
  | 6 => ⟨S12000x128, .f32⟩
  | 7 => ⟨S12000x128, .f32⟩
  | 8 => ⟨S1x128, .f32⟩
  | 9 => ⟨S12000x128, .f32⟩
  | 10 => ⟨S12000x128, .f32⟩
  | 11 => ⟨S_, .f32⟩
  | 12 => ⟨S12000x128, .f32⟩
  | 13 => ⟨S12000x128, .f32⟩
  | 14 => ⟨S1x192000, .i32⟩
  | 15 => ⟨S192000, .i32⟩
  | 16 => ⟨S1x192000, .i32⟩
  | 17 => ⟨S192000, .i32⟩
  | 18 => ⟨S6000x128, .f32⟩
  | 19 => ⟨S_, .f32⟩
  | 20 => ⟨S6000, .f32⟩
  | 21 => ⟨S192000x1, .i32⟩
  | 22 => ⟨S6000, .f32⟩
  | 23 => ⟨S_, .f32⟩
  | 24 => ⟨S6000, .f32⟩
  | 25 => ⟨S6000, .f32⟩
  | 26 => ⟨S6000, .f32⟩
  | 27 => ⟨S_, .i32⟩
  | 28 => ⟨S192000, .i32⟩
  | 29 => ⟨S192000, .i1⟩
  | 30 => ⟨S_, .i32⟩
  | 31 => ⟨S192000, .i32⟩
  | 32 => ⟨S192000, .i32⟩
  | 33 => ⟨S192000, .i32⟩
  | 34 => ⟨S192000x1, .i32⟩
  | 35 => ⟨S192000, .f32⟩
  | 36 => ⟨S192000, .f32⟩
  | 37 => ⟨S_, .i32⟩
  | 38 => ⟨S192000, .i32⟩
  | 39 => ⟨S192000, .i1⟩
  | 40 => ⟨S_, .i32⟩
  | 41 => ⟨S192000, .i32⟩
  | 42 => ⟨S192000, .i32⟩
  | 43 => ⟨S192000, .i32⟩
  | 44 => ⟨S192000x1, .i32⟩
  | 45 => ⟨S192000, .f32⟩
  | 46 => ⟨S192000, .f32⟩
  | 47 => ⟨S192000x1, .f32⟩
  | 48 => ⟨S_, .i32⟩
  | 49 => ⟨S192000, .i32⟩
  | 50 => ⟨S192000, .i1⟩
  | 51 => ⟨S_, .i32⟩
  | 52 => ⟨S192000, .i32⟩
  | 53 => ⟨S192000, .i32⟩
  | 54 => ⟨S192000, .i32⟩
  | 55 => ⟨S192000x1, .i32⟩
  | 56 => ⟨S192000x128, .f32⟩
  | 57 => ⟨S192000x128, .f32⟩
  | 58 => ⟨S192000x128, .f32⟩
  | 59 => ⟨S_, .f32⟩
  | 60 => ⟨S6000x128, .f32⟩
  | 61 => ⟨S192000x1, .i32⟩
  | 62 => ⟨S6000x128, .f32⟩
  | 63 => ⟨S6000, .f32⟩
  | 64 => ⟨S6000x1, .f32⟩
  | 65 => ⟨S6000x128, .f32⟩
  | 66 => ⟨S6000x128, .f32⟩
  | 67 => ⟨S6000x128, .f32⟩
  | 68 => ⟨S1x128, .f32⟩
  | 69 => ⟨S6000x128, .f32⟩
  | 70 => ⟨S6000x128, .f32⟩
  | 71 => ⟨S_, .f32⟩
  | 72 => ⟨S6000x128, .f32⟩
  | 73 => ⟨S6000x128, .f32⟩
  | 74 => ⟨S1x192000, .i32⟩
  | 75 => ⟨S192000, .i32⟩
  | 76 => ⟨S1x192000, .i32⟩
  | 77 => ⟨S192000, .i32⟩
  | 78 => ⟨S6000x128, .f32⟩
  | 79 => ⟨S_, .f32⟩
  | 80 => ⟨S6000, .f32⟩
  | 81 => ⟨S192000x1, .i32⟩
  | 82 => ⟨S6000, .f32⟩
  | 83 => ⟨S_, .f32⟩
  | 84 => ⟨S6000, .f32⟩
  | 85 => ⟨S6000, .f32⟩
  | 86 => ⟨S6000, .f32⟩
  | 87 => ⟨S_, .i32⟩
  | 88 => ⟨S192000, .i32⟩
  | 89 => ⟨S192000, .i1⟩
  | 90 => ⟨S_, .i32⟩
  | 91 => ⟨S192000, .i32⟩
  | 92 => ⟨S192000, .i32⟩
  | 93 => ⟨S192000, .i32⟩
  | 94 => ⟨S192000x1, .i32⟩
  | 95 => ⟨S192000, .f32⟩
  | 96 => ⟨S192000, .f32⟩
  | 97 => ⟨S_, .i32⟩
  | 98 => ⟨S192000, .i32⟩
  | 99 => ⟨S192000, .i1⟩
  | 100 => ⟨S_, .i32⟩
  | 101 => ⟨S192000, .i32⟩
  | 102 => ⟨S192000, .i32⟩
  | 103 => ⟨S192000, .i32⟩
  | 104 => ⟨S192000x1, .i32⟩
  | 105 => ⟨S192000, .f32⟩
  | 106 => ⟨S192000, .f32⟩
  | 107 => ⟨S192000x1, .f32⟩
  | 108 => ⟨S_, .i32⟩
  | 109 => ⟨S192000, .i32⟩
  | 110 => ⟨S192000, .i1⟩
  | 111 => ⟨S_, .i32⟩
  | 112 => ⟨S192000, .i32⟩
  | 113 => ⟨S192000, .i32⟩
  | 114 => ⟨S192000, .i32⟩
  | 115 => ⟨S192000x1, .i32⟩
  | 116 => ⟨S192000x128, .f32⟩
  | 117 => ⟨S192000x128, .f32⟩
  | 118 => ⟨S192000x128, .f32⟩
  | 119 => ⟨S_, .f32⟩
  | 120 => ⟨S6000x128, .f32⟩
  | 121 => ⟨S192000x1, .i32⟩
  | 122 => ⟨S6000x128, .f32⟩
  | 123 => ⟨S6000, .f32⟩
  | 124 => ⟨S6000x1, .f32⟩
  | 125 => ⟨S6000x128, .f32⟩
  | 126 => ⟨S6000x128, .f32⟩
  | 127 => ⟨S6000x128, .f32⟩
  | _ => ⟨S12000x128, .f32⟩

abbrev hbmTy0_3 (i : Nat) : BufTy := match i % 128 with
  | 0 => ⟨S1x128, .f32⟩
  | 1 => ⟨S6000x128, .f32⟩
  | 2 => ⟨S6000x128, .f32⟩
  | 3 => ⟨S_, .f32⟩
  | 4 => ⟨S6000x128, .f32⟩
  | 5 => ⟨S6000x128, .f32⟩
  | 6 => ⟨S1x192000, .i32⟩
  | 7 => ⟨S192000, .i32⟩
  | 8 => ⟨S1x192000, .i32⟩
  | 9 => ⟨S192000, .i32⟩
  | 10 => ⟨S6000x128, .f32⟩
  | 11 => ⟨S_, .f32⟩
  | 12 => ⟨S6000, .f32⟩
  | 13 => ⟨S192000x1, .i32⟩
  | 14 => ⟨S6000, .f32⟩
  | 15 => ⟨S_, .f32⟩
  | 16 => ⟨S6000, .f32⟩
  | 17 => ⟨S6000, .f32⟩
  | 18 => ⟨S6000, .f32⟩
  | 19 => ⟨S_, .i32⟩
  | 20 => ⟨S192000, .i32⟩
  | 21 => ⟨S192000, .i1⟩
  | 22 => ⟨S_, .i32⟩
  | 23 => ⟨S192000, .i32⟩
  | 24 => ⟨S192000, .i32⟩
  | 25 => ⟨S192000, .i32⟩
  | 26 => ⟨S192000x1, .i32⟩
  | 27 => ⟨S192000, .f32⟩
  | 28 => ⟨S192000, .f32⟩
  | 29 => ⟨S_, .i32⟩
  | 30 => ⟨S192000, .i32⟩
  | 31 => ⟨S192000, .i1⟩
  | 32 => ⟨S_, .i32⟩
  | 33 => ⟨S192000, .i32⟩
  | 34 => ⟨S192000, .i32⟩
  | 35 => ⟨S192000, .i32⟩
  | 36 => ⟨S192000x1, .i32⟩
  | 37 => ⟨S192000, .f32⟩
  | 38 => ⟨S192000, .f32⟩
  | 39 => ⟨S192000x1, .f32⟩
  | 40 => ⟨S_, .i32⟩
  | 41 => ⟨S192000, .i32⟩
  | 42 => ⟨S192000, .i1⟩
  | 43 => ⟨S_, .i32⟩
  | 44 => ⟨S192000, .i32⟩
  | 45 => ⟨S192000, .i32⟩
  | 46 => ⟨S192000, .i32⟩
  | 47 => ⟨S192000x1, .i32⟩
  | 48 => ⟨S192000x128, .f32⟩
  | 49 => ⟨S192000x128, .f32⟩
  | 50 => ⟨S192000x128, .f32⟩
  | 51 => ⟨S_, .f32⟩
  | 52 => ⟨S6000x128, .f32⟩
  | 53 => ⟨S192000x1, .i32⟩
  | 54 => ⟨S6000x128, .f32⟩
  | 55 => ⟨S6000, .f32⟩
  | 56 => ⟨S6000x1, .f32⟩
  | 57 => ⟨S6000x128, .f32⟩
  | 58 => ⟨S6000x128, .f32⟩
  | 59 => ⟨S6000x128, .f32⟩
  | 60 => ⟨S1x128, .f32⟩
  | 61 => ⟨S6000x128, .f32⟩
  | 62 => ⟨S6000x128, .f32⟩
  | 63 => ⟨S_, .f32⟩
  | 64 => ⟨S6000x128, .f32⟩
  | 65 => ⟨S6000x128, .f32⟩
  | 66 => ⟨S1x192000, .i32⟩
  | 67 => ⟨S192000, .i32⟩
  | 68 => ⟨S1x192000, .i32⟩
  | 69 => ⟨S192000, .i32⟩
  | 70 => ⟨S6000x128, .f32⟩
  | 71 => ⟨S_, .f32⟩
  | 72 => ⟨S6000, .f32⟩
  | 73 => ⟨S192000x1, .i32⟩
  | 74 => ⟨S6000, .f32⟩
  | 75 => ⟨S_, .f32⟩
  | 76 => ⟨S6000, .f32⟩
  | 77 => ⟨S6000, .f32⟩
  | 78 => ⟨S6000, .f32⟩
  | 79 => ⟨S_, .i32⟩
  | 80 => ⟨S192000, .i32⟩
  | 81 => ⟨S192000, .i1⟩
  | 82 => ⟨S_, .i32⟩
  | 83 => ⟨S192000, .i32⟩
  | 84 => ⟨S192000, .i32⟩
  | 85 => ⟨S192000, .i32⟩
  | 86 => ⟨S192000x1, .i32⟩
  | 87 => ⟨S192000, .f32⟩
  | 88 => ⟨S192000, .f32⟩
  | 89 => ⟨S_, .i32⟩
  | 90 => ⟨S192000, .i32⟩
  | 91 => ⟨S192000, .i1⟩
  | 92 => ⟨S_, .i32⟩
  | 93 => ⟨S192000, .i32⟩
  | 94 => ⟨S192000, .i32⟩
  | 95 => ⟨S192000, .i32⟩
  | 96 => ⟨S192000x1, .i32⟩
  | 97 => ⟨S192000, .f32⟩
  | 98 => ⟨S192000, .f32⟩
  | 99 => ⟨S192000x1, .f32⟩
  | 100 => ⟨S_, .i32⟩
  | 101 => ⟨S192000, .i32⟩
  | 102 => ⟨S192000, .i1⟩
  | 103 => ⟨S_, .i32⟩
  | 104 => ⟨S192000, .i32⟩
  | 105 => ⟨S192000, .i32⟩
  | 106 => ⟨S192000, .i32⟩
  | 107 => ⟨S192000x1, .i32⟩
  | 108 => ⟨S192000x128, .f32⟩
  | 109 => ⟨S192000x128, .f32⟩
  | 110 => ⟨S192000x128, .f32⟩
  | 111 => ⟨S_, .f32⟩
  | 112 => ⟨S6000x128, .f32⟩
  | 113 => ⟨S192000x1, .i32⟩
  | 114 => ⟨S6000x128, .f32⟩
  | 115 => ⟨S6000, .f32⟩
  | 116 => ⟨S6000x1, .f32⟩
  | 117 => ⟨S6000x128, .f32⟩
  | 118 => ⟨S6000x128, .f32⟩
  | 119 => ⟨S6000x128, .f32⟩
  | 120 => ⟨S1x128, .f32⟩
  | 121 => ⟨S6000x128, .f32⟩
  | 122 => ⟨S6000x128, .f32⟩
  | 123 => ⟨S_, .f32⟩
  | 124 => ⟨S6000x128, .f32⟩
  | 125 => ⟨S6000x128, .f32⟩
  | 126 => ⟨S12000x128, .f32⟩
  | 127 => ⟨S1x128, .f32⟩
  | _ => ⟨S12000x128, .f32⟩

abbrev hbmTy0_4 (i : Nat) : BufTy := match i % 128 with
  | 0 => ⟨S12000x128, .f32⟩
  | 1 => ⟨S12000x128, .f32⟩
  | 2 => ⟨S12000x128, .f32⟩
  | 3 => ⟨S1x128, .f32⟩
  | 4 => ⟨S12000x128, .f32⟩
  | 5 => ⟨S12000x128, .f32⟩
  | 6 => ⟨S6000x128, .f32⟩
  | 7 => ⟨S1x128, .f32⟩
  | 8 => ⟨S6000x128, .f32⟩
  | 9 => ⟨S6000x128, .f32⟩
  | 10 => ⟨S6000x128, .f32⟩
  | 11 => ⟨S1x128, .f32⟩
  | 12 => ⟨S6000x128, .f32⟩
  | 13 => ⟨S6000x128, .f32⟩
  | 14 => ⟨S_, .f32⟩
  | 15 => ⟨S12000x128, .f32⟩
  | 16 => ⟨S12000x128, .i1⟩
  | 17 => ⟨S12000x128, .f32⟩
  | 18 => ⟨S_, .f32⟩
  | 19 => ⟨S6000x128, .f32⟩
  | 20 => ⟨S6000x128, .i1⟩
  | 21 => ⟨S6000x128, .f32⟩
  | 22 => ⟨S128x6000, .f32⟩
  | 23 => ⟨S12000x6000, .f32⟩
  | _ => ⟨S12000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S12000x128, .f32⟩

abbrev bufTy : (tb : Table) → Fin (tcTables nBuf tb) → BufTy
  | .hbm, ⟨i, _⟩ => hbmTy i
  | _, _ => ⟨S12000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_cst : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_cst_0 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_c : Ref sig .tc := ⟨.hbm, 43, rfl⟩
abbrev main_v11 : Ref sig .tc := ⟨.hbm, 44, rfl⟩
abbrev main_v12 : Ref sig .tc := ⟨.hbm, 45, rfl⟩
abbrev main_c_1 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_c_2 : Ref sig .tc := ⟨.hbm, 53, rfl⟩
abbrev main_v19 : Ref sig .tc := ⟨.hbm, 54, rfl⟩
abbrev main_v20 : Ref sig .tc := ⟨.hbm, 55, rfl⟩
abbrev main_c_3 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_c_4 : Ref sig .tc := ⟨.hbm, 64, rfl⟩
abbrev main_v28 : Ref sig .tc := ⟨.hbm, 65, rfl⟩
abbrev main_v29 : Ref sig .tc := ⟨.hbm, 66, rfl⟩
abbrev main_c_5 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_cst_6 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_call0_cst : Ref sig .tc := ⟨.hbm, 87, rfl⟩
abbrev main_call0_v0 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_cst_7 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_cst_8 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_c_9 : Ref sig .tc := ⟨.hbm, 103, rfl⟩
abbrev main_v60 : Ref sig .tc := ⟨.hbm, 104, rfl⟩
abbrev main_v61 : Ref sig .tc := ⟨.hbm, 105, rfl⟩
abbrev main_c_10 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_c_11 : Ref sig .tc := ⟨.hbm, 113, rfl⟩
abbrev main_v68 : Ref sig .tc := ⟨.hbm, 114, rfl⟩
abbrev main_v69 : Ref sig .tc := ⟨.hbm, 115, rfl⟩
abbrev main_c_12 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_c_13 : Ref sig .tc := ⟨.hbm, 124, rfl⟩
abbrev main_v77 : Ref sig .tc := ⟨.hbm, 125, rfl⟩
abbrev main_v78 : Ref sig .tc := ⟨.hbm, 126, rfl⟩
abbrev main_c_14 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_cst_15 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_call1_cst : Ref sig .tc := ⟨.hbm, 147, rfl⟩
abbrev main_call1_v0 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_cst_16 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_cst_17 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_c_18 : Ref sig .tc := ⟨.hbm, 163, rfl⟩
abbrev main_v109 : Ref sig .tc := ⟨.hbm, 164, rfl⟩
abbrev main_v110 : Ref sig .tc := ⟨.hbm, 165, rfl⟩
abbrev main_c_19 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_c_20 : Ref sig .tc := ⟨.hbm, 173, rfl⟩
abbrev main_v117 : Ref sig .tc := ⟨.hbm, 174, rfl⟩
abbrev main_v118 : Ref sig .tc := ⟨.hbm, 175, rfl⟩
abbrev main_c_21 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_c_22 : Ref sig .tc := ⟨.hbm, 184, rfl⟩
abbrev main_v126 : Ref sig .tc := ⟨.hbm, 185, rfl⟩
abbrev main_v127 : Ref sig .tc := ⟨.hbm, 186, rfl⟩
abbrev main_c_23 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_cst_24 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_call2_cst : Ref sig .tc := ⟨.hbm, 207, rfl⟩
abbrev main_call2_v0 : Ref sig .tc := ⟨.hbm, 208, rfl⟩
abbrev main_v146 : Ref sig .tc := ⟨.hbm, 209, rfl⟩
abbrev main_v147 : Ref sig .tc := ⟨.hbm, 210, rfl⟩
abbrev main_v148 : Ref sig .tc := ⟨.hbm, 211, rfl⟩
abbrev main_v149 : Ref sig .tc := ⟨.hbm, 212, rfl⟩
abbrev main_v150 : Ref sig .tc := ⟨.hbm, 213, rfl⟩
abbrev main_v151 : Ref sig .tc := ⟨.hbm, 214, rfl⟩
abbrev main_cst_25 : Ref sig .tc := ⟨.hbm, 215, rfl⟩
abbrev main_v152 : Ref sig .tc := ⟨.hbm, 216, rfl⟩
abbrev main_v153 : Ref sig .tc := ⟨.hbm, 217, rfl⟩
abbrev main_v154 : Ref sig .tc := ⟨.hbm, 218, rfl⟩
abbrev main_cst_26 : Ref sig .tc := ⟨.hbm, 219, rfl⟩
abbrev main_v155 : Ref sig .tc := ⟨.hbm, 220, rfl⟩
abbrev main_v156 : Ref sig .tc := ⟨.hbm, 221, rfl⟩
abbrev main_v157 : Ref sig .tc := ⟨.hbm, 222, rfl⟩
abbrev main_c_27 : Ref sig .tc := ⟨.hbm, 223, rfl⟩
abbrev main_v158 : Ref sig .tc := ⟨.hbm, 224, rfl⟩
abbrev main_v159 : Ref sig .tc := ⟨.hbm, 225, rfl⟩
abbrev main_c_28 : Ref sig .tc := ⟨.hbm, 226, rfl⟩
abbrev main_v160 : Ref sig .tc := ⟨.hbm, 227, rfl⟩
abbrev main_v161 : Ref sig .tc := ⟨.hbm, 228, rfl⟩
abbrev main_v162 : Ref sig .tc := ⟨.hbm, 229, rfl⟩
abbrev main_v163 : Ref sig .tc := ⟨.hbm, 230, rfl⟩
abbrev main_v164 : Ref sig .tc := ⟨.hbm, 231, rfl⟩
abbrev main_v165 : Ref sig .tc := ⟨.hbm, 232, rfl⟩
abbrev main_c_29 : Ref sig .tc := ⟨.hbm, 233, rfl⟩
abbrev main_v166 : Ref sig .tc := ⟨.hbm, 234, rfl⟩
abbrev main_v167 : Ref sig .tc := ⟨.hbm, 235, rfl⟩
abbrev main_c_30 : Ref sig .tc := ⟨.hbm, 236, rfl⟩
abbrev main_v168 : Ref sig .tc := ⟨.hbm, 237, rfl⟩
abbrev main_v169 : Ref sig .tc := ⟨.hbm, 238, rfl⟩
abbrev main_v170 : Ref sig .tc := ⟨.hbm, 239, rfl⟩
abbrev main_v171 : Ref sig .tc := ⟨.hbm, 240, rfl⟩
abbrev main_v172 : Ref sig .tc := ⟨.hbm, 241, rfl⟩
abbrev main_v173 : Ref sig .tc := ⟨.hbm, 242, rfl⟩
abbrev main_v174 : Ref sig .tc := ⟨.hbm, 243, rfl⟩
abbrev main_c_31 : Ref sig .tc := ⟨.hbm, 244, rfl⟩
abbrev main_v175 : Ref sig .tc := ⟨.hbm, 245, rfl⟩
abbrev main_v176 : Ref sig .tc := ⟨.hbm, 246, rfl⟩
abbrev main_c_32 : Ref sig .tc := ⟨.hbm, 247, rfl⟩
abbrev main_v177 : Ref sig .tc := ⟨.hbm, 248, rfl⟩
abbrev main_v178 : Ref sig .tc := ⟨.hbm, 249, rfl⟩
abbrev main_v179 : Ref sig .tc := ⟨.hbm, 250, rfl⟩
abbrev main_v180 : Ref sig .tc := ⟨.hbm, 251, rfl⟩
abbrev main_v181 : Ref sig .tc := ⟨.hbm, 252, rfl⟩
abbrev main_v182 : Ref sig .tc := ⟨.hbm, 253, rfl⟩
abbrev main_v183 : Ref sig .tc := ⟨.hbm, 254, rfl⟩
abbrev main_cst_33 : Ref sig .tc := ⟨.hbm, 255, rfl⟩
abbrev main_v184 : Ref sig .tc := ⟨.hbm, 256, rfl⟩
abbrev main_v185 : Ref sig .tc := ⟨.hbm, 257, rfl⟩
abbrev main_v186 : Ref sig .tc := ⟨.hbm, 258, rfl⟩
abbrev main_v187 : Ref sig .tc := ⟨.hbm, 259, rfl⟩
abbrev main_v188 : Ref sig .tc := ⟨.hbm, 260, rfl⟩
abbrev main_v189 : Ref sig .tc := ⟨.hbm, 261, rfl⟩
abbrev main_v190 : Ref sig .tc := ⟨.hbm, 262, rfl⟩
abbrev main_v191 : Ref sig .tc := ⟨.hbm, 263, rfl⟩
abbrev main_v192 : Ref sig .tc := ⟨.hbm, 264, rfl⟩
abbrev main_v193 : Ref sig .tc := ⟨.hbm, 265, rfl⟩
abbrev main_v194 : Ref sig .tc := ⟨.hbm, 266, rfl⟩
abbrev main_call3_cst : Ref sig .tc := ⟨.hbm, 267, rfl⟩
abbrev main_call3_v0 : Ref sig .tc := ⟨.hbm, 268, rfl⟩
abbrev main_v195 : Ref sig .tc := ⟨.hbm, 269, rfl⟩
abbrev main_v196 : Ref sig .tc := ⟨.hbm, 270, rfl⟩
abbrev main_v197 : Ref sig .tc := ⟨.hbm, 271, rfl⟩
abbrev main_v198 : Ref sig .tc := ⟨.hbm, 272, rfl⟩
abbrev main_v199 : Ref sig .tc := ⟨.hbm, 273, rfl⟩
abbrev main_v200 : Ref sig .tc := ⟨.hbm, 274, rfl⟩
abbrev main_cst_34 : Ref sig .tc := ⟨.hbm, 275, rfl⟩
abbrev main_v201 : Ref sig .tc := ⟨.hbm, 276, rfl⟩
abbrev main_v202 : Ref sig .tc := ⟨.hbm, 277, rfl⟩
abbrev main_v203 : Ref sig .tc := ⟨.hbm, 278, rfl⟩
abbrev main_cst_35 : Ref sig .tc := ⟨.hbm, 279, rfl⟩
abbrev main_v204 : Ref sig .tc := ⟨.hbm, 280, rfl⟩
abbrev main_v205 : Ref sig .tc := ⟨.hbm, 281, rfl⟩
abbrev main_v206 : Ref sig .tc := ⟨.hbm, 282, rfl⟩
abbrev main_c_36 : Ref sig .tc := ⟨.hbm, 283, rfl⟩
abbrev main_v207 : Ref sig .tc := ⟨.hbm, 284, rfl⟩
abbrev main_v208 : Ref sig .tc := ⟨.hbm, 285, rfl⟩
abbrev main_c_37 : Ref sig .tc := ⟨.hbm, 286, rfl⟩
abbrev main_v209 : Ref sig .tc := ⟨.hbm, 287, rfl⟩
abbrev main_v210 : Ref sig .tc := ⟨.hbm, 288, rfl⟩
abbrev main_v211 : Ref sig .tc := ⟨.hbm, 289, rfl⟩
abbrev main_v212 : Ref sig .tc := ⟨.hbm, 290, rfl⟩
abbrev main_v213 : Ref sig .tc := ⟨.hbm, 291, rfl⟩
abbrev main_v214 : Ref sig .tc := ⟨.hbm, 292, rfl⟩
abbrev main_c_38 : Ref sig .tc := ⟨.hbm, 293, rfl⟩
abbrev main_v215 : Ref sig .tc := ⟨.hbm, 294, rfl⟩
abbrev main_v216 : Ref sig .tc := ⟨.hbm, 295, rfl⟩
abbrev main_c_39 : Ref sig .tc := ⟨.hbm, 296, rfl⟩
abbrev main_v217 : Ref sig .tc := ⟨.hbm, 297, rfl⟩
abbrev main_v218 : Ref sig .tc := ⟨.hbm, 298, rfl⟩
abbrev main_v219 : Ref sig .tc := ⟨.hbm, 299, rfl⟩
abbrev main_v220 : Ref sig .tc := ⟨.hbm, 300, rfl⟩
abbrev main_v221 : Ref sig .tc := ⟨.hbm, 301, rfl⟩
abbrev main_v222 : Ref sig .tc := ⟨.hbm, 302, rfl⟩
abbrev main_v223 : Ref sig .tc := ⟨.hbm, 303, rfl⟩
abbrev main_c_40 : Ref sig .tc := ⟨.hbm, 304, rfl⟩
abbrev main_v224 : Ref sig .tc := ⟨.hbm, 305, rfl⟩
abbrev main_v225 : Ref sig .tc := ⟨.hbm, 306, rfl⟩
abbrev main_c_41 : Ref sig .tc := ⟨.hbm, 307, rfl⟩
abbrev main_v226 : Ref sig .tc := ⟨.hbm, 308, rfl⟩
abbrev main_v227 : Ref sig .tc := ⟨.hbm, 309, rfl⟩
abbrev main_v228 : Ref sig .tc := ⟨.hbm, 310, rfl⟩
abbrev main_v229 : Ref sig .tc := ⟨.hbm, 311, rfl⟩
abbrev main_v230 : Ref sig .tc := ⟨.hbm, 312, rfl⟩
abbrev main_v231 : Ref sig .tc := ⟨.hbm, 313, rfl⟩
abbrev main_v232 : Ref sig .tc := ⟨.hbm, 314, rfl⟩
abbrev main_cst_42 : Ref sig .tc := ⟨.hbm, 315, rfl⟩
abbrev main_v233 : Ref sig .tc := ⟨.hbm, 316, rfl⟩
abbrev main_v234 : Ref sig .tc := ⟨.hbm, 317, rfl⟩
abbrev main_v235 : Ref sig .tc := ⟨.hbm, 318, rfl⟩
abbrev main_v236 : Ref sig .tc := ⟨.hbm, 319, rfl⟩
abbrev main_v237 : Ref sig .tc := ⟨.hbm, 320, rfl⟩
abbrev main_v238 : Ref sig .tc := ⟨.hbm, 321, rfl⟩
abbrev main_v239 : Ref sig .tc := ⟨.hbm, 322, rfl⟩
abbrev main_v240 : Ref sig .tc := ⟨.hbm, 323, rfl⟩
abbrev main_v241 : Ref sig .tc := ⟨.hbm, 324, rfl⟩
abbrev main_v242 : Ref sig .tc := ⟨.hbm, 325, rfl⟩
abbrev main_v243 : Ref sig .tc := ⟨.hbm, 326, rfl⟩
abbrev main_call4_cst : Ref sig .tc := ⟨.hbm, 327, rfl⟩
abbrev main_call4_v0 : Ref sig .tc := ⟨.hbm, 328, rfl⟩
abbrev main_v244 : Ref sig .tc := ⟨.hbm, 329, rfl⟩
abbrev main_v245 : Ref sig .tc := ⟨.hbm, 330, rfl⟩
abbrev main_v246 : Ref sig .tc := ⟨.hbm, 331, rfl⟩
abbrev main_v247 : Ref sig .tc := ⟨.hbm, 332, rfl⟩
abbrev main_v248 : Ref sig .tc := ⟨.hbm, 333, rfl⟩
abbrev main_v249 : Ref sig .tc := ⟨.hbm, 334, rfl⟩
abbrev main_cst_43 : Ref sig .tc := ⟨.hbm, 335, rfl⟩
abbrev main_v250 : Ref sig .tc := ⟨.hbm, 336, rfl⟩
abbrev main_v251 : Ref sig .tc := ⟨.hbm, 337, rfl⟩
abbrev main_v252 : Ref sig .tc := ⟨.hbm, 338, rfl⟩
abbrev main_cst_44 : Ref sig .tc := ⟨.hbm, 339, rfl⟩
abbrev main_v253 : Ref sig .tc := ⟨.hbm, 340, rfl⟩
abbrev main_v254 : Ref sig .tc := ⟨.hbm, 341, rfl⟩
abbrev main_v255 : Ref sig .tc := ⟨.hbm, 342, rfl⟩
abbrev main_c_45 : Ref sig .tc := ⟨.hbm, 343, rfl⟩
abbrev main_v256 : Ref sig .tc := ⟨.hbm, 344, rfl⟩
abbrev main_v257 : Ref sig .tc := ⟨.hbm, 345, rfl⟩
abbrev main_c_46 : Ref sig .tc := ⟨.hbm, 346, rfl⟩
abbrev main_v258 : Ref sig .tc := ⟨.hbm, 347, rfl⟩
abbrev main_v259 : Ref sig .tc := ⟨.hbm, 348, rfl⟩
abbrev main_v260 : Ref sig .tc := ⟨.hbm, 349, rfl⟩
abbrev main_v261 : Ref sig .tc := ⟨.hbm, 350, rfl⟩
abbrev main_v262 : Ref sig .tc := ⟨.hbm, 351, rfl⟩
abbrev main_v263 : Ref sig .tc := ⟨.hbm, 352, rfl⟩
abbrev main_c_47 : Ref sig .tc := ⟨.hbm, 353, rfl⟩
abbrev main_v264 : Ref sig .tc := ⟨.hbm, 354, rfl⟩
abbrev main_v265 : Ref sig .tc := ⟨.hbm, 355, rfl⟩
abbrev main_c_48 : Ref sig .tc := ⟨.hbm, 356, rfl⟩
abbrev main_v266 : Ref sig .tc := ⟨.hbm, 357, rfl⟩
abbrev main_v267 : Ref sig .tc := ⟨.hbm, 358, rfl⟩
abbrev main_v268 : Ref sig .tc := ⟨.hbm, 359, rfl⟩
abbrev main_v269 : Ref sig .tc := ⟨.hbm, 360, rfl⟩
abbrev main_v270 : Ref sig .tc := ⟨.hbm, 361, rfl⟩
abbrev main_v271 : Ref sig .tc := ⟨.hbm, 362, rfl⟩
abbrev main_v272 : Ref sig .tc := ⟨.hbm, 363, rfl⟩
abbrev main_c_49 : Ref sig .tc := ⟨.hbm, 364, rfl⟩
abbrev main_v273 : Ref sig .tc := ⟨.hbm, 365, rfl⟩
abbrev main_v274 : Ref sig .tc := ⟨.hbm, 366, rfl⟩
abbrev main_c_50 : Ref sig .tc := ⟨.hbm, 367, rfl⟩
abbrev main_v275 : Ref sig .tc := ⟨.hbm, 368, rfl⟩
abbrev main_v276 : Ref sig .tc := ⟨.hbm, 369, rfl⟩
abbrev main_v277 : Ref sig .tc := ⟨.hbm, 370, rfl⟩
abbrev main_v278 : Ref sig .tc := ⟨.hbm, 371, rfl⟩
abbrev main_v279 : Ref sig .tc := ⟨.hbm, 372, rfl⟩
abbrev main_v280 : Ref sig .tc := ⟨.hbm, 373, rfl⟩
abbrev main_v281 : Ref sig .tc := ⟨.hbm, 374, rfl⟩
abbrev main_cst_51 : Ref sig .tc := ⟨.hbm, 375, rfl⟩
abbrev main_v282 : Ref sig .tc := ⟨.hbm, 376, rfl⟩
abbrev main_v283 : Ref sig .tc := ⟨.hbm, 377, rfl⟩
abbrev main_v284 : Ref sig .tc := ⟨.hbm, 378, rfl⟩
abbrev main_v285 : Ref sig .tc := ⟨.hbm, 379, rfl⟩
abbrev main_v286 : Ref sig .tc := ⟨.hbm, 380, rfl⟩
abbrev main_v287 : Ref sig .tc := ⟨.hbm, 381, rfl⟩
abbrev main_v288 : Ref sig .tc := ⟨.hbm, 382, rfl⟩
abbrev main_v289 : Ref sig .tc := ⟨.hbm, 383, rfl⟩
abbrev main_v290 : Ref sig .tc := ⟨.hbm, 384, rfl⟩
abbrev main_v291 : Ref sig .tc := ⟨.hbm, 385, rfl⟩
abbrev main_v292 : Ref sig .tc := ⟨.hbm, 386, rfl⟩
abbrev main_call5_cst : Ref sig .tc := ⟨.hbm, 387, rfl⟩
abbrev main_call5_v0 : Ref sig .tc := ⟨.hbm, 388, rfl⟩
abbrev main_v293 : Ref sig .tc := ⟨.hbm, 389, rfl⟩
abbrev main_v294 : Ref sig .tc := ⟨.hbm, 390, rfl⟩
abbrev main_v295 : Ref sig .tc := ⟨.hbm, 391, rfl⟩
abbrev main_v296 : Ref sig .tc := ⟨.hbm, 392, rfl⟩
abbrev main_v297 : Ref sig .tc := ⟨.hbm, 393, rfl⟩
abbrev main_v298 : Ref sig .tc := ⟨.hbm, 394, rfl⟩
abbrev main_cst_52 : Ref sig .tc := ⟨.hbm, 395, rfl⟩
abbrev main_v299 : Ref sig .tc := ⟨.hbm, 396, rfl⟩
abbrev main_v300 : Ref sig .tc := ⟨.hbm, 397, rfl⟩
abbrev main_v301 : Ref sig .tc := ⟨.hbm, 398, rfl⟩
abbrev main_cst_53 : Ref sig .tc := ⟨.hbm, 399, rfl⟩
abbrev main_v302 : Ref sig .tc := ⟨.hbm, 400, rfl⟩
abbrev main_v303 : Ref sig .tc := ⟨.hbm, 401, rfl⟩
abbrev main_v304 : Ref sig .tc := ⟨.hbm, 402, rfl⟩
abbrev main_c_54 : Ref sig .tc := ⟨.hbm, 403, rfl⟩
abbrev main_v305 : Ref sig .tc := ⟨.hbm, 404, rfl⟩
abbrev main_v306 : Ref sig .tc := ⟨.hbm, 405, rfl⟩
abbrev main_c_55 : Ref sig .tc := ⟨.hbm, 406, rfl⟩
abbrev main_v307 : Ref sig .tc := ⟨.hbm, 407, rfl⟩
abbrev main_v308 : Ref sig .tc := ⟨.hbm, 408, rfl⟩
abbrev main_v309 : Ref sig .tc := ⟨.hbm, 409, rfl⟩
abbrev main_v310 : Ref sig .tc := ⟨.hbm, 410, rfl⟩
abbrev main_v311 : Ref sig .tc := ⟨.hbm, 411, rfl⟩
abbrev main_v312 : Ref sig .tc := ⟨.hbm, 412, rfl⟩
abbrev main_c_56 : Ref sig .tc := ⟨.hbm, 413, rfl⟩
abbrev main_v313 : Ref sig .tc := ⟨.hbm, 414, rfl⟩
abbrev main_v314 : Ref sig .tc := ⟨.hbm, 415, rfl⟩
abbrev main_c_57 : Ref sig .tc := ⟨.hbm, 416, rfl⟩
abbrev main_v315 : Ref sig .tc := ⟨.hbm, 417, rfl⟩
abbrev main_v316 : Ref sig .tc := ⟨.hbm, 418, rfl⟩
abbrev main_v317 : Ref sig .tc := ⟨.hbm, 419, rfl⟩
abbrev main_v318 : Ref sig .tc := ⟨.hbm, 420, rfl⟩
abbrev main_v319 : Ref sig .tc := ⟨.hbm, 421, rfl⟩
abbrev main_v320 : Ref sig .tc := ⟨.hbm, 422, rfl⟩
abbrev main_v321 : Ref sig .tc := ⟨.hbm, 423, rfl⟩
abbrev main_c_58 : Ref sig .tc := ⟨.hbm, 424, rfl⟩
abbrev main_v322 : Ref sig .tc := ⟨.hbm, 425, rfl⟩
abbrev main_v323 : Ref sig .tc := ⟨.hbm, 426, rfl⟩
abbrev main_c_59 : Ref sig .tc := ⟨.hbm, 427, rfl⟩
abbrev main_v324 : Ref sig .tc := ⟨.hbm, 428, rfl⟩
abbrev main_v325 : Ref sig .tc := ⟨.hbm, 429, rfl⟩
abbrev main_v326 : Ref sig .tc := ⟨.hbm, 430, rfl⟩
abbrev main_v327 : Ref sig .tc := ⟨.hbm, 431, rfl⟩
abbrev main_v328 : Ref sig .tc := ⟨.hbm, 432, rfl⟩
abbrev main_v329 : Ref sig .tc := ⟨.hbm, 433, rfl⟩
abbrev main_v330 : Ref sig .tc := ⟨.hbm, 434, rfl⟩
abbrev main_cst_60 : Ref sig .tc := ⟨.hbm, 435, rfl⟩
abbrev main_v331 : Ref sig .tc := ⟨.hbm, 436, rfl⟩
abbrev main_v332 : Ref sig .tc := ⟨.hbm, 437, rfl⟩
abbrev main_v333 : Ref sig .tc := ⟨.hbm, 438, rfl⟩
abbrev main_v334 : Ref sig .tc := ⟨.hbm, 439, rfl⟩
abbrev main_v335 : Ref sig .tc := ⟨.hbm, 440, rfl⟩
abbrev main_v336 : Ref sig .tc := ⟨.hbm, 441, rfl⟩
abbrev main_v337 : Ref sig .tc := ⟨.hbm, 442, rfl⟩
abbrev main_v338 : Ref sig .tc := ⟨.hbm, 443, rfl⟩
abbrev main_v339 : Ref sig .tc := ⟨.hbm, 444, rfl⟩
abbrev main_v340 : Ref sig .tc := ⟨.hbm, 445, rfl⟩
abbrev main_v341 : Ref sig .tc := ⟨.hbm, 446, rfl⟩
abbrev main_call6_cst : Ref sig .tc := ⟨.hbm, 447, rfl⟩
abbrev main_call6_v0 : Ref sig .tc := ⟨.hbm, 448, rfl⟩
abbrev main_v342 : Ref sig .tc := ⟨.hbm, 449, rfl⟩
abbrev main_v343 : Ref sig .tc := ⟨.hbm, 450, rfl⟩
abbrev main_v344 : Ref sig .tc := ⟨.hbm, 451, rfl⟩
abbrev main_v345 : Ref sig .tc := ⟨.hbm, 452, rfl⟩
abbrev main_v346 : Ref sig .tc := ⟨.hbm, 453, rfl⟩
abbrev main_v347 : Ref sig .tc := ⟨.hbm, 454, rfl⟩
abbrev main_cst_61 : Ref sig .tc := ⟨.hbm, 455, rfl⟩
abbrev main_v348 : Ref sig .tc := ⟨.hbm, 456, rfl⟩
abbrev main_v349 : Ref sig .tc := ⟨.hbm, 457, rfl⟩
abbrev main_v350 : Ref sig .tc := ⟨.hbm, 458, rfl⟩
abbrev main_cst_62 : Ref sig .tc := ⟨.hbm, 459, rfl⟩
abbrev main_v351 : Ref sig .tc := ⟨.hbm, 460, rfl⟩
abbrev main_v352 : Ref sig .tc := ⟨.hbm, 461, rfl⟩
abbrev main_v353 : Ref sig .tc := ⟨.hbm, 462, rfl⟩
abbrev main_c_63 : Ref sig .tc := ⟨.hbm, 463, rfl⟩
abbrev main_v354 : Ref sig .tc := ⟨.hbm, 464, rfl⟩
abbrev main_v355 : Ref sig .tc := ⟨.hbm, 465, rfl⟩
abbrev main_c_64 : Ref sig .tc := ⟨.hbm, 466, rfl⟩
abbrev main_v356 : Ref sig .tc := ⟨.hbm, 467, rfl⟩
abbrev main_v357 : Ref sig .tc := ⟨.hbm, 468, rfl⟩
abbrev main_v358 : Ref sig .tc := ⟨.hbm, 469, rfl⟩
abbrev main_v359 : Ref sig .tc := ⟨.hbm, 470, rfl⟩
abbrev main_v360 : Ref sig .tc := ⟨.hbm, 471, rfl⟩
abbrev main_v361 : Ref sig .tc := ⟨.hbm, 472, rfl⟩
abbrev main_c_65 : Ref sig .tc := ⟨.hbm, 473, rfl⟩
abbrev main_v362 : Ref sig .tc := ⟨.hbm, 474, rfl⟩
abbrev main_v363 : Ref sig .tc := ⟨.hbm, 475, rfl⟩
abbrev main_c_66 : Ref sig .tc := ⟨.hbm, 476, rfl⟩
abbrev main_v364 : Ref sig .tc := ⟨.hbm, 477, rfl⟩
abbrev main_v365 : Ref sig .tc := ⟨.hbm, 478, rfl⟩
abbrev main_v366 : Ref sig .tc := ⟨.hbm, 479, rfl⟩
abbrev main_v367 : Ref sig .tc := ⟨.hbm, 480, rfl⟩
abbrev main_v368 : Ref sig .tc := ⟨.hbm, 481, rfl⟩
abbrev main_v369 : Ref sig .tc := ⟨.hbm, 482, rfl⟩
abbrev main_v370 : Ref sig .tc := ⟨.hbm, 483, rfl⟩
abbrev main_c_67 : Ref sig .tc := ⟨.hbm, 484, rfl⟩
abbrev main_v371 : Ref sig .tc := ⟨.hbm, 485, rfl⟩
abbrev main_v372 : Ref sig .tc := ⟨.hbm, 486, rfl⟩
abbrev main_c_68 : Ref sig .tc := ⟨.hbm, 487, rfl⟩
abbrev main_v373 : Ref sig .tc := ⟨.hbm, 488, rfl⟩
abbrev main_v374 : Ref sig .tc := ⟨.hbm, 489, rfl⟩
abbrev main_v375 : Ref sig .tc := ⟨.hbm, 490, rfl⟩
abbrev main_v376 : Ref sig .tc := ⟨.hbm, 491, rfl⟩
abbrev main_v377 : Ref sig .tc := ⟨.hbm, 492, rfl⟩
abbrev main_v378 : Ref sig .tc := ⟨.hbm, 493, rfl⟩
abbrev main_v379 : Ref sig .tc := ⟨.hbm, 494, rfl⟩
abbrev main_cst_69 : Ref sig .tc := ⟨.hbm, 495, rfl⟩
abbrev main_v380 : Ref sig .tc := ⟨.hbm, 496, rfl⟩
abbrev main_v381 : Ref sig .tc := ⟨.hbm, 497, rfl⟩
abbrev main_v382 : Ref sig .tc := ⟨.hbm, 498, rfl⟩
abbrev main_v383 : Ref sig .tc := ⟨.hbm, 499, rfl⟩
abbrev main_v384 : Ref sig .tc := ⟨.hbm, 500, rfl⟩
abbrev main_v385 : Ref sig .tc := ⟨.hbm, 501, rfl⟩
abbrev main_v386 : Ref sig .tc := ⟨.hbm, 502, rfl⟩
abbrev main_v387 : Ref sig .tc := ⟨.hbm, 503, rfl⟩
abbrev main_v388 : Ref sig .tc := ⟨.hbm, 504, rfl⟩
abbrev main_v389 : Ref sig .tc := ⟨.hbm, 505, rfl⟩
abbrev main_v390 : Ref sig .tc := ⟨.hbm, 506, rfl⟩
abbrev main_call7_cst : Ref sig .tc := ⟨.hbm, 507, rfl⟩
abbrev main_call7_v0 : Ref sig .tc := ⟨.hbm, 508, rfl⟩
abbrev main_v391 : Ref sig .tc := ⟨.hbm, 509, rfl⟩
abbrev main_v392 : Ref sig .tc := ⟨.hbm, 510, rfl⟩
abbrev main_v393 : Ref sig .tc := ⟨.hbm, 511, rfl⟩
abbrev main_v394 : Ref sig .tc := ⟨.hbm, 512, rfl⟩
abbrev main_v395 : Ref sig .tc := ⟨.hbm, 513, rfl⟩
abbrev main_v396 : Ref sig .tc := ⟨.hbm, 514, rfl⟩
abbrev main_v397 : Ref sig .tc := ⟨.hbm, 515, rfl⟩
abbrev main_v398 : Ref sig .tc := ⟨.hbm, 516, rfl⟩
abbrev main_v399 : Ref sig .tc := ⟨.hbm, 517, rfl⟩
abbrev main_v400 : Ref sig .tc := ⟨.hbm, 518, rfl⟩
abbrev main_v401 : Ref sig .tc := ⟨.hbm, 519, rfl⟩
abbrev main_v402 : Ref sig .tc := ⟨.hbm, 520, rfl⟩
abbrev main_v403 : Ref sig .tc := ⟨.hbm, 521, rfl⟩
abbrev main_v404 : Ref sig .tc := ⟨.hbm, 522, rfl⟩
abbrev main_v405 : Ref sig .tc := ⟨.hbm, 523, rfl⟩
abbrev main_v406 : Ref sig .tc := ⟨.hbm, 524, rfl⟩
abbrev main_v407 : Ref sig .tc := ⟨.hbm, 525, rfl⟩
abbrev main_cst_70 : Ref sig .tc := ⟨.hbm, 526, rfl⟩
abbrev main_v408 : Ref sig .tc := ⟨.hbm, 527, rfl⟩
abbrev main_v409 : Ref sig .tc := ⟨.hbm, 528, rfl⟩
abbrev main_v410 : Ref sig .tc := ⟨.hbm, 529, rfl⟩
abbrev main_cst_71 : Ref sig .tc := ⟨.hbm, 530, rfl⟩
abbrev main_v411 : Ref sig .tc := ⟨.hbm, 531, rfl⟩
abbrev main_v412 : Ref sig .tc := ⟨.hbm, 532, rfl⟩
abbrev main_v413 : Ref sig .tc := ⟨.hbm, 533, rfl⟩
abbrev main_v414 : Ref sig .tc := ⟨.hbm, 534, rfl⟩
abbrev main_v415 : Ref sig .tc := ⟨.hbm, 535, rfl⟩

abbrev nD : Nat := 1
abbrev τ : Topo := Topo.v7x

variable {F : FTy → Type} [FloatOps F]

class Facts₀ : Prop where
  slices_S2x384000_S1x384000_0_0 : S2x384000.Slices ![0, 0] S1x384000
  shapeCasts_S1x384000_S384000 : S1x384000.ShapeCasts S384000
  slices_S2x384000_S1x384000_1_0 : S2x384000.Slices ![1, 0] S1x384000
  bcast_S_S12000 : S_.BroadcastsInDim S12000 (![] : Fin 0 → Fin S12000.rank)
  bcast_S384000_S384000x1_0 : S384000.BroadcastsInDim S384000x1 (![0] : Fin 1 → Fin S384000x1.rank)
  bcast_S_S384000 : S_.BroadcastsInDim S384000 (![] : Fin 0 → Fin S384000.rank)
  bcast_S384000x1_S384000x128_0_1 : S384000x1.BroadcastsInDim S384000x128 (![0, 1] : Fin 2 → Fin S384000x128.rank)
  bcast_S_S12000x128 : S_.BroadcastsInDim S12000x128 (![] : Fin 0 → Fin S12000x128.rank)
  bcast_S12000_S12000x1_0 : S12000.BroadcastsInDim S12000x1 (![0] : Fin 1 → Fin S12000x1.rank)
  bcast_S12000x1_S12000x128_0_1 : S12000x1.BroadcastsInDim S12000x128 (![0, 1] : Fin 2 → Fin S12000x128.rank)
  bcast_S128_S1x128_1 : S128.BroadcastsInDim S1x128 (![1] : Fin 1 → Fin S1x128.rank)
  bcast_S1x128_S12000x128_0_1 : S1x128.BroadcastsInDim S12000x128 (![0, 1] : Fin 2 → Fin S12000x128.rank)
  slices_S2x192000_S1x192000_0_0 : S2x192000.Slices ![0, 0] S1x192000
  shapeCasts_S1x192000_S192000 : S1x192000.ShapeCasts S192000
  slices_S2x192000_S1x192000_1_0 : S2x192000.Slices ![1, 0] S1x192000
  bcast_S_S6000 : S_.BroadcastsInDim S6000 (![] : Fin 0 → Fin S6000.rank)
  bcast_S192000_S192000x1_0 : S192000.BroadcastsInDim S192000x1 (![0] : Fin 1 → Fin S192000x1.rank)
  bcast_S_S192000 : S_.BroadcastsInDim S192000 (![] : Fin 0 → Fin S192000.rank)
  bcast_S192000x1_S192000x128_0_1 : S192000x1.BroadcastsInDim S192000x128 (![0, 1] : Fin 2 → Fin S192000x128.rank)
  bcast_S_S6000x128 : S_.BroadcastsInDim S6000x128 (![] : Fin 0 → Fin S6000x128.rank)
  bcast_S6000_S6000x1_0 : S6000.BroadcastsInDim S6000x1 (![0] : Fin 1 → Fin S6000x1.rank)
  bcast_S6000x1_S6000x128_0_1 : S6000x1.BroadcastsInDim S6000x128 (![0, 1] : Fin 2 → Fin S6000x128.rank)
  bcast_S1x128_S6000x128_0_1 : S1x128.BroadcastsInDim S6000x128 (![0, 1] : Fin 2 → Fin S6000x128.rank)
  transposes_S6000x128_S128x6000_1_0 : S6000x128.Transposes [1, 0] S128x6000
  dot_S12000x128_S128x128_S12000x128_1_0_0_1_n_n_wf : DotDims.WF S12000x128 S128x128 S12000x128 [1] [0] [0] [1] [] []
  scatter_S12000_S384000x1_S384000_n_0_0_1_wf : ScatterDims.WF S12000 S384000x1 S384000 [] [0] [0] 1
  gather_S12000_S384000x1_S384000_n_0_n_n_0_1_1_wf : GatherDims.WF S12000 S384000x1 S384000 [] [0] [] [0] [] 1 ![1]
  gather_S12000x128_S384000x1_S384000x128_1_0_n_n_0_1_1128_wf : GatherDims.WF S12000x128 S384000x1 S384000x128 [1] [0] [] [0] [] 1 ![1, 128]
  scatter_S12000x128_S384000x1_S384000x128_1_0_0_1_wf : ScatterDims.WF S12000x128 S384000x1 S384000x128 [1] [0] [0] 1
  dot_S6000x128_S128x128_S6000x128_1_0_0_1_n_n_wf : DotDims.WF S6000x128 S128x128 S6000x128 [1] [0] [0] [1] [] []
  scatter_S6000_S192000x1_S192000_n_0_0_1_wf : ScatterDims.WF S6000 S192000x1 S192000 [] [0] [0] 1
  gather_S6000_S192000x1_S192000_n_0_n_n_0_1_1_wf : GatherDims.WF S6000 S192000x1 S192000 [] [0] [] [0] [] 1 ![1]
  gather_S6000x128_S192000x1_S192000x128_1_0_n_n_0_1_1128_wf : GatherDims.WF S6000x128 S192000x1 S192000x128 [1] [0] [] [0] [] 1 ![1, 128]
  scatter_S6000x128_S192000x1_S192000x128_1_0_0_1_wf : ScatterDims.WF S6000x128 S192000x1 S192000x128 [1] [0] [0] 1
  dot_S12000x128_S128x6000_S12000x6000_1_0_0_1_n_n_wf : DotDims.WF S12000x128 S128x6000 S12000x6000 [1] [0] [0] [1] [] []

variable [Facts₀]

def dot_S12000x128_S128x128_S12000x128_1_0_0_1_n_n : DotDims S12000x128 S128x128 S12000x128 where
  lhsContracting := [1]
  rhsContracting := [0]
  lhsNonContracting := [0]
  rhsNonContracting := [1]
  lhsBatch := []
  rhsBatch := []
  wf := dot_S12000x128_S128x128_S12000x128_1_0_0_1_n_n_wf
def scatter_S12000_S384000x1_S384000_n_0_0_1 : ScatterDims S12000 S384000x1 S384000 where
  updateWindowDims := []
  insertedWindowDims := [0]
  scatterDimsToOperandDims := [0]
  indexVectorDim := 1
  wf := scatter_S12000_S384000x1_S384000_n_0_0_1_wf
def gather_S12000_S384000x1_S384000_n_0_n_n_0_1_1 : GatherDims S12000 S384000x1 S384000 where
  offsetDims := []
  collapsedSliceDims := [0]
  operandBatchingDims := []
  startIndicesBatchingDims := []
  startIndexMap := [0]
  indexVectorDim := 1
  sliceSizes := ![1]
  wf := gather_S12000_S384000x1_S384000_n_0_n_n_0_1_1_wf
def gather_S12000x128_S384000x1_S384000x128_1_0_n_n_0_1_1128 : GatherDims S12000x128 S384000x1 S384000x128 where
  offsetDims := [1]
  collapsedSliceDims := [0]
  operandBatchingDims := []
  startIndicesBatchingDims := []
  startIndexMap := [0]
  indexVectorDim := 1
  sliceSizes := ![1, 128]
  wf := gather_S12000x128_S384000x1_S384000x128_1_0_n_n_0_1_1128_wf
def scatter_S12000x128_S384000x1_S384000x128_1_0_0_1 : ScatterDims S12000x128 S384000x1 S384000x128 where
  updateWindowDims := [1]
  insertedWindowDims := [0]
  scatterDimsToOperandDims := [0]
  indexVectorDim := 1
  wf := scatter_S12000x128_S384000x1_S384000x128_1_0_0_1_wf
def dot_S6000x128_S128x128_S6000x128_1_0_0_1_n_n : DotDims S6000x128 S128x128 S6000x128 where
  lhsContracting := [1]
  rhsContracting := [0]
  lhsNonContracting := [0]
  rhsNonContracting := [1]
  lhsBatch := []
  rhsBatch := []
  wf := dot_S6000x128_S128x128_S6000x128_1_0_0_1_n_n_wf
def scatter_S6000_S192000x1_S192000_n_0_0_1 : ScatterDims S6000 S192000x1 S192000 where
  updateWindowDims := []
  insertedWindowDims := [0]
  scatterDimsToOperandDims := [0]
  indexVectorDim := 1
  wf := scatter_S6000_S192000x1_S192000_n_0_0_1_wf
def gather_S6000_S192000x1_S192000_n_0_n_n_0_1_1 : GatherDims S6000 S192000x1 S192000 where
  offsetDims := []
  collapsedSliceDims := [0]
  operandBatchingDims := []
  startIndicesBatchingDims := []
  startIndexMap := [0]
  indexVectorDim := 1
  sliceSizes := ![1]
  wf := gather_S6000_S192000x1_S192000_n_0_n_n_0_1_1_wf
def gather_S6000x128_S192000x1_S192000x128_1_0_n_n_0_1_1128 : GatherDims S6000x128 S192000x1 S192000x128 where
  offsetDims := [1]
  collapsedSliceDims := [0]
  operandBatchingDims := []
  startIndicesBatchingDims := []
  startIndexMap := [0]
  indexVectorDim := 1
  sliceSizes := ![1, 128]
  wf := gather_S6000x128_S192000x1_S192000x128_1_0_n_n_0_1_1128_wf
def scatter_S6000x128_S192000x1_S192000x128_1_0_0_1 : ScatterDims S6000x128 S192000x1 S192000x128 where
  updateWindowDims := [1]
  insertedWindowDims := [0]
  scatterDimsToOperandDims := [0]
  indexVectorDim := 1
  wf := scatter_S6000x128_S192000x1_S192000x128_1_0_0_1_wf
def dot_S12000x128_S128x6000_S12000x6000_1_0_0_1_n_n : DotDims S12000x128 S128x6000 S12000x6000 where
  lhsContracting := [1]
  rhsContracting := [0]
  lhsNonContracting := [0]
  rhsNonContracting := [1]
  lhsBatch := []
  rhsBatch := []
  wf := dot_S12000x128_S128x6000_S12000x6000_1_0_0_1_n_n_wf

class Facts : Prop extends Facts₀ where

variable [Facts]
-- ==== Proof.SpecBase.lean ====
/-
  The mathematics both programs compute, as whole-array functions over the extended reals, named once.

  A graph-convolution layer on `n` nodes with edge list `e = (row, col)` and edge weights `w`:
    xw    = x · W
    deg   = 1 + (sum of w over the edges into each node),  dinv = deg^(-1/2)
    norm  = dinv[row] · w · dinv[col]
    agg   = sum, over the edges into each node, of norm · xw[row]
    out   = max (agg + dinv² · xw + b, 0).
  The two programs differ in three places only: the product `x · W` (a tiled matrix product against one
  `dot_general`), the read `xw[row]` (a gather that fills a NaN where the index is out of range against a plain gather)
  and the last line (one fused pointwise kernel against three host operations). Everything else is the same chain of
  host operations, carried here as opaque functions (`dinv`, `norm`, `agg`, `self`) so that no proof ever opens it.
  `MI` names the 12000-node graphs (384000 edges), `DIS` the 6000-node graphs (192000 edges).
-/
import proofs.«406409_j38250978738663_3_alg».proof.Proof.Gen.KernelIdeal
import proofs.«406409_j38250978738663_3_alg».proof.Proof.Gen.ReferenceIdeal
import Idealize.ShloMosaic.PureOps.Ideal

noncomputable section

namespace Cert.Spec

open Idealize.ShloMosaic Idealize.ShloMosaic.TcCoe

/-- The contents of a buffer of shape `S` and element type `d`, at the extended reals. -/
abbrev C (S : Shape) (d : EltTy) : Type := (⟨S, d⟩ : BufTy).Contents (Elt Ideal)

end Cert.Spec

end
-- ==== Proof.SpecMI.lean ====
/-
  The graph-convolution layer's pieces on the 12000-node graphs (384000 edges), as whole-array functions over the
  extended reals: see SpecBase.lean for the formulas. The shared chain (`dinv`, `norm`, `agg`, `self`) is stated once
  and never opened; the two forms of the layer (`layerK`: the fill-gather and the fused last line; `layerR`: the plain
  gather and three host operations) differ only around it.
-/
import proofs.«406409_j38250978738663_3_alg».proof.Proof.SpecBase

noncomputable section

namespace Cert.Spec

open Idealize.ShloMosaic Idealize.ShloMosaic.TcCoe
open Cert.KernelIdeal Cert.KernelIdeal.Facts₀ Cert.KernelIdeal.Facts

/-- Row `0` of the edge list: the source node of every edge. -/
def rowMI (e : C S2x384000 .i32) : C S384000 .i32 :=
  shapeCast S384000 (extractStridedSlice S1x384000 ![0, 0] e slices_S2x384000_S1x384000_0_0) shapeCasts_S1x384000_S384000
/-- Row `1` of the edge list: the target node of every edge. -/
def colMI (e : C S2x384000 .i32) : C S384000 .i32 :=
  shapeCast S384000 (extractStridedSlice S1x384000 ![1, 0] e slices_S2x384000_S1x384000_1_0) shapeCasts_S1x384000_S384000
/-- numpy's wrap of a negative index: `v + 12000` where `v < 0`, else `v`. -/
def wrapMI (v : C S384000 .i32) : C S384000 .i32 :=
  select (cmpi .slt v (broadcastInDim S384000 ![] bcast_S_S384000 (constantI S_ 32 0#32)))
    (addi v (broadcastInDim S384000 ![] bcast_S_S384000 (constantI S_ 32 12000#32))) v
/-- An index vector as the one-column table of start indices a gather or scatter takes. -/
def col1MI (v : C S384000 .i32) : C S384000x1 .i32 := broadcastInDim S384000x1 ![0] bcast_S384000_S384000x1_0 v
/-- `dinv = rsqrt(deg)`, `deg[i] = 1 + ∑_{e : col e = i} w_e`. -/
def dinvMI (e : C S2x384000 .i32) (w : C S384000 .f32) : C S12000 .f32 :=
  Host.rsqrt (addf (Host.scatterAdd scatter_S12000_S384000x1_S384000_n_0_0_1
      (broadcastInDim S12000 ![] bcast_S_S12000 (constant (F := Ideal) S_ .f32 0x00000000#32)) (col1MI (colMI e)) w)
    (broadcastInDim S12000 ![] bcast_S_S12000 (constant (F := Ideal) S_ .f32 0x3F800000#32)))
/-- The symmetric normalisation of an edge: `dinv[row] · w · dinv[col]`. -/
def normMI (e : C S2x384000 .i32) (w : C S384000 .f32) : C S384000 .f32 :=
  mulf (F := Ideal) (φ := .f32) (mulf (F := Ideal) (φ := .f32) (Host.gather gather_S12000_S384000x1_S384000_n_0_n_n_0_1_1 (dinvMI e w) (col1MI (wrapMI (rowMI e)))) w)
    (Host.gather gather_S12000_S384000x1_S384000_n_0_n_n_0_1_1 (dinvMI e w) (col1MI (wrapMI (colMI e))))
/-- The aggregation: the gathered source rows `g`, scaled by the edge normalisation, summed into their target rows. -/
def aggMI (e : C S2x384000 .i32) (w : C S384000 .f32) (g : C S384000x128 .f32) : C S12000x128 .f32 :=
  Host.scatterAdd scatter_S12000x128_S384000x1_S384000x128_1_0_0_1
    (broadcastInDim S12000x128 ![] bcast_S_S12000x128 (constant (F := Ideal) S_ .f32 0x00000000#32)) (col1MI (colMI e))
    (mulf (broadcastInDim S384000x128 ![0, 1] bcast_S384000x1_S384000x128_0_1
      (broadcastInDim S384000x1 ![0] bcast_S384000_S384000x1_0 (normMI e w))) g)
/-- The self loop's term: `dinv[i]² · (xW)[i]`. -/
def selfMI (e : C S2x384000 .i32) (w : C S384000 .f32) (xw : C S12000x128 .f32) : C S12000x128 .f32 :=
  mulf (F := Ideal) (φ := .f32) (broadcastInDim S12000x128 ![0, 1] bcast_S12000x1_S12000x128_0_1
    (broadcastInDim S12000x1 ![0] bcast_S12000_S12000x1_0 (mulf (F := Ideal) (φ := .f32) (dinvMI e w) (dinvMI e w)))) xw
/-- The plain gather of the source rows of `xw` at the wrapped row indices (what `xw[row]` lowers to). -/
def gatherMI (xw : C S12000x128 .f32) (row : C S384000 .i32) : C S384000x128 .f32 :=
  Host.gather gather_S12000x128_S384000x1_S384000x128_1_0_n_n_0_1_1128 xw (col1MI (wrapMI row))
/-- `jnp.take` at its default mode: the same gather, with a NaN filled in wherever the wrapped index falls outside
    `[0, 11999]`. -/
def takeMI (xw : C S12000x128 .f32) (row : C S384000 .i32) : C S384000x128 .f32 :=
  select (broadcastInDim S384000x128 ![0] bcast_S384000_S384000x128_0
      (Host.reduce IntOp.andi
        (andi (cmpi .sge (col1MI (wrapMI row)) (broadcastInDim S384000x1 ![] bcast_S_S384000x1 (constantI S_ 32 0#32)))
          (cmpi .sle (col1MI (wrapMI row)) (broadcastInDim S384000x1 ![0, 1] bcast_S1x1_S384000x1_0_1
            (broadcastInDim S1x1 ![1] bcast_S1_S1x1_1 (constantI S1 32 11999#32)))))
        (constantI S_ 1 1#1) reducesTo_S384000x1_S384000_d1 h_S_))
    (gatherMI xw row)
    (broadcastInDim S384000x128 ![] bcast_S_S384000x128 (constant (F := Ideal) S_ .f32 0x7FC00000#32))

/-- The layer as the kernel's program computes it: the fill-gather, then the fused last line over the bias as a
    `[1, 128]` row. `xw` is the product `x · W`. -/
def layerKMI (xw : C S12000x128 .f32) (b : C S128 .f32) (e : C S2x384000 .i32) (w : C S384000 .f32) : C S12000x128 .f32 :=
  maximumf (addf (addf (aggMI e w (takeMI xw (rowMI e))) (selfMI e w xw))
      (broadcastInDim Cert.ReferenceIdeal.S12000x128 ![0, 1] Cert.ReferenceIdeal.Facts₀.bcast_S1x128_S12000x128_0_1 (shapeCast S1x128 b shapeCasts_S128_S1x128)))
    (broadcastInDim Cert.ReferenceIdeal.S12000x128 ![] Cert.ReferenceIdeal.Facts₀.bcast_S_S12000x128 (constant (F := Ideal) Cert.ReferenceIdeal.S_ .f32 0x00000000#32))
/-- The layer as the reference computes it: the plain gather, the bias broadcast in two steps, relu as a maximum. -/
def layerRMI (xw : C S12000x128 .f32) (b : C S128 .f32) (e : C S2x384000 .i32) (w : C S384000 .f32) : C S12000x128 .f32 :=
  maximumf (addf (addf (aggMI e w (gatherMI xw (rowMI e))) (selfMI e w xw))
      (broadcastInDim Cert.ReferenceIdeal.S12000x128 ![0, 1] Cert.ReferenceIdeal.Facts₀.bcast_S1x128_S12000x128_0_1 (broadcastInDim Cert.ReferenceIdeal.S1x128 ![1] Cert.ReferenceIdeal.Facts₀.bcast_S128_S1x128_1 b)))
    (broadcastInDim Cert.ReferenceIdeal.S12000x128 ![] Cert.ReferenceIdeal.Facts₀.bcast_S_S12000x128 (constant (F := Ideal) Cert.ReferenceIdeal.S_ .f32 0x00000000#32))
/-- `x · W` as the reference's `dot_general`. -/
def xwMI (x : C S12000x128 .f32) (Wm : C S128x128 .f32) : C S12000x128 .f32 :=
  Host.dotGeneral (F := Ideal) (φ₁ := .f32) (φ₂ := .f32) Cert.ReferenceIdeal.dot_S12000x128_S128x128_S12000x128_1_0_0_1_n_n none x Wm
/-- One linear head `x · W + b` over a bias row `b2 : [1, 128]`. -/
def headMI (x : C S12000x128 .f32) (Wm : C S128x128 .f32) (b2 : C S1x128 .f32) : C S12000x128 .f32 :=
  addf (F := Ideal) (φ := .f32) (xwMI x Wm) (broadcastInDim Cert.ReferenceIdeal.S12000x128 ![0, 1] Cert.ReferenceIdeal.Facts₀.bcast_S1x128_S12000x128_0_1 b2)
/-- The gate `where (a > 0, a, b)` of two heads. -/
def gateMI (a b : C S12000x128 .f32) : C S12000x128 .f32 :=
  select (cmpf .ogt a (broadcastInDim Cert.ReferenceIdeal.S12000x128 ![] Cert.ReferenceIdeal.Facts₀.bcast_S_S12000x128 (constant (F := Ideal) Cert.ReferenceIdeal.S_ .f32 0x00000000#32))) a b

end Cert.Spec

end
-- ==== Proof.SpecDIS.lean ====
/-
  The graph-convolution layer's pieces on the 6000-node graphs (192000 edges), as whole-array functions over the
  extended reals: see SpecBase.lean for the formulas. The shared chain (`dinv`, `norm`, `agg`, `self`) is stated once
  and never opened; the two forms of the layer (`layerK`: the fill-gather and the fused last line; `layerR`: the plain
  gather and three host operations) differ only around it.
-/
import proofs.«406409_j38250978738663_3_alg».proof.Proof.SpecBase

noncomputable section

namespace Cert.Spec

open Idealize.ShloMosaic Idealize.ShloMosaic.TcCoe
open Cert.KernelIdeal Cert.KernelIdeal.Facts₀ Cert.KernelIdeal.Facts

/-- Row `0` of the edge list: the source node of every edge. -/
def rowDIS (e : C S2x192000 .i32) : C S192000 .i32 :=
  shapeCast S192000 (extractStridedSlice S1x192000 ![0, 0] e slices_S2x192000_S1x192000_0_0) shapeCasts_S1x192000_S192000
/-- Row `1` of the edge list: the target node of every edge. -/
def colDIS (e : C S2x192000 .i32) : C S192000 .i32 :=
  shapeCast S192000 (extractStridedSlice S1x192000 ![1, 0] e slices_S2x192000_S1x192000_1_0) shapeCasts_S1x192000_S192000
/-- numpy's wrap of a negative index: `v + 6000` where `v < 0`, else `v`. -/
def wrapDIS (v : C S192000 .i32) : C S192000 .i32 :=
  select (cmpi .slt v (broadcastInDim S192000 ![] bcast_S_S192000 (constantI S_ 32 0#32)))
    (addi v (broadcastInDim S192000 ![] bcast_S_S192000 (constantI S_ 32 6000#32))) v
/-- An index vector as the one-column table of start indices a gather or scatter takes. -/
def col1DIS (v : C S192000 .i32) : C S192000x1 .i32 := broadcastInDim S192000x1 ![0] bcast_S192000_S192000x1_0 v
/-- `dinv = rsqrt(deg)`, `deg[i] = 1 + ∑_{e : col e = i} w_e`. -/
def dinvDIS (e : C S2x192000 .i32) (w : C S192000 .f32) : C S6000 .f32 :=
  Host.rsqrt (addf (Host.scatterAdd scatter_S6000_S192000x1_S192000_n_0_0_1
      (broadcastInDim S6000 ![] bcast_S_S6000 (constant (F := Ideal) S_ .f32 0x00000000#32)) (col1DIS (colDIS e)) w)
    (broadcastInDim S6000 ![] bcast_S_S6000 (constant (F := Ideal) S_ .f32 0x3F800000#32)))
/-- The symmetric normalisation of an edge: `dinv[row] · w · dinv[col]`. -/
def normDIS (e : C S2x192000 .i32) (w : C S192000 .f32) : C S192000 .f32 :=
  mulf (F := Ideal) (φ := .f32) (mulf (F := Ideal) (φ := .f32) (Host.gather gather_S6000_S192000x1_S192000_n_0_n_n_0_1_1 (dinvDIS e w) (col1DIS (wrapDIS (rowDIS e)))) w)
    (Host.gather gather_S6000_S192000x1_S192000_n_0_n_n_0_1_1 (dinvDIS e w) (col1DIS (wrapDIS (colDIS e))))
/-- The aggregation: the gathered source rows `g`, scaled by the edge normalisation, summed into their target rows. -/
def aggDIS (e : C S2x192000 .i32) (w : C S192000 .f32) (g : C S192000x128 .f32) : C S6000x128 .f32 :=
  Host.scatterAdd scatter_S6000x128_S192000x1_S192000x128_1_0_0_1
    (broadcastInDim S6000x128 ![] bcast_S_S6000x128 (constant (F := Ideal) S_ .f32 0x00000000#32)) (col1DIS (colDIS e))
    (mulf (broadcastInDim S192000x128 ![0, 1] bcast_S192000x1_S192000x128_0_1
      (broadcastInDim S192000x1 ![0] bcast_S192000_S192000x1_0 (normDIS e w))) g)
/-- The self loop's term: `dinv[i]² · (xW)[i]`. -/
def selfDIS (e : C S2x192000 .i32) (w : C S192000 .f32) (xw : C S6000x128 .f32) : C S6000x128 .f32 :=
  mulf (F := Ideal) (φ := .f32) (broadcastInDim S6000x128 ![0, 1] bcast_S6000x1_S6000x128_0_1
    (broadcastInDim S6000x1 ![0] bcast_S6000_S6000x1_0 (mulf (F := Ideal) (φ := .f32) (dinvDIS e w) (dinvDIS e w)))) xw
/-- The plain gather of the source rows of `xw` at the wrapped row indices (what `xw[row]` lowers to). -/
def gatherDIS (xw : C S6000x128 .f32) (row : C S192000 .i32) : C S192000x128 .f32 :=
  Host.gather gather_S6000x128_S192000x1_S192000x128_1_0_n_n_0_1_1128 xw (col1DIS (wrapDIS row))
/-- `jnp.take` at its default mode: the same gather, with a NaN filled in wherever the wrapped index falls outside
    `[0, 5999]`. -/
def takeDIS (xw : C S6000x128 .f32) (row : C S192000 .i32) : C S192000x128 .f32 :=
  select (broadcastInDim S192000x128 ![0] bcast_S192000_S192000x128_0
      (Host.reduce IntOp.andi
        (andi (cmpi .sge (col1DIS (wrapDIS row)) (broadcastInDim S192000x1 ![] bcast_S_S192000x1 (constantI S_ 32 0#32)))
          (cmpi .sle (col1DIS (wrapDIS row)) (broadcastInDim S192000x1 ![0, 1] bcast_S1x1_S192000x1_0_1
            (broadcastInDim S1x1 ![1] bcast_S1_S1x1_1 (constantI S1 32 5999#32)))))
        (constantI S_ 1 1#1) reducesTo_S192000x1_S192000_d1 h_S_))
    (gatherDIS xw row)
    (broadcastInDim S192000x128 ![] bcast_S_S192000x128 (constant (F := Ideal) S_ .f32 0x7FC00000#32))

/-- The layer as the kernel's program computes it: the fill-gather, then the fused last line over the bias as a
    `[1, 128]` row. `xw` is the product `x · W`. -/
def layerKDIS (xw : C S6000x128 .f32) (b : C S128 .f32) (e : C S2x192000 .i32) (w : C S192000 .f32) : C S6000x128 .f32 :=
  maximumf (addf (addf (aggDIS e w (takeDIS xw (rowDIS e))) (selfDIS e w xw))
      (broadcastInDim Cert.ReferenceIdeal.S6000x128 ![0, 1] Cert.ReferenceIdeal.Facts₀.bcast_S1x128_S6000x128_0_1 (shapeCast S1x128 b shapeCasts_S128_S1x128)))
    (broadcastInDim Cert.ReferenceIdeal.S6000x128 ![] Cert.ReferenceIdeal.Facts₀.bcast_S_S6000x128 (constant (F := Ideal) Cert.ReferenceIdeal.S_ .f32 0x00000000#32))
/-- The layer as the reference computes it: the plain gather, the bias broadcast in two steps, relu as a maximum. -/
def layerRDIS (xw : C S6000x128 .f32) (b : C S128 .f32) (e : C S2x192000 .i32) (w : C S192000 .f32) : C S6000x128 .f32 :=
  maximumf (addf (addf (aggDIS e w (gatherDIS xw (rowDIS e))) (selfDIS e w xw))
      (broadcastInDim Cert.ReferenceIdeal.S6000x128 ![0, 1] Cert.ReferenceIdeal.Facts₀.bcast_S1x128_S6000x128_0_1 (broadcastInDim Cert.ReferenceIdeal.S1x128 ![1] Cert.ReferenceIdeal.Facts₀.bcast_S128_S1x128_1 b)))
    (broadcastInDim Cert.ReferenceIdeal.S6000x128 ![] Cert.ReferenceIdeal.Facts₀.bcast_S_S6000x128 (constant (F := Ideal) Cert.ReferenceIdeal.S_ .f32 0x00000000#32))
/-- `x · W` as the reference's `dot_general`. -/
def xwDIS (x : C S6000x128 .f32) (Wm : C S128x128 .f32) : C S6000x128 .f32 :=
  Host.dotGeneral (F := Ideal) (φ₁ := .f32) (φ₂ := .f32) Cert.ReferenceIdeal.dot_S6000x128_S128x128_S6000x128_1_0_0_1_n_n none x Wm
/-- One linear head `x · W + b` over a bias row `b2 : [1, 128]`. -/
def headDIS (x : C S6000x128 .f32) (Wm : C S128x128 .f32) (b2 : C S1x128 .f32) : C S6000x128 .f32 :=
  addf (F := Ideal) (φ := .f32) (xwDIS x Wm) (broadcastInDim Cert.ReferenceIdeal.S6000x128 ![0, 1] Cert.ReferenceIdeal.Facts₀.bcast_S1x128_S6000x128_0_1 b2)
/-- The gate `where (a > 0, a, b)` of two heads. -/
def gateDIS (a b : C S6000x128 .f32) : C S6000x128 .f32 :=
  select (cmpf .ogt a (broadcastInDim Cert.ReferenceIdeal.S6000x128 ![] Cert.ReferenceIdeal.Facts₀.bcast_S_S6000x128 (constant (F := Ideal) Cert.ReferenceIdeal.S_ .f32 0x00000000#32))) a b

end Cert.Spec

end
-- ==== Proof.Spec.lean ====
/-
  Both graph sizes' layer functions put together: two stacked layers per feature branch, the gated pair of linear heads per
  node set, and the last operation of both programs, the similarity `a · bᵀ`. Each composite comes in the kernel's form
  (`…K`: fill-gather, fused last line, bias rows by reshape) and the reference's (`…R`: plain gather, host operations,
  bias rows by broadcast); they differ in nothing else.
-/
import proofs.«406409_j38250978738663_3_alg».proof.Proof.SpecMI
import proofs.«406409_j38250978738663_3_alg».proof.Proof.SpecDIS

noncomputable section

namespace Cert.Spec

open Idealize.ShloMosaic Idealize.ShloMosaic.TcCoe
open Cert.KernelIdeal Cert.KernelIdeal.Facts₀ Cert.KernelIdeal.Facts

/-- Two stacked layers on the 12000-node graph, the kernel's form. -/
def twoKMI (x : C S12000x128 .f32) (W1 : C S128x128 .f32) (b1 : C S128 .f32) (W2 : C S128x128 .f32) (b2 : C S128 .f32)
    (e : C S2x384000 .i32) (w : C S384000 .f32) : C S12000x128 .f32 :=
  layerKMI (xwMI (layerKMI (xwMI x W1) b1 e w) W2) b2 e w
/-- Two stacked layers on the 12000-node graph, the reference's form. -/
def twoRMI (x : C S12000x128 .f32) (W1 : C S128x128 .f32) (b1 : C S128 .f32) (W2 : C S128x128 .f32) (b2 : C S128 .f32)
    (e : C S2x384000 .i32) (w : C S384000 .f32) : C S12000x128 .f32 :=
  layerRMI (xwMI (layerRMI (xwMI x W1) b1 e w) W2) b2 e w
/-- Two stacked layers on the 6000-node graph, the kernel's form. -/
def twoKDIS (x : C S6000x128 .f32) (W1 : C S128x128 .f32) (b1 : C S128 .f32) (W2 : C S128x128 .f32) (b2 : C S128 .f32)
    (e : C S2x192000 .i32) (w : C S192000 .f32) : C S6000x128 .f32 :=
  layerKDIS (xwDIS (layerKDIS (xwDIS x W1) b1 e w) W2) b2 e w
/-- Two stacked layers on the 6000-node graph, the reference's form. -/
def twoRDIS (x : C S6000x128 .f32) (W1 : C S128x128 .f32) (b1 : C S128 .f32) (W2 : C S128x128 .f32) (b2 : C S128 .f32)
    (e : C S2x192000 .i32) (w : C S192000 .f32) : C S6000x128 .f32 :=
  layerRDIS (xwDIS (layerRDIS (xwDIS x W1) b1 e w) W2) b2 e w

/-- A bias vector as a `[1, 128]` row, by reshape (the kernel's host glue). -/
def rowK (b : C S128 .f32) : C S1x128 .f32 := shapeCast S1x128 b shapeCasts_S128_S1x128
/-- A bias vector as a `[1, 128]` row, by broadcast (the reference). -/
def rowR (b : C S128 .f32) : C S1x128 .f32 :=
  broadcastInDim Cert.ReferenceIdeal.S1x128 ![1] Cert.ReferenceIdeal.Facts₀.bcast_S128_S1x128_1 b

/-- The similarity `a · bᵀ` as the reference's transpose and `dot_general`. -/
def sim (a : C S12000x128 .f32) (b : C S6000x128 .f32) : C Cert.ReferenceIdeal.S12000x6000 .f32 :=
  Host.dotGeneral (F := Ideal) (φ₁ := .f32) (φ₂ := .f32) Cert.ReferenceIdeal.dot_S12000x128_S128x6000_S12000x6000_1_0_0_1_n_n none a
    (transpose Cert.ReferenceIdeal.S128x6000 [1, 0] b Cert.ReferenceIdeal.Facts₀.transposes_S6000x128_S128x6000_1_0)

/-- The gated pair of linear heads over the two feature branches of the 12000-node set, the kernel's form. -/
def miFeaK (a0 : C S12000x128 .f32) (a2 : C S2x384000 .i32) (a3 : C S384000 .f32) (a4 : C S2x384000 .i32) (a5 : C S384000 .f32)
    (a10 : C S128x128 .f32) (a11 : C S128 .f32) (a12 : C S128x128 .f32) (a13 : C S128 .f32)
    (a14 : C S128x128 .f32) (a15 : C S128 .f32) (a16 : C S128x128 .f32) (a17 : C S128 .f32)
    (a26 : C S128x128 .f32) (a27 : C S128 .f32) (a28 : C S128x128 .f32) (a29 : C S128 .f32) : C S12000x128 .f32 :=
  gateMI (headMI (twoKMI a0 a10 a11 a12 a13 a2 a3) a26 (rowK a27)) (headMI (twoKMI a0 a14 a15 a16 a17 a4 a5) a28 (rowK a29))
/-- The same, the reference's form. -/
def miFeaR (a0 : C S12000x128 .f32) (a2 : C S2x384000 .i32) (a3 : C S384000 .f32) (a4 : C S2x384000 .i32) (a5 : C S384000 .f32)
    (a10 : C S128x128 .f32) (a11 : C S128 .f32) (a12 : C S128x128 .f32) (a13 : C S128 .f32)
    (a14 : C S128x128 .f32) (a15 : C S128 .f32) (a16 : C S128x128 .f32) (a17 : C S128 .f32)
    (a26 : C S128x128 .f32) (a27 : C S128 .f32) (a28 : C S128x128 .f32) (a29 : C S128 .f32) : C S12000x128 .f32 :=
  gateMI (headMI (twoRMI a0 a10 a11 a12 a13 a2 a3) a26 (rowR a27)) (headMI (twoRMI a0 a14 a15 a16 a17 a4 a5) a28 (rowR a29))
/-- The gated pair of linear heads over the two feature branches of the 6000-node set (with the 12000-node set's head
    weights, as both programs have it), the kernel's form. -/
def disFeaK (a1 : C S6000x128 .f32) (a6 : C S2x192000 .i32) (a7 : C S192000 .f32) (a8 : C S2x192000 .i32) (a9 : C S192000 .f32)
    (a18 : C S128x128 .f32) (a19 : C S128 .f32) (a20 : C S128x128 .f32) (a21 : C S128 .f32)
    (a22 : C S128x128 .f32) (a23 : C S128 .f32) (a24 : C S128x128 .f32) (a25 : C S128 .f32)
    (a26 : C S128x128 .f32) (a27 : C S128 .f32) (a28 : C S128x128 .f32) (a29 : C S128 .f32) : C S6000x128 .f32 :=
  gateDIS (headDIS (twoKDIS a1 a18 a19 a20 a21 a6 a7) a26 (rowK a27)) (headDIS (twoKDIS a1 a22 a23 a24 a25 a8 a9) a28 (rowK a29))
/-- The same, the reference's form. -/
def disFeaR (a1 : C S6000x128 .f32) (a6 : C S2x192000 .i32) (a7 : C S192000 .f32) (a8 : C S2x192000 .i32) (a9 : C S192000 .f32)
    (a18 : C S128x128 .f32) (a19 : C S128 .f32) (a20 : C S128x128 .f32) (a21 : C S128 .f32)
    (a22 : C S128x128 .f32) (a23 : C S128 .f32) (a24 : C S128x128 .f32) (a25 : C S128 .f32)
    (a26 : C S128x128 .f32) (a27 : C S128 .f32) (a28 : C S128x128 .f32) (a29 : C S128 .f32) : C S6000x128 .f32 :=
  gateDIS (headDIS (twoRDIS a1 a18 a19 a20 a21 a6 a7) a26 (rowR a27)) (headDIS (twoRDIS a1 a22 a23 a24 a25 a8 a9) a28 (rowR a29))

end Cert.Spec

end
-- ==== Proof.RegionXw0.lean ====
/- Region 0 (x · W, one 1200-row block of x per grid point against the whole 128 × 128 matrix W): after the region
   its output array holds the reference's `dot_general` of the two operand arrays.

   The mathematics, in four steps.
   (1) The body's payload is one matrix product into a zero accumulator, so entry (p, q) of the block it stores is
       the sum over k of x_blk(p, k) · W(k, q).
   (2) The reference's `dot_general` of the whole arrays has entry (r, q) equal to the sum over k of x(r, k) · W(k, q).
   (3) Grid point t reads rows 1200·t … 1200·t + 1199 of x and all of W, and writes the same rows of the output:
       entry (p, q) of its block is entry (1200·t + p, q) of the whole product, because a block coordinate is
       index × size + 1 × the coordinate inside the block.
   (4) Row r lies in the block of point r / 1200, so the blocks cover the array and it ends holding the whole product. -/
import proofs.«406409_j38250978738663_3_alg».proof.Proof.FrameKI
import proofs.«406409_j38250978738663_3_alg».proof.ReferenceIdeal
import proofs.«406409_j38250978738663_3_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Cert.KernelIdeal Cert.KernelIdeal.Gen Cert.KernelIdeal.GenP Idealize.ShloMosaic Idealize.ShloMosaic.TcCoe
open scoped BigOperators

namespace Xw0

/-! ## (1) The block product at an index -/

/-- The operand indices of the block product at output index `j` = (p, q) and contraction coordinate `k`:
    (p, k) in the block of x and (k, q) in W. -/
abbrev blkL (j : S1200x128.Idx) (k : Fin 128) : S1200x128.Idx := fun a => match a with
  | ⟨0, _⟩ => ⟨(j 0).val, (j 0).isLt⟩
  | ⟨1, _⟩ => ⟨k.val, k.isLt⟩
abbrev blkR (j : S1200x128.Idx) (k : Fin 128) : S128x128.Idx := fun a => match a with
  | ⟨0, _⟩ => ⟨k.val, k.isLt⟩
  | ⟨1, _⟩ => ⟨(j 1).val, (j 1).isLt⟩

/-- The product's dimension numbers contract axis 1 of the left operand with axis 0 of the right one: the left
    operand's index keeps the output's row and takes the contraction coordinate as its column, -/
theorem kdot_lhs0 (i : S1200x128.Idx) (q : dot_S1200x128_S128x128_S1200x128_1_0_0_1_n_n.contr.Idx) :
    (dot_S1200x128_S128x128_S1200x128_1_0_0_1_n_n.lhsIdx i q 0).val = (i 0).val := by
  unfold DotDims.lhsIdx
  rw [dif_neg (show ¬(0 : Fin S1200x128.rank) ∈ dot_S1200x128_S128x128_S1200x128_1_0_0_1_n_n.lhsBatch by decide), dif_pos (show (0 : Fin S1200x128.rank) ∈ dot_S1200x128_S128x128_S1200x128_1_0_0_1_n_n.lhsNonContracting by decide)]
  rfl
theorem kdot_lhs1 (i : S1200x128.Idx) (q : dot_S1200x128_S128x128_S1200x128_1_0_0_1_n_n.contr.Idx) :
    (dot_S1200x128_S128x128_S1200x128_1_0_0_1_n_n.lhsIdx i q 1).val = (q ⟨0, by decide⟩).val :=
  dot_S1200x128_S128x128_S1200x128_1_0_0_1_n_n.lhsIdx_val_of_single rfl i q
/-- and the right operand's takes the contraction coordinate as its row and keeps the output's column. -/
theorem kdot_rhs0 (i : S1200x128.Idx) (q : dot_S1200x128_S128x128_S1200x128_1_0_0_1_n_n.contr.Idx) :
    (dot_S1200x128_S128x128_S1200x128_1_0_0_1_n_n.rhsIdx i q 0).val = (q ⟨0, by decide⟩).val :=
  dot_S1200x128_S128x128_S1200x128_1_0_0_1_n_n.rhsIdx_val_of_single rfl i q
theorem kdot_rhs1 (i : S1200x128.Idx) (q : dot_S1200x128_S128x128_S1200x128_1_0_0_1_n_n.contr.Idx) :
    (dot_S1200x128_S128x128_S1200x128_1_0_0_1_n_n.rhsIdx i q 1).val = (i 1).val := by
  unfold DotDims.rhsIdx
  rw [dif_neg (show ¬(1 : Fin S128x128.rank) ∈ dot_S1200x128_S128x128_S1200x128_1_0_0_1_n_n.rhsBatch by decide), dif_pos (show (1 : Fin S128x128.rank) ∈ dot_S1200x128_S128x128_S1200x128_1_0_0_1_n_n.rhsNonContracting by decide)]
  rfl

/-- The payload at an index: a matrix product into the zero accumulator is the bare sum of products (an identity
    reshape of the left operand, where the body has one, changes nothing), re-indexed from the one-axis contraction
    index to its coordinate. -/
theorem pay_apply (x0 : Vec Ideal S1200x128 .f32) (x1 : Vec Ideal S128x128 .f32) (j : S1200x128.Idx) :
    k0_pay1 (F := Ideal) x0 x1 j = ∑ k : Fin 128, x0 (blkL j k) * x1 (blkR j k) := by
  unfold k0_pay1
  simp only [matmul, shapeCast_self]
  rw [Ideal.matmul_constant_zero_apply, ← Equiv.sum_comp (ValueIdx.contrEquiv1 dot_S1200x128_S128x128_S1200x128_1_0_0_1_n_n 128 rfl rfl).symm]
  refine Finset.sum_congr rfl fun k _ => ?_
  have hk := ValueIdx.contrEquiv1_symm_val dot_S1200x128_S128x128_S1200x128_1_0_0_1_n_n 128 rfl rfl k
  have el : dot_S1200x128_S128x128_S1200x128_1_0_0_1_n_n.lhsIdx j ((ValueIdx.contrEquiv1 dot_S1200x128_S128x128_S1200x128_1_0_0_1_n_n 128 rfl rfl).symm k) = blkL j k := funext fun a => Fin.ext (by
    match a with
    | ⟨0, _⟩ => exact kdot_lhs0 _ _
    | ⟨1, _⟩ => exact (kdot_lhs1 _ _).trans hk)
  have er : dot_S1200x128_S128x128_S1200x128_1_0_0_1_n_n.rhsIdx j ((ValueIdx.contrEquiv1 dot_S1200x128_S128x128_S1200x128_1_0_0_1_n_n 128 rfl rfl).symm k) = blkR j k := funext fun a => Fin.ext (by
    match a with
    | ⟨0, _⟩ => exact (kdot_rhs0 _ _).trans hk
    | ⟨1, _⟩ => exact kdot_rhs1 _ _)
  rw [el, er]

/-! ## (2) The whole-array product, and the reference's `dot_general` as that product -/

/-- The operand indices of the whole-array product at output index `i` = (r, q) and contraction coordinate `k`:
    (r, k) in x and (k, q) in W. -/
abbrev arrL (i : S12000x128.Idx) (k : Fin 128) : S12000x128.Idx := fun a => match a with
  | ⟨0, _⟩ => ⟨(i 0).val, (i 0).isLt⟩
  | ⟨1, _⟩ => ⟨k.val, k.isLt⟩
abbrev arrR (i : S12000x128.Idx) (k : Fin 128) : S128x128.Idx := fun a => match a with
  | ⟨0, _⟩ => ⟨k.val, k.isLt⟩
  | ⟨1, _⟩ => ⟨(i 1).val, (i 1).isLt⟩

/-- The whole-array product x · W: entry (r, q) is the sum over k of x(r, k) · W(k, q). -/
def xwG (X : Vec Ideal S12000x128 .f32) (W : Vec Ideal S128x128 .f32) : Vec Ideal S12000x128 .f32 :=
  fun i => ∑ k : Fin 128, X (arrL i k) * W (arrR i k)

/-- The reference's dimension numbers are the same contraction, on the whole arrays. -/
theorem rdot_lhs0 (i : S12000x128.Idx) (q : Cert.ReferenceIdeal.dot_S12000x128_S128x128_S12000x128_1_0_0_1_n_n.contr.Idx) :
    (Cert.ReferenceIdeal.dot_S12000x128_S128x128_S12000x128_1_0_0_1_n_n.lhsIdx i q 0).val = (i 0).val := by
  unfold DotDims.lhsIdx
  rw [dif_neg (show ¬(0 : Fin S12000x128.rank) ∈ Cert.ReferenceIdeal.dot_S12000x128_S128x128_S12000x128_1_0_0_1_n_n.lhsBatch by decide), dif_pos (show (0 : Fin S12000x128.rank) ∈ Cert.ReferenceIdeal.dot_S12000x128_S128x128_S12000x128_1_0_0_1_n_n.lhsNonContracting by decide)]
  rfl
theorem rdot_lhs1 (i : S12000x128.Idx) (q : Cert.ReferenceIdeal.dot_S12000x128_S128x128_S12000x128_1_0_0_1_n_n.contr.Idx) :
    (Cert.ReferenceIdeal.dot_S12000x128_S128x128_S12000x128_1_0_0_1_n_n.lhsIdx i q 1).val = (q ⟨0, by decide⟩).val :=
  Cert.ReferenceIdeal.dot_S12000x128_S128x128_S12000x128_1_0_0_1_n_n.lhsIdx_val_of_single rfl i q
theorem rdot_rhs0 (i : S12000x128.Idx) (q : Cert.ReferenceIdeal.dot_S12000x128_S128x128_S12000x128_1_0_0_1_n_n.contr.Idx) :
    (Cert.ReferenceIdeal.dot_S12000x128_S128x128_S12000x128_1_0_0_1_n_n.rhsIdx i q 0).val = (q ⟨0, by decide⟩).val :=
  Cert.ReferenceIdeal.dot_S12000x128_S128x128_S12000x128_1_0_0_1_n_n.rhsIdx_val_of_single rfl i q
theorem rdot_rhs1 (i : S12000x128.Idx) (q : Cert.ReferenceIdeal.dot_S12000x128_S128x128_S12000x128_1_0_0_1_n_n.contr.Idx) :
    (Cert.ReferenceIdeal.dot_S12000x128_S128x128_S12000x128_1_0_0_1_n_n.rhsIdx i q 1).val = (i 1).val := by
  unfold DotDims.rhsIdx
  rw [dif_neg (show ¬(1 : Fin S128x128.rank) ∈ Cert.ReferenceIdeal.dot_S12000x128_S128x128_S12000x128_1_0_0_1_n_n.rhsBatch by decide), dif_pos (show (1 : Fin S128x128.rank) ∈ Cert.ReferenceIdeal.dot_S12000x128_S128x128_S12000x128_1_0_0_1_n_n.rhsNonContracting by decide)]
  rfl

/-- The reference's `dot_general` of the two arrays is that product, index by index: at the ideal values it is the
    bare sum over the contraction index, re-indexed to the contraction coordinate. -/
theorem ref_eq (X : Vec Ideal S12000x128 .f32) (W : Vec Ideal S128x128 .f32) :
    Host.dotGeneral (F := Ideal) (φ₁ := .f32) (φ₂ := .f32) Cert.ReferenceIdeal.dot_S12000x128_S128x128_S12000x128_1_0_0_1_n_n none X W = xwG X W := by
  funext i
  simp only [Host.dotGeneral]
  rw [Ideal.dotGeneral_apply, ← Equiv.sum_comp (ValueIdx.contrEquiv1 Cert.ReferenceIdeal.dot_S12000x128_S128x128_S12000x128_1_0_0_1_n_n 128 rfl rfl).symm]
  unfold xwG
  refine Finset.sum_congr rfl fun k _ => ?_
  have hk := ValueIdx.contrEquiv1_symm_val Cert.ReferenceIdeal.dot_S12000x128_S128x128_S12000x128_1_0_0_1_n_n 128 rfl rfl k
  have el : Cert.ReferenceIdeal.dot_S12000x128_S128x128_S12000x128_1_0_0_1_n_n.lhsIdx i ((ValueIdx.contrEquiv1 Cert.ReferenceIdeal.dot_S12000x128_S128x128_S12000x128_1_0_0_1_n_n 128 rfl rfl).symm k) = arrL i k := funext fun a => Fin.ext (by
    match a with
    | ⟨0, _⟩ => exact rdot_lhs0 _ _
    | ⟨1, _⟩ => exact (rdot_lhs1 _ _).trans hk)
  have er : Cert.ReferenceIdeal.dot_S12000x128_S128x128_S12000x128_1_0_0_1_n_n.rhsIdx i ((ValueIdx.contrEquiv1 Cert.ReferenceIdeal.dot_S12000x128_S128x128_S12000x128_1_0_0_1_n_n 128 rfl rfl).symm k) = arrR i k := funext fun a => Fin.ext (by
    match a with
    | ⟨0, _⟩ => exact (rdot_rhs0 _ _).trans hk
    | ⟨1, _⟩ => exact rdot_rhs1 _ _)
  rw [el, er]

/-! ## (3) What a grid point writes back is its block of the whole product -/

/-- The two operand arrays as the region finds them, named at their literal vector types (so that products of their
    entries are products of extended reals). -/
abbrev xarr (V : (c : Dev nD) → (b : Ref sig .tc) → Buf (Elt Ideal) ((c : Thread nD τ).loc b)) (c : Dev nD) : Vec Ideal S12000x128 .f32 := V c main_arg0
abbrev warr (V : (c : Dev nD) → (b : Ref sig .tc) → Buf (Elt Ideal) ((c : Thread nD τ).loc b)) (c : Dev nD) : Vec Ideal S128x128 .f32 := V c main_arg10

theorem hz : (![0, 0] : Fin 2 → Nat) = fun _ => 0 := funext fun a => by fin_cases a <;> rfl

/-- The index maps, decided over the grid: the block of x moves with the output's block along the rows and sits at
    column block 0; W's one block never moves; the output's block at point `t` is row block `t`, column block 0. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point `t` writes back is block `t` of the whole product of the operand arrays as the region finds them. -/
theorem flushed_eq (V : (c : Dev nD) → (b : Ref sig .tc) → Buf (Elt Ideal) ((c : Thread nD τ).loc b)) (c : Dev nD) (t : Fin cfg0.N) :
    (dat0 (F := Ideal) V c).flushed 2 t = ((cfg0.win 2).blk t).view.read (Elt Ideal) (xwG (V c main_arg0) (V c main_arg10)) := by
  show (cfg0.win 2).cut (grid0.coords t) ((dat0 (F := Ideal) V c).after 2 t) = _
  rw [after0_2]
  unfold out0_2
  rw [View.canon_unit_zero hz]
  simp only [View.ld_unit_zero (S := S1200x128) hz, View.ld_unit_zero (S := S128x128) hz]
  obtain ⟨e0, e1, e2, e3, e4, e5⟩ := idx_facts t
  funext j
  show k0_pay1 (F := Ideal) (iblk0 V c 0 t) (iblk0 V c 1 t) j = xwG (V c main_arg0) (V c main_arg10) (((cfg0.win 2).blk t).view.emb j)
  refine (pay_apply (iblk0 V c 0 t) (iblk0 V c 1 t) j).trans ?_
  unfold xwG
  refine Finset.sum_congr rfl fun k _ => ?_
  show xarr V c (((cfg0.win 0).blk t).view.emb (blkL j k)) * warr V c (((cfg0.win 1).blk t).view.emb (blkR j k))
    = xarr V c (arrL (((cfg0.win 2).blk t).view.emb j) k) * warr V c (arrR (((cfg0.win 2).blk t).view.emb j) k)
  -- the block of x, read at (p, k), is x at (1200·t + p, k)
  have h0 : ((cfg0.win 0).blk t).view.emb (blkL j k) = arrL (((cfg0.win 2).blk t).view.emb j) k := by
    funext a; apply Fin.ext
    match a with
    | ⟨0, _⟩ => show win0_0.index t (0 : Fin 2) * 1200 + 1 * (j 0).val = win0_2.index t (0 : Fin 2) * 1200 + 1 * (j 0).val; omega
    | ⟨1, _⟩ => show win0_0.index t (1 : Fin 2) * 128 + 1 * k.val = k.val; omega
  -- W's block, read at (k, q), is W at (k, q)
  have h1 : ((cfg0.win 1).blk t).view.emb (blkR j k) = arrR (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  rw [h0, h1]

/-! ## (4) The blocks cover the array -/

/-- An index of the array is in point `t`'s block iff each coordinate is in the block's range on its axis. -/
theorem mem_blk (t : Fin cfg0.N) (i : S12000x128.Idx) :
    i ∈ ((cfg0.win 2).blk t).view.set ↔ ∀ a : Fin 2, win0_2.index t a * S1200x128.size a ≤ (i a).val ∧ (i a).val < win0_2.index t a * S1200x128.size a + S1200x128.size a := by
  show i ∈ ((View.whole main_v4).slice (win0_2.rect t)).set ↔ _
  rw [View.set_slice_whole, Rect.mem_set_unit]
  exact Iff.rfl

/-- Row `r` lies in the block of point `r / 1200`, which writes back. -/
theorem cover (i : S12000x128.Idx) : ∃ t : Fin cfg0.N, (cfg0.win 2).flush t = true ∧ i ∈ ((cfg0.win 2).blk t).view.set := by
  have hi0 : (i 0).val < 12000 := (i 0).isLt
  have hi1 : (i 1).val < 128 := (i 1).isLt
  have ht : (i 0).val / 1200 < cfg0.N := by show (i 0).val / 1200 < 10; omega
  obtain ⟨e0, e1, e2, e3, e4, e5⟩ := idx_facts ⟨(i 0).val / 1200, ht⟩
  have e4' : win0_2.index ⟨(i 0).val / 1200, ht⟩ (0 : Fin 2) = (i 0).val / 1200 := e4
  refine ⟨⟨(i 0).val / 1200, ht⟩, flush0_2 _, ?_⟩
  rw [mem_blk]
  intro a
  match a with
  | ⟨0, _⟩ => show win0_2.index ⟨(i 0).val / 1200, ht⟩ (0 : Fin 2) * 1200 ≤ (i 0).val ∧ (i 0).val < win0_2.index ⟨(i 0).val / 1200, ht⟩ (0 : Fin 2) * 1200 + 1200; omega
  | ⟨1, _⟩ => show win0_2.index ⟨(i 0).val / 1200, ht⟩ (1 : Fin 2) * 128 ≤ (i 1).val ∧ (i 1).val < win0_2.index ⟨(i 0).val / 1200, ht⟩ (1 : Fin 2) * 128 + 128; omega

end Xw0

/-! ## The array after the region -/

/-- After region 0 its output array holds the reference's `dot_general` of the two operand arrays as the region
    finds them: every point writes its block of the whole product (3), the blocks cover the array (4), and the whole
    product is the reference's (2). -/
theorem xw0 (V : (c : Dev nD) → (b : Ref sig .tc) → Buf (Elt Ideal) ((c : Thread nD τ).loc b)) (c : Dev nD) :
    (dat0 (F := Ideal) V c).arrAt 2 cfg0.N
      = Host.dotGeneral (F := Ideal) (φ₁ := .f32) (φ₂ := .f32) Cert.ReferenceIdeal.dot_S12000x128_S128x128_S12000x128_1_0_0_1_n_n none (V c main_arg0) (V c main_arg10) :=
  ((dat0 (F := Ideal) V c).arrAt_eq_of_cover 2 (Xw0.xwG (V c main_arg0) (V c main_arg10)) (fun t _ => Xw0.flushed_eq V c t) Xw0.cover).trans
    (Xw0.ref_eq (V c main_arg0) (V c main_arg10)).symm

end Cert.KernelIdeal.RegionValue

end
-- ==== Proof.RegionFin1.lean ====
import proofs.«406409_j38250978738663_3_alg».proof.Proof.FrameKI
import proofs.«406409_j38250978738663_3_alg».proof.Proof.Gen.ReferenceIdeal
import proofs.«406409_j38250978738663_3_alg».proof.ReferenceIdeal
import Idealize.ShloMosaic.Lib.Pipeline.Value
import Idealize.ShloMosaic.Lib.ValueIdx
import Idealize.ShloMosaic.Lib.ValueLayout

/-!
# A finalize region as a whole-array operation

The region walks its `[12000, 128]` arrays in blocks of 1200 rows, one block per grid point. At every point the
body adds the aggregate block, the self block and the one bias row (the same `[1, 128]` block at every point,
broadcast down the rows), and takes the maximum with zero. Every operation is pointwise, and the output block at
point `t` is rows `1200 t … 1200 t + 1199`, so the blocks tile the array and the array ends holding
`max (agg + self + bias, 0)` index by index: the function the whole-array operations
`maximumf (addf (addf agg self) (broadcast bias)) (broadcast 0)` compute.
-/

noncomputable section

namespace Cert.KernelIdeal.RegionValue

open Cert.KernelIdeal Cert.KernelIdeal.Gen Cert.KernelIdeal.GenP Idealize.ShloMosaic Idealize.ShloMosaic.TcCoe
open Idealize.ShloMosaic.ValueIdx

namespace Fin1

/-! ## The function the array ends holding -/

/-- The bias row's one index under column `q`. -/
abbrev rowAt (q : Fin 128) : S1x128.Idx := ix2 (0 : Fin 1) q

/-- `max (agg + self + bias row, 0)` over the whole `[12000, 128]` array, as whole-array operations: two sums, the
    bias row broadcast along axis 0, and a maximum against the splat zero. -/
def finG (agg self : Vec Ideal S12000x128 .f32) (bias : Vec Ideal S1x128 .f32) : Vec Ideal S12000x128 .f32 :=
  maximumf
    (addf (addf agg self)
      (broadcastInDim Cert.ReferenceIdeal.S12000x128 ![0, 1] Cert.ReferenceIdeal.Facts₀.bcast_S1x128_S12000x128_0_1 bias))
    (broadcastInDim Cert.ReferenceIdeal.S12000x128 ![] Cert.ReferenceIdeal.Facts₀.bcast_S_S12000x128
      (constant (F := Ideal) Cert.ReferenceIdeal.S_ .f32 0x00000000#32))

/-- At row `r`, column `q` it is the maximum of `agg + self + bias` there (the bias read at column `q` of its one
    row) and the zero word's value: the two sums and the maximum are pointwise, a broadcast along axis 0 forgets
    the row, and a broadcast scalar is the same everywhere. -/
theorem finG_apply (agg self : Vec Ideal S12000x128 .f32) (bias : Vec Ideal S1x128 .f32) (r : Fin 12000) (q : Fin 128) :
    finG agg self bias (ix2 r q)
      = max (agg (ix2 r q) + self (ix2 r q) + bias (rowAt q)) (Ideal.ofBits .f32 0x00000000#32) := by
  unfold finG
  rw [maximumf_apply, addf_apply, addf_apply]
  rw [broadcastInDim_apply ![0, 1] _ bias (ix2 r q) (rowAt q) (fun a => by
        match a with
        | ⟨0, _⟩ => rfl
        | ⟨1, _⟩ => rfl),
      broadcastInDim_apply ![] _ (constant (F := Ideal) Cert.ReferenceIdeal.S_ .f32 0x00000000#32) (ix2 r q) ix0
        (fun a => a.elim0),
      constant_apply]

/-! ## The body's payload at an index -/

/-- The body's stored value at row `p`, column `q` of a block: the three shape casts are to the same shape, so they
    are the identity; the sums and the maximum are pointwise; the `[1, 128]` row broadcast to `[1200, 128]` reads
    column `q` of its one row; the splat scalar is the zero word's value. -/
theorem pay_apply (x0 x1 : Vec Ideal S1200x128 .f32) (x2 : Vec Ideal S1x128 .f32) (p : Fin 1200) (q : Fin 128) :
    k1_pay1 (F := Ideal) x0 x1 x2 (ix2 p q)
      = max (x0 (ix2 p q) + x1 (ix2 p q) + x2 (rowAt q)) (Ideal.ofBits .f32 0x00000000#32) := by
  unfold k1_pay1
  rw [shapeCast_self, shapeCast_self, shapeCast_self, maximumf_apply, addf_apply, addf_apply, broadcast_apply,
    broadcastTo_1b_ab_apply]
  rfl

/-! ## From blocks to the array -/

/-- The zero offsets of a whole-buffer load or store, as a constant function. -/
theorem zero_offsets : (![0, 0] : Fin 2 → Nat) = fun _ => 0 :=
  funext fun a => by
    match a with
    | ⟨0, _⟩ => rfl
    | ⟨1, _⟩ => rfl

/-- The index maps, decided over the grid: the aggregate, self and output windows are at block row `t`, block
    column 0; the bias window is at block (0, 0) at every point. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- What point `t` writes back is block `t` of `finG` of the three arrays as the region finds them: the block's
    element (p, q) sits in the array at row `1200 t + p`, column `q` (a block coordinate is index × size + 1 × the
    coordinate inside the block); the aggregate and self blocks are read at that same place, and the bias block is
    the whole bias row. -/
theorem flushed_eq (c : Dev nD) (t : Fin cfg1.N) :
    (dat1 (F := Ideal) V c).flushed 3 t
      = ((cfg1.win 3).blk t).view.read (Elt Ideal) (finG (V c main_v33) (V c main_v37) (V c main_v38)) := by
  show (cfg1.win 3).cut (grid1.coords t) ((dat1 V c).after 3 t) = _
  rw [after1_3]
  unfold out1_3
  rw [View.canon_unit_zero zero_offsets]
  simp only [View.ld_unit_zero (S := S1200x128) zero_offsets, View.ld_unit_zero (S := S1x128) zero_offsets]
  obtain ⟨e00, e01, e10, e11, e20, e21, e30, e31⟩ := index_facts t
  have hN : t.val < 10 := Nat.lt_of_lt_of_eq t.isLt N_1
  funext j
  obtain ⟨p, q, rfl⟩ : ∃ (p : Fin 1200) (q : Fin 128), j = ix2 p q := ⟨j 0, j 1, eq_ix2 j⟩
  have hp : p.val < 1200 := p.isLt
  show k1_pay1 (F := Ideal) (iblk1 V c 0 t) (iblk1 V c 1 t) (iblk1 V c 2 t) (ix2 p q)
      = finG (V c main_v33) (V c main_v37) (V c main_v38) (((cfg1.win 3).blk t).view.emb (ix2 p q))
  have hemb : ((cfg1.win 3).blk t).view.emb (ix2 p q) = ix2 (⟨t.val * 1200 + p.val, by omega⟩ : Fin 12000) q := by
    funext a; apply Fin.ext
    match a with
    | ⟨0, _⟩ => show win1_3.index t (0 : Fin 2) * 1200 + 1 * p.val = t.val * 1200 + p.val; omega
    | ⟨1, _⟩ => show win1_3.index t (1 : Fin 2) * 128 + 1 * q.val = q.val; omega
  rw [hemb, finG_apply]
  refine (pay_apply _ _ _ p q).trans ?_
  have h0 : iblk1 V c 0 t (ix2 p q) = V c main_v33 (ix2 (⟨t.val * 1200 + p.val, by omega⟩ : Fin 12000) q) := by
    show V c main_v33 (((cfg1.win 0).blk t).view.emb (ix2 p q)) = _
    refine congrArg _ (funext fun a => Fin.ext ?_)
    match a with
    | ⟨0, _⟩ => show win1_0.index t (0 : Fin 2) * 1200 + 1 * p.val = t.val * 1200 + p.val; omega
    | ⟨1, _⟩ => show win1_0.index t (1 : Fin 2) * 128 + 1 * q.val = q.val; omega
  have h1 : iblk1 V c 1 t (ix2 p q) = V c main_v37 (ix2 (⟨t.val * 1200 + p.val, by omega⟩ : Fin 12000) q) := by
    show V c main_v37 (((cfg1.win 1).blk t).view.emb (ix2 p q)) = _
    refine congrArg _ (funext fun a => Fin.ext ?_)
    match a with
    | ⟨0, _⟩ => show win1_1.index t (0 : Fin 2) * 1200 + 1 * p.val = t.val * 1200 + p.val; omega
    | ⟨1, _⟩ => show win1_1.index t (1 : Fin 2) * 128 + 1 * q.val = q.val; omega
  have h2 : iblk1 V c 2 t (rowAt q) = V c main_v38 (rowAt q) := by
    show V c main_v38 (((cfg1.win 2).blk t).view.emb (rowAt q)) = _
    refine congrArg _ (funext fun a => Fin.ext ?_)
    match a with
    | ⟨0, _⟩ => show win1_2.index t (0 : Fin 2) * 1 + 1 * 0 = 0; omega
    | ⟨1, _⟩ => show win1_2.index t (1 : Fin 2) * 128 + 1 * q.val = q.val; omega
  rw [h0, h1, h2]

/-- Row `r` of the array lies in the block of point `r / 1200`, and every point writes its block back: the blocks
    cover the array. -/
theorem cover (i : S12000x128.Idx) :
    ∃ t : Fin cfg1.N, (cfg1.win 3).flush t = true ∧ i ∈ ((cfg1.win 3).blk t).view.set := by
  have hi0 : (i 0).val < 12000 := (i 0).isLt
  have hi1 : (i 1).val < 128 := (i 1).isLt
  have ht : (i 0).val / 1200 < cfg1.N := by rw [show cfg1.N = 10 from N_1]; omega
  obtain ⟨-, -, -, -, -, -, e30, e31⟩ := index_facts ⟨(i 0).val / 1200, ht⟩
  refine ⟨⟨(i 0).val / 1200, ht⟩, flush1_3 _, ?_⟩
  show i ∈ ((View.whole main_v39).slice (win1_3.rect ⟨(i 0).val / 1200, ht⟩)).set
  rw [View.set_slice_whole, Rect.mem_set_unit]
  intro a
  match a with
  | ⟨0, _⟩ =>
    show win1_3.index ⟨(i 0).val / 1200, ht⟩ (0 : Fin 2) * 1200 ≤ (i 0).val
      ∧ (i 0).val < win1_3.index ⟨(i 0).val / 1200, ht⟩ (0 : Fin 2) * 1200 + 1200
    rw [e30]
    show (i 0).val / 1200 * 1200 ≤ (i 0).val ∧ (i 0).val < (i 0).val / 1200 * 1200 + 1200
    omega
  | ⟨1, _⟩ =>
    show win1_3.index ⟨(i 0).val / 1200, ht⟩ (1 : Fin 2) * 128 ≤ (i 1).val
      ∧ (i 1).val < win1_3.index ⟨(i 0).val / 1200, ht⟩ (1 : Fin 2) * 128 + 128
    rw [e31]
    omega

/-- The array after the region is `finG` of the three arrays as the region finds them: every block written back is
    a block of `finG`, and the blocks cover the array. -/
theorem array_eq (c : Dev nD) :
    (dat1 (F := Ideal) V c).arrAt 3 cfg1.N = finG (V c main_v33) (V c main_v37) (V c main_v38) :=
  (dat1 (F := Ideal) V c).arrAt_eq_of_cover 3 (finG (V c main_v33) (V c main_v37) (V c main_v38))
    (fun t _ => flushed_eq V c t) cover

end Fin1

/-- The finalize region computes `max (agg + self + bias, 0)` as whole-array operations on the arrays it finds. -/
theorem fin1 (V : (c : Dev nD) → (b : Ref sig .tc) → Buf (Elt Ideal) ((c : Thread nD τ).loc b)) (c : Dev nD) :
    (dat1 (F := Ideal) V c).arrAt 3 cfg1.N
      = maximumf
          (addf (addf (V c main_v33) (V c main_v37))
            (broadcastInDim Cert.ReferenceIdeal.S12000x128 ![0, 1] Cert.ReferenceIdeal.Facts₀.bcast_S1x128_S12000x128_0_1
              (V c main_v38)))
          (broadcastInDim Cert.ReferenceIdeal.S12000x128 ![] Cert.ReferenceIdeal.Facts₀.bcast_S_S12000x128
            (constant (F := Ideal) Cert.ReferenceIdeal.S_ .f32 0x00000000#32)) :=
  Fin1.array_eq V c

end Cert.KernelIdeal.RegionValue
-- ==== Proof.LayerK0.lean ====
/-
  Layer 0 of the kernel's program, read off the boundary contents: what the finalize region leaves in its output
  array is the layer function (kernel's form) of the arrays the layer's first boundary holds. The product `x · W` is
  the xw region's array; the edge rows are slices of the edge list taken by the host stretch before that region; the
  normalisation, the fill-gather, the scatter-add and the self term are the three host stretches between the two
  regions; the last line is the finalize region.
-/
import proofs.«406409_j38250978738663_3_alg».proof.Proof.FrameKI
import proofs.«406409_j38250978738663_3_alg».proof.Proof.Spec
import proofs.«406409_j38250978738663_3_alg».proof.Proof.RegionXw0
import proofs.«406409_j38250978738663_3_alg».proof.Proof.RegionFin1
import Idealize.ShloMosaic.Lib.StableHlo.Run

set_option maxRecDepth 16384

noncomputable section

namespace Cert.KernelIdeal.LayerValue

open Cert.KernelIdeal Cert.KernelIdeal.Gen Cert.KernelIdeal.GenP Idealize.ShloMosaic Idealize.ShloMosaic.TcCoe Idealize.ShloMosaic.StableHlo Cert.Spec

variable (m : (ℓ : Loc nD τ sig) → Buf (Elt Ideal) ℓ) (ρ : Dev nD → PrngReg) (c : Dev nD)

/-- The host stretch before the xw region only slices the edge list: every buffer it does not write is as entered. -/
theorem pre0_x : V1 (F := Ideal) m ρ c main_arg0 = W0 m ρ c (Proc.devRef .tc main_arg0) := by
  show StableHlo.after hostOps0 (W0 m ρ c) (Proc.devRef .tc main_arg0) = _
  after_results_simp
theorem pre0_W : V1 (F := Ideal) m ρ c main_arg10 = W0 m ρ c (Proc.devRef .tc main_arg10) := by
  show StableHlo.after hostOps0 (W0 m ρ c) (Proc.devRef .tc main_arg10) = _
  after_results_simp
theorem pre0_w : W1 (F := Ideal) m ρ c (Proc.devRef .tc main_arg3) = W0 m ρ c (Proc.devRef .tc main_arg3) := by
  show StableHlo.after hostOps0 (W0 m ρ c) (Proc.devRef .tc main_arg3) = _
  after_results_simp
theorem pre0_b : W1 (F := Ideal) m ρ c (Proc.devRef .tc main_arg11) = W0 m ρ c (Proc.devRef .tc main_arg11) := by
  show StableHlo.after hostOps0 (W0 m ρ c) (Proc.devRef .tc main_arg11) = _
  after_results_simp
/-- and what it writes are the two rows of the edge list. -/
theorem pre0_row : W1 (F := Ideal) m ρ c (Proc.devRef .tc main_v1) = rowMI (W0 m ρ c (Proc.devRef .tc main_arg2)) := by
  show StableHlo.after hostOps0 (W0 m ρ c) (Proc.devRef .tc main_v1) = _
  after_results_simp
  rfl
theorem pre0_col : W1 (F := Ideal) m ρ c (Proc.devRef .tc main_v3) = colMI (W0 m ρ c (Proc.devRef .tc main_arg2)) := by
  show StableHlo.after hostOps0 (W0 m ρ c) (Proc.devRef .tc main_v3) = _
  after_results_simp
  rfl

set_option maxHeartbeats 4000000 in
/-- The xw region's array is `x · W` of the entry arrays. -/
theorem xw0_val : W2 (F := Ideal) m ρ c (Proc.devRef .tc main_v4)
    = xwMI (W0 m ρ c (Proc.devRef .tc main_arg0)) (W0 m ρ c (Proc.devRef .tc main_arg10)) := by
  refine (W2_arr m ρ c 2).trans ?_
  rw [RegionValue.xw0 (V1 m ρ) c, pre0_x, pre0_W]
  rfl

/-- Past the xw region the other buffers are as the first stretch left them. -/
theorem mid0_row : W2 (F := Ideal) m ρ c (Proc.devRef .tc main_v1) = rowMI (W0 m ρ c (Proc.devRef .tc main_arg2)) :=
  (W2_of_ne m ρ c main_v1 (by decide)).trans (pre0_row m ρ c)
theorem mid0_col : W2 (F := Ideal) m ρ c (Proc.devRef .tc main_v3) = colMI (W0 m ρ c (Proc.devRef .tc main_arg2)) :=
  (W2_of_ne m ρ c main_v3 (by decide)).trans (pre0_col m ρ c)
theorem mid0_w : W2 (F := Ideal) m ρ c (Proc.devRef .tc main_arg3) = W0 m ρ c (Proc.devRef .tc main_arg3) :=
  (W2_of_ne m ρ c main_arg3 (by decide)).trans (pre0_w m ρ c)
theorem mid0_b : W2 (F := Ideal) m ρ c (Proc.devRef .tc main_arg11) = W0 m ρ c (Proc.devRef .tc main_arg11) :=
  (W2_of_ne m ρ c main_arg11 (by decide)).trans (pre0_b m ρ c)

set_option maxHeartbeats 4000000 in
/-- The three stretches between the regions: the aggregation over the fill-gathered rows, -/
theorem agg0_val : V5 (F := Ideal) m ρ c main_v33
    = aggMI (W0 m ρ c (Proc.devRef .tc main_arg2)) (W0 m ρ c (Proc.devRef .tc main_arg3))
        (takeMI (xwMI (W0 m ρ c (Proc.devRef .tc main_arg0)) (W0 m ρ c (Proc.devRef .tc main_arg10))) (rowMI (W0 m ρ c (Proc.devRef .tc main_arg2)))) := by
  show StableHlo.after hostOps1_2 (StableHlo.after hostOps1_1 (StableHlo.after hostOps1 (W2 m ρ c))) (Proc.devRef .tc main_v33) = _
  after_results_simp
  simp only [TRef.ofBuf, TRef.toBuf, cast_eq]
  rw [xw0_val, mid0_row, mid0_col, mid0_w]
  rfl
set_option maxHeartbeats 4000000 in
/-- the self term, -/
theorem self0_val : V5 (F := Ideal) m ρ c main_v37
    = selfMI (W0 m ρ c (Proc.devRef .tc main_arg2)) (W0 m ρ c (Proc.devRef .tc main_arg3))
        (xwMI (W0 m ρ c (Proc.devRef .tc main_arg0)) (W0 m ρ c (Proc.devRef .tc main_arg10))) := by
  show StableHlo.after hostOps1_2 (StableHlo.after hostOps1_1 (StableHlo.after hostOps1 (W2 m ρ c))) (Proc.devRef .tc main_v37) = _
  after_results_simp
  rw [xw0_val, mid0_col, mid0_w]
  rfl
set_option maxHeartbeats 4000000 in
/-- and the bias as a row. -/
theorem bias0_val : V5 (F := Ideal) m ρ c main_v38 = rowK (W0 m ρ c (Proc.devRef .tc main_arg11)) := by
  show StableHlo.after hostOps1_2 (StableHlo.after hostOps1_1 (StableHlo.after hostOps1 (W2 m ρ c))) (Proc.devRef .tc main_v38) = _
  after_results_simp
  rw [mid0_b]
  rfl

set_option maxHeartbeats 4000000 in
/-- THE LAYER: the finalize region's output array is the layer function of the entry arrays. -/
theorem layer0 : W6 (F := Ideal) m ρ c (Proc.devRef .tc main_v39)
    = layerKMI (xwMI (W0 m ρ c (Proc.devRef .tc main_arg0)) (W0 m ρ c (Proc.devRef .tc main_arg10)))
        (W0 m ρ c (Proc.devRef .tc main_arg11)) (W0 m ρ c (Proc.devRef .tc main_arg2)) (W0 m ρ c (Proc.devRef .tc main_arg3)) := by
  refine (W6_arr m ρ c 3).trans ?_
  rw [RegionValue.fin1 (V5 m ρ) c, agg0_val, self0_val, bias0_val]
  rfl

end Cert.KernelIdeal.LayerValue

end
-- ==== Proof.RegionXw2.lean ====
/- Region 2 (x · W, one 1200-row block of x per grid point against the whole 128 × 128 matrix W): after the region
   its output array holds the reference's `dot_general` of the two operand arrays.

   The mathematics, in four steps.
   (1) The body's payload is one matrix product into a zero accumulator, so entry (p, q) of the block it stores is
       the sum over k of x_blk(p, k) · W(k, q).
   (2) The reference's `dot_general` of the whole arrays has entry (r, q) equal to the sum over k of x(r, k) · W(k, q).
   (3) Grid point t reads rows 1200·t … 1200·t + 1199 of x and all of W, and writes the same rows of the output:
       entry (p, q) of its block is entry (1200·t + p, q) of the whole product, because a block coordinate is
       index × size + 1 × the coordinate inside the block.
   (4) Row r lies in the block of point r / 1200, so the blocks cover the array and it ends holding the whole product. -/
import proofs.«406409_j38250978738663_3_alg».proof.Proof.FrameKI
import proofs.«406409_j38250978738663_3_alg».proof.ReferenceIdeal
import proofs.«406409_j38250978738663_3_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Cert.KernelIdeal Cert.KernelIdeal.Gen Cert.KernelIdeal.GenP Idealize.ShloMosaic Idealize.ShloMosaic.TcCoe
open scoped BigOperators

namespace Xw2

/-! ## (1) The block product at an index -/

/-- The operand indices of the block product at output index `j` = (p, q) and contraction coordinate `k`:
    (p, k) in the block of x and (k, q) in W. -/
abbrev blkL (j : S1200x128.Idx) (k : Fin 128) : S1200x128.Idx := fun a => match a with
  | ⟨0, _⟩ => ⟨(j 0).val, (j 0).isLt⟩
  | ⟨1, _⟩ => ⟨k.val, k.isLt⟩
abbrev blkR (j : S1200x128.Idx) (k : Fin 128) : S128x128.Idx := fun a => match a with
  | ⟨0, _⟩ => ⟨k.val, k.isLt⟩
  | ⟨1, _⟩ => ⟨(j 1).val, (j 1).isLt⟩

/-- The product's dimension numbers contract axis 1 of the left operand with axis 0 of the right one: the left
    operand's index keeps the output's row and takes the contraction coordinate as its column, -/
theorem kdot_lhs0 (i : S1200x128.Idx) (q : dot_S1200x128_S128x128_S1200x128_1_0_0_1_n_n.contr.Idx) :
    (dot_S1200x128_S128x128_S1200x128_1_0_0_1_n_n.lhsIdx i q 0).val = (i 0).val := by
  unfold DotDims.lhsIdx
  rw [dif_neg (show ¬(0 : Fin S1200x128.rank) ∈ dot_S1200x128_S128x128_S1200x128_1_0_0_1_n_n.lhsBatch by decide), dif_pos (show (0 : Fin S1200x128.rank) ∈ dot_S1200x128_S128x128_S1200x128_1_0_0_1_n_n.lhsNonContracting by decide)]
  rfl
theorem kdot_lhs1 (i : S1200x128.Idx) (q : dot_S1200x128_S128x128_S1200x128_1_0_0_1_n_n.contr.Idx) :
    (dot_S1200x128_S128x128_S1200x128_1_0_0_1_n_n.lhsIdx i q 1).val = (q ⟨0, by decide⟩).val :=
  dot_S1200x128_S128x128_S1200x128_1_0_0_1_n_n.lhsIdx_val_of_single rfl i q
/-- and the right operand's takes the contraction coordinate as its row and keeps the output's column. -/
theorem kdot_rhs0 (i : S1200x128.Idx) (q : dot_S1200x128_S128x128_S1200x128_1_0_0_1_n_n.contr.Idx) :
    (dot_S1200x128_S128x128_S1200x128_1_0_0_1_n_n.rhsIdx i q 0).val = (q ⟨0, by decide⟩).val :=
  dot_S1200x128_S128x128_S1200x128_1_0_0_1_n_n.rhsIdx_val_of_single rfl i q
theorem kdot_rhs1 (i : S1200x128.Idx) (q : dot_S1200x128_S128x128_S1200x128_1_0_0_1_n_n.contr.Idx) :
    (dot_S1200x128_S128x128_S1200x128_1_0_0_1_n_n.rhsIdx i q 1).val = (i 1).val := by
  unfold DotDims.rhsIdx
  rw [dif_neg (show ¬(1 : Fin S128x128.rank) ∈ dot_S1200x128_S128x128_S1200x128_1_0_0_1_n_n.rhsBatch by decide), dif_pos (show (1 : Fin S128x128.rank) ∈ dot_S1200x128_S128x128_S1200x128_1_0_0_1_n_n.rhsNonContracting by decide)]
  rfl

/-- The payload at an index: a matrix product into the zero accumulator is the bare sum of products (an identity
    reshape of the left operand, where the body has one, changes nothing), re-indexed from the one-axis contraction
    index to its coordinate. -/
theorem pay_apply (x0 : Vec Ideal S1200x128 .f32) (x1 : Vec Ideal S128x128 .f32) (j : S1200x128.Idx) :
    k2_pay1 (F := Ideal) x0 x1 j = ∑ k : Fin 128, x0 (blkL j k) * x1 (blkR j k) := by
  unfold k2_pay1
  simp only [matmul, shapeCast_self]
  rw [Ideal.matmul_constant_zero_apply, ← Equiv.sum_comp (ValueIdx.contrEquiv1 dot_S1200x128_S128x128_S1200x128_1_0_0_1_n_n 128 rfl rfl).symm]
  refine Finset.sum_congr rfl fun k _ => ?_
  have hk := ValueIdx.contrEquiv1_symm_val dot_S1200x128_S128x128_S1200x128_1_0_0_1_n_n 128 rfl rfl k
  have el : dot_S1200x128_S128x128_S1200x128_1_0_0_1_n_n.lhsIdx j ((ValueIdx.contrEquiv1 dot_S1200x128_S128x128_S1200x128_1_0_0_1_n_n 128 rfl rfl).symm k) = blkL j k := funext fun a => Fin.ext (by
    match a with
    | ⟨0, _⟩ => exact kdot_lhs0 _ _
    | ⟨1, _⟩ => exact (kdot_lhs1 _ _).trans hk)
  have er : dot_S1200x128_S128x128_S1200x128_1_0_0_1_n_n.rhsIdx j ((ValueIdx.contrEquiv1 dot_S1200x128_S128x128_S1200x128_1_0_0_1_n_n 128 rfl rfl).symm k) = blkR j k := funext fun a => Fin.ext (by
    match a with
    | ⟨0, _⟩ => exact (kdot_rhs0 _ _).trans hk
    | ⟨1, _⟩ => exact kdot_rhs1 _ _)
  rw [el, er]

/-! ## (2) The whole-array product, and the reference's `dot_general` as that product -/

/-- The operand indices of the whole-array product at output index `i` = (r, q) and contraction coordinate `k`:
    (r, k) in x and (k, q) in W. -/
abbrev arrL (i : S12000x128.Idx) (k : Fin 128) : S12000x128.Idx := fun a => match a with
  | ⟨0, _⟩ => ⟨(i 0).val, (i 0).isLt⟩
  | ⟨1, _⟩ => ⟨k.val, k.isLt⟩
abbrev arrR (i : S12000x128.Idx) (k : Fin 128) : S128x128.Idx := fun a => match a with
  | ⟨0, _⟩ => ⟨k.val, k.isLt⟩
  | ⟨1, _⟩ => ⟨(i 1).val, (i 1).isLt⟩

/-- The whole-array product x · W: entry (r, q) is the sum over k of x(r, k) · W(k, q). -/
def xwG (X : Vec Ideal S12000x128 .f32) (W : Vec Ideal S128x128 .f32) : Vec Ideal S12000x128 .f32 :=
  fun i => ∑ k : Fin 128, X (arrL i k) * W (arrR i k)

/-- The reference's dimension numbers are the same contraction, on the whole arrays. -/
theorem rdot_lhs0 (i : S12000x128.Idx) (q : Cert.ReferenceIdeal.dot_S12000x128_S128x128_S12000x128_1_0_0_1_n_n.contr.Idx) :
    (Cert.ReferenceIdeal.dot_S12000x128_S128x128_S12000x128_1_0_0_1_n_n.lhsIdx i q 0).val = (i 0).val := by
  unfold DotDims.lhsIdx
  rw [dif_neg (show ¬(0 : Fin S12000x128.rank) ∈ Cert.ReferenceIdeal.dot_S12000x128_S128x128_S12000x128_1_0_0_1_n_n.lhsBatch by decide), dif_pos (show (0 : Fin S12000x128.rank) ∈ Cert.ReferenceIdeal.dot_S12000x128_S128x128_S12000x128_1_0_0_1_n_n.lhsNonContracting by decide)]
  rfl
theorem rdot_lhs1 (i : S12000x128.Idx) (q : Cert.ReferenceIdeal.dot_S12000x128_S128x128_S12000x128_1_0_0_1_n_n.contr.Idx) :
    (Cert.ReferenceIdeal.dot_S12000x128_S128x128_S12000x128_1_0_0_1_n_n.lhsIdx i q 1).val = (q ⟨0, by decide⟩).val :=
  Cert.ReferenceIdeal.dot_S12000x128_S128x128_S12000x128_1_0_0_1_n_n.lhsIdx_val_of_single rfl i q
theorem rdot_rhs0 (i : S12000x128.Idx) (q : Cert.ReferenceIdeal.dot_S12000x128_S128x128_S12000x128_1_0_0_1_n_n.contr.Idx) :
    (Cert.ReferenceIdeal.dot_S12000x128_S128x128_S12000x128_1_0_0_1_n_n.rhsIdx i q 0).val = (q ⟨0, by decide⟩).val :=
  Cert.ReferenceIdeal.dot_S12000x128_S128x128_S12000x128_1_0_0_1_n_n.rhsIdx_val_of_single rfl i q
theorem rdot_rhs1 (i : S12000x128.Idx) (q : Cert.ReferenceIdeal.dot_S12000x128_S128x128_S12000x128_1_0_0_1_n_n.contr.Idx) :
    (Cert.ReferenceIdeal.dot_S12000x128_S128x128_S12000x128_1_0_0_1_n_n.rhsIdx i q 1).val = (i 1).val := by
  unfold DotDims.rhsIdx
  rw [dif_neg (show ¬(1 : Fin S128x128.rank) ∈ Cert.ReferenceIdeal.dot_S12000x128_S128x128_S12000x128_1_0_0_1_n_n.rhsBatch by decide), dif_pos (show (1 : Fin S128x128.rank) ∈ Cert.ReferenceIdeal.dot_S12000x128_S128x128_S12000x128_1_0_0_1_n_n.rhsNonContracting by decide)]
  rfl

/-- The reference's `dot_general` of the two arrays is that product, index by index: at the ideal values it is the
    bare sum over the contraction index, re-indexed to the contraction coordinate. -/
theorem ref_eq (X : Vec Ideal S12000x128 .f32) (W : Vec Ideal S128x128 .f32) :
    Host.dotGeneral (F := Ideal) (φ₁ := .f32) (φ₂ := .f32) Cert.ReferenceIdeal.dot_S12000x128_S128x128_S12000x128_1_0_0_1_n_n none X W = xwG X W := by
  funext i
  simp only [Host.dotGeneral]
  rw [Ideal.dotGeneral_apply, ← Equiv.sum_comp (ValueIdx.contrEquiv1 Cert.ReferenceIdeal.dot_S12000x128_S128x128_S12000x128_1_0_0_1_n_n 128 rfl rfl).symm]
  unfold xwG
  refine Finset.sum_congr rfl fun k _ => ?_
  have hk := ValueIdx.contrEquiv1_symm_val Cert.ReferenceIdeal.dot_S12000x128_S128x128_S12000x128_1_0_0_1_n_n 128 rfl rfl k
  have el : Cert.ReferenceIdeal.dot_S12000x128_S128x128_S12000x128_1_0_0_1_n_n.lhsIdx i ((ValueIdx.contrEquiv1 Cert.ReferenceIdeal.dot_S12000x128_S128x128_S12000x128_1_0_0_1_n_n 128 rfl rfl).symm k) = arrL i k := funext fun a => Fin.ext (by
    match a with
    | ⟨0, _⟩ => exact rdot_lhs0 _ _
    | ⟨1, _⟩ => exact (rdot_lhs1 _ _).trans hk)
  have er : Cert.ReferenceIdeal.dot_S12000x128_S128x128_S12000x128_1_0_0_1_n_n.rhsIdx i ((ValueIdx.contrEquiv1 Cert.ReferenceIdeal.dot_S12000x128_S128x128_S12000x128_1_0_0_1_n_n 128 rfl rfl).symm k) = arrR i k := funext fun a => Fin.ext (by
    match a with
    | ⟨0, _⟩ => exact (rdot_rhs0 _ _).trans hk
    | ⟨1, _⟩ => exact rdot_rhs1 _ _)
  rw [el, er]

/-! ## (3) What a grid point writes back is its block of the whole product -/

/-- The two operand arrays as the region finds them, named at their literal vector types (so that products of their
    entries are products of extended reals). -/
abbrev xarr (V : (c : Dev nD) → (b : Ref sig .tc) → Buf (Elt Ideal) ((c : Thread nD τ).loc b)) (c : Dev nD) : Vec Ideal S12000x128 .f32 := V c main_v39
abbrev warr (V : (c : Dev nD) → (b : Ref sig .tc) → Buf (Elt Ideal) ((c : Thread nD τ).loc b)) (c : Dev nD) : Vec Ideal S128x128 .f32 := V c main_arg12

theorem hz : (![0, 0] : Fin 2 → Nat) = fun _ => 0 := funext fun a => by fin_cases a <;> rfl

/-- The index maps, decided over the grid: the block of x moves with the output's block along the rows and sits at
    column block 0; W's one block never moves; the output's block at point `t` is row block `t`, column block 0. -/
theorem idx_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- What point `t` writes back is block `t` of the whole product of the operand arrays as the region finds them. -/
theorem flushed_eq (V : (c : Dev nD) → (b : Ref sig .tc) → Buf (Elt Ideal) ((c : Thread nD τ).loc b)) (c : Dev nD) (t : Fin cfg2.N) :
    (dat2 (F := Ideal) V c).flushed 2 t = ((cfg2.win 2).blk t).view.read (Elt Ideal) (xwG (V c main_v39) (V c main_arg12)) := by
  show (cfg2.win 2).cut (grid2.coords t) ((dat2 (F := Ideal) V c).after 2 t) = _
  rw [after2_2]
  unfold out2_2
  rw [View.canon_unit_zero hz]
  simp only [View.ld_unit_zero (S := S1200x128) hz, View.ld_unit_zero (S := S128x128) hz]
  obtain ⟨e0, e1, e2, e3, e4, e5⟩ := idx_facts t
  funext j
  show k2_pay1 (F := Ideal) (iblk2 V c 0 t) (iblk2 V c 1 t) j = xwG (V c main_v39) (V c main_arg12) (((cfg2.win 2).blk t).view.emb j)
  refine (pay_apply (iblk2 V c 0 t) (iblk2 V c 1 t) j).trans ?_
  unfold xwG
  refine Finset.sum_congr rfl fun k _ => ?_
  show xarr V c (((cfg2.win 0).blk t).view.emb (blkL j k)) * warr V c (((cfg2.win 1).blk t).view.emb (blkR j k))
    = xarr V c (arrL (((cfg2.win 2).blk t).view.emb j) k) * warr V c (arrR (((cfg2.win 2).blk t).view.emb j) k)
  -- the block of x, read at (p, k), is x at (1200·t + p, k)
  have h0 : ((cfg2.win 0).blk t).view.emb (blkL j k) = arrL (((cfg2.win 2).blk t).view.emb j) k := by
    funext a; apply Fin.ext
    match a with
    | ⟨0, _⟩ => show win2_0.index t (0 : Fin 2) * 1200 + 1 * (j 0).val = win2_2.index t (0 : Fin 2) * 1200 + 1 * (j 0).val; omega
    | ⟨1, _⟩ => show win2_0.index t (1 : Fin 2) * 128 + 1 * k.val = k.val; omega
  -- W's block, read at (k, q), is W at (k, q)
  have h1 : ((cfg2.win 1).blk t).view.emb (blkR j k) = arrR (((cfg2.win 2).blk t).view.emb j) k := by
    funext a; apply Fin.ext
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega
  rw [h0, h1]

/-! ## (4) The blocks cover the array -/

/-- An index of the array is in point `t`'s block iff each coordinate is in the block's range on its axis. -/
theorem mem_blk (t : Fin cfg2.N) (i : S12000x128.Idx) :
    i ∈ ((cfg2.win 2).blk t).view.set ↔ ∀ a : Fin 2, win2_2.index t a * S1200x128.size a ≤ (i a).val ∧ (i a).val < win2_2.index t a * S1200x128.size a + S1200x128.size a := by
  show i ∈ ((View.whole main_v44).slice (win2_2.rect t)).set ↔ _
  rw [View.set_slice_whole, Rect.mem_set_unit]
  exact Iff.rfl

/-- Row `r` lies in the block of point `r / 1200`, which writes back. -/
theorem cover (i : S12000x128.Idx) : ∃ t : Fin cfg2.N, (cfg2.win 2).flush t = true ∧ i ∈ ((cfg2.win 2).blk t).view.set := by
  have hi0 : (i 0).val < 12000 := (i 0).isLt
  have hi1 : (i 1).val < 128 := (i 1).isLt
  have ht : (i 0).val / 1200 < cfg2.N := by show (i 0).val / 1200 < 10; omega
  obtain ⟨e0, e1, e2, e3, e4, e5⟩ := idx_facts ⟨(i 0).val / 1200, ht⟩
  have e4' : win2_2.index ⟨(i 0).val / 1200, ht⟩ (0 : Fin 2) = (i 0).val / 1200 := e4
  refine ⟨⟨(i 0).val / 1200, ht⟩, flush2_2 _, ?_⟩
  rw [mem_blk]
  intro a
  match a with
  | ⟨0, _⟩ => show win2_2.index ⟨(i 0).val / 1200, ht⟩ (0 : Fin 2) * 1200 ≤ (i 0).val ∧ (i 0).val < win2_2.index ⟨(i 0).val / 1200, ht⟩ (0 : Fin 2) * 1200 + 1200; omega
  | ⟨1, _⟩ => show win2_2.index ⟨(i 0).val / 1200, ht⟩ (1 : Fin 2) * 128 ≤ (i 1).val ∧ (i 1).val < win2_2.index ⟨(i 0).val / 1200, ht⟩ (1 : Fin 2) * 128 + 128; omega

end Xw2

/-! ## The array after the region -/

/-- After region 2 its output array holds the reference's `dot_general` of the two operand arrays as the region
    finds them: every point writes its block of the whole product (3), the blocks cover the array (4), and the whole
    product is the reference's (2). -/
theorem xw2 (V : (c : Dev nD) → (b : Ref sig .tc) → Buf (Elt Ideal) ((c : Thread nD τ).loc b)) (c : Dev nD) :
    (dat2 (F := Ideal) V c).arrAt 2 cfg2.N
      = Host.dotGeneral (F := Ideal) (φ₁ := .f32) (φ₂ := .f32) Cert.ReferenceIdeal.dot_S12000x128_S128x128_S12000x128_1_0_0_1_n_n none (V c main_v39) (V c main_arg12) :=
  ((dat2 (F := Ideal) V c).arrAt_eq_of_cover 2 (Xw2.xwG (V c main_v39) (V c main_arg12)) (fun t _ => Xw2.flushed_eq V c t) Xw2.cover).trans
    (Xw2.ref_eq (V c main_v39) (V c main_arg12)).symm

end Cert.KernelIdeal.RegionValue

end
-- ==== Proof.RegionFin3.lean ====
import proofs.«406409_j38250978738663_3_alg».proof.Proof.FrameKI
import proofs.«406409_j38250978738663_3_alg».proof.Proof.Gen.ReferenceIdeal
import proofs.«406409_j38250978738663_3_alg».proof.ReferenceIdeal
import Idealize.ShloMosaic.Lib.Pipeline.Value
import Idealize.ShloMosaic.Lib.ValueIdx
import Idealize.ShloMosaic.Lib.ValueLayout

/-!
# A finalize region as a whole-array operation

The region walks its `[12000, 128]` arrays in blocks of 1200 rows, one block per grid point. At every point the
body adds the aggregate block, the self block and the one bias row (the same `[1, 128]` block at every point,
broadcast down the rows), and takes the maximum with zero. Every operation is pointwise, and the output block at
point `t` is rows `1200 t … 1200 t + 1199`, so the blocks tile the array and the array ends holding
`max (agg + self + bias, 0)` index by index: the function the whole-array operations
`maximumf (addf (addf agg self) (broadcast bias)) (broadcast 0)` compute.
-/

noncomputable section

namespace Cert.KernelIdeal.RegionValue

open Cert.KernelIdeal Cert.KernelIdeal.Gen Cert.KernelIdeal.GenP Idealize.ShloMosaic Idealize.ShloMosaic.TcCoe
open Idealize.ShloMosaic.ValueIdx

namespace Fin3

/-! ## The function the array ends holding -/

/-- The bias row's one index under column `q`. -/
abbrev rowAt (q : Fin 128) : S1x128.Idx := ix2 (0 : Fin 1) q

/-- `max (agg + self + bias row, 0)` over the whole `[12000, 128]` array, as whole-array operations: two sums, the
    bias row broadcast along axis 0, and a maximum against the splat zero. -/
def finG (agg self : Vec Ideal S12000x128 .f32) (bias : Vec Ideal S1x128 .f32) : Vec Ideal S12000x128 .f32 :=
  maximumf
    (addf (addf agg self)
      (broadcastInDim Cert.ReferenceIdeal.S12000x128 ![0, 1] Cert.ReferenceIdeal.Facts₀.bcast_S1x128_S12000x128_0_1 bias))
    (broadcastInDim Cert.ReferenceIdeal.S12000x128 ![] Cert.ReferenceIdeal.Facts₀.bcast_S_S12000x128
      (constant (F := Ideal) Cert.ReferenceIdeal.S_ .f32 0x00000000#32))

/-- At row `r`, column `q` it is the maximum of `agg + self + bias` there (the bias read at column `q` of its one
    row) and the zero word's value: the two sums and the maximum are pointwise, a broadcast along axis 0 forgets
    the row, and a broadcast scalar is the same everywhere. -/
theorem finG_apply (agg self : Vec Ideal S12000x128 .f32) (bias : Vec Ideal S1x128 .f32) (r : Fin 12000) (q : Fin 128) :
    finG agg self bias (ix2 r q)
      = max (agg (ix2 r q) + self (ix2 r q) + bias (rowAt q)) (Ideal.ofBits .f32 0x00000000#32) := by
  unfold finG
  rw [maximumf_apply, addf_apply, addf_apply]
  rw [broadcastInDim_apply ![0, 1] _ bias (ix2 r q) (rowAt q) (fun a => by
        match a with
        | ⟨0, _⟩ => rfl
        | ⟨1, _⟩ => rfl),
      broadcastInDim_apply ![] _ (constant (F := Ideal) Cert.ReferenceIdeal.S_ .f32 0x00000000#32) (ix2 r q) ix0
        (fun a => a.elim0),
      constant_apply]

/-! ## The body's payload at an index -/

/-- The body's stored value at row `p`, column `q` of a block: the three shape casts are to the same shape, so they
    are the identity; the sums and the maximum are pointwise; the `[1, 128]` row broadcast to `[1200, 128]` reads
    column `q` of its one row; the splat scalar is the zero word's value. -/
theorem pay_apply (x0 x1 : Vec Ideal S1200x128 .f32) (x2 : Vec Ideal S1x128 .f32) (p : Fin 1200) (q : Fin 128) :
    k3_pay1 (F := Ideal) x0 x1 x2 (ix2 p q)
      = max (x0 (ix2 p q) + x1 (ix2 p q) + x2 (rowAt q)) (Ideal.ofBits .f32 0x00000000#32) := by
  unfold k3_pay1
  rw [shapeCast_self, shapeCast_self, shapeCast_self, maximumf_apply, addf_apply, addf_apply, broadcast_apply,
    broadcastTo_1b_ab_apply]
  rfl

/-! ## From blocks to the array -/

/-- The zero offsets of a whole-buffer load or store, as a constant function. -/
theorem zero_offsets : (![0, 0] : Fin 2 → Nat) = fun _ => 0 :=
  funext fun a => by
    match a with
    | ⟨0, _⟩ => rfl
    | ⟨1, _⟩ => rfl

/-- The index maps, decided over the grid: the aggregate, self and output windows are at block row `t`, block
    column 0; the bias window is at block (0, 0) at every point. -/
theorem index_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

variable (V : (c : Dev nD) → (b : Ref sig .tc) → Buf (Elt Ideal) ((c : Thread nD τ).loc b))

/-- What point `t` writes back is block `t` of `finG` of the three arrays as the region finds them: the block's
    element (p, q) sits in the array at row `1200 t + p`, column `q` (a block coordinate is index × size + 1 × the
    coordinate inside the block); the aggregate and self blocks are read at that same place, and the bias block is
    the whole bias row. -/
theorem flushed_eq (c : Dev nD) (t : Fin cfg3.N) :
    (dat3 (F := Ideal) V c).flushed 3 t
      = ((cfg3.win 3).blk t).view.read (Elt Ideal) (finG (V c main_v73) (V c main_v77) (V c main_v78)) := by
  show (cfg3.win 3).cut (grid3.coords t) ((dat3 V c).after 3 t) = _
  rw [after3_3]
  unfold out3_3
  rw [View.canon_unit_zero zero_offsets]
  simp only [View.ld_unit_zero (S := S1200x128) zero_offsets, View.ld_unit_zero (S := S1x128) zero_offsets]
  obtain ⟨e00, e01, e10, e11, e20, e21, e30, e31⟩ := index_facts t
  have hN : t.val < 10 := Nat.lt_of_lt_of_eq t.isLt N_3
  funext j
  obtain ⟨p, q, rfl⟩ : ∃ (p : Fin 1200) (q : Fin 128), j = ix2 p q := ⟨j 0, j 1, eq_ix2 j⟩
  have hp : p.val < 1200 := p.isLt
  show k3_pay1 (F := Ideal) (iblk3 V c 0 t) (iblk3 V c 1 t) (iblk3 V c 2 t) (ix2 p q)
      = finG (V c main_v73) (V c main_v77) (V c main_v78) (((cfg3.win 3).blk t).view.emb (ix2 p q))
  have hemb : ((cfg3.win 3).blk t).view.emb (ix2 p q) = ix2 (⟨t.val * 1200 + p.val, by omega⟩ : Fin 12000) q := by
    funext a; apply Fin.ext
    match a with
    | ⟨0, _⟩ => show win3_3.index t (0 : Fin 2) * 1200 + 1 * p.val = t.val * 1200 + p.val; omega
    | ⟨1, _⟩ => show win3_3.index t (1 : Fin 2) * 128 + 1 * q.val = q.val; omega
  rw [hemb, finG_apply]
  refine (pay_apply _ _ _ p q).trans ?_
  have h0 : iblk3 V c 0 t (ix2 p q) = V c main_v73 (ix2 (⟨t.val * 1200 + p.val, by omega⟩ : Fin 12000) q) := by
    show V c main_v73 (((cfg3.win 0).blk t).view.emb (ix2 p q)) = _
    refine congrArg _ (funext fun a => Fin.ext ?_)
    match a with
    | ⟨0, _⟩ => show win3_0.index t (0 : Fin 2) * 1200 + 1 * p.val = t.val * 1200 + p.val; omega
    | ⟨1, _⟩ => show win3_0.index t (1 : Fin 2) * 128 + 1 * q.val = q.val; omega
  have h1 : iblk3 V c 1 t (ix2 p q) = V c main_v77 (ix2 (⟨t.val * 1200 + p.val, by omega⟩ : Fin 12000) q) := by
    show V c main_v77 (((cfg3.win 1).blk t).view.emb (ix2 p q)) = _
    refine congrArg _ (funext fun a => Fin.ext ?_)
    match a with
    | ⟨0, _⟩ => show win3_1.index t (0 : Fin 2) * 1200 + 1 * p.val = t.val * 1200 + p.val; omega
    | ⟨1, _⟩ => show win3_1.index t (1 : Fin 2) * 128 + 1 * q.val = q.val; omega
  have h2 : iblk3 V c 2 t (rowAt q) = V c main_v78 (rowAt q) := by
    show V c main_v78 (((cfg3.win 2).blk t).view.emb (rowAt q)) = _
    refine congrArg _ (funext fun a => Fin.ext ?_)
    match a with
    | ⟨0, _⟩ => show win3_2.index t (0 : Fin 2) * 1 + 1 * 0 = 0; omega
    | ⟨1, _⟩ => show win3_2.index t (1 : Fin 2) * 128 + 1 * q.val = q.val; omega
  rw [h0, h1, h2]

/-- Row `r` of the array lies in the block of point `r / 1200`, and every point writes its block back: the blocks
    cover the array. -/
theorem cover (i : S12000x128.Idx) :
    ∃ t : Fin cfg3.N, (cfg3.win 3).flush t = true ∧ i ∈ ((cfg3.win 3).blk t).view.set := by
  have hi0 : (i 0).val < 12000 := (i 0).isLt
  have hi1 : (i 1).val < 128 := (i 1).isLt
  have ht : (i 0).val / 1200 < cfg3.N := by rw [show cfg3.N = 10 from N_3]; omega
  obtain ⟨-, -, -, -, -, -, e30, e31⟩ := index_facts ⟨(i 0).val / 1200, ht⟩
  refine ⟨⟨(i 0).val / 1200, ht⟩, flush3_3 _, ?_⟩
  show i ∈ ((View.whole main_v79).slice (win3_3.rect ⟨(i 0).val / 1200, ht⟩)).set
  rw [View.set_slice_whole, Rect.mem_set_unit]
  intro a
  match a with
  | ⟨0, _⟩ =>
    show win3_3.index ⟨(i 0).val / 1200, ht⟩ (0 : Fin 2) * 1200 ≤ (i 0).val
      ∧ (i 0).val < win3_3.index ⟨(i 0).val / 1200, ht⟩ (0 : Fin 2) * 1200 + 1200
    rw [e30]
    show (i 0).val / 1200 * 1200 ≤ (i 0).val ∧ (i 0).val < (i 0).val / 1200 * 1200 + 1200
    omega
  | ⟨1, _⟩ =>
    show win3_3.index ⟨(i 0).val / 1200, ht⟩ (1 : Fin 2) * 128 ≤ (i 1).val
      ∧ (i 1).val < win3_3.index ⟨(i 0).val / 1200, ht⟩ (1 : Fin 2) * 128 + 128
    rw [e31]
    omega

/-- The array after the region is `finG` of the three arrays as the region finds them: every block written back is
    a block of `finG`, and the blocks cover the array. -/
theorem array_eq (c : Dev nD) :
    (dat3 (F := Ideal) V c).arrAt 3 cfg3.N = finG (V c main_v73) (V c main_v77) (V c main_v78) :=
  (dat3 (F := Ideal) V c).arrAt_eq_of_cover 3 (finG (V c main_v73) (V c main_v77) (V c main_v78))
    (fun t _ => flushed_eq V c t) cover

end Fin3

/-- The finalize region computes `max (agg + self + bias, 0)` as whole-array operations on the arrays it finds. -/
theorem fin3 (V : (c : Dev nD) → (b : Ref sig .tc) → Buf (Elt Ideal) ((c : Thread nD τ).loc b)) (c : Dev nD) :
    (dat3 (F := Ideal) V c).arrAt 3 cfg3.N
      = maximumf
          (addf (addf (V c main_v73) (V c main_v77))
            (broadcastInDim Cert.ReferenceIdeal.S12000x128 ![0, 1] Cert.ReferenceIdeal.Facts₀.bcast_S1x128_S12000x128_0_1
              (V c main_v78)))
          (broadcastInDim Cert.ReferenceIdeal.S12000x128 ![] Cert.ReferenceIdeal.Facts₀.bcast_S_S12000x128
            (constant (F := Ideal) Cert.ReferenceIdeal.S_ .f32 0x00000000#32)) :=
  Fin3.array_eq V c

end Cert.KernelIdeal.RegionValue
-- ==== Proof.LayerK1.lean ====
/-
  Layer 1 of the kernel's program, read off the boundary contents: what the finalize region leaves in its output
  array is the layer function (kernel's form) of the arrays the layer's first boundary holds. The product `x · W` is
  the xw region's array; the edge rows are slices of the edge list taken by the host stretch before that region; the
  normalisation, the fill-gather, the scatter-add and the self term are the three host stretches between the two
  regions; the last line is the finalize region.
-/
import proofs.«406409_j38250978738663_3_alg».proof.Proof.FrameKI
import proofs.«406409_j38250978738663_3_alg».proof.Proof.Spec
import proofs.«406409_j38250978738663_3_alg».proof.Proof.RegionXw2
import proofs.«406409_j38250978738663_3_alg».proof.Proof.RegionFin3
import Idealize.ShloMosaic.Lib.StableHlo.Run

set_option maxRecDepth 16384

noncomputable section

namespace Cert.KernelIdeal.LayerValue

open Cert.KernelIdeal Cert.KernelIdeal.Gen Cert.KernelIdeal.GenP Idealize.ShloMosaic Idealize.ShloMosaic.TcCoe Idealize.ShloMosaic.StableHlo Cert.Spec

variable (m : (ℓ : Loc nD τ sig) → Buf (Elt Ideal) ℓ) (ρ : Dev nD → PrngReg) (c : Dev nD)

/-- The host stretch before the xw region only slices the edge list: every buffer it does not write is as entered. -/
theorem pre1_x : V7 (F := Ideal) m ρ c main_v39 = W6 m ρ c (Proc.devRef .tc main_v39) := by
  show StableHlo.after hostOps2 (W6 m ρ c) (Proc.devRef .tc main_v39) = _
  after_results_simp
theorem pre1_W : V7 (F := Ideal) m ρ c main_arg12 = W6 m ρ c (Proc.devRef .tc main_arg12) := by
  show StableHlo.after hostOps2 (W6 m ρ c) (Proc.devRef .tc main_arg12) = _
  after_results_simp
theorem pre1_w : W7 (F := Ideal) m ρ c (Proc.devRef .tc main_arg3) = W6 m ρ c (Proc.devRef .tc main_arg3) := by
  show StableHlo.after hostOps2 (W6 m ρ c) (Proc.devRef .tc main_arg3) = _
  after_results_simp
theorem pre1_b : W7 (F := Ideal) m ρ c (Proc.devRef .tc main_arg13) = W6 m ρ c (Proc.devRef .tc main_arg13) := by
  show StableHlo.after hostOps2 (W6 m ρ c) (Proc.devRef .tc main_arg13) = _
  after_results_simp
/-- and what it writes are the two rows of the edge list. -/
theorem pre1_row : W7 (F := Ideal) m ρ c (Proc.devRef .tc main_v41) = rowMI (W6 m ρ c (Proc.devRef .tc main_arg2)) := by
  show StableHlo.after hostOps2 (W6 m ρ c) (Proc.devRef .tc main_v41) = _
  after_results_simp
  rfl
theorem pre1_col : W7 (F := Ideal) m ρ c (Proc.devRef .tc main_v43) = colMI (W6 m ρ c (Proc.devRef .tc main_arg2)) := by
  show StableHlo.after hostOps2 (W6 m ρ c) (Proc.devRef .tc main_v43) = _
  after_results_simp
  rfl

set_option maxHeartbeats 4000000 in
/-- The xw region's array is `x · W` of the entry arrays. -/
theorem xw1_val : W8 (F := Ideal) m ρ c (Proc.devRef .tc main_v44)
    = xwMI (W6 m ρ c (Proc.devRef .tc main_v39)) (W6 m ρ c (Proc.devRef .tc main_arg12)) := by
  refine (W8_arr m ρ c 2).trans ?_
  rw [RegionValue.xw2 (V7 m ρ) c, pre1_x, pre1_W]
  rfl

/-- Past the xw region the other buffers are as the first stretch left them. -/
theorem mid1_row : W8 (F := Ideal) m ρ c (Proc.devRef .tc main_v41) = rowMI (W6 m ρ c (Proc.devRef .tc main_arg2)) :=
  (W8_of_ne m ρ c main_v41 (by decide)).trans (pre1_row m ρ c)
theorem mid1_col : W8 (F := Ideal) m ρ c (Proc.devRef .tc main_v43) = colMI (W6 m ρ c (Proc.devRef .tc main_arg2)) :=
  (W8_of_ne m ρ c main_v43 (by decide)).trans (pre1_col m ρ c)
theorem mid1_w : W8 (F := Ideal) m ρ c (Proc.devRef .tc main_arg3) = W6 m ρ c (Proc.devRef .tc main_arg3) :=
  (W8_of_ne m ρ c main_arg3 (by decide)).trans (pre1_w m ρ c)
theorem mid1_b : W8 (F := Ideal) m ρ c (Proc.devRef .tc main_arg13) = W6 m ρ c (Proc.devRef .tc main_arg13) :=
  (W8_of_ne m ρ c main_arg13 (by decide)).trans (pre1_b m ρ c)

set_option maxHeartbeats 4000000 in
/-- The three stretches between the regions: the aggregation over the fill-gathered rows, -/
theorem agg1_val : V11 (F := Ideal) m ρ c main_v73
    = aggMI (W6 m ρ c (Proc.devRef .tc main_arg2)) (W6 m ρ c (Proc.devRef .tc main_arg3))
        (takeMI (xwMI (W6 m ρ c (Proc.devRef .tc main_v39)) (W6 m ρ c (Proc.devRef .tc main_arg12))) (rowMI (W6 m ρ c (Proc.devRef .tc main_arg2)))) := by
  show StableHlo.after hostOps3_2 (StableHlo.after hostOps3_1 (StableHlo.after hostOps3 (W8 m ρ c))) (Proc.devRef .tc main_v73) = _
  after_results_simp
  simp only [TRef.ofBuf, TRef.toBuf, cast_eq]
  rw [xw1_val, mid1_row, mid1_col, mid1_w]
  rfl
set_option maxHeartbeats 4000000 in
/-- the self term, -/
theorem self1_val : V11 (F := Ideal) m ρ c main_v77
    = selfMI (W6 m ρ c (Proc.devRef .tc main_arg2)) (W6 m ρ c (Proc.devRef .tc main_arg3))
        (xwMI (W6 m ρ c (Proc.devRef .tc main_v39)) (W6 m ρ c (Proc.devRef .tc main_arg12))) := by
  show StableHlo.after hostOps3_2 (StableHlo.after hostOps3_1 (StableHlo.after hostOps3 (W8 m ρ c))) (Proc.devRef .tc main_v77) = _
  after_results_simp
  rw [xw1_val, mid1_col, mid1_w]
  rfl
set_option maxHeartbeats 4000000 in
/-- and the bias as a row. -/
theorem bias1_val : V11 (F := Ideal) m ρ c main_v78 = rowK (W6 m ρ c (Proc.devRef .tc main_arg13)) := by
  show StableHlo.after hostOps3_2 (StableHlo.after hostOps3_1 (StableHlo.after hostOps3 (W8 m ρ c))) (Proc.devRef .tc main_v78) = _
  after_results_simp
  rw [mid1_b]
  rfl

set_option maxHeartbeats 4000000 in
/-- THE LAYER: the finalize region's output array is the layer function of the entry arrays. -/
theorem layer1 : W12 (F := Ideal) m ρ c (Proc.devRef .tc main_v79)
    = layerKMI (xwMI (W6 m ρ c (Proc.devRef .tc main_v39)) (W6 m ρ c (Proc.devRef .tc main_arg12)))
        (W6 m ρ c (Proc.devRef .tc main_arg13)) (W6 m ρ c (Proc.devRef .tc main_arg2)) (W6 m ρ c (Proc.devRef .tc main_arg3)) := by
  refine (W12_arr m ρ c 3).trans ?_
  rw [RegionValue.fin3 (V11 m ρ) c, agg1_val, self1_val, bias1_val]
  rfl

end Cert.KernelIdeal.LayerValue

end
-- ==== Proof.RegionXw4.lean ====
/- Region 4 (x · W, one 1200-row block of x per grid point against the whole 128 × 128 matrix W): after the region
   its output array holds the reference's `dot_general` of the two operand arrays.

   The mathematics, in four steps.
   (1) The body's payload is one matrix product into a zero accumulator, so entry (p, q) of the block it stores is
       the sum over k of x_blk(p, k) · W(k, q).
   (2) The reference's `dot_general` of the whole arrays has entry (r, q) equal to the sum over k of x(r, k) · W(k, q).
   (3) Grid point t reads rows 1200·t … 1200·t + 1199 of x and all of W, and writes the same rows of the output:
       entry (p, q) of its block is entry (1200·t + p, q) of the whole product, because a block coordinate is
       index × size + 1 × the coordinate inside the block.
   (4) Row r lies in the block of point r / 1200, so the blocks cover the array and it ends holding the whole product. -/
import proofs.«406409_j38250978738663_3_alg».proof.Proof.FrameKI
import proofs.«406409_j38250978738663_3_alg».proof.ReferenceIdeal
import proofs.«406409_j38250978738663_3_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Cert.KernelIdeal Cert.KernelIdeal.Gen Cert.KernelIdeal.GenP Idealize.ShloMosaic Idealize.ShloMosaic.TcCoe
open scoped BigOperators

namespace Xw4

/-! ## (1) The block product at an index -/

/-- The operand indices of the block product at output index `j` = (p, q) and contraction coordinate `k`:
    (p, k) in the block of x and (k, q) in W. -/
abbrev blkL (j : S1200x128.Idx) (k : Fin 128) : S1200x128.Idx := fun a => match a with
  | ⟨0, _⟩ => ⟨(j 0).val, (j 0).isLt⟩
  | ⟨1, _⟩ => ⟨k.val, k.isLt⟩
abbrev blkR (j : S1200x128.Idx) (k : Fin 128) : S128x128.Idx := fun a => match a with
  | ⟨0, _⟩ => ⟨k.val, k.isLt⟩
  | ⟨1, _⟩ => ⟨(j 1).val, (j 1).isLt⟩

/-- The product's dimension numbers contract axis 1 of the left operand with axis 0 of the right one: the left
    operand's index keeps the output's row and takes the contraction coordinate as its column, -/
theorem kdot_lhs0 (i : S1200x128.Idx) (q : dot_S1200x128_S128x128_S1200x128_1_0_0_1_n_n.contr.Idx) :
    (dot_S1200x128_S128x128_S1200x128_1_0_0_1_n_n.lhsIdx i q 0).val = (i 0).val := by
  unfold DotDims.lhsIdx
  rw [dif_neg (show ¬(0 : Fin S1200x128.rank) ∈ dot_S1200x128_S128x128_S1200x128_1_0_0_1_n_n.lhsBatch by decide), dif_pos (show (0 : Fin S1200x128.rank) ∈ dot_S1200x128_S128x128_S1200x128_1_0_0_1_n_n.lhsNonContracting by decide)]
  rfl
theorem kdot_lhs1 (i : S1200x128.Idx) (q : dot_S1200x128_S128x128_S1200x128_1_0_0_1_n_n.contr.Idx) :
    (dot_S1200x128_S128x128_S1200x128_1_0_0_1_n_n.lhsIdx i q 1).val = (q ⟨0, by decide⟩).val :=
  dot_S1200x128_S128x128_S1200x128_1_0_0_1_n_n.lhsIdx_val_of_single rfl i q
/-- and the right operand's takes the contraction coordinate as its row and keeps the output's column. -/
theorem kdot_rhs0 (i : S1200x128.Idx) (q : dot_S1200x128_S128x128_S1200x128_1_0_0_1_n_n.contr.Idx) :
    (dot_S1200x128_S128x128_S1200x128_1_0_0_1_n_n.rhsIdx i q 0).val = (q ⟨0, by decide⟩).val :=
  dot_S1200x128_S128x128_S1200x128_1_0_0_1_n_n.rhsIdx_val_of_single rfl i q
theorem kdot_rhs1 (i : S1200x128.Idx) (q : dot_S1200x128_S128x128_S1200x128_1_0_0_1_n_n.contr.Idx) :
    (dot_S1200x128_S128x128_S1200x128_1_0_0_1_n_n.rhsIdx i q 1).val = (i 1).val := by
  unfold DotDims.rhsIdx
  rw [dif_neg (show ¬(1 : Fin S128x128.rank) ∈ dot_S1200x128_S128x128_S1200x128_1_0_0_1_n_n.rhsBatch by decide), dif_pos (show (1 : Fin S128x128.rank) ∈ dot_S1200x128_S128x128_S1200x128_1_0_0_1_n_n.rhsNonContracting by decide)]
  rfl

/-- The payload at an index: a matrix product into the zero accumulator is the bare sum of products (an identity
    reshape of the left operand, where the body has one, changes nothing), re-indexed from the one-axis contraction
    index to its coordinate. -/
theorem pay_apply (x0 : Vec Ideal S1200x128 .f32) (x1 : Vec Ideal S128x128 .f32) (j : S1200x128.Idx) :
    k4_pay1 (F := Ideal) x0 x1 j = ∑ k : Fin 128, x0 (blkL j k) * x1 (blkR j k) := by
  unfold k4_pay1
  simp only [matmul, shapeCast_self]
  rw [Ideal.matmul_constant_zero_apply, ← Equiv.sum_comp (ValueIdx.contrEquiv1 dot_S1200x128_S128x128_S1200x128_1_0_0_1_n_n 128 rfl rfl).symm]
  refine Finset.sum_congr rfl fun k _ => ?_
  have hk := ValueIdx.contrEquiv1_symm_val dot_S1200x128_S128x128_S1200x128_1_0_0_1_n_n 128 rfl rfl k
  have el : dot_S1200x128_S128x128_S1200x128_1_0_0_1_n_n.lhsIdx j ((ValueIdx.contrEquiv1 dot_S1200x128_S128x128_S1200x128_1_0_0_1_n_n 128 rfl rfl).symm k) = blkL j k := funext fun a => Fin.ext (by
    match a with
    | ⟨0, _⟩ => exact kdot_lhs0 _ _
    | ⟨1, _⟩ => exact (kdot_lhs1 _ _).trans hk)
  have er : dot_S1200x128_S128x128_S1200x128_1_0_0_1_n_n.rhsIdx j ((ValueIdx.contrEquiv1 dot_S1200x128_S128x128_S1200x128_1_0_0_1_n_n 128 rfl rfl).symm k) = blkR j k := funext fun a => Fin.ext (by
    match a with
    | ⟨0, _⟩ => exact (kdot_rhs0 _ _).trans hk
    | ⟨1, _⟩ => exact kdot_rhs1 _ _)
  rw [el, er]

/-! ## (2) The whole-array product, and the reference's `dot_general` as that product -/

/-- The operand indices of the whole-array product at output index `i` = (r, q) and contraction coordinate `k`:
    (r, k) in x and (k, q) in W. -/
abbrev arrL (i : S12000x128.Idx) (k : Fin 128) : S12000x128.Idx := fun a => match a with
  | ⟨0, _⟩ => ⟨(i 0).val, (i 0).isLt⟩
  | ⟨1, _⟩ => ⟨k.val, k.isLt⟩
abbrev arrR (i : S12000x128.Idx) (k : Fin 128) : S128x128.Idx := fun a => match a with
  | ⟨0, _⟩ => ⟨k.val, k.isLt⟩
  | ⟨1, _⟩ => ⟨(i 1).val, (i 1).isLt⟩

/-- The whole-array product x · W: entry (r, q) is the sum over k of x(r, k) · W(k, q). -/
def xwG (X : Vec Ideal S12000x128 .f32) (W : Vec Ideal S128x128 .f32) : Vec Ideal S12000x128 .f32 :=
  fun i => ∑ k : Fin 128, X (arrL i k) * W (arrR i k)

/-- The reference's dimension numbers are the same contraction, on the whole arrays. -/
theorem rdot_lhs0 (i : S12000x128.Idx) (q : Cert.ReferenceIdeal.dot_S12000x128_S128x128_S12000x128_1_0_0_1_n_n.contr.Idx) :
    (Cert.ReferenceIdeal.dot_S12000x128_S128x128_S12000x128_1_0_0_1_n_n.lhsIdx i q 0).val = (i 0).val := by
  unfold DotDims.lhsIdx
  rw [dif_neg (show ¬(0 : Fin S12000x128.rank) ∈ Cert.ReferenceIdeal.dot_S12000x128_S128x128_S12000x128_1_0_0_1_n_n.lhsBatch by decide), dif_pos (show (0 : Fin S12000x128.rank) ∈ Cert.ReferenceIdeal.dot_S12000x128_S128x128_S12000x128_1_0_0_1_n_n.lhsNonContracting by decide)]
  rfl
theorem rdot_lhs1 (i : S12000x128.Idx) (q : Cert.ReferenceIdeal.dot_S12000x128_S128x128_S12000x128_1_0_0_1_n_n.contr.Idx) :
    (Cert.ReferenceIdeal.dot_S12000x128_S128x128_S12000x128_1_0_0_1_n_n.lhsIdx i q 1).val = (q ⟨0, by decide⟩).val :=
  Cert.ReferenceIdeal.dot_S12000x128_S128x128_S12000x128_1_0_0_1_n_n.lhsIdx_val_of_single rfl i q
theorem rdot_rhs0 (i : S12000x128.Idx) (q : Cert.ReferenceIdeal.dot_S12000x128_S128x128_S12000x128_1_0_0_1_n_n.contr.Idx) :
    (Cert.ReferenceIdeal.dot_S12000x128_S128x128_S12000x128_1_0_0_1_n_n.rhsIdx i q 0).val = (q ⟨0, by decide⟩).val :=
  Cert.ReferenceIdeal.dot_S12000x128_S128x128_S12000x128_1_0_0_1_n_n.rhsIdx_val_of_single rfl i q
theorem rdot_rhs1 (i : S12000x128.Idx) (q : Cert.ReferenceIdeal.dot_S12000x128_S128x128_S12000x128_1_0_0_1_n_n.contr.Idx) :
    (Cert.ReferenceIdeal.dot_S12000x128_S128x128_S12000x128_1_0_0_1_n_n.rhsIdx i q 1).val = (i 1).val := by
  unfold DotDims.rhsIdx
  rw [dif_neg (show ¬(1 : Fin S128x128.rank) ∈ Cert.ReferenceIdeal.dot_S12000x128_S128x128_S12000x128_1_0_0_1_n_n.rhsBatch by decide), dif_pos (show (1 : Fin S128x128.rank) ∈ Cert.ReferenceIdeal.dot_S12000x128_S128x128_S12000x128_1_0_0_1_n_n.rhsNonContracting by decide)]
  rfl

/-- The reference's `dot_general` of the two arrays is that product, index by index: at the ideal values it is the
    bare sum over the contraction index, re-indexed to the contraction coordinate. -/
theorem ref_eq (X : Vec Ideal S12000x128 .f32) (W : Vec Ideal S128x128 .f32) :
    Host.dotGeneral (F := Ideal) (φ₁ := .f32) (φ₂ := .f32) Cert.ReferenceIdeal.dot_S12000x128_S128x128_S12000x128_1_0_0_1_n_n none X W = xwG X W := by
  funext i
  simp only [Host.dotGeneral]
  rw [Ideal.dotGeneral_apply, ← Equiv.sum_comp (ValueIdx.contrEquiv1 Cert.ReferenceIdeal.dot_S12000x128_S128x128_S12000x128_1_0_0_1_n_n 128 rfl rfl).symm]
  unfold xwG
  refine Finset.sum_congr rfl fun k _ => ?_
  have hk := ValueIdx.contrEquiv1_symm_val Cert.ReferenceIdeal.dot_S12000x128_S128x128_S12000x128_1_0_0_1_n_n 128 rfl rfl k
  have el : Cert.ReferenceIdeal.dot_S12000x128_S128x128_S12000x128_1_0_0_1_n_n.lhsIdx i ((ValueIdx.contrEquiv1 Cert.ReferenceIdeal.dot_S12000x128_S128x128_S12000x128_1_0_0_1_n_n 128 rfl rfl).symm k) = arrL i k := funext fun a => Fin.ext (by
    match a with
    | ⟨0, _⟩ => exact rdot_lhs0 _ _
    | ⟨1, _⟩ => exact (rdot_lhs1 _ _).trans hk)
  have er : Cert.ReferenceIdeal.dot_S12000x128_S128x128_S12000x128_1_0_0_1_n_n.rhsIdx i ((ValueIdx.contrEquiv1 Cert.ReferenceIdeal.dot_S12000x128_S128x128_S12000x128_1_0_0_1_n_n 128 rfl rfl).symm k) = arrR i k := funext fun a => Fin.ext (by
    match a with
    | ⟨0, _⟩ => exact (rdot_rhs0 _ _).trans hk
    | ⟨1, _⟩ => exact rdot_rhs1 _ _)
  rw [el, er]

/-! ## (3) What a grid point writes back is its block of the whole product -/

/-- The two operand arrays as the region finds them, named at their literal vector types (so that products of their
    entries are products of extended reals). -/
abbrev xarr (V : (c : Dev nD) → (b : Ref sig .tc) → Buf (Elt Ideal) ((c : Thread nD τ).loc b)) (c : Dev nD) : Vec Ideal S12000x128 .f32 := V c main_arg0
abbrev warr (V : (c : Dev nD) → (b : Ref sig .tc) → Buf (Elt Ideal) ((c : Thread nD τ).loc b)) (c : Dev nD) : Vec Ideal S128x128 .f32 := V c main_arg14

theorem hz : (![0, 0] : Fin 2 → Nat) = fun _ => 0 := funext fun a => by fin_cases a <;> rfl

/-- The index maps, decided over the grid: the block of x moves with the output's block along the rows and sits at
    column block 0; W's one block never moves; the output's block at point `t` is row block `t`, column block 0. -/
theorem idx_facts : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (0 : Fin 2) = t.val
    ∧ win4_2.index t (1 : Fin 2) = 0 :=
  (by decide +kernel : ∀ t : Fin grid4.N, _)

/-- What point `t` writes back is block `t` of the whole product of the operand arrays as the region finds them. -/
theorem flushed_eq (V : (c : Dev nD) → (b : Ref sig .tc) → Buf (Elt Ideal) ((c : Thread nD τ).loc b)) (c : Dev nD) (t : Fin cfg4.N) :
    (dat4 (F := Ideal) V c).flushed 2 t = ((cfg4.win 2).blk t).view.read (Elt Ideal) (xwG (V c main_arg0) (V c main_arg14)) := by
  show (cfg4.win 2).cut (grid4.coords t) ((dat4 (F := Ideal) V c).after 2 t) = _
  rw [after4_2]
  unfold out4_2
  rw [View.canon_unit_zero hz]
  simp only [View.ld_unit_zero (S := S1200x128) hz, View.ld_unit_zero (S := S128x128) hz]
  obtain ⟨e0, e1, e2, e3, e4, e5⟩ := idx_facts t
  funext j
  show k4_pay1 (F := Ideal) (iblk4 V c 0 t) (iblk4 V c 1 t) j = xwG (V c main_arg0) (V c main_arg14) (((cfg4.win 2).blk t).view.emb j)
  refine (pay_apply (iblk4 V c 0 t) (iblk4 V c 1 t) j).trans ?_
  unfold xwG
  refine Finset.sum_congr rfl fun k _ => ?_
  show xarr V c (((cfg4.win 0).blk t).view.emb (blkL j k)) * warr V c (((cfg4.win 1).blk t).view.emb (blkR j k))
    = xarr V c (arrL (((cfg4.win 2).blk t).view.emb j) k) * warr V c (arrR (((cfg4.win 2).blk t).view.emb j) k)
  -- the block of x, read at (p, k), is x at (1200·t + p, k)
  have h0 : ((cfg4.win 0).blk t).view.emb (blkL j k) = arrL (((cfg4.win 2).blk t).view.emb j) k := by
    funext a; apply Fin.ext
    match a with
    | ⟨0, _⟩ => show win4_0.index t (0 : Fin 2) * 1200 + 1 * (j 0).val = win4_2.index t (0 : Fin 2) * 1200 + 1 * (j 0).val; omega
    | ⟨1, _⟩ => show win4_0.index t (1 : Fin 2) * 128 + 1 * k.val = k.val; omega
  -- W's block, read at (k, q), is W at (k, q)
  have h1 : ((cfg4.win 1).blk t).view.emb (blkR j k) = arrR (((cfg4.win 2).blk t).view.emb j) k := by
    funext a; apply Fin.ext
    match a with
    | ⟨0, _⟩ => show win4_1.index t (0 : Fin 2) * 128 + 1 * k.val = k.val; omega
    | ⟨1, _⟩ => show win4_1.index t (1 : Fin 2) * 128 + 1 * (j 1).val = win4_2.index t (1 : Fin 2) * 128 + 1 * (j 1).val; omega
  rw [h0, h1]

/-! ## (4) The blocks cover the array -/

/-- An index of the array is in point `t`'s block iff each coordinate is in the block's range on its axis. -/
theorem mem_blk (t : Fin cfg4.N) (i : S12000x128.Idx) :
    i ∈ ((cfg4.win 2).blk t).view.set ↔ ∀ a : Fin 2, win4_2.index t a * S1200x128.size a ≤ (i a).val ∧ (i a).val < win4_2.index t a * S1200x128.size a + S1200x128.size a := by
  show i ∈ ((View.whole main_v84).slice (win4_2.rect t)).set ↔ _
  rw [View.set_slice_whole, Rect.mem_set_unit]
  exact Iff.rfl

/-- Row `r` lies in the block of point `r / 1200`, which writes back. -/
theorem cover (i : S12000x128.Idx) : ∃ t : Fin cfg4.N, (cfg4.win 2).flush t = true ∧ i ∈ ((cfg4.win 2).blk t).view.set := by
  have hi0 : (i 0).val < 12000 := (i 0).isLt
  have hi1 : (i 1).val < 128 := (i 1).isLt
  have ht : (i 0).val / 1200 < cfg4.N := by show (i 0).val / 1200 < 10; omega
  obtain ⟨e0, e1, e2, e3, e4, e5⟩ := idx_facts ⟨(i 0).val / 1200, ht⟩
  have e4' : win4_2.index ⟨(i 0).val / 1200, ht⟩ (0 : Fin 2) = (i 0).val / 1200 := e4
  refine ⟨⟨(i 0).val / 1200, ht⟩, flush4_2 _, ?_⟩
  rw [mem_blk]
  intro a
  match a with
  | ⟨0, _⟩ => show win4_2.index ⟨(i 0).val / 1200, ht⟩ (0 : Fin 2) * 1200 ≤ (i 0).val ∧ (i 0).val < win4_2.index ⟨(i 0).val / 1200, ht⟩ (0 : Fin 2) * 1200 + 1200; omega
  | ⟨1, _⟩ => show win4_2.index ⟨(i 0).val / 1200, ht⟩ (1 : Fin 2) * 128 ≤ (i 1).val ∧ (i 1).val < win4_2.index ⟨(i 0).val / 1200, ht⟩ (1 : Fin 2) * 128 + 128; omega

end Xw4

/-! ## The array after the region -/

/-- After region 4 its output array holds the reference's `dot_general` of the two operand arrays as the region
    finds them: every point writes its block of the whole product (3), the blocks cover the array (4), and the whole
    product is the reference's (2). -/
theorem xw4 (V : (c : Dev nD) → (b : Ref sig .tc) → Buf (Elt Ideal) ((c : Thread nD τ).loc b)) (c : Dev nD) :
    (dat4 (F := Ideal) V c).arrAt 2 cfg4.N
      = Host.dotGeneral (F := Ideal) (φ₁ := .f32) (φ₂ := .f32) Cert.ReferenceIdeal.dot_S12000x128_S128x128_S12000x128_1_0_0_1_n_n none (V c main_arg0) (V c main_arg14) :=
  ((dat4 (F := Ideal) V c).arrAt_eq_of_cover 2 (Xw4.xwG (V c main_arg0) (V c main_arg14)) (fun t _ => Xw4.flushed_eq V c t) Xw4.cover).trans
    (Xw4.ref_eq (V c main_arg0) (V c main_arg14)).symm

end Cert.KernelIdeal.RegionValue

end
-- ==== Proof.RegionFin5.lean ====
import proofs.«406409_j38250978738663_3_alg».proof.Proof.FrameKI
import proofs.«406409_j38250978738663_3_alg».proof.Proof.Gen.ReferenceIdeal
import proofs.«406409_j38250978738663_3_alg».proof.ReferenceIdeal
import Idealize.ShloMosaic.Lib.Pipeline.Value
import Idealize.ShloMosaic.Lib.ValueIdx
import Idealize.ShloMosaic.Lib.ValueLayout

/-!
# A finalize region as a whole-array operation

The region walks its `[12000, 128]` arrays in blocks of 1200 rows, one block per grid point. At every point the
body adds the aggregate block, the self block and the one bias row (the same `[1, 128]` block at every point,
broadcast down the rows), and takes the maximum with zero. Every operation is pointwise, and the output block at
point `t` is rows `1200 t … 1200 t + 1199`, so the blocks tile the array and the array ends holding
`max (agg + self + bias, 0)` index by index: the function the whole-array operations
`maximumf (addf (addf agg self) (broadcast bias)) (broadcast 0)` compute.
-/

noncomputable section

namespace Cert.KernelIdeal.RegionValue

open Cert.KernelIdeal Cert.KernelIdeal.Gen Cert.KernelIdeal.GenP Idealize.ShloMosaic Idealize.ShloMosaic.TcCoe
open Idealize.ShloMosaic.ValueIdx

namespace Fin5

/-! ## The function the array ends holding -/

/-- The bias row's one index under column `q`. -/
abbrev rowAt (q : Fin 128) : S1x128.Idx := ix2 (0 : Fin 1) q

/-- `max (agg + self + bias row, 0)` over the whole `[12000, 128]` array, as whole-array operations: two sums, the
    bias row broadcast along axis 0, and a maximum against the splat zero. -/
def finG (agg self : Vec Ideal S12000x128 .f32) (bias : Vec Ideal S1x128 .f32) : Vec Ideal S12000x128 .f32 :=
  maximumf
    (addf (addf agg self)
      (broadcastInDim Cert.ReferenceIdeal.S12000x128 ![0, 1] Cert.ReferenceIdeal.Facts₀.bcast_S1x128_S12000x128_0_1 bias))
    (broadcastInDim Cert.ReferenceIdeal.S12000x128 ![] Cert.ReferenceIdeal.Facts₀.bcast_S_S12000x128
      (constant (F := Ideal) Cert.ReferenceIdeal.S_ .f32 0x00000000#32))

/-- At row `r`, column `q` it is the maximum of `agg + self + bias` there (the bias read at column `q` of its one
    row) and the zero word's value: the two sums and the maximum are pointwise, a broadcast along axis 0 forgets
    the row, and a broadcast scalar is the same everywhere. -/
theorem finG_apply (agg self : Vec Ideal S12000x128 .f32) (bias : Vec Ideal S1x128 .f32) (r : Fin 12000) (q : Fin 128) :
    finG agg self bias (ix2 r q)
      = max (agg (ix2 r q) + self (ix2 r q) + bias (rowAt q)) (Ideal.ofBits .f32 0x00000000#32) := by
  unfold finG
  rw [maximumf_apply, addf_apply, addf_apply]
  rw [broadcastInDim_apply ![0, 1] _ bias (ix2 r q) (rowAt q) (fun a => by
        match a with
        | ⟨0, _⟩ => rfl
        | ⟨1, _⟩ => rfl),
      broadcastInDim_apply ![] _ (constant (F := Ideal) Cert.ReferenceIdeal.S_ .f32 0x00000000#32) (ix2 r q) ix0
        (fun a => a.elim0),
      constant_apply]

/-! ## The body's payload at an index -/

/-- The body's stored value at row `p`, column `q` of a block: the three shape casts are to the same shape, so they
    are the identity; the sums and the maximum are pointwise; the `[1, 128]` row broadcast to `[1200, 128]` reads
    column `q` of its one row; the splat scalar is the zero word's value. -/
theorem pay_apply (x0 x1 : Vec Ideal S1200x128 .f32) (x2 : Vec Ideal S1x128 .f32) (p : Fin 1200) (q : Fin 128) :
    k5_pay1 (F := Ideal) x0 x1 x2 (ix2 p q)
      = max (x0 (ix2 p q) + x1 (ix2 p q) + x2 (rowAt q)) (Ideal.ofBits .f32 0x00000000#32) := by
  unfold k5_pay1
  rw [shapeCast_self, shapeCast_self, shapeCast_self, maximumf_apply, addf_apply, addf_apply, broadcast_apply,
    broadcastTo_1b_ab_apply]
  rfl

/-! ## From blocks to the array -/

/-- The zero offsets of a whole-buffer load or store, as a constant function. -/
theorem zero_offsets : (![0, 0] : Fin 2 → Nat) = fun _ => 0 :=
  funext fun a => by
    match a with
    | ⟨0, _⟩ => rfl
    | ⟨1, _⟩ => rfl

/-- The index maps, decided over the grid: the aggregate, self and output windows are at block row `t`, block
    column 0; the bias window is at block (0, 0) at every point. -/
theorem index_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

variable (V : (c : Dev nD) → (b : Ref sig .tc) → Buf (Elt Ideal) ((c : Thread nD τ).loc b))

/-- What point `t` writes back is block `t` of `finG` of the three arrays as the region finds them: the block's
    element (p, q) sits in the array at row `1200 t + p`, column `q` (a block coordinate is index × size + 1 × the
    coordinate inside the block); the aggregate and self blocks are read at that same place, and the bias block is
    the whole bias row. -/
theorem flushed_eq (c : Dev nD) (t : Fin cfg5.N) :
    (dat5 (F := Ideal) V c).flushed 3 t
      = ((cfg5.win 3).blk t).view.read (Elt Ideal) (finG (V c main_v113) (V c main_v117) (V c main_v118)) := by
  show (cfg5.win 3).cut (grid5.coords t) ((dat5 V c).after 3 t) = _
  rw [after5_3]
  unfold out5_3
  rw [View.canon_unit_zero zero_offsets]
  simp only [View.ld_unit_zero (S := S1200x128) zero_offsets, View.ld_unit_zero (S := S1x128) zero_offsets]
  obtain ⟨e00, e01, e10, e11, e20, e21, e30, e31⟩ := index_facts t
  have hN : t.val < 10 := Nat.lt_of_lt_of_eq t.isLt N_5
  funext j
  obtain ⟨p, q, rfl⟩ : ∃ (p : Fin 1200) (q : Fin 128), j = ix2 p q := ⟨j 0, j 1, eq_ix2 j⟩
  have hp : p.val < 1200 := p.isLt
  show k5_pay1 (F := Ideal) (iblk5 V c 0 t) (iblk5 V c 1 t) (iblk5 V c 2 t) (ix2 p q)
      = finG (V c main_v113) (V c main_v117) (V c main_v118) (((cfg5.win 3).blk t).view.emb (ix2 p q))
  have hemb : ((cfg5.win 3).blk t).view.emb (ix2 p q) = ix2 (⟨t.val * 1200 + p.val, by omega⟩ : Fin 12000) q := by
    funext a; apply Fin.ext
    match a with
    | ⟨0, _⟩ => show win5_3.index t (0 : Fin 2) * 1200 + 1 * p.val = t.val * 1200 + p.val; omega
    | ⟨1, _⟩ => show win5_3.index t (1 : Fin 2) * 128 + 1 * q.val = q.val; omega
  rw [hemb, finG_apply]
  refine (pay_apply _ _ _ p q).trans ?_
  have h0 : iblk5 V c 0 t (ix2 p q) = V c main_v113 (ix2 (⟨t.val * 1200 + p.val, by omega⟩ : Fin 12000) q) := by
    show V c main_v113 (((cfg5.win 0).blk t).view.emb (ix2 p q)) = _
    refine congrArg _ (funext fun a => Fin.ext ?_)
    match a with
    | ⟨0, _⟩ => show win5_0.index t (0 : Fin 2) * 1200 + 1 * p.val = t.val * 1200 + p.val; omega
    | ⟨1, _⟩ => show win5_0.index t (1 : Fin 2) * 128 + 1 * q.val = q.val; omega
  have h1 : iblk5 V c 1 t (ix2 p q) = V c main_v117 (ix2 (⟨t.val * 1200 + p.val, by omega⟩ : Fin 12000) q) := by
    show V c main_v117 (((cfg5.win 1).blk t).view.emb (ix2 p q)) = _
    refine congrArg _ (funext fun a => Fin.ext ?_)
    match a with
    | ⟨0, _⟩ => show win5_1.index t (0 : Fin 2) * 1200 + 1 * p.val = t.val * 1200 + p.val; omega
    | ⟨1, _⟩ => show win5_1.index t (1 : Fin 2) * 128 + 1 * q.val = q.val; omega
  have h2 : iblk5 V c 2 t (rowAt q) = V c main_v118 (rowAt q) := by
    show V c main_v118 (((cfg5.win 2).blk t).view.emb (rowAt q)) = _
    refine congrArg _ (funext fun a => Fin.ext ?_)
    match a with
    | ⟨0, _⟩ => show win5_2.index t (0 : Fin 2) * 1 + 1 * 0 = 0; omega
    | ⟨1, _⟩ => show win5_2.index t (1 : Fin 2) * 128 + 1 * q.val = q.val; omega
  rw [h0, h1, h2]

/-- Row `r` of the array lies in the block of point `r / 1200`, and every point writes its block back: the blocks
    cover the array. -/
theorem cover (i : S12000x128.Idx) :
    ∃ t : Fin cfg5.N, (cfg5.win 3).flush t = true ∧ i ∈ ((cfg5.win 3).blk t).view.set := by
  have hi0 : (i 0).val < 12000 := (i 0).isLt
  have hi1 : (i 1).val < 128 := (i 1).isLt
  have ht : (i 0).val / 1200 < cfg5.N := by rw [show cfg5.N = 10 from N_5]; omega
  obtain ⟨-, -, -, -, -, -, e30, e31⟩ := index_facts ⟨(i 0).val / 1200, ht⟩
  refine ⟨⟨(i 0).val / 1200, ht⟩, flush5_3 _, ?_⟩
  show i ∈ ((View.whole main_v119).slice (win5_3.rect ⟨(i 0).val / 1200, ht⟩)).set
  rw [View.set_slice_whole, Rect.mem_set_unit]
  intro a
  match a with
  | ⟨0, _⟩ =>
    show win5_3.index ⟨(i 0).val / 1200, ht⟩ (0 : Fin 2) * 1200 ≤ (i 0).val
      ∧ (i 0).val < win5_3.index ⟨(i 0).val / 1200, ht⟩ (0 : Fin 2) * 1200 + 1200
    rw [e30]
    show (i 0).val / 1200 * 1200 ≤ (i 0).val ∧ (i 0).val < (i 0).val / 1200 * 1200 + 1200
    omega
  | ⟨1, _⟩ =>
    show win5_3.index ⟨(i 0).val / 1200, ht⟩ (1 : Fin 2) * 128 ≤ (i 1).val
      ∧ (i 1).val < win5_3.index ⟨(i 0).val / 1200, ht⟩ (1 : Fin 2) * 128 + 128
    rw [e31]
    omega

/-- The array after the region is `finG` of the three arrays as the region finds them: every block written back is
    a block of `finG`, and the blocks cover the array. -/
theorem array_eq (c : Dev nD) :
    (dat5 (F := Ideal) V c).arrAt 3 cfg5.N = finG (V c main_v113) (V c main_v117) (V c main_v118) :=
  (dat5 (F := Ideal) V c).arrAt_eq_of_cover 3 (finG (V c main_v113) (V c main_v117) (V c main_v118))
    (fun t _ => flushed_eq V c t) cover

end Fin5

/-- The finalize region computes `max (agg + self + bias, 0)` as whole-array operations on the arrays it finds. -/
theorem fin5 (V : (c : Dev nD) → (b : Ref sig .tc) → Buf (Elt Ideal) ((c : Thread nD τ).loc b)) (c : Dev nD) :
    (dat5 (F := Ideal) V c).arrAt 3 cfg5.N
      = maximumf
          (addf (addf (V c main_v113) (V c main_v117))
            (broadcastInDim Cert.ReferenceIdeal.S12000x128 ![0, 1] Cert.ReferenceIdeal.Facts₀.bcast_S1x128_S12000x128_0_1
              (V c main_v118)))
          (broadcastInDim Cert.ReferenceIdeal.S12000x128 ![] Cert.ReferenceIdeal.Facts₀.bcast_S_S12000x128
            (constant (F := Ideal) Cert.ReferenceIdeal.S_ .f32 0x00000000#32)) :=
  Fin5.array_eq V c

end Cert.KernelIdeal.RegionValue
-- ==== Proof.LayerK2.lean ====
/-
  Layer 2 of the kernel's program, read off the boundary contents: what the finalize region leaves in its output
  array is the layer function (kernel's form) of the arrays the layer's first boundary holds. The product `x · W` is
  the xw region's array; the edge rows are slices of the edge list taken by the host stretch before that region; the
  normalisation, the fill-gather, the scatter-add and the self term are the three host stretches between the two
  regions; the last line is the finalize region.
-/
import proofs.«406409_j38250978738663_3_alg».proof.Proof.FrameKI
import proofs.«406409_j38250978738663_3_alg».proof.Proof.Spec
import proofs.«406409_j38250978738663_3_alg».proof.Proof.RegionXw4
import proofs.«406409_j38250978738663_3_alg».proof.Proof.RegionFin5
import Idealize.ShloMosaic.Lib.StableHlo.Run

set_option maxRecDepth 16384

noncomputable section

namespace Cert.KernelIdeal.LayerValue

open Cert.KernelIdeal Cert.KernelIdeal.Gen Cert.KernelIdeal.GenP Idealize.ShloMosaic Idealize.ShloMosaic.TcCoe Idealize.ShloMosaic.StableHlo Cert.Spec

variable (m : (ℓ : Loc nD τ sig) → Buf (Elt Ideal) ℓ) (ρ : Dev nD → PrngReg) (c : Dev nD)

/-- The host stretch before the xw region only slices the edge list: every buffer it does not write is as entered. -/
theorem pre2_x : V13 (F := Ideal) m ρ c main_arg0 = W12 m ρ c (Proc.devRef .tc main_arg0) := by
  show StableHlo.after hostOps4 (W12 m ρ c) (Proc.devRef .tc main_arg0) = _
  after_results_simp
theorem pre2_W : V13 (F := Ideal) m ρ c main_arg14 = W12 m ρ c (Proc.devRef .tc main_arg14) := by
  show StableHlo.after hostOps4 (W12 m ρ c) (Proc.devRef .tc main_arg14) = _
  after_results_simp
theorem pre2_w : W13 (F := Ideal) m ρ c (Proc.devRef .tc main_arg5) = W12 m ρ c (Proc.devRef .tc main_arg5) := by
  show StableHlo.after hostOps4 (W12 m ρ c) (Proc.devRef .tc main_arg5) = _
  after_results_simp
theorem pre2_b : W13 (F := Ideal) m ρ c (Proc.devRef .tc main_arg15) = W12 m ρ c (Proc.devRef .tc main_arg15) := by
  show StableHlo.after hostOps4 (W12 m ρ c) (Proc.devRef .tc main_arg15) = _
  after_results_simp
/-- and what it writes are the two rows of the edge list. -/
theorem pre2_row : W13 (F := Ideal) m ρ c (Proc.devRef .tc main_v81) = rowMI (W12 m ρ c (Proc.devRef .tc main_arg4)) := by
  show StableHlo.after hostOps4 (W12 m ρ c) (Proc.devRef .tc main_v81) = _
  after_results_simp
  rfl
theorem pre2_col : W13 (F := Ideal) m ρ c (Proc.devRef .tc main_v83) = colMI (W12 m ρ c (Proc.devRef .tc main_arg4)) := by
  show StableHlo.after hostOps4 (W12 m ρ c) (Proc.devRef .tc main_v83) = _
  after_results_simp
  rfl

set_option maxHeartbeats 4000000 in
/-- The xw region's array is `x · W` of the entry arrays. -/
theorem xw2_val : W14 (F := Ideal) m ρ c (Proc.devRef .tc main_v84)
    = xwMI (W12 m ρ c (Proc.devRef .tc main_arg0)) (W12 m ρ c (Proc.devRef .tc main_arg14)) := by
  refine (W14_arr m ρ c 2).trans ?_
  rw [RegionValue.xw4 (V13 m ρ) c, pre2_x, pre2_W]
  rfl

/-- Past the xw region the other buffers are as the first stretch left them. -/
theorem mid2_row : W14 (F := Ideal) m ρ c (Proc.devRef .tc main_v81) = rowMI (W12 m ρ c (Proc.devRef .tc main_arg4)) :=
  (W14_of_ne m ρ c main_v81 (by decide)).trans (pre2_row m ρ c)
theorem mid2_col : W14 (F := Ideal) m ρ c (Proc.devRef .tc main_v83) = colMI (W12 m ρ c (Proc.devRef .tc main_arg4)) :=
  (W14_of_ne m ρ c main_v83 (by decide)).trans (pre2_col m ρ c)
theorem mid2_w : W14 (F := Ideal) m ρ c (Proc.devRef .tc main_arg5) = W12 m ρ c (Proc.devRef .tc main_arg5) :=
  (W14_of_ne m ρ c main_arg5 (by decide)).trans (pre2_w m ρ c)
theorem mid2_b : W14 (F := Ideal) m ρ c (Proc.devRef .tc main_arg15) = W12 m ρ c (Proc.devRef .tc main_arg15) :=
  (W14_of_ne m ρ c main_arg15 (by decide)).trans (pre2_b m ρ c)

set_option maxHeartbeats 4000000 in
/-- The three stretches between the regions: the aggregation over the fill-gathered rows, -/
theorem agg2_val : V17 (F := Ideal) m ρ c main_v113
    = aggMI (W12 m ρ c (Proc.devRef .tc main_arg4)) (W12 m ρ c (Proc.devRef .tc main_arg5))
        (takeMI (xwMI (W12 m ρ c (Proc.devRef .tc main_arg0)) (W12 m ρ c (Proc.devRef .tc main_arg14))) (rowMI (W12 m ρ c (Proc.devRef .tc main_arg4)))) := by
  show StableHlo.after hostOps5_2 (StableHlo.after hostOps5_1 (StableHlo.after hostOps5 (W14 m ρ c))) (Proc.devRef .tc main_v113) = _
  after_results_simp
  simp only [TRef.ofBuf, TRef.toBuf, cast_eq]
  rw [xw2_val, mid2_row, mid2_col, mid2_w]
  rfl
set_option maxHeartbeats 4000000 in
/-- the self term, -/
theorem self2_val : V17 (F := Ideal) m ρ c main_v117
    = selfMI (W12 m ρ c (Proc.devRef .tc main_arg4)) (W12 m ρ c (Proc.devRef .tc main_arg5))
        (xwMI (W12 m ρ c (Proc.devRef .tc main_arg0)) (W12 m ρ c (Proc.devRef .tc main_arg14))) := by
  show StableHlo.after hostOps5_2 (StableHlo.after hostOps5_1 (StableHlo.after hostOps5 (W14 m ρ c))) (Proc.devRef .tc main_v117) = _
  after_results_simp
  rw [xw2_val, mid2_col, mid2_w]
  rfl
set_option maxHeartbeats 4000000 in
/-- and the bias as a row. -/
theorem bias2_val : V17 (F := Ideal) m ρ c main_v118 = rowK (W12 m ρ c (Proc.devRef .tc main_arg15)) := by
  show StableHlo.after hostOps5_2 (StableHlo.after hostOps5_1 (StableHlo.after hostOps5 (W14 m ρ c))) (Proc.devRef .tc main_v118) = _
  after_results_simp
  rw [mid2_b]
  rfl

set_option maxHeartbeats 4000000 in
/-- THE LAYER: the finalize region's output array is the layer function of the entry arrays. -/
theorem layer2 : W18 (F := Ideal) m ρ c (Proc.devRef .tc main_v119)
    = layerKMI (xwMI (W12 m ρ c (Proc.devRef .tc main_arg0)) (W12 m ρ c (Proc.devRef .tc main_arg14)))
        (W12 m ρ c (Proc.devRef .tc main_arg15)) (W12 m ρ c (Proc.devRef .tc main_arg4)) (W12 m ρ c (Proc.devRef .tc main_arg5)) := by
  refine (W18_arr m ρ c 3).trans ?_
  rw [RegionValue.fin5 (V17 m ρ) c, agg2_val, self2_val, bias2_val]
  rfl

end Cert.KernelIdeal.LayerValue

end
-- ==== Proof.RegionXw6.lean ====
/- Region 6 (x · W, one 1200-row block of x per grid point against the whole 128 × 128 matrix W): after the region
   its output array holds the reference's `dot_general` of the two operand arrays.

   The mathematics, in four steps.
   (1) The body's payload is one matrix product into a zero accumulator, so entry (p, q) of the block it stores is
       the sum over k of x_blk(p, k) · W(k, q).
   (2) The reference's `dot_general` of the whole arrays has entry (r, q) equal to the sum over k of x(r, k) · W(k, q).
   (3) Grid point t reads rows 1200·t … 1200·t + 1199 of x and all of W, and writes the same rows of the output:
       entry (p, q) of its block is entry (1200·t + p, q) of the whole product, because a block coordinate is
       index × size + 1 × the coordinate inside the block.
   (4) Row r lies in the block of point r / 1200, so the blocks cover the array and it ends holding the whole product. -/
import proofs.«406409_j38250978738663_3_alg».proof.Proof.FrameKI
import proofs.«406409_j38250978738663_3_alg».proof.ReferenceIdeal
import proofs.«406409_j38250978738663_3_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Cert.KernelIdeal Cert.KernelIdeal.Gen Cert.KernelIdeal.GenP Idealize.ShloMosaic Idealize.ShloMosaic.TcCoe
open scoped BigOperators

namespace Xw6

/-! ## (1) The block product at an index -/

/-- The operand indices of the block product at output index `j` = (p, q) and contraction coordinate `k`:
    (p, k) in the block of x and (k, q) in W. -/
abbrev blkL (j : S1200x128.Idx) (k : Fin 128) : S1200x128.Idx := fun a => match a with
  | ⟨0, _⟩ => ⟨(j 0).val, (j 0).isLt⟩
  | ⟨1, _⟩ => ⟨k.val, k.isLt⟩
abbrev blkR (j : S1200x128.Idx) (k : Fin 128) : S128x128.Idx := fun a => match a with
  | ⟨0, _⟩ => ⟨k.val, k.isLt⟩
  | ⟨1, _⟩ => ⟨(j 1).val, (j 1).isLt⟩

/-- The product's dimension numbers contract axis 1 of the left operand with axis 0 of the right one: the left
    operand's index keeps the output's row and takes the contraction coordinate as its column, -/
theorem kdot_lhs0 (i : S1200x128.Idx) (q : dot_S1200x128_S128x128_S1200x128_1_0_0_1_n_n.contr.Idx) :
    (dot_S1200x128_S128x128_S1200x128_1_0_0_1_n_n.lhsIdx i q 0).val = (i 0).val := by
  unfold DotDims.lhsIdx
  rw [dif_neg (show ¬(0 : Fin S1200x128.rank) ∈ dot_S1200x128_S128x128_S1200x128_1_0_0_1_n_n.lhsBatch by decide), dif_pos (show (0 : Fin S1200x128.rank) ∈ dot_S1200x128_S128x128_S1200x128_1_0_0_1_n_n.lhsNonContracting by decide)]
  rfl
theorem kdot_lhs1 (i : S1200x128.Idx) (q : dot_S1200x128_S128x128_S1200x128_1_0_0_1_n_n.contr.Idx) :
    (dot_S1200x128_S128x128_S1200x128_1_0_0_1_n_n.lhsIdx i q 1).val = (q ⟨0, by decide⟩).val :=
  dot_S1200x128_S128x128_S1200x128_1_0_0_1_n_n.lhsIdx_val_of_single rfl i q
/-- and the right operand's takes the contraction coordinate as its row and keeps the output's column. -/
theorem kdot_rhs0 (i : S1200x128.Idx) (q : dot_S1200x128_S128x128_S1200x128_1_0_0_1_n_n.contr.Idx) :
    (dot_S1200x128_S128x128_S1200x128_1_0_0_1_n_n.rhsIdx i q 0).val = (q ⟨0, by decide⟩).val :=
  dot_S1200x128_S128x128_S1200x128_1_0_0_1_n_n.rhsIdx_val_of_single rfl i q
theorem kdot_rhs1 (i : S1200x128.Idx) (q : dot_S1200x128_S128x128_S1200x128_1_0_0_1_n_n.contr.Idx) :
    (dot_S1200x128_S128x128_S1200x128_1_0_0_1_n_n.rhsIdx i q 1).val = (i 1).val := by
  unfold DotDims.rhsIdx
  rw [dif_neg (show ¬(1 : Fin S128x128.rank) ∈ dot_S1200x128_S128x128_S1200x128_1_0_0_1_n_n.rhsBatch by decide), dif_pos (show (1 : Fin S128x128.rank) ∈ dot_S1200x128_S128x128_S1200x128_1_0_0_1_n_n.rhsNonContracting by decide)]
  rfl

/-- The payload at an index: a matrix product into the zero accumulator is the bare sum of products (an identity
    reshape of the left operand, where the body has one, changes nothing), re-indexed from the one-axis contraction
    index to its coordinate. -/
theorem pay_apply (x0 : Vec Ideal S1200x128 .f32) (x1 : Vec Ideal S128x128 .f32) (j : S1200x128.Idx) :
    k6_pay1 (F := Ideal) x0 x1 j = ∑ k : Fin 128, x0 (blkL j k) * x1 (blkR j k) := by
  unfold k6_pay1
  simp only [matmul, shapeCast_self]
  rw [Ideal.matmul_constant_zero_apply, ← Equiv.sum_comp (ValueIdx.contrEquiv1 dot_S1200x128_S128x128_S1200x128_1_0_0_1_n_n 128 rfl rfl).symm]
  refine Finset.sum_congr rfl fun k _ => ?_
  have hk := ValueIdx.contrEquiv1_symm_val dot_S1200x128_S128x128_S1200x128_1_0_0_1_n_n 128 rfl rfl k
  have el : dot_S1200x128_S128x128_S1200x128_1_0_0_1_n_n.lhsIdx j ((ValueIdx.contrEquiv1 dot_S1200x128_S128x128_S1200x128_1_0_0_1_n_n 128 rfl rfl).symm k) = blkL j k := funext fun a => Fin.ext (by
    match a with
    | ⟨0, _⟩ => exact kdot_lhs0 _ _
    | ⟨1, _⟩ => exact (kdot_lhs1 _ _).trans hk)
  have er : dot_S1200x128_S128x128_S1200x128_1_0_0_1_n_n.rhsIdx j ((ValueIdx.contrEquiv1 dot_S1200x128_S128x128_S1200x128_1_0_0_1_n_n 128 rfl rfl).symm k) = blkR j k := funext fun a => Fin.ext (by
    match a with
    | ⟨0, _⟩ => exact (kdot_rhs0 _ _).trans hk
    | ⟨1, _⟩ => exact kdot_rhs1 _ _)
  rw [el, er]

/-! ## (2) The whole-array product, and the reference's `dot_general` as that product -/

/-- The operand indices of the whole-array product at output index `i` = (r, q) and contraction coordinate `k`:
    (r, k) in x and (k, q) in W. -/
abbrev arrL (i : S12000x128.Idx) (k : Fin 128) : S12000x128.Idx := fun a => match a with
  | ⟨0, _⟩ => ⟨(i 0).val, (i 0).isLt⟩
  | ⟨1, _⟩ => ⟨k.val, k.isLt⟩
abbrev arrR (i : S12000x128.Idx) (k : Fin 128) : S128x128.Idx := fun a => match a with
  | ⟨0, _⟩ => ⟨k.val, k.isLt⟩
  | ⟨1, _⟩ => ⟨(i 1).val, (i 1).isLt⟩

/-- The whole-array product x · W: entry (r, q) is the sum over k of x(r, k) · W(k, q). -/
def xwG (X : Vec Ideal S12000x128 .f32) (W : Vec Ideal S128x128 .f32) : Vec Ideal S12000x128 .f32 :=
  fun i => ∑ k : Fin 128, X (arrL i k) * W (arrR i k)

/-- The reference's dimension numbers are the same contraction, on the whole arrays. -/
theorem rdot_lhs0 (i : S12000x128.Idx) (q : Cert.ReferenceIdeal.dot_S12000x128_S128x128_S12000x128_1_0_0_1_n_n.contr.Idx) :
    (Cert.ReferenceIdeal.dot_S12000x128_S128x128_S12000x128_1_0_0_1_n_n.lhsIdx i q 0).val = (i 0).val := by
  unfold DotDims.lhsIdx
  rw [dif_neg (show ¬(0 : Fin S12000x128.rank) ∈ Cert.ReferenceIdeal.dot_S12000x128_S128x128_S12000x128_1_0_0_1_n_n.lhsBatch by decide), dif_pos (show (0 : Fin S12000x128.rank) ∈ Cert.ReferenceIdeal.dot_S12000x128_S128x128_S12000x128_1_0_0_1_n_n.lhsNonContracting by decide)]
  rfl
theorem rdot_lhs1 (i : S12000x128.Idx) (q : Cert.ReferenceIdeal.dot_S12000x128_S128x128_S12000x128_1_0_0_1_n_n.contr.Idx) :
    (Cert.ReferenceIdeal.dot_S12000x128_S128x128_S12000x128_1_0_0_1_n_n.lhsIdx i q 1).val = (q ⟨0, by decide⟩).val :=
  Cert.ReferenceIdeal.dot_S12000x128_S128x128_S12000x128_1_0_0_1_n_n.lhsIdx_val_of_single rfl i q
theorem rdot_rhs0 (i : S12000x128.Idx) (q : Cert.ReferenceIdeal.dot_S12000x128_S128x128_S12000x128_1_0_0_1_n_n.contr.Idx) :
    (Cert.ReferenceIdeal.dot_S12000x128_S128x128_S12000x128_1_0_0_1_n_n.rhsIdx i q 0).val = (q ⟨0, by decide⟩).val :=
  Cert.ReferenceIdeal.dot_S12000x128_S128x128_S12000x128_1_0_0_1_n_n.rhsIdx_val_of_single rfl i q
theorem rdot_rhs1 (i : S12000x128.Idx) (q : Cert.ReferenceIdeal.dot_S12000x128_S128x128_S12000x128_1_0_0_1_n_n.contr.Idx) :
    (Cert.ReferenceIdeal.dot_S12000x128_S128x128_S12000x128_1_0_0_1_n_n.rhsIdx i q 1).val = (i 1).val := by
  unfold DotDims.rhsIdx
  rw [dif_neg (show ¬(1 : Fin S128x128.rank) ∈ Cert.ReferenceIdeal.dot_S12000x128_S128x128_S12000x128_1_0_0_1_n_n.rhsBatch by decide), dif_pos (show (1 : Fin S128x128.rank) ∈ Cert.ReferenceIdeal.dot_S12000x128_S128x128_S12000x128_1_0_0_1_n_n.rhsNonContracting by decide)]
  rfl

/-- The reference's `dot_general` of the two arrays is that product, index by index: at the ideal values it is the
    bare sum over the contraction index, re-indexed to the contraction coordinate. -/
theorem ref_eq (X : Vec Ideal S12000x128 .f32) (W : Vec Ideal S128x128 .f32) :
    Host.dotGeneral (F := Ideal) (φ₁ := .f32) (φ₂ := .f32) Cert.ReferenceIdeal.dot_S12000x128_S128x128_S12000x128_1_0_0_1_n_n none X W = xwG X W := by
  funext i
  simp only [Host.dotGeneral]
  rw [Ideal.dotGeneral_apply, ← Equiv.sum_comp (ValueIdx.contrEquiv1 Cert.ReferenceIdeal.dot_S12000x128_S128x128_S12000x128_1_0_0_1_n_n 128 rfl rfl).symm]
  unfold xwG
  refine Finset.sum_congr rfl fun k _ => ?_
  have hk := ValueIdx.contrEquiv1_symm_val Cert.ReferenceIdeal.dot_S12000x128_S128x128_S12000x128_1_0_0_1_n_n 128 rfl rfl k
  have el : Cert.ReferenceIdeal.dot_S12000x128_S128x128_S12000x128_1_0_0_1_n_n.lhsIdx i ((ValueIdx.contrEquiv1 Cert.ReferenceIdeal.dot_S12000x128_S128x128_S12000x128_1_0_0_1_n_n 128 rfl rfl).symm k) = arrL i k := funext fun a => Fin.ext (by
    match a with
    | ⟨0, _⟩ => exact rdot_lhs0 _ _
    | ⟨1, _⟩ => exact (rdot_lhs1 _ _).trans hk)
  have er : Cert.ReferenceIdeal.dot_S12000x128_S128x128_S12000x128_1_0_0_1_n_n.rhsIdx i ((ValueIdx.contrEquiv1 Cert.ReferenceIdeal.dot_S12000x128_S128x128_S12000x128_1_0_0_1_n_n 128 rfl rfl).symm k) = arrR i k := funext fun a => Fin.ext (by
    match a with
    | ⟨0, _⟩ => exact (rdot_rhs0 _ _).trans hk
    | ⟨1, _⟩ => exact rdot_rhs1 _ _)
  rw [el, er]

/-! ## (3) What a grid point writes back is its block of the whole product -/

/-- The two operand arrays as the region finds them, named at their literal vector types (so that products of their
    entries are products of extended reals). -/
abbrev xarr (V : (c : Dev nD) → (b : Ref sig .tc) → Buf (Elt Ideal) ((c : Thread nD τ).loc b)) (c : Dev nD) : Vec Ideal S12000x128 .f32 := V c main_v119
abbrev warr (V : (c : Dev nD) → (b : Ref sig .tc) → Buf (Elt Ideal) ((c : Thread nD τ).loc b)) (c : Dev nD) : Vec Ideal S128x128 .f32 := V c main_arg16

theorem hz : (![0, 0] : Fin 2 → Nat) = fun _ => 0 := funext fun a => by fin_cases a <;> rfl

/-- The index maps, decided over the grid: the block of x moves with the output's block along the rows and sits at
    column block 0; W's one block never moves; the output's block at point `t` is row block `t`, column block 0. -/
theorem idx_facts : ∀ t : Fin cfg6.N, win6_0.index t (0 : Fin 2) = win6_2.index t (0 : Fin 2)
    ∧ win6_0.index t (1 : Fin 2) = 0
    ∧ win6_1.index t (0 : Fin 2) = 0
    ∧ win6_1.index t (1 : Fin 2) = 0
    ∧ win6_2.index t (0 : Fin 2) = t.val
    ∧ win6_2.index t (1 : Fin 2) = 0 :=
  (by decide +kernel : ∀ t : Fin grid6.N, _)

/-- What point `t` writes back is block `t` of the whole product of the operand arrays as the region finds them. -/
theorem flushed_eq (V : (c : Dev nD) → (b : Ref sig .tc) → Buf (Elt Ideal) ((c : Thread nD τ).loc b)) (c : Dev nD) (t : Fin cfg6.N) :
    (dat6 (F := Ideal) V c).flushed 2 t = ((cfg6.win 2).blk t).view.read (Elt Ideal) (xwG (V c main_v119) (V c main_arg16)) := by
  show (cfg6.win 2).cut (grid6.coords t) ((dat6 (F := Ideal) V c).after 2 t) = _
  rw [after6_2]
  unfold out6_2
  rw [View.canon_unit_zero hz]
  simp only [View.ld_unit_zero (S := S1200x128) hz, View.ld_unit_zero (S := S128x128) hz]
  obtain ⟨e0, e1, e2, e3, e4, e5⟩ := idx_facts t
  funext j
  show k6_pay1 (F := Ideal) (iblk6 V c 0 t) (iblk6 V c 1 t) j = xwG (V c main_v119) (V c main_arg16) (((cfg6.win 2).blk t).view.emb j)
  refine (pay_apply (iblk6 V c 0 t) (iblk6 V c 1 t) j).trans ?_
  unfold xwG
  refine Finset.sum_congr rfl fun k _ => ?_
  show xarr V c (((cfg6.win 0).blk t).view.emb (blkL j k)) * warr V c (((cfg6.win 1).blk t).view.emb (blkR j k))
    = xarr V c (arrL (((cfg6.win 2).blk t).view.emb j) k) * warr V c (arrR (((cfg6.win 2).blk t).view.emb j) k)
  -- the block of x, read at (p, k), is x at (1200·t + p, k)
  have h0 : ((cfg6.win 0).blk t).view.emb (blkL j k) = arrL (((cfg6.win 2).blk t).view.emb j) k := by
    funext a; apply Fin.ext
    match a with
    | ⟨0, _⟩ => show win6_0.index t (0 : Fin 2) * 1200 + 1 * (j 0).val = win6_2.index t (0 : Fin 2) * 1200 + 1 * (j 0).val; omega
    | ⟨1, _⟩ => show win6_0.index t (1 : Fin 2) * 128 + 1 * k.val = k.val; omega
  -- W's block, read at (k, q), is W at (k, q)
  have h1 : ((cfg6.win 1).blk t).view.emb (blkR j k) = arrR (((cfg6.win 2).blk t).view.emb j) k := by
    funext a; apply Fin.ext
    match a with
    | ⟨0, _⟩ => show win6_1.index t (0 : Fin 2) * 128 + 1 * k.val = k.val; omega
    | ⟨1, _⟩ => show win6_1.index t (1 : Fin 2) * 128 + 1 * (j 1).val = win6_2.index t (1 : Fin 2) * 128 + 1 * (j 1).val; omega
  rw [h0, h1]

/-! ## (4) The blocks cover the array -/

/-- An index of the array is in point `t`'s block iff each coordinate is in the block's range on its axis. -/
theorem mem_blk (t : Fin cfg6.N) (i : S12000x128.Idx) :
    i ∈ ((cfg6.win 2).blk t).view.set ↔ ∀ a : Fin 2, win6_2.index t a * S1200x128.size a ≤ (i a).val ∧ (i a).val < win6_2.index t a * S1200x128.size a + S1200x128.size a := by
  show i ∈ ((View.whole main_v124).slice (win6_2.rect t)).set ↔ _
  rw [View.set_slice_whole, Rect.mem_set_unit]
  exact Iff.rfl

/-- Row `r` lies in the block of point `r / 1200`, which writes back. -/
theorem cover (i : S12000x128.Idx) : ∃ t : Fin cfg6.N, (cfg6.win 2).flush t = true ∧ i ∈ ((cfg6.win 2).blk t).view.set := by
  have hi0 : (i 0).val < 12000 := (i 0).isLt
  have hi1 : (i 1).val < 128 := (i 1).isLt
  have ht : (i 0).val / 1200 < cfg6.N := by show (i 0).val / 1200 < 10; omega
  obtain ⟨e0, e1, e2, e3, e4, e5⟩ := idx_facts ⟨(i 0).val / 1200, ht⟩
  have e4' : win6_2.index ⟨(i 0).val / 1200, ht⟩ (0 : Fin 2) = (i 0).val / 1200 := e4
  refine ⟨⟨(i 0).val / 1200, ht⟩, flush6_2 _, ?_⟩
  rw [mem_blk]
  intro a
  match a with
  | ⟨0, _⟩ => show win6_2.index ⟨(i 0).val / 1200, ht⟩ (0 : Fin 2) * 1200 ≤ (i 0).val ∧ (i 0).val < win6_2.index ⟨(i 0).val / 1200, ht⟩ (0 : Fin 2) * 1200 + 1200; omega
  | ⟨1, _⟩ => show win6_2.index ⟨(i 0).val / 1200, ht⟩ (1 : Fin 2) * 128 ≤ (i 1).val ∧ (i 1).val < win6_2.index ⟨(i 0).val / 1200, ht⟩ (1 : Fin 2) * 128 + 128; omega

end Xw6

/-! ## The array after the region -/

/-- After region 6 its output array holds the reference's `dot_general` of the two operand arrays as the region
    finds them: every point writes its block of the whole product (3), the blocks cover the array (4), and the whole
    product is the reference's (2). -/
theorem xw6 (V : (c : Dev nD) → (b : Ref sig .tc) → Buf (Elt Ideal) ((c : Thread nD τ).loc b)) (c : Dev nD) :
    (dat6 (F := Ideal) V c).arrAt 2 cfg6.N
      = Host.dotGeneral (F := Ideal) (φ₁ := .f32) (φ₂ := .f32) Cert.ReferenceIdeal.dot_S12000x128_S128x128_S12000x128_1_0_0_1_n_n none (V c main_v119) (V c main_arg16) :=
  ((dat6 (F := Ideal) V c).arrAt_eq_of_cover 2 (Xw6.xwG (V c main_v119) (V c main_arg16)) (fun t _ => Xw6.flushed_eq V c t) Xw6.cover).trans
    (Xw6.ref_eq (V c main_v119) (V c main_arg16)).symm

end Cert.KernelIdeal.RegionValue

end
-- ==== Proof.RegionFin7.lean ====
import proofs.«406409_j38250978738663_3_alg».proof.Proof.FrameKI
import proofs.«406409_j38250978738663_3_alg».proof.Proof.Gen.ReferenceIdeal
import proofs.«406409_j38250978738663_3_alg».proof.ReferenceIdeal
import Idealize.ShloMosaic.Lib.Pipeline.Value
import Idealize.ShloMosaic.Lib.ValueIdx
import Idealize.ShloMosaic.Lib.ValueLayout

/-!
# A finalize region as a whole-array operation

The region walks its `[12000, 128]` arrays in blocks of 1200 rows, one block per grid point. At every point the
body adds the aggregate block, the self block and the one bias row (the same `[1, 128]` block at every point,
broadcast down the rows), and takes the maximum with zero. Every operation is pointwise, and the output block at
point `t` is rows `1200 t … 1200 t + 1199`, so the blocks tile the array and the array ends holding
`max (agg + self + bias, 0)` index by index: the function the whole-array operations
`maximumf (addf (addf agg self) (broadcast bias)) (broadcast 0)` compute.
-/

noncomputable section

namespace Cert.KernelIdeal.RegionValue

open Cert.KernelIdeal Cert.KernelIdeal.Gen Cert.KernelIdeal.GenP Idealize.ShloMosaic Idealize.ShloMosaic.TcCoe
open Idealize.ShloMosaic.ValueIdx

namespace Fin7

/-! ## The function the array ends holding -/

/-- The bias row's one index under column `q`. -/
abbrev rowAt (q : Fin 128) : S1x128.Idx := ix2 (0 : Fin 1) q

/-- `max (agg + self + bias row, 0)` over the whole `[12000, 128]` array, as whole-array operations: two sums, the
    bias row broadcast along axis 0, and a maximum against the splat zero. -/
def finG (agg self : Vec Ideal S12000x128 .f32) (bias : Vec Ideal S1x128 .f32) : Vec Ideal S12000x128 .f32 :=
  maximumf
    (addf (addf agg self)
      (broadcastInDim Cert.ReferenceIdeal.S12000x128 ![0, 1] Cert.ReferenceIdeal.Facts₀.bcast_S1x128_S12000x128_0_1 bias))
    (broadcastInDim Cert.ReferenceIdeal.S12000x128 ![] Cert.ReferenceIdeal.Facts₀.bcast_S_S12000x128
      (constant (F := Ideal) Cert.ReferenceIdeal.S_ .f32 0x00000000#32))

/-- At row `r`, column `q` it is the maximum of `agg + self + bias` there (the bias read at column `q` of its one
    row) and the zero word's value: the two sums and the maximum are pointwise, a broadcast along axis 0 forgets
    the row, and a broadcast scalar is the same everywhere. -/
theorem finG_apply (agg self : Vec Ideal S12000x128 .f32) (bias : Vec Ideal S1x128 .f32) (r : Fin 12000) (q : Fin 128) :
    finG agg self bias (ix2 r q)
      = max (agg (ix2 r q) + self (ix2 r q) + bias (rowAt q)) (Ideal.ofBits .f32 0x00000000#32) := by
  unfold finG
  rw [maximumf_apply, addf_apply, addf_apply]
  rw [broadcastInDim_apply ![0, 1] _ bias (ix2 r q) (rowAt q) (fun a => by
        match a with
        | ⟨0, _⟩ => rfl
        | ⟨1, _⟩ => rfl),
      broadcastInDim_apply ![] _ (constant (F := Ideal) Cert.ReferenceIdeal.S_ .f32 0x00000000#32) (ix2 r q) ix0
        (fun a => a.elim0),
      constant_apply]

/-! ## The body's payload at an index -/

/-- The body's stored value at row `p`, column `q` of a block: the three shape casts are to the same shape, so they
    are the identity; the sums and the maximum are pointwise; the `[1, 128]` row broadcast to `[1200, 128]` reads
    column `q` of its one row; the splat scalar is the zero word's value. -/
theorem pay_apply (x0 x1 : Vec Ideal S1200x128 .f32) (x2 : Vec Ideal S1x128 .f32) (p : Fin 1200) (q : Fin 128) :
    k7_pay1 (F := Ideal) x0 x1 x2 (ix2 p q)
      = max (x0 (ix2 p q) + x1 (ix2 p q) + x2 (rowAt q)) (Ideal.ofBits .f32 0x00000000#32) := by
  unfold k7_pay1
  rw [shapeCast_self, shapeCast_self, shapeCast_self, maximumf_apply, addf_apply, addf_apply, broadcast_apply,
    broadcastTo_1b_ab_apply]
  rfl

/-! ## From blocks to the array -/

/-- The zero offsets of a whole-buffer load or store, as a constant function. -/
theorem zero_offsets : (![0, 0] : Fin 2 → Nat) = fun _ => 0 :=
  funext fun a => by
    match a with
    | ⟨0, _⟩ => rfl
    | ⟨1, _⟩ => rfl

/-- The index maps, decided over the grid: the aggregate, self and output windows are at block row `t`, block
    column 0; the bias window is at block (0, 0) at every point. -/
theorem index_facts : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

variable (V : (c : Dev nD) → (b : Ref sig .tc) → Buf (Elt Ideal) ((c : Thread nD τ).loc b))

/-- What point `t` writes back is block `t` of `finG` of the three arrays as the region finds them: the block's
    element (p, q) sits in the array at row `1200 t + p`, column `q` (a block coordinate is index × size + 1 × the
    coordinate inside the block); the aggregate and self blocks are read at that same place, and the bias block is
    the whole bias row. -/
theorem flushed_eq (c : Dev nD) (t : Fin cfg7.N) :
    (dat7 (F := Ideal) V c).flushed 3 t
      = ((cfg7.win 3).blk t).view.read (Elt Ideal) (finG (V c main_v153) (V c main_v157) (V c main_v158)) := by
  show (cfg7.win 3).cut (grid7.coords t) ((dat7 V c).after 3 t) = _
  rw [after7_3]
  unfold out7_3
  rw [View.canon_unit_zero zero_offsets]
  simp only [View.ld_unit_zero (S := S1200x128) zero_offsets, View.ld_unit_zero (S := S1x128) zero_offsets]
  obtain ⟨e00, e01, e10, e11, e20, e21, e30, e31⟩ := index_facts t
  have hN : t.val < 10 := Nat.lt_of_lt_of_eq t.isLt N_7
  funext j
  obtain ⟨p, q, rfl⟩ : ∃ (p : Fin 1200) (q : Fin 128), j = ix2 p q := ⟨j 0, j 1, eq_ix2 j⟩
  have hp : p.val < 1200 := p.isLt
  show k7_pay1 (F := Ideal) (iblk7 V c 0 t) (iblk7 V c 1 t) (iblk7 V c 2 t) (ix2 p q)
      = finG (V c main_v153) (V c main_v157) (V c main_v158) (((cfg7.win 3).blk t).view.emb (ix2 p q))
  have hemb : ((cfg7.win 3).blk t).view.emb (ix2 p q) = ix2 (⟨t.val * 1200 + p.val, by omega⟩ : Fin 12000) q := by
    funext a; apply Fin.ext
    match a with
    | ⟨0, _⟩ => show win7_3.index t (0 : Fin 2) * 1200 + 1 * p.val = t.val * 1200 + p.val; omega
    | ⟨1, _⟩ => show win7_3.index t (1 : Fin 2) * 128 + 1 * q.val = q.val; omega
  rw [hemb, finG_apply]
  refine (pay_apply _ _ _ p q).trans ?_
  have h0 : iblk7 V c 0 t (ix2 p q) = V c main_v153 (ix2 (⟨t.val * 1200 + p.val, by omega⟩ : Fin 12000) q) := by
    show V c main_v153 (((cfg7.win 0).blk t).view.emb (ix2 p q)) = _
    refine congrArg _ (funext fun a => Fin.ext ?_)
    match a with
    | ⟨0, _⟩ => show win7_0.index t (0 : Fin 2) * 1200 + 1 * p.val = t.val * 1200 + p.val; omega
    | ⟨1, _⟩ => show win7_0.index t (1 : Fin 2) * 128 + 1 * q.val = q.val; omega
  have h1 : iblk7 V c 1 t (ix2 p q) = V c main_v157 (ix2 (⟨t.val * 1200 + p.val, by omega⟩ : Fin 12000) q) := by
    show V c main_v157 (((cfg7.win 1).blk t).view.emb (ix2 p q)) = _
    refine congrArg _ (funext fun a => Fin.ext ?_)
    match a with
    | ⟨0, _⟩ => show win7_1.index t (0 : Fin 2) * 1200 + 1 * p.val = t.val * 1200 + p.val; omega
    | ⟨1, _⟩ => show win7_1.index t (1 : Fin 2) * 128 + 1 * q.val = q.val; omega
  have h2 : iblk7 V c 2 t (rowAt q) = V c main_v158 (rowAt q) := by
    show V c main_v158 (((cfg7.win 2).blk t).view.emb (rowAt q)) = _
    refine congrArg _ (funext fun a => Fin.ext ?_)
    match a with
    | ⟨0, _⟩ => show win7_2.index t (0 : Fin 2) * 1 + 1 * 0 = 0; omega
    | ⟨1, _⟩ => show win7_2.index t (1 : Fin 2) * 128 + 1 * q.val = q.val; omega
  rw [h0, h1, h2]

/-- Row `r` of the array lies in the block of point `r / 1200`, and every point writes its block back: the blocks
    cover the array. -/
theorem cover (i : S12000x128.Idx) :
    ∃ t : Fin cfg7.N, (cfg7.win 3).flush t = true ∧ i ∈ ((cfg7.win 3).blk t).view.set := by
  have hi0 : (i 0).val < 12000 := (i 0).isLt
  have hi1 : (i 1).val < 128 := (i 1).isLt
  have ht : (i 0).val / 1200 < cfg7.N := by rw [show cfg7.N = 10 from N_7]; omega
  obtain ⟨-, -, -, -, -, -, e30, e31⟩ := index_facts ⟨(i 0).val / 1200, ht⟩
  refine ⟨⟨(i 0).val / 1200, ht⟩, flush7_3 _, ?_⟩
  show i ∈ ((View.whole main_v159).slice (win7_3.rect ⟨(i 0).val / 1200, ht⟩)).set
  rw [View.set_slice_whole, Rect.mem_set_unit]
  intro a
  match a with
  | ⟨0, _⟩ =>
    show win7_3.index ⟨(i 0).val / 1200, ht⟩ (0 : Fin 2) * 1200 ≤ (i 0).val
      ∧ (i 0).val < win7_3.index ⟨(i 0).val / 1200, ht⟩ (0 : Fin 2) * 1200 + 1200
    rw [e30]
    show (i 0).val / 1200 * 1200 ≤ (i 0).val ∧ (i 0).val < (i 0).val / 1200 * 1200 + 1200
    omega
  | ⟨1, _⟩ =>
    show win7_3.index ⟨(i 0).val / 1200, ht⟩ (1 : Fin 2) * 128 ≤ (i 1).val
      ∧ (i 1).val < win7_3.index ⟨(i 0).val / 1200, ht⟩ (1 : Fin 2) * 128 + 128
    rw [e31]
    omega

/-- The array after the region is `finG` of the three arrays as the region finds them: every block written back is
    a block of `finG`, and the blocks cover the array. -/
theorem array_eq (c : Dev nD) :
    (dat7 (F := Ideal) V c).arrAt 3 cfg7.N = finG (V c main_v153) (V c main_v157) (V c main_v158) :=
  (dat7 (F := Ideal) V c).arrAt_eq_of_cover 3 (finG (V c main_v153) (V c main_v157) (V c main_v158))
    (fun t _ => flushed_eq V c t) cover

end Fin7

/-- The finalize region computes `max (agg + self + bias, 0)` as whole-array operations on the arrays it finds. -/
theorem fin7 (V : (c : Dev nD) → (b : Ref sig .tc) → Buf (Elt Ideal) ((c : Thread nD τ).loc b)) (c : Dev nD) :
    (dat7 (F := Ideal) V c).arrAt 3 cfg7.N
      = maximumf
          (addf (addf (V c main_v153) (V c main_v157))
            (broadcastInDim Cert.ReferenceIdeal.S12000x128 ![0, 1] Cert.ReferenceIdeal.Facts₀.bcast_S1x128_S12000x128_0_1
              (V c main_v158)))
          (broadcastInDim Cert.ReferenceIdeal.S12000x128 ![] Cert.ReferenceIdeal.Facts₀.bcast_S_S12000x128
            (constant (F := Ideal) Cert.ReferenceIdeal.S_ .f32 0x00000000#32)) :=
  Fin7.array_eq V c

end Cert.KernelIdeal.RegionValue
-- ==== Proof.LayerK3.lean ====
/-
  Layer 3 of the kernel's program, read off the boundary contents: what the finalize region leaves in its output
  array is the layer function (kernel's form) of the arrays the layer's first boundary holds. The product `x · W` is
  the xw region's array; the edge rows are slices of the edge list taken by the host stretch before that region; the
  normalisation, the fill-gather, the scatter-add and the self term are the three host stretches between the two
  regions; the last line is the finalize region.
-/
import proofs.«406409_j38250978738663_3_alg».proof.Proof.FrameKI
import proofs.«406409_j38250978738663_3_alg».proof.Proof.Spec
import proofs.«406409_j38250978738663_3_alg».proof.Proof.RegionXw6
import proofs.«406409_j38250978738663_3_alg».proof.Proof.RegionFin7
import Idealize.ShloMosaic.Lib.StableHlo.Run

set_option maxRecDepth 16384

noncomputable section

namespace Cert.KernelIdeal.LayerValue

open Cert.KernelIdeal Cert.KernelIdeal.Gen Cert.KernelIdeal.GenP Idealize.ShloMosaic Idealize.ShloMosaic.TcCoe Idealize.ShloMosaic.StableHlo Cert.Spec

variable (m : (ℓ : Loc nD τ sig) → Buf (Elt Ideal) ℓ) (ρ : Dev nD → PrngReg) (c : Dev nD)

/-- The host stretch before the xw region only slices the edge list: every buffer it does not write is as entered. -/
theorem pre3_x : V19 (F := Ideal) m ρ c main_v119 = W18 m ρ c (Proc.devRef .tc main_v119) := by
  show StableHlo.after hostOps6 (W18 m ρ c) (Proc.devRef .tc main_v119) = _
  after_results_simp
theorem pre3_W : V19 (F := Ideal) m ρ c main_arg16 = W18 m ρ c (Proc.devRef .tc main_arg16) := by
  show StableHlo.after hostOps6 (W18 m ρ c) (Proc.devRef .tc main_arg16) = _
  after_results_simp
theorem pre3_w : W19 (F := Ideal) m ρ c (Proc.devRef .tc main_arg5) = W18 m ρ c (Proc.devRef .tc main_arg5) := by
  show StableHlo.after hostOps6 (W18 m ρ c) (Proc.devRef .tc main_arg5) = _
  after_results_simp
theorem pre3_b : W19 (F := Ideal) m ρ c (Proc.devRef .tc main_arg17) = W18 m ρ c (Proc.devRef .tc main_arg17) := by
  show StableHlo.after hostOps6 (W18 m ρ c) (Proc.devRef .tc main_arg17) = _
  after_results_simp
/-- and what it writes are the two rows of the edge list. -/
theorem pre3_row : W19 (F := Ideal) m ρ c (Proc.devRef .tc main_v121) = rowMI (W18 m ρ c (Proc.devRef .tc main_arg4)) := by
  show StableHlo.after hostOps6 (W18 m ρ c) (Proc.devRef .tc main_v121) = _
  after_results_simp
  rfl
theorem pre3_col : W19 (F := Ideal) m ρ c (Proc.devRef .tc main_v123) = colMI (W18 m ρ c (Proc.devRef .tc main_arg4)) := by
  show StableHlo.after hostOps6 (W18 m ρ c) (Proc.devRef .tc main_v123) = _
  after_results_simp
  rfl

set_option maxHeartbeats 4000000 in
/-- The xw region's array is `x · W` of the entry arrays. -/
theorem xw3_val : W20 (F := Ideal) m ρ c (Proc.devRef .tc main_v124)
    = xwMI (W18 m ρ c (Proc.devRef .tc main_v119)) (W18 m ρ c (Proc.devRef .tc main_arg16)) := by
  refine (W20_arr m ρ c 2).trans ?_
  rw [RegionValue.xw6 (V19 m ρ) c, pre3_x, pre3_W]
  rfl

/-- Past the xw region the other buffers are as the first stretch left them. -/
theorem mid3_row : W20 (F := Ideal) m ρ c (Proc.devRef .tc main_v121) = rowMI (W18 m ρ c (Proc.devRef .tc main_arg4)) :=
  (W20_of_ne m ρ c main_v121 (by decide)).trans (pre3_row m ρ c)
theorem mid3_col : W20 (F := Ideal) m ρ c (Proc.devRef .tc main_v123) = colMI (W18 m ρ c (Proc.devRef .tc main_arg4)) :=
  (W20_of_ne m ρ c main_v123 (by decide)).trans (pre3_col m ρ c)
theorem mid3_w : W20 (F := Ideal) m ρ c (Proc.devRef .tc main_arg5) = W18 m ρ c (Proc.devRef .tc main_arg5) :=
  (W20_of_ne m ρ c main_arg5 (by decide)).trans (pre3_w m ρ c)
theorem mid3_b : W20 (F := Ideal) m ρ c (Proc.devRef .tc main_arg17) = W18 m ρ c (Proc.devRef .tc main_arg17) :=
  (W20_of_ne m ρ c main_arg17 (by decide)).trans (pre3_b m ρ c)

set_option maxHeartbeats 4000000 in
/-- The three stretches between the regions: the aggregation over the fill-gathered rows, -/
theorem agg3_val : V23 (F := Ideal) m ρ c main_v153
    = aggMI (W18 m ρ c (Proc.devRef .tc main_arg4)) (W18 m ρ c (Proc.devRef .tc main_arg5))
        (takeMI (xwMI (W18 m ρ c (Proc.devRef .tc main_v119)) (W18 m ρ c (Proc.devRef .tc main_arg16))) (rowMI (W18 m ρ c (Proc.devRef .tc main_arg4)))) := by
  show StableHlo.after hostOps7_2 (StableHlo.after hostOps7_1 (StableHlo.after hostOps7 (W20 m ρ c))) (Proc.devRef .tc main_v153) = _
  after_results_simp
  simp only [TRef.ofBuf, TRef.toBuf, cast_eq]
  rw [xw3_val, mid3_row, mid3_col, mid3_w]
  rfl
set_option maxHeartbeats 4000000 in
/-- the self term, -/
theorem self3_val : V23 (F := Ideal) m ρ c main_v157
    = selfMI (W18 m ρ c (Proc.devRef .tc main_arg4)) (W18 m ρ c (Proc.devRef .tc main_arg5))
        (xwMI (W18 m ρ c (Proc.devRef .tc main_v119)) (W18 m ρ c (Proc.devRef .tc main_arg16))) := by
  show StableHlo.after hostOps7_2 (StableHlo.after hostOps7_1 (StableHlo.after hostOps7 (W20 m ρ c))) (Proc.devRef .tc main_v157) = _
  after_results_simp
  rw [xw3_val, mid3_col, mid3_w]
  rfl
set_option maxHeartbeats 4000000 in
/-- and the bias as a row. -/
theorem bias3_val : V23 (F := Ideal) m ρ c main_v158 = rowK (W18 m ρ c (Proc.devRef .tc main_arg17)) := by
  show StableHlo.after hostOps7_2 (StableHlo.after hostOps7_1 (StableHlo.after hostOps7 (W20 m ρ c))) (Proc.devRef .tc main_v158) = _
  after_results_simp
  rw [mid3_b]
  rfl

set_option maxHeartbeats 4000000 in
/-- THE LAYER: the finalize region's output array is the layer function of the entry arrays. -/
theorem layer3 : W24 (F := Ideal) m ρ c (Proc.devRef .tc main_v159)
    = layerKMI (xwMI (W18 m ρ c (Proc.devRef .tc main_v119)) (W18 m ρ c (Proc.devRef .tc main_arg16)))
        (W18 m ρ c (Proc.devRef .tc main_arg17)) (W18 m ρ c (Proc.devRef .tc main_arg4)) (W18 m ρ c (Proc.devRef .tc main_arg5)) := by
  refine (W24_arr m ρ c 3).trans ?_
  rw [RegionValue.fin7 (V23 m ρ) c, agg3_val, self3_val, bias3_val]
  rfl

end Cert.KernelIdeal.LayerValue

end
-- ==== Proof.RegionXw8.lean ====
/- Region 8 (x · W, one 1200-row block of x per grid point against the whole 128 × 128 matrix W): after the region
   its output array holds the reference's `dot_general` of the two operand arrays.

   The mathematics, in four steps.
   (1) The body's payload is one matrix product into a zero accumulator, so entry (p, q) of the block it stores is
       the sum over k of x_blk(p, k) · W(k, q).
   (2) The reference's `dot_general` of the whole arrays has entry (r, q) equal to the sum over k of x(r, k) · W(k, q).
   (3) Grid point t reads rows 1200·t … 1200·t + 1199 of x and all of W, and writes the same rows of the output:
       entry (p, q) of its block is entry (1200·t + p, q) of the whole product, because a block coordinate is
       index × size + 1 × the coordinate inside the block.
   (4) Row r lies in the block of point r / 1200, so the blocks cover the array and it ends holding the whole product. -/
import proofs.«406409_j38250978738663_3_alg».proof.Proof.FrameKI
import proofs.«406409_j38250978738663_3_alg».proof.ReferenceIdeal
import proofs.«406409_j38250978738663_3_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Cert.KernelIdeal Cert.KernelIdeal.Gen Cert.KernelIdeal.GenP Idealize.ShloMosaic Idealize.ShloMosaic.TcCoe
open scoped BigOperators

namespace Xw8

/-! ## (1) The block product at an index -/

/-- The operand indices of the block product at output index `j` = (p, q) and contraction coordinate `k`:
    (p, k) in the block of x and (k, q) in W. -/
abbrev blkL (j : S1200x128.Idx) (k : Fin 128) : S1200x128.Idx := fun a => match a with
  | ⟨0, _⟩ => ⟨(j 0).val, (j 0).isLt⟩
  | ⟨1, _⟩ => ⟨k.val, k.isLt⟩
abbrev blkR (j : S1200x128.Idx) (k : Fin 128) : S128x128.Idx := fun a => match a with
  | ⟨0, _⟩ => ⟨k.val, k.isLt⟩
  | ⟨1, _⟩ => ⟨(j 1).val, (j 1).isLt⟩

/-- The product's dimension numbers contract axis 1 of the left operand with axis 0 of the right one: the left
    operand's index keeps the output's row and takes the contraction coordinate as its column, -/
theorem kdot_lhs0 (i : S1200x128.Idx) (q : dot_S1200x128_S128x128_S1200x128_1_0_0_1_n_n.contr.Idx) :
    (dot_S1200x128_S128x128_S1200x128_1_0_0_1_n_n.lhsIdx i q 0).val = (i 0).val := by
  unfold DotDims.lhsIdx
  rw [dif_neg (show ¬(0 : Fin S1200x128.rank) ∈ dot_S1200x128_S128x128_S1200x128_1_0_0_1_n_n.lhsBatch by decide), dif_pos (show (0 : Fin S1200x128.rank) ∈ dot_S1200x128_S128x128_S1200x128_1_0_0_1_n_n.lhsNonContracting by decide)]
  rfl
theorem kdot_lhs1 (i : S1200x128.Idx) (q : dot_S1200x128_S128x128_S1200x128_1_0_0_1_n_n.contr.Idx) :
    (dot_S1200x128_S128x128_S1200x128_1_0_0_1_n_n.lhsIdx i q 1).val = (q ⟨0, by decide⟩).val :=
  dot_S1200x128_S128x128_S1200x128_1_0_0_1_n_n.lhsIdx_val_of_single rfl i q
/-- and the right operand's takes the contraction coordinate as its row and keeps the output's column. -/
theorem kdot_rhs0 (i : S1200x128.Idx) (q : dot_S1200x128_S128x128_S1200x128_1_0_0_1_n_n.contr.Idx) :
    (dot_S1200x128_S128x128_S1200x128_1_0_0_1_n_n.rhsIdx i q 0).val = (q ⟨0, by decide⟩).val :=
  dot_S1200x128_S128x128_S1200x128_1_0_0_1_n_n.rhsIdx_val_of_single rfl i q
theorem kdot_rhs1 (i : S1200x128.Idx) (q : dot_S1200x128_S128x128_S1200x128_1_0_0_1_n_n.contr.Idx) :
    (dot_S1200x128_S128x128_S1200x128_1_0_0_1_n_n.rhsIdx i q 1).val = (i 1).val := by
  unfold DotDims.rhsIdx
  rw [dif_neg (show ¬(1 : Fin S128x128.rank) ∈ dot_S1200x128_S128x128_S1200x128_1_0_0_1_n_n.rhsBatch by decide), dif_pos (show (1 : Fin S128x128.rank) ∈ dot_S1200x128_S128x128_S1200x128_1_0_0_1_n_n.rhsNonContracting by decide)]
  rfl

/-- The payload at an index: a matrix product into the zero accumulator is the bare sum of products (an identity
    reshape of the left operand, where the body has one, changes nothing), re-indexed from the one-axis contraction
    index to its coordinate. -/
theorem pay_apply (x0 : Vec Ideal S1200x128 .f32) (x1 : Vec Ideal S128x128 .f32) (j : S1200x128.Idx) :
    k8_pay1 (F := Ideal) x0 x1 j = ∑ k : Fin 128, x0 (blkL j k) * x1 (blkR j k) := by
  unfold k8_pay1
  simp only [matmul, shapeCast_self]
  rw [Ideal.matmul_constant_zero_apply, ← Equiv.sum_comp (ValueIdx.contrEquiv1 dot_S1200x128_S128x128_S1200x128_1_0_0_1_n_n 128 rfl rfl).symm]
  refine Finset.sum_congr rfl fun k _ => ?_
  have hk := ValueIdx.contrEquiv1_symm_val dot_S1200x128_S128x128_S1200x128_1_0_0_1_n_n 128 rfl rfl k
  have el : dot_S1200x128_S128x128_S1200x128_1_0_0_1_n_n.lhsIdx j ((ValueIdx.contrEquiv1 dot_S1200x128_S128x128_S1200x128_1_0_0_1_n_n 128 rfl rfl).symm k) = blkL j k := funext fun a => Fin.ext (by
    match a with
    | ⟨0, _⟩ => exact kdot_lhs0 _ _
    | ⟨1, _⟩ => exact (kdot_lhs1 _ _).trans hk)
  have er : dot_S1200x128_S128x128_S1200x128_1_0_0_1_n_n.rhsIdx j ((ValueIdx.contrEquiv1 dot_S1200x128_S128x128_S1200x128_1_0_0_1_n_n 128 rfl rfl).symm k) = blkR j k := funext fun a => Fin.ext (by
    match a with
    | ⟨0, _⟩ => exact (kdot_rhs0 _ _).trans hk
    | ⟨1, _⟩ => exact kdot_rhs1 _ _)
  rw [el, er]

/-! ## (2) The whole-array product, and the reference's `dot_general` as that product -/

/-- The operand indices of the whole-array product at output index `i` = (r, q) and contraction coordinate `k`:
    (r, k) in x and (k, q) in W. -/
abbrev arrL (i : S6000x128.Idx) (k : Fin 128) : S6000x128.Idx := fun a => match a with
  | ⟨0, _⟩ => ⟨(i 0).val, (i 0).isLt⟩
  | ⟨1, _⟩ => ⟨k.val, k.isLt⟩
abbrev arrR (i : S6000x128.Idx) (k : Fin 128) : S128x128.Idx := fun a => match a with
  | ⟨0, _⟩ => ⟨k.val, k.isLt⟩
  | ⟨1, _⟩ => ⟨(i 1).val, (i 1).isLt⟩

/-- The whole-array product x · W: entry (r, q) is the sum over k of x(r, k) · W(k, q). -/
def xwG (X : Vec Ideal S6000x128 .f32) (W : Vec Ideal S128x128 .f32) : Vec Ideal S6000x128 .f32 :=
  fun i => ∑ k : Fin 128, X (arrL i k) * W (arrR i k)

/-- The reference's dimension numbers are the same contraction, on the whole arrays. -/
theorem rdot_lhs0 (i : S6000x128.Idx) (q : Cert.ReferenceIdeal.dot_S6000x128_S128x128_S6000x128_1_0_0_1_n_n.contr.Idx) :
    (Cert.ReferenceIdeal.dot_S6000x128_S128x128_S6000x128_1_0_0_1_n_n.lhsIdx i q 0).val = (i 0).val := by
  unfold DotDims.lhsIdx
  rw [dif_neg (show ¬(0 : Fin S6000x128.rank) ∈ Cert.ReferenceIdeal.dot_S6000x128_S128x128_S6000x128_1_0_0_1_n_n.lhsBatch by decide), dif_pos (show (0 : Fin S6000x128.rank) ∈ Cert.ReferenceIdeal.dot_S6000x128_S128x128_S6000x128_1_0_0_1_n_n.lhsNonContracting by decide)]
  rfl
theorem rdot_lhs1 (i : S6000x128.Idx) (q : Cert.ReferenceIdeal.dot_S6000x128_S128x128_S6000x128_1_0_0_1_n_n.contr.Idx) :
    (Cert.ReferenceIdeal.dot_S6000x128_S128x128_S6000x128_1_0_0_1_n_n.lhsIdx i q 1).val = (q ⟨0, by decide⟩).val :=
  Cert.ReferenceIdeal.dot_S6000x128_S128x128_S6000x128_1_0_0_1_n_n.lhsIdx_val_of_single rfl i q
theorem rdot_rhs0 (i : S6000x128.Idx) (q : Cert.ReferenceIdeal.dot_S6000x128_S128x128_S6000x128_1_0_0_1_n_n.contr.Idx) :
    (Cert.ReferenceIdeal.dot_S6000x128_S128x128_S6000x128_1_0_0_1_n_n.rhsIdx i q 0).val = (q ⟨0, by decide⟩).val :=
  Cert.ReferenceIdeal.dot_S6000x128_S128x128_S6000x128_1_0_0_1_n_n.rhsIdx_val_of_single rfl i q
theorem rdot_rhs1 (i : S6000x128.Idx) (q : Cert.ReferenceIdeal.dot_S6000x128_S128x128_S6000x128_1_0_0_1_n_n.contr.Idx) :
    (Cert.ReferenceIdeal.dot_S6000x128_S128x128_S6000x128_1_0_0_1_n_n.rhsIdx i q 1).val = (i 1).val := by
  unfold DotDims.rhsIdx
  rw [dif_neg (show ¬(1 : Fin S128x128.rank) ∈ Cert.ReferenceIdeal.dot_S6000x128_S128x128_S6000x128_1_0_0_1_n_n.rhsBatch by decide), dif_pos (show (1 : Fin S128x128.rank) ∈ Cert.ReferenceIdeal.dot_S6000x128_S128x128_S6000x128_1_0_0_1_n_n.rhsNonContracting by decide)]
  rfl

/-- The reference's `dot_general` of the two arrays is that product, index by index: at the ideal values it is the
    bare sum over the contraction index, re-indexed to the contraction coordinate. -/
theorem ref_eq (X : Vec Ideal S6000x128 .f32) (W : Vec Ideal S128x128 .f32) :
    Host.dotGeneral (F := Ideal) (φ₁ := .f32) (φ₂ := .f32) Cert.ReferenceIdeal.dot_S6000x128_S128x128_S6000x128_1_0_0_1_n_n none X W = xwG X W := by
  funext i
  simp only [Host.dotGeneral]
  rw [Ideal.dotGeneral_apply, ← Equiv.sum_comp (ValueIdx.contrEquiv1 Cert.ReferenceIdeal.dot_S6000x128_S128x128_S6000x128_1_0_0_1_n_n 128 rfl rfl).symm]
  unfold xwG
  refine Finset.sum_congr rfl fun k _ => ?_
  have hk := ValueIdx.contrEquiv1_symm_val Cert.ReferenceIdeal.dot_S6000x128_S128x128_S6000x128_1_0_0_1_n_n 128 rfl rfl k
  have el : Cert.ReferenceIdeal.dot_S6000x128_S128x128_S6000x128_1_0_0_1_n_n.lhsIdx i ((ValueIdx.contrEquiv1 Cert.ReferenceIdeal.dot_S6000x128_S128x128_S6000x128_1_0_0_1_n_n 128 rfl rfl).symm k) = arrL i k := funext fun a => Fin.ext (by
    match a with
    | ⟨0, _⟩ => exact rdot_lhs0 _ _
    | ⟨1, _⟩ => exact (rdot_lhs1 _ _).trans hk)
  have er : Cert.ReferenceIdeal.dot_S6000x128_S128x128_S6000x128_1_0_0_1_n_n.rhsIdx i ((ValueIdx.contrEquiv1 Cert.ReferenceIdeal.dot_S6000x128_S128x128_S6000x128_1_0_0_1_n_n 128 rfl rfl).symm k) = arrR i k := funext fun a => Fin.ext (by
    match a with
    | ⟨0, _⟩ => exact (rdot_rhs0 _ _).trans hk
    | ⟨1, _⟩ => exact rdot_rhs1 _ _)
  rw [el, er]

/-! ## (3) What a grid point writes back is its block of the whole product -/

/-- The two operand arrays as the region finds them, named at their literal vector types (so that products of their
    entries are products of extended reals). -/
abbrev xarr (V : (c : Dev nD) → (b : Ref sig .tc) → Buf (Elt Ideal) ((c : Thread nD τ).loc b)) (c : Dev nD) : Vec Ideal S6000x128 .f32 := V c main_arg1
abbrev warr (V : (c : Dev nD) → (b : Ref sig .tc) → Buf (Elt Ideal) ((c : Thread nD τ).loc b)) (c : Dev nD) : Vec Ideal S128x128 .f32 := V c main_arg18

theorem hz : (![0, 0] : Fin 2 → Nat) = fun _ => 0 := funext fun a => by fin_cases a <;> rfl

/-- The index maps, decided over the grid: the block of x moves with the output's block along the rows and sits at
    column block 0; W's one block never moves; the output's block at point `t` is row block `t`, column block 0. -/
theorem idx_facts : ∀ t : Fin cfg8.N, win8_0.index t (0 : Fin 2) = win8_2.index t (0 : Fin 2)
    ∧ win8_0.index t (1 : Fin 2) = 0
    ∧ win8_1.index t (0 : Fin 2) = 0
    ∧ win8_1.index t (1 : Fin 2) = 0
    ∧ win8_2.index t (0 : Fin 2) = t.val
    ∧ win8_2.index t (1 : Fin 2) = 0 :=
  (by decide +kernel : ∀ t : Fin grid8.N, _)

/-- What point `t` writes back is block `t` of the whole product of the operand arrays as the region finds them. -/
theorem flushed_eq (V : (c : Dev nD) → (b : Ref sig .tc) → Buf (Elt Ideal) ((c : Thread nD τ).loc b)) (c : Dev nD) (t : Fin cfg8.N) :
    (dat8 (F := Ideal) V c).flushed 2 t = ((cfg8.win 2).blk t).view.read (Elt Ideal) (xwG (V c main_arg1) (V c main_arg18)) := by
  show (cfg8.win 2).cut (grid8.coords t) ((dat8 (F := Ideal) V c).after 2 t) = _
  rw [after8_2]
  unfold out8_2
  rw [View.canon_unit_zero hz]
  simp only [View.ld_unit_zero (S := S1200x128) hz, View.ld_unit_zero (S := S128x128) hz]
  obtain ⟨e0, e1, e2, e3, e4, e5⟩ := idx_facts t
  funext j
  show k8_pay1 (F := Ideal) (iblk8 V c 0 t) (iblk8 V c 1 t) j = xwG (V c main_arg1) (V c main_arg18) (((cfg8.win 2).blk t).view.emb j)
  refine (pay_apply (iblk8 V c 0 t) (iblk8 V c 1 t) j).trans ?_
  unfold xwG
  refine Finset.sum_congr rfl fun k _ => ?_
  show xarr V c (((cfg8.win 0).blk t).view.emb (blkL j k)) * warr V c (((cfg8.win 1).blk t).view.emb (blkR j k))
    = xarr V c (arrL (((cfg8.win 2).blk t).view.emb j) k) * warr V c (arrR (((cfg8.win 2).blk t).view.emb j) k)
  -- the block of x, read at (p, k), is x at (1200·t + p, k)
  have h0 : ((cfg8.win 0).blk t).view.emb (blkL j k) = arrL (((cfg8.win 2).blk t).view.emb j) k := by
    funext a; apply Fin.ext
    match a with
    | ⟨0, _⟩ => show win8_0.index t (0 : Fin 2) * 1200 + 1 * (j 0).val = win8_2.index t (0 : Fin 2) * 1200 + 1 * (j 0).val; omega
    | ⟨1, _⟩ => show win8_0.index t (1 : Fin 2) * 128 + 1 * k.val = k.val; omega
  -- W's block, read at (k, q), is W at (k, q)
  have h1 : ((cfg8.win 1).blk t).view.emb (blkR j k) = arrR (((cfg8.win 2).blk t).view.emb j) k := by
    funext a; apply Fin.ext
    match a with
    | ⟨0, _⟩ => show win8_1.index t (0 : Fin 2) * 128 + 1 * k.val = k.val; omega
    | ⟨1, _⟩ => show win8_1.index t (1 : Fin 2) * 128 + 1 * (j 1).val = win8_2.index t (1 : Fin 2) * 128 + 1 * (j 1).val; omega
  rw [h0, h1]

/-! ## (4) The blocks cover the array -/

/-- An index of the array is in point `t`'s block iff each coordinate is in the block's range on its axis. -/
theorem mem_blk (t : Fin cfg8.N) (i : S6000x128.Idx) :
    i ∈ ((cfg8.win 2).blk t).view.set ↔ ∀ a : Fin 2, win8_2.index t a * S1200x128.size a ≤ (i a).val ∧ (i a).val < win8_2.index t a * S1200x128.size a + S1200x128.size a := by
  show i ∈ ((View.whole main_v164).slice (win8_2.rect t)).set ↔ _
  rw [View.set_slice_whole, Rect.mem_set_unit]
  exact Iff.rfl

/-- Row `r` lies in the block of point `r / 1200`, which writes back. -/
theorem cover (i : S6000x128.Idx) : ∃ t : Fin cfg8.N, (cfg8.win 2).flush t = true ∧ i ∈ ((cfg8.win 2).blk t).view.set := by
  have hi0 : (i 0).val < 6000 := (i 0).isLt
  have hi1 : (i 1).val < 128 := (i 1).isLt
  have ht : (i 0).val / 1200 < cfg8.N := by show (i 0).val / 1200 < 5; omega
  obtain ⟨e0, e1, e2, e3, e4, e5⟩ := idx_facts ⟨(i 0).val / 1200, ht⟩
  have e4' : win8_2.index ⟨(i 0).val / 1200, ht⟩ (0 : Fin 2) = (i 0).val / 1200 := e4
  refine ⟨⟨(i 0).val / 1200, ht⟩, flush8_2 _, ?_⟩
  rw [mem_blk]
  intro a
  match a with
  | ⟨0, _⟩ => show win8_2.index ⟨(i 0).val / 1200, ht⟩ (0 : Fin 2) * 1200 ≤ (i 0).val ∧ (i 0).val < win8_2.index ⟨(i 0).val / 1200, ht⟩ (0 : Fin 2) * 1200 + 1200; omega
  | ⟨1, _⟩ => show win8_2.index ⟨(i 0).val / 1200, ht⟩ (1 : Fin 2) * 128 ≤ (i 1).val ∧ (i 1).val < win8_2.index ⟨(i 0).val / 1200, ht⟩ (1 : Fin 2) * 128 + 128; omega

end Xw8

/-! ## The array after the region -/

/-- After region 8 its output array holds the reference's `dot_general` of the two operand arrays as the region
    finds them: every point writes its block of the whole product (3), the blocks cover the array (4), and the whole
    product is the reference's (2). -/
theorem xw8 (V : (c : Dev nD) → (b : Ref sig .tc) → Buf (Elt Ideal) ((c : Thread nD τ).loc b)) (c : Dev nD) :
    (dat8 (F := Ideal) V c).arrAt 2 cfg8.N
      = Host.dotGeneral (F := Ideal) (φ₁ := .f32) (φ₂ := .f32) Cert.ReferenceIdeal.dot_S6000x128_S128x128_S6000x128_1_0_0_1_n_n none (V c main_arg1) (V c main_arg18) :=
  ((dat8 (F := Ideal) V c).arrAt_eq_of_cover 2 (Xw8.xwG (V c main_arg1) (V c main_arg18)) (fun t _ => Xw8.flushed_eq V c t) Xw8.cover).trans
    (Xw8.ref_eq (V c main_arg1) (V c main_arg18)).symm

end Cert.KernelIdeal.RegionValue

end
-- ==== Proof.RegionFin9.lean ====
import proofs.«406409_j38250978738663_3_alg».proof.Proof.FrameKI
import proofs.«406409_j38250978738663_3_alg».proof.Proof.Gen.ReferenceIdeal
import proofs.«406409_j38250978738663_3_alg».proof.ReferenceIdeal
import Idealize.ShloMosaic.Lib.Pipeline.Value
import Idealize.ShloMosaic.Lib.ValueIdx
import Idealize.ShloMosaic.Lib.ValueLayout

/-!
# A finalize region as a whole-array operation

The region walks its `[6000, 128]` arrays in blocks of 1200 rows, one block per grid point. At every point the
body adds the aggregate block, the self block and the one bias row (the same `[1, 128]` block at every point,
broadcast down the rows), and takes the maximum with zero. Every operation is pointwise, and the output block at
point `t` is rows `1200 t … 1200 t + 1199`, so the blocks tile the array and the array ends holding
`max (agg + self + bias, 0)` index by index: the function the whole-array operations
`maximumf (addf (addf agg self) (broadcast bias)) (broadcast 0)` compute.
-/

noncomputable section

namespace Cert.KernelIdeal.RegionValue

open Cert.KernelIdeal Cert.KernelIdeal.Gen Cert.KernelIdeal.GenP Idealize.ShloMosaic Idealize.ShloMosaic.TcCoe
open Idealize.ShloMosaic.ValueIdx

namespace Fin9

/-! ## The function the array ends holding -/

/-- The bias row's one index under column `q`. -/
abbrev rowAt (q : Fin 128) : S1x128.Idx := ix2 (0 : Fin 1) q

/-- `max (agg + self + bias row, 0)` over the whole `[6000, 128]` array, as whole-array operations: two sums, the
    bias row broadcast along axis 0, and a maximum against the splat zero. -/
def finG (agg self : Vec Ideal S6000x128 .f32) (bias : Vec Ideal S1x128 .f32) : Vec Ideal S6000x128 .f32 :=
  maximumf
    (addf (addf agg self)
      (broadcastInDim Cert.ReferenceIdeal.S6000x128 ![0, 1] Cert.ReferenceIdeal.Facts₀.bcast_S1x128_S6000x128_0_1 bias))
    (broadcastInDim Cert.ReferenceIdeal.S6000x128 ![] Cert.ReferenceIdeal.Facts₀.bcast_S_S6000x128
      (constant (F := Ideal) Cert.ReferenceIdeal.S_ .f32 0x00000000#32))

/-- At row `r`, column `q` it is the maximum of `agg + self + bias` there (the bias read at column `q` of its one
    row) and the zero word's value: the two sums and the maximum are pointwise, a broadcast along axis 0 forgets
    the row, and a broadcast scalar is the same everywhere. -/
theorem finG_apply (agg self : Vec Ideal S6000x128 .f32) (bias : Vec Ideal S1x128 .f32) (r : Fin 6000) (q : Fin 128) :
    finG agg self bias (ix2 r q)
      = max (agg (ix2 r q) + self (ix2 r q) + bias (rowAt q)) (Ideal.ofBits .f32 0x00000000#32) := by
  unfold finG
  rw [maximumf_apply, addf_apply, addf_apply]
  rw [broadcastInDim_apply ![0, 1] _ bias (ix2 r q) (rowAt q) (fun a => by
        match a with
        | ⟨0, _⟩ => rfl
        | ⟨1, _⟩ => rfl),
      broadcastInDim_apply ![] _ (constant (F := Ideal) Cert.ReferenceIdeal.S_ .f32 0x00000000#32) (ix2 r q) ix0
        (fun a => a.elim0),
      constant_apply]

/-! ## The body's payload at an index -/

/-- The body's stored value at row `p`, column `q` of a block: the three shape casts are to the same shape, so they
    are the identity; the sums and the maximum are pointwise; the `[1, 128]` row broadcast to `[1200, 128]` reads
    column `q` of its one row; the splat scalar is the zero word's value. -/
theorem pay_apply (x0 x1 : Vec Ideal S1200x128 .f32) (x2 : Vec Ideal S1x128 .f32) (p : Fin 1200) (q : Fin 128) :
    k9_pay1 (F := Ideal) x0 x1 x2 (ix2 p q)
      = max (x0 (ix2 p q) + x1 (ix2 p q) + x2 (rowAt q)) (Ideal.ofBits .f32 0x00000000#32) := by
  unfold k9_pay1
  rw [shapeCast_self, shapeCast_self, shapeCast_self, maximumf_apply, addf_apply, addf_apply, broadcast_apply,
    broadcastTo_1b_ab_apply]
  rfl

/-! ## From blocks to the array -/

/-- The zero offsets of a whole-buffer load or store, as a constant function. -/
theorem zero_offsets : (![0, 0] : Fin 2 → Nat) = fun _ => 0 :=
  funext fun a => by
    match a with
    | ⟨0, _⟩ => rfl
    | ⟨1, _⟩ => rfl

/-- The index maps, decided over the grid: the aggregate, self and output windows are at block row `t`, block
    column 0; the bias window is at block (0, 0) at every point. -/
theorem index_facts : ∀ t : Fin cfg9.N,
    win9_0.index t (0 : Fin 2) = t.val ∧ win9_0.index t (1 : Fin 2) = 0
    ∧ win9_1.index t (0 : Fin 2) = t.val ∧ win9_1.index t (1 : Fin 2) = 0
    ∧ win9_2.index t (0 : Fin 2) = 0 ∧ win9_2.index t (1 : Fin 2) = 0
    ∧ win9_3.index t (0 : Fin 2) = t.val ∧ win9_3.index t (1 : Fin 2) = 0 :=
  (by decide +kernel : ∀ t : Fin grid9.N, _)

variable (V : (c : Dev nD) → (b : Ref sig .tc) → Buf (Elt Ideal) ((c : Thread nD τ).loc b))

/-- What point `t` writes back is block `t` of `finG` of the three arrays as the region finds them: the block's
    element (p, q) sits in the array at row `1200 t + p`, column `q` (a block coordinate is index × size + 1 × the
    coordinate inside the block); the aggregate and self blocks are read at that same place, and the bias block is
    the whole bias row. -/
theorem flushed_eq (c : Dev nD) (t : Fin cfg9.N) :
    (dat9 (F := Ideal) V c).flushed 3 t
      = ((cfg9.win 3).blk t).view.read (Elt Ideal) (finG (V c main_v193) (V c main_v197) (V c main_v198)) := by
  show (cfg9.win 3).cut (grid9.coords t) ((dat9 V c).after 3 t) = _
  rw [after9_3]
  unfold out9_3
  rw [View.canon_unit_zero zero_offsets]
  simp only [View.ld_unit_zero (S := S1200x128) zero_offsets, View.ld_unit_zero (S := S1x128) zero_offsets]
  obtain ⟨e00, e01, e10, e11, e20, e21, e30, e31⟩ := index_facts t
  have hN : t.val < 5 := Nat.lt_of_lt_of_eq t.isLt N_9
  funext j
  obtain ⟨p, q, rfl⟩ : ∃ (p : Fin 1200) (q : Fin 128), j = ix2 p q := ⟨j 0, j 1, eq_ix2 j⟩
  have hp : p.val < 1200 := p.isLt
  show k9_pay1 (F := Ideal) (iblk9 V c 0 t) (iblk9 V c 1 t) (iblk9 V c 2 t) (ix2 p q)
      = finG (V c main_v193) (V c main_v197) (V c main_v198) (((cfg9.win 3).blk t).view.emb (ix2 p q))
  have hemb : ((cfg9.win 3).blk t).view.emb (ix2 p q) = ix2 (⟨t.val * 1200 + p.val, by omega⟩ : Fin 6000) q := by
    funext a; apply Fin.ext
    match a with
    | ⟨0, _⟩ => show win9_3.index t (0 : Fin 2) * 1200 + 1 * p.val = t.val * 1200 + p.val; omega
    | ⟨1, _⟩ => show win9_3.index t (1 : Fin 2) * 128 + 1 * q.val = q.val; omega
  rw [hemb, finG_apply]
  refine (pay_apply _ _ _ p q).trans ?_
  have h0 : iblk9 V c 0 t (ix2 p q) = V c main_v193 (ix2 (⟨t.val * 1200 + p.val, by omega⟩ : Fin 6000) q) := by
    show V c main_v193 (((cfg9.win 0).blk t).view.emb (ix2 p q)) = _
    refine congrArg _ (funext fun a => Fin.ext ?_)
    match a with
    | ⟨0, _⟩ => show win9_0.index t (0 : Fin 2) * 1200 + 1 * p.val = t.val * 1200 + p.val; omega
    | ⟨1, _⟩ => show win9_0.index t (1 : Fin 2) * 128 + 1 * q.val = q.val; omega
  have h1 : iblk9 V c 1 t (ix2 p q) = V c main_v197 (ix2 (⟨t.val * 1200 + p.val, by omega⟩ : Fin 6000) q) := by
    show V c main_v197 (((cfg9.win 1).blk t).view.emb (ix2 p q)) = _
    refine congrArg _ (funext fun a => Fin.ext ?_)
    match a with
    | ⟨0, _⟩ => show win9_1.index t (0 : Fin 2) * 1200 + 1 * p.val = t.val * 1200 + p.val; omega
    | ⟨1, _⟩ => show win9_1.index t (1 : Fin 2) * 128 + 1 * q.val = q.val; omega
  have h2 : iblk9 V c 2 t (rowAt q) = V c main_v198 (rowAt q) := by
    show V c main_v198 (((cfg9.win 2).blk t).view.emb (rowAt q)) = _
    refine congrArg _ (funext fun a => Fin.ext ?_)
    match a with
    | ⟨0, _⟩ => show win9_2.index t (0 : Fin 2) * 1 + 1 * 0 = 0; omega
    | ⟨1, _⟩ => show win9_2.index t (1 : Fin 2) * 128 + 1 * q.val = q.val; omega
  rw [h0, h1, h2]

/-- Row `r` of the array lies in the block of point `r / 1200`, and every point writes its block back: the blocks
    cover the array. -/
theorem cover (i : S6000x128.Idx) :
    ∃ t : Fin cfg9.N, (cfg9.win 3).flush t = true ∧ i ∈ ((cfg9.win 3).blk t).view.set := by
  have hi0 : (i 0).val < 6000 := (i 0).isLt
  have hi1 : (i 1).val < 128 := (i 1).isLt
  have ht : (i 0).val / 1200 < cfg9.N := by rw [show cfg9.N = 5 from N_9]; omega
  obtain ⟨-, -, -, -, -, -, e30, e31⟩ := index_facts ⟨(i 0).val / 1200, ht⟩
  refine ⟨⟨(i 0).val / 1200, ht⟩, flush9_3 _, ?_⟩
  show i ∈ ((View.whole main_v199).slice (win9_3.rect ⟨(i 0).val / 1200, ht⟩)).set
  rw [View.set_slice_whole, Rect.mem_set_unit]
  intro a
  match a with
  | ⟨0, _⟩ =>
    show win9_3.index ⟨(i 0).val / 1200, ht⟩ (0 : Fin 2) * 1200 ≤ (i 0).val
      ∧ (i 0).val < win9_3.index ⟨(i 0).val / 1200, ht⟩ (0 : Fin 2) * 1200 + 1200
    rw [e30]
    show (i 0).val / 1200 * 1200 ≤ (i 0).val ∧ (i 0).val < (i 0).val / 1200 * 1200 + 1200
    omega
  | ⟨1, _⟩ =>
    show win9_3.index ⟨(i 0).val / 1200, ht⟩ (1 : Fin 2) * 128 ≤ (i 1).val
      ∧ (i 1).val < win9_3.index ⟨(i 0).val / 1200, ht⟩ (1 : Fin 2) * 128 + 128
    rw [e31]
    omega

/-- The array after the region is `finG` of the three arrays as the region finds them: every block written back is
    a block of `finG`, and the blocks cover the array. -/
theorem array_eq (c : Dev nD) :
    (dat9 (F := Ideal) V c).arrAt 3 cfg9.N = finG (V c main_v193) (V c main_v197) (V c main_v198) :=
  (dat9 (F := Ideal) V c).arrAt_eq_of_cover 3 (finG (V c main_v193) (V c main_v197) (V c main_v198))
    (fun t _ => flushed_eq V c t) cover

end Fin9

/-- The finalize region computes `max (agg + self + bias, 0)` as whole-array operations on the arrays it finds. -/
theorem fin9 (V : (c : Dev nD) → (b : Ref sig .tc) → Buf (Elt Ideal) ((c : Thread nD τ).loc b)) (c : Dev nD) :
    (dat9 (F := Ideal) V c).arrAt 3 cfg9.N
      = maximumf
          (addf (addf (V c main_v193) (V c main_v197))
            (broadcastInDim Cert.ReferenceIdeal.S6000x128 ![0, 1] Cert.ReferenceIdeal.Facts₀.bcast_S1x128_S6000x128_0_1
              (V c main_v198)))
          (broadcastInDim Cert.ReferenceIdeal.S6000x128 ![] Cert.ReferenceIdeal.Facts₀.bcast_S_S6000x128
            (constant (F := Ideal) Cert.ReferenceIdeal.S_ .f32 0x00000000#32)) :=
  Fin9.array_eq V c

end Cert.KernelIdeal.RegionValue
-- ==== Proof.LayerK4.lean ====
/-
  Layer 4 of the kernel's program, read off the boundary contents: what the finalize region leaves in its output
  array is the layer function (kernel's form) of the arrays the layer's first boundary holds. The product `x · W` is
  the xw region's array; the edge rows are slices of the edge list taken by the host stretch before that region; the
  normalisation, the fill-gather, the scatter-add and the self term are the three host stretches between the two
  regions; the last line is the finalize region.
-/
import proofs.«406409_j38250978738663_3_alg».proof.Proof.FrameKI
import proofs.«406409_j38250978738663_3_alg».proof.Proof.Spec
import proofs.«406409_j38250978738663_3_alg».proof.Proof.RegionXw8
import proofs.«406409_j38250978738663_3_alg».proof.Proof.RegionFin9
import Idealize.ShloMosaic.Lib.StableHlo.Run

set_option maxRecDepth 16384

noncomputable section

namespace Cert.KernelIdeal.LayerValue

open Cert.KernelIdeal Cert.KernelIdeal.Gen Cert.KernelIdeal.GenP Idealize.ShloMosaic Idealize.ShloMosaic.TcCoe Idealize.ShloMosaic.StableHlo Cert.Spec

variable (m : (ℓ : Loc nD τ sig) → Buf (Elt Ideal) ℓ) (ρ : Dev nD → PrngReg) (c : Dev nD)

/-- The host stretch before the xw region only slices the edge list: every buffer it does not write is as entered. -/
theorem pre4_x : V25 (F := Ideal) m ρ c main_arg1 = W24 m ρ c (Proc.devRef .tc main_arg1) := by
  show StableHlo.after hostOps8 (W24 m ρ c) (Proc.devRef .tc main_arg1) = _
  after_results_simp
theorem pre4_W : V25 (F := Ideal) m ρ c main_arg18 = W24 m ρ c (Proc.devRef .tc main_arg18) := by
  show StableHlo.after hostOps8 (W24 m ρ c) (Proc.devRef .tc main_arg18) = _
  after_results_simp
theorem pre4_w : W25 (F := Ideal) m ρ c (Proc.devRef .tc main_arg7) = W24 m ρ c (Proc.devRef .tc main_arg7) := by
  show StableHlo.after hostOps8 (W24 m ρ c) (Proc.devRef .tc main_arg7) = _
  after_results_simp
theorem pre4_b : W25 (F := Ideal) m ρ c (Proc.devRef .tc main_arg19) = W24 m ρ c (Proc.devRef .tc main_arg19) := by
  show StableHlo.after hostOps8 (W24 m ρ c) (Proc.devRef .tc main_arg19) = _
  after_results_simp
/-- and what it writes are the two rows of the edge list. -/
theorem pre4_row : W25 (F := Ideal) m ρ c (Proc.devRef .tc main_v161) = rowDIS (W24 m ρ c (Proc.devRef .tc main_arg6)) := by
  show StableHlo.after hostOps8 (W24 m ρ c) (Proc.devRef .tc main_v161) = _
  after_results_simp
  rfl
theorem pre4_col : W25 (F := Ideal) m ρ c (Proc.devRef .tc main_v163) = colDIS (W24 m ρ c (Proc.devRef .tc main_arg6)) := by
  show StableHlo.after hostOps8 (W24 m ρ c) (Proc.devRef .tc main_v163) = _
  after_results_simp
  rfl

set_option maxHeartbeats 4000000 in
/-- The xw region's array is `x · W` of the entry arrays. -/
theorem xw4_val : W26 (F := Ideal) m ρ c (Proc.devRef .tc main_v164)
    = xwDIS (W24 m ρ c (Proc.devRef .tc main_arg1)) (W24 m ρ c (Proc.devRef .tc main_arg18)) := by
  refine (W26_arr m ρ c 2).trans ?_
  rw [RegionValue.xw8 (V25 m ρ) c, pre4_x, pre4_W]
  rfl

/-- Past the xw region the other buffers are as the first stretch left them. -/
theorem mid4_row : W26 (F := Ideal) m ρ c (Proc.devRef .tc main_v161) = rowDIS (W24 m ρ c (Proc.devRef .tc main_arg6)) :=
  (W26_of_ne m ρ c main_v161 (by decide)).trans (pre4_row m ρ c)
theorem mid4_col : W26 (F := Ideal) m ρ c (Proc.devRef .tc main_v163) = colDIS (W24 m ρ c (Proc.devRef .tc main_arg6)) :=
  (W26_of_ne m ρ c main_v163 (by decide)).trans (pre4_col m ρ c)
theorem mid4_w : W26 (F := Ideal) m ρ c (Proc.devRef .tc main_arg7) = W24 m ρ c (Proc.devRef .tc main_arg7) :=
  (W26_of_ne m ρ c main_arg7 (by decide)).trans (pre4_w m ρ c)
theorem mid4_b : W26 (F := Ideal) m ρ c (Proc.devRef .tc main_arg19) = W24 m ρ c (Proc.devRef .tc main_arg19) :=
  (W26_of_ne m ρ c main_arg19 (by decide)).trans (pre4_b m ρ c)

set_option maxHeartbeats 4000000 in
/-- The three stretches between the regions: the aggregation over the fill-gathered rows, -/
theorem agg4_val : V29 (F := Ideal) m ρ c main_v193
    = aggDIS (W24 m ρ c (Proc.devRef .tc main_arg6)) (W24 m ρ c (Proc.devRef .tc main_arg7))
        (takeDIS (xwDIS (W24 m ρ c (Proc.devRef .tc main_arg1)) (W24 m ρ c (Proc.devRef .tc main_arg18))) (rowDIS (W24 m ρ c (Proc.devRef .tc main_arg6)))) := by
  show StableHlo.after hostOps9_2 (StableHlo.after hostOps9_1 (StableHlo.after hostOps9 (W26 m ρ c))) (Proc.devRef .tc main_v193) = _
  after_results_simp
  simp only [TRef.ofBuf, TRef.toBuf, cast_eq]
  rw [xw4_val, mid4_row, mid4_col, mid4_w]
  rfl
set_option maxHeartbeats 4000000 in
/-- the self term, -/
theorem self4_val : V29 (F := Ideal) m ρ c main_v197
    = selfDIS (W24 m ρ c (Proc.devRef .tc main_arg6)) (W24 m ρ c (Proc.devRef .tc main_arg7))
        (xwDIS (W24 m ρ c (Proc.devRef .tc main_arg1)) (W24 m ρ c (Proc.devRef .tc main_arg18))) := by
  show StableHlo.after hostOps9_2 (StableHlo.after hostOps9_1 (StableHlo.after hostOps9 (W26 m ρ c))) (Proc.devRef .tc main_v197) = _
  after_results_simp
  rw [xw4_val, mid4_col, mid4_w]
  rfl
set_option maxHeartbeats 4000000 in
/-- and the bias as a row. -/
theorem bias4_val : V29 (F := Ideal) m ρ c main_v198 = rowK (W24 m ρ c (Proc.devRef .tc main_arg19)) := by
  show StableHlo.after hostOps9_2 (StableHlo.after hostOps9_1 (StableHlo.after hostOps9 (W26 m ρ c))) (Proc.devRef .tc main_v198) = _
  after_results_simp
  rw [mid4_b]
  rfl

set_option maxHeartbeats 4000000 in
/-- THE LAYER: the finalize region's output array is the layer function of the entry arrays. -/
theorem layer4 : W30 (F := Ideal) m ρ c (Proc.devRef .tc main_v199)
    = layerKDIS (xwDIS (W24 m ρ c (Proc.devRef .tc main_arg1)) (W24 m ρ c (Proc.devRef .tc main_arg18)))
        (W24 m ρ c (Proc.devRef .tc main_arg19)) (W24 m ρ c (Proc.devRef .tc main_arg6)) (W24 m ρ c (Proc.devRef .tc main_arg7)) := by
  refine (W30_arr m ρ c 3).trans ?_
  rw [RegionValue.fin9 (V29 m ρ) c, agg4_val, self4_val, bias4_val]
  rfl

end Cert.KernelIdeal.LayerValue

end
-- ==== Proof.RegionXw10.lean ====
/- Region 10 (x · W, one 1200-row block of x per grid point against the whole 128 × 128 matrix W): after the region
   its output array holds the reference's `dot_general` of the two operand arrays.

   The mathematics, in four steps.
   (1) The body's payload is one matrix product into a zero accumulator, so entry (p, q) of the block it stores is
       the sum over k of x_blk(p, k) · W(k, q).
   (2) The reference's `dot_general` of the whole arrays has entry (r, q) equal to the sum over k of x(r, k) · W(k, q).
   (3) Grid point t reads rows 1200·t … 1200·t + 1199 of x and all of W, and writes the same rows of the output:
       entry (p, q) of its block is entry (1200·t + p, q) of the whole product, because a block coordinate is
       index × size + 1 × the coordinate inside the block.
   (4) Row r lies in the block of point r / 1200, so the blocks cover the array and it ends holding the whole product. -/
import proofs.«406409_j38250978738663_3_alg».proof.Proof.FrameKI
import proofs.«406409_j38250978738663_3_alg».proof.ReferenceIdeal
import proofs.«406409_j38250978738663_3_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Cert.KernelIdeal Cert.KernelIdeal.Gen Cert.KernelIdeal.GenP Idealize.ShloMosaic Idealize.ShloMosaic.TcCoe
open scoped BigOperators

namespace Xw10

/-! ## (1) The block product at an index -/

/-- The operand indices of the block product at output index `j` = (p, q) and contraction coordinate `k`:
    (p, k) in the block of x and (k, q) in W. -/
abbrev blkL (j : S1200x128.Idx) (k : Fin 128) : S1200x128.Idx := fun a => match a with
  | ⟨0, _⟩ => ⟨(j 0).val, (j 0).isLt⟩
  | ⟨1, _⟩ => ⟨k.val, k.isLt⟩
abbrev blkR (j : S1200x128.Idx) (k : Fin 128) : S128x128.Idx := fun a => match a with
  | ⟨0, _⟩ => ⟨k.val, k.isLt⟩
  | ⟨1, _⟩ => ⟨(j 1).val, (j 1).isLt⟩

/-- The product's dimension numbers contract axis 1 of the left operand with axis 0 of the right one: the left
    operand's index keeps the output's row and takes the contraction coordinate as its column, -/
theorem kdot_lhs0 (i : S1200x128.Idx) (q : dot_S1200x128_S128x128_S1200x128_1_0_0_1_n_n.contr.Idx) :
    (dot_S1200x128_S128x128_S1200x128_1_0_0_1_n_n.lhsIdx i q 0).val = (i 0).val := by
  unfold DotDims.lhsIdx
  rw [dif_neg (show ¬(0 : Fin S1200x128.rank) ∈ dot_S1200x128_S128x128_S1200x128_1_0_0_1_n_n.lhsBatch by decide), dif_pos (show (0 : Fin S1200x128.rank) ∈ dot_S1200x128_S128x128_S1200x128_1_0_0_1_n_n.lhsNonContracting by decide)]
  rfl
theorem kdot_lhs1 (i : S1200x128.Idx) (q : dot_S1200x128_S128x128_S1200x128_1_0_0_1_n_n.contr.Idx) :
    (dot_S1200x128_S128x128_S1200x128_1_0_0_1_n_n.lhsIdx i q 1).val = (q ⟨0, by decide⟩).val :=
  dot_S1200x128_S128x128_S1200x128_1_0_0_1_n_n.lhsIdx_val_of_single rfl i q
/-- and the right operand's takes the contraction coordinate as its row and keeps the output's column. -/
theorem kdot_rhs0 (i : S1200x128.Idx) (q : dot_S1200x128_S128x128_S1200x128_1_0_0_1_n_n.contr.Idx) :
    (dot_S1200x128_S128x128_S1200x128_1_0_0_1_n_n.rhsIdx i q 0).val = (q ⟨0, by decide⟩).val :=
  dot_S1200x128_S128x128_S1200x128_1_0_0_1_n_n.rhsIdx_val_of_single rfl i q
theorem kdot_rhs1 (i : S1200x128.Idx) (q : dot_S1200x128_S128x128_S1200x128_1_0_0_1_n_n.contr.Idx) :
    (dot_S1200x128_S128x128_S1200x128_1_0_0_1_n_n.rhsIdx i q 1).val = (i 1).val := by
  unfold DotDims.rhsIdx
  rw [dif_neg (show ¬(1 : Fin S128x128.rank) ∈ dot_S1200x128_S128x128_S1200x128_1_0_0_1_n_n.rhsBatch by decide), dif_pos (show (1 : Fin S128x128.rank) ∈ dot_S1200x128_S128x128_S1200x128_1_0_0_1_n_n.rhsNonContracting by decide)]
  rfl

/-- The payload at an index: a matrix product into the zero accumulator is the bare sum of products (an identity
    reshape of the left operand, where the body has one, changes nothing), re-indexed from the one-axis contraction
    index to its coordinate. -/
theorem pay_apply (x0 : Vec Ideal S1200x128 .f32) (x1 : Vec Ideal S128x128 .f32) (j : S1200x128.Idx) :
    k10_pay1 (F := Ideal) x0 x1 j = ∑ k : Fin 128, x0 (blkL j k) * x1 (blkR j k) := by
  unfold k10_pay1
  simp only [matmul, shapeCast_self]
  rw [Ideal.matmul_constant_zero_apply, ← Equiv.sum_comp (ValueIdx.contrEquiv1 dot_S1200x128_S128x128_S1200x128_1_0_0_1_n_n 128 rfl rfl).symm]
  refine Finset.sum_congr rfl fun k _ => ?_
  have hk := ValueIdx.contrEquiv1_symm_val dot_S1200x128_S128x128_S1200x128_1_0_0_1_n_n 128 rfl rfl k
  have el : dot_S1200x128_S128x128_S1200x128_1_0_0_1_n_n.lhsIdx j ((ValueIdx.contrEquiv1 dot_S1200x128_S128x128_S1200x128_1_0_0_1_n_n 128 rfl rfl).symm k) = blkL j k := funext fun a => Fin.ext (by
    match a with
    | ⟨0, _⟩ => exact kdot_lhs0 _ _
    | ⟨1, _⟩ => exact (kdot_lhs1 _ _).trans hk)
  have er : dot_S1200x128_S128x128_S1200x128_1_0_0_1_n_n.rhsIdx j ((ValueIdx.contrEquiv1 dot_S1200x128_S128x128_S1200x128_1_0_0_1_n_n 128 rfl rfl).symm k) = blkR j k := funext fun a => Fin.ext (by
    match a with
    | ⟨0, _⟩ => exact (kdot_rhs0 _ _).trans hk
    | ⟨1, _⟩ => exact kdot_rhs1 _ _)
  rw [el, er]

/-! ## (2) The whole-array product, and the reference's `dot_general` as that product -/

/-- The operand indices of the whole-array product at output index `i` = (r, q) and contraction coordinate `k`:
    (r, k) in x and (k, q) in W. -/
abbrev arrL (i : S6000x128.Idx) (k : Fin 128) : S6000x128.Idx := fun a => match a with
  | ⟨0, _⟩ => ⟨(i 0).val, (i 0).isLt⟩
  | ⟨1, _⟩ => ⟨k.val, k.isLt⟩
abbrev arrR (i : S6000x128.Idx) (k : Fin 128) : S128x128.Idx := fun a => match a with
  | ⟨0, _⟩ => ⟨k.val, k.isLt⟩
  | ⟨1, _⟩ => ⟨(i 1).val, (i 1).isLt⟩

/-- The whole-array product x · W: entry (r, q) is the sum over k of x(r, k) · W(k, q). -/
def xwG (X : Vec Ideal S6000x128 .f32) (W : Vec Ideal S128x128 .f32) : Vec Ideal S6000x128 .f32 :=
  fun i => ∑ k : Fin 128, X (arrL i k) * W (arrR i k)

/-- The reference's dimension numbers are the same contraction, on the whole arrays. -/
theorem rdot_lhs0 (i : S6000x128.Idx) (q : Cert.ReferenceIdeal.dot_S6000x128_S128x128_S6000x128_1_0_0_1_n_n.contr.Idx) :
    (Cert.ReferenceIdeal.dot_S6000x128_S128x128_S6000x128_1_0_0_1_n_n.lhsIdx i q 0).val = (i 0).val := by
  unfold DotDims.lhsIdx
  rw [dif_neg (show ¬(0 : Fin S6000x128.rank) ∈ Cert.ReferenceIdeal.dot_S6000x128_S128x128_S6000x128_1_0_0_1_n_n.lhsBatch by decide), dif_pos (show (0 : Fin S6000x128.rank) ∈ Cert.ReferenceIdeal.dot_S6000x128_S128x128_S6000x128_1_0_0_1_n_n.lhsNonContracting by decide)]
  rfl
theorem rdot_lhs1 (i : S6000x128.Idx) (q : Cert.ReferenceIdeal.dot_S6000x128_S128x128_S6000x128_1_0_0_1_n_n.contr.Idx) :
    (Cert.ReferenceIdeal.dot_S6000x128_S128x128_S6000x128_1_0_0_1_n_n.lhsIdx i q 1).val = (q ⟨0, by decide⟩).val :=
  Cert.ReferenceIdeal.dot_S6000x128_S128x128_S6000x128_1_0_0_1_n_n.lhsIdx_val_of_single rfl i q
theorem rdot_rhs0 (i : S6000x128.Idx) (q : Cert.ReferenceIdeal.dot_S6000x128_S128x128_S6000x128_1_0_0_1_n_n.contr.Idx) :
    (Cert.ReferenceIdeal.dot_S6000x128_S128x128_S6000x128_1_0_0_1_n_n.rhsIdx i q 0).val = (q ⟨0, by decide⟩).val :=
  Cert.ReferenceIdeal.dot_S6000x128_S128x128_S6000x128_1_0_0_1_n_n.rhsIdx_val_of_single rfl i q
theorem rdot_rhs1 (i : S6000x128.Idx) (q : Cert.ReferenceIdeal.dot_S6000x128_S128x128_S6000x128_1_0_0_1_n_n.contr.Idx) :
    (Cert.ReferenceIdeal.dot_S6000x128_S128x128_S6000x128_1_0_0_1_n_n.rhsIdx i q 1).val = (i 1).val := by
  unfold DotDims.rhsIdx
  rw [dif_neg (show ¬(1 : Fin S128x128.rank) ∈ Cert.ReferenceIdeal.dot_S6000x128_S128x128_S6000x128_1_0_0_1_n_n.rhsBatch by decide), dif_pos (show (1 : Fin S128x128.rank) ∈ Cert.ReferenceIdeal.dot_S6000x128_S128x128_S6000x128_1_0_0_1_n_n.rhsNonContracting by decide)]
  rfl

/-- The reference's `dot_general` of the two arrays is that product, index by index: at the ideal values it is the
    bare sum over the contraction index, re-indexed to the contraction coordinate. -/
theorem ref_eq (X : Vec Ideal S6000x128 .f32) (W : Vec Ideal S128x128 .f32) :
    Host.dotGeneral (F := Ideal) (φ₁ := .f32) (φ₂ := .f32) Cert.ReferenceIdeal.dot_S6000x128_S128x128_S6000x128_1_0_0_1_n_n none X W = xwG X W := by
  funext i
  simp only [Host.dotGeneral]
  rw [Ideal.dotGeneral_apply, ← Equiv.sum_comp (ValueIdx.contrEquiv1 Cert.ReferenceIdeal.dot_S6000x128_S128x128_S6000x128_1_0_0_1_n_n 128 rfl rfl).symm]
  unfold xwG
  refine Finset.sum_congr rfl fun k _ => ?_
  have hk := ValueIdx.contrEquiv1_symm_val Cert.ReferenceIdeal.dot_S6000x128_S128x128_S6000x128_1_0_0_1_n_n 128 rfl rfl k
  have el : Cert.ReferenceIdeal.dot_S6000x128_S128x128_S6000x128_1_0_0_1_n_n.lhsIdx i ((ValueIdx.contrEquiv1 Cert.ReferenceIdeal.dot_S6000x128_S128x128_S6000x128_1_0_0_1_n_n 128 rfl rfl).symm k) = arrL i k := funext fun a => Fin.ext (by
    match a with
    | ⟨0, _⟩ => exact rdot_lhs0 _ _
    | ⟨1, _⟩ => exact (rdot_lhs1 _ _).trans hk)
  have er : Cert.ReferenceIdeal.dot_S6000x128_S128x128_S6000x128_1_0_0_1_n_n.rhsIdx i ((ValueIdx.contrEquiv1 Cert.ReferenceIdeal.dot_S6000x128_S128x128_S6000x128_1_0_0_1_n_n 128 rfl rfl).symm k) = arrR i k := funext fun a => Fin.ext (by
    match a with
    | ⟨0, _⟩ => exact (rdot_rhs0 _ _).trans hk
    | ⟨1, _⟩ => exact rdot_rhs1 _ _)
  rw [el, er]

/-! ## (3) What a grid point writes back is its block of the whole product -/

/-- The two operand arrays as the region finds them, named at their literal vector types (so that products of their
    entries are products of extended reals). -/
abbrev xarr (V : (c : Dev nD) → (b : Ref sig .tc) → Buf (Elt Ideal) ((c : Thread nD τ).loc b)) (c : Dev nD) : Vec Ideal S6000x128 .f32 := V c main_v199
abbrev warr (V : (c : Dev nD) → (b : Ref sig .tc) → Buf (Elt Ideal) ((c : Thread nD τ).loc b)) (c : Dev nD) : Vec Ideal S128x128 .f32 := V c main_arg20

theorem hz : (![0, 0] : Fin 2 → Nat) = fun _ => 0 := funext fun a => by fin_cases a <;> rfl

/-- The index maps, decided over the grid: the block of x moves with the output's block along the rows and sits at
    column block 0; W's one block never moves; the output's block at point `t` is row block `t`, column block 0. -/
theorem idx_facts : ∀ t : Fin cfg10.N, win10_0.index t (0 : Fin 2) = win10_2.index t (0 : Fin 2)
    ∧ win10_0.index t (1 : Fin 2) = 0
    ∧ win10_1.index t (0 : Fin 2) = 0
    ∧ win10_1.index t (1 : Fin 2) = 0
    ∧ win10_2.index t (0 : Fin 2) = t.val
    ∧ win10_2.index t (1 : Fin 2) = 0 :=
  (by decide +kernel : ∀ t : Fin grid10.N, _)

/-- What point `t` writes back is block `t` of the whole product of the operand arrays as the region finds them. -/
theorem flushed_eq (V : (c : Dev nD) → (b : Ref sig .tc) → Buf (Elt Ideal) ((c : Thread nD τ).loc b)) (c : Dev nD) (t : Fin cfg10.N) :
    (dat10 (F := Ideal) V c).flushed 2 t = ((cfg10.win 2).blk t).view.read (Elt Ideal) (xwG (V c main_v199) (V c main_arg20)) := by
  show (cfg10.win 2).cut (grid10.coords t) ((dat10 (F := Ideal) V c).after 2 t) = _
  rw [after10_2]
  unfold out10_2
  rw [View.canon_unit_zero hz]
  simp only [View.ld_unit_zero (S := S1200x128) hz, View.ld_unit_zero (S := S128x128) hz]
  obtain ⟨e0, e1, e2, e3, e4, e5⟩ := idx_facts t
  funext j
  show k10_pay1 (F := Ideal) (iblk10 V c 0 t) (iblk10 V c 1 t) j = xwG (V c main_v199) (V c main_arg20) (((cfg10.win 2).blk t).view.emb j)
  refine (pay_apply (iblk10 V c 0 t) (iblk10 V c 1 t) j).trans ?_
  unfold xwG
  refine Finset.sum_congr rfl fun k _ => ?_
  show xarr V c (((cfg10.win 0).blk t).view.emb (blkL j k)) * warr V c (((cfg10.win 1).blk t).view.emb (blkR j k))
    = xarr V c (arrL (((cfg10.win 2).blk t).view.emb j) k) * warr V c (arrR (((cfg10.win 2).blk t).view.emb j) k)
  -- the block of x, read at (p, k), is x at (1200·t + p, k)
  have h0 : ((cfg10.win 0).blk t).view.emb (blkL j k) = arrL (((cfg10.win 2).blk t).view.emb j) k := by
    funext a; apply Fin.ext
    match a with
    | ⟨0, _⟩ => show win10_0.index t (0 : Fin 2) * 1200 + 1 * (j 0).val = win10_2.index t (0 : Fin 2) * 1200 + 1 * (j 0).val; omega
    | ⟨1, _⟩ => show win10_0.index t (1 : Fin 2) * 128 + 1 * k.val = k.val; omega
  -- W's block, read at (k, q), is W at (k, q)
  have h1 : ((cfg10.win 1).blk t).view.emb (blkR j k) = arrR (((cfg10.win 2).blk t).view.emb j) k := by
    funext a; apply Fin.ext
    match a with
    | ⟨0, _⟩ => show win10_1.index t (0 : Fin 2) * 128 + 1 * k.val = k.val; omega
    | ⟨1, _⟩ => show win10_1.index t (1 : Fin 2) * 128 + 1 * (j 1).val = win10_2.index t (1 : Fin 2) * 128 + 1 * (j 1).val; omega
  rw [h0, h1]

/-! ## (4) The blocks cover the array -/

/-- An index of the array is in point `t`'s block iff each coordinate is in the block's range on its axis. -/
theorem mem_blk (t : Fin cfg10.N) (i : S6000x128.Idx) :
    i ∈ ((cfg10.win 2).blk t).view.set ↔ ∀ a : Fin 2, win10_2.index t a * S1200x128.size a ≤ (i a).val ∧ (i a).val < win10_2.index t a * S1200x128.size a + S1200x128.size a := by
  show i ∈ ((View.whole main_v204).slice (win10_2.rect t)).set ↔ _
  rw [View.set_slice_whole, Rect.mem_set_unit]
  exact Iff.rfl

/-- Row `r` lies in the block of point `r / 1200`, which writes back. -/
theorem cover (i : S6000x128.Idx) : ∃ t : Fin cfg10.N, (cfg10.win 2).flush t = true ∧ i ∈ ((cfg10.win 2).blk t).view.set := by
  have hi0 : (i 0).val < 6000 := (i 0).isLt
  have hi1 : (i 1).val < 128 := (i 1).isLt
  have ht : (i 0).val / 1200 < cfg10.N := by show (i 0).val / 1200 < 5; omega
  obtain ⟨e0, e1, e2, e3, e4, e5⟩ := idx_facts ⟨(i 0).val / 1200, ht⟩
  have e4' : win10_2.index ⟨(i 0).val / 1200, ht⟩ (0 : Fin 2) = (i 0).val / 1200 := e4
  refine ⟨⟨(i 0).val / 1200, ht⟩, flush10_2 _, ?_⟩
  rw [mem_blk]
  intro a
  match a with
  | ⟨0, _⟩ => show win10_2.index ⟨(i 0).val / 1200, ht⟩ (0 : Fin 2) * 1200 ≤ (i 0).val ∧ (i 0).val < win10_2.index ⟨(i 0).val / 1200, ht⟩ (0 : Fin 2) * 1200 + 1200; omega
  | ⟨1, _⟩ => show win10_2.index ⟨(i 0).val / 1200, ht⟩ (1 : Fin 2) * 128 ≤ (i 1).val ∧ (i 1).val < win10_2.index ⟨(i 0).val / 1200, ht⟩ (1 : Fin 2) * 128 + 128; omega

end Xw10

/-! ## The array after the region -/

/-- After region 10 its output array holds the reference's `dot_general` of the two operand arrays as the region
    finds them: every point writes its block of the whole product (3), the blocks cover the array (4), and the whole
    product is the reference's (2). -/
theorem xw10 (V : (c : Dev nD) → (b : Ref sig .tc) → Buf (Elt Ideal) ((c : Thread nD τ).loc b)) (c : Dev nD) :
    (dat10 (F := Ideal) V c).arrAt 2 cfg10.N
      = Host.dotGeneral (F := Ideal) (φ₁ := .f32) (φ₂ := .f32) Cert.ReferenceIdeal.dot_S6000x128_S128x128_S6000x128_1_0_0_1_n_n none (V c main_v199) (V c main_arg20) :=
  ((dat10 (F := Ideal) V c).arrAt_eq_of_cover 2 (Xw10.xwG (V c main_v199) (V c main_arg20)) (fun t _ => Xw10.flushed_eq V c t) Xw10.cover).trans
    (Xw10.ref_eq (V c main_v199) (V c main_arg20)).symm

end Cert.KernelIdeal.RegionValue

end
-- ==== Proof.RegionFin11.lean ====
import proofs.«406409_j38250978738663_3_alg».proof.Proof.FrameKI
import proofs.«406409_j38250978738663_3_alg».proof.Proof.Gen.ReferenceIdeal
import proofs.«406409_j38250978738663_3_alg».proof.ReferenceIdeal
import Idealize.ShloMosaic.Lib.Pipeline.Value
import Idealize.ShloMosaic.Lib.ValueIdx
import Idealize.ShloMosaic.Lib.ValueLayout

/-!
# A finalize region as a whole-array operation

The region walks its `[6000, 128]` arrays in blocks of 1200 rows, one block per grid point. At every point the
body adds the aggregate block, the self block and the one bias row (the same `[1, 128]` block at every point,
broadcast down the rows), and takes the maximum with zero. Every operation is pointwise, and the output block at
point `t` is rows `1200 t … 1200 t + 1199`, so the blocks tile the array and the array ends holding
`max (agg + self + bias, 0)` index by index: the function the whole-array operations
`maximumf (addf (addf agg self) (broadcast bias)) (broadcast 0)` compute.
-/

noncomputable section

namespace Cert.KernelIdeal.RegionValue

open Cert.KernelIdeal Cert.KernelIdeal.Gen Cert.KernelIdeal.GenP Idealize.ShloMosaic Idealize.ShloMosaic.TcCoe
open Idealize.ShloMosaic.ValueIdx

namespace Fin11

/-! ## The function the array ends holding -/

/-- The bias row's one index under column `q`. -/
abbrev rowAt (q : Fin 128) : S1x128.Idx := ix2 (0 : Fin 1) q

/-- `max (agg + self + bias row, 0)` over the whole `[6000, 128]` array, as whole-array operations: two sums, the
    bias row broadcast along axis 0, and a maximum against the splat zero. -/
def finG (agg self : Vec Ideal S6000x128 .f32) (bias : Vec Ideal S1x128 .f32) : Vec Ideal S6000x128 .f32 :=
  maximumf
    (addf (addf agg self)
      (broadcastInDim Cert.ReferenceIdeal.S6000x128 ![0, 1] Cert.ReferenceIdeal.Facts₀.bcast_S1x128_S6000x128_0_1 bias))
    (broadcastInDim Cert.ReferenceIdeal.S6000x128 ![] Cert.ReferenceIdeal.Facts₀.bcast_S_S6000x128
      (constant (F := Ideal) Cert.ReferenceIdeal.S_ .f32 0x00000000#32))

/-- At row `r`, column `q` it is the maximum of `agg + self + bias` there (the bias read at column `q` of its one
    row) and the zero word's value: the two sums and the maximum are pointwise, a broadcast along axis 0 forgets
    the row, and a broadcast scalar is the same everywhere. -/
theorem finG_apply (agg self : Vec Ideal S6000x128 .f32) (bias : Vec Ideal S1x128 .f32) (r : Fin 6000) (q : Fin 128) :
    finG agg self bias (ix2 r q)
      = max (agg (ix2 r q) + self (ix2 r q) + bias (rowAt q)) (Ideal.ofBits .f32 0x00000000#32) := by
  unfold finG
  rw [maximumf_apply, addf_apply, addf_apply]
  rw [broadcastInDim_apply ![0, 1] _ bias (ix2 r q) (rowAt q) (fun a => by
        match a with
        | ⟨0, _⟩ => rfl
        | ⟨1, _⟩ => rfl),
      broadcastInDim_apply ![] _ (constant (F := Ideal) Cert.ReferenceIdeal.S_ .f32 0x00000000#32) (ix2 r q) ix0
        (fun a => a.elim0),
      constant_apply]

/-! ## The body's payload at an index -/

/-- The body's stored value at row `p`, column `q` of a block: the three shape casts are to the same shape, so they
    are the identity; the sums and the maximum are pointwise; the `[1, 128]` row broadcast to `[1200, 128]` reads
    column `q` of its one row; the splat scalar is the zero word's value. -/
theorem pay_apply (x0 x1 : Vec Ideal S1200x128 .f32) (x2 : Vec Ideal S1x128 .f32) (p : Fin 1200) (q : Fin 128) :
    k11_pay1 (F := Ideal) x0 x1 x2 (ix2 p q)
      = max (x0 (ix2 p q) + x1 (ix2 p q) + x2 (rowAt q)) (Ideal.ofBits .f32 0x00000000#32) := by
  unfold k11_pay1
  rw [shapeCast_self, shapeCast_self, shapeCast_self, maximumf_apply, addf_apply, addf_apply, broadcast_apply,
    broadcastTo_1b_ab_apply]
  rfl

/-! ## From blocks to the array -/

/-- The zero offsets of a whole-buffer load or store, as a constant function. -/
theorem zero_offsets : (![0, 0] : Fin 2 → Nat) = fun _ => 0 :=
  funext fun a => by
    match a with
    | ⟨0, _⟩ => rfl
    | ⟨1, _⟩ => rfl

/-- The index maps, decided over the grid: the aggregate, self and output windows are at block row `t`, block
    column 0; the bias window is at block (0, 0) at every point. -/
theorem index_facts : ∀ t : Fin cfg11.N,
    win11_0.index t (0 : Fin 2) = t.val ∧ win11_0.index t (1 : Fin 2) = 0
    ∧ win11_1.index t (0 : Fin 2) = t.val ∧ win11_1.index t (1 : Fin 2) = 0
    ∧ win11_2.index t (0 : Fin 2) = 0 ∧ win11_2.index t (1 : Fin 2) = 0
    ∧ win11_3.index t (0 : Fin 2) = t.val ∧ win11_3.index t (1 : Fin 2) = 0 :=
  (by decide +kernel : ∀ t : Fin grid11.N, _)

variable (V : (c : Dev nD) → (b : Ref sig .tc) → Buf (Elt Ideal) ((c : Thread nD τ).loc b))

/-- What point `t` writes back is block `t` of `finG` of the three arrays as the region finds them: the block's
    element (p, q) sits in the array at row `1200 t + p`, column `q` (a block coordinate is index × size + 1 × the
    coordinate inside the block); the aggregate and self blocks are read at that same place, and the bias block is
    the whole bias row. -/
theorem flushed_eq (c : Dev nD) (t : Fin cfg11.N) :
    (dat11 (F := Ideal) V c).flushed 3 t
      = ((cfg11.win 3).blk t).view.read (Elt Ideal) (finG (V c main_v233) (V c main_v237) (V c main_v238)) := by
  show (cfg11.win 3).cut (grid11.coords t) ((dat11 V c).after 3 t) = _
  rw [after11_3]
  unfold out11_3
  rw [View.canon_unit_zero zero_offsets]
  simp only [View.ld_unit_zero (S := S1200x128) zero_offsets, View.ld_unit_zero (S := S1x128) zero_offsets]
  obtain ⟨e00, e01, e10, e11, e20, e21, e30, e31⟩ := index_facts t
  have hN : t.val < 5 := Nat.lt_of_lt_of_eq t.isLt N_11
  funext j
  obtain ⟨p, q, rfl⟩ : ∃ (p : Fin 1200) (q : Fin 128), j = ix2 p q := ⟨j 0, j 1, eq_ix2 j⟩
  have hp : p.val < 1200 := p.isLt
  show k11_pay1 (F := Ideal) (iblk11 V c 0 t) (iblk11 V c 1 t) (iblk11 V c 2 t) (ix2 p q)
      = finG (V c main_v233) (V c main_v237) (V c main_v238) (((cfg11.win 3).blk t).view.emb (ix2 p q))
  have hemb : ((cfg11.win 3).blk t).view.emb (ix2 p q) = ix2 (⟨t.val * 1200 + p.val, by omega⟩ : Fin 6000) q := by
    funext a; apply Fin.ext
    match a with
    | ⟨0, _⟩ => show win11_3.index t (0 : Fin 2) * 1200 + 1 * p.val = t.val * 1200 + p.val; omega
    | ⟨1, _⟩ => show win11_3.index t (1 : Fin 2) * 128 + 1 * q.val = q.val; omega
  rw [hemb, finG_apply]
  refine (pay_apply _ _ _ p q).trans ?_
  have h0 : iblk11 V c 0 t (ix2 p q) = V c main_v233 (ix2 (⟨t.val * 1200 + p.val, by omega⟩ : Fin 6000) q) := by
    show V c main_v233 (((cfg11.win 0).blk t).view.emb (ix2 p q)) = _
    refine congrArg _ (funext fun a => Fin.ext ?_)
    match a with
    | ⟨0, _⟩ => show win11_0.index t (0 : Fin 2) * 1200 + 1 * p.val = t.val * 1200 + p.val; omega
    | ⟨1, _⟩ => show win11_0.index t (1 : Fin 2) * 128 + 1 * q.val = q.val; omega
  have h1 : iblk11 V c 1 t (ix2 p q) = V c main_v237 (ix2 (⟨t.val * 1200 + p.val, by omega⟩ : Fin 6000) q) := by
    show V c main_v237 (((cfg11.win 1).blk t).view.emb (ix2 p q)) = _
    refine congrArg _ (funext fun a => Fin.ext ?_)
    match a with
    | ⟨0, _⟩ => show win11_1.index t (0 : Fin 2) * 1200 + 1 * p.val = t.val * 1200 + p.val; omega
    | ⟨1, _⟩ => show win11_1.index t (1 : Fin 2) * 128 + 1 * q.val = q.val; omega
  have h2 : iblk11 V c 2 t (rowAt q) = V c main_v238 (rowAt q) := by
    show V c main_v238 (((cfg11.win 2).blk t).view.emb (rowAt q)) = _
    refine congrArg _ (funext fun a => Fin.ext ?_)
    match a with
    | ⟨0, _⟩ => show win11_2.index t (0 : Fin 2) * 1 + 1 * 0 = 0; omega
    | ⟨1, _⟩ => show win11_2.index t (1 : Fin 2) * 128 + 1 * q.val = q.val; omega
  rw [h0, h1, h2]

/-- Row `r` of the array lies in the block of point `r / 1200`, and every point writes its block back: the blocks
    cover the array. -/
theorem cover (i : S6000x128.Idx) :
    ∃ t : Fin cfg11.N, (cfg11.win 3).flush t = true ∧ i ∈ ((cfg11.win 3).blk t).view.set := by
  have hi0 : (i 0).val < 6000 := (i 0).isLt
  have hi1 : (i 1).val < 128 := (i 1).isLt
  have ht : (i 0).val / 1200 < cfg11.N := by rw [show cfg11.N = 5 from N_11]; omega
  obtain ⟨-, -, -, -, -, -, e30, e31⟩ := index_facts ⟨(i 0).val / 1200, ht⟩
  refine ⟨⟨(i 0).val / 1200, ht⟩, flush11_3 _, ?_⟩
  show i ∈ ((View.whole main_v239).slice (win11_3.rect ⟨(i 0).val / 1200, ht⟩)).set
  rw [View.set_slice_whole, Rect.mem_set_unit]
  intro a
  match a with
  | ⟨0, _⟩ =>
    show win11_3.index ⟨(i 0).val / 1200, ht⟩ (0 : Fin 2) * 1200 ≤ (i 0).val
      ∧ (i 0).val < win11_3.index ⟨(i 0).val / 1200, ht⟩ (0 : Fin 2) * 1200 + 1200
    rw [e30]
    show (i 0).val / 1200 * 1200 ≤ (i 0).val ∧ (i 0).val < (i 0).val / 1200 * 1200 + 1200
    omega
  | ⟨1, _⟩ =>
    show win11_3.index ⟨(i 0).val / 1200, ht⟩ (1 : Fin 2) * 128 ≤ (i 1).val
      ∧ (i 1).val < win11_3.index ⟨(i 0).val / 1200, ht⟩ (1 : Fin 2) * 128 + 128
    rw [e31]
    omega

/-- The array after the region is `finG` of the three arrays as the region finds them: every block written back is
    a block of `finG`, and the blocks cover the array. -/
theorem array_eq (c : Dev nD) :
    (dat11 (F := Ideal) V c).arrAt 3 cfg11.N = finG (V c main_v233) (V c main_v237) (V c main_v238) :=
  (dat11 (F := Ideal) V c).arrAt_eq_of_cover 3 (finG (V c main_v233) (V c main_v237) (V c main_v238))
    (fun t _ => flushed_eq V c t) cover

end Fin11

/-- The finalize region computes `max (agg + self + bias, 0)` as whole-array operations on the arrays it finds. -/
theorem fin11 (V : (c : Dev nD) → (b : Ref sig .tc) → Buf (Elt Ideal) ((c : Thread nD τ).loc b)) (c : Dev nD) :
    (dat11 (F := Ideal) V c).arrAt 3 cfg11.N
      = maximumf
          (addf (addf (V c main_v233) (V c main_v237))
            (broadcastInDim Cert.ReferenceIdeal.S6000x128 ![0, 1] Cert.ReferenceIdeal.Facts₀.bcast_S1x128_S6000x128_0_1
              (V c main_v238)))
          (broadcastInDim Cert.ReferenceIdeal.S6000x128 ![] Cert.ReferenceIdeal.Facts₀.bcast_S_S6000x128
            (constant (F := Ideal) Cert.ReferenceIdeal.S_ .f32 0x00000000#32)) :=
  Fin11.array_eq V c

end Cert.KernelIdeal.RegionValue
-- ==== Proof.LayerK5.lean ====
/-
  Layer 5 of the kernel's program, read off the boundary contents: what the finalize region leaves in its output
  array is the layer function (kernel's form) of the arrays the layer's first boundary holds. The product `x · W` is
  the xw region's array; the edge rows are slices of the edge list taken by the host stretch before that region; the
  normalisation, the fill-gather, the scatter-add and the self term are the three host stretches between the two
  regions; the last line is the finalize region.
-/
import proofs.«406409_j38250978738663_3_alg».proof.Proof.FrameKI
import proofs.«406409_j38250978738663_3_alg».proof.Proof.Spec
import proofs.«406409_j38250978738663_3_alg».proof.Proof.RegionXw10
import proofs.«406409_j38250978738663_3_alg».proof.Proof.RegionFin11
import Idealize.ShloMosaic.Lib.StableHlo.Run

set_option maxRecDepth 16384

noncomputable section

namespace Cert.KernelIdeal.LayerValue

open Cert.KernelIdeal Cert.KernelIdeal.Gen Cert.KernelIdeal.GenP Idealize.ShloMosaic Idealize.ShloMosaic.TcCoe Idealize.ShloMosaic.StableHlo Cert.Spec

variable (m : (ℓ : Loc nD τ sig) → Buf (Elt Ideal) ℓ) (ρ : Dev nD → PrngReg) (c : Dev nD)

/-- The host stretch before the xw region only slices the edge list: every buffer it does not write is as entered. -/
theorem pre5_x : V31 (F := Ideal) m ρ c main_v199 = W30 m ρ c (Proc.devRef .tc main_v199) := by
  show StableHlo.after hostOps10 (W30 m ρ c) (Proc.devRef .tc main_v199) = _
  after_results_simp
theorem pre5_W : V31 (F := Ideal) m ρ c main_arg20 = W30 m ρ c (Proc.devRef .tc main_arg20) := by
  show StableHlo.after hostOps10 (W30 m ρ c) (Proc.devRef .tc main_arg20) = _
  after_results_simp
theorem pre5_w : W31 (F := Ideal) m ρ c (Proc.devRef .tc main_arg7) = W30 m ρ c (Proc.devRef .tc main_arg7) := by
  show StableHlo.after hostOps10 (W30 m ρ c) (Proc.devRef .tc main_arg7) = _
  after_results_simp
theorem pre5_b : W31 (F := Ideal) m ρ c (Proc.devRef .tc main_arg21) = W30 m ρ c (Proc.devRef .tc main_arg21) := by
  show StableHlo.after hostOps10 (W30 m ρ c) (Proc.devRef .tc main_arg21) = _
  after_results_simp
/-- and what it writes are the two rows of the edge list. -/
theorem pre5_row : W31 (F := Ideal) m ρ c (Proc.devRef .tc main_v201) = rowDIS (W30 m ρ c (Proc.devRef .tc main_arg6)) := by
  show StableHlo.after hostOps10 (W30 m ρ c) (Proc.devRef .tc main_v201) = _
  after_results_simp
  rfl
theorem pre5_col : W31 (F := Ideal) m ρ c (Proc.devRef .tc main_v203) = colDIS (W30 m ρ c (Proc.devRef .tc main_arg6)) := by
  show StableHlo.after hostOps10 (W30 m ρ c) (Proc.devRef .tc main_v203) = _
  after_results_simp
  rfl

set_option maxHeartbeats 4000000 in
/-- The xw region's array is `x · W` of the entry arrays. -/
theorem xw5_val : W32 (F := Ideal) m ρ c (Proc.devRef .tc main_v204)
    = xwDIS (W30 m ρ c (Proc.devRef .tc main_v199)) (W30 m ρ c (Proc.devRef .tc main_arg20)) := by
  refine (W32_arr m ρ c 2).trans ?_
  rw [RegionValue.xw10 (V31 m ρ) c, pre5_x, pre5_W]
  rfl

/-- Past the xw region the other buffers are as the first stretch left them. -/
theorem mid5_row : W32 (F := Ideal) m ρ c (Proc.devRef .tc main_v201) = rowDIS (W30 m ρ c (Proc.devRef .tc main_arg6)) :=
  (W32_of_ne m ρ c main_v201 (by decide)).trans (pre5_row m ρ c)
theorem mid5_col : W32 (F := Ideal) m ρ c (Proc.devRef .tc main_v203) = colDIS (W30 m ρ c (Proc.devRef .tc main_arg6)) :=
  (W32_of_ne m ρ c main_v203 (by decide)).trans (pre5_col m ρ c)
theorem mid5_w : W32 (F := Ideal) m ρ c (Proc.devRef .tc main_arg7) = W30 m ρ c (Proc.devRef .tc main_arg7) :=
  (W32_of_ne m ρ c main_arg7 (by decide)).trans (pre5_w m ρ c)
theorem mid5_b : W32 (F := Ideal) m ρ c (Proc.devRef .tc main_arg21) = W30 m ρ c (Proc.devRef .tc main_arg21) :=
  (W32_of_ne m ρ c main_arg21 (by decide)).trans (pre5_b m ρ c)

set_option maxHeartbeats 4000000 in
/-- The three stretches between the regions: the aggregation over the fill-gathered rows, -/
theorem agg5_val : V35 (F := Ideal) m ρ c main_v233
    = aggDIS (W30 m ρ c (Proc.devRef .tc main_arg6)) (W30 m ρ c (Proc.devRef .tc main_arg7))
        (takeDIS (xwDIS (W30 m ρ c (Proc.devRef .tc main_v199)) (W30 m ρ c (Proc.devRef .tc main_arg20))) (rowDIS (W30 m ρ c (Proc.devRef .tc main_arg6)))) := by
  show StableHlo.after hostOps11_2 (StableHlo.after hostOps11_1 (StableHlo.after hostOps11 (W32 m ρ c))) (Proc.devRef .tc main_v233) = _
  after_results_simp
  simp only [TRef.ofBuf, TRef.toBuf, cast_eq]
  rw [xw5_val, mid5_row, mid5_col, mid5_w]
  rfl
set_option maxHeartbeats 4000000 in
/-- the self term, -/
theorem self5_val : V35 (F := Ideal) m ρ c main_v237
    = selfDIS (W30 m ρ c (Proc.devRef .tc main_arg6)) (W30 m ρ c (Proc.devRef .tc main_arg7))
        (xwDIS (W30 m ρ c (Proc.devRef .tc main_v199)) (W30 m ρ c (Proc.devRef .tc main_arg20))) := by
  show StableHlo.after hostOps11_2 (StableHlo.after hostOps11_1 (StableHlo.after hostOps11 (W32 m ρ c))) (Proc.devRef .tc main_v237) = _
  after_results_simp
  rw [xw5_val, mid5_col, mid5_w]
  rfl
set_option maxHeartbeats 4000000 in
/-- and the bias as a row. -/
theorem bias5_val : V35 (F := Ideal) m ρ c main_v238 = rowK (W30 m ρ c (Proc.devRef .tc main_arg21)) := by
  show StableHlo.after hostOps11_2 (StableHlo.after hostOps11_1 (StableHlo.after hostOps11 (W32 m ρ c))) (Proc.devRef .tc main_v238) = _
  after_results_simp
  rw [mid5_b]
  rfl

set_option maxHeartbeats 4000000 in
/-- THE LAYER: the finalize region's output array is the layer function of the entry arrays. -/
theorem layer5 : W36 (F := Ideal) m ρ c (Proc.devRef .tc main_v239)
    = layerKDIS (xwDIS (W30 m ρ c (Proc.devRef .tc main_v199)) (W30 m ρ c (Proc.devRef .tc main_arg20)))
        (W30 m ρ c (Proc.devRef .tc main_arg21)) (W30 m ρ c (Proc.devRef .tc main_arg6)) (W30 m ρ c (Proc.devRef .tc main_arg7)) := by
  refine (W36_arr m ρ c 3).trans ?_
  rw [RegionValue.fin11 (V35 m ρ) c, agg5_val, self5_val, bias5_val]
  rfl

end Cert.KernelIdeal.LayerValue

end
-- ==== Proof.RegionXw12.lean ====
/- Region 12 (x · W, one 1200-row block of x per grid point against the whole 128 × 128 matrix W): after the region
   its output array holds the reference's `dot_general` of the two operand arrays.

   The mathematics, in four steps.
   (1) The body's payload is one matrix product into a zero accumulator, so entry (p, q) of the block it stores is
       the sum over k of x_blk(p, k) · W(k, q).
   (2) The reference's `dot_general` of the whole arrays has entry (r, q) equal to the sum over k of x(r, k) · W(k, q).
   (3) Grid point t reads rows 1200·t … 1200·t + 1199 of x and all of W, and writes the same rows of the output:
       entry (p, q) of its block is entry (1200·t + p, q) of the whole product, because a block coordinate is
       index × size + 1 × the coordinate inside the block.
   (4) Row r lies in the block of point r / 1200, so the blocks cover the array and it ends holding the whole product. -/
import proofs.«406409_j38250978738663_3_alg».proof.Proof.FrameKI
import proofs.«406409_j38250978738663_3_alg».proof.ReferenceIdeal
import proofs.«406409_j38250978738663_3_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Cert.KernelIdeal Cert.KernelIdeal.Gen Cert.KernelIdeal.GenP Idealize.ShloMosaic Idealize.ShloMosaic.TcCoe
open scoped BigOperators

namespace Xw12

/-! ## (1) The block product at an index -/

/-- The operand indices of the block product at output index `j` = (p, q) and contraction coordinate `k`:
    (p, k) in the block of x and (k, q) in W. -/
abbrev blkL (j : S1200x128.Idx) (k : Fin 128) : S1200x128.Idx := fun a => match a with
  | ⟨0, _⟩ => ⟨(j 0).val, (j 0).isLt⟩
  | ⟨1, _⟩ => ⟨k.val, k.isLt⟩
abbrev blkR (j : S1200x128.Idx) (k : Fin 128) : S128x128.Idx := fun a => match a with
  | ⟨0, _⟩ => ⟨k.val, k.isLt⟩
  | ⟨1, _⟩ => ⟨(j 1).val, (j 1).isLt⟩

/-- The product's dimension numbers contract axis 1 of the left operand with axis 0 of the right one: the left
    operand's index keeps the output's row and takes the contraction coordinate as its column, -/
theorem kdot_lhs0 (i : S1200x128.Idx) (q : dot_S1200x128_S128x128_S1200x128_1_0_0_1_n_n.contr.Idx) :
    (dot_S1200x128_S128x128_S1200x128_1_0_0_1_n_n.lhsIdx i q 0).val = (i 0).val := by
  unfold DotDims.lhsIdx
  rw [dif_neg (show ¬(0 : Fin S1200x128.rank) ∈ dot_S1200x128_S128x128_S1200x128_1_0_0_1_n_n.lhsBatch by decide), dif_pos (show (0 : Fin S1200x128.rank) ∈ dot_S1200x128_S128x128_S1200x128_1_0_0_1_n_n.lhsNonContracting by decide)]
  rfl
theorem kdot_lhs1 (i : S1200x128.Idx) (q : dot_S1200x128_S128x128_S1200x128_1_0_0_1_n_n.contr.Idx) :
    (dot_S1200x128_S128x128_S1200x128_1_0_0_1_n_n.lhsIdx i q 1).val = (q ⟨0, by decide⟩).val :=
  dot_S1200x128_S128x128_S1200x128_1_0_0_1_n_n.lhsIdx_val_of_single rfl i q
/-- and the right operand's takes the contraction coordinate as its row and keeps the output's column. -/
theorem kdot_rhs0 (i : S1200x128.Idx) (q : dot_S1200x128_S128x128_S1200x128_1_0_0_1_n_n.contr.Idx) :
    (dot_S1200x128_S128x128_S1200x128_1_0_0_1_n_n.rhsIdx i q 0).val = (q ⟨0, by decide⟩).val :=
  dot_S1200x128_S128x128_S1200x128_1_0_0_1_n_n.rhsIdx_val_of_single rfl i q
theorem kdot_rhs1 (i : S1200x128.Idx) (q : dot_S1200x128_S128x128_S1200x128_1_0_0_1_n_n.contr.Idx) :
    (dot_S1200x128_S128x128_S1200x128_1_0_0_1_n_n.rhsIdx i q 1).val = (i 1).val := by
  unfold DotDims.rhsIdx
  rw [dif_neg (show ¬(1 : Fin S128x128.rank) ∈ dot_S1200x128_S128x128_S1200x128_1_0_0_1_n_n.rhsBatch by decide), dif_pos (show (1 : Fin S128x128.rank) ∈ dot_S1200x128_S128x128_S1200x128_1_0_0_1_n_n.rhsNonContracting by decide)]
  rfl

/-- The payload at an index: a matrix product into the zero accumulator is the bare sum of products (an identity
    reshape of the left operand, where the body has one, changes nothing), re-indexed from the one-axis contraction
    index to its coordinate. -/
theorem pay_apply (x0 : Vec Ideal S1200x128 .f32) (x1 : Vec Ideal S128x128 .f32) (j : S1200x128.Idx) :
    k12_pay1 (F := Ideal) x0 x1 j = ∑ k : Fin 128, x0 (blkL j k) * x1 (blkR j k) := by
  unfold k12_pay1
  simp only [matmul, shapeCast_self]
  rw [Ideal.matmul_constant_zero_apply, ← Equiv.sum_comp (ValueIdx.contrEquiv1 dot_S1200x128_S128x128_S1200x128_1_0_0_1_n_n 128 rfl rfl).symm]
  refine Finset.sum_congr rfl fun k _ => ?_
  have hk := ValueIdx.contrEquiv1_symm_val dot_S1200x128_S128x128_S1200x128_1_0_0_1_n_n 128 rfl rfl k
  have el : dot_S1200x128_S128x128_S1200x128_1_0_0_1_n_n.lhsIdx j ((ValueIdx.contrEquiv1 dot_S1200x128_S128x128_S1200x128_1_0_0_1_n_n 128 rfl rfl).symm k) = blkL j k := funext fun a => Fin.ext (by
    match a with
    | ⟨0, _⟩ => exact kdot_lhs0 _ _
    | ⟨1, _⟩ => exact (kdot_lhs1 _ _).trans hk)
  have er : dot_S1200x128_S128x128_S1200x128_1_0_0_1_n_n.rhsIdx j ((ValueIdx.contrEquiv1 dot_S1200x128_S128x128_S1200x128_1_0_0_1_n_n 128 rfl rfl).symm k) = blkR j k := funext fun a => Fin.ext (by
    match a with
    | ⟨0, _⟩ => exact (kdot_rhs0 _ _).trans hk
    | ⟨1, _⟩ => exact kdot_rhs1 _ _)
  rw [el, er]

/-! ## (2) The whole-array product, and the reference's `dot_general` as that product -/

/-- The operand indices of the whole-array product at output index `i` = (r, q) and contraction coordinate `k`:
    (r, k) in x and (k, q) in W. -/
abbrev arrL (i : S6000x128.Idx) (k : Fin 128) : S6000x128.Idx := fun a => match a with
  | ⟨0, _⟩ => ⟨(i 0).val, (i 0).isLt⟩
  | ⟨1, _⟩ => ⟨k.val, k.isLt⟩
abbrev arrR (i : S6000x128.Idx) (k : Fin 128) : S128x128.Idx := fun a => match a with
  | ⟨0, _⟩ => ⟨k.val, k.isLt⟩
  | ⟨1, _⟩ => ⟨(i 1).val, (i 1).isLt⟩

/-- The whole-array product x · W: entry (r, q) is the sum over k of x(r, k) · W(k, q). -/
def xwG (X : Vec Ideal S6000x128 .f32) (W : Vec Ideal S128x128 .f32) : Vec Ideal S6000x128 .f32 :=
  fun i => ∑ k : Fin 128, X (arrL i k) * W (arrR i k)

/-- The reference's dimension numbers are the same contraction, on the whole arrays. -/
theorem rdot_lhs0 (i : S6000x128.Idx) (q : Cert.ReferenceIdeal.dot_S6000x128_S128x128_S6000x128_1_0_0_1_n_n.contr.Idx) :
    (Cert.ReferenceIdeal.dot_S6000x128_S128x128_S6000x128_1_0_0_1_n_n.lhsIdx i q 0).val = (i 0).val := by
  unfold DotDims.lhsIdx
  rw [dif_neg (show ¬(0 : Fin S6000x128.rank) ∈ Cert.ReferenceIdeal.dot_S6000x128_S128x128_S6000x128_1_0_0_1_n_n.lhsBatch by decide), dif_pos (show (0 : Fin S6000x128.rank) ∈ Cert.ReferenceIdeal.dot_S6000x128_S128x128_S6000x128_1_0_0_1_n_n.lhsNonContracting by decide)]
  rfl
theorem rdot_lhs1 (i : S6000x128.Idx) (q : Cert.ReferenceIdeal.dot_S6000x128_S128x128_S6000x128_1_0_0_1_n_n.contr.Idx) :
    (Cert.ReferenceIdeal.dot_S6000x128_S128x128_S6000x128_1_0_0_1_n_n.lhsIdx i q 1).val = (q ⟨0, by decide⟩).val :=
  Cert.ReferenceIdeal.dot_S6000x128_S128x128_S6000x128_1_0_0_1_n_n.lhsIdx_val_of_single rfl i q
theorem rdot_rhs0 (i : S6000x128.Idx) (q : Cert.ReferenceIdeal.dot_S6000x128_S128x128_S6000x128_1_0_0_1_n_n.contr.Idx) :
    (Cert.ReferenceIdeal.dot_S6000x128_S128x128_S6000x128_1_0_0_1_n_n.rhsIdx i q 0).val = (q ⟨0, by decide⟩).val :=
  Cert.ReferenceIdeal.dot_S6000x128_S128x128_S6000x128_1_0_0_1_n_n.rhsIdx_val_of_single rfl i q
theorem rdot_rhs1 (i : S6000x128.Idx) (q : Cert.ReferenceIdeal.dot_S6000x128_S128x128_S6000x128_1_0_0_1_n_n.contr.Idx) :
    (Cert.ReferenceIdeal.dot_S6000x128_S128x128_S6000x128_1_0_0_1_n_n.rhsIdx i q 1).val = (i 1).val := by
  unfold DotDims.rhsIdx
  rw [dif_neg (show ¬(1 : Fin S128x128.rank) ∈ Cert.ReferenceIdeal.dot_S6000x128_S128x128_S6000x128_1_0_0_1_n_n.rhsBatch by decide), dif_pos (show (1 : Fin S128x128.rank) ∈ Cert.ReferenceIdeal.dot_S6000x128_S128x128_S6000x128_1_0_0_1_n_n.rhsNonContracting by decide)]
  rfl

/-- The reference's `dot_general` of the two arrays is that product, index by index: at the ideal values it is the
    bare sum over the contraction index, re-indexed to the contraction coordinate. -/
theorem ref_eq (X : Vec Ideal S6000x128 .f32) (W : Vec Ideal S128x128 .f32) :
    Host.dotGeneral (F := Ideal) (φ₁ := .f32) (φ₂ := .f32) Cert.ReferenceIdeal.dot_S6000x128_S128x128_S6000x128_1_0_0_1_n_n none X W = xwG X W := by
  funext i
  simp only [Host.dotGeneral]
  rw [Ideal.dotGeneral_apply, ← Equiv.sum_comp (ValueIdx.contrEquiv1 Cert.ReferenceIdeal.dot_S6000x128_S128x128_S6000x128_1_0_0_1_n_n 128 rfl rfl).symm]
  unfold xwG
  refine Finset.sum_congr rfl fun k _ => ?_
  have hk := ValueIdx.contrEquiv1_symm_val Cert.ReferenceIdeal.dot_S6000x128_S128x128_S6000x128_1_0_0_1_n_n 128 rfl rfl k
  have el : Cert.ReferenceIdeal.dot_S6000x128_S128x128_S6000x128_1_0_0_1_n_n.lhsIdx i ((ValueIdx.contrEquiv1 Cert.ReferenceIdeal.dot_S6000x128_S128x128_S6000x128_1_0_0_1_n_n 128 rfl rfl).symm k) = arrL i k := funext fun a => Fin.ext (by
    match a with
    | ⟨0, _⟩ => exact rdot_lhs0 _ _
    | ⟨1, _⟩ => exact (rdot_lhs1 _ _).trans hk)
  have er : Cert.ReferenceIdeal.dot_S6000x128_S128x128_S6000x128_1_0_0_1_n_n.rhsIdx i ((ValueIdx.contrEquiv1 Cert.ReferenceIdeal.dot_S6000x128_S128x128_S6000x128_1_0_0_1_n_n 128 rfl rfl).symm k) = arrR i k := funext fun a => Fin.ext (by
    match a with
    | ⟨0, _⟩ => exact (rdot_rhs0 _ _).trans hk
    | ⟨1, _⟩ => exact rdot_rhs1 _ _)
  rw [el, er]

/-! ## (3) What a grid point writes back is its block of the whole product -/

/-- The two operand arrays as the region finds them, named at their literal vector types (so that products of their
    entries are products of extended reals). -/
abbrev xarr (V : (c : Dev nD) → (b : Ref sig .tc) → Buf (Elt Ideal) ((c : Thread nD τ).loc b)) (c : Dev nD) : Vec Ideal S6000x128 .f32 := V c main_arg1
abbrev warr (V : (c : Dev nD) → (b : Ref sig .tc) → Buf (Elt Ideal) ((c : Thread nD τ).loc b)) (c : Dev nD) : Vec Ideal S128x128 .f32 := V c main_arg22

theorem hz : (![0, 0] : Fin 2 → Nat) = fun _ => 0 := funext fun a => by fin_cases a <;> rfl

/-- The index maps, decided over the grid: the block of x moves with the output's block along the rows and sits at
    column block 0; W's one block never moves; the output's block at point `t` is row block `t`, column block 0. -/
theorem idx_facts : ∀ t : Fin cfg12.N, win12_0.index t (0 : Fin 2) = win12_2.index t (0 : Fin 2)
    ∧ win12_0.index t (1 : Fin 2) = 0
    ∧ win12_1.index t (0 : Fin 2) = 0
    ∧ win12_1.index t (1 : Fin 2) = 0
    ∧ win12_2.index t (0 : Fin 2) = t.val
    ∧ win12_2.index t (1 : Fin 2) = 0 :=
  (by decide +kernel : ∀ t : Fin grid12.N, _)

/-- What point `t` writes back is block `t` of the whole product of the operand arrays as the region finds them. -/
theorem flushed_eq (V : (c : Dev nD) → (b : Ref sig .tc) → Buf (Elt Ideal) ((c : Thread nD τ).loc b)) (c : Dev nD) (t : Fin cfg12.N) :
    (dat12 (F := Ideal) V c).flushed 2 t = ((cfg12.win 2).blk t).view.read (Elt Ideal) (xwG (V c main_arg1) (V c main_arg22)) := by
  show (cfg12.win 2).cut (grid12.coords t) ((dat12 (F := Ideal) V c).after 2 t) = _
  rw [after12_2]
  unfold out12_2
  rw [View.canon_unit_zero hz]
  simp only [View.ld_unit_zero (S := S1200x128) hz, View.ld_unit_zero (S := S128x128) hz]
  obtain ⟨e0, e1, e2, e3, e4, e5⟩ := idx_facts t
  funext j
  show k12_pay1 (F := Ideal) (iblk12 V c 0 t) (iblk12 V c 1 t) j = xwG (V c main_arg1) (V c main_arg22) (((cfg12.win 2).blk t).view.emb j)
  refine (pay_apply (iblk12 V c 0 t) (iblk12 V c 1 t) j).trans ?_
  unfold xwG
  refine Finset.sum_congr rfl fun k _ => ?_
  show xarr V c (((cfg12.win 0).blk t).view.emb (blkL j k)) * warr V c (((cfg12.win 1).blk t).view.emb (blkR j k))
    = xarr V c (arrL (((cfg12.win 2).blk t).view.emb j) k) * warr V c (arrR (((cfg12.win 2).blk t).view.emb j) k)
  -- the block of x, read at (p, k), is x at (1200·t + p, k)
  have h0 : ((cfg12.win 0).blk t).view.emb (blkL j k) = arrL (((cfg12.win 2).blk t).view.emb j) k := by
    funext a; apply Fin.ext
    match a with
    | ⟨0, _⟩ => show win12_0.index t (0 : Fin 2) * 1200 + 1 * (j 0).val = win12_2.index t (0 : Fin 2) * 1200 + 1 * (j 0).val; omega
    | ⟨1, _⟩ => show win12_0.index t (1 : Fin 2) * 128 + 1 * k.val = k.val; omega
  -- W's block, read at (k, q), is W at (k, q)
  have h1 : ((cfg12.win 1).blk t).view.emb (blkR j k) = arrR (((cfg12.win 2).blk t).view.emb j) k := by
    funext a; apply Fin.ext
    match a with
    | ⟨0, _⟩ => show win12_1.index t (0 : Fin 2) * 128 + 1 * k.val = k.val; omega
    | ⟨1, _⟩ => show win12_1.index t (1 : Fin 2) * 128 + 1 * (j 1).val = win12_2.index t (1 : Fin 2) * 128 + 1 * (j 1).val; omega
  rw [h0, h1]

/-! ## (4) The blocks cover the array -/

/-- An index of the array is in point `t`'s block iff each coordinate is in the block's range on its axis. -/
theorem mem_blk (t : Fin cfg12.N) (i : S6000x128.Idx) :
    i ∈ ((cfg12.win 2).blk t).view.set ↔ ∀ a : Fin 2, win12_2.index t a * S1200x128.size a ≤ (i a).val ∧ (i a).val < win12_2.index t a * S1200x128.size a + S1200x128.size a := by
  show i ∈ ((View.whole main_v244).slice (win12_2.rect t)).set ↔ _
  rw [View.set_slice_whole, Rect.mem_set_unit]
  exact Iff.rfl

/-- Row `r` lies in the block of point `r / 1200`, which writes back. -/
theorem cover (i : S6000x128.Idx) : ∃ t : Fin cfg12.N, (cfg12.win 2).flush t = true ∧ i ∈ ((cfg12.win 2).blk t).view.set := by
  have hi0 : (i 0).val < 6000 := (i 0).isLt
  have hi1 : (i 1).val < 128 := (i 1).isLt
  have ht : (i 0).val / 1200 < cfg12.N := by show (i 0).val / 1200 < 5; omega
  obtain ⟨e0, e1, e2, e3, e4, e5⟩ := idx_facts ⟨(i 0).val / 1200, ht⟩
  have e4' : win12_2.index ⟨(i 0).val / 1200, ht⟩ (0 : Fin 2) = (i 0).val / 1200 := e4
  refine ⟨⟨(i 0).val / 1200, ht⟩, flush12_2 _, ?_⟩
  rw [mem_blk]
  intro a
  match a with
  | ⟨0, _⟩ => show win12_2.index ⟨(i 0).val / 1200, ht⟩ (0 : Fin 2) * 1200 ≤ (i 0).val ∧ (i 0).val < win12_2.index ⟨(i 0).val / 1200, ht⟩ (0 : Fin 2) * 1200 + 1200; omega
  | ⟨1, _⟩ => show win12_2.index ⟨(i 0).val / 1200, ht⟩ (1 : Fin 2) * 128 ≤ (i 1).val ∧ (i 1).val < win12_2.index ⟨(i 0).val / 1200, ht⟩ (1 : Fin 2) * 128 + 128; omega

end Xw12

/-! ## The array after the region -/

/-- After region 12 its output array holds the reference's `dot_general` of the two operand arrays as the region
    finds them: every point writes its block of the whole product (3), the blocks cover the array (4), and the whole
    product is the reference's (2). -/
theorem xw12 (V : (c : Dev nD) → (b : Ref sig .tc) → Buf (Elt Ideal) ((c : Thread nD τ).loc b)) (c : Dev nD) :
    (dat12 (F := Ideal) V c).arrAt 2 cfg12.N
      = Host.dotGeneral (F := Ideal) (φ₁ := .f32) (φ₂ := .f32) Cert.ReferenceIdeal.dot_S6000x128_S128x128_S6000x128_1_0_0_1_n_n none (V c main_arg1) (V c main_arg22) :=
  ((dat12 (F := Ideal) V c).arrAt_eq_of_cover 2 (Xw12.xwG (V c main_arg1) (V c main_arg22)) (fun t _ => Xw12.flushed_eq V c t) Xw12.cover).trans
    (Xw12.ref_eq (V c main_arg1) (V c main_arg22)).symm

end Cert.KernelIdeal.RegionValue

end
-- ==== Proof.RegionFin13.lean ====
import proofs.«406409_j38250978738663_3_alg».proof.Proof.FrameKI
import proofs.«406409_j38250978738663_3_alg».proof.Proof.Gen.ReferenceIdeal
import proofs.«406409_j38250978738663_3_alg».proof.ReferenceIdeal
import Idealize.ShloMosaic.Lib.Pipeline.Value
import Idealize.ShloMosaic.Lib.ValueIdx
import Idealize.ShloMosaic.Lib.ValueLayout

/-!
# A finalize region as a whole-array operation

The region walks its `[6000, 128]` arrays in blocks of 1200 rows, one block per grid point. At every point the
body adds the aggregate block, the self block and the one bias row (the same `[1, 128]` block at every point,
broadcast down the rows), and takes the maximum with zero. Every operation is pointwise, and the output block at
point `t` is rows `1200 t … 1200 t + 1199`, so the blocks tile the array and the array ends holding
`max (agg + self + bias, 0)` index by index: the function the whole-array operations
`maximumf (addf (addf agg self) (broadcast bias)) (broadcast 0)` compute.
-/

noncomputable section

namespace Cert.KernelIdeal.RegionValue

open Cert.KernelIdeal Cert.KernelIdeal.Gen Cert.KernelIdeal.GenP Idealize.ShloMosaic Idealize.ShloMosaic.TcCoe
open Idealize.ShloMosaic.ValueIdx

namespace Fin13

/-! ## The function the array ends holding -/

/-- The bias row's one index under column `q`. -/
abbrev rowAt (q : Fin 128) : S1x128.Idx := ix2 (0 : Fin 1) q

/-- `max (agg + self + bias row, 0)` over the whole `[6000, 128]` array, as whole-array operations: two sums, the
    bias row broadcast along axis 0, and a maximum against the splat zero. -/
def finG (agg self : Vec Ideal S6000x128 .f32) (bias : Vec Ideal S1x128 .f32) : Vec Ideal S6000x128 .f32 :=
  maximumf
    (addf (addf agg self)
      (broadcastInDim Cert.ReferenceIdeal.S6000x128 ![0, 1] Cert.ReferenceIdeal.Facts₀.bcast_S1x128_S6000x128_0_1 bias))
    (broadcastInDim Cert.ReferenceIdeal.S6000x128 ![] Cert.ReferenceIdeal.Facts₀.bcast_S_S6000x128
      (constant (F := Ideal) Cert.ReferenceIdeal.S_ .f32 0x00000000#32))

/-- At row `r`, column `q` it is the maximum of `agg + self + bias` there (the bias read at column `q` of its one
    row) and the zero word's value: the two sums and the maximum are pointwise, a broadcast along axis 0 forgets
    the row, and a broadcast scalar is the same everywhere. -/
theorem finG_apply (agg self : Vec Ideal S6000x128 .f32) (bias : Vec Ideal S1x128 .f32) (r : Fin 6000) (q : Fin 128) :
    finG agg self bias (ix2 r q)
      = max (agg (ix2 r q) + self (ix2 r q) + bias (rowAt q)) (Ideal.ofBits .f32 0x00000000#32) := by
  unfold finG
  rw [maximumf_apply, addf_apply, addf_apply]
  rw [broadcastInDim_apply ![0, 1] _ bias (ix2 r q) (rowAt q) (fun a => by
        match a with
        | ⟨0, _⟩ => rfl
        | ⟨1, _⟩ => rfl),
      broadcastInDim_apply ![] _ (constant (F := Ideal) Cert.ReferenceIdeal.S_ .f32 0x00000000#32) (ix2 r q) ix0
        (fun a => a.elim0),
      constant_apply]

/-! ## The body's payload at an index -/

/-- The body's stored value at row `p`, column `q` of a block: the three shape casts are to the same shape, so they
    are the identity; the sums and the maximum are pointwise; the `[1, 128]` row broadcast to `[1200, 128]` reads
    column `q` of its one row; the splat scalar is the zero word's value. -/
theorem pay_apply (x0 x1 : Vec Ideal S1200x128 .f32) (x2 : Vec Ideal S1x128 .f32) (p : Fin 1200) (q : Fin 128) :
    k13_pay1 (F := Ideal) x0 x1 x2 (ix2 p q)
      = max (x0 (ix2 p q) + x1 (ix2 p q) + x2 (rowAt q)) (Ideal.ofBits .f32 0x00000000#32) := by
  unfold k13_pay1
  rw [shapeCast_self, shapeCast_self, shapeCast_self, maximumf_apply, addf_apply, addf_apply, broadcast_apply,
    broadcastTo_1b_ab_apply]
  rfl

/-! ## From blocks to the array -/

/-- The zero offsets of a whole-buffer load or store, as a constant function. -/
theorem zero_offsets : (![0, 0] : Fin 2 → Nat) = fun _ => 0 :=
  funext fun a => by
    match a with
    | ⟨0, _⟩ => rfl
    | ⟨1, _⟩ => rfl

/-- The index maps, decided over the grid: the aggregate, self and output windows are at block row `t`, block
    column 0; the bias window is at block (0, 0) at every point. -/
theorem index_facts : ∀ t : Fin cfg13.N,
    win13_0.index t (0 : Fin 2) = t.val ∧ win13_0.index t (1 : Fin 2) = 0
    ∧ win13_1.index t (0 : Fin 2) = t.val ∧ win13_1.index t (1 : Fin 2) = 0
    ∧ win13_2.index t (0 : Fin 2) = 0 ∧ win13_2.index t (1 : Fin 2) = 0
    ∧ win13_3.index t (0 : Fin 2) = t.val ∧ win13_3.index t (1 : Fin 2) = 0 :=
  (by decide +kernel : ∀ t : Fin grid13.N, _)

variable (V : (c : Dev nD) → (b : Ref sig .tc) → Buf (Elt Ideal) ((c : Thread nD τ).loc b))

/-- What point `t` writes back is block `t` of `finG` of the three arrays as the region finds them: the block's
    element (p, q) sits in the array at row `1200 t + p`, column `q` (a block coordinate is index × size + 1 × the
    coordinate inside the block); the aggregate and self blocks are read at that same place, and the bias block is
    the whole bias row. -/
theorem flushed_eq (c : Dev nD) (t : Fin cfg13.N) :
    (dat13 (F := Ideal) V c).flushed 3 t
      = ((cfg13.win 3).blk t).view.read (Elt Ideal) (finG (V c main_v273) (V c main_v277) (V c main_v278)) := by
  show (cfg13.win 3).cut (grid13.coords t) ((dat13 V c).after 3 t) = _
  rw [after13_3]
  unfold out13_3
  rw [View.canon_unit_zero zero_offsets]
  simp only [View.ld_unit_zero (S := S1200x128) zero_offsets, View.ld_unit_zero (S := S1x128) zero_offsets]
  obtain ⟨e00, e01, e10, e11, e20, e21, e30, e31⟩ := index_facts t
  have hN : t.val < 5 := Nat.lt_of_lt_of_eq t.isLt N_13
  funext j
  obtain ⟨p, q, rfl⟩ : ∃ (p : Fin 1200) (q : Fin 128), j = ix2 p q := ⟨j 0, j 1, eq_ix2 j⟩
  have hp : p.val < 1200 := p.isLt
  show k13_pay1 (F := Ideal) (iblk13 V c 0 t) (iblk13 V c 1 t) (iblk13 V c 2 t) (ix2 p q)
      = finG (V c main_v273) (V c main_v277) (V c main_v278) (((cfg13.win 3).blk t).view.emb (ix2 p q))
  have hemb : ((cfg13.win 3).blk t).view.emb (ix2 p q) = ix2 (⟨t.val * 1200 + p.val, by omega⟩ : Fin 6000) q := by
    funext a; apply Fin.ext
    match a with
    | ⟨0, _⟩ => show win13_3.index t (0 : Fin 2) * 1200 + 1 * p.val = t.val * 1200 + p.val; omega
    | ⟨1, _⟩ => show win13_3.index t (1 : Fin 2) * 128 + 1 * q.val = q.val; omega
  rw [hemb, finG_apply]
  refine (pay_apply _ _ _ p q).trans ?_
  have h0 : iblk13 V c 0 t (ix2 p q) = V c main_v273 (ix2 (⟨t.val * 1200 + p.val, by omega⟩ : Fin 6000) q) := by
    show V c main_v273 (((cfg13.win 0).blk t).view.emb (ix2 p q)) = _
    refine congrArg _ (funext fun a => Fin.ext ?_)
    match a with
    | ⟨0, _⟩ => show win13_0.index t (0 : Fin 2) * 1200 + 1 * p.val = t.val * 1200 + p.val; omega
    | ⟨1, _⟩ => show win13_0.index t (1 : Fin 2) * 128 + 1 * q.val = q.val; omega
  have h1 : iblk13 V c 1 t (ix2 p q) = V c main_v277 (ix2 (⟨t.val * 1200 + p.val, by omega⟩ : Fin 6000) q) := by
    show V c main_v277 (((cfg13.win 1).blk t).view.emb (ix2 p q)) = _
    refine congrArg _ (funext fun a => Fin.ext ?_)
    match a with
    | ⟨0, _⟩ => show win13_1.index t (0 : Fin 2) * 1200 + 1 * p.val = t.val * 1200 + p.val; omega
    | ⟨1, _⟩ => show win13_1.index t (1 : Fin 2) * 128 + 1 * q.val = q.val; omega
  have h2 : iblk13 V c 2 t (rowAt q) = V c main_v278 (rowAt q) := by
    show V c main_v278 (((cfg13.win 2).blk t).view.emb (rowAt q)) = _
    refine congrArg _ (funext fun a => Fin.ext ?_)
    match a with
    | ⟨0, _⟩ => show win13_2.index t (0 : Fin 2) * 1 + 1 * 0 = 0; omega
    | ⟨1, _⟩ => show win13_2.index t (1 : Fin 2) * 128 + 1 * q.val = q.val; omega
  rw [h0, h1, h2]

/-- Row `r` of the array lies in the block of point `r / 1200`, and every point writes its block back: the blocks
    cover the array. -/
theorem cover (i : S6000x128.Idx) :
    ∃ t : Fin cfg13.N, (cfg13.win 3).flush t = true ∧ i ∈ ((cfg13.win 3).blk t).view.set := by
  have hi0 : (i 0).val < 6000 := (i 0).isLt
  have hi1 : (i 1).val < 128 := (i 1).isLt
  have ht : (i 0).val / 1200 < cfg13.N := by rw [show cfg13.N = 5 from N_13]; omega
  obtain ⟨-, -, -, -, -, -, e30, e31⟩ := index_facts ⟨(i 0).val / 1200, ht⟩
  refine ⟨⟨(i 0).val / 1200, ht⟩, flush13_3 _, ?_⟩
  show i ∈ ((View.whole main_v279).slice (win13_3.rect ⟨(i 0).val / 1200, ht⟩)).set
  rw [View.set_slice_whole, Rect.mem_set_unit]
  intro a
  match a with
  | ⟨0, _⟩ =>
    show win13_3.index ⟨(i 0).val / 1200, ht⟩ (0 : Fin 2) * 1200 ≤ (i 0).val
      ∧ (i 0).val < win13_3.index ⟨(i 0).val / 1200, ht⟩ (0 : Fin 2) * 1200 + 1200
    rw [e30]
    show (i 0).val / 1200 * 1200 ≤ (i 0).val ∧ (i 0).val < (i 0).val / 1200 * 1200 + 1200
    omega
  | ⟨1, _⟩ =>
    show win13_3.index ⟨(i 0).val / 1200, ht⟩ (1 : Fin 2) * 128 ≤ (i 1).val
      ∧ (i 1).val < win13_3.index ⟨(i 0).val / 1200, ht⟩ (1 : Fin 2) * 128 + 128
    rw [e31]
    omega

/-- The array after the region is `finG` of the three arrays as the region finds them: every block written back is
    a block of `finG`, and the blocks cover the array. -/
theorem array_eq (c : Dev nD) :
    (dat13 (F := Ideal) V c).arrAt 3 cfg13.N = finG (V c main_v273) (V c main_v277) (V c main_v278) :=
  (dat13 (F := Ideal) V c).arrAt_eq_of_cover 3 (finG (V c main_v273) (V c main_v277) (V c main_v278))
    (fun t _ => flushed_eq V c t) cover

end Fin13

/-- The finalize region computes `max (agg + self + bias, 0)` as whole-array operations on the arrays it finds. -/
theorem fin13 (V : (c : Dev nD) → (b : Ref sig .tc) → Buf (Elt Ideal) ((c : Thread nD τ).loc b)) (c : Dev nD) :
    (dat13 (F := Ideal) V c).arrAt 3 cfg13.N
      = maximumf
          (addf (addf (V c main_v273) (V c main_v277))
            (broadcastInDim Cert.ReferenceIdeal.S6000x128 ![0, 1] Cert.ReferenceIdeal.Facts₀.bcast_S1x128_S6000x128_0_1
              (V c main_v278)))
          (broadcastInDim Cert.ReferenceIdeal.S6000x128 ![] Cert.ReferenceIdeal.Facts₀.bcast_S_S6000x128
            (constant (F := Ideal) Cert.ReferenceIdeal.S_ .f32 0x00000000#32)) :=
  Fin13.array_eq V c

end Cert.KernelIdeal.RegionValue
-- ==== Proof.LayerK6.lean ====
/-
  Layer 6 of the kernel's program, read off the boundary contents: what the finalize region leaves in its output
  array is the layer function (kernel's form) of the arrays the layer's first boundary holds. The product `x · W` is
  the xw region's array; the edge rows are slices of the edge list taken by the host stretch before that region; the
  normalisation, the fill-gather, the scatter-add and the self term are the three host stretches between the two
  regions; the last line is the finalize region.
-/
import proofs.«406409_j38250978738663_3_alg».proof.Proof.FrameKI
import proofs.«406409_j38250978738663_3_alg».proof.Proof.Spec
import proofs.«406409_j38250978738663_3_alg».proof.Proof.RegionXw12
import proofs.«406409_j38250978738663_3_alg».proof.Proof.RegionFin13
import Idealize.ShloMosaic.Lib.StableHlo.Run

set_option maxRecDepth 16384

noncomputable section

namespace Cert.KernelIdeal.LayerValue

open Cert.KernelIdeal Cert.KernelIdeal.Gen Cert.KernelIdeal.GenP Idealize.ShloMosaic Idealize.ShloMosaic.TcCoe Idealize.ShloMosaic.StableHlo Cert.Spec

variable (m : (ℓ : Loc nD τ sig) → Buf (Elt Ideal) ℓ) (ρ : Dev nD → PrngReg) (c : Dev nD)

/-- The host stretch before the xw region only slices the edge list: every buffer it does not write is as entered. -/
theorem pre6_x : V37 (F := Ideal) m ρ c main_arg1 = W36 m ρ c (Proc.devRef .tc main_arg1) := by
  show StableHlo.after hostOps12 (W36 m ρ c) (Proc.devRef .tc main_arg1) = _
  after_results_simp
theorem pre6_W : V37 (F := Ideal) m ρ c main_arg22 = W36 m ρ c (Proc.devRef .tc main_arg22) := by
  show StableHlo.after hostOps12 (W36 m ρ c) (Proc.devRef .tc main_arg22) = _
  after_results_simp
theorem pre6_w : W37 (F := Ideal) m ρ c (Proc.devRef .tc main_arg9) = W36 m ρ c (Proc.devRef .tc main_arg9) := by
  show StableHlo.after hostOps12 (W36 m ρ c) (Proc.devRef .tc main_arg9) = _
  after_results_simp
theorem pre6_b : W37 (F := Ideal) m ρ c (Proc.devRef .tc main_arg23) = W36 m ρ c (Proc.devRef .tc main_arg23) := by
  show StableHlo.after hostOps12 (W36 m ρ c) (Proc.devRef .tc main_arg23) = _
  after_results_simp
/-- and what it writes are the two rows of the edge list. -/
theorem pre6_row : W37 (F := Ideal) m ρ c (Proc.devRef .tc main_v241) = rowDIS (W36 m ρ c (Proc.devRef .tc main_arg8)) := by
  show StableHlo.after hostOps12 (W36 m ρ c) (Proc.devRef .tc main_v241) = _
  after_results_simp
  rfl
theorem pre6_col : W37 (F := Ideal) m ρ c (Proc.devRef .tc main_v243) = colDIS (W36 m ρ c (Proc.devRef .tc main_arg8)) := by
  show StableHlo.after hostOps12 (W36 m ρ c) (Proc.devRef .tc main_v243) = _
  after_results_simp
  rfl

set_option maxHeartbeats 4000000 in
/-- The xw region's array is `x · W` of the entry arrays. -/
theorem xw6_val : W38 (F := Ideal) m ρ c (Proc.devRef .tc main_v244)
    = xwDIS (W36 m ρ c (Proc.devRef .tc main_arg1)) (W36 m ρ c (Proc.devRef .tc main_arg22)) := by
  refine (W38_arr m ρ c 2).trans ?_
  rw [RegionValue.xw12 (V37 m ρ) c, pre6_x, pre6_W]
  rfl

/-- Past the xw region the other buffers are as the first stretch left them. -/
theorem mid6_row : W38 (F := Ideal) m ρ c (Proc.devRef .tc main_v241) = rowDIS (W36 m ρ c (Proc.devRef .tc main_arg8)) :=
  (W38_of_ne m ρ c main_v241 (by decide)).trans (pre6_row m ρ c)
theorem mid6_col : W38 (F := Ideal) m ρ c (Proc.devRef .tc main_v243) = colDIS (W36 m ρ c (Proc.devRef .tc main_arg8)) :=
  (W38_of_ne m ρ c main_v243 (by decide)).trans (pre6_col m ρ c)
theorem mid6_w : W38 (F := Ideal) m ρ c (Proc.devRef .tc main_arg9) = W36 m ρ c (Proc.devRef .tc main_arg9) :=
  (W38_of_ne m ρ c main_arg9 (by decide)).trans (pre6_w m ρ c)
theorem mid6_b : W38 (F := Ideal) m ρ c (Proc.devRef .tc main_arg23) = W36 m ρ c (Proc.devRef .tc main_arg23) :=
  (W38_of_ne m ρ c main_arg23 (by decide)).trans (pre6_b m ρ c)

set_option maxHeartbeats 4000000 in
/-- The three stretches between the regions: the aggregation over the fill-gathered rows, -/
theorem agg6_val : V41 (F := Ideal) m ρ c main_v273
    = aggDIS (W36 m ρ c (Proc.devRef .tc main_arg8)) (W36 m ρ c (Proc.devRef .tc main_arg9))
        (takeDIS (xwDIS (W36 m ρ c (Proc.devRef .tc main_arg1)) (W36 m ρ c (Proc.devRef .tc main_arg22))) (rowDIS (W36 m ρ c (Proc.devRef .tc main_arg8)))) := by
  show StableHlo.after hostOps13_2 (StableHlo.after hostOps13_1 (StableHlo.after hostOps13 (W38 m ρ c))) (Proc.devRef .tc main_v273) = _
  after_results_simp
  simp only [TRef.ofBuf, TRef.toBuf, cast_eq]
  rw [xw6_val, mid6_row, mid6_col, mid6_w]
  rfl
set_option maxHeartbeats 4000000 in
/-- the self term, -/
theorem self6_val : V41 (F := Ideal) m ρ c main_v277
    = selfDIS (W36 m ρ c (Proc.devRef .tc main_arg8)) (W36 m ρ c (Proc.devRef .tc main_arg9))
        (xwDIS (W36 m ρ c (Proc.devRef .tc main_arg1)) (W36 m ρ c (Proc.devRef .tc main_arg22))) := by
  show StableHlo.after hostOps13_2 (StableHlo.after hostOps13_1 (StableHlo.after hostOps13 (W38 m ρ c))) (Proc.devRef .tc main_v277) = _
  after_results_simp
  rw [xw6_val, mid6_col, mid6_w]
  rfl
set_option maxHeartbeats 4000000 in
/-- and the bias as a row. -/
theorem bias6_val : V41 (F := Ideal) m ρ c main_v278 = rowK (W36 m ρ c (Proc.devRef .tc main_arg23)) := by
  show StableHlo.after hostOps13_2 (StableHlo.after hostOps13_1 (StableHlo.after hostOps13 (W38 m ρ c))) (Proc.devRef .tc main_v278) = _
  after_results_simp
  rw [mid6_b]
  rfl

set_option maxHeartbeats 4000000 in
/-- THE LAYER: the finalize region's output array is the layer function of the entry arrays. -/
theorem layer6 : W42 (F := Ideal) m ρ c (Proc.devRef .tc main_v279)
    = layerKDIS (xwDIS (W36 m ρ c (Proc.devRef .tc main_arg1)) (W36 m ρ c (Proc.devRef .tc main_arg22)))
        (W36 m ρ c (Proc.devRef .tc main_arg23)) (W36 m ρ c (Proc.devRef .tc main_arg8)) (W36 m ρ c (Proc.devRef .tc main_arg9)) := by
  refine (W42_arr m ρ c 3).trans ?_
  rw [RegionValue.fin13 (V41 m ρ) c, agg6_val, self6_val, bias6_val]
  rfl

end Cert.KernelIdeal.LayerValue

end
-- ==== Proof.RegionXw14.lean ====
/- Region 14 (x · W, one 1200-row block of x per grid point against the whole 128 × 128 matrix W): after the region
   its output array holds the reference's `dot_general` of the two operand arrays.

   The mathematics, in four steps.
   (1) The body's payload is one matrix product into a zero accumulator, so entry (p, q) of the block it stores is
       the sum over k of x_blk(p, k) · W(k, q).
   (2) The reference's `dot_general` of the whole arrays has entry (r, q) equal to the sum over k of x(r, k) · W(k, q).
   (3) Grid point t reads rows 1200·t … 1200·t + 1199 of x and all of W, and writes the same rows of the output:
       entry (p, q) of its block is entry (1200·t + p, q) of the whole product, because a block coordinate is
       index × size + 1 × the coordinate inside the block.
   (4) Row r lies in the block of point r / 1200, so the blocks cover the array and it ends holding the whole product. -/
import proofs.«406409_j38250978738663_3_alg».proof.Proof.FrameKI
import proofs.«406409_j38250978738663_3_alg».proof.ReferenceIdeal
import proofs.«406409_j38250978738663_3_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Cert.KernelIdeal Cert.KernelIdeal.Gen Cert.KernelIdeal.GenP Idealize.ShloMosaic Idealize.ShloMosaic.TcCoe
open scoped BigOperators

namespace Xw14

/-! ## (1) The block product at an index -/

/-- The operand indices of the block product at output index `j` = (p, q) and contraction coordinate `k`:
    (p, k) in the block of x and (k, q) in W. -/
abbrev blkL (j : S1200x128.Idx) (k : Fin 128) : S1200x128.Idx := fun a => match a with
  | ⟨0, _⟩ => ⟨(j 0).val, (j 0).isLt⟩
  | ⟨1, _⟩ => ⟨k.val, k.isLt⟩
abbrev blkR (j : S1200x128.Idx) (k : Fin 128) : S128x128.Idx := fun a => match a with
  | ⟨0, _⟩ => ⟨k.val, k.isLt⟩
  | ⟨1, _⟩ => ⟨(j 1).val, (j 1).isLt⟩

/-- The product's dimension numbers contract axis 1 of the left operand with axis 0 of the right one: the left
    operand's index keeps the output's row and takes the contraction coordinate as its column, -/
theorem kdot_lhs0 (i : S1200x128.Idx) (q : dot_S1200x128_S128x128_S1200x128_1_0_0_1_n_n.contr.Idx) :
    (dot_S1200x128_S128x128_S1200x128_1_0_0_1_n_n.lhsIdx i q 0).val = (i 0).val := by
  unfold DotDims.lhsIdx
  rw [dif_neg (show ¬(0 : Fin S1200x128.rank) ∈ dot_S1200x128_S128x128_S1200x128_1_0_0_1_n_n.lhsBatch by decide), dif_pos (show (0 : Fin S1200x128.rank) ∈ dot_S1200x128_S128x128_S1200x128_1_0_0_1_n_n.lhsNonContracting by decide)]
  rfl
theorem kdot_lhs1 (i : S1200x128.Idx) (q : dot_S1200x128_S128x128_S1200x128_1_0_0_1_n_n.contr.Idx) :
    (dot_S1200x128_S128x128_S1200x128_1_0_0_1_n_n.lhsIdx i q 1).val = (q ⟨0, by decide⟩).val :=
  dot_S1200x128_S128x128_S1200x128_1_0_0_1_n_n.lhsIdx_val_of_single rfl i q
/-- and the right operand's takes the contraction coordinate as its row and keeps the output's column. -/
theorem kdot_rhs0 (i : S1200x128.Idx) (q : dot_S1200x128_S128x128_S1200x128_1_0_0_1_n_n.contr.Idx) :
    (dot_S1200x128_S128x128_S1200x128_1_0_0_1_n_n.rhsIdx i q 0).val = (q ⟨0, by decide⟩).val :=
  dot_S1200x128_S128x128_S1200x128_1_0_0_1_n_n.rhsIdx_val_of_single rfl i q
theorem kdot_rhs1 (i : S1200x128.Idx) (q : dot_S1200x128_S128x128_S1200x128_1_0_0_1_n_n.contr.Idx) :
    (dot_S1200x128_S128x128_S1200x128_1_0_0_1_n_n.rhsIdx i q 1).val = (i 1).val := by
  unfold DotDims.rhsIdx
  rw [dif_neg (show ¬(1 : Fin S128x128.rank) ∈ dot_S1200x128_S128x128_S1200x128_1_0_0_1_n_n.rhsBatch by decide), dif_pos (show (1 : Fin S128x128.rank) ∈ dot_S1200x128_S128x128_S1200x128_1_0_0_1_n_n.rhsNonContracting by decide)]
  rfl

/-- The payload at an index: a matrix product into the zero accumulator is the bare sum of products (an identity
    reshape of the left operand, where the body has one, changes nothing), re-indexed from the one-axis contraction
    index to its coordinate. -/
theorem pay_apply (x0 : Vec Ideal S1200x128 .f32) (x1 : Vec Ideal S128x128 .f32) (j : S1200x128.Idx) :
    k14_pay1 (F := Ideal) x0 x1 j = ∑ k : Fin 128, x0 (blkL j k) * x1 (blkR j k) := by
  unfold k14_pay1
  simp only [matmul, shapeCast_self]
  rw [Ideal.matmul_constant_zero_apply, ← Equiv.sum_comp (ValueIdx.contrEquiv1 dot_S1200x128_S128x128_S1200x128_1_0_0_1_n_n 128 rfl rfl).symm]
  refine Finset.sum_congr rfl fun k _ => ?_
  have hk := ValueIdx.contrEquiv1_symm_val dot_S1200x128_S128x128_S1200x128_1_0_0_1_n_n 128 rfl rfl k
  have el : dot_S1200x128_S128x128_S1200x128_1_0_0_1_n_n.lhsIdx j ((ValueIdx.contrEquiv1 dot_S1200x128_S128x128_S1200x128_1_0_0_1_n_n 128 rfl rfl).symm k) = blkL j k := funext fun a => Fin.ext (by
    match a with
    | ⟨0, _⟩ => exact kdot_lhs0 _ _
    | ⟨1, _⟩ => exact (kdot_lhs1 _ _).trans hk)
  have er : dot_S1200x128_S128x128_S1200x128_1_0_0_1_n_n.rhsIdx j ((ValueIdx.contrEquiv1 dot_S1200x128_S128x128_S1200x128_1_0_0_1_n_n 128 rfl rfl).symm k) = blkR j k := funext fun a => Fin.ext (by
    match a with
    | ⟨0, _⟩ => exact (kdot_rhs0 _ _).trans hk
    | ⟨1, _⟩ => exact kdot_rhs1 _ _)
  rw [el, er]

/-! ## (2) The whole-array product, and the reference's `dot_general` as that product -/

/-- The operand indices of the whole-array product at output index `i` = (r, q) and contraction coordinate `k`:
    (r, k) in x and (k, q) in W. -/
abbrev arrL (i : S6000x128.Idx) (k : Fin 128) : S6000x128.Idx := fun a => match a with
  | ⟨0, _⟩ => ⟨(i 0).val, (i 0).isLt⟩
  | ⟨1, _⟩ => ⟨k.val, k.isLt⟩
abbrev arrR (i : S6000x128.Idx) (k : Fin 128) : S128x128.Idx := fun a => match a with
  | ⟨0, _⟩ => ⟨k.val, k.isLt⟩
  | ⟨1, _⟩ => ⟨(i 1).val, (i 1).isLt⟩

/-- The whole-array product x · W: entry (r, q) is the sum over k of x(r, k) · W(k, q). -/
def xwG (X : Vec Ideal S6000x128 .f32) (W : Vec Ideal S128x128 .f32) : Vec Ideal S6000x128 .f32 :=
  fun i => ∑ k : Fin 128, X (arrL i k) * W (arrR i k)

/-- The reference's dimension numbers are the same contraction, on the whole arrays. -/
theorem rdot_lhs0 (i : S6000x128.Idx) (q : Cert.ReferenceIdeal.dot_S6000x128_S128x128_S6000x128_1_0_0_1_n_n.contr.Idx) :
    (Cert.ReferenceIdeal.dot_S6000x128_S128x128_S6000x128_1_0_0_1_n_n.lhsIdx i q 0).val = (i 0).val := by
  unfold DotDims.lhsIdx
  rw [dif_neg (show ¬(0 : Fin S6000x128.rank) ∈ Cert.ReferenceIdeal.dot_S6000x128_S128x128_S6000x128_1_0_0_1_n_n.lhsBatch by decide), dif_pos (show (0 : Fin S6000x128.rank) ∈ Cert.ReferenceIdeal.dot_S6000x128_S128x128_S6000x128_1_0_0_1_n_n.lhsNonContracting by decide)]
  rfl
theorem rdot_lhs1 (i : S6000x128.Idx) (q : Cert.ReferenceIdeal.dot_S6000x128_S128x128_S6000x128_1_0_0_1_n_n.contr.Idx) :
    (Cert.ReferenceIdeal.dot_S6000x128_S128x128_S6000x128_1_0_0_1_n_n.lhsIdx i q 1).val = (q ⟨0, by decide⟩).val :=
  Cert.ReferenceIdeal.dot_S6000x128_S128x128_S6000x128_1_0_0_1_n_n.lhsIdx_val_of_single rfl i q
theorem rdot_rhs0 (i : S6000x128.Idx) (q : Cert.ReferenceIdeal.dot_S6000x128_S128x128_S6000x128_1_0_0_1_n_n.contr.Idx) :
    (Cert.ReferenceIdeal.dot_S6000x128_S128x128_S6000x128_1_0_0_1_n_n.rhsIdx i q 0).val = (q ⟨0, by decide⟩).val :=
  Cert.ReferenceIdeal.dot_S6000x128_S128x128_S6000x128_1_0_0_1_n_n.rhsIdx_val_of_single rfl i q
theorem rdot_rhs1 (i : S6000x128.Idx) (q : Cert.ReferenceIdeal.dot_S6000x128_S128x128_S6000x128_1_0_0_1_n_n.contr.Idx) :
    (Cert.ReferenceIdeal.dot_S6000x128_S128x128_S6000x128_1_0_0_1_n_n.rhsIdx i q 1).val = (i 1).val := by
  unfold DotDims.rhsIdx
  rw [dif_neg (show ¬(1 : Fin S128x128.rank) ∈ Cert.ReferenceIdeal.dot_S6000x128_S128x128_S6000x128_1_0_0_1_n_n.rhsBatch by decide), dif_pos (show (1 : Fin S128x128.rank) ∈ Cert.ReferenceIdeal.dot_S6000x128_S128x128_S6000x128_1_0_0_1_n_n.rhsNonContracting by decide)]
  rfl

/-- The reference's `dot_general` of the two arrays is that product, index by index: at the ideal values it is the
    bare sum over the contraction index, re-indexed to the contraction coordinate. -/
theorem ref_eq (X : Vec Ideal S6000x128 .f32) (W : Vec Ideal S128x128 .f32) :
    Host.dotGeneral (F := Ideal) (φ₁ := .f32) (φ₂ := .f32) Cert.ReferenceIdeal.dot_S6000x128_S128x128_S6000x128_1_0_0_1_n_n none X W = xwG X W := by
  funext i
  simp only [Host.dotGeneral]
  rw [Ideal.dotGeneral_apply, ← Equiv.sum_comp (ValueIdx.contrEquiv1 Cert.ReferenceIdeal.dot_S6000x128_S128x128_S6000x128_1_0_0_1_n_n 128 rfl rfl).symm]
  unfold xwG
  refine Finset.sum_congr rfl fun k _ => ?_
  have hk := ValueIdx.contrEquiv1_symm_val Cert.ReferenceIdeal.dot_S6000x128_S128x128_S6000x128_1_0_0_1_n_n 128 rfl rfl k
  have el : Cert.ReferenceIdeal.dot_S6000x128_S128x128_S6000x128_1_0_0_1_n_n.lhsIdx i ((ValueIdx.contrEquiv1 Cert.ReferenceIdeal.dot_S6000x128_S128x128_S6000x128_1_0_0_1_n_n 128 rfl rfl).symm k) = arrL i k := funext fun a => Fin.ext (by
    match a with
    | ⟨0, _⟩ => exact rdot_lhs0 _ _
    | ⟨1, _⟩ => exact (rdot_lhs1 _ _).trans hk)
  have er : Cert.ReferenceIdeal.dot_S6000x128_S128x128_S6000x128_1_0_0_1_n_n.rhsIdx i ((ValueIdx.contrEquiv1 Cert.ReferenceIdeal.dot_S6000x128_S128x128_S6000x128_1_0_0_1_n_n 128 rfl rfl).symm k) = arrR i k := funext fun a => Fin.ext (by
    match a with
    | ⟨0, _⟩ => exact (rdot_rhs0 _ _).trans hk
    | ⟨1, _⟩ => exact rdot_rhs1 _ _)
  rw [el, er]

/-! ## (3) What a grid point writes back is its block of the whole product -/

/-- The two operand arrays as the region finds them, named at their literal vector types (so that products of their
    entries are products of extended reals). -/
abbrev xarr (V : (c : Dev nD) → (b : Ref sig .tc) → Buf (Elt Ideal) ((c : Thread nD τ).loc b)) (c : Dev nD) : Vec Ideal S6000x128 .f32 := V c main_v279
abbrev warr (V : (c : Dev nD) → (b : Ref sig .tc) → Buf (Elt Ideal) ((c : Thread nD τ).loc b)) (c : Dev nD) : Vec Ideal S128x128 .f32 := V c main_arg24

theorem hz : (![0, 0] : Fin 2 → Nat) = fun _ => 0 := funext fun a => by fin_cases a <;> rfl

/-- The index maps, decided over the grid: the block of x moves with the output's block along the rows and sits at
    column block 0; W's one block never moves; the output's block at point `t` is row block `t`, column block 0. -/
theorem idx_facts : ∀ t : Fin cfg14.N, win14_0.index t (0 : Fin 2) = win14_2.index t (0 : Fin 2)
    ∧ win14_0.index t (1 : Fin 2) = 0
    ∧ win14_1.index t (0 : Fin 2) = 0
    ∧ win14_1.index t (1 : Fin 2) = 0
    ∧ win14_2.index t (0 : Fin 2) = t.val
    ∧ win14_2.index t (1 : Fin 2) = 0 :=
  (by decide +kernel : ∀ t : Fin grid14.N, _)

/-- What point `t` writes back is block `t` of the whole product of the operand arrays as the region finds them. -/
theorem flushed_eq (V : (c : Dev nD) → (b : Ref sig .tc) → Buf (Elt Ideal) ((c : Thread nD τ).loc b)) (c : Dev nD) (t : Fin cfg14.N) :
    (dat14 (F := Ideal) V c).flushed 2 t = ((cfg14.win 2).blk t).view.read (Elt Ideal) (xwG (V c main_v279) (V c main_arg24)) := by
  show (cfg14.win 2).cut (grid14.coords t) ((dat14 (F := Ideal) V c).after 2 t) = _
  rw [after14_2]
  unfold out14_2
  rw [View.canon_unit_zero hz]
  simp only [View.ld_unit_zero (S := S1200x128) hz, View.ld_unit_zero (S := S128x128) hz]
  obtain ⟨e0, e1, e2, e3, e4, e5⟩ := idx_facts t
  funext j
  show k14_pay1 (F := Ideal) (iblk14 V c 0 t) (iblk14 V c 1 t) j = xwG (V c main_v279) (V c main_arg24) (((cfg14.win 2).blk t).view.emb j)
  refine (pay_apply (iblk14 V c 0 t) (iblk14 V c 1 t) j).trans ?_
  unfold xwG
  refine Finset.sum_congr rfl fun k _ => ?_
  show xarr V c (((cfg14.win 0).blk t).view.emb (blkL j k)) * warr V c (((cfg14.win 1).blk t).view.emb (blkR j k))
    = xarr V c (arrL (((cfg14.win 2).blk t).view.emb j) k) * warr V c (arrR (((cfg14.win 2).blk t).view.emb j) k)
  -- the block of x, read at (p, k), is x at (1200·t + p, k)
  have h0 : ((cfg14.win 0).blk t).view.emb (blkL j k) = arrL (((cfg14.win 2).blk t).view.emb j) k := by
    funext a; apply Fin.ext
    match a with
    | ⟨0, _⟩ => show win14_0.index t (0 : Fin 2) * 1200 + 1 * (j 0).val = win14_2.index t (0 : Fin 2) * 1200 + 1 * (j 0).val; omega
    | ⟨1, _⟩ => show win14_0.index t (1 : Fin 2) * 128 + 1 * k.val = k.val; omega
  -- W's block, read at (k, q), is W at (k, q)
  have h1 : ((cfg14.win 1).blk t).view.emb (blkR j k) = arrR (((cfg14.win 2).blk t).view.emb j) k := by
    funext a; apply Fin.ext
    match a with
    | ⟨0, _⟩ => show win14_1.index t (0 : Fin 2) * 128 + 1 * k.val = k.val; omega
    | ⟨1, _⟩ => show win14_1.index t (1 : Fin 2) * 128 + 1 * (j 1).val = win14_2.index t (1 : Fin 2) * 128 + 1 * (j 1).val; omega
  rw [h0, h1]

/-! ## (4) The blocks cover the array -/

/-- An index of the array is in point `t`'s block iff each coordinate is in the block's range on its axis. -/
theorem mem_blk (t : Fin cfg14.N) (i : S6000x128.Idx) :
    i ∈ ((cfg14.win 2).blk t).view.set ↔ ∀ a : Fin 2, win14_2.index t a * S1200x128.size a ≤ (i a).val ∧ (i a).val < win14_2.index t a * S1200x128.size a + S1200x128.size a := by
  show i ∈ ((View.whole main_v284).slice (win14_2.rect t)).set ↔ _
  rw [View.set_slice_whole, Rect.mem_set_unit]
  exact Iff.rfl

/-- Row `r` lies in the block of point `r / 1200`, which writes back. -/
theorem cover (i : S6000x128.Idx) : ∃ t : Fin cfg14.N, (cfg14.win 2).flush t = true ∧ i ∈ ((cfg14.win 2).blk t).view.set := by
  have hi0 : (i 0).val < 6000 := (i 0).isLt
  have hi1 : (i 1).val < 128 := (i 1).isLt
  have ht : (i 0).val / 1200 < cfg14.N := by show (i 0).val / 1200 < 5; omega
  obtain ⟨e0, e1, e2, e3, e4, e5⟩ := idx_facts ⟨(i 0).val / 1200, ht⟩
  have e4' : win14_2.index ⟨(i 0).val / 1200, ht⟩ (0 : Fin 2) = (i 0).val / 1200 := e4
  refine ⟨⟨(i 0).val / 1200, ht⟩, flush14_2 _, ?_⟩
  rw [mem_blk]
  intro a
  match a with
  | ⟨0, _⟩ => show win14_2.index ⟨(i 0).val / 1200, ht⟩ (0 : Fin 2) * 1200 ≤ (i 0).val ∧ (i 0).val < win14_2.index ⟨(i 0).val / 1200, ht⟩ (0 : Fin 2) * 1200 + 1200; omega
  | ⟨1, _⟩ => show win14_2.index ⟨(i 0).val / 1200, ht⟩ (1 : Fin 2) * 128 ≤ (i 1).val ∧ (i 1).val < win14_2.index ⟨(i 0).val / 1200, ht⟩ (1 : Fin 2) * 128 + 128; omega

end Xw14

/-! ## The array after the region -/

/-- After region 14 its output array holds the reference's `dot_general` of the two operand arrays as the region
    finds them: every point writes its block of the whole product (3), the blocks cover the array (4), and the whole
    product is the reference's (2). -/
theorem xw14 (V : (c : Dev nD) → (b : Ref sig .tc) → Buf (Elt Ideal) ((c : Thread nD τ).loc b)) (c : Dev nD) :
    (dat14 (F := Ideal) V c).arrAt 2 cfg14.N
      = Host.dotGeneral (F := Ideal) (φ₁ := .f32) (φ₂ := .f32) Cert.ReferenceIdeal.dot_S6000x128_S128x128_S6000x128_1_0_0_1_n_n none (V c main_v279) (V c main_arg24) :=
  ((dat14 (F := Ideal) V c).arrAt_eq_of_cover 2 (Xw14.xwG (V c main_v279) (V c main_arg24)) (fun t _ => Xw14.flushed_eq V c t) Xw14.cover).trans
    (Xw14.ref_eq (V c main_v279) (V c main_arg24)).symm

end Cert.KernelIdeal.RegionValue

end
-- ==== Proof.RegionFin15.lean ====
import proofs.«406409_j38250978738663_3_alg».proof.Proof.FrameKI
import proofs.«406409_j38250978738663_3_alg».proof.Proof.Gen.ReferenceIdeal
import proofs.«406409_j38250978738663_3_alg».proof.ReferenceIdeal
import Idealize.ShloMosaic.Lib.Pipeline.Value
import Idealize.ShloMosaic.Lib.ValueIdx
import Idealize.ShloMosaic.Lib.ValueLayout

/-!
# A finalize region as a whole-array operation

The region walks its `[6000, 128]` arrays in blocks of 1200 rows, one block per grid point. At every point the
body adds the aggregate block, the self block and the one bias row (the same `[1, 128]` block at every point,
broadcast down the rows), and takes the maximum with zero. Every operation is pointwise, and the output block at
point `t` is rows `1200 t … 1200 t + 1199`, so the blocks tile the array and the array ends holding
`max (agg + self + bias, 0)` index by index: the function the whole-array operations
`maximumf (addf (addf agg self) (broadcast bias)) (broadcast 0)` compute.
-/

noncomputable section

namespace Cert.KernelIdeal.RegionValue

open Cert.KernelIdeal Cert.KernelIdeal.Gen Cert.KernelIdeal.GenP Idealize.ShloMosaic Idealize.ShloMosaic.TcCoe
open Idealize.ShloMosaic.ValueIdx

namespace Fin15

/-! ## The function the array ends holding -/

/-- The bias row's one index under column `q`. -/
abbrev rowAt (q : Fin 128) : S1x128.Idx := ix2 (0 : Fin 1) q

/-- `max (agg + self + bias row, 0)` over the whole `[6000, 128]` array, as whole-array operations: two sums, the
    bias row broadcast along axis 0, and a maximum against the splat zero. -/
def finG (agg self : Vec Ideal S6000x128 .f32) (bias : Vec Ideal S1x128 .f32) : Vec Ideal S6000x128 .f32 :=
  maximumf
    (addf (addf agg self)
      (broadcastInDim Cert.ReferenceIdeal.S6000x128 ![0, 1] Cert.ReferenceIdeal.Facts₀.bcast_S1x128_S6000x128_0_1 bias))
    (broadcastInDim Cert.ReferenceIdeal.S6000x128 ![] Cert.ReferenceIdeal.Facts₀.bcast_S_S6000x128
      (constant (F := Ideal) Cert.ReferenceIdeal.S_ .f32 0x00000000#32))

/-- At row `r`, column `q` it is the maximum of `agg + self + bias` there (the bias read at column `q` of its one
    row) and the zero word's value: the two sums and the maximum are pointwise, a broadcast along axis 0 forgets
    the row, and a broadcast scalar is the same everywhere. -/
theorem finG_apply (agg self : Vec Ideal S6000x128 .f32) (bias : Vec Ideal S1x128 .f32) (r : Fin 6000) (q : Fin 128) :
    finG agg self bias (ix2 r q)
      = max (agg (ix2 r q) + self (ix2 r q) + bias (rowAt q)) (Ideal.ofBits .f32 0x00000000#32) := by
  unfold finG
  rw [maximumf_apply, addf_apply, addf_apply]
  rw [broadcastInDim_apply ![0, 1] _ bias (ix2 r q) (rowAt q) (fun a => by
        match a with
        | ⟨0, _⟩ => rfl
        | ⟨1, _⟩ => rfl),
      broadcastInDim_apply ![] _ (constant (F := Ideal) Cert.ReferenceIdeal.S_ .f32 0x00000000#32) (ix2 r q) ix0
        (fun a => a.elim0),
      constant_apply]

/-! ## The body's payload at an index -/

/-- The body's stored value at row `p`, column `q` of a block: the three shape casts are to the same shape, so they
    are the identity; the sums and the maximum are pointwise; the `[1, 128]` row broadcast to `[1200, 128]` reads
    column `q` of its one row; the splat scalar is the zero word's value. -/
theorem pay_apply (x0 x1 : Vec Ideal S1200x128 .f32) (x2 : Vec Ideal S1x128 .f32) (p : Fin 1200) (q : Fin 128) :
    k15_pay1 (F := Ideal) x0 x1 x2 (ix2 p q)
      = max (x0 (ix2 p q) + x1 (ix2 p q) + x2 (rowAt q)) (Ideal.ofBits .f32 0x00000000#32) := by
  unfold k15_pay1
  rw [shapeCast_self, shapeCast_self, shapeCast_self, maximumf_apply, addf_apply, addf_apply, broadcast_apply,
    broadcastTo_1b_ab_apply]
  rfl

/-! ## From blocks to the array -/

/-- The zero offsets of a whole-buffer load or store, as a constant function. -/
theorem zero_offsets : (![0, 0] : Fin 2 → Nat) = fun _ => 0 :=
  funext fun a => by
    match a with
    | ⟨0, _⟩ => rfl
    | ⟨1, _⟩ => rfl

/-- The index maps, decided over the grid: the aggregate, self and output windows are at block row `t`, block
    column 0; the bias window is at block (0, 0) at every point. -/
theorem index_facts : ∀ t : Fin cfg15.N,
    win15_0.index t (0 : Fin 2) = t.val ∧ win15_0.index t (1 : Fin 2) = 0
    ∧ win15_1.index t (0 : Fin 2) = t.val ∧ win15_1.index t (1 : Fin 2) = 0
    ∧ win15_2.index t (0 : Fin 2) = 0 ∧ win15_2.index t (1 : Fin 2) = 0
    ∧ win15_3.index t (0 : Fin 2) = t.val ∧ win15_3.index t (1 : Fin 2) = 0 :=
  (by decide +kernel : ∀ t : Fin grid15.N, _)

variable (V : (c : Dev nD) → (b : Ref sig .tc) → Buf (Elt Ideal) ((c : Thread nD τ).loc b))

/-- What point `t` writes back is block `t` of `finG` of the three arrays as the region finds them: the block's
    element (p, q) sits in the array at row `1200 t + p`, column `q` (a block coordinate is index × size + 1 × the
    coordinate inside the block); the aggregate and self blocks are read at that same place, and the bias block is
    the whole bias row. -/
theorem flushed_eq (c : Dev nD) (t : Fin cfg15.N) :
    (dat15 (F := Ideal) V c).flushed 3 t
      = ((cfg15.win 3).blk t).view.read (Elt Ideal) (finG (V c main_v313) (V c main_v317) (V c main_v318)) := by
  show (cfg15.win 3).cut (grid15.coords t) ((dat15 V c).after 3 t) = _
  rw [after15_3]
  unfold out15_3
  rw [View.canon_unit_zero zero_offsets]
  simp only [View.ld_unit_zero (S := S1200x128) zero_offsets, View.ld_unit_zero (S := S1x128) zero_offsets]
  obtain ⟨e00, e01, e10, e11, e20, e21, e30, e31⟩ := index_facts t
  have hN : t.val < 5 := Nat.lt_of_lt_of_eq t.isLt N_15
  funext j
  obtain ⟨p, q, rfl⟩ : ∃ (p : Fin 1200) (q : Fin 128), j = ix2 p q := ⟨j 0, j 1, eq_ix2 j⟩
  have hp : p.val < 1200 := p.isLt
  show k15_pay1 (F := Ideal) (iblk15 V c 0 t) (iblk15 V c 1 t) (iblk15 V c 2 t) (ix2 p q)
      = finG (V c main_v313) (V c main_v317) (V c main_v318) (((cfg15.win 3).blk t).view.emb (ix2 p q))
  have hemb : ((cfg15.win 3).blk t).view.emb (ix2 p q) = ix2 (⟨t.val * 1200 + p.val, by omega⟩ : Fin 6000) q := by
    funext a; apply Fin.ext
    match a with
    | ⟨0, _⟩ => show win15_3.index t (0 : Fin 2) * 1200 + 1 * p.val = t.val * 1200 + p.val; omega
    | ⟨1, _⟩ => show win15_3.index t (1 : Fin 2) * 128 + 1 * q.val = q.val; omega
  rw [hemb, finG_apply]
  refine (pay_apply _ _ _ p q).trans ?_
  have h0 : iblk15 V c 0 t (ix2 p q) = V c main_v313 (ix2 (⟨t.val * 1200 + p.val, by omega⟩ : Fin 6000) q) := by
    show V c main_v313 (((cfg15.win 0).blk t).view.emb (ix2 p q)) = _
    refine congrArg _ (funext fun a => Fin.ext ?_)
    match a with
    | ⟨0, _⟩ => show win15_0.index t (0 : Fin 2) * 1200 + 1 * p.val = t.val * 1200 + p.val; omega
    | ⟨1, _⟩ => show win15_0.index t (1 : Fin 2) * 128 + 1 * q.val = q.val; omega
  have h1 : iblk15 V c 1 t (ix2 p q) = V c main_v317 (ix2 (⟨t.val * 1200 + p.val, by omega⟩ : Fin 6000) q) := by
    show V c main_v317 (((cfg15.win 1).blk t).view.emb (ix2 p q)) = _
    refine congrArg _ (funext fun a => Fin.ext ?_)
    match a with
    | ⟨0, _⟩ => show win15_1.index t (0 : Fin 2) * 1200 + 1 * p.val = t.val * 1200 + p.val; omega
    | ⟨1, _⟩ => show win15_1.index t (1 : Fin 2) * 128 + 1 * q.val = q.val; omega
  have h2 : iblk15 V c 2 t (rowAt q) = V c main_v318 (rowAt q) := by
    show V c main_v318 (((cfg15.win 2).blk t).view.emb (rowAt q)) = _
    refine congrArg _ (funext fun a => Fin.ext ?_)
    match a with
    | ⟨0, _⟩ => show win15_2.index t (0 : Fin 2) * 1 + 1 * 0 = 0; omega
    | ⟨1, _⟩ => show win15_2.index t (1 : Fin 2) * 128 + 1 * q.val = q.val; omega
  rw [h0, h1, h2]

/-- Row `r` of the array lies in the block of point `r / 1200`, and every point writes its block back: the blocks
    cover the array. -/
theorem cover (i : S6000x128.Idx) :
    ∃ t : Fin cfg15.N, (cfg15.win 3).flush t = true ∧ i ∈ ((cfg15.win 3).blk t).view.set := by
  have hi0 : (i 0).val < 6000 := (i 0).isLt
  have hi1 : (i 1).val < 128 := (i 1).isLt
  have ht : (i 0).val / 1200 < cfg15.N := by rw [show cfg15.N = 5 from N_15]; omega
  obtain ⟨-, -, -, -, -, -, e30, e31⟩ := index_facts ⟨(i 0).val / 1200, ht⟩
  refine ⟨⟨(i 0).val / 1200, ht⟩, flush15_3 _, ?_⟩
  show i ∈ ((View.whole main_v319).slice (win15_3.rect ⟨(i 0).val / 1200, ht⟩)).set
  rw [View.set_slice_whole, Rect.mem_set_unit]
  intro a
  match a with
  | ⟨0, _⟩ =>
    show win15_3.index ⟨(i 0).val / 1200, ht⟩ (0 : Fin 2) * 1200 ≤ (i 0).val
      ∧ (i 0).val < win15_3.index ⟨(i 0).val / 1200, ht⟩ (0 : Fin 2) * 1200 + 1200
    rw [e30]
    show (i 0).val / 1200 * 1200 ≤ (i 0).val ∧ (i 0).val < (i 0).val / 1200 * 1200 + 1200
    omega
  | ⟨1, _⟩ =>
    show win15_3.index ⟨(i 0).val / 1200, ht⟩ (1 : Fin 2) * 128 ≤ (i 1).val
      ∧ (i 1).val < win15_3.index ⟨(i 0).val / 1200, ht⟩ (1 : Fin 2) * 128 + 128
    rw [e31]
    omega

/-- The array after the region is `finG` of the three arrays as the region finds them: every block written back is
    a block of `finG`, and the blocks cover the array. -/
theorem array_eq (c : Dev nD) :
    (dat15 (F := Ideal) V c).arrAt 3 cfg15.N = finG (V c main_v313) (V c main_v317) (V c main_v318) :=
  (dat15 (F := Ideal) V c).arrAt_eq_of_cover 3 (finG (V c main_v313) (V c main_v317) (V c main_v318))
    (fun t _ => flushed_eq V c t) cover

end Fin15

/-- The finalize region computes `max (agg + self + bias, 0)` as whole-array operations on the arrays it finds. -/
theorem fin15 (V : (c : Dev nD) → (b : Ref sig .tc) → Buf (Elt Ideal) ((c : Thread nD τ).loc b)) (c : Dev nD) :
    (dat15 (F := Ideal) V c).arrAt 3 cfg15.N
      = maximumf
          (addf (addf (V c main_v313) (V c main_v317))
            (broadcastInDim Cert.ReferenceIdeal.S6000x128 ![0, 1] Cert.ReferenceIdeal.Facts₀.bcast_S1x128_S6000x128_0_1
              (V c main_v318)))
          (broadcastInDim Cert.ReferenceIdeal.S6000x128 ![] Cert.ReferenceIdeal.Facts₀.bcast_S_S6000x128
            (constant (F := Ideal) Cert.ReferenceIdeal.S_ .f32 0x00000000#32)) :=
  Fin15.array_eq V c

end Cert.KernelIdeal.RegionValue
-- ==== Proof.LayerK7.lean ====
/-
  Layer 7 of the kernel's program, read off the boundary contents: what the finalize region leaves in its output
  array is the layer function (kernel's form) of the arrays the layer's first boundary holds. The product `x · W` is
  the xw region's array; the edge rows are slices of the edge list taken by the host stretch before that region; the
  normalisation, the fill-gather, the scatter-add and the self term are the three host stretches between the two
  regions; the last line is the finalize region.
-/
import proofs.«406409_j38250978738663_3_alg».proof.Proof.FrameKI
import proofs.«406409_j38250978738663_3_alg».proof.Proof.Spec
import proofs.«406409_j38250978738663_3_alg».proof.Proof.RegionXw14
import proofs.«406409_j38250978738663_3_alg».proof.Proof.RegionFin15
import Idealize.ShloMosaic.Lib.StableHlo.Run

set_option maxRecDepth 16384

noncomputable section

namespace Cert.KernelIdeal.LayerValue

open Cert.KernelIdeal Cert.KernelIdeal.Gen Cert.KernelIdeal.GenP Idealize.ShloMosaic Idealize.ShloMosaic.TcCoe Idealize.ShloMosaic.StableHlo Cert.Spec

variable (m : (ℓ : Loc nD τ sig) → Buf (Elt Ideal) ℓ) (ρ : Dev nD → PrngReg) (c : Dev nD)

/-- The host stretch before the xw region only slices the edge list: every buffer it does not write is as entered. -/
theorem pre7_x : V43 (F := Ideal) m ρ c main_v279 = W42 m ρ c (Proc.devRef .tc main_v279) := by
  show StableHlo.after hostOps14 (W42 m ρ c) (Proc.devRef .tc main_v279) = _
  after_results_simp
theorem pre7_W : V43 (F := Ideal) m ρ c main_arg24 = W42 m ρ c (Proc.devRef .tc main_arg24) := by
  show StableHlo.after hostOps14 (W42 m ρ c) (Proc.devRef .tc main_arg24) = _
  after_results_simp
theorem pre7_w : W43 (F := Ideal) m ρ c (Proc.devRef .tc main_arg9) = W42 m ρ c (Proc.devRef .tc main_arg9) := by
  show StableHlo.after hostOps14 (W42 m ρ c) (Proc.devRef .tc main_arg9) = _
  after_results_simp
theorem pre7_b : W43 (F := Ideal) m ρ c (Proc.devRef .tc main_arg25) = W42 m ρ c (Proc.devRef .tc main_arg25) := by
  show StableHlo.after hostOps14 (W42 m ρ c) (Proc.devRef .tc main_arg25) = _
  after_results_simp
/-- and what it writes are the two rows of the edge list. -/
theorem pre7_row : W43 (F := Ideal) m ρ c (Proc.devRef .tc main_v281) = rowDIS (W42 m ρ c (Proc.devRef .tc main_arg8)) := by
  show StableHlo.after hostOps14 (W42 m ρ c) (Proc.devRef .tc main_v281) = _
  after_results_simp
  rfl
theorem pre7_col : W43 (F := Ideal) m ρ c (Proc.devRef .tc main_v283) = colDIS (W42 m ρ c (Proc.devRef .tc main_arg8)) := by
  show StableHlo.after hostOps14 (W42 m ρ c) (Proc.devRef .tc main_v283) = _
  after_results_simp
  rfl

set_option maxHeartbeats 4000000 in
/-- The xw region's array is `x · W` of the entry arrays. -/
theorem xw7_val : W44 (F := Ideal) m ρ c (Proc.devRef .tc main_v284)
    = xwDIS (W42 m ρ c (Proc.devRef .tc main_v279)) (W42 m ρ c (Proc.devRef .tc main_arg24)) := by
  refine (W44_arr m ρ c 2).trans ?_
  rw [RegionValue.xw14 (V43 m ρ) c, pre7_x, pre7_W]
  rfl

/-- Past the xw region the other buffers are as the first stretch left them. -/
theorem mid7_row : W44 (F := Ideal) m ρ c (Proc.devRef .tc main_v281) = rowDIS (W42 m ρ c (Proc.devRef .tc main_arg8)) :=
  (W44_of_ne m ρ c main_v281 (by decide)).trans (pre7_row m ρ c)
theorem mid7_col : W44 (F := Ideal) m ρ c (Proc.devRef .tc main_v283) = colDIS (W42 m ρ c (Proc.devRef .tc main_arg8)) :=
  (W44_of_ne m ρ c main_v283 (by decide)).trans (pre7_col m ρ c)
theorem mid7_w : W44 (F := Ideal) m ρ c (Proc.devRef .tc main_arg9) = W42 m ρ c (Proc.devRef .tc main_arg9) :=
  (W44_of_ne m ρ c main_arg9 (by decide)).trans (pre7_w m ρ c)
theorem mid7_b : W44 (F := Ideal) m ρ c (Proc.devRef .tc main_arg25) = W42 m ρ c (Proc.devRef .tc main_arg25) :=
  (W44_of_ne m ρ c main_arg25 (by decide)).trans (pre7_b m ρ c)

set_option maxHeartbeats 4000000 in
/-- The three stretches between the regions: the aggregation over the fill-gathered rows, -/
theorem agg7_val : V47 (F := Ideal) m ρ c main_v313
    = aggDIS (W42 m ρ c (Proc.devRef .tc main_arg8)) (W42 m ρ c (Proc.devRef .tc main_arg9))
        (takeDIS (xwDIS (W42 m ρ c (Proc.devRef .tc main_v279)) (W42 m ρ c (Proc.devRef .tc main_arg24))) (rowDIS (W42 m ρ c (Proc.devRef .tc main_arg8)))) := by
  show StableHlo.after hostOps15_2 (StableHlo.after hostOps15_1 (StableHlo.after hostOps15 (W44 m ρ c))) (Proc.devRef .tc main_v313) = _
  after_results_simp
  simp only [TRef.ofBuf, TRef.toBuf, cast_eq]
  rw [xw7_val, mid7_row, mid7_col, mid7_w]
  rfl
set_option maxHeartbeats 4000000 in
/-- the self term, -/
theorem self7_val : V47 (F := Ideal) m ρ c main_v317
    = selfDIS (W42 m ρ c (Proc.devRef .tc main_arg8)) (W42 m ρ c (Proc.devRef .tc main_arg9))
        (xwDIS (W42 m ρ c (Proc.devRef .tc main_v279)) (W42 m ρ c (Proc.devRef .tc main_arg24))) := by
  show StableHlo.after hostOps15_2 (StableHlo.after hostOps15_1 (StableHlo.after hostOps15 (W44 m ρ c))) (Proc.devRef .tc main_v317) = _
  after_results_simp
  rw [xw7_val, mid7_col, mid7_w]
  rfl
set_option maxHeartbeats 4000000 in
/-- and the bias as a row. -/
theorem bias7_val : V47 (F := Ideal) m ρ c main_v318 = rowK (W42 m ρ c (Proc.devRef .tc main_arg25)) := by
  show StableHlo.after hostOps15_2 (StableHlo.after hostOps15_1 (StableHlo.after hostOps15 (W44 m ρ c))) (Proc.devRef .tc main_v318) = _
  after_results_simp
  rw [mid7_b]
  rfl

set_option maxHeartbeats 4000000 in
/-- THE LAYER: the finalize region's output array is the layer function of the entry arrays. -/
theorem layer7 : W48 (F := Ideal) m ρ c (Proc.devRef .tc main_v319)
    = layerKDIS (xwDIS (W42 m ρ c (Proc.devRef .tc main_v279)) (W42 m ρ c (Proc.devRef .tc main_arg24)))
        (W42 m ρ c (Proc.devRef .tc main_arg25)) (W42 m ρ c (Proc.devRef .tc main_arg8)) (W42 m ρ c (Proc.devRef .tc main_arg9)) := by
  refine (W48_arr m ρ c 3).trans ?_
  rw [RegionValue.fin15 (V47 m ρ) c, agg7_val, self7_val, bias7_val]
  rfl

end Cert.KernelIdeal.LayerValue

end
-- ==== Proof.RegionGate16.lean ====
import proofs.«406409_j38250978738663_3_alg».proof.Proof.FrameKI
import proofs.«406409_j38250978738663_3_alg».proof.ReferenceIdeal
import proofs.«406409_j38250978738663_3_alg».proof.Proof.Gen.ReferenceIdeal
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

/-!
# The gate of two affine maps, region 16, as one whole-array function

The region's body takes a block of 1200 rows of each of two [12000,128] arrays, multiplies each block by a whole
[128,128] matrix, adds a [1,128] bias row to every row of each product, and keeps the first sum where it is greater
than zero and the second elsewhere. Entry (p, q) of a block's result depends on row p of the two input blocks only, so
the ten blocks are the ten row ranges of ONE function of the whole arrays: where(a > 0, a, b) with a = x0 · W0 + b0 and
b = x1 · W1 + b1. This module proves that the output array ends holding that function, written with the host's
whole-array operations.
-/

noncomputable section

namespace Cert.KernelIdeal.RegionValue

open Cert.KernelIdeal Cert.KernelIdeal.Gen Cert.KernelIdeal.GenP Idealize.ShloMosaic Idealize.ShloMosaic.TcCoe
open Idealize.ShloMosaic.ValueIdx
open scoped BigOperators

/-! ## One entry: the gate of two values -/

/-- The gate on two extended reals: the first where it is greater than zero, otherwise the second. -/
def gateVal16 (a b : EReal) : EReal :=
  Scalar.select (FloatOps.cmpf (F := Ideal) (φ := .f32) .ogt a (Ideal.ofBits .f32 0x00000000#32)) a b

/-! ## The block's product at an entry

The block product contracts axis 1 of the rows with axis 0 of the matrix. The four lemmas say where the product's
operands are read for output entry `i` and contraction index `q`: the left operand at (i 0, q), the right at (q, i 1). -/

theorem blockDot16_lhs_0 (i : S1200x128.Idx) (q : dot_S1200x128_S128x128_S1200x128_1_0_0_1_n_n.contr.Idx) :
    (dot_S1200x128_S128x128_S1200x128_1_0_0_1_n_n.lhsIdx i q 0).val = (i 0).val := by
  unfold DotDims.lhsIdx
  rw [dif_neg (show ¬(0 : Fin S1200x128.rank) ∈ dot_S1200x128_S128x128_S1200x128_1_0_0_1_n_n.lhsBatch by decide), dif_pos (show (0 : Fin S1200x128.rank) ∈ dot_S1200x128_S128x128_S1200x128_1_0_0_1_n_n.lhsNonContracting by decide)]
  rfl
theorem blockDot16_lhs_1 (i : S1200x128.Idx) (q : dot_S1200x128_S128x128_S1200x128_1_0_0_1_n_n.contr.Idx) :
    (dot_S1200x128_S128x128_S1200x128_1_0_0_1_n_n.lhsIdx i q 1).val = (q ⟨0, by decide⟩).val :=
  dot_S1200x128_S128x128_S1200x128_1_0_0_1_n_n.lhsIdx_val_of_single rfl i q
theorem blockDot16_rhs_0 (i : S1200x128.Idx) (q : dot_S1200x128_S128x128_S1200x128_1_0_0_1_n_n.contr.Idx) :
    (dot_S1200x128_S128x128_S1200x128_1_0_0_1_n_n.rhsIdx i q 0).val = (q ⟨0, by decide⟩).val :=
  dot_S1200x128_S128x128_S1200x128_1_0_0_1_n_n.rhsIdx_val_of_single rfl i q
theorem blockDot16_rhs_1 (i : S1200x128.Idx) (q : dot_S1200x128_S128x128_S1200x128_1_0_0_1_n_n.contr.Idx) :
    (dot_S1200x128_S128x128_S1200x128_1_0_0_1_n_n.rhsIdx i q 1).val = (i 1).val := by
  unfold DotDims.rhsIdx
  rw [dif_neg (show ¬(1 : Fin S128x128.rank) ∈ dot_S1200x128_S128x128_S1200x128_1_0_0_1_n_n.rhsBatch by decide), dif_pos (show (1 : Fin S128x128.rank) ∈ dot_S1200x128_S128x128_S1200x128_1_0_0_1_n_n.rhsNonContracting by decide)]
  rfl

/-- A block of rows times a whole matrix into a zero accumulator: entry (p, q) is the sum over k of x (p, k) · W (k, q).
    The contraction index has one axis, so the sum over it is the sum over k. -/
theorem blockMatmul16_apply (x : FVec Ideal S1200x128 .f32) (W : FVec Ideal S128x128 .f32) (p : Fin 1200) (q : Fin 128) :
    matmul dot_S1200x128_S128x128_S1200x128_1_0_0_1_n_n none x W (constant (F := Ideal) S1200x128 .f32 0x00000000#32) (ix2 p q)
      = ∑ k : Fin 128, x (ix2 p k) * W (ix2 k q) := by
  simp only [matmul]
  rw [Ideal.matmul_constant_zero_apply, ← Equiv.sum_comp (contrEquiv1 dot_S1200x128_S128x128_S1200x128_1_0_0_1_n_n 128 rfl rfl).symm]
  refine Finset.sum_congr rfl fun k _ => ?_
  have hk := contrEquiv1_symm_val dot_S1200x128_S128x128_S1200x128_1_0_0_1_n_n 128 rfl rfl k
  have el : dot_S1200x128_S128x128_S1200x128_1_0_0_1_n_n.lhsIdx (ix2 p q) ((contrEquiv1 dot_S1200x128_S128x128_S1200x128_1_0_0_1_n_n 128 rfl rfl).symm k) = ix2 p k := funext fun a => Fin.ext (by
    match a with
    | ⟨0, _⟩ => exact blockDot16_lhs_0 _ _
    | ⟨1, _⟩ => exact (blockDot16_lhs_1 _ _).trans hk)
  have er : dot_S1200x128_S128x128_S1200x128_1_0_0_1_n_n.rhsIdx (ix2 p q) ((contrEquiv1 dot_S1200x128_S128x128_S1200x128_1_0_0_1_n_n 128 rfl rfl).symm k) = ix2 k q := funext fun a => Fin.ext (by
    match a with
    | ⟨0, _⟩ => exact (blockDot16_rhs_0 _ _).trans hk
    | ⟨1, _⟩ => exact blockDot16_rhs_1 _ _)
  rw [el, er]

/-- The body's result at entry (p, q) of the block: the gate of the two affine rows there. The shape casts are between
    equal shapes, the bias row is read at column q whatever the row, and the splat zero is zero everywhere. -/
theorem pay16_apply (x0 : Vec Ideal S1200x128 .f32) (W0 : Vec Ideal S128x128 .f32) (b0 : Vec Ideal S1x128 .f32)
    (x1 : Vec Ideal S1200x128 .f32) (W1 : Vec Ideal S128x128 .f32) (b1 : Vec Ideal S1x128 .f32) (p : Fin 1200) (q : Fin 128) :
    k16_pay1 (F := Ideal) x0 W0 b0 x1 W1 b1 (ix2 p q)
      = gateVal16 ((∑ k : Fin 128, x0 (ix2 p k) * W0 (ix2 k q)) + b0 (ix2 (0 : Fin 1) q))
          ((∑ k : Fin 128, x1 (ix2 p k) * W1 (ix2 k q)) + b1 (ix2 (0 : Fin 1) q)) := by
  unfold k16_pay1
  simp only [select_apply, cmpf_apply, addf_apply, broadcast_apply, shapeCast_self]
  rw [blockMatmul16_apply, blockMatmul16_apply, broadcastTo_1b_ab_apply, broadcastTo_1b_ab_apply]
  rfl

/-! ## The whole arrays' product at an entry

The same four lemmas for the product of a whole [12000,128] array with the matrix. -/

theorem hostDot16_lhs_0 (i : Cert.ReferenceIdeal.S12000x128.Idx) (q : Cert.ReferenceIdeal.dot_S12000x128_S128x128_S12000x128_1_0_0_1_n_n.contr.Idx) :
    (Cert.ReferenceIdeal.dot_S12000x128_S128x128_S12000x128_1_0_0_1_n_n.lhsIdx i q 0).val = (i 0).val := by
  unfold DotDims.lhsIdx
  rw [dif_neg (show ¬(0 : Fin Cert.ReferenceIdeal.S12000x128.rank) ∈ Cert.ReferenceIdeal.dot_S12000x128_S128x128_S12000x128_1_0_0_1_n_n.lhsBatch by decide), dif_pos (show (0 : Fin Cert.ReferenceIdeal.S12000x128.rank) ∈ Cert.ReferenceIdeal.dot_S12000x128_S128x128_S12000x128_1_0_0_1_n_n.lhsNonContracting by decide)]
  rfl
theorem hostDot16_lhs_1 (i : Cert.ReferenceIdeal.S12000x128.Idx) (q : Cert.ReferenceIdeal.dot_S12000x128_S128x128_S12000x128_1_0_0_1_n_n.contr.Idx) :
    (Cert.ReferenceIdeal.dot_S12000x128_S128x128_S12000x128_1_0_0_1_n_n.lhsIdx i q 1).val = (q ⟨0, by decide⟩).val :=
  Cert.ReferenceIdeal.dot_S12000x128_S128x128_S12000x128_1_0_0_1_n_n.lhsIdx_val_of_single rfl i q
theorem hostDot16_rhs_0 (i : Cert.ReferenceIdeal.S12000x128.Idx) (q : Cert.ReferenceIdeal.dot_S12000x128_S128x128_S12000x128_1_0_0_1_n_n.contr.Idx) :
    (Cert.ReferenceIdeal.dot_S12000x128_S128x128_S12000x128_1_0_0_1_n_n.rhsIdx i q 0).val = (q ⟨0, by decide⟩).val :=
  Cert.ReferenceIdeal.dot_S12000x128_S128x128_S12000x128_1_0_0_1_n_n.rhsIdx_val_of_single rfl i q
theorem hostDot16_rhs_1 (i : Cert.ReferenceIdeal.S12000x128.Idx) (q : Cert.ReferenceIdeal.dot_S12000x128_S128x128_S12000x128_1_0_0_1_n_n.contr.Idx) :
    (Cert.ReferenceIdeal.dot_S12000x128_S128x128_S12000x128_1_0_0_1_n_n.rhsIdx i q 1).val = (i 1).val := by
  unfold DotDims.rhsIdx
  rw [dif_neg (show ¬(1 : Fin Cert.ReferenceIdeal.S128x128.rank) ∈ Cert.ReferenceIdeal.dot_S12000x128_S128x128_S12000x128_1_0_0_1_n_n.rhsBatch by decide), dif_pos (show (1 : Fin Cert.ReferenceIdeal.S128x128.rank) ∈ Cert.ReferenceIdeal.dot_S12000x128_S128x128_S12000x128_1_0_0_1_n_n.rhsNonContracting by decide)]
  rfl

/-- The whole array times the matrix: entry (p, q) is the sum over k of x (p, k) · W (k, q). -/
theorem hostDot16_apply (x : FVec Ideal Cert.ReferenceIdeal.S12000x128 .f32) (W : FVec Ideal Cert.ReferenceIdeal.S128x128 .f32) (p : Fin 12000) (q : Fin 128) :
    Host.dotGeneral (F := Ideal) Cert.ReferenceIdeal.dot_S12000x128_S128x128_S12000x128_1_0_0_1_n_n none x W (ix2 p q)
      = ∑ k : Fin 128, x (ix2 p k) * W (ix2 k q) := by
  simp only [Host.dotGeneral]
  rw [Ideal.dotGeneral_apply, ← Equiv.sum_comp (contrEquiv1 Cert.ReferenceIdeal.dot_S12000x128_S128x128_S12000x128_1_0_0_1_n_n 128 rfl rfl).symm]
  refine Finset.sum_congr rfl fun k _ => ?_
  have hk := contrEquiv1_symm_val Cert.ReferenceIdeal.dot_S12000x128_S128x128_S12000x128_1_0_0_1_n_n 128 rfl rfl k
  have el : Cert.ReferenceIdeal.dot_S12000x128_S128x128_S12000x128_1_0_0_1_n_n.lhsIdx (ix2 p q) ((contrEquiv1 Cert.ReferenceIdeal.dot_S12000x128_S128x128_S12000x128_1_0_0_1_n_n 128 rfl rfl).symm k) = ix2 p k := funext fun a => Fin.ext (by
    match a with
    | ⟨0, _⟩ => exact hostDot16_lhs_0 _ _
    | ⟨1, _⟩ => exact (hostDot16_lhs_1 _ _).trans hk)
  have er : Cert.ReferenceIdeal.dot_S12000x128_S128x128_S12000x128_1_0_0_1_n_n.rhsIdx (ix2 p q) ((contrEquiv1 Cert.ReferenceIdeal.dot_S12000x128_S128x128_S12000x128_1_0_0_1_n_n 128 rfl rfl).symm k) = ix2 k q := funext fun a => Fin.ext (by
    match a with
    | ⟨0, _⟩ => exact (hostDot16_rhs_0 _ _).trans hk
    | ⟨1, _⟩ => exact hostDot16_rhs_1 _ _)
  rw [el, er]

/-- The bias row laid under every row of the array: entry (p, q) is the row's entry q. -/
theorem hostRow16_apply (b : FVec Ideal Cert.ReferenceIdeal.S1x128 .f32) (p : Fin 12000) (q : Fin 128) :
    broadcastInDim Cert.ReferenceIdeal.S12000x128 ![0, 1] Cert.ReferenceIdeal.Facts₀.bcast_S1x128_S12000x128_0_1 b (ix2 p q) = b (ix2 (0 : Fin 1) q) := by
  refine broadcastInDim_apply _ _ b (ix2 p q) (ix2 (0 : Fin 1) q) fun a => ?_
  match a with
  | ⟨0, _⟩ => rfl
  | ⟨1, _⟩ => rfl

/-- where(a > 0, a, b) with a = x0 · W0 + b0 and b = x1 · W1 + b1, as whole-array operations. -/
def G16 (x0 : FVec Ideal Cert.ReferenceIdeal.S12000x128 .f32) (W0 : FVec Ideal Cert.ReferenceIdeal.S128x128 .f32) (b0 : FVec Ideal Cert.ReferenceIdeal.S1x128 .f32)
    (x1 : FVec Ideal Cert.ReferenceIdeal.S12000x128 .f32) (W1 : FVec Ideal Cert.ReferenceIdeal.S128x128 .f32) (b1 : FVec Ideal Cert.ReferenceIdeal.S1x128 .f32) : FVec Ideal Cert.ReferenceIdeal.S12000x128 .f32 :=
  select (cmpf .ogt (addf (Host.dotGeneral (F := Ideal) Cert.ReferenceIdeal.dot_S12000x128_S128x128_S12000x128_1_0_0_1_n_n none x0 W0) (broadcastInDim Cert.ReferenceIdeal.S12000x128 ![0, 1] Cert.ReferenceIdeal.Facts₀.bcast_S1x128_S12000x128_0_1 b0)) (broadcastInDim Cert.ReferenceIdeal.S12000x128 ![] Cert.ReferenceIdeal.Facts₀.bcast_S_S12000x128 (constant (F := Ideal) Cert.ReferenceIdeal.S_ .f32 0x00000000#32))) (addf (Host.dotGeneral (F := Ideal) Cert.ReferenceIdeal.dot_S12000x128_S128x128_S12000x128_1_0_0_1_n_n none x0 W0) (broadcastInDim Cert.ReferenceIdeal.S12000x128 ![0, 1] Cert.ReferenceIdeal.Facts₀.bcast_S1x128_S12000x128_0_1 b0)) (addf (Host.dotGeneral (F := Ideal) Cert.ReferenceIdeal.dot_S12000x128_S128x128_S12000x128_1_0_0_1_n_n none x1 W1) (broadcastInDim Cert.ReferenceIdeal.S12000x128 ![0, 1] Cert.ReferenceIdeal.Facts₀.bcast_S1x128_S12000x128_0_1 b1))

/-- The whole-array function at entry (p, q): the gate of the two affine rows there. -/
theorem G16_apply (x0 : FVec Ideal Cert.ReferenceIdeal.S12000x128 .f32) (W0 : FVec Ideal Cert.ReferenceIdeal.S128x128 .f32) (b0 : FVec Ideal Cert.ReferenceIdeal.S1x128 .f32)
    (x1 : FVec Ideal Cert.ReferenceIdeal.S12000x128 .f32) (W1 : FVec Ideal Cert.ReferenceIdeal.S128x128 .f32) (b1 : FVec Ideal Cert.ReferenceIdeal.S1x128 .f32) (p : Fin 12000) (q : Fin 128) :
    G16 x0 W0 b0 x1 W1 b1 (ix2 p q)
      = gateVal16 ((∑ k : Fin 128, x0 (ix2 p k) * W0 (ix2 k q)) + b0 (ix2 (0 : Fin 1) q))
          ((∑ k : Fin 128, x1 (ix2 p k) * W1 (ix2 k q)) + b1 (ix2 (0 : Fin 1) q)) := by
  unfold G16
  simp only [select_apply, cmpf_apply, addf_apply]
  rw [hostDot16_apply, hostDot16_apply, hostRow16_apply, hostRow16_apply, broadcastInDim_scalar_apply]
  rfl

/-! ## A block of the body's result is a block of the whole-array function -/

/-- If block row p of each moving input is array row P, and the matrices and bias rows are the arrays themselves, then
    entry (p, q) of the body's result is entry (P, q) of the whole-array function: both are the gate of the same two
    affine rows. -/
theorem gate16_block (x0 : Vec Ideal S1200x128 .f32) (W0 : Vec Ideal S128x128 .f32) (b0 : Vec Ideal S1x128 .f32)
    (x1 : Vec Ideal S1200x128 .f32) (W1 : Vec Ideal S128x128 .f32) (b1 : Vec Ideal S1x128 .f32)
    (A0 : FVec Ideal Cert.ReferenceIdeal.S12000x128 .f32) (A1 : FVec Ideal Cert.ReferenceIdeal.S128x128 .f32) (A2 : FVec Ideal Cert.ReferenceIdeal.S1x128 .f32)
    (A3 : FVec Ideal Cert.ReferenceIdeal.S12000x128 .f32) (A4 : FVec Ideal Cert.ReferenceIdeal.S128x128 .f32) (A5 : FVec Ideal Cert.ReferenceIdeal.S1x128 .f32)
    (p : Fin 1200) (P : Fin 12000) (q : Fin 128)
    (h0 : ∀ k : Fin 128, x0 (ix2 p k) = A0 (ix2 P k)) (h1 : W0 = A1) (h2 : b0 = A2)
    (h3 : ∀ k : Fin 128, x1 (ix2 p k) = A3 (ix2 P k)) (h4 : W1 = A4) (h5 : b1 = A5) :
    k16_pay1 (F := Ideal) x0 W0 b0 x1 W1 b1 (ix2 p q) = G16 A0 A1 A2 A3 A4 A5 (ix2 P q) := by
  subst h1 h2 h4 h5
  rw [pay16_apply, G16_apply]
  simp only [h0, h3]

/-! ## From the blocks to the array -/

/-- The two zero offsets are the constant zero function. -/
theorem hz16 : (![0, 0] : Fin 2 → Nat) = fun _ => 0 := funext fun a => by
  match a with
  | ⟨0, _⟩ => rfl
  | ⟨1, _⟩ => rfl

/-- The index maps over the grid: the two row-block inputs and the output are at block (t, 0) at point t; the matrices
    and the bias rows are at block (0, 0) at every point; there are ten points. -/
theorem idx_facts16 : ∀ t : Fin cfg16.N, t.val < 10
    ∧ win16_0.index t (0 : Fin 2) = t.val ∧ win16_0.index t (1 : Fin 2) = 0
    ∧ win16_1.index t (0 : Fin 2) = 0 ∧ win16_1.index t (1 : Fin 2) = 0
    ∧ win16_2.index t (0 : Fin 2) = 0 ∧ win16_2.index t (1 : Fin 2) = 0
    ∧ win16_3.index t (0 : Fin 2) = t.val ∧ win16_3.index t (1 : Fin 2) = 0
    ∧ win16_4.index t (0 : Fin 2) = 0 ∧ win16_4.index t (1 : Fin 2) = 0
    ∧ win16_5.index t (0 : Fin 2) = 0 ∧ win16_5.index t (1 : Fin 2) = 0
    ∧ win16_6.index t (0 : Fin 2) = t.val ∧ win16_6.index t (1 : Fin 2) = 0 :=
  (by decide +kernel : ∀ t : Fin grid16.N, _)

/-- Every one of the ten row blocks is some point's output block. -/
theorem idx_onto16 : ∀ r : Fin 10, ∃ t : Fin cfg16.N, win16_6.index t (0 : Fin 2) = r.val ∧ win16_6.index t (1 : Fin 2) = 0 :=
  (by decide +kernel : ∀ r : Fin 10, ∃ t : Fin grid16.N, win16_6.index t (0 : Fin 2) = r.val ∧ win16_6.index t (1 : Fin 2) = 0)

variable (V : (c : Dev nD) → (b : Ref sig .tc) → Buf (Elt Ideal) ((c : Thread nD τ).loc b))

/-- What point t writes back is block t of the whole-array function of the arrays as the region finds them. A block's
    coordinate in its array is the block index times the block's size plus the coordinate inside the block: rows
    1200 t + p for the moving windows, the same entry for the windows that stay. -/
theorem flushed16_eq (c : Dev nD) (t : Fin cfg16.N) :
    (dat16 (F := Ideal) V c).flushed 6 t = ((cfg16.win 6).blk t).view.read (Elt Ideal)
      (G16 (V c main_v79) (V c main_arg26) (V c main_v320) (V c main_v159) (V c main_arg28) (V c main_v321)) := by
  show (cfg16.win 6).cut (grid16.coords t) ((dat16 (F := Ideal) V c).after 6 t) = _
  rw [after16_6]
  unfold out16_6
  rw [View.canon_unit_zero hz16]
  simp only [View.ld_unit_zero (S := S1200x128) hz16, View.ld_unit_zero (S := S128x128) hz16, View.ld_unit_zero (S := S1x128) hz16]
  obtain ⟨ht, e00, e01, e10, e11, e20, e21, e30, e31, e40, e41, e50, e51, e60, e61⟩ := idx_facts16 t
  show (fun j : S1200x128.Idx => k16_pay1 (F := Ideal) (iblk16 V c 0 t) (iblk16 V c 1 t) (iblk16 V c 2 t) (iblk16 V c 3 t) (iblk16 V c 4 t) (iblk16 V c 5 t) j)
    = fun j : S1200x128.Idx => G16 (V c main_v79) (V c main_arg26) (V c main_v320) (V c main_v159) (V c main_arg28) (V c main_v321) (((cfg16.win 6).blk t).view.emb j)
  funext j
  obtain ⟨p, q, rfl⟩ : ∃ (p : Fin 1200) (q : Fin 128), j = ix2 p q := ⟨j 0, j 1, eq_ix2 j⟩
  have hp : p.val < 1200 := p.isLt
  have he : ((cfg16.win 6).blk t).view.emb (ix2 p q) = ix2 (⟨t.val * 1200 + p.val, by omega⟩ : Fin 12000) q := by
    funext a; apply Fin.ext
    match a with
    | ⟨0, _⟩ => show win16_6.index t (0 : Fin 2) * 1200 + 1 * p.val = t.val * 1200 + p.val; omega
    | ⟨1, _⟩ => show win16_6.index t (1 : Fin 2) * 128 + 1 * q.val = q.val; omega
  show k16_pay1 (F := Ideal) (iblk16 V c 0 t) (iblk16 V c 1 t) (iblk16 V c 2 t) (iblk16 V c 3 t) (iblk16 V c 4 t) (iblk16 V c 5 t) (ix2 p q)
    = G16 (V c main_v79) (V c main_arg26) (V c main_v320) (V c main_v159) (V c main_arg28) (V c main_v321) (((cfg16.win 6).blk t).view.emb (ix2 p q))
  rw [he]
  refine gate16_block _ _ _ _ _ _ _ _ _ _ _ _ p _ q (fun k => ?_) (funext fun y => ?_) (funext fun y => ?_) (fun k => ?_) (funext fun y => ?_) (funext fun y => ?_)
  · show V c main_v79 (((cfg16.win 0).blk t).view.emb (ix2 p k)) = V c main_v79 (ix2 (⟨t.val * 1200 + p.val, by omega⟩ : Fin 12000) k)
    refine congrArg (V c main_v79) (funext fun a => Fin.ext ?_)
    match a with
    | ⟨0, _⟩ => show win16_0.index t (0 : Fin 2) * 1200 + 1 * p.val = t.val * 1200 + p.val; omega
    | ⟨1, _⟩ => show win16_0.index t (1 : Fin 2) * 128 + 1 * k.val = k.val; omega
  · show V c main_arg26 (((cfg16.win 1).blk t).view.emb y) = V c main_arg26 y
    refine congrArg (V c main_arg26) (funext fun a => Fin.ext ?_)
    match a with
    | ⟨0, _⟩ => show win16_1.index t (0 : Fin 2) * 128 + 1 * (y 0).val = (y 0).val; omega
    | ⟨1, _⟩ => show win16_1.index t (1 : Fin 2) * 128 + 1 * (y 1).val = (y 1).val; omega
  · show V c main_v320 (((cfg16.win 2).blk t).view.emb y) = V c main_v320 y
    refine congrArg (V c main_v320) (funext fun a => Fin.ext ?_)
    match a with
    | ⟨0, _⟩ => show win16_2.index t (0 : Fin 2) * 1 + 1 * (y 0).val = (y 0).val; omega
    | ⟨1, _⟩ => show win16_2.index t (1 : Fin 2) * 128 + 1 * (y 1).val = (y 1).val; omega
  · show V c main_v159 (((cfg16.win 3).blk t).view.emb (ix2 p k)) = V c main_v159 (ix2 (⟨t.val * 1200 + p.val, by omega⟩ : Fin 12000) k)
    refine congrArg (V c main_v159) (funext fun a => Fin.ext ?_)
    match a with
    | ⟨0, _⟩ => show win16_3.index t (0 : Fin 2) * 1200 + 1 * p.val = t.val * 1200 + p.val; omega
    | ⟨1, _⟩ => show win16_3.index t (1 : Fin 2) * 128 + 1 * k.val = k.val; omega
  · show V c main_arg28 (((cfg16.win 4).blk t).view.emb y) = V c main_arg28 y
    refine congrArg (V c main_arg28) (funext fun a => Fin.ext ?_)
    match a with
    | ⟨0, _⟩ => show win16_4.index t (0 : Fin 2) * 128 + 1 * (y 0).val = (y 0).val; omega
    | ⟨1, _⟩ => show win16_4.index t (1 : Fin 2) * 128 + 1 * (y 1).val = (y 1).val; omega
  · show V c main_v321 (((cfg16.win 5).blk t).view.emb y) = V c main_v321 y
    refine congrArg (V c main_v321) (funext fun a => Fin.ext ?_)
    match a with
    | ⟨0, _⟩ => show win16_5.index t (0 : Fin 2) * 1 + 1 * (y 0).val = (y 0).val; omega
    | ⟨1, _⟩ => show win16_5.index t (1 : Fin 2) * 128 + 1 * (y 1).val = (y 1).val; omega

/-- An entry of the output array is in point t's block iff each coordinate is in the block's range on its axis. -/
theorem mem_blk16 (t : Fin cfg16.N) (i : S12000x128.Idx) :
    i ∈ ((cfg16.win 6).blk t).view.set ↔ ∀ a : Fin 2, win16_6.index t a * S1200x128.size a ≤ (i a).val ∧ (i a).val < win16_6.index t a * S1200x128.size a + S1200x128.size a := by
  show i ∈ ((View.whole main_v322).slice (win16_6.rect t)).set ↔ _
  rw [View.set_slice_whole, Rect.mem_set_unit]
  exact Iff.rfl

/-- The ten row blocks cover the array: row r lies in block r / 1200. -/
theorem cover16 (i : S12000x128.Idx) :
    ∃ t : Fin cfg16.N, (cfg16.win 6).flush t = true ∧ i ∈ ((cfg16.win 6).blk t).view.set := by
  have hi0 : (i 0).val < 12000 := (i 0).isLt
  have hi1 : (i 1).val < 128 := (i 1).isLt
  obtain ⟨t, q0, q1⟩ := idx_onto16 ⟨(i 0).val / 1200, by omega⟩
  have q0' : win16_6.index t (0 : Fin 2) = (i 0).val / 1200 := q0
  refine ⟨t, flush16_6 t, ?_⟩
  rw [mem_blk16]
  intro a
  match a with
  | ⟨0, _⟩ => show win16_6.index t (0 : Fin 2) * 1200 ≤ (i 0).val ∧ (i 0).val < win16_6.index t (0 : Fin 2) * 1200 + 1200; omega
  | ⟨1, _⟩ => show win16_6.index t (1 : Fin 2) * 128 ≤ (i 1).val ∧ (i 1).val < win16_6.index t (1 : Fin 2) * 128 + 128; omega

/-- The output array after the region is the whole-array function of the arrays as the region finds them. -/
theorem gate16_G (c : Dev nD) :
    (dat16 (F := Ideal) V c).arrAt 6 cfg16.N
      = G16 (V c main_v79) (V c main_arg26) (V c main_v320) (V c main_v159) (V c main_arg28) (V c main_v321) :=
  (dat16 (F := Ideal) V c).arrAt_eq_of_cover 6 (G16 (V c main_v79) (V c main_arg26) (V c main_v320) (V c main_v159) (V c main_arg28) (V c main_v321))
    (fun t _ => flushed16_eq V c t) cover16

/-- The same with the whole-array function written out: where(a > 0, a, b), a = x0 · W0 + b0, b = x1 · W1 + b1. -/
theorem gate16 (c : Dev nD) :
    (dat16 (F := Ideal) V c).arrAt 6 cfg16.N
      = select (cmpf .ogt (addf (Host.dotGeneral (F := Ideal) (φ₁ := .f32) (φ₂ := .f32) Cert.ReferenceIdeal.dot_S12000x128_S128x128_S12000x128_1_0_0_1_n_n none (V c main_v79) (V c main_arg26)) (broadcastInDim Cert.ReferenceIdeal.S12000x128 ![0, 1] Cert.ReferenceIdeal.Facts₀.bcast_S1x128_S12000x128_0_1 (V c main_v320))) (broadcastInDim Cert.ReferenceIdeal.S12000x128 ![] Cert.ReferenceIdeal.Facts₀.bcast_S_S12000x128 (constant (F := Ideal) Cert.ReferenceIdeal.S_ .f32 0x00000000#32))) (addf (Host.dotGeneral (F := Ideal) (φ₁ := .f32) (φ₂ := .f32) Cert.ReferenceIdeal.dot_S12000x128_S128x128_S12000x128_1_0_0_1_n_n none (V c main_v79) (V c main_arg26)) (broadcastInDim Cert.ReferenceIdeal.S12000x128 ![0, 1] Cert.ReferenceIdeal.Facts₀.bcast_S1x128_S12000x128_0_1 (V c main_v320))) (addf (Host.dotGeneral (F := Ideal) (φ₁ := .f32) (φ₂ := .f32) Cert.ReferenceIdeal.dot_S12000x128_S128x128_S12000x128_1_0_0_1_n_n none (V c main_v159) (V c main_arg28)) (broadcastInDim Cert.ReferenceIdeal.S12000x128 ![0, 1] Cert.ReferenceIdeal.Facts₀.bcast_S1x128_S12000x128_0_1 (V c main_v321))) :=
  gate16_G V c

end Cert.KernelIdeal.RegionValue

end
-- ==== Proof.RegionGate17.lean ====
import proofs.«406409_j38250978738663_3_alg».proof.Proof.FrameKI
import proofs.«406409_j38250978738663_3_alg».proof.ReferenceIdeal
import proofs.«406409_j38250978738663_3_alg».proof.Proof.Gen.ReferenceIdeal
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

/-!
# The gate of two affine maps, region 17, as one whole-array function

The region's body takes a block of 1200 rows of each of two [6000,128] arrays, multiplies each block by a whole
[128,128] matrix, adds a [1,128] bias row to every row of each product, and keeps the first sum where it is greater
than zero and the second elsewhere. Entry (p, q) of a block's result depends on row p of the two input blocks only, so
the five blocks are the five row ranges of ONE function of the whole arrays: where(a > 0, a, b) with a = x0 · W0 + b0 and
b = x1 · W1 + b1. This module proves that the output array ends holding that function, written with the host's
whole-array operations.
-/

noncomputable section

namespace Cert.KernelIdeal.RegionValue

open Cert.KernelIdeal Cert.KernelIdeal.Gen Cert.KernelIdeal.GenP Idealize.ShloMosaic Idealize.ShloMosaic.TcCoe
open Idealize.ShloMosaic.ValueIdx
open scoped BigOperators

/-! ## One entry: the gate of two values -/

/-- The gate on two extended reals: the first where it is greater than zero, otherwise the second. -/
def gateVal17 (a b : EReal) : EReal :=
  Scalar.select (FloatOps.cmpf (F := Ideal) (φ := .f32) .ogt a (Ideal.ofBits .f32 0x00000000#32)) a b

/-! ## The block's product at an entry

The block product contracts axis 1 of the rows with axis 0 of the matrix. The four lemmas say where the product's
operands are read for output entry `i` and contraction index `q`: the left operand at (i 0, q), the right at (q, i 1). -/

theorem blockDot17_lhs_0 (i : S1200x128.Idx) (q : dot_S1200x128_S128x128_S1200x128_1_0_0_1_n_n.contr.Idx) :
    (dot_S1200x128_S128x128_S1200x128_1_0_0_1_n_n.lhsIdx i q 0).val = (i 0).val := by
  unfold DotDims.lhsIdx
  rw [dif_neg (show ¬(0 : Fin S1200x128.rank) ∈ dot_S1200x128_S128x128_S1200x128_1_0_0_1_n_n.lhsBatch by decide), dif_pos (show (0 : Fin S1200x128.rank) ∈ dot_S1200x128_S128x128_S1200x128_1_0_0_1_n_n.lhsNonContracting by decide)]
  rfl
theorem blockDot17_lhs_1 (i : S1200x128.Idx) (q : dot_S1200x128_S128x128_S1200x128_1_0_0_1_n_n.contr.Idx) :
    (dot_S1200x128_S128x128_S1200x128_1_0_0_1_n_n.lhsIdx i q 1).val = (q ⟨0, by decide⟩).val :=
  dot_S1200x128_S128x128_S1200x128_1_0_0_1_n_n.lhsIdx_val_of_single rfl i q
theorem blockDot17_rhs_0 (i : S1200x128.Idx) (q : dot_S1200x128_S128x128_S1200x128_1_0_0_1_n_n.contr.Idx) :
    (dot_S1200x128_S128x128_S1200x128_1_0_0_1_n_n.rhsIdx i q 0).val = (q ⟨0, by decide⟩).val :=
  dot_S1200x128_S128x128_S1200x128_1_0_0_1_n_n.rhsIdx_val_of_single rfl i q
theorem blockDot17_rhs_1 (i : S1200x128.Idx) (q : dot_S1200x128_S128x128_S1200x128_1_0_0_1_n_n.contr.Idx) :
    (dot_S1200x128_S128x128_S1200x128_1_0_0_1_n_n.rhsIdx i q 1).val = (i 1).val := by
  unfold DotDims.rhsIdx
  rw [dif_neg (show ¬(1 : Fin S128x128.rank) ∈ dot_S1200x128_S128x128_S1200x128_1_0_0_1_n_n.rhsBatch by decide), dif_pos (show (1 : Fin S128x128.rank) ∈ dot_S1200x128_S128x128_S1200x128_1_0_0_1_n_n.rhsNonContracting by decide)]
  rfl

/-- A block of rows times a whole matrix into a zero accumulator: entry (p, q) is the sum over k of x (p, k) · W (k, q).
    The contraction index has one axis, so the sum over it is the sum over k. -/
theorem blockMatmul17_apply (x : FVec Ideal S1200x128 .f32) (W : FVec Ideal S128x128 .f32) (p : Fin 1200) (q : Fin 128) :
    matmul dot_S1200x128_S128x128_S1200x128_1_0_0_1_n_n none x W (constant (F := Ideal) S1200x128 .f32 0x00000000#32) (ix2 p q)
      = ∑ k : Fin 128, x (ix2 p k) * W (ix2 k q) := by
  simp only [matmul]
  rw [Ideal.matmul_constant_zero_apply, ← Equiv.sum_comp (contrEquiv1 dot_S1200x128_S128x128_S1200x128_1_0_0_1_n_n 128 rfl rfl).symm]
  refine Finset.sum_congr rfl fun k _ => ?_
  have hk := contrEquiv1_symm_val dot_S1200x128_S128x128_S1200x128_1_0_0_1_n_n 128 rfl rfl k
  have el : dot_S1200x128_S128x128_S1200x128_1_0_0_1_n_n.lhsIdx (ix2 p q) ((contrEquiv1 dot_S1200x128_S128x128_S1200x128_1_0_0_1_n_n 128 rfl rfl).symm k) = ix2 p k := funext fun a => Fin.ext (by
    match a with
    | ⟨0, _⟩ => exact blockDot17_lhs_0 _ _
    | ⟨1, _⟩ => exact (blockDot17_lhs_1 _ _).trans hk)
  have er : dot_S1200x128_S128x128_S1200x128_1_0_0_1_n_n.rhsIdx (ix2 p q) ((contrEquiv1 dot_S1200x128_S128x128_S1200x128_1_0_0_1_n_n 128 rfl rfl).symm k) = ix2 k q := funext fun a => Fin.ext (by
    match a with
    | ⟨0, _⟩ => exact (blockDot17_rhs_0 _ _).trans hk
    | ⟨1, _⟩ => exact blockDot17_rhs_1 _ _)
  rw [el, er]

/-- The body's result at entry (p, q) of the block: the gate of the two affine rows there. The shape casts are between
    equal shapes, the bias row is read at column q whatever the row, and the splat zero is zero everywhere. -/
theorem pay17_apply (x0 : Vec Ideal S1200x128 .f32) (W0 : Vec Ideal S128x128 .f32) (b0 : Vec Ideal S1x128 .f32)
    (x1 : Vec Ideal S1200x128 .f32) (W1 : Vec Ideal S128x128 .f32) (b1 : Vec Ideal S1x128 .f32) (p : Fin 1200) (q : Fin 128) :
    k17_pay1 (F := Ideal) x0 W0 b0 x1 W1 b1 (ix2 p q)
      = gateVal17 ((∑ k : Fin 128, x0 (ix2 p k) * W0 (ix2 k q)) + b0 (ix2 (0 : Fin 1) q))
          ((∑ k : Fin 128, x1 (ix2 p k) * W1 (ix2 k q)) + b1 (ix2 (0 : Fin 1) q)) := by
  unfold k17_pay1
  simp only [select_apply, cmpf_apply, addf_apply, broadcast_apply, shapeCast_self]
  rw [blockMatmul17_apply, blockMatmul17_apply, broadcastTo_1b_ab_apply, broadcastTo_1b_ab_apply]
  rfl

/-! ## The whole arrays' product at an entry

The same four lemmas for the product of a whole [6000,128] array with the matrix. -/

theorem hostDot17_lhs_0 (i : Cert.ReferenceIdeal.S6000x128.Idx) (q : Cert.ReferenceIdeal.dot_S6000x128_S128x128_S6000x128_1_0_0_1_n_n.contr.Idx) :
    (Cert.ReferenceIdeal.dot_S6000x128_S128x128_S6000x128_1_0_0_1_n_n.lhsIdx i q 0).val = (i 0).val := by
  unfold DotDims.lhsIdx
  rw [dif_neg (show ¬(0 : Fin Cert.ReferenceIdeal.S6000x128.rank) ∈ Cert.ReferenceIdeal.dot_S6000x128_S128x128_S6000x128_1_0_0_1_n_n.lhsBatch by decide), dif_pos (show (0 : Fin Cert.ReferenceIdeal.S6000x128.rank) ∈ Cert.ReferenceIdeal.dot_S6000x128_S128x128_S6000x128_1_0_0_1_n_n.lhsNonContracting by decide)]
  rfl
theorem hostDot17_lhs_1 (i : Cert.ReferenceIdeal.S6000x128.Idx) (q : Cert.ReferenceIdeal.dot_S6000x128_S128x128_S6000x128_1_0_0_1_n_n.contr.Idx) :
    (Cert.ReferenceIdeal.dot_S6000x128_S128x128_S6000x128_1_0_0_1_n_n.lhsIdx i q 1).val = (q ⟨0, by decide⟩).val :=
  Cert.ReferenceIdeal.dot_S6000x128_S128x128_S6000x128_1_0_0_1_n_n.lhsIdx_val_of_single rfl i q
theorem hostDot17_rhs_0 (i : Cert.ReferenceIdeal.S6000x128.Idx) (q : Cert.ReferenceIdeal.dot_S6000x128_S128x128_S6000x128_1_0_0_1_n_n.contr.Idx) :
    (Cert.ReferenceIdeal.dot_S6000x128_S128x128_S6000x128_1_0_0_1_n_n.rhsIdx i q 0).val = (q ⟨0, by decide⟩).val :=
  Cert.ReferenceIdeal.dot_S6000x128_S128x128_S6000x128_1_0_0_1_n_n.rhsIdx_val_of_single rfl i q
theorem hostDot17_rhs_1 (i : Cert.ReferenceIdeal.S6000x128.Idx) (q : Cert.ReferenceIdeal.dot_S6000x128_S128x128_S6000x128_1_0_0_1_n_n.contr.Idx) :
    (Cert.ReferenceIdeal.dot_S6000x128_S128x128_S6000x128_1_0_0_1_n_n.rhsIdx i q 1).val = (i 1).val := by
  unfold DotDims.rhsIdx
  rw [dif_neg (show ¬(1 : Fin Cert.ReferenceIdeal.S128x128.rank) ∈ Cert.ReferenceIdeal.dot_S6000x128_S128x128_S6000x128_1_0_0_1_n_n.rhsBatch by decide), dif_pos (show (1 : Fin Cert.ReferenceIdeal.S128x128.rank) ∈ Cert.ReferenceIdeal.dot_S6000x128_S128x128_S6000x128_1_0_0_1_n_n.rhsNonContracting by decide)]
  rfl

/-- The whole array times the matrix: entry (p, q) is the sum over k of x (p, k) · W (k, q). -/
theorem hostDot17_apply (x : FVec Ideal Cert.ReferenceIdeal.S6000x128 .f32) (W : FVec Ideal Cert.ReferenceIdeal.S128x128 .f32) (p : Fin 6000) (q : Fin 128) :
    Host.dotGeneral (F := Ideal) Cert.ReferenceIdeal.dot_S6000x128_S128x128_S6000x128_1_0_0_1_n_n none x W (ix2 p q)
      = ∑ k : Fin 128, x (ix2 p k) * W (ix2 k q) := by
  simp only [Host.dotGeneral]
  rw [Ideal.dotGeneral_apply, ← Equiv.sum_comp (contrEquiv1 Cert.ReferenceIdeal.dot_S6000x128_S128x128_S6000x128_1_0_0_1_n_n 128 rfl rfl).symm]
  refine Finset.sum_congr rfl fun k _ => ?_
  have hk := contrEquiv1_symm_val Cert.ReferenceIdeal.dot_S6000x128_S128x128_S6000x128_1_0_0_1_n_n 128 rfl rfl k
  have el : Cert.ReferenceIdeal.dot_S6000x128_S128x128_S6000x128_1_0_0_1_n_n.lhsIdx (ix2 p q) ((contrEquiv1 Cert.ReferenceIdeal.dot_S6000x128_S128x128_S6000x128_1_0_0_1_n_n 128 rfl rfl).symm k) = ix2 p k := funext fun a => Fin.ext (by
    match a with
    | ⟨0, _⟩ => exact hostDot17_lhs_0 _ _
    | ⟨1, _⟩ => exact (hostDot17_lhs_1 _ _).trans hk)
  have er : Cert.ReferenceIdeal.dot_S6000x128_S128x128_S6000x128_1_0_0_1_n_n.rhsIdx (ix2 p q) ((contrEquiv1 Cert.ReferenceIdeal.dot_S6000x128_S128x128_S6000x128_1_0_0_1_n_n 128 rfl rfl).symm k) = ix2 k q := funext fun a => Fin.ext (by
    match a with
    | ⟨0, _⟩ => exact (hostDot17_rhs_0 _ _).trans hk
    | ⟨1, _⟩ => exact hostDot17_rhs_1 _ _)
  rw [el, er]

/-- The bias row laid under every row of the array: entry (p, q) is the row's entry q. -/
theorem hostRow17_apply (b : FVec Ideal Cert.ReferenceIdeal.S1x128 .f32) (p : Fin 6000) (q : Fin 128) :
    broadcastInDim Cert.ReferenceIdeal.S6000x128 ![0, 1] Cert.ReferenceIdeal.Facts₀.bcast_S1x128_S6000x128_0_1 b (ix2 p q) = b (ix2 (0 : Fin 1) q) := by
  refine broadcastInDim_apply _ _ b (ix2 p q) (ix2 (0 : Fin 1) q) fun a => ?_
  match a with
  | ⟨0, _⟩ => rfl
  | ⟨1, _⟩ => rfl

/-- where(a > 0, a, b) with a = x0 · W0 + b0 and b = x1 · W1 + b1, as whole-array operations. -/
def G17 (x0 : FVec Ideal Cert.ReferenceIdeal.S6000x128 .f32) (W0 : FVec Ideal Cert.ReferenceIdeal.S128x128 .f32) (b0 : FVec Ideal Cert.ReferenceIdeal.S1x128 .f32)
    (x1 : FVec Ideal Cert.ReferenceIdeal.S6000x128 .f32) (W1 : FVec Ideal Cert.ReferenceIdeal.S128x128 .f32) (b1 : FVec Ideal Cert.ReferenceIdeal.S1x128 .f32) : FVec Ideal Cert.ReferenceIdeal.S6000x128 .f32 :=
  select (cmpf .ogt (addf (Host.dotGeneral (F := Ideal) Cert.ReferenceIdeal.dot_S6000x128_S128x128_S6000x128_1_0_0_1_n_n none x0 W0) (broadcastInDim Cert.ReferenceIdeal.S6000x128 ![0, 1] Cert.ReferenceIdeal.Facts₀.bcast_S1x128_S6000x128_0_1 b0)) (broadcastInDim Cert.ReferenceIdeal.S6000x128 ![] Cert.ReferenceIdeal.Facts₀.bcast_S_S6000x128 (constant (F := Ideal) Cert.ReferenceIdeal.S_ .f32 0x00000000#32))) (addf (Host.dotGeneral (F := Ideal) Cert.ReferenceIdeal.dot_S6000x128_S128x128_S6000x128_1_0_0_1_n_n none x0 W0) (broadcastInDim Cert.ReferenceIdeal.S6000x128 ![0, 1] Cert.ReferenceIdeal.Facts₀.bcast_S1x128_S6000x128_0_1 b0)) (addf (Host.dotGeneral (F := Ideal) Cert.ReferenceIdeal.dot_S6000x128_S128x128_S6000x128_1_0_0_1_n_n none x1 W1) (broadcastInDim Cert.ReferenceIdeal.S6000x128 ![0, 1] Cert.ReferenceIdeal.Facts₀.bcast_S1x128_S6000x128_0_1 b1))

/-- The whole-array function at entry (p, q): the gate of the two affine rows there. -/
theorem G17_apply (x0 : FVec Ideal Cert.ReferenceIdeal.S6000x128 .f32) (W0 : FVec Ideal Cert.ReferenceIdeal.S128x128 .f32) (b0 : FVec Ideal Cert.ReferenceIdeal.S1x128 .f32)
    (x1 : FVec Ideal Cert.ReferenceIdeal.S6000x128 .f32) (W1 : FVec Ideal Cert.ReferenceIdeal.S128x128 .f32) (b1 : FVec Ideal Cert.ReferenceIdeal.S1x128 .f32) (p : Fin 6000) (q : Fin 128) :
    G17 x0 W0 b0 x1 W1 b1 (ix2 p q)
      = gateVal17 ((∑ k : Fin 128, x0 (ix2 p k) * W0 (ix2 k q)) + b0 (ix2 (0 : Fin 1) q))
          ((∑ k : Fin 128, x1 (ix2 p k) * W1 (ix2 k q)) + b1 (ix2 (0 : Fin 1) q)) := by
  unfold G17
  simp only [select_apply, cmpf_apply, addf_apply]
  rw [hostDot17_apply, hostDot17_apply, hostRow17_apply, hostRow17_apply, broadcastInDim_scalar_apply]
  rfl

/-! ## A block of the body's result is a block of the whole-array function -/

/-- If block row p of each moving input is array row P, and the matrices and bias rows are the arrays themselves, then
    entry (p, q) of the body's result is entry (P, q) of the whole-array function: both are the gate of the same two
    affine rows. -/
theorem gate17_block (x0 : Vec Ideal S1200x128 .f32) (W0 : Vec Ideal S128x128 .f32) (b0 : Vec Ideal S1x128 .f32)
    (x1 : Vec Ideal S1200x128 .f32) (W1 : Vec Ideal S128x128 .f32) (b1 : Vec Ideal S1x128 .f32)
    (A0 : FVec Ideal Cert.ReferenceIdeal.S6000x128 .f32) (A1 : FVec Ideal Cert.ReferenceIdeal.S128x128 .f32) (A2 : FVec Ideal Cert.ReferenceIdeal.S1x128 .f32)
    (A3 : FVec Ideal Cert.ReferenceIdeal.S6000x128 .f32) (A4 : FVec Ideal Cert.ReferenceIdeal.S128x128 .f32) (A5 : FVec Ideal Cert.ReferenceIdeal.S1x128 .f32)
    (p : Fin 1200) (P : Fin 6000) (q : Fin 128)
    (h0 : ∀ k : Fin 128, x0 (ix2 p k) = A0 (ix2 P k)) (h1 : W0 = A1) (h2 : b0 = A2)
    (h3 : ∀ k : Fin 128, x1 (ix2 p k) = A3 (ix2 P k)) (h4 : W1 = A4) (h5 : b1 = A5) :
    k17_pay1 (F := Ideal) x0 W0 b0 x1 W1 b1 (ix2 p q) = G17 A0 A1 A2 A3 A4 A5 (ix2 P q) := by
  subst h1 h2 h4 h5
  rw [pay17_apply, G17_apply]
  simp only [h0, h3]

/-! ## From the blocks to the array -/

/-- The two zero offsets are the constant zero function. -/
theorem hz17 : (![0, 0] : Fin 2 → Nat) = fun _ => 0 := funext fun a => by
  match a with
  | ⟨0, _⟩ => rfl
  | ⟨1, _⟩ => rfl

/-- The index maps over the grid: the two row-block inputs and the output are at block (t, 0) at point t; the matrices
    and the bias rows are at block (0, 0) at every point; there are five points. -/
theorem idx_facts17 : ∀ t : Fin cfg17.N, t.val < 5
    ∧ win17_0.index t (0 : Fin 2) = t.val ∧ win17_0.index t (1 : Fin 2) = 0
    ∧ win17_1.index t (0 : Fin 2) = 0 ∧ win17_1.index t (1 : Fin 2) = 0
    ∧ win17_2.index t (0 : Fin 2) = 0 ∧ win17_2.index t (1 : Fin 2) = 0
    ∧ win17_3.index t (0 : Fin 2) = t.val ∧ win17_3.index t (1 : Fin 2) = 0
    ∧ win17_4.index t (0 : Fin 2) = 0 ∧ win17_4.index t (1 : Fin 2) = 0
    ∧ win17_5.index t (0 : Fin 2) = 0 ∧ win17_5.index t (1 : Fin 2) = 0
    ∧ win17_6.index t (0 : Fin 2) = t.val ∧ win17_6.index t (1 : Fin 2) = 0 :=
  (by decide +kernel : ∀ t : Fin grid17.N, _)

/-- Every one of the five row blocks is some point's output block. -/
theorem idx_onto17 : ∀ r : Fin 5, ∃ t : Fin cfg17.N, win17_6.index t (0 : Fin 2) = r.val ∧ win17_6.index t (1 : Fin 2) = 0 :=
  (by decide +kernel : ∀ r : Fin 5, ∃ t : Fin grid17.N, win17_6.index t (0 : Fin 2) = r.val ∧ win17_6.index t (1 : Fin 2) = 0)

variable (V : (c : Dev nD) → (b : Ref sig .tc) → Buf (Elt Ideal) ((c : Thread nD τ).loc b))

/-- What point t writes back is block t of the whole-array function of the arrays as the region finds them. A block's
    coordinate in its array is the block index times the block's size plus the coordinate inside the block: rows
    1200 t + p for the moving windows, the same entry for the windows that stay. -/
theorem flushed17_eq (c : Dev nD) (t : Fin cfg17.N) :
    (dat17 (F := Ideal) V c).flushed 6 t = ((cfg17.win 6).blk t).view.read (Elt Ideal)
      (G17 (V c main_v239) (V c main_arg26) (V c main_v323) (V c main_v319) (V c main_arg28) (V c main_v324)) := by
  show (cfg17.win 6).cut (grid17.coords t) ((dat17 (F := Ideal) V c).after 6 t) = _
  rw [after17_6]
  unfold out17_6
  rw [View.canon_unit_zero hz17]
  simp only [View.ld_unit_zero (S := S1200x128) hz17, View.ld_unit_zero (S := S128x128) hz17, View.ld_unit_zero (S := S1x128) hz17]
  obtain ⟨ht, e00, e01, e10, e11, e20, e21, e30, e31, e40, e41, e50, e51, e60, e61⟩ := idx_facts17 t
  show (fun j : S1200x128.Idx => k17_pay1 (F := Ideal) (iblk17 V c 0 t) (iblk17 V c 1 t) (iblk17 V c 2 t) (iblk17 V c 3 t) (iblk17 V c 4 t) (iblk17 V c 5 t) j)
    = fun j : S1200x128.Idx => G17 (V c main_v239) (V c main_arg26) (V c main_v323) (V c main_v319) (V c main_arg28) (V c main_v324) (((cfg17.win 6).blk t).view.emb j)
  funext j
  obtain ⟨p, q, rfl⟩ : ∃ (p : Fin 1200) (q : Fin 128), j = ix2 p q := ⟨j 0, j 1, eq_ix2 j⟩
  have hp : p.val < 1200 := p.isLt
  have he : ((cfg17.win 6).blk t).view.emb (ix2 p q) = ix2 (⟨t.val * 1200 + p.val, by omega⟩ : Fin 6000) q := by
    funext a; apply Fin.ext
    match a with
    | ⟨0, _⟩ => show win17_6.index t (0 : Fin 2) * 1200 + 1 * p.val = t.val * 1200 + p.val; omega
    | ⟨1, _⟩ => show win17_6.index t (1 : Fin 2) * 128 + 1 * q.val = q.val; omega
  show k17_pay1 (F := Ideal) (iblk17 V c 0 t) (iblk17 V c 1 t) (iblk17 V c 2 t) (iblk17 V c 3 t) (iblk17 V c 4 t) (iblk17 V c 5 t) (ix2 p q)
    = G17 (V c main_v239) (V c main_arg26) (V c main_v323) (V c main_v319) (V c main_arg28) (V c main_v324) (((cfg17.win 6).blk t).view.emb (ix2 p q))
  rw [he]
  refine gate17_block _ _ _ _ _ _ _ _ _ _ _ _ p _ q (fun k => ?_) (funext fun y => ?_) (funext fun y => ?_) (fun k => ?_) (funext fun y => ?_) (funext fun y => ?_)
  · show V c main_v239 (((cfg17.win 0).blk t).view.emb (ix2 p k)) = V c main_v239 (ix2 (⟨t.val * 1200 + p.val, by omega⟩ : Fin 6000) k)
    refine congrArg (V c main_v239) (funext fun a => Fin.ext ?_)
    match a with
    | ⟨0, _⟩ => show win17_0.index t (0 : Fin 2) * 1200 + 1 * p.val = t.val * 1200 + p.val; omega
    | ⟨1, _⟩ => show win17_0.index t (1 : Fin 2) * 128 + 1 * k.val = k.val; omega
  · show V c main_arg26 (((cfg17.win 1).blk t).view.emb y) = V c main_arg26 y
    refine congrArg (V c main_arg26) (funext fun a => Fin.ext ?_)
    match a with
    | ⟨0, _⟩ => show win17_1.index t (0 : Fin 2) * 128 + 1 * (y 0).val = (y 0).val; omega
    | ⟨1, _⟩ => show win17_1.index t (1 : Fin 2) * 128 + 1 * (y 1).val = (y 1).val; omega
  · show V c main_v323 (((cfg17.win 2).blk t).view.emb y) = V c main_v323 y
    refine congrArg (V c main_v323) (funext fun a => Fin.ext ?_)
    match a with
    | ⟨0, _⟩ => show win17_2.index t (0 : Fin 2) * 1 + 1 * (y 0).val = (y 0).val; omega
    | ⟨1, _⟩ => show win17_2.index t (1 : Fin 2) * 128 + 1 * (y 1).val = (y 1).val; omega
  · show V c main_v319 (((cfg17.win 3).blk t).view.emb (ix2 p k)) = V c main_v319 (ix2 (⟨t.val * 1200 + p.val, by omega⟩ : Fin 6000) k)
    refine congrArg (V c main_v319) (funext fun a => Fin.ext ?_)
    match a with
    | ⟨0, _⟩ => show win17_3.index t (0 : Fin 2) * 1200 + 1 * p.val = t.val * 1200 + p.val; omega
    | ⟨1, _⟩ => show win17_3.index t (1 : Fin 2) * 128 + 1 * k.val = k.val; omega
  · show V c main_arg28 (((cfg17.win 4).blk t).view.emb y) = V c main_arg28 y
    refine congrArg (V c main_arg28) (funext fun a => Fin.ext ?_)
    match a with
    | ⟨0, _⟩ => show win17_4.index t (0 : Fin 2) * 128 + 1 * (y 0).val = (y 0).val; omega
    | ⟨1, _⟩ => show win17_4.index t (1 : Fin 2) * 128 + 1 * (y 1).val = (y 1).val; omega
  · show V c main_v324 (((cfg17.win 5).blk t).view.emb y) = V c main_v324 y
    refine congrArg (V c main_v324) (funext fun a => Fin.ext ?_)
    match a with
    | ⟨0, _⟩ => show win17_5.index t (0 : Fin 2) * 1 + 1 * (y 0).val = (y 0).val; omega
    | ⟨1, _⟩ => show win17_5.index t (1 : Fin 2) * 128 + 1 * (y 1).val = (y 1).val; omega

/-- An entry of the output array is in point t's block iff each coordinate is in the block's range on its axis. -/
theorem mem_blk17 (t : Fin cfg17.N) (i : S6000x128.Idx) :
    i ∈ ((cfg17.win 6).blk t).view.set ↔ ∀ a : Fin 2, win17_6.index t a * S1200x128.size a ≤ (i a).val ∧ (i a).val < win17_6.index t a * S1200x128.size a + S1200x128.size a := by
  show i ∈ ((View.whole main_v325).slice (win17_6.rect t)).set ↔ _
  rw [View.set_slice_whole, Rect.mem_set_unit]
  exact Iff.rfl

/-- The five row blocks cover the array: row r lies in block r / 1200. -/
theorem cover17 (i : S6000x128.Idx) :
    ∃ t : Fin cfg17.N, (cfg17.win 6).flush t = true ∧ i ∈ ((cfg17.win 6).blk t).view.set := by
  have hi0 : (i 0).val < 6000 := (i 0).isLt
  have hi1 : (i 1).val < 128 := (i 1).isLt
  obtain ⟨t, q0, q1⟩ := idx_onto17 ⟨(i 0).val / 1200, by omega⟩
  have q0' : win17_6.index t (0 : Fin 2) = (i 0).val / 1200 := q0
  refine ⟨t, flush17_6 t, ?_⟩
  rw [mem_blk17]
  intro a
  match a with
  | ⟨0, _⟩ => show win17_6.index t (0 : Fin 2) * 1200 ≤ (i 0).val ∧ (i 0).val < win17_6.index t (0 : Fin 2) * 1200 + 1200; omega
  | ⟨1, _⟩ => show win17_6.index t (1 : Fin 2) * 128 ≤ (i 1).val ∧ (i 1).val < win17_6.index t (1 : Fin 2) * 128 + 128; omega

/-- The output array after the region is the whole-array function of the arrays as the region finds them. -/
theorem gate17_G (c : Dev nD) :
    (dat17 (F := Ideal) V c).arrAt 6 cfg17.N
      = G17 (V c main_v239) (V c main_arg26) (V c main_v323) (V c main_v319) (V c main_arg28) (V c main_v324) :=
  (dat17 (F := Ideal) V c).arrAt_eq_of_cover 6 (G17 (V c main_v239) (V c main_arg26) (V c main_v323) (V c main_v319) (V c main_arg28) (V c main_v324))
    (fun t _ => flushed17_eq V c t) cover17

/-- The same with the whole-array function written out: where(a > 0, a, b), a = x0 · W0 + b0, b = x1 · W1 + b1. -/
theorem gate17 (c : Dev nD) :
    (dat17 (F := Ideal) V c).arrAt 6 cfg17.N
      = select (cmpf .ogt (addf (Host.dotGeneral (F := Ideal) (φ₁ := .f32) (φ₂ := .f32) Cert.ReferenceIdeal.dot_S6000x128_S128x128_S6000x128_1_0_0_1_n_n none (V c main_v239) (V c main_arg26)) (broadcastInDim Cert.ReferenceIdeal.S6000x128 ![0, 1] Cert.ReferenceIdeal.Facts₀.bcast_S1x128_S6000x128_0_1 (V c main_v323))) (broadcastInDim Cert.ReferenceIdeal.S6000x128 ![] Cert.ReferenceIdeal.Facts₀.bcast_S_S6000x128 (constant (F := Ideal) Cert.ReferenceIdeal.S_ .f32 0x00000000#32))) (addf (Host.dotGeneral (F := Ideal) (φ₁ := .f32) (φ₂ := .f32) Cert.ReferenceIdeal.dot_S6000x128_S128x128_S6000x128_1_0_0_1_n_n none (V c main_v239) (V c main_arg26)) (broadcastInDim Cert.ReferenceIdeal.S6000x128 ![0, 1] Cert.ReferenceIdeal.Facts₀.bcast_S1x128_S6000x128_0_1 (V c main_v323))) (addf (Host.dotGeneral (F := Ideal) (φ₁ := .f32) (φ₂ := .f32) Cert.ReferenceIdeal.dot_S6000x128_S128x128_S6000x128_1_0_0_1_n_n none (V c main_v319) (V c main_arg28)) (broadcastInDim Cert.ReferenceIdeal.S6000x128 ![0, 1] Cert.ReferenceIdeal.Facts₀.bcast_S1x128_S6000x128_0_1 (V c main_v324))) :=
  gate17_G V c

end Cert.KernelIdeal.RegionValue

end
-- ==== Proof.RegionSim18.lean ====
/- The similarity region: the output array is a · bᵀ.
   Each of the 20 grid points multiplies a block of 600 rows of a (600×128) with the whole of b (6000×128), contracting the
   second axis of both, and writes the 600×6000 block of rows of the output; the reference transposes b and contracts the
   second axis of a with the first axis of bᵀ. Entry (r, q) of either is ∑ k, a(r, k) · b(q, k). -/
import proofs.«406409_j38250978738663_3_alg».proof.Proof.FrameKI
import proofs.«406409_j38250978738663_3_alg».proof.ReferenceIdeal
import proofs.«406409_j38250978738663_3_alg».proof.Proof.Gen.ReferenceIdeal
import Idealize.ShloMosaic.Lib.Pipeline.Value
import Idealize.ShloMosaic.Lib.ValueIdx
import Idealize.ShloMosaic.PureOps.Ideal.Laws

noncomputable section

namespace Cert.KernelIdeal.RegionValue

open Cert.KernelIdeal Cert.KernelIdeal.Gen Cert.KernelIdeal.GenP Idealize.ShloMosaic Idealize.ShloMosaic.TcCoe
open Idealize.ShloMosaic.ValueIdx
open Idealize.ShloMosaic.Pipeline (Dat)

/-! ## The block product read at an index -/

/-- The left operand's row is the output's row. -/
theorem lhs_sim18_0 (i : S600x6000.Idx) (q : dot_S600x128_S6000x128_S600x6000_1_1_0_0_n_n.contr.Idx) :
    (dot_S600x128_S6000x128_S600x6000_1_1_0_0_n_n.lhsIdx i q 0).val = (i 0).val := by
  unfold DotDims.lhsIdx
  rw [dif_neg (show ¬(0 : Fin S600x128.rank) ∈ dot_S600x128_S6000x128_S600x6000_1_1_0_0_n_n.lhsBatch by decide), dif_pos (show (0 : Fin S600x128.rank) ∈ dot_S600x128_S6000x128_S600x6000_1_1_0_0_n_n.lhsNonContracting by decide)]
  rfl
/-- The left operand's column is the contraction position. -/
theorem lhs_sim18_1 (i : S600x6000.Idx) (q : dot_S600x128_S6000x128_S600x6000_1_1_0_0_n_n.contr.Idx) :
    (dot_S600x128_S6000x128_S600x6000_1_1_0_0_n_n.lhsIdx i q 1).val = (q ⟨0, by decide⟩).val :=
  dot_S600x128_S6000x128_S600x6000_1_1_0_0_n_n.lhsIdx_val_of_single rfl i q
/-- The right operand's row is the output's column. -/
theorem rhs_sim18_0 (i : S600x6000.Idx) (q : dot_S600x128_S6000x128_S600x6000_1_1_0_0_n_n.contr.Idx) :
    (dot_S600x128_S6000x128_S600x6000_1_1_0_0_n_n.rhsIdx i q 0).val = (i 1).val := by
  unfold DotDims.rhsIdx
  rw [dif_neg (show ¬(0 : Fin S6000x128.rank) ∈ dot_S600x128_S6000x128_S600x6000_1_1_0_0_n_n.rhsBatch by decide), dif_pos (show (0 : Fin S6000x128.rank) ∈ dot_S600x128_S6000x128_S600x6000_1_1_0_0_n_n.rhsNonContracting by decide)]
  rfl
/-- The right operand's column is the contraction position. -/
theorem rhs_sim18_1 (i : S600x6000.Idx) (q : dot_S600x128_S6000x128_S600x6000_1_1_0_0_n_n.contr.Idx) :
    (dot_S600x128_S6000x128_S600x6000_1_1_0_0_n_n.rhsIdx i q 1).val = (q ⟨0, by decide⟩).val :=
  dot_S600x128_S6000x128_S600x6000_1_1_0_0_n_n.rhsIdx_val_of_single rfl i q

/-- Entry (p, q) of the block product is ∑ k, x0(p, k) · x1(q, k): both operands are contracted along their second
    axis, and the accumulator is zero. -/
theorem pay18_apply (x0 : Vec Ideal S600x128 .f32) (x1 : Vec Ideal S6000x128 .f32) (p : Fin 600) (q : Fin 6000) :
    k18_pay1 (F := Ideal) x0 x1 (ix2 p q) = ∑ k : Fin 128, x0 (ix2 p k) * x1 (ix2 q k) := by
  unfold k18_pay1
  simp only [shapeCast_self, matmul]
  rw [Ideal.matmul_constant_zero_apply, ← Equiv.sum_comp (ValueIdx.contrEquiv1 dot_S600x128_S6000x128_S600x6000_1_1_0_0_n_n 128 rfl rfl).symm]
  refine Finset.sum_congr rfl fun k _ => ?_
  have hk := ValueIdx.contrEquiv1_symm_val dot_S600x128_S6000x128_S600x6000_1_1_0_0_n_n 128 rfl rfl k
  have el : dot_S600x128_S6000x128_S600x6000_1_1_0_0_n_n.lhsIdx (ix2 p q) ((ValueIdx.contrEquiv1 dot_S600x128_S6000x128_S600x6000_1_1_0_0_n_n 128 rfl rfl).symm k) = ix2 p k := funext fun a => Fin.ext (by
    match a with
    | ⟨0, _⟩ => exact lhs_sim18_0 _ _
    | ⟨1, _⟩ => exact (lhs_sim18_1 _ _).trans hk)
  have er : dot_S600x128_S6000x128_S600x6000_1_1_0_0_n_n.rhsIdx (ix2 p q) ((ValueIdx.contrEquiv1 dot_S600x128_S6000x128_S600x6000_1_1_0_0_n_n 128 rfl rfl).symm k) = ix2 q k := funext fun a => Fin.ext (by
    match a with
    | ⟨0, _⟩ => exact rhs_sim18_0 _ _
    | ⟨1, _⟩ => exact (rhs_sim18_1 _ _).trans hk)
  rw [el, er]

/-! ## The whole product, and one grid point's block of it -/

/-- a · bᵀ as one function of the two arrays: entry (r, q) is ∑ k, a(r, k) · b(q, k). -/
def simG (a : FVec Ideal S12000x128 .f32) (b : FVec Ideal S6000x128 .f32) : FVec Ideal S12000x6000 .f32 :=
  fun i => ∑ k : Fin 128, a (ix2 ⟨(i 0).val, (i 0).isLt⟩ k) * b (ix2 ⟨(i 1).val, (i 1).isLt⟩ k)

theorem simG_apply (a : FVec Ideal S12000x128 .f32) (b : FVec Ideal S6000x128 .f32) (r : Fin 12000) (q : Fin 6000) :
    simG a b (ix2 r q) = ∑ k : Fin 128, a (ix2 r k) * b (ix2 q k) := rfl

/-- One grid point: if row j₀ of the a-block is row i₀ of a and row j₁ of the b-block is row i₁ of b, the block product
    at (j₀, j₁) is the whole product at (i₀, i₁). -/
theorem point18 (a : FVec Ideal S12000x128 .f32) (b : FVec Ideal S6000x128 .f32)
    (x0 : Vec Ideal S600x128 .f32) (x1 : Vec Ideal S6000x128 .f32) (j : S600x6000.Idx) (i : S12000x6000.Idx)
    (hx0 : ∀ k : Fin 128, x0 (ix2 ⟨(j 0).val, (j 0).isLt⟩ k) = a (ix2 ⟨(i 0).val, (i 0).isLt⟩ k))
    (hx1 : ∀ k : Fin 128, x1 (ix2 ⟨(j 1).val, (j 1).isLt⟩ k) = b (ix2 ⟨(i 1).val, (i 1).isLt⟩ k)) :
    k18_pay1 (F := Ideal) x0 x1 j = simG a b i := by
  obtain ⟨p, q, rfl⟩ : ∃ (p : Fin 600) (q : Fin 6000), j = ix2 p q := ⟨j 0, j 1, eq_ix2 j⟩
  rw [pay18_apply]
  exact Finset.sum_congr rfl fun k _ => by rw [← hx0 k, ← hx1 k]

/-! ## From the blocks to the array -/

theorem hz18 : (![0, 0] : Fin 2 → Nat) = fun _ => 0 := funext fun a => by fin_cases a <;> rfl

/-- The index maps over the 20 grid points: the a-block and the output block move together along the rows, every other
    block coordinate is 0. -/
theorem idx_facts18 : ∀ t : Fin cfg18.N, win18_0.index t (0 : Fin 2) = win18_2.index t (0 : Fin 2)
    ∧ win18_0.index t (1 : Fin 2) = 0
    ∧ win18_1.index t (0 : Fin 2) = 0
    ∧ win18_1.index t (1 : Fin 2) = 0
    ∧ win18_2.index t (1 : Fin 2) = 0
    ∧ win18_2.index t (0 : Fin 2) ≤ 19 :=
  (by decide +kernel : ∀ t : Fin grid18.N, _)

/-- Every one of the 20 row blocks is some point's. -/
theorem idx_onto18 : ∀ q0 : Fin 20, ∃ t : Fin cfg18.N, win18_2.index t = ![q0.val, 0] :=
  (by decide +kernel : ∀ q0 : Fin 20, ∃ t : Fin grid18.N, win18_2.index t = ![q0.val, 0])

variable (V : (c : Dev nD) → (b : Ref sig .tc) → Buf (Elt Ideal) ((c : Thread nD τ).loc b))

/-- What point t writes back is block t of a · bᵀ: row p of the a-block is row 600 · t + p of a, the b-block is b, and
    entry (p, q) of the output block is entry (600 · t + p, q) of the output. -/
theorem flushed18_eq (c : Dev nD) (t : Fin cfg18.N) :
    (dat18 (F := Ideal) V c).flushed 2 t
      = ((cfg18.win 2).blk t).view.read (Elt Ideal) (simG (V c main_v322) (V c main_v325)) := by
  show (cfg18.win 2).cut (grid18.coords t) ((dat18 (F := Ideal) V c).after 2 t) = _
  rw [after18_2]
  unfold out18_2
  rw [View.canon_unit_zero hz18]
  simp only [View.ld_unit_zero (S := S600x128) hz18, View.ld_unit_zero (S := S6000x128) hz18]
  obtain ⟨e0, e1, e2, e3, e4, e5⟩ := idx_facts18 t
  funext j
  refine point18 (V c main_v322) (V c main_v325) (iblk18 V c 0 t) (iblk18 V c 1 t) j (((cfg18.win 2).blk t).view.emb j)
    (fun k => ?_) (fun k => ?_)
  · show V c main_v322 (((cfg18.win 0).blk t).view.emb (ix2 ⟨(j 0).val, (j 0).isLt⟩ k)) = _
    refine congrArg (V c main_v322) (funext fun a => Fin.ext ?_)
    match a with
    | ⟨0, _⟩ => show win18_0.index t (0 : Fin 2) * 600 + 1 * (j 0).val = win18_2.index t (0 : Fin 2) * 600 + 1 * (j 0).val; omega
    | ⟨1, _⟩ => show win18_0.index t (1 : Fin 2) * 128 + 1 * k.val = k.val; omega
  · show V c main_v325 (((cfg18.win 1).blk t).view.emb (ix2 ⟨(j 1).val, (j 1).isLt⟩ k)) = _
    refine congrArg (V c main_v325) (funext fun a => Fin.ext ?_)
    match a with
    | ⟨0, _⟩ => show win18_1.index t (0 : Fin 2) * 6000 + 1 * (j 1).val = win18_2.index t (1 : Fin 2) * 6000 + 1 * (j 1).val; omega
    | ⟨1, _⟩ => show win18_1.index t (1 : Fin 2) * 128 + 1 * k.val = k.val; omega

/-- An index of the output array is in point t's block iff each coordinate is in the block's range on its axis. -/
theorem mem_blk18 (t : Fin cfg18.N) (i : S12000x6000.Idx) :
    i ∈ ((cfg18.win 2).blk t).view.set ↔ ∀ a : Fin 2, win18_2.index t a * S600x6000.size a ≤ (i a).val ∧ (i a).val < win18_2.index t a * S600x6000.size a + S600x6000.size a := by
  show i ∈ ((View.whole main_v326).slice (win18_2.rect t)).set ↔ _
  rw [View.set_slice_whole, Rect.mem_set_unit]
  exact Iff.rfl

/-- The blocks cover the output: row r lies in row block r / 600, and every block spans all 6000 columns. -/
theorem cover18 (i : S12000x6000.Idx) :
    ∃ t : Fin cfg18.N, (cfg18.win 2).flush t = true ∧ i ∈ ((cfg18.win 2).blk t).view.set := by
  have hi0 : (i 0).val < 12000 := (i 0).isLt
  have hi1 : (i 1).val < 6000 := (i 1).isLt
  obtain ⟨t, ht⟩ := idx_onto18 ⟨(i 0).val / 600, by omega⟩
  have q0 : win18_2.index t (0 : Fin 2) = (i 0).val / 600 := congrFun ht 0
  have q1 : win18_2.index t (1 : Fin 2) = 0 := congrFun ht 1
  refine ⟨t, flush18_2 t, ?_⟩
  rw [mem_blk18]
  intro a
  match a with
  | ⟨0, _⟩ => show win18_2.index t (0 : Fin 2) * 600 ≤ (i 0).val ∧ (i 0).val < win18_2.index t (0 : Fin 2) * 600 + 600; omega
  | ⟨1, _⟩ => show win18_2.index t (1 : Fin 2) * 6000 ≤ (i 1).val ∧ (i 1).val < win18_2.index t (1 : Fin 2) * 6000 + 6000; omega

/-- So the output array ends holding a · bᵀ. -/
theorem final18 (c : Dev nD) :
    (dat18 (F := Ideal) V c).arrAt 2 cfg18.N = simG (V c main_v322) (V c main_v325) :=
  (dat18 (F := Ideal) V c).arrAt_eq_of_cover 2 (simG (V c main_v322) (V c main_v325)) (fun t _ => flushed18_eq V c t) cover18

/-! ## The reference's transpose and dot_general read at an index -/

/-- The left operand's row is the output's row. -/
theorem lhs_ref18_0 (i : Cert.ReferenceIdeal.S12000x6000.Idx) (q : Cert.ReferenceIdeal.dot_S12000x128_S128x6000_S12000x6000_1_0_0_1_n_n.contr.Idx) :
    (Cert.ReferenceIdeal.dot_S12000x128_S128x6000_S12000x6000_1_0_0_1_n_n.lhsIdx i q 0).val = (i 0).val := by
  unfold DotDims.lhsIdx
  rw [dif_neg (show ¬(0 : Fin Cert.ReferenceIdeal.S12000x128.rank) ∈ Cert.ReferenceIdeal.dot_S12000x128_S128x6000_S12000x6000_1_0_0_1_n_n.lhsBatch from List.not_mem_nil), dif_pos (show (0 : Fin Cert.ReferenceIdeal.S12000x128.rank) ∈ Cert.ReferenceIdeal.dot_S12000x128_S128x6000_S12000x6000_1_0_0_1_n_n.lhsNonContracting from List.mem_singleton.mpr rfl)]
  rfl
/-- The left operand's column is the contraction position. -/
theorem lhs_ref18_1 (i : Cert.ReferenceIdeal.S12000x6000.Idx) (q : Cert.ReferenceIdeal.dot_S12000x128_S128x6000_S12000x6000_1_0_0_1_n_n.contr.Idx) :
    (Cert.ReferenceIdeal.dot_S12000x128_S128x6000_S12000x6000_1_0_0_1_n_n.lhsIdx i q 1).val = (q ⟨0, Nat.one_pos⟩).val :=
  Cert.ReferenceIdeal.dot_S12000x128_S128x6000_S12000x6000_1_0_0_1_n_n.lhsIdx_val_of_single rfl i q
/-- The transposed operand's row is the contraction position. -/
theorem rhs_ref18_0 (i : Cert.ReferenceIdeal.S12000x6000.Idx) (q : Cert.ReferenceIdeal.dot_S12000x128_S128x6000_S12000x6000_1_0_0_1_n_n.contr.Idx) :
    (Cert.ReferenceIdeal.dot_S12000x128_S128x6000_S12000x6000_1_0_0_1_n_n.rhsIdx i q 0).val = (q ⟨0, Nat.one_pos⟩).val :=
  Cert.ReferenceIdeal.dot_S12000x128_S128x6000_S12000x6000_1_0_0_1_n_n.rhsIdx_val_of_single rfl i q
/-- The transposed operand's column is the output's column. -/
theorem rhs_ref18_1 (i : Cert.ReferenceIdeal.S12000x6000.Idx) (q : Cert.ReferenceIdeal.dot_S12000x128_S128x6000_S12000x6000_1_0_0_1_n_n.contr.Idx) :
    (Cert.ReferenceIdeal.dot_S12000x128_S128x6000_S12000x6000_1_0_0_1_n_n.rhsIdx i q 1).val = (i 1).val := by
  unfold DotDims.rhsIdx
  rw [dif_neg (show ¬(1 : Fin Cert.ReferenceIdeal.S128x6000.rank) ∈ Cert.ReferenceIdeal.dot_S12000x128_S128x6000_S12000x6000_1_0_0_1_n_n.rhsBatch from List.not_mem_nil), dif_pos (show (1 : Fin Cert.ReferenceIdeal.S128x6000.rank) ∈ Cert.ReferenceIdeal.dot_S12000x128_S128x6000_S12000x6000_1_0_0_1_n_n.rhsNonContracting from List.mem_singleton.mpr rfl)]
  rfl

/-- Entry (r, q) of a · bᵀ by the reference is ∑ k, a(r, k) · bᵀ(k, q), and bᵀ(k, q) = b(q, k). -/
theorem ref18_apply (a : FVec Ideal S12000x128 .f32) (b : FVec Ideal S6000x128 .f32)
    (h : Cert.ReferenceIdeal.S6000x128.Transposes [1, 0] Cert.ReferenceIdeal.S128x6000) (r : Fin 12000) (q : Fin 6000) :
    Host.dotGeneral (F := Ideal) (φ₁ := .f32) (φ₂ := .f32) Cert.ReferenceIdeal.dot_S12000x128_S128x6000_S12000x6000_1_0_0_1_n_n none a
        (transpose Cert.ReferenceIdeal.S128x6000 [1, 0] b h) (ix2 r q)
      = ∑ k : Fin 128, a (ix2 r k) * b (ix2 q k) := by
  simp only [Host.dotGeneral]
  rw [Ideal.dotGeneral_apply, ← Equiv.sum_comp (ValueIdx.contrEquiv1 Cert.ReferenceIdeal.dot_S12000x128_S128x6000_S12000x6000_1_0_0_1_n_n 128 rfl rfl).symm]
  refine Finset.sum_congr rfl fun k _ => ?_
  have hk := ValueIdx.contrEquiv1_symm_val Cert.ReferenceIdeal.dot_S12000x128_S128x6000_S12000x6000_1_0_0_1_n_n 128 rfl rfl k
  have el : Cert.ReferenceIdeal.dot_S12000x128_S128x6000_S12000x6000_1_0_0_1_n_n.lhsIdx (ix2 r q) ((ValueIdx.contrEquiv1 Cert.ReferenceIdeal.dot_S12000x128_S128x6000_S12000x6000_1_0_0_1_n_n 128 rfl rfl).symm k) = ix2 r k := funext fun a => Fin.ext (by
    match a with
    | ⟨0, _⟩ => exact lhs_ref18_0 _ _
    | ⟨1, _⟩ => exact (lhs_ref18_1 _ _).trans hk)
  rw [el]
  refine congrArg (a (ix2 r k) * ·) ?_
  refine transpose_apply [1, 0] b h _ (ix2 q k) fun bx => ?_
  match bx with
  | ⟨0, _⟩ => exact ((rhs_ref18_0 (ix2 r q) _).trans hk).symm
  | ⟨1, _⟩ => exact (rhs_ref18_1 (ix2 r q) _).symm

/-- The whole product is the reference's: transpose b, then contract a's second axis with bᵀ's first. -/
theorem simG_eq_ref (a : FVec Ideal S12000x128 .f32) (b : FVec Ideal S6000x128 .f32)
    (h : Cert.ReferenceIdeal.S6000x128.Transposes [1, 0] Cert.ReferenceIdeal.S128x6000) :
    simG a b = Host.dotGeneral (F := Ideal) (φ₁ := .f32) (φ₂ := .f32) Cert.ReferenceIdeal.dot_S12000x128_S128x6000_S12000x6000_1_0_0_1_n_n none a
        (transpose Cert.ReferenceIdeal.S128x6000 [1, 0] b h) := by
  funext i
  obtain ⟨r, q, rfl⟩ : ∃ (r : Fin 12000) (q : Fin 6000), i = ix2 r q := ⟨i 0, i 1, eq_ix2 i⟩
  rw [ref18_apply, simG_apply]

/-! ## The region -/

/-- The similarity region leaves in its output array the reference's transpose followed by dot_general. -/
theorem sim18 (c : Dev nD) :
    (dat18 (F := Ideal) V c).arrAt 2 cfg18.N
      = Host.dotGeneral (F := Ideal) (φ₁ := .f32) (φ₂ := .f32) Cert.ReferenceIdeal.dot_S12000x128_S128x6000_S12000x6000_1_0_0_1_n_n none
          (V c main_v322 : FVec Ideal S12000x128 .f32)
          (transpose Cert.ReferenceIdeal.S128x6000 [1, 0] (V c main_v325 : FVec Ideal S6000x128 .f32)
            Cert.ReferenceIdeal.Facts₀.transposes_S6000x128_S128x6000_1_0) :=
  (final18 V c).trans (simG_eq_ref _ _ _)

end Cert.KernelIdeal.RegionValue

end
-- ==== Proof.Carry.lean ====
import proofs.«406409_j38250978738663_3_alg».proof.Proof.FrameKI

set_option maxRecDepth 16384

/-! # Buffers carried unchanged across boundaries of the run

The run of @main is a fold over its segments: `W k` is the TensorCore's buffer contents at boundary `k`.  A host
stretch changes only the buffers its operations write; a region changes only its output windows' arrays and leaves an
input window's array as it found it.  So a buffer that nothing in between writes holds the same contents at two
boundaries: each argument array at the entry of the layer that uses it (the launch memory), and each layer's result
at the boundary where a later region reads it (what the producing region left).  Every theorem of the last two
sections is one such walk, a boundary per step. -/

noncomputable section

namespace Cert.KernelIdeal.Carry

open Cert.KernelIdeal Cert.KernelIdeal.Gen Cert.KernelIdeal.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## What a host stretch writes

Per stretch: the list of its operations' result buffers, in order; every operation's written set lies in that list
(each is the singleton of its result); so a reference outside the list keeps its contents across the stretch
(`StableHlo.after_of_writes_sub`).  Whether a given reference is outside the list is decided over references. -/

/-- Every operation of the stretch writes inside the list: the stretch and the list are unfolded, each written set is
    the singleton of a result buffer, and that buffer is a member of the list at the operation's own position. -/
macro "writes_sub " ops:ident wr:ident : tactic => `(tactic|
  (simp only [$ops:ident, $wr:ident, List.Forall, StableHlo.nullary_writes, StableHlo.unary_writes,
      StableHlo.binary_writes, StableHlo.ternary_writes, StableHlo.quaternary_writes, StableHlo.reshape_writes,
      StableHlo.binaryIndexed_writes, Finset.singleton_subset_iff, List.mem_toFinset, List.map_cons, List.mem_cons,
      eq_self_iff_true, true_or, or_true, and_self]))

abbrev wr_hostOps0 : List (Ref sig .tc) :=
  [main_v0, main_v1, main_v2, main_v3]
theorem wr_hostOps0_sub : (hostOps0 : List (HloOp τ sig (Elt F))).Forall fun op =>
    op.writes ⊆ (wr_hostOps0.map (Proc.devRef (τ := τ) .tc)).toFinset := by
  writes_sub hostOps0 wr_hostOps0
theorem keep_hostOps0 (V : Valuation τ sig (Elt F)) (r : Ref sig .tc) (hr : r ∉ wr_hostOps0) :
    StableHlo.after hostOps0 V (Proc.devRef .tc r) = V (Proc.devRef .tc r) :=
  StableHlo.after_of_writes_sub hostOps0 V wr_hostOps0_sub hr

abbrev wr_hostOps1 : List (Ref sig .tc) :=
  [main_cst, main_v5, main_v6, main_v7, main_cst_0, main_v8, main_v9, main_v10, main_c, main_v11, main_v12,
   main_c_1, main_v13, main_v14, main_v15, main_v16, main_v17, main_v18, main_c_2, main_v19, main_v20, main_c_3,
   main_v21, main_v22, main_v23, main_v24, main_v25, main_v26]
theorem wr_hostOps1_sub : (hostOps1 : List (HloOp τ sig (Elt F))).Forall fun op =>
    op.writes ⊆ (wr_hostOps1.map (Proc.devRef (τ := τ) .tc)).toFinset := by
  writes_sub hostOps1 wr_hostOps1
theorem keep_hostOps1 (V : Valuation τ sig (Elt F)) (r : Ref sig .tc) (hr : r ∉ wr_hostOps1) :
    StableHlo.after hostOps1 V (Proc.devRef .tc r) = V (Proc.devRef .tc r) :=
  StableHlo.after_of_writes_sub hostOps1 V wr_hostOps1_sub hr

abbrev wr_hostOps1_1 : List (Ref sig .tc) :=
  [main_call0_c, main_call0_v0, main_call0_v1, main_call0_c_0, main_call0_v2, main_call0_v3, main_call0_v4,
   main_call0_v5, main_call0_c_1, main_call0_c_2, main_call0_v6, main_call0_v7, main_call0_v8, main_call0_v9,
   main_call0_v10, main_call0_v11, main_call0_c_3, main_call0_v12, main_call0_v13, main_call0_v14, main_call0_cst,
   main_call0_v15, main_v27]
theorem wr_hostOps1_1_sub : (hostOps1_1 : List (HloOp τ sig (Elt F))).Forall fun op =>
    op.writes ⊆ (wr_hostOps1_1.map (Proc.devRef (τ := τ) .tc)).toFinset := by
  writes_sub hostOps1_1 wr_hostOps1_1
theorem keep_hostOps1_1 (V : Valuation τ sig (Elt F)) (r : Ref sig .tc) (hr : r ∉ wr_hostOps1_1) :
    StableHlo.after hostOps1_1 V (Proc.devRef .tc r) = V (Proc.devRef .tc r) :=
  StableHlo.after_of_writes_sub hostOps1_1 V wr_hostOps1_1_sub hr

abbrev wr_hostOps1_2 : List (Ref sig .tc) :=
  [main_v28, main_v29, main_v30, main_cst_4, main_v31, main_v32, main_v33, main_v34, main_v35, main_v36, main_v37,
   main_v38]
theorem wr_hostOps1_2_sub : (hostOps1_2 : List (HloOp τ sig (Elt F))).Forall fun op =>
    op.writes ⊆ (wr_hostOps1_2.map (Proc.devRef (τ := τ) .tc)).toFinset := by
  writes_sub hostOps1_2 wr_hostOps1_2
theorem keep_hostOps1_2 (V : Valuation τ sig (Elt F)) (r : Ref sig .tc) (hr : r ∉ wr_hostOps1_2) :
    StableHlo.after hostOps1_2 V (Proc.devRef .tc r) = V (Proc.devRef .tc r) :=
  StableHlo.after_of_writes_sub hostOps1_2 V wr_hostOps1_2_sub hr

abbrev wr_hostOps2 : List (Ref sig .tc) :=
  [main_v40, main_v41, main_v42, main_v43]
theorem wr_hostOps2_sub : (hostOps2 : List (HloOp τ sig (Elt F))).Forall fun op =>
    op.writes ⊆ (wr_hostOps2.map (Proc.devRef (τ := τ) .tc)).toFinset := by
  writes_sub hostOps2 wr_hostOps2
theorem keep_hostOps2 (V : Valuation τ sig (Elt F)) (r : Ref sig .tc) (hr : r ∉ wr_hostOps2) :
    StableHlo.after hostOps2 V (Proc.devRef .tc r) = V (Proc.devRef .tc r) :=
  StableHlo.after_of_writes_sub hostOps2 V wr_hostOps2_sub hr

abbrev wr_hostOps3 : List (Ref sig .tc) :=
  [main_cst_5, main_v45, main_v46, main_v47, main_cst_6, main_v48, main_v49, main_v50, main_c_7, main_v51, main_v52,
   main_c_8, main_v53, main_v54, main_v55, main_v56, main_v57, main_v58, main_c_9, main_v59, main_v60, main_c_10,
   main_v61, main_v62, main_v63, main_v64, main_v65, main_v66]
theorem wr_hostOps3_sub : (hostOps3 : List (HloOp τ sig (Elt F))).Forall fun op =>
    op.writes ⊆ (wr_hostOps3.map (Proc.devRef (τ := τ) .tc)).toFinset := by
  writes_sub hostOps3 wr_hostOps3
theorem keep_hostOps3 (V : Valuation τ sig (Elt F)) (r : Ref sig .tc) (hr : r ∉ wr_hostOps3) :
    StableHlo.after hostOps3 V (Proc.devRef .tc r) = V (Proc.devRef .tc r) :=
  StableHlo.after_of_writes_sub hostOps3 V wr_hostOps3_sub hr

abbrev wr_hostOps3_1 : List (Ref sig .tc) :=
  [main_call1_c, main_call1_v0, main_call1_v1, main_call1_c_0, main_call1_v2, main_call1_v3, main_call1_v4,
   main_call1_v5, main_call1_c_1, main_call1_c_2, main_call1_v6, main_call1_v7, main_call1_v8, main_call1_v9,
   main_call1_v10, main_call1_v11, main_call1_c_3, main_call1_v12, main_call1_v13, main_call1_v14, main_call1_cst,
   main_call1_v15, main_v67]
theorem wr_hostOps3_1_sub : (hostOps3_1 : List (HloOp τ sig (Elt F))).Forall fun op =>
    op.writes ⊆ (wr_hostOps3_1.map (Proc.devRef (τ := τ) .tc)).toFinset := by
  writes_sub hostOps3_1 wr_hostOps3_1
theorem keep_hostOps3_1 (V : Valuation τ sig (Elt F)) (r : Ref sig .tc) (hr : r ∉ wr_hostOps3_1) :
    StableHlo.after hostOps3_1 V (Proc.devRef .tc r) = V (Proc.devRef .tc r) :=
  StableHlo.after_of_writes_sub hostOps3_1 V wr_hostOps3_1_sub hr

abbrev wr_hostOps3_2 : List (Ref sig .tc) :=
  [main_v68, main_v69, main_v70, main_cst_11, main_v71, main_v72, main_v73, main_v74, main_v75, main_v76, main_v77,
   main_v78]
theorem wr_hostOps3_2_sub : (hostOps3_2 : List (HloOp τ sig (Elt F))).Forall fun op =>
    op.writes ⊆ (wr_hostOps3_2.map (Proc.devRef (τ := τ) .tc)).toFinset := by
  writes_sub hostOps3_2 wr_hostOps3_2
theorem keep_hostOps3_2 (V : Valuation τ sig (Elt F)) (r : Ref sig .tc) (hr : r ∉ wr_hostOps3_2) :
    StableHlo.after hostOps3_2 V (Proc.devRef .tc r) = V (Proc.devRef .tc r) :=
  StableHlo.after_of_writes_sub hostOps3_2 V wr_hostOps3_2_sub hr

abbrev wr_hostOps4 : List (Ref sig .tc) :=
  [main_v80, main_v81, main_v82, main_v83]
theorem wr_hostOps4_sub : (hostOps4 : List (HloOp τ sig (Elt F))).Forall fun op =>
    op.writes ⊆ (wr_hostOps4.map (Proc.devRef (τ := τ) .tc)).toFinset := by
  writes_sub hostOps4 wr_hostOps4
theorem keep_hostOps4 (V : Valuation τ sig (Elt F)) (r : Ref sig .tc) (hr : r ∉ wr_hostOps4) :
    StableHlo.after hostOps4 V (Proc.devRef .tc r) = V (Proc.devRef .tc r) :=
  StableHlo.after_of_writes_sub hostOps4 V wr_hostOps4_sub hr

abbrev wr_hostOps5 : List (Ref sig .tc) :=
  [main_cst_12, main_v85, main_v86, main_v87, main_cst_13, main_v88, main_v89, main_v90, main_c_14, main_v91,
   main_v92, main_c_15, main_v93, main_v94, main_v95, main_v96, main_v97, main_v98, main_c_16, main_v99, main_v100,
   main_c_17, main_v101, main_v102, main_v103, main_v104, main_v105, main_v106]
theorem wr_hostOps5_sub : (hostOps5 : List (HloOp τ sig (Elt F))).Forall fun op =>
    op.writes ⊆ (wr_hostOps5.map (Proc.devRef (τ := τ) .tc)).toFinset := by
  writes_sub hostOps5 wr_hostOps5
theorem keep_hostOps5 (V : Valuation τ sig (Elt F)) (r : Ref sig .tc) (hr : r ∉ wr_hostOps5) :
    StableHlo.after hostOps5 V (Proc.devRef .tc r) = V (Proc.devRef .tc r) :=
  StableHlo.after_of_writes_sub hostOps5 V wr_hostOps5_sub hr

abbrev wr_hostOps5_1 : List (Ref sig .tc) :=
  [main_call2_c, main_call2_v0, main_call2_v1, main_call2_c_0, main_call2_v2, main_call2_v3, main_call2_v4,
   main_call2_v5, main_call2_c_1, main_call2_c_2, main_call2_v6, main_call2_v7, main_call2_v8, main_call2_v9,
   main_call2_v10, main_call2_v11, main_call2_c_3, main_call2_v12, main_call2_v13, main_call2_v14, main_call2_cst,
   main_call2_v15, main_v107]
theorem wr_hostOps5_1_sub : (hostOps5_1 : List (HloOp τ sig (Elt F))).Forall fun op =>
    op.writes ⊆ (wr_hostOps5_1.map (Proc.devRef (τ := τ) .tc)).toFinset := by
  writes_sub hostOps5_1 wr_hostOps5_1
theorem keep_hostOps5_1 (V : Valuation τ sig (Elt F)) (r : Ref sig .tc) (hr : r ∉ wr_hostOps5_1) :
    StableHlo.after hostOps5_1 V (Proc.devRef .tc r) = V (Proc.devRef .tc r) :=
  StableHlo.after_of_writes_sub hostOps5_1 V wr_hostOps5_1_sub hr

abbrev wr_hostOps5_2 : List (Ref sig .tc) :=
  [main_v108, main_v109, main_v110, main_cst_18, main_v111, main_v112, main_v113, main_v114, main_v115, main_v116,
   main_v117, main_v118]
theorem wr_hostOps5_2_sub : (hostOps5_2 : List (HloOp τ sig (Elt F))).Forall fun op =>
    op.writes ⊆ (wr_hostOps5_2.map (Proc.devRef (τ := τ) .tc)).toFinset := by
  writes_sub hostOps5_2 wr_hostOps5_2
theorem keep_hostOps5_2 (V : Valuation τ sig (Elt F)) (r : Ref sig .tc) (hr : r ∉ wr_hostOps5_2) :
    StableHlo.after hostOps5_2 V (Proc.devRef .tc r) = V (Proc.devRef .tc r) :=
  StableHlo.after_of_writes_sub hostOps5_2 V wr_hostOps5_2_sub hr

abbrev wr_hostOps6 : List (Ref sig .tc) :=
  [main_v120, main_v121, main_v122, main_v123]
theorem wr_hostOps6_sub : (hostOps6 : List (HloOp τ sig (Elt F))).Forall fun op =>
    op.writes ⊆ (wr_hostOps6.map (Proc.devRef (τ := τ) .tc)).toFinset := by
  writes_sub hostOps6 wr_hostOps6
theorem keep_hostOps6 (V : Valuation τ sig (Elt F)) (r : Ref sig .tc) (hr : r ∉ wr_hostOps6) :
    StableHlo.after hostOps6 V (Proc.devRef .tc r) = V (Proc.devRef .tc r) :=
  StableHlo.after_of_writes_sub hostOps6 V wr_hostOps6_sub hr

abbrev wr_hostOps7 : List (Ref sig .tc) :=
  [main_cst_19, main_v125, main_v126, main_v127, main_cst_20, main_v128, main_v129, main_v130, main_c_21, main_v131,
   main_v132, main_c_22, main_v133, main_v134, main_v135, main_v136, main_v137, main_v138, main_c_23, main_v139,
   main_v140, main_c_24, main_v141, main_v142, main_v143, main_v144, main_v145, main_v146]
theorem wr_hostOps7_sub : (hostOps7 : List (HloOp τ sig (Elt F))).Forall fun op =>
    op.writes ⊆ (wr_hostOps7.map (Proc.devRef (τ := τ) .tc)).toFinset := by
  writes_sub hostOps7 wr_hostOps7
theorem keep_hostOps7 (V : Valuation τ sig (Elt F)) (r : Ref sig .tc) (hr : r ∉ wr_hostOps7) :
    StableHlo.after hostOps7 V (Proc.devRef .tc r) = V (Proc.devRef .tc r) :=
  StableHlo.after_of_writes_sub hostOps7 V wr_hostOps7_sub hr

abbrev wr_hostOps7_1 : List (Ref sig .tc) :=
  [main_call3_c, main_call3_v0, main_call3_v1, main_call3_c_0, main_call3_v2, main_call3_v3, main_call3_v4,
   main_call3_v5, main_call3_c_1, main_call3_c_2, main_call3_v6, main_call3_v7, main_call3_v8, main_call3_v9,
   main_call3_v10, main_call3_v11, main_call3_c_3, main_call3_v12, main_call3_v13, main_call3_v14, main_call3_cst,
   main_call3_v15, main_v147]
theorem wr_hostOps7_1_sub : (hostOps7_1 : List (HloOp τ sig (Elt F))).Forall fun op =>
    op.writes ⊆ (wr_hostOps7_1.map (Proc.devRef (τ := τ) .tc)).toFinset := by
  writes_sub hostOps7_1 wr_hostOps7_1
theorem keep_hostOps7_1 (V : Valuation τ sig (Elt F)) (r : Ref sig .tc) (hr : r ∉ wr_hostOps7_1) :
    StableHlo.after hostOps7_1 V (Proc.devRef .tc r) = V (Proc.devRef .tc r) :=
  StableHlo.after_of_writes_sub hostOps7_1 V wr_hostOps7_1_sub hr

abbrev wr_hostOps7_2 : List (Ref sig .tc) :=
  [main_v148, main_v149, main_v150, main_cst_25, main_v151, main_v152, main_v153, main_v154, main_v155, main_v156,
   main_v157, main_v158]
theorem wr_hostOps7_2_sub : (hostOps7_2 : List (HloOp τ sig (Elt F))).Forall fun op =>
    op.writes ⊆ (wr_hostOps7_2.map (Proc.devRef (τ := τ) .tc)).toFinset := by
  writes_sub hostOps7_2 wr_hostOps7_2
theorem keep_hostOps7_2 (V : Valuation τ sig (Elt F)) (r : Ref sig .tc) (hr : r ∉ wr_hostOps7_2) :
    StableHlo.after hostOps7_2 V (Proc.devRef .tc r) = V (Proc.devRef .tc r) :=
  StableHlo.after_of_writes_sub hostOps7_2 V wr_hostOps7_2_sub hr

abbrev wr_hostOps8 : List (Ref sig .tc) :=
  [main_v160, main_v161, main_v162, main_v163]
theorem wr_hostOps8_sub : (hostOps8 : List (HloOp τ sig (Elt F))).Forall fun op =>
    op.writes ⊆ (wr_hostOps8.map (Proc.devRef (τ := τ) .tc)).toFinset := by
  writes_sub hostOps8 wr_hostOps8
theorem keep_hostOps8 (V : Valuation τ sig (Elt F)) (r : Ref sig .tc) (hr : r ∉ wr_hostOps8) :
    StableHlo.after hostOps8 V (Proc.devRef .tc r) = V (Proc.devRef .tc r) :=
  StableHlo.after_of_writes_sub hostOps8 V wr_hostOps8_sub hr

abbrev wr_hostOps9 : List (Ref sig .tc) :=
  [main_cst_26, main_v165, main_v166, main_v167, main_cst_27, main_v168, main_v169, main_v170, main_c_28, main_v171,
   main_v172, main_c_29, main_v173, main_v174, main_v175, main_v176, main_v177, main_v178, main_c_30, main_v179,
   main_v180, main_c_31, main_v181, main_v182, main_v183, main_v184, main_v185, main_v186]
theorem wr_hostOps9_sub : (hostOps9 : List (HloOp τ sig (Elt F))).Forall fun op =>
    op.writes ⊆ (wr_hostOps9.map (Proc.devRef (τ := τ) .tc)).toFinset := by
  writes_sub hostOps9 wr_hostOps9
theorem keep_hostOps9 (V : Valuation τ sig (Elt F)) (r : Ref sig .tc) (hr : r ∉ wr_hostOps9) :
    StableHlo.after hostOps9 V (Proc.devRef .tc r) = V (Proc.devRef .tc r) :=
  StableHlo.after_of_writes_sub hostOps9 V wr_hostOps9_sub hr

abbrev wr_hostOps9_1 : List (Ref sig .tc) :=
  [main_call4_c, main_call4_v0, main_call4_v1, main_call4_c_0, main_call4_v2, main_call4_v3, main_call4_v4,
   main_call4_v5, main_call4_c_1, main_call4_c_2, main_call4_v6, main_call4_v7, main_call4_v8, main_call4_v9,
   main_call4_v10, main_call4_v11, main_call4_c_3, main_call4_v12, main_call4_v13, main_call4_v14, main_call4_cst,
   main_call4_v15, main_v187]
theorem wr_hostOps9_1_sub : (hostOps9_1 : List (HloOp τ sig (Elt F))).Forall fun op =>
    op.writes ⊆ (wr_hostOps9_1.map (Proc.devRef (τ := τ) .tc)).toFinset := by
  writes_sub hostOps9_1 wr_hostOps9_1
theorem keep_hostOps9_1 (V : Valuation τ sig (Elt F)) (r : Ref sig .tc) (hr : r ∉ wr_hostOps9_1) :
    StableHlo.after hostOps9_1 V (Proc.devRef .tc r) = V (Proc.devRef .tc r) :=
  StableHlo.after_of_writes_sub hostOps9_1 V wr_hostOps9_1_sub hr

abbrev wr_hostOps9_2 : List (Ref sig .tc) :=
  [main_v188, main_v189, main_v190, main_cst_32, main_v191, main_v192, main_v193, main_v194, main_v195, main_v196,
   main_v197, main_v198]
theorem wr_hostOps9_2_sub : (hostOps9_2 : List (HloOp τ sig (Elt F))).Forall fun op =>
    op.writes ⊆ (wr_hostOps9_2.map (Proc.devRef (τ := τ) .tc)).toFinset := by
  writes_sub hostOps9_2 wr_hostOps9_2
theorem keep_hostOps9_2 (V : Valuation τ sig (Elt F)) (r : Ref sig .tc) (hr : r ∉ wr_hostOps9_2) :
    StableHlo.after hostOps9_2 V (Proc.devRef .tc r) = V (Proc.devRef .tc r) :=
  StableHlo.after_of_writes_sub hostOps9_2 V wr_hostOps9_2_sub hr

abbrev wr_hostOps10 : List (Ref sig .tc) :=
  [main_v200, main_v201, main_v202, main_v203]
theorem wr_hostOps10_sub : (hostOps10 : List (HloOp τ sig (Elt F))).Forall fun op =>
    op.writes ⊆ (wr_hostOps10.map (Proc.devRef (τ := τ) .tc)).toFinset := by
  writes_sub hostOps10 wr_hostOps10
theorem keep_hostOps10 (V : Valuation τ sig (Elt F)) (r : Ref sig .tc) (hr : r ∉ wr_hostOps10) :
    StableHlo.after hostOps10 V (Proc.devRef .tc r) = V (Proc.devRef .tc r) :=
  StableHlo.after_of_writes_sub hostOps10 V wr_hostOps10_sub hr

abbrev wr_hostOps11 : List (Ref sig .tc) :=
  [main_cst_33, main_v205, main_v206, main_v207, main_cst_34, main_v208, main_v209, main_v210, main_c_35, main_v211,
   main_v212, main_c_36, main_v213, main_v214, main_v215, main_v216, main_v217, main_v218, main_c_37, main_v219,
   main_v220, main_c_38, main_v221, main_v222, main_v223, main_v224, main_v225, main_v226]
theorem wr_hostOps11_sub : (hostOps11 : List (HloOp τ sig (Elt F))).Forall fun op =>
    op.writes ⊆ (wr_hostOps11.map (Proc.devRef (τ := τ) .tc)).toFinset := by
  writes_sub hostOps11 wr_hostOps11
theorem keep_hostOps11 (V : Valuation τ sig (Elt F)) (r : Ref sig .tc) (hr : r ∉ wr_hostOps11) :
    StableHlo.after hostOps11 V (Proc.devRef .tc r) = V (Proc.devRef .tc r) :=
  StableHlo.after_of_writes_sub hostOps11 V wr_hostOps11_sub hr

abbrev wr_hostOps11_1 : List (Ref sig .tc) :=
  [main_call5_c, main_call5_v0, main_call5_v1, main_call5_c_0, main_call5_v2, main_call5_v3, main_call5_v4,
   main_call5_v5, main_call5_c_1, main_call5_c_2, main_call5_v6, main_call5_v7, main_call5_v8, main_call5_v9,
   main_call5_v10, main_call5_v11, main_call5_c_3, main_call5_v12, main_call5_v13, main_call5_v14, main_call5_cst,
   main_call5_v15, main_v227]
theorem wr_hostOps11_1_sub : (hostOps11_1 : List (HloOp τ sig (Elt F))).Forall fun op =>
    op.writes ⊆ (wr_hostOps11_1.map (Proc.devRef (τ := τ) .tc)).toFinset := by
  writes_sub hostOps11_1 wr_hostOps11_1
theorem keep_hostOps11_1 (V : Valuation τ sig (Elt F)) (r : Ref sig .tc) (hr : r ∉ wr_hostOps11_1) :
    StableHlo.after hostOps11_1 V (Proc.devRef .tc r) = V (Proc.devRef .tc r) :=
  StableHlo.after_of_writes_sub hostOps11_1 V wr_hostOps11_1_sub hr

abbrev wr_hostOps11_2 : List (Ref sig .tc) :=
  [main_v228, main_v229, main_v230, main_cst_39, main_v231, main_v232, main_v233, main_v234, main_v235, main_v236,
   main_v237, main_v238]
theorem wr_hostOps11_2_sub : (hostOps11_2 : List (HloOp τ sig (Elt F))).Forall fun op =>
    op.writes ⊆ (wr_hostOps11_2.map (Proc.devRef (τ := τ) .tc)).toFinset := by
  writes_sub hostOps11_2 wr_hostOps11_2
theorem keep_hostOps11_2 (V : Valuation τ sig (Elt F)) (r : Ref sig .tc) (hr : r ∉ wr_hostOps11_2) :
    StableHlo.after hostOps11_2 V (Proc.devRef .tc r) = V (Proc.devRef .tc r) :=
  StableHlo.after_of_writes_sub hostOps11_2 V wr_hostOps11_2_sub hr

abbrev wr_hostOps12 : List (Ref sig .tc) :=
  [main_v240, main_v241, main_v242, main_v243]
theorem wr_hostOps12_sub : (hostOps12 : List (HloOp τ sig (Elt F))).Forall fun op =>
    op.writes ⊆ (wr_hostOps12.map (Proc.devRef (τ := τ) .tc)).toFinset := by
  writes_sub hostOps12 wr_hostOps12
theorem keep_hostOps12 (V : Valuation τ sig (Elt F)) (r : Ref sig .tc) (hr : r ∉ wr_hostOps12) :
    StableHlo.after hostOps12 V (Proc.devRef .tc r) = V (Proc.devRef .tc r) :=
  StableHlo.after_of_writes_sub hostOps12 V wr_hostOps12_sub hr

abbrev wr_hostOps13 : List (Ref sig .tc) :=
  [main_cst_40, main_v245, main_v246, main_v247, main_cst_41, main_v248, main_v249, main_v250, main_c_42, main_v251,
   main_v252, main_c_43, main_v253, main_v254, main_v255, main_v256, main_v257, main_v258, main_c_44, main_v259,
   main_v260, main_c_45, main_v261, main_v262, main_v263, main_v264, main_v265, main_v266]
theorem wr_hostOps13_sub : (hostOps13 : List (HloOp τ sig (Elt F))).Forall fun op =>
    op.writes ⊆ (wr_hostOps13.map (Proc.devRef (τ := τ) .tc)).toFinset := by
  writes_sub hostOps13 wr_hostOps13
theorem keep_hostOps13 (V : Valuation τ sig (Elt F)) (r : Ref sig .tc) (hr : r ∉ wr_hostOps13) :
    StableHlo.after hostOps13 V (Proc.devRef .tc r) = V (Proc.devRef .tc r) :=
  StableHlo.after_of_writes_sub hostOps13 V wr_hostOps13_sub hr

abbrev wr_hostOps13_1 : List (Ref sig .tc) :=
  [main_call6_c, main_call6_v0, main_call6_v1, main_call6_c_0, main_call6_v2, main_call6_v3, main_call6_v4,
   main_call6_v5, main_call6_c_1, main_call6_c_2, main_call6_v6, main_call6_v7, main_call6_v8, main_call6_v9,
   main_call6_v10, main_call6_v11, main_call6_c_3, main_call6_v12, main_call6_v13, main_call6_v14, main_call6_cst,
   main_call6_v15, main_v267]
theorem wr_hostOps13_1_sub : (hostOps13_1 : List (HloOp τ sig (Elt F))).Forall fun op =>
    op.writes ⊆ (wr_hostOps13_1.map (Proc.devRef (τ := τ) .tc)).toFinset := by
  writes_sub hostOps13_1 wr_hostOps13_1
theorem keep_hostOps13_1 (V : Valuation τ sig (Elt F)) (r : Ref sig .tc) (hr : r ∉ wr_hostOps13_1) :
    StableHlo.after hostOps13_1 V (Proc.devRef .tc r) = V (Proc.devRef .tc r) :=
  StableHlo.after_of_writes_sub hostOps13_1 V wr_hostOps13_1_sub hr

abbrev wr_hostOps13_2 : List (Ref sig .tc) :=
  [main_v268, main_v269, main_v270, main_cst_46, main_v271, main_v272, main_v273, main_v274, main_v275, main_v276,
   main_v277, main_v278]
theorem wr_hostOps13_2_sub : (hostOps13_2 : List (HloOp τ sig (Elt F))).Forall fun op =>
    op.writes ⊆ (wr_hostOps13_2.map (Proc.devRef (τ := τ) .tc)).toFinset := by
  writes_sub hostOps13_2 wr_hostOps13_2
theorem keep_hostOps13_2 (V : Valuation τ sig (Elt F)) (r : Ref sig .tc) (hr : r ∉ wr_hostOps13_2) :
    StableHlo.after hostOps13_2 V (Proc.devRef .tc r) = V (Proc.devRef .tc r) :=
  StableHlo.after_of_writes_sub hostOps13_2 V wr_hostOps13_2_sub hr

abbrev wr_hostOps14 : List (Ref sig .tc) :=
  [main_v280, main_v281, main_v282, main_v283]
theorem wr_hostOps14_sub : (hostOps14 : List (HloOp τ sig (Elt F))).Forall fun op =>
    op.writes ⊆ (wr_hostOps14.map (Proc.devRef (τ := τ) .tc)).toFinset := by
  writes_sub hostOps14 wr_hostOps14
theorem keep_hostOps14 (V : Valuation τ sig (Elt F)) (r : Ref sig .tc) (hr : r ∉ wr_hostOps14) :
    StableHlo.after hostOps14 V (Proc.devRef .tc r) = V (Proc.devRef .tc r) :=
  StableHlo.after_of_writes_sub hostOps14 V wr_hostOps14_sub hr

abbrev wr_hostOps15 : List (Ref sig .tc) :=
  [main_cst_47, main_v285, main_v286, main_v287, main_cst_48, main_v288, main_v289, main_v290, main_c_49, main_v291,
   main_v292, main_c_50, main_v293, main_v294, main_v295, main_v296, main_v297, main_v298, main_c_51, main_v299,
   main_v300, main_c_52, main_v301, main_v302, main_v303, main_v304, main_v305, main_v306]
theorem wr_hostOps15_sub : (hostOps15 : List (HloOp τ sig (Elt F))).Forall fun op =>
    op.writes ⊆ (wr_hostOps15.map (Proc.devRef (τ := τ) .tc)).toFinset := by
  writes_sub hostOps15 wr_hostOps15
theorem keep_hostOps15 (V : Valuation τ sig (Elt F)) (r : Ref sig .tc) (hr : r ∉ wr_hostOps15) :
    StableHlo.after hostOps15 V (Proc.devRef .tc r) = V (Proc.devRef .tc r) :=
  StableHlo.after_of_writes_sub hostOps15 V wr_hostOps15_sub hr

abbrev wr_hostOps15_1 : List (Ref sig .tc) :=
  [main_call7_c, main_call7_v0, main_call7_v1, main_call7_c_0, main_call7_v2, main_call7_v3, main_call7_v4,
   main_call7_v5, main_call7_c_1, main_call7_c_2, main_call7_v6, main_call7_v7, main_call7_v8, main_call7_v9,
   main_call7_v10, main_call7_v11, main_call7_c_3, main_call7_v12, main_call7_v13, main_call7_v14, main_call7_cst,
   main_call7_v15, main_v307]
theorem wr_hostOps15_1_sub : (hostOps15_1 : List (HloOp τ sig (Elt F))).Forall fun op =>
    op.writes ⊆ (wr_hostOps15_1.map (Proc.devRef (τ := τ) .tc)).toFinset := by
  writes_sub hostOps15_1 wr_hostOps15_1
theorem keep_hostOps15_1 (V : Valuation τ sig (Elt F)) (r : Ref sig .tc) (hr : r ∉ wr_hostOps15_1) :
    StableHlo.after hostOps15_1 V (Proc.devRef .tc r) = V (Proc.devRef .tc r) :=
  StableHlo.after_of_writes_sub hostOps15_1 V wr_hostOps15_1_sub hr

abbrev wr_hostOps15_2 : List (Ref sig .tc) :=
  [main_v308, main_v309, main_v310, main_cst_53, main_v311, main_v312, main_v313, main_v314, main_v315, main_v316,
   main_v317, main_v318]
theorem wr_hostOps15_2_sub : (hostOps15_2 : List (HloOp τ sig (Elt F))).Forall fun op =>
    op.writes ⊆ (wr_hostOps15_2.map (Proc.devRef (τ := τ) .tc)).toFinset := by
  writes_sub hostOps15_2 wr_hostOps15_2
theorem keep_hostOps15_2 (V : Valuation τ sig (Elt F)) (r : Ref sig .tc) (hr : r ∉ wr_hostOps15_2) :
    StableHlo.after hostOps15_2 V (Proc.devRef .tc r) = V (Proc.devRef .tc r) :=
  StableHlo.after_of_writes_sub hostOps15_2 V wr_hostOps15_2_sub hr

abbrev wr_hostOps16 : List (Ref sig .tc) :=
  [main_v320, main_v321]
theorem wr_hostOps16_sub : (hostOps16 : List (HloOp τ sig (Elt F))).Forall fun op =>
    op.writes ⊆ (wr_hostOps16.map (Proc.devRef (τ := τ) .tc)).toFinset := by
  writes_sub hostOps16 wr_hostOps16
theorem keep_hostOps16 (V : Valuation τ sig (Elt F)) (r : Ref sig .tc) (hr : r ∉ wr_hostOps16) :
    StableHlo.after hostOps16 V (Proc.devRef .tc r) = V (Proc.devRef .tc r) :=
  StableHlo.after_of_writes_sub hostOps16 V wr_hostOps16_sub hr

abbrev wr_hostOps17 : List (Ref sig .tc) :=
  [main_v323, main_v324]
theorem wr_hostOps17_sub : (hostOps17 : List (HloOp τ sig (Elt F))).Forall fun op =>
    op.writes ⊆ (wr_hostOps17.map (Proc.devRef (τ := τ) .tc)).toFinset := by
  writes_sub hostOps17 wr_hostOps17
theorem keep_hostOps17 (V : Valuation τ sig (Elt F)) (r : Ref sig .tc) (hr : r ∉ wr_hostOps17) :
    StableHlo.after hostOps17 V (Proc.devRef .tc r) = V (Proc.devRef .tc r) :=
  StableHlo.after_of_writes_sub hostOps17 V wr_hostOps17_sub hr

variable (m : (ℓ : Loc nD τ sig) → Buf (Elt F) ℓ) (ρ : Dev nD → PrngReg)

/-! ## The argument arrays at boundary 6: as launched -/

theorem arg2_at6 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := keep_hostOps1_2 (W4 m ρ c) main_arg2 (by decide)
    _ = W3 m ρ c (Proc.devRef .tc main_arg2) := keep_hostOps1_1 (W3 m ρ c) main_arg2 (by decide)
    _ = W2 m ρ c (Proc.devRef .tc main_arg2) := keep_hostOps1 (W2 m ρ c) main_arg2 (by decide)
    _ = W1 m ρ c (Proc.devRef .tc main_arg2) := W2_of_ne m ρ c main_arg2 (by decide)
    _ = W0 m ρ c (Proc.devRef .tc main_arg2) := keep_hostOps0 (W0 m ρ c) main_arg2 (by decide)
    _ = m ((c : Thread nD τ).loc main_arg2) := rfl

theorem arg3_at6 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := keep_hostOps1_2 (W4 m ρ c) main_arg3 (by decide)
    _ = W3 m ρ c (Proc.devRef .tc main_arg3) := keep_hostOps1_1 (W3 m ρ c) main_arg3 (by decide)
    _ = W2 m ρ c (Proc.devRef .tc main_arg3) := keep_hostOps1 (W2 m ρ c) main_arg3 (by decide)
    _ = W1 m ρ c (Proc.devRef .tc main_arg3) := W2_of_ne m ρ c main_arg3 (by decide)
    _ = W0 m ρ c (Proc.devRef .tc main_arg3) := keep_hostOps0 (W0 m ρ c) main_arg3 (by decide)
    _ = m ((c : Thread nD τ).loc main_arg3) := rfl

theorem arg12_at6 (c : Dev nD) : W6 m ρ c (Proc.devRef .tc main_arg12) = m ((c : Thread nD τ).loc main_arg12) :=
  calc W6 m ρ c (Proc.devRef .tc main_arg12)
    _ = W5 m ρ c (Proc.devRef .tc main_arg12) := W6_of_ne m ρ c main_arg12 (by decide)
    _ = W4 m ρ c (Proc.devRef .tc main_arg12) := keep_hostOps1_2 (W4 m ρ c) main_arg12 (by decide)
    _ = W3 m ρ c (Proc.devRef .tc main_arg12) := keep_hostOps1_1 (W3 m ρ c) main_arg12 (by decide)
    _ = W2 m ρ c (Proc.devRef .tc main_arg12) := keep_hostOps1 (W2 m ρ c) main_arg12 (by decide)
    _ = W1 m ρ c (Proc.devRef .tc main_arg12) := W2_of_ne m ρ c main_arg12 (by decide)
    _ = W0 m ρ c (Proc.devRef .tc main_arg12) := keep_hostOps0 (W0 m ρ c) main_arg12 (by decide)
    _ = m ((c : Thread nD τ).loc main_arg12) := rfl

theorem arg13_at6 (c : Dev nD) : W6 m ρ c (Proc.devRef .tc main_arg13) = m ((c : Thread nD τ).loc main_arg13) :=
  calc W6 m ρ c (Proc.devRef .tc main_arg13)
    _ = W5 m ρ c (Proc.devRef .tc main_arg13) := W6_of_ne m ρ c main_arg13 (by decide)
    _ = W4 m ρ c (Proc.devRef .tc main_arg13) := keep_hostOps1_2 (W4 m ρ c) main_arg13 (by decide)
    _ = W3 m ρ c (Proc.devRef .tc main_arg13) := keep_hostOps1_1 (W3 m ρ c) main_arg13 (by decide)
    _ = W2 m ρ c (Proc.devRef .tc main_arg13) := keep_hostOps1 (W2 m ρ c) main_arg13 (by decide)
    _ = W1 m ρ c (Proc.devRef .tc main_arg13) := W2_of_ne m ρ c main_arg13 (by decide)
    _ = W0 m ρ c (Proc.devRef .tc main_arg13) := keep_hostOps0 (W0 m ρ c) main_arg13 (by decide)
    _ = m ((c : Thread nD τ).loc main_arg13) := rfl

/-! ## The argument arrays at boundary 12: as launched -/

theorem arg0_at12 (c : Dev nD) : W12 m ρ c (Proc.devRef .tc main_arg0) = m ((c : Thread nD τ).loc main_arg0) :=
  calc W12 m ρ c (Proc.devRef .tc main_arg0)
    _ = W11 m ρ c (Proc.devRef .tc main_arg0) := W12_of_ne m ρ c main_arg0 (by decide)
    _ = W10 m ρ c (Proc.devRef .tc main_arg0) := keep_hostOps3_2 (W10 m ρ c) main_arg0 (by decide)
    _ = W9 m ρ c (Proc.devRef .tc main_arg0) := keep_hostOps3_1 (W9 m ρ c) main_arg0 (by decide)
    _ = W8 m ρ c (Proc.devRef .tc main_arg0) := keep_hostOps3 (W8 m ρ c) main_arg0 (by decide)
    _ = W7 m ρ c (Proc.devRef .tc main_arg0) := W8_of_ne m ρ c main_arg0 (by decide)
    _ = W6 m ρ c (Proc.devRef .tc main_arg0) := keep_hostOps2 (W6 m ρ c) main_arg0 (by decide)
    _ = W5 m ρ c (Proc.devRef .tc main_arg0) := W6_of_ne m ρ c main_arg0 (by decide)
    _ = W4 m ρ c (Proc.devRef .tc main_arg0) := keep_hostOps1_2 (W4 m ρ c) main_arg0 (by decide)
    _ = W3 m ρ c (Proc.devRef .tc main_arg0) := keep_hostOps1_1 (W3 m ρ c) main_arg0 (by decide)
    _ = W2 m ρ c (Proc.devRef .tc main_arg0) := keep_hostOps1 (W2 m ρ c) main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := keep_hostOps0 (W0 m ρ c) main_arg0 (by decide)
    _ = m ((c : Thread nD τ).loc main_arg0) := rfl

theorem arg4_at12 (c : Dev nD) : W12 m ρ c (Proc.devRef .tc main_arg4) = m ((c : Thread nD τ).loc main_arg4) :=
  calc W12 m ρ c (Proc.devRef .tc main_arg4)
    _ = W11 m ρ c (Proc.devRef .tc main_arg4) := W12_of_ne m ρ c main_arg4 (by decide)
    _ = W10 m ρ c (Proc.devRef .tc main_arg4) := keep_hostOps3_2 (W10 m ρ c) main_arg4 (by decide)
    _ = W9 m ρ c (Proc.devRef .tc main_arg4) := keep_hostOps3_1 (W9 m ρ c) main_arg4 (by decide)
    _ = W8 m ρ c (Proc.devRef .tc main_arg4) := keep_hostOps3 (W8 m ρ c) main_arg4 (by decide)
    _ = W7 m ρ c (Proc.devRef .tc main_arg4) := W8_of_ne m ρ c main_arg4 (by decide)
    _ = W6 m ρ c (Proc.devRef .tc main_arg4) := keep_hostOps2 (W6 m ρ c) main_arg4 (by decide)
    _ = W5 m ρ c (Proc.devRef .tc main_arg4) := W6_of_ne m ρ c main_arg4 (by decide)
    _ = W4 m ρ c (Proc.devRef .tc main_arg4) := keep_hostOps1_2 (W4 m ρ c) main_arg4 (by decide)
    _ = W3 m ρ c (Proc.devRef .tc main_arg4) := keep_hostOps1_1 (W3 m ρ c) main_arg4 (by decide)
    _ = W2 m ρ c (Proc.devRef .tc main_arg4) := keep_hostOps1 (W2 m ρ c) main_arg4 (by decide)
    _ = W1 m ρ c (Proc.devRef .tc main_arg4) := W2_of_ne m ρ c main_arg4 (by decide)
    _ = W0 m ρ c (Proc.devRef .tc main_arg4) := keep_hostOps0 (W0 m ρ c) main_arg4 (by decide)
    _ = m ((c : Thread nD τ).loc main_arg4) := rfl

theorem arg5_at12 (c : Dev nD) : W12 m ρ c (Proc.devRef .tc main_arg5) = m ((c : Thread nD τ).loc main_arg5) :=
  calc W12 m ρ c (Proc.devRef .tc main_arg5)
    _ = W11 m ρ c (Proc.devRef .tc main_arg5) := W12_of_ne m ρ c main_arg5 (by decide)
    _ = W10 m ρ c (Proc.devRef .tc main_arg5) := keep_hostOps3_2 (W10 m ρ c) main_arg5 (by decide)
    _ = W9 m ρ c (Proc.devRef .tc main_arg5) := keep_hostOps3_1 (W9 m ρ c) main_arg5 (by decide)
    _ = W8 m ρ c (Proc.devRef .tc main_arg5) := keep_hostOps3 (W8 m ρ c) main_arg5 (by decide)
    _ = W7 m ρ c (Proc.devRef .tc main_arg5) := W8_of_ne m ρ c main_arg5 (by decide)
    _ = W6 m ρ c (Proc.devRef .tc main_arg5) := keep_hostOps2 (W6 m ρ c) main_arg5 (by decide)
    _ = W5 m ρ c (Proc.devRef .tc main_arg5) := W6_of_ne m ρ c main_arg5 (by decide)
    _ = W4 m ρ c (Proc.devRef .tc main_arg5) := keep_hostOps1_2 (W4 m ρ c) main_arg5 (by decide)
    _ = W3 m ρ c (Proc.devRef .tc main_arg5) := keep_hostOps1_1 (W3 m ρ c) main_arg5 (by decide)
    _ = W2 m ρ c (Proc.devRef .tc main_arg5) := keep_hostOps1 (W2 m ρ c) main_arg5 (by decide)
    _ = W1 m ρ c (Proc.devRef .tc main_arg5) := W2_of_ne m ρ c main_arg5 (by decide)
    _ = W0 m ρ c (Proc.devRef .tc main_arg5) := keep_hostOps0 (W0 m ρ c) main_arg5 (by decide)
    _ = m ((c : Thread nD τ).loc main_arg5) := rfl

theorem arg14_at12 (c : Dev nD) : W12 m ρ c (Proc.devRef .tc main_arg14) = m ((c : Thread nD τ).loc main_arg14) :=
  calc W12 m ρ c (Proc.devRef .tc main_arg14)
    _ = W11 m ρ c (Proc.devRef .tc main_arg14) := W12_of_ne m ρ c main_arg14 (by decide)
    _ = W10 m ρ c (Proc.devRef .tc main_arg14) := keep_hostOps3_2 (W10 m ρ c) main_arg14 (by decide)
    _ = W9 m ρ c (Proc.devRef .tc main_arg14) := keep_hostOps3_1 (W9 m ρ c) main_arg14 (by decide)
    _ = W8 m ρ c (Proc.devRef .tc main_arg14) := keep_hostOps3 (W8 m ρ c) main_arg14 (by decide)
    _ = W7 m ρ c (Proc.devRef .tc main_arg14) := W8_of_ne m ρ c main_arg14 (by decide)
    _ = W6 m ρ c (Proc.devRef .tc main_arg14) := keep_hostOps2 (W6 m ρ c) main_arg14 (by decide)
    _ = W5 m ρ c (Proc.devRef .tc main_arg14) := W6_of_ne m ρ c main_arg14 (by decide)
    _ = W4 m ρ c (Proc.devRef .tc main_arg14) := keep_hostOps1_2 (W4 m ρ c) main_arg14 (by decide)
    _ = W3 m ρ c (Proc.devRef .tc main_arg14) := keep_hostOps1_1 (W3 m ρ c) main_arg14 (by decide)
    _ = W2 m ρ c (Proc.devRef .tc main_arg14) := keep_hostOps1 (W2 m ρ c) main_arg14 (by decide)
    _ = W1 m ρ c (Proc.devRef .tc main_arg14) := W2_of_ne m ρ c main_arg14 (by decide)
    _ = W0 m ρ c (Proc.devRef .tc main_arg14) := keep_hostOps0 (W0 m ρ c) main_arg14 (by decide)
    _ = m ((c : Thread nD τ).loc main_arg14) := rfl

theorem arg15_at12 (c : Dev nD) : W12 m ρ c (Proc.devRef .tc main_arg15) = m ((c : Thread nD τ).loc main_arg15) :=
  calc W12 m ρ c (Proc.devRef .tc main_arg15)
    _ = W11 m ρ c (Proc.devRef .tc main_arg15) := W12_of_ne m ρ c main_arg15 (by decide)
    _ = W10 m ρ c (Proc.devRef .tc main_arg15) := keep_hostOps3_2 (W10 m ρ c) main_arg15 (by decide)
    _ = W9 m ρ c (Proc.devRef .tc main_arg15) := keep_hostOps3_1 (W9 m ρ c) main_arg15 (by decide)
    _ = W8 m ρ c (Proc.devRef .tc main_arg15) := keep_hostOps3 (W8 m ρ c) main_arg15 (by decide)
    _ = W7 m ρ c (Proc.devRef .tc main_arg15) := W8_of_ne m ρ c main_arg15 (by decide)
    _ = W6 m ρ c (Proc.devRef .tc main_arg15) := keep_hostOps2 (W6 m ρ c) main_arg15 (by decide)
    _ = W5 m ρ c (Proc.devRef .tc main_arg15) := W6_of_ne m ρ c main_arg15 (by decide)
    _ = W4 m ρ c (Proc.devRef .tc main_arg15) := keep_hostOps1_2 (W4 m ρ c) main_arg15 (by decide)
    _ = W3 m ρ c (Proc.devRef .tc main_arg15) := keep_hostOps1_1 (W3 m ρ c) main_arg15 (by decide)
    _ = W2 m ρ c (Proc.devRef .tc main_arg15) := keep_hostOps1 (W2 m ρ c) main_arg15 (by decide)
    _ = W1 m ρ c (Proc.devRef .tc main_arg15) := W2_of_ne m ρ c main_arg15 (by decide)
    _ = W0 m ρ c (Proc.devRef .tc main_arg15) := keep_hostOps0 (W0 m ρ c) main_arg15 (by decide)
    _ = m ((c : Thread nD τ).loc main_arg15) := rfl

/-! ## The argument arrays at boundary 18: as launched -/

theorem arg4_at18 (c : Dev nD) : W18 m ρ c (Proc.devRef .tc main_arg4) = m ((c : Thread nD τ).loc main_arg4) :=
  calc W18 m ρ c (Proc.devRef .tc main_arg4)
    _ = W17 m ρ c (Proc.devRef .tc main_arg4) := W18_of_ne m ρ c main_arg4 (by decide)
    _ = W16 m ρ c (Proc.devRef .tc main_arg4) := keep_hostOps5_2 (W16 m ρ c) main_arg4 (by decide)
    _ = W15 m ρ c (Proc.devRef .tc main_arg4) := keep_hostOps5_1 (W15 m ρ c) main_arg4 (by decide)
    _ = W14 m ρ c (Proc.devRef .tc main_arg4) := keep_hostOps5 (W14 m ρ c) main_arg4 (by decide)
    _ = W13 m ρ c (Proc.devRef .tc main_arg4) := W14_of_ne m ρ c main_arg4 (by decide)
    _ = W12 m ρ c (Proc.devRef .tc main_arg4) := keep_hostOps4 (W12 m ρ c) main_arg4 (by decide)
    _ = m ((c : Thread nD τ).loc main_arg4) := arg4_at12 m ρ c

theorem arg5_at18 (c : Dev nD) : W18 m ρ c (Proc.devRef .tc main_arg5) = m ((c : Thread nD τ).loc main_arg5) :=
  calc W18 m ρ c (Proc.devRef .tc main_arg5)
    _ = W17 m ρ c (Proc.devRef .tc main_arg5) := W18_of_ne m ρ c main_arg5 (by decide)
    _ = W16 m ρ c (Proc.devRef .tc main_arg5) := keep_hostOps5_2 (W16 m ρ c) main_arg5 (by decide)
    _ = W15 m ρ c (Proc.devRef .tc main_arg5) := keep_hostOps5_1 (W15 m ρ c) main_arg5 (by decide)
    _ = W14 m ρ c (Proc.devRef .tc main_arg5) := keep_hostOps5 (W14 m ρ c) main_arg5 (by decide)
    _ = W13 m ρ c (Proc.devRef .tc main_arg5) := W14_of_ne m ρ c main_arg5 (by decide)
    _ = W12 m ρ c (Proc.devRef .tc main_arg5) := keep_hostOps4 (W12 m ρ c) main_arg5 (by decide)
    _ = m ((c : Thread nD τ).loc main_arg5) := arg5_at12 m ρ c

theorem arg16_at18 (c : Dev nD) : W18 m ρ c (Proc.devRef .tc main_arg16) = m ((c : Thread nD τ).loc main_arg16) :=
  calc W18 m ρ c (Proc.devRef .tc main_arg16)
    _ = W17 m ρ c (Proc.devRef .tc main_arg16) := W18_of_ne m ρ c main_arg16 (by decide)
    _ = W16 m ρ c (Proc.devRef .tc main_arg16) := keep_hostOps5_2 (W16 m ρ c) main_arg16 (by decide)
    _ = W15 m ρ c (Proc.devRef .tc main_arg16) := keep_hostOps5_1 (W15 m ρ c) main_arg16 (by decide)
    _ = W14 m ρ c (Proc.devRef .tc main_arg16) := keep_hostOps5 (W14 m ρ c) main_arg16 (by decide)
    _ = W13 m ρ c (Proc.devRef .tc main_arg16) := W14_of_ne m ρ c main_arg16 (by decide)
    _ = W12 m ρ c (Proc.devRef .tc main_arg16) := keep_hostOps4 (W12 m ρ c) main_arg16 (by decide)
    _ = W11 m ρ c (Proc.devRef .tc main_arg16) := W12_of_ne m ρ c main_arg16 (by decide)
    _ = W10 m ρ c (Proc.devRef .tc main_arg16) := keep_hostOps3_2 (W10 m ρ c) main_arg16 (by decide)
    _ = W9 m ρ c (Proc.devRef .tc main_arg16) := keep_hostOps3_1 (W9 m ρ c) main_arg16 (by decide)
    _ = W8 m ρ c (Proc.devRef .tc main_arg16) := keep_hostOps3 (W8 m ρ c) main_arg16 (by decide)
    _ = W7 m ρ c (Proc.devRef .tc main_arg16) := W8_of_ne m ρ c main_arg16 (by decide)
    _ = W6 m ρ c (Proc.devRef .tc main_arg16) := keep_hostOps2 (W6 m ρ c) main_arg16 (by decide)
    _ = W5 m ρ c (Proc.devRef .tc main_arg16) := W6_of_ne m ρ c main_arg16 (by decide)
    _ = W4 m ρ c (Proc.devRef .tc main_arg16) := keep_hostOps1_2 (W4 m ρ c) main_arg16 (by decide)
    _ = W3 m ρ c (Proc.devRef .tc main_arg16) := keep_hostOps1_1 (W3 m ρ c) main_arg16 (by decide)
    _ = W2 m ρ c (Proc.devRef .tc main_arg16) := keep_hostOps1 (W2 m ρ c) main_arg16 (by decide)
    _ = W1 m ρ c (Proc.devRef .tc main_arg16) := W2_of_ne m ρ c main_arg16 (by decide)
    _ = W0 m ρ c (Proc.devRef .tc main_arg16) := keep_hostOps0 (W0 m ρ c) main_arg16 (by decide)
    _ = m ((c : Thread nD τ).loc main_arg16) := rfl

theorem arg17_at18 (c : Dev nD) : W18 m ρ c (Proc.devRef .tc main_arg17) = m ((c : Thread nD τ).loc main_arg17) :=
  calc W18 m ρ c (Proc.devRef .tc main_arg17)
    _ = W17 m ρ c (Proc.devRef .tc main_arg17) := W18_of_ne m ρ c main_arg17 (by decide)
    _ = W16 m ρ c (Proc.devRef .tc main_arg17) := keep_hostOps5_2 (W16 m ρ c) main_arg17 (by decide)
    _ = W15 m ρ c (Proc.devRef .tc main_arg17) := keep_hostOps5_1 (W15 m ρ c) main_arg17 (by decide)
    _ = W14 m ρ c (Proc.devRef .tc main_arg17) := keep_hostOps5 (W14 m ρ c) main_arg17 (by decide)
    _ = W13 m ρ c (Proc.devRef .tc main_arg17) := W14_of_ne m ρ c main_arg17 (by decide)
    _ = W12 m ρ c (Proc.devRef .tc main_arg17) := keep_hostOps4 (W12 m ρ c) main_arg17 (by decide)
    _ = W11 m ρ c (Proc.devRef .tc main_arg17) := W12_of_ne m ρ c main_arg17 (by decide)
    _ = W10 m ρ c (Proc.devRef .tc main_arg17) := keep_hostOps3_2 (W10 m ρ c) main_arg17 (by decide)
    _ = W9 m ρ c (Proc.devRef .tc main_arg17) := keep_hostOps3_1 (W9 m ρ c) main_arg17 (by decide)
    _ = W8 m ρ c (Proc.devRef .tc main_arg17) := keep_hostOps3 (W8 m ρ c) main_arg17 (by decide)
    _ = W7 m ρ c (Proc.devRef .tc main_arg17) := W8_of_ne m ρ c main_arg17 (by decide)
    _ = W6 m ρ c (Proc.devRef .tc main_arg17) := keep_hostOps2 (W6 m ρ c) main_arg17 (by decide)
    _ = W5 m ρ c (Proc.devRef .tc main_arg17) := W6_of_ne m ρ c main_arg17 (by decide)
    _ = W4 m ρ c (Proc.devRef .tc main_arg17) := keep_hostOps1_2 (W4 m ρ c) main_arg17 (by decide)
    _ = W3 m ρ c (Proc.devRef .tc main_arg17) := keep_hostOps1_1 (W3 m ρ c) main_arg17 (by decide)
    _ = W2 m ρ c (Proc.devRef .tc main_arg17) := keep_hostOps1 (W2 m ρ c) main_arg17 (by decide)
    _ = W1 m ρ c (Proc.devRef .tc main_arg17) := W2_of_ne m ρ c main_arg17 (by decide)
    _ = W0 m ρ c (Proc.devRef .tc main_arg17) := keep_hostOps0 (W0 m ρ c) main_arg17 (by decide)
    _ = m ((c : Thread nD τ).loc main_arg17) := rfl

/-! ## The argument arrays at boundary 24: as launched -/

theorem arg1_at24 (c : Dev nD) : W24 m ρ c (Proc.devRef .tc main_arg1) = m ((c : Thread nD τ).loc main_arg1) :=
  calc W24 m ρ c (Proc.devRef .tc main_arg1)
    _ = W23 m ρ c (Proc.devRef .tc main_arg1) := W24_of_ne m ρ c main_arg1 (by decide)
    _ = W22 m ρ c (Proc.devRef .tc main_arg1) := keep_hostOps7_2 (W22 m ρ c) main_arg1 (by decide)
    _ = W21 m ρ c (Proc.devRef .tc main_arg1) := keep_hostOps7_1 (W21 m ρ c) main_arg1 (by decide)
    _ = W20 m ρ c (Proc.devRef .tc main_arg1) := keep_hostOps7 (W20 m ρ c) main_arg1 (by decide)
    _ = W19 m ρ c (Proc.devRef .tc main_arg1) := W20_of_ne m ρ c main_arg1 (by decide)
    _ = W18 m ρ c (Proc.devRef .tc main_arg1) := keep_hostOps6 (W18 m ρ c) main_arg1 (by decide)
    _ = W17 m ρ c (Proc.devRef .tc main_arg1) := W18_of_ne m ρ c main_arg1 (by decide)
    _ = W16 m ρ c (Proc.devRef .tc main_arg1) := keep_hostOps5_2 (W16 m ρ c) main_arg1 (by decide)
    _ = W15 m ρ c (Proc.devRef .tc main_arg1) := keep_hostOps5_1 (W15 m ρ c) main_arg1 (by decide)
    _ = W14 m ρ c (Proc.devRef .tc main_arg1) := keep_hostOps5 (W14 m ρ c) main_arg1 (by decide)
    _ = W13 m ρ c (Proc.devRef .tc main_arg1) := W14_of_ne m ρ c main_arg1 (by decide)
    _ = W12 m ρ c (Proc.devRef .tc main_arg1) := keep_hostOps4 (W12 m ρ c) main_arg1 (by decide)
    _ = W11 m ρ c (Proc.devRef .tc main_arg1) := W12_of_ne m ρ c main_arg1 (by decide)
    _ = W10 m ρ c (Proc.devRef .tc main_arg1) := keep_hostOps3_2 (W10 m ρ c) main_arg1 (by decide)
    _ = W9 m ρ c (Proc.devRef .tc main_arg1) := keep_hostOps3_1 (W9 m ρ c) main_arg1 (by decide)
    _ = W8 m ρ c (Proc.devRef .tc main_arg1) := keep_hostOps3 (W8 m ρ c) main_arg1 (by decide)
    _ = W7 m ρ c (Proc.devRef .tc main_arg1) := W8_of_ne m ρ c main_arg1 (by decide)
    _ = W6 m ρ c (Proc.devRef .tc main_arg1) := keep_hostOps2 (W6 m ρ c) main_arg1 (by decide)
    _ = W5 m ρ c (Proc.devRef .tc main_arg1) := W6_of_ne m ρ c main_arg1 (by decide)
    _ = W4 m ρ c (Proc.devRef .tc main_arg1) := keep_hostOps1_2 (W4 m ρ c) main_arg1 (by decide)
    _ = W3 m ρ c (Proc.devRef .tc main_arg1) := keep_hostOps1_1 (W3 m ρ c) main_arg1 (by decide)
    _ = W2 m ρ c (Proc.devRef .tc main_arg1) := keep_hostOps1 (W2 m ρ c) main_arg1 (by decide)
    _ = W1 m ρ c (Proc.devRef .tc main_arg1) := W2_of_ne m ρ c main_arg1 (by decide)
    _ = W0 m ρ c (Proc.devRef .tc main_arg1) := keep_hostOps0 (W0 m ρ c) main_arg1 (by decide)
    _ = m ((c : Thread nD τ).loc main_arg1) := rfl

theorem arg6_at24 (c : Dev nD) : W24 m ρ c (Proc.devRef .tc main_arg6) = m ((c : Thread nD τ).loc main_arg6) :=
  calc W24 m ρ c (Proc.devRef .tc main_arg6)
    _ = W23 m ρ c (Proc.devRef .tc main_arg6) := W24_of_ne m ρ c main_arg6 (by decide)
    _ = W22 m ρ c (Proc.devRef .tc main_arg6) := keep_hostOps7_2 (W22 m ρ c) main_arg6 (by decide)
    _ = W21 m ρ c (Proc.devRef .tc main_arg6) := keep_hostOps7_1 (W21 m ρ c) main_arg6 (by decide)
    _ = W20 m ρ c (Proc.devRef .tc main_arg6) := keep_hostOps7 (W20 m ρ c) main_arg6 (by decide)
    _ = W19 m ρ c (Proc.devRef .tc main_arg6) := W20_of_ne m ρ c main_arg6 (by decide)
    _ = W18 m ρ c (Proc.devRef .tc main_arg6) := keep_hostOps6 (W18 m ρ c) main_arg6 (by decide)
    _ = W17 m ρ c (Proc.devRef .tc main_arg6) := W18_of_ne m ρ c main_arg6 (by decide)
    _ = W16 m ρ c (Proc.devRef .tc main_arg6) := keep_hostOps5_2 (W16 m ρ c) main_arg6 (by decide)
    _ = W15 m ρ c (Proc.devRef .tc main_arg6) := keep_hostOps5_1 (W15 m ρ c) main_arg6 (by decide)
    _ = W14 m ρ c (Proc.devRef .tc main_arg6) := keep_hostOps5 (W14 m ρ c) main_arg6 (by decide)
    _ = W13 m ρ c (Proc.devRef .tc main_arg6) := W14_of_ne m ρ c main_arg6 (by decide)
    _ = W12 m ρ c (Proc.devRef .tc main_arg6) := keep_hostOps4 (W12 m ρ c) main_arg6 (by decide)
    _ = W11 m ρ c (Proc.devRef .tc main_arg6) := W12_of_ne m ρ c main_arg6 (by decide)
    _ = W10 m ρ c (Proc.devRef .tc main_arg6) := keep_hostOps3_2 (W10 m ρ c) main_arg6 (by decide)
    _ = W9 m ρ c (Proc.devRef .tc main_arg6) := keep_hostOps3_1 (W9 m ρ c) main_arg6 (by decide)
    _ = W8 m ρ c (Proc.devRef .tc main_arg6) := keep_hostOps3 (W8 m ρ c) main_arg6 (by decide)
    _ = W7 m ρ c (Proc.devRef .tc main_arg6) := W8_of_ne m ρ c main_arg6 (by decide)
    _ = W6 m ρ c (Proc.devRef .tc main_arg6) := keep_hostOps2 (W6 m ρ c) main_arg6 (by decide)
    _ = W5 m ρ c (Proc.devRef .tc main_arg6) := W6_of_ne m ρ c main_arg6 (by decide)
    _ = W4 m ρ c (Proc.devRef .tc main_arg6) := keep_hostOps1_2 (W4 m ρ c) main_arg6 (by decide)
    _ = W3 m ρ c (Proc.devRef .tc main_arg6) := keep_hostOps1_1 (W3 m ρ c) main_arg6 (by decide)
    _ = W2 m ρ c (Proc.devRef .tc main_arg6) := keep_hostOps1 (W2 m ρ c) main_arg6 (by decide)
    _ = W1 m ρ c (Proc.devRef .tc main_arg6) := W2_of_ne m ρ c main_arg6 (by decide)
    _ = W0 m ρ c (Proc.devRef .tc main_arg6) := keep_hostOps0 (W0 m ρ c) main_arg6 (by decide)
    _ = m ((c : Thread nD τ).loc main_arg6) := rfl

theorem arg7_at24 (c : Dev nD) : W24 m ρ c (Proc.devRef .tc main_arg7) = m ((c : Thread nD τ).loc main_arg7) :=
  calc W24 m ρ c (Proc.devRef .tc main_arg7)
    _ = W23 m ρ c (Proc.devRef .tc main_arg7) := W24_of_ne m ρ c main_arg7 (by decide)
    _ = W22 m ρ c (Proc.devRef .tc main_arg7) := keep_hostOps7_2 (W22 m ρ c) main_arg7 (by decide)
    _ = W21 m ρ c (Proc.devRef .tc main_arg7) := keep_hostOps7_1 (W21 m ρ c) main_arg7 (by decide)
    _ = W20 m ρ c (Proc.devRef .tc main_arg7) := keep_hostOps7 (W20 m ρ c) main_arg7 (by decide)
    _ = W19 m ρ c (Proc.devRef .tc main_arg7) := W20_of_ne m ρ c main_arg7 (by decide)
    _ = W18 m ρ c (Proc.devRef .tc main_arg7) := keep_hostOps6 (W18 m ρ c) main_arg7 (by decide)
    _ = W17 m ρ c (Proc.devRef .tc main_arg7) := W18_of_ne m ρ c main_arg7 (by decide)
    _ = W16 m ρ c (Proc.devRef .tc main_arg7) := keep_hostOps5_2 (W16 m ρ c) main_arg7 (by decide)
    _ = W15 m ρ c (Proc.devRef .tc main_arg7) := keep_hostOps5_1 (W15 m ρ c) main_arg7 (by decide)
    _ = W14 m ρ c (Proc.devRef .tc main_arg7) := keep_hostOps5 (W14 m ρ c) main_arg7 (by decide)
    _ = W13 m ρ c (Proc.devRef .tc main_arg7) := W14_of_ne m ρ c main_arg7 (by decide)
    _ = W12 m ρ c (Proc.devRef .tc main_arg7) := keep_hostOps4 (W12 m ρ c) main_arg7 (by decide)
    _ = W11 m ρ c (Proc.devRef .tc main_arg7) := W12_of_ne m ρ c main_arg7 (by decide)
    _ = W10 m ρ c (Proc.devRef .tc main_arg7) := keep_hostOps3_2 (W10 m ρ c) main_arg7 (by decide)
    _ = W9 m ρ c (Proc.devRef .tc main_arg7) := keep_hostOps3_1 (W9 m ρ c) main_arg7 (by decide)
    _ = W8 m ρ c (Proc.devRef .tc main_arg7) := keep_hostOps3 (W8 m ρ c) main_arg7 (by decide)
    _ = W7 m ρ c (Proc.devRef .tc main_arg7) := W8_of_ne m ρ c main_arg7 (by decide)
    _ = W6 m ρ c (Proc.devRef .tc main_arg7) := keep_hostOps2 (W6 m ρ c) main_arg7 (by decide)
    _ = W5 m ρ c (Proc.devRef .tc main_arg7) := W6_of_ne m ρ c main_arg7 (by decide)
    _ = W4 m ρ c (Proc.devRef .tc main_arg7) := keep_hostOps1_2 (W4 m ρ c) main_arg7 (by decide)
    _ = W3 m ρ c (Proc.devRef .tc main_arg7) := keep_hostOps1_1 (W3 m ρ c) main_arg7 (by decide)
    _ = W2 m ρ c (Proc.devRef .tc main_arg7) := keep_hostOps1 (W2 m ρ c) main_arg7 (by decide)
    _ = W1 m ρ c (Proc.devRef .tc main_arg7) := W2_of_ne m ρ c main_arg7 (by decide)
    _ = W0 m ρ c (Proc.devRef .tc main_arg7) := keep_hostOps0 (W0 m ρ c) main_arg7 (by decide)
    _ = m ((c : Thread nD τ).loc main_arg7) := rfl

theorem arg18_at24 (c : Dev nD) : W24 m ρ c (Proc.devRef .tc main_arg18) = m ((c : Thread nD τ).loc main_arg18) :=
  calc W24 m ρ c (Proc.devRef .tc main_arg18)
    _ = W23 m ρ c (Proc.devRef .tc main_arg18) := W24_of_ne m ρ c main_arg18 (by decide)
    _ = W22 m ρ c (Proc.devRef .tc main_arg18) := keep_hostOps7_2 (W22 m ρ c) main_arg18 (by decide)
    _ = W21 m ρ c (Proc.devRef .tc main_arg18) := keep_hostOps7_1 (W21 m ρ c) main_arg18 (by decide)
    _ = W20 m ρ c (Proc.devRef .tc main_arg18) := keep_hostOps7 (W20 m ρ c) main_arg18 (by decide)
    _ = W19 m ρ c (Proc.devRef .tc main_arg18) := W20_of_ne m ρ c main_arg18 (by decide)
    _ = W18 m ρ c (Proc.devRef .tc main_arg18) := keep_hostOps6 (W18 m ρ c) main_arg18 (by decide)
    _ = W17 m ρ c (Proc.devRef .tc main_arg18) := W18_of_ne m ρ c main_arg18 (by decide)
    _ = W16 m ρ c (Proc.devRef .tc main_arg18) := keep_hostOps5_2 (W16 m ρ c) main_arg18 (by decide)
    _ = W15 m ρ c (Proc.devRef .tc main_arg18) := keep_hostOps5_1 (W15 m ρ c) main_arg18 (by decide)
    _ = W14 m ρ c (Proc.devRef .tc main_arg18) := keep_hostOps5 (W14 m ρ c) main_arg18 (by decide)
    _ = W13 m ρ c (Proc.devRef .tc main_arg18) := W14_of_ne m ρ c main_arg18 (by decide)
    _ = W12 m ρ c (Proc.devRef .tc main_arg18) := keep_hostOps4 (W12 m ρ c) main_arg18 (by decide)
    _ = W11 m ρ c (Proc.devRef .tc main_arg18) := W12_of_ne m ρ c main_arg18 (by decide)
    _ = W10 m ρ c (Proc.devRef .tc main_arg18) := keep_hostOps3_2 (W10 m ρ c) main_arg18 (by decide)
    _ = W9 m ρ c (Proc.devRef .tc main_arg18) := keep_hostOps3_1 (W9 m ρ c) main_arg18 (by decide)
    _ = W8 m ρ c (Proc.devRef .tc main_arg18) := keep_hostOps3 (W8 m ρ c) main_arg18 (by decide)
    _ = W7 m ρ c (Proc.devRef .tc main_arg18) := W8_of_ne m ρ c main_arg18 (by decide)
    _ = W6 m ρ c (Proc.devRef .tc main_arg18) := keep_hostOps2 (W6 m ρ c) main_arg18 (by decide)
    _ = W5 m ρ c (Proc.devRef .tc main_arg18) := W6_of_ne m ρ c main_arg18 (by decide)
    _ = W4 m ρ c (Proc.devRef .tc main_arg18) := keep_hostOps1_2 (W4 m ρ c) main_arg18 (by decide)
    _ = W3 m ρ c (Proc.devRef .tc main_arg18) := keep_hostOps1_1 (W3 m ρ c) main_arg18 (by decide)
    _ = W2 m ρ c (Proc.devRef .tc main_arg18) := keep_hostOps1 (W2 m ρ c) main_arg18 (by decide)
    _ = W1 m ρ c (Proc.devRef .tc main_arg18) := W2_of_ne m ρ c main_arg18 (by decide)
    _ = W0 m ρ c (Proc.devRef .tc main_arg18) := keep_hostOps0 (W0 m ρ c) main_arg18 (by decide)
    _ = m ((c : Thread nD τ).loc main_arg18) := rfl

theorem arg19_at24 (c : Dev nD) : W24 m ρ c (Proc.devRef .tc main_arg19) = m ((c : Thread nD τ).loc main_arg19) :=
  calc W24 m ρ c (Proc.devRef .tc main_arg19)
    _ = W23 m ρ c (Proc.devRef .tc main_arg19) := W24_of_ne m ρ c main_arg19 (by decide)
    _ = W22 m ρ c (Proc.devRef .tc main_arg19) := keep_hostOps7_2 (W22 m ρ c) main_arg19 (by decide)
    _ = W21 m ρ c (Proc.devRef .tc main_arg19) := keep_hostOps7_1 (W21 m ρ c) main_arg19 (by decide)
    _ = W20 m ρ c (Proc.devRef .tc main_arg19) := keep_hostOps7 (W20 m ρ c) main_arg19 (by decide)
    _ = W19 m ρ c (Proc.devRef .tc main_arg19) := W20_of_ne m ρ c main_arg19 (by decide)
    _ = W18 m ρ c (Proc.devRef .tc main_arg19) := keep_hostOps6 (W18 m ρ c) main_arg19 (by decide)
    _ = W17 m ρ c (Proc.devRef .tc main_arg19) := W18_of_ne m ρ c main_arg19 (by decide)
    _ = W16 m ρ c (Proc.devRef .tc main_arg19) := keep_hostOps5_2 (W16 m ρ c) main_arg19 (by decide)
    _ = W15 m ρ c (Proc.devRef .tc main_arg19) := keep_hostOps5_1 (W15 m ρ c) main_arg19 (by decide)
    _ = W14 m ρ c (Proc.devRef .tc main_arg19) := keep_hostOps5 (W14 m ρ c) main_arg19 (by decide)
    _ = W13 m ρ c (Proc.devRef .tc main_arg19) := W14_of_ne m ρ c main_arg19 (by decide)
    _ = W12 m ρ c (Proc.devRef .tc main_arg19) := keep_hostOps4 (W12 m ρ c) main_arg19 (by decide)
    _ = W11 m ρ c (Proc.devRef .tc main_arg19) := W12_of_ne m ρ c main_arg19 (by decide)
    _ = W10 m ρ c (Proc.devRef .tc main_arg19) := keep_hostOps3_2 (W10 m ρ c) main_arg19 (by decide)
    _ = W9 m ρ c (Proc.devRef .tc main_arg19) := keep_hostOps3_1 (W9 m ρ c) main_arg19 (by decide)
    _ = W8 m ρ c (Proc.devRef .tc main_arg19) := keep_hostOps3 (W8 m ρ c) main_arg19 (by decide)
    _ = W7 m ρ c (Proc.devRef .tc main_arg19) := W8_of_ne m ρ c main_arg19 (by decide)
    _ = W6 m ρ c (Proc.devRef .tc main_arg19) := keep_hostOps2 (W6 m ρ c) main_arg19 (by decide)
    _ = W5 m ρ c (Proc.devRef .tc main_arg19) := W6_of_ne m ρ c main_arg19 (by decide)
    _ = W4 m ρ c (Proc.devRef .tc main_arg19) := keep_hostOps1_2 (W4 m ρ c) main_arg19 (by decide)
    _ = W3 m ρ c (Proc.devRef .tc main_arg19) := keep_hostOps1_1 (W3 m ρ c) main_arg19 (by decide)
    _ = W2 m ρ c (Proc.devRef .tc main_arg19) := keep_hostOps1 (W2 m ρ c) main_arg19 (by decide)
    _ = W1 m ρ c (Proc.devRef .tc main_arg19) := W2_of_ne m ρ c main_arg19 (by decide)
    _ = W0 m ρ c (Proc.devRef .tc main_arg19) := keep_hostOps0 (W0 m ρ c) main_arg19 (by decide)
    _ = m ((c : Thread nD τ).loc main_arg19) := rfl

/-! ## The argument arrays at boundary 30: as launched -/

theorem arg6_at30 (c : Dev nD) : W30 m ρ c (Proc.devRef .tc main_arg6) = m ((c : Thread nD τ).loc main_arg6) :=
  calc W30 m ρ c (Proc.devRef .tc main_arg6)
    _ = W29 m ρ c (Proc.devRef .tc main_arg6) := W30_of_ne m ρ c main_arg6 (by decide)
    _ = W28 m ρ c (Proc.devRef .tc main_arg6) := keep_hostOps9_2 (W28 m ρ c) main_arg6 (by decide)
    _ = W27 m ρ c (Proc.devRef .tc main_arg6) := keep_hostOps9_1 (W27 m ρ c) main_arg6 (by decide)
    _ = W26 m ρ c (Proc.devRef .tc main_arg6) := keep_hostOps9 (W26 m ρ c) main_arg6 (by decide)
    _ = W25 m ρ c (Proc.devRef .tc main_arg6) := W26_of_ne m ρ c main_arg6 (by decide)
    _ = W24 m ρ c (Proc.devRef .tc main_arg6) := keep_hostOps8 (W24 m ρ c) main_arg6 (by decide)
    _ = m ((c : Thread nD τ).loc main_arg6) := arg6_at24 m ρ c

theorem arg7_at30 (c : Dev nD) : W30 m ρ c (Proc.devRef .tc main_arg7) = m ((c : Thread nD τ).loc main_arg7) :=
  calc W30 m ρ c (Proc.devRef .tc main_arg7)
    _ = W29 m ρ c (Proc.devRef .tc main_arg7) := W30_of_ne m ρ c main_arg7 (by decide)
    _ = W28 m ρ c (Proc.devRef .tc main_arg7) := keep_hostOps9_2 (W28 m ρ c) main_arg7 (by decide)
    _ = W27 m ρ c (Proc.devRef .tc main_arg7) := keep_hostOps9_1 (W27 m ρ c) main_arg7 (by decide)
    _ = W26 m ρ c (Proc.devRef .tc main_arg7) := keep_hostOps9 (W26 m ρ c) main_arg7 (by decide)
    _ = W25 m ρ c (Proc.devRef .tc main_arg7) := W26_of_ne m ρ c main_arg7 (by decide)
    _ = W24 m ρ c (Proc.devRef .tc main_arg7) := keep_hostOps8 (W24 m ρ c) main_arg7 (by decide)
    _ = m ((c : Thread nD τ).loc main_arg7) := arg7_at24 m ρ c

theorem arg20_at30 (c : Dev nD) : W30 m ρ c (Proc.devRef .tc main_arg20) = m ((c : Thread nD τ).loc main_arg20) :=
  calc W30 m ρ c (Proc.devRef .tc main_arg20)
    _ = W29 m ρ c (Proc.devRef .tc main_arg20) := W30_of_ne m ρ c main_arg20 (by decide)
    _ = W28 m ρ c (Proc.devRef .tc main_arg20) := keep_hostOps9_2 (W28 m ρ c) main_arg20 (by decide)
    _ = W27 m ρ c (Proc.devRef .tc main_arg20) := keep_hostOps9_1 (W27 m ρ c) main_arg20 (by decide)
    _ = W26 m ρ c (Proc.devRef .tc main_arg20) := keep_hostOps9 (W26 m ρ c) main_arg20 (by decide)
    _ = W25 m ρ c (Proc.devRef .tc main_arg20) := W26_of_ne m ρ c main_arg20 (by decide)
    _ = W24 m ρ c (Proc.devRef .tc main_arg20) := keep_hostOps8 (W24 m ρ c) main_arg20 (by decide)
    _ = W23 m ρ c (Proc.devRef .tc main_arg20) := W24_of_ne m ρ c main_arg20 (by decide)
    _ = W22 m ρ c (Proc.devRef .tc main_arg20) := keep_hostOps7_2 (W22 m ρ c) main_arg20 (by decide)
    _ = W21 m ρ c (Proc.devRef .tc main_arg20) := keep_hostOps7_1 (W21 m ρ c) main_arg20 (by decide)
    _ = W20 m ρ c (Proc.devRef .tc main_arg20) := keep_hostOps7 (W20 m ρ c) main_arg20 (by decide)
    _ = W19 m ρ c (Proc.devRef .tc main_arg20) := W20_of_ne m ρ c main_arg20 (by decide)
    _ = W18 m ρ c (Proc.devRef .tc main_arg20) := keep_hostOps6 (W18 m ρ c) main_arg20 (by decide)
    _ = W17 m ρ c (Proc.devRef .tc main_arg20) := W18_of_ne m ρ c main_arg20 (by decide)
    _ = W16 m ρ c (Proc.devRef .tc main_arg20) := keep_hostOps5_2 (W16 m ρ c) main_arg20 (by decide)
    _ = W15 m ρ c (Proc.devRef .tc main_arg20) := keep_hostOps5_1 (W15 m ρ c) main_arg20 (by decide)
    _ = W14 m ρ c (Proc.devRef .tc main_arg20) := keep_hostOps5 (W14 m ρ c) main_arg20 (by decide)
    _ = W13 m ρ c (Proc.devRef .tc main_arg20) := W14_of_ne m ρ c main_arg20 (by decide)
    _ = W12 m ρ c (Proc.devRef .tc main_arg20) := keep_hostOps4 (W12 m ρ c) main_arg20 (by decide)
    _ = W11 m ρ c (Proc.devRef .tc main_arg20) := W12_of_ne m ρ c main_arg20 (by decide)
    _ = W10 m ρ c (Proc.devRef .tc main_arg20) := keep_hostOps3_2 (W10 m ρ c) main_arg20 (by decide)
    _ = W9 m ρ c (Proc.devRef .tc main_arg20) := keep_hostOps3_1 (W9 m ρ c) main_arg20 (by decide)
    _ = W8 m ρ c (Proc.devRef .tc main_arg20) := keep_hostOps3 (W8 m ρ c) main_arg20 (by decide)
    _ = W7 m ρ c (Proc.devRef .tc main_arg20) := W8_of_ne m ρ c main_arg20 (by decide)
    _ = W6 m ρ c (Proc.devRef .tc main_arg20) := keep_hostOps2 (W6 m ρ c) main_arg20 (by decide)
    _ = W5 m ρ c (Proc.devRef .tc main_arg20) := W6_of_ne m ρ c main_arg20 (by decide)
    _ = W4 m ρ c (Proc.devRef .tc main_arg20) := keep_hostOps1_2 (W4 m ρ c) main_arg20 (by decide)
    _ = W3 m ρ c (Proc.devRef .tc main_arg20) := keep_hostOps1_1 (W3 m ρ c) main_arg20 (by decide)
    _ = W2 m ρ c (Proc.devRef .tc main_arg20) := keep_hostOps1 (W2 m ρ c) main_arg20 (by decide)
    _ = W1 m ρ c (Proc.devRef .tc main_arg20) := W2_of_ne m ρ c main_arg20 (by decide)
    _ = W0 m ρ c (Proc.devRef .tc main_arg20) := keep_hostOps0 (W0 m ρ c) main_arg20 (by decide)
    _ = m ((c : Thread nD τ).loc main_arg20) := rfl

theorem arg21_at30 (c : Dev nD) : W30 m ρ c (Proc.devRef .tc main_arg21) = m ((c : Thread nD τ).loc main_arg21) :=
  calc W30 m ρ c (Proc.devRef .tc main_arg21)
    _ = W29 m ρ c (Proc.devRef .tc main_arg21) := W30_of_ne m ρ c main_arg21 (by decide)
    _ = W28 m ρ c (Proc.devRef .tc main_arg21) := keep_hostOps9_2 (W28 m ρ c) main_arg21 (by decide)
    _ = W27 m ρ c (Proc.devRef .tc main_arg21) := keep_hostOps9_1 (W27 m ρ c) main_arg21 (by decide)
    _ = W26 m ρ c (Proc.devRef .tc main_arg21) := keep_hostOps9 (W26 m ρ c) main_arg21 (by decide)
    _ = W25 m ρ c (Proc.devRef .tc main_arg21) := W26_of_ne m ρ c main_arg21 (by decide)
    _ = W24 m ρ c (Proc.devRef .tc main_arg21) := keep_hostOps8 (W24 m ρ c) main_arg21 (by decide)
    _ = W23 m ρ c (Proc.devRef .tc main_arg21) := W24_of_ne m ρ c main_arg21 (by decide)
    _ = W22 m ρ c (Proc.devRef .tc main_arg21) := keep_hostOps7_2 (W22 m ρ c) main_arg21 (by decide)
    _ = W21 m ρ c (Proc.devRef .tc main_arg21) := keep_hostOps7_1 (W21 m ρ c) main_arg21 (by decide)
    _ = W20 m ρ c (Proc.devRef .tc main_arg21) := keep_hostOps7 (W20 m ρ c) main_arg21 (by decide)
    _ = W19 m ρ c (Proc.devRef .tc main_arg21) := W20_of_ne m ρ c main_arg21 (by decide)
    _ = W18 m ρ c (Proc.devRef .tc main_arg21) := keep_hostOps6 (W18 m ρ c) main_arg21 (by decide)
    _ = W17 m ρ c (Proc.devRef .tc main_arg21) := W18_of_ne m ρ c main_arg21 (by decide)
    _ = W16 m ρ c (Proc.devRef .tc main_arg21) := keep_hostOps5_2 (W16 m ρ c) main_arg21 (by decide)
    _ = W15 m ρ c (Proc.devRef .tc main_arg21) := keep_hostOps5_1 (W15 m ρ c) main_arg21 (by decide)
    _ = W14 m ρ c (Proc.devRef .tc main_arg21) := keep_hostOps5 (W14 m ρ c) main_arg21 (by decide)
    _ = W13 m ρ c (Proc.devRef .tc main_arg21) := W14_of_ne m ρ c main_arg21 (by decide)
    _ = W12 m ρ c (Proc.devRef .tc main_arg21) := keep_hostOps4 (W12 m ρ c) main_arg21 (by decide)
    _ = W11 m ρ c (Proc.devRef .tc main_arg21) := W12_of_ne m ρ c main_arg21 (by decide)
    _ = W10 m ρ c (Proc.devRef .tc main_arg21) := keep_hostOps3_2 (W10 m ρ c) main_arg21 (by decide)
    _ = W9 m ρ c (Proc.devRef .tc main_arg21) := keep_hostOps3_1 (W9 m ρ c) main_arg21 (by decide)
    _ = W8 m ρ c (Proc.devRef .tc main_arg21) := keep_hostOps3 (W8 m ρ c) main_arg21 (by decide)
    _ = W7 m ρ c (Proc.devRef .tc main_arg21) := W8_of_ne m ρ c main_arg21 (by decide)
    _ = W6 m ρ c (Proc.devRef .tc main_arg21) := keep_hostOps2 (W6 m ρ c) main_arg21 (by decide)
    _ = W5 m ρ c (Proc.devRef .tc main_arg21) := W6_of_ne m ρ c main_arg21 (by decide)
    _ = W4 m ρ c (Proc.devRef .tc main_arg21) := keep_hostOps1_2 (W4 m ρ c) main_arg21 (by decide)
    _ = W3 m ρ c (Proc.devRef .tc main_arg21) := keep_hostOps1_1 (W3 m ρ c) main_arg21 (by decide)
    _ = W2 m ρ c (Proc.devRef .tc main_arg21) := keep_hostOps1 (W2 m ρ c) main_arg21 (by decide)
    _ = W1 m ρ c (Proc.devRef .tc main_arg21) := W2_of_ne m ρ c main_arg21 (by decide)
    _ = W0 m ρ c (Proc.devRef .tc main_arg21) := keep_hostOps0 (W0 m ρ c) main_arg21 (by decide)
    _ = m ((c : Thread nD τ).loc main_arg21) := rfl

/-! ## The argument arrays at boundary 36: as launched -/

theorem arg1_at36 (c : Dev nD) : W36 m ρ c (Proc.devRef .tc main_arg1) = m ((c : Thread nD τ).loc main_arg1) :=
  calc W36 m ρ c (Proc.devRef .tc main_arg1)
    _ = W35 m ρ c (Proc.devRef .tc main_arg1) := W36_of_ne m ρ c main_arg1 (by decide)
    _ = W34 m ρ c (Proc.devRef .tc main_arg1) := keep_hostOps11_2 (W34 m ρ c) main_arg1 (by decide)
    _ = W33 m ρ c (Proc.devRef .tc main_arg1) := keep_hostOps11_1 (W33 m ρ c) main_arg1 (by decide)
    _ = W32 m ρ c (Proc.devRef .tc main_arg1) := keep_hostOps11 (W32 m ρ c) main_arg1 (by decide)
    _ = W31 m ρ c (Proc.devRef .tc main_arg1) := W32_of_ne m ρ c main_arg1 (by decide)
    _ = W30 m ρ c (Proc.devRef .tc main_arg1) := keep_hostOps10 (W30 m ρ c) main_arg1 (by decide)
    _ = W29 m ρ c (Proc.devRef .tc main_arg1) := W30_of_ne m ρ c main_arg1 (by decide)
    _ = W28 m ρ c (Proc.devRef .tc main_arg1) := keep_hostOps9_2 (W28 m ρ c) main_arg1 (by decide)
    _ = W27 m ρ c (Proc.devRef .tc main_arg1) := keep_hostOps9_1 (W27 m ρ c) main_arg1 (by decide)
    _ = W26 m ρ c (Proc.devRef .tc main_arg1) := keep_hostOps9 (W26 m ρ c) main_arg1 (by decide)
    _ = W25 m ρ c (Proc.devRef .tc main_arg1) := (W26_arr m ρ c 0).trans (((dat8 (V25 m ρ) c).arrAt_in 0 rfl _).trans (A_eq8 (V25 m ρ) c 0))
    _ = W24 m ρ c (Proc.devRef .tc main_arg1) := keep_hostOps8 (W24 m ρ c) main_arg1 (by decide)
    _ = m ((c : Thread nD τ).loc main_arg1) := arg1_at24 m ρ c

theorem arg8_at36 (c : Dev nD) : W36 m ρ c (Proc.devRef .tc main_arg8) = m ((c : Thread nD τ).loc main_arg8) :=
  calc W36 m ρ c (Proc.devRef .tc main_arg8)
    _ = W35 m ρ c (Proc.devRef .tc main_arg8) := W36_of_ne m ρ c main_arg8 (by decide)
    _ = W34 m ρ c (Proc.devRef .tc main_arg8) := keep_hostOps11_2 (W34 m ρ c) main_arg8 (by decide)
    _ = W33 m ρ c (Proc.devRef .tc main_arg8) := keep_hostOps11_1 (W33 m ρ c) main_arg8 (by decide)
    _ = W32 m ρ c (Proc.devRef .tc main_arg8) := keep_hostOps11 (W32 m ρ c) main_arg8 (by decide)
    _ = W31 m ρ c (Proc.devRef .tc main_arg8) := W32_of_ne m ρ c main_arg8 (by decide)
    _ = W30 m ρ c (Proc.devRef .tc main_arg8) := keep_hostOps10 (W30 m ρ c) main_arg8 (by decide)
    _ = W29 m ρ c (Proc.devRef .tc main_arg8) := W30_of_ne m ρ c main_arg8 (by decide)
    _ = W28 m ρ c (Proc.devRef .tc main_arg8) := keep_hostOps9_2 (W28 m ρ c) main_arg8 (by decide)
    _ = W27 m ρ c (Proc.devRef .tc main_arg8) := keep_hostOps9_1 (W27 m ρ c) main_arg8 (by decide)
    _ = W26 m ρ c (Proc.devRef .tc main_arg8) := keep_hostOps9 (W26 m ρ c) main_arg8 (by decide)
    _ = W25 m ρ c (Proc.devRef .tc main_arg8) := W26_of_ne m ρ c main_arg8 (by decide)
    _ = W24 m ρ c (Proc.devRef .tc main_arg8) := keep_hostOps8 (W24 m ρ c) main_arg8 (by decide)
    _ = W23 m ρ c (Proc.devRef .tc main_arg8) := W24_of_ne m ρ c main_arg8 (by decide)
    _ = W22 m ρ c (Proc.devRef .tc main_arg8) := keep_hostOps7_2 (W22 m ρ c) main_arg8 (by decide)
    _ = W21 m ρ c (Proc.devRef .tc main_arg8) := keep_hostOps7_1 (W21 m ρ c) main_arg8 (by decide)
    _ = W20 m ρ c (Proc.devRef .tc main_arg8) := keep_hostOps7 (W20 m ρ c) main_arg8 (by decide)
    _ = W19 m ρ c (Proc.devRef .tc main_arg8) := W20_of_ne m ρ c main_arg8 (by decide)
    _ = W18 m ρ c (Proc.devRef .tc main_arg8) := keep_hostOps6 (W18 m ρ c) main_arg8 (by decide)
    _ = W17 m ρ c (Proc.devRef .tc main_arg8) := W18_of_ne m ρ c main_arg8 (by decide)
    _ = W16 m ρ c (Proc.devRef .tc main_arg8) := keep_hostOps5_2 (W16 m ρ c) main_arg8 (by decide)
    _ = W15 m ρ c (Proc.devRef .tc main_arg8) := keep_hostOps5_1 (W15 m ρ c) main_arg8 (by decide)
    _ = W14 m ρ c (Proc.devRef .tc main_arg8) := keep_hostOps5 (W14 m ρ c) main_arg8 (by decide)
    _ = W13 m ρ c (Proc.devRef .tc main_arg8) := W14_of_ne m ρ c main_arg8 (by decide)
    _ = W12 m ρ c (Proc.devRef .tc main_arg8) := keep_hostOps4 (W12 m ρ c) main_arg8 (by decide)
    _ = W11 m ρ c (Proc.devRef .tc main_arg8) := W12_of_ne m ρ c main_arg8 (by decide)
    _ = W10 m ρ c (Proc.devRef .tc main_arg8) := keep_hostOps3_2 (W10 m ρ c) main_arg8 (by decide)
    _ = W9 m ρ c (Proc.devRef .tc main_arg8) := keep_hostOps3_1 (W9 m ρ c) main_arg8 (by decide)
    _ = W8 m ρ c (Proc.devRef .tc main_arg8) := keep_hostOps3 (W8 m ρ c) main_arg8 (by decide)
    _ = W7 m ρ c (Proc.devRef .tc main_arg8) := W8_of_ne m ρ c main_arg8 (by decide)
    _ = W6 m ρ c (Proc.devRef .tc main_arg8) := keep_hostOps2 (W6 m ρ c) main_arg8 (by decide)
    _ = W5 m ρ c (Proc.devRef .tc main_arg8) := W6_of_ne m ρ c main_arg8 (by decide)
    _ = W4 m ρ c (Proc.devRef .tc main_arg8) := keep_hostOps1_2 (W4 m ρ c) main_arg8 (by decide)
    _ = W3 m ρ c (Proc.devRef .tc main_arg8) := keep_hostOps1_1 (W3 m ρ c) main_arg8 (by decide)
    _ = W2 m ρ c (Proc.devRef .tc main_arg8) := keep_hostOps1 (W2 m ρ c) main_arg8 (by decide)
    _ = W1 m ρ c (Proc.devRef .tc main_arg8) := W2_of_ne m ρ c main_arg8 (by decide)
    _ = W0 m ρ c (Proc.devRef .tc main_arg8) := keep_hostOps0 (W0 m ρ c) main_arg8 (by decide)
    _ = m ((c : Thread nD τ).loc main_arg8) := rfl

theorem arg9_at36 (c : Dev nD) : W36 m ρ c (Proc.devRef .tc main_arg9) = m ((c : Thread nD τ).loc main_arg9) :=
  calc W36 m ρ c (Proc.devRef .tc main_arg9)
    _ = W35 m ρ c (Proc.devRef .tc main_arg9) := W36_of_ne m ρ c main_arg9 (by decide)
    _ = W34 m ρ c (Proc.devRef .tc main_arg9) := keep_hostOps11_2 (W34 m ρ c) main_arg9 (by decide)
    _ = W33 m ρ c (Proc.devRef .tc main_arg9) := keep_hostOps11_1 (W33 m ρ c) main_arg9 (by decide)
    _ = W32 m ρ c (Proc.devRef .tc main_arg9) := keep_hostOps11 (W32 m ρ c) main_arg9 (by decide)
    _ = W31 m ρ c (Proc.devRef .tc main_arg9) := W32_of_ne m ρ c main_arg9 (by decide)
    _ = W30 m ρ c (Proc.devRef .tc main_arg9) := keep_hostOps10 (W30 m ρ c) main_arg9 (by decide)
    _ = W29 m ρ c (Proc.devRef .tc main_arg9) := W30_of_ne m ρ c main_arg9 (by decide)
    _ = W28 m ρ c (Proc.devRef .tc main_arg9) := keep_hostOps9_2 (W28 m ρ c) main_arg9 (by decide)
    _ = W27 m ρ c (Proc.devRef .tc main_arg9) := keep_hostOps9_1 (W27 m ρ c) main_arg9 (by decide)
    _ = W26 m ρ c (Proc.devRef .tc main_arg9) := keep_hostOps9 (W26 m ρ c) main_arg9 (by decide)
    _ = W25 m ρ c (Proc.devRef .tc main_arg9) := W26_of_ne m ρ c main_arg9 (by decide)
    _ = W24 m ρ c (Proc.devRef .tc main_arg9) := keep_hostOps8 (W24 m ρ c) main_arg9 (by decide)
    _ = W23 m ρ c (Proc.devRef .tc main_arg9) := W24_of_ne m ρ c main_arg9 (by decide)
    _ = W22 m ρ c (Proc.devRef .tc main_arg9) := keep_hostOps7_2 (W22 m ρ c) main_arg9 (by decide)
    _ = W21 m ρ c (Proc.devRef .tc main_arg9) := keep_hostOps7_1 (W21 m ρ c) main_arg9 (by decide)
    _ = W20 m ρ c (Proc.devRef .tc main_arg9) := keep_hostOps7 (W20 m ρ c) main_arg9 (by decide)
    _ = W19 m ρ c (Proc.devRef .tc main_arg9) := W20_of_ne m ρ c main_arg9 (by decide)
    _ = W18 m ρ c (Proc.devRef .tc main_arg9) := keep_hostOps6 (W18 m ρ c) main_arg9 (by decide)
    _ = W17 m ρ c (Proc.devRef .tc main_arg9) := W18_of_ne m ρ c main_arg9 (by decide)
    _ = W16 m ρ c (Proc.devRef .tc main_arg9) := keep_hostOps5_2 (W16 m ρ c) main_arg9 (by decide)
    _ = W15 m ρ c (Proc.devRef .tc main_arg9) := keep_hostOps5_1 (W15 m ρ c) main_arg9 (by decide)
    _ = W14 m ρ c (Proc.devRef .tc main_arg9) := keep_hostOps5 (W14 m ρ c) main_arg9 (by decide)
    _ = W13 m ρ c (Proc.devRef .tc main_arg9) := W14_of_ne m ρ c main_arg9 (by decide)
    _ = W12 m ρ c (Proc.devRef .tc main_arg9) := keep_hostOps4 (W12 m ρ c) main_arg9 (by decide)
    _ = W11 m ρ c (Proc.devRef .tc main_arg9) := W12_of_ne m ρ c main_arg9 (by decide)
    _ = W10 m ρ c (Proc.devRef .tc main_arg9) := keep_hostOps3_2 (W10 m ρ c) main_arg9 (by decide)
    _ = W9 m ρ c (Proc.devRef .tc main_arg9) := keep_hostOps3_1 (W9 m ρ c) main_arg9 (by decide)
    _ = W8 m ρ c (Proc.devRef .tc main_arg9) := keep_hostOps3 (W8 m ρ c) main_arg9 (by decide)
    _ = W7 m ρ c (Proc.devRef .tc main_arg9) := W8_of_ne m ρ c main_arg9 (by decide)
    _ = W6 m ρ c (Proc.devRef .tc main_arg9) := keep_hostOps2 (W6 m ρ c) main_arg9 (by decide)
    _ = W5 m ρ c (Proc.devRef .tc main_arg9) := W6_of_ne m ρ c main_arg9 (by decide)
    _ = W4 m ρ c (Proc.devRef .tc main_arg9) := keep_hostOps1_2 (W4 m ρ c) main_arg9 (by decide)
    _ = W3 m ρ c (Proc.devRef .tc main_arg9) := keep_hostOps1_1 (W3 m ρ c) main_arg9 (by decide)
    _ = W2 m ρ c (Proc.devRef .tc main_arg9) := keep_hostOps1 (W2 m ρ c) main_arg9 (by decide)
    _ = W1 m ρ c (Proc.devRef .tc main_arg9) := W2_of_ne m ρ c main_arg9 (by decide)
    _ = W0 m ρ c (Proc.devRef .tc main_arg9) := keep_hostOps0 (W0 m ρ c) main_arg9 (by decide)
    _ = m ((c : Thread nD τ).loc main_arg9) := rfl

theorem arg22_at36 (c : Dev nD) : W36 m ρ c (Proc.devRef .tc main_arg22) = m ((c : Thread nD τ).loc main_arg22) :=
  calc W36 m ρ c (Proc.devRef .tc main_arg22)
    _ = W35 m ρ c (Proc.devRef .tc main_arg22) := W36_of_ne m ρ c main_arg22 (by decide)
    _ = W34 m ρ c (Proc.devRef .tc main_arg22) := keep_hostOps11_2 (W34 m ρ c) main_arg22 (by decide)
    _ = W33 m ρ c (Proc.devRef .tc main_arg22) := keep_hostOps11_1 (W33 m ρ c) main_arg22 (by decide)
    _ = W32 m ρ c (Proc.devRef .tc main_arg22) := keep_hostOps11 (W32 m ρ c) main_arg22 (by decide)
    _ = W31 m ρ c (Proc.devRef .tc main_arg22) := W32_of_ne m ρ c main_arg22 (by decide)
    _ = W30 m ρ c (Proc.devRef .tc main_arg22) := keep_hostOps10 (W30 m ρ c) main_arg22 (by decide)
    _ = W29 m ρ c (Proc.devRef .tc main_arg22) := W30_of_ne m ρ c main_arg22 (by decide)
    _ = W28 m ρ c (Proc.devRef .tc main_arg22) := keep_hostOps9_2 (W28 m ρ c) main_arg22 (by decide)
    _ = W27 m ρ c (Proc.devRef .tc main_arg22) := keep_hostOps9_1 (W27 m ρ c) main_arg22 (by decide)
    _ = W26 m ρ c (Proc.devRef .tc main_arg22) := keep_hostOps9 (W26 m ρ c) main_arg22 (by decide)
    _ = W25 m ρ c (Proc.devRef .tc main_arg22) := W26_of_ne m ρ c main_arg22 (by decide)
    _ = W24 m ρ c (Proc.devRef .tc main_arg22) := keep_hostOps8 (W24 m ρ c) main_arg22 (by decide)
    _ = W23 m ρ c (Proc.devRef .tc main_arg22) := W24_of_ne m ρ c main_arg22 (by decide)
    _ = W22 m ρ c (Proc.devRef .tc main_arg22) := keep_hostOps7_2 (W22 m ρ c) main_arg22 (by decide)
    _ = W21 m ρ c (Proc.devRef .tc main_arg22) := keep_hostOps7_1 (W21 m ρ c) main_arg22 (by decide)
    _ = W20 m ρ c (Proc.devRef .tc main_arg22) := keep_hostOps7 (W20 m ρ c) main_arg22 (by decide)
    _ = W19 m ρ c (Proc.devRef .tc main_arg22) := W20_of_ne m ρ c main_arg22 (by decide)
    _ = W18 m ρ c (Proc.devRef .tc main_arg22) := keep_hostOps6 (W18 m ρ c) main_arg22 (by decide)
    _ = W17 m ρ c (Proc.devRef .tc main_arg22) := W18_of_ne m ρ c main_arg22 (by decide)
    _ = W16 m ρ c (Proc.devRef .tc main_arg22) := keep_hostOps5_2 (W16 m ρ c) main_arg22 (by decide)
    _ = W15 m ρ c (Proc.devRef .tc main_arg22) := keep_hostOps5_1 (W15 m ρ c) main_arg22 (by decide)
    _ = W14 m ρ c (Proc.devRef .tc main_arg22) := keep_hostOps5 (W14 m ρ c) main_arg22 (by decide)
    _ = W13 m ρ c (Proc.devRef .tc main_arg22) := W14_of_ne m ρ c main_arg22 (by decide)
    _ = W12 m ρ c (Proc.devRef .tc main_arg22) := keep_hostOps4 (W12 m ρ c) main_arg22 (by decide)
    _ = W11 m ρ c (Proc.devRef .tc main_arg22) := W12_of_ne m ρ c main_arg22 (by decide)
    _ = W10 m ρ c (Proc.devRef .tc main_arg22) := keep_hostOps3_2 (W10 m ρ c) main_arg22 (by decide)
    _ = W9 m ρ c (Proc.devRef .tc main_arg22) := keep_hostOps3_1 (W9 m ρ c) main_arg22 (by decide)
    _ = W8 m ρ c (Proc.devRef .tc main_arg22) := keep_hostOps3 (W8 m ρ c) main_arg22 (by decide)
    _ = W7 m ρ c (Proc.devRef .tc main_arg22) := W8_of_ne m ρ c main_arg22 (by decide)
    _ = W6 m ρ c (Proc.devRef .tc main_arg22) := keep_hostOps2 (W6 m ρ c) main_arg22 (by decide)
    _ = W5 m ρ c (Proc.devRef .tc main_arg22) := W6_of_ne m ρ c main_arg22 (by decide)
    _ = W4 m ρ c (Proc.devRef .tc main_arg22) := keep_hostOps1_2 (W4 m ρ c) main_arg22 (by decide)
    _ = W3 m ρ c (Proc.devRef .tc main_arg22) := keep_hostOps1_1 (W3 m ρ c) main_arg22 (by decide)
    _ = W2 m ρ c (Proc.devRef .tc main_arg22) := keep_hostOps1 (W2 m ρ c) main_arg22 (by decide)
    _ = W1 m ρ c (Proc.devRef .tc main_arg22) := W2_of_ne m ρ c main_arg22 (by decide)
    _ = W0 m ρ c (Proc.devRef .tc main_arg22) := keep_hostOps0 (W0 m ρ c) main_arg22 (by decide)
    _ = m ((c : Thread nD τ).loc main_arg22) := rfl

theorem arg23_at36 (c : Dev nD) : W36 m ρ c (Proc.devRef .tc main_arg23) = m ((c : Thread nD τ).loc main_arg23) :=
  calc W36 m ρ c (Proc.devRef .tc main_arg23)
    _ = W35 m ρ c (Proc.devRef .tc main_arg23) := W36_of_ne m ρ c main_arg23 (by decide)
    _ = W34 m ρ c (Proc.devRef .tc main_arg23) := keep_hostOps11_2 (W34 m ρ c) main_arg23 (by decide)
    _ = W33 m ρ c (Proc.devRef .tc main_arg23) := keep_hostOps11_1 (W33 m ρ c) main_arg23 (by decide)
    _ = W32 m ρ c (Proc.devRef .tc main_arg23) := keep_hostOps11 (W32 m ρ c) main_arg23 (by decide)
    _ = W31 m ρ c (Proc.devRef .tc main_arg23) := W32_of_ne m ρ c main_arg23 (by decide)
    _ = W30 m ρ c (Proc.devRef .tc main_arg23) := keep_hostOps10 (W30 m ρ c) main_arg23 (by decide)
    _ = W29 m ρ c (Proc.devRef .tc main_arg23) := W30_of_ne m ρ c main_arg23 (by decide)
    _ = W28 m ρ c (Proc.devRef .tc main_arg23) := keep_hostOps9_2 (W28 m ρ c) main_arg23 (by decide)
    _ = W27 m ρ c (Proc.devRef .tc main_arg23) := keep_hostOps9_1 (W27 m ρ c) main_arg23 (by decide)
    _ = W26 m ρ c (Proc.devRef .tc main_arg23) := keep_hostOps9 (W26 m ρ c) main_arg23 (by decide)
    _ = W25 m ρ c (Proc.devRef .tc main_arg23) := W26_of_ne m ρ c main_arg23 (by decide)
    _ = W24 m ρ c (Proc.devRef .tc main_arg23) := keep_hostOps8 (W24 m ρ c) main_arg23 (by decide)
    _ = W23 m ρ c (Proc.devRef .tc main_arg23) := W24_of_ne m ρ c main_arg23 (by decide)
    _ = W22 m ρ c (Proc.devRef .tc main_arg23) := keep_hostOps7_2 (W22 m ρ c) main_arg23 (by decide)
    _ = W21 m ρ c (Proc.devRef .tc main_arg23) := keep_hostOps7_1 (W21 m ρ c) main_arg23 (by decide)
    _ = W20 m ρ c (Proc.devRef .tc main_arg23) := keep_hostOps7 (W20 m ρ c) main_arg23 (by decide)
    _ = W19 m ρ c (Proc.devRef .tc main_arg23) := W20_of_ne m ρ c main_arg23 (by decide)
    _ = W18 m ρ c (Proc.devRef .tc main_arg23) := keep_hostOps6 (W18 m ρ c) main_arg23 (by decide)
    _ = W17 m ρ c (Proc.devRef .tc main_arg23) := W18_of_ne m ρ c main_arg23 (by decide)
    _ = W16 m ρ c (Proc.devRef .tc main_arg23) := keep_hostOps5_2 (W16 m ρ c) main_arg23 (by decide)
    _ = W15 m ρ c (Proc.devRef .tc main_arg23) := keep_hostOps5_1 (W15 m ρ c) main_arg23 (by decide)
    _ = W14 m ρ c (Proc.devRef .tc main_arg23) := keep_hostOps5 (W14 m ρ c) main_arg23 (by decide)
    _ = W13 m ρ c (Proc.devRef .tc main_arg23) := W14_of_ne m ρ c main_arg23 (by decide)
    _ = W12 m ρ c (Proc.devRef .tc main_arg23) := keep_hostOps4 (W12 m ρ c) main_arg23 (by decide)
    _ = W11 m ρ c (Proc.devRef .tc main_arg23) := W12_of_ne m ρ c main_arg23 (by decide)
    _ = W10 m ρ c (Proc.devRef .tc main_arg23) := keep_hostOps3_2 (W10 m ρ c) main_arg23 (by decide)
    _ = W9 m ρ c (Proc.devRef .tc main_arg23) := keep_hostOps3_1 (W9 m ρ c) main_arg23 (by decide)
    _ = W8 m ρ c (Proc.devRef .tc main_arg23) := keep_hostOps3 (W8 m ρ c) main_arg23 (by decide)
    _ = W7 m ρ c (Proc.devRef .tc main_arg23) := W8_of_ne m ρ c main_arg23 (by decide)
    _ = W6 m ρ c (Proc.devRef .tc main_arg23) := keep_hostOps2 (W6 m ρ c) main_arg23 (by decide)
    _ = W5 m ρ c (Proc.devRef .tc main_arg23) := W6_of_ne m ρ c main_arg23 (by decide)
    _ = W4 m ρ c (Proc.devRef .tc main_arg23) := keep_hostOps1_2 (W4 m ρ c) main_arg23 (by decide)
    _ = W3 m ρ c (Proc.devRef .tc main_arg23) := keep_hostOps1_1 (W3 m ρ c) main_arg23 (by decide)
    _ = W2 m ρ c (Proc.devRef .tc main_arg23) := keep_hostOps1 (W2 m ρ c) main_arg23 (by decide)
    _ = W1 m ρ c (Proc.devRef .tc main_arg23) := W2_of_ne m ρ c main_arg23 (by decide)
    _ = W0 m ρ c (Proc.devRef .tc main_arg23) := keep_hostOps0 (W0 m ρ c) main_arg23 (by decide)
    _ = m ((c : Thread nD τ).loc main_arg23) := rfl

/-! ## The argument arrays at boundary 42: as launched -/

theorem arg8_at42 (c : Dev nD) : W42 m ρ c (Proc.devRef .tc main_arg8) = m ((c : Thread nD τ).loc main_arg8) :=
  calc W42 m ρ c (Proc.devRef .tc main_arg8)
    _ = W41 m ρ c (Proc.devRef .tc main_arg8) := W42_of_ne m ρ c main_arg8 (by decide)
    _ = W40 m ρ c (Proc.devRef .tc main_arg8) := keep_hostOps13_2 (W40 m ρ c) main_arg8 (by decide)
    _ = W39 m ρ c (Proc.devRef .tc main_arg8) := keep_hostOps13_1 (W39 m ρ c) main_arg8 (by decide)
    _ = W38 m ρ c (Proc.devRef .tc main_arg8) := keep_hostOps13 (W38 m ρ c) main_arg8 (by decide)
    _ = W37 m ρ c (Proc.devRef .tc main_arg8) := W38_of_ne m ρ c main_arg8 (by decide)
    _ = W36 m ρ c (Proc.devRef .tc main_arg8) := keep_hostOps12 (W36 m ρ c) main_arg8 (by decide)
    _ = m ((c : Thread nD τ).loc main_arg8) := arg8_at36 m ρ c

theorem arg9_at42 (c : Dev nD) : W42 m ρ c (Proc.devRef .tc main_arg9) = m ((c : Thread nD τ).loc main_arg9) :=
  calc W42 m ρ c (Proc.devRef .tc main_arg9)
    _ = W41 m ρ c (Proc.devRef .tc main_arg9) := W42_of_ne m ρ c main_arg9 (by decide)
    _ = W40 m ρ c (Proc.devRef .tc main_arg9) := keep_hostOps13_2 (W40 m ρ c) main_arg9 (by decide)
    _ = W39 m ρ c (Proc.devRef .tc main_arg9) := keep_hostOps13_1 (W39 m ρ c) main_arg9 (by decide)
    _ = W38 m ρ c (Proc.devRef .tc main_arg9) := keep_hostOps13 (W38 m ρ c) main_arg9 (by decide)
    _ = W37 m ρ c (Proc.devRef .tc main_arg9) := W38_of_ne m ρ c main_arg9 (by decide)
    _ = W36 m ρ c (Proc.devRef .tc main_arg9) := keep_hostOps12 (W36 m ρ c) main_arg9 (by decide)
    _ = m ((c : Thread nD τ).loc main_arg9) := arg9_at36 m ρ c

theorem arg24_at42 (c : Dev nD) : W42 m ρ c (Proc.devRef .tc main_arg24) = m ((c : Thread nD τ).loc main_arg24) :=
  calc W42 m ρ c (Proc.devRef .tc main_arg24)
    _ = W41 m ρ c (Proc.devRef .tc main_arg24) := W42_of_ne m ρ c main_arg24 (by decide)
    _ = W40 m ρ c (Proc.devRef .tc main_arg24) := keep_hostOps13_2 (W40 m ρ c) main_arg24 (by decide)
    _ = W39 m ρ c (Proc.devRef .tc main_arg24) := keep_hostOps13_1 (W39 m ρ c) main_arg24 (by decide)
    _ = W38 m ρ c (Proc.devRef .tc main_arg24) := keep_hostOps13 (W38 m ρ c) main_arg24 (by decide)
    _ = W37 m ρ c (Proc.devRef .tc main_arg24) := W38_of_ne m ρ c main_arg24 (by decide)
    _ = W36 m ρ c (Proc.devRef .tc main_arg24) := keep_hostOps12 (W36 m ρ c) main_arg24 (by decide)
    _ = W35 m ρ c (Proc.devRef .tc main_arg24) := W36_of_ne m ρ c main_arg24 (by decide)
    _ = W34 m ρ c (Proc.devRef .tc main_arg24) := keep_hostOps11_2 (W34 m ρ c) main_arg24 (by decide)
    _ = W33 m ρ c (Proc.devRef .tc main_arg24) := keep_hostOps11_1 (W33 m ρ c) main_arg24 (by decide)
    _ = W32 m ρ c (Proc.devRef .tc main_arg24) := keep_hostOps11 (W32 m ρ c) main_arg24 (by decide)
    _ = W31 m ρ c (Proc.devRef .tc main_arg24) := W32_of_ne m ρ c main_arg24 (by decide)
    _ = W30 m ρ c (Proc.devRef .tc main_arg24) := keep_hostOps10 (W30 m ρ c) main_arg24 (by decide)
    _ = W29 m ρ c (Proc.devRef .tc main_arg24) := W30_of_ne m ρ c main_arg24 (by decide)
    _ = W28 m ρ c (Proc.devRef .tc main_arg24) := keep_hostOps9_2 (W28 m ρ c) main_arg24 (by decide)
    _ = W27 m ρ c (Proc.devRef .tc main_arg24) := keep_hostOps9_1 (W27 m ρ c) main_arg24 (by decide)
    _ = W26 m ρ c (Proc.devRef .tc main_arg24) := keep_hostOps9 (W26 m ρ c) main_arg24 (by decide)
    _ = W25 m ρ c (Proc.devRef .tc main_arg24) := W26_of_ne m ρ c main_arg24 (by decide)
    _ = W24 m ρ c (Proc.devRef .tc main_arg24) := keep_hostOps8 (W24 m ρ c) main_arg24 (by decide)
    _ = W23 m ρ c (Proc.devRef .tc main_arg24) := W24_of_ne m ρ c main_arg24 (by decide)
    _ = W22 m ρ c (Proc.devRef .tc main_arg24) := keep_hostOps7_2 (W22 m ρ c) main_arg24 (by decide)
    _ = W21 m ρ c (Proc.devRef .tc main_arg24) := keep_hostOps7_1 (W21 m ρ c) main_arg24 (by decide)
    _ = W20 m ρ c (Proc.devRef .tc main_arg24) := keep_hostOps7 (W20 m ρ c) main_arg24 (by decide)
    _ = W19 m ρ c (Proc.devRef .tc main_arg24) := W20_of_ne m ρ c main_arg24 (by decide)
    _ = W18 m ρ c (Proc.devRef .tc main_arg24) := keep_hostOps6 (W18 m ρ c) main_arg24 (by decide)
    _ = W17 m ρ c (Proc.devRef .tc main_arg24) := W18_of_ne m ρ c main_arg24 (by decide)
    _ = W16 m ρ c (Proc.devRef .tc main_arg24) := keep_hostOps5_2 (W16 m ρ c) main_arg24 (by decide)
    _ = W15 m ρ c (Proc.devRef .tc main_arg24) := keep_hostOps5_1 (W15 m ρ c) main_arg24 (by decide)
    _ = W14 m ρ c (Proc.devRef .tc main_arg24) := keep_hostOps5 (W14 m ρ c) main_arg24 (by decide)
    _ = W13 m ρ c (Proc.devRef .tc main_arg24) := W14_of_ne m ρ c main_arg24 (by decide)
    _ = W12 m ρ c (Proc.devRef .tc main_arg24) := keep_hostOps4 (W12 m ρ c) main_arg24 (by decide)
    _ = W11 m ρ c (Proc.devRef .tc main_arg24) := W12_of_ne m ρ c main_arg24 (by decide)
    _ = W10 m ρ c (Proc.devRef .tc main_arg24) := keep_hostOps3_2 (W10 m ρ c) main_arg24 (by decide)
    _ = W9 m ρ c (Proc.devRef .tc main_arg24) := keep_hostOps3_1 (W9 m ρ c) main_arg24 (by decide)
    _ = W8 m ρ c (Proc.devRef .tc main_arg24) := keep_hostOps3 (W8 m ρ c) main_arg24 (by decide)
    _ = W7 m ρ c (Proc.devRef .tc main_arg24) := W8_of_ne m ρ c main_arg24 (by decide)
    _ = W6 m ρ c (Proc.devRef .tc main_arg24) := keep_hostOps2 (W6 m ρ c) main_arg24 (by decide)
    _ = W5 m ρ c (Proc.devRef .tc main_arg24) := W6_of_ne m ρ c main_arg24 (by decide)
    _ = W4 m ρ c (Proc.devRef .tc main_arg24) := keep_hostOps1_2 (W4 m ρ c) main_arg24 (by decide)
    _ = W3 m ρ c (Proc.devRef .tc main_arg24) := keep_hostOps1_1 (W3 m ρ c) main_arg24 (by decide)
    _ = W2 m ρ c (Proc.devRef .tc main_arg24) := keep_hostOps1 (W2 m ρ c) main_arg24 (by decide)
    _ = W1 m ρ c (Proc.devRef .tc main_arg24) := W2_of_ne m ρ c main_arg24 (by decide)
    _ = W0 m ρ c (Proc.devRef .tc main_arg24) := keep_hostOps0 (W0 m ρ c) main_arg24 (by decide)
    _ = m ((c : Thread nD τ).loc main_arg24) := rfl

theorem arg25_at42 (c : Dev nD) : W42 m ρ c (Proc.devRef .tc main_arg25) = m ((c : Thread nD τ).loc main_arg25) :=
  calc W42 m ρ c (Proc.devRef .tc main_arg25)
    _ = W41 m ρ c (Proc.devRef .tc main_arg25) := W42_of_ne m ρ c main_arg25 (by decide)
    _ = W40 m ρ c (Proc.devRef .tc main_arg25) := keep_hostOps13_2 (W40 m ρ c) main_arg25 (by decide)
    _ = W39 m ρ c (Proc.devRef .tc main_arg25) := keep_hostOps13_1 (W39 m ρ c) main_arg25 (by decide)
    _ = W38 m ρ c (Proc.devRef .tc main_arg25) := keep_hostOps13 (W38 m ρ c) main_arg25 (by decide)
    _ = W37 m ρ c (Proc.devRef .tc main_arg25) := W38_of_ne m ρ c main_arg25 (by decide)
    _ = W36 m ρ c (Proc.devRef .tc main_arg25) := keep_hostOps12 (W36 m ρ c) main_arg25 (by decide)
    _ = W35 m ρ c (Proc.devRef .tc main_arg25) := W36_of_ne m ρ c main_arg25 (by decide)
    _ = W34 m ρ c (Proc.devRef .tc main_arg25) := keep_hostOps11_2 (W34 m ρ c) main_arg25 (by decide)
    _ = W33 m ρ c (Proc.devRef .tc main_arg25) := keep_hostOps11_1 (W33 m ρ c) main_arg25 (by decide)
    _ = W32 m ρ c (Proc.devRef .tc main_arg25) := keep_hostOps11 (W32 m ρ c) main_arg25 (by decide)
    _ = W31 m ρ c (Proc.devRef .tc main_arg25) := W32_of_ne m ρ c main_arg25 (by decide)
    _ = W30 m ρ c (Proc.devRef .tc main_arg25) := keep_hostOps10 (W30 m ρ c) main_arg25 (by decide)
    _ = W29 m ρ c (Proc.devRef .tc main_arg25) := W30_of_ne m ρ c main_arg25 (by decide)
    _ = W28 m ρ c (Proc.devRef .tc main_arg25) := keep_hostOps9_2 (W28 m ρ c) main_arg25 (by decide)
    _ = W27 m ρ c (Proc.devRef .tc main_arg25) := keep_hostOps9_1 (W27 m ρ c) main_arg25 (by decide)
    _ = W26 m ρ c (Proc.devRef .tc main_arg25) := keep_hostOps9 (W26 m ρ c) main_arg25 (by decide)
    _ = W25 m ρ c (Proc.devRef .tc main_arg25) := W26_of_ne m ρ c main_arg25 (by decide)
    _ = W24 m ρ c (Proc.devRef .tc main_arg25) := keep_hostOps8 (W24 m ρ c) main_arg25 (by decide)
    _ = W23 m ρ c (Proc.devRef .tc main_arg25) := W24_of_ne m ρ c main_arg25 (by decide)
    _ = W22 m ρ c (Proc.devRef .tc main_arg25) := keep_hostOps7_2 (W22 m ρ c) main_arg25 (by decide)
    _ = W21 m ρ c (Proc.devRef .tc main_arg25) := keep_hostOps7_1 (W21 m ρ c) main_arg25 (by decide)
    _ = W20 m ρ c (Proc.devRef .tc main_arg25) := keep_hostOps7 (W20 m ρ c) main_arg25 (by decide)
    _ = W19 m ρ c (Proc.devRef .tc main_arg25) := W20_of_ne m ρ c main_arg25 (by decide)
    _ = W18 m ρ c (Proc.devRef .tc main_arg25) := keep_hostOps6 (W18 m ρ c) main_arg25 (by decide)
    _ = W17 m ρ c (Proc.devRef .tc main_arg25) := W18_of_ne m ρ c main_arg25 (by decide)
    _ = W16 m ρ c (Proc.devRef .tc main_arg25) := keep_hostOps5_2 (W16 m ρ c) main_arg25 (by decide)
    _ = W15 m ρ c (Proc.devRef .tc main_arg25) := keep_hostOps5_1 (W15 m ρ c) main_arg25 (by decide)
    _ = W14 m ρ c (Proc.devRef .tc main_arg25) := keep_hostOps5 (W14 m ρ c) main_arg25 (by decide)
    _ = W13 m ρ c (Proc.devRef .tc main_arg25) := W14_of_ne m ρ c main_arg25 (by decide)
    _ = W12 m ρ c (Proc.devRef .tc main_arg25) := keep_hostOps4 (W12 m ρ c) main_arg25 (by decide)
    _ = W11 m ρ c (Proc.devRef .tc main_arg25) := W12_of_ne m ρ c main_arg25 (by decide)
    _ = W10 m ρ c (Proc.devRef .tc main_arg25) := keep_hostOps3_2 (W10 m ρ c) main_arg25 (by decide)
    _ = W9 m ρ c (Proc.devRef .tc main_arg25) := keep_hostOps3_1 (W9 m ρ c) main_arg25 (by decide)
    _ = W8 m ρ c (Proc.devRef .tc main_arg25) := keep_hostOps3 (W8 m ρ c) main_arg25 (by decide)
    _ = W7 m ρ c (Proc.devRef .tc main_arg25) := W8_of_ne m ρ c main_arg25 (by decide)
    _ = W6 m ρ c (Proc.devRef .tc main_arg25) := keep_hostOps2 (W6 m ρ c) main_arg25 (by decide)
    _ = W5 m ρ c (Proc.devRef .tc main_arg25) := W6_of_ne m ρ c main_arg25 (by decide)
    _ = W4 m ρ c (Proc.devRef .tc main_arg25) := keep_hostOps1_2 (W4 m ρ c) main_arg25 (by decide)
    _ = W3 m ρ c (Proc.devRef .tc main_arg25) := keep_hostOps1_1 (W3 m ρ c) main_arg25 (by decide)
    _ = W2 m ρ c (Proc.devRef .tc main_arg25) := keep_hostOps1 (W2 m ρ c) main_arg25 (by decide)
    _ = W1 m ρ c (Proc.devRef .tc main_arg25) := W2_of_ne m ρ c main_arg25 (by decide)
    _ = W0 m ρ c (Proc.devRef .tc main_arg25) := keep_hostOps0 (W0 m ρ c) main_arg25 (by decide)
    _ = m ((c : Thread nD τ).loc main_arg25) := rfl

/-! ## The argument arrays at boundary 48: as launched -/

theorem arg26_at48 (c : Dev nD) : W48 m ρ c (Proc.devRef .tc main_arg26) = m ((c : Thread nD τ).loc main_arg26) :=
  calc W48 m ρ c (Proc.devRef .tc main_arg26)
    _ = W47 m ρ c (Proc.devRef .tc main_arg26) := W48_of_ne m ρ c main_arg26 (by decide)
    _ = W46 m ρ c (Proc.devRef .tc main_arg26) := keep_hostOps15_2 (W46 m ρ c) main_arg26 (by decide)
    _ = W45 m ρ c (Proc.devRef .tc main_arg26) := keep_hostOps15_1 (W45 m ρ c) main_arg26 (by decide)
    _ = W44 m ρ c (Proc.devRef .tc main_arg26) := keep_hostOps15 (W44 m ρ c) main_arg26 (by decide)
    _ = W43 m ρ c (Proc.devRef .tc main_arg26) := W44_of_ne m ρ c main_arg26 (by decide)
    _ = W42 m ρ c (Proc.devRef .tc main_arg26) := keep_hostOps14 (W42 m ρ c) main_arg26 (by decide)
    _ = W41 m ρ c (Proc.devRef .tc main_arg26) := W42_of_ne m ρ c main_arg26 (by decide)
    _ = W40 m ρ c (Proc.devRef .tc main_arg26) := keep_hostOps13_2 (W40 m ρ c) main_arg26 (by decide)
    _ = W39 m ρ c (Proc.devRef .tc main_arg26) := keep_hostOps13_1 (W39 m ρ c) main_arg26 (by decide)
    _ = W38 m ρ c (Proc.devRef .tc main_arg26) := keep_hostOps13 (W38 m ρ c) main_arg26 (by decide)
    _ = W37 m ρ c (Proc.devRef .tc main_arg26) := W38_of_ne m ρ c main_arg26 (by decide)
    _ = W36 m ρ c (Proc.devRef .tc main_arg26) := keep_hostOps12 (W36 m ρ c) main_arg26 (by decide)
    _ = W35 m ρ c (Proc.devRef .tc main_arg26) := W36_of_ne m ρ c main_arg26 (by decide)
    _ = W34 m ρ c (Proc.devRef .tc main_arg26) := keep_hostOps11_2 (W34 m ρ c) main_arg26 (by decide)
    _ = W33 m ρ c (Proc.devRef .tc main_arg26) := keep_hostOps11_1 (W33 m ρ c) main_arg26 (by decide)
    _ = W32 m ρ c (Proc.devRef .tc main_arg26) := keep_hostOps11 (W32 m ρ c) main_arg26 (by decide)
    _ = W31 m ρ c (Proc.devRef .tc main_arg26) := W32_of_ne m ρ c main_arg26 (by decide)
    _ = W30 m ρ c (Proc.devRef .tc main_arg26) := keep_hostOps10 (W30 m ρ c) main_arg26 (by decide)
    _ = W29 m ρ c (Proc.devRef .tc main_arg26) := W30_of_ne m ρ c main_arg26 (by decide)
    _ = W28 m ρ c (Proc.devRef .tc main_arg26) := keep_hostOps9_2 (W28 m ρ c) main_arg26 (by decide)
    _ = W27 m ρ c (Proc.devRef .tc main_arg26) := keep_hostOps9_1 (W27 m ρ c) main_arg26 (by decide)
    _ = W26 m ρ c (Proc.devRef .tc main_arg26) := keep_hostOps9 (W26 m ρ c) main_arg26 (by decide)
    _ = W25 m ρ c (Proc.devRef .tc main_arg26) := W26_of_ne m ρ c main_arg26 (by decide)
    _ = W24 m ρ c (Proc.devRef .tc main_arg26) := keep_hostOps8 (W24 m ρ c) main_arg26 (by decide)
    _ = W23 m ρ c (Proc.devRef .tc main_arg26) := W24_of_ne m ρ c main_arg26 (by decide)
    _ = W22 m ρ c (Proc.devRef .tc main_arg26) := keep_hostOps7_2 (W22 m ρ c) main_arg26 (by decide)
    _ = W21 m ρ c (Proc.devRef .tc main_arg26) := keep_hostOps7_1 (W21 m ρ c) main_arg26 (by decide)
    _ = W20 m ρ c (Proc.devRef .tc main_arg26) := keep_hostOps7 (W20 m ρ c) main_arg26 (by decide)
    _ = W19 m ρ c (Proc.devRef .tc main_arg26) := W20_of_ne m ρ c main_arg26 (by decide)
    _ = W18 m ρ c (Proc.devRef .tc main_arg26) := keep_hostOps6 (W18 m ρ c) main_arg26 (by decide)
    _ = W17 m ρ c (Proc.devRef .tc main_arg26) := W18_of_ne m ρ c main_arg26 (by decide)
    _ = W16 m ρ c (Proc.devRef .tc main_arg26) := keep_hostOps5_2 (W16 m ρ c) main_arg26 (by decide)
    _ = W15 m ρ c (Proc.devRef .tc main_arg26) := keep_hostOps5_1 (W15 m ρ c) main_arg26 (by decide)
    _ = W14 m ρ c (Proc.devRef .tc main_arg26) := keep_hostOps5 (W14 m ρ c) main_arg26 (by decide)
    _ = W13 m ρ c (Proc.devRef .tc main_arg26) := W14_of_ne m ρ c main_arg26 (by decide)
    _ = W12 m ρ c (Proc.devRef .tc main_arg26) := keep_hostOps4 (W12 m ρ c) main_arg26 (by decide)
    _ = W11 m ρ c (Proc.devRef .tc main_arg26) := W12_of_ne m ρ c main_arg26 (by decide)
    _ = W10 m ρ c (Proc.devRef .tc main_arg26) := keep_hostOps3_2 (W10 m ρ c) main_arg26 (by decide)
    _ = W9 m ρ c (Proc.devRef .tc main_arg26) := keep_hostOps3_1 (W9 m ρ c) main_arg26 (by decide)
    _ = W8 m ρ c (Proc.devRef .tc main_arg26) := keep_hostOps3 (W8 m ρ c) main_arg26 (by decide)
    _ = W7 m ρ c (Proc.devRef .tc main_arg26) := W8_of_ne m ρ c main_arg26 (by decide)
    _ = W6 m ρ c (Proc.devRef .tc main_arg26) := keep_hostOps2 (W6 m ρ c) main_arg26 (by decide)
    _ = W5 m ρ c (Proc.devRef .tc main_arg26) := W6_of_ne m ρ c main_arg26 (by decide)
    _ = W4 m ρ c (Proc.devRef .tc main_arg26) := keep_hostOps1_2 (W4 m ρ c) main_arg26 (by decide)
    _ = W3 m ρ c (Proc.devRef .tc main_arg26) := keep_hostOps1_1 (W3 m ρ c) main_arg26 (by decide)
    _ = W2 m ρ c (Proc.devRef .tc main_arg26) := keep_hostOps1 (W2 m ρ c) main_arg26 (by decide)
    _ = W1 m ρ c (Proc.devRef .tc main_arg26) := W2_of_ne m ρ c main_arg26 (by decide)
    _ = W0 m ρ c (Proc.devRef .tc main_arg26) := keep_hostOps0 (W0 m ρ c) main_arg26 (by decide)
    _ = m ((c : Thread nD τ).loc main_arg26) := rfl

theorem arg27_at48 (c : Dev nD) : W48 m ρ c (Proc.devRef .tc main_arg27) = m ((c : Thread nD τ).loc main_arg27) :=
  calc W48 m ρ c (Proc.devRef .tc main_arg27)
    _ = W47 m ρ c (Proc.devRef .tc main_arg27) := W48_of_ne m ρ c main_arg27 (by decide)
    _ = W46 m ρ c (Proc.devRef .tc main_arg27) := keep_hostOps15_2 (W46 m ρ c) main_arg27 (by decide)
    _ = W45 m ρ c (Proc.devRef .tc main_arg27) := keep_hostOps15_1 (W45 m ρ c) main_arg27 (by decide)
    _ = W44 m ρ c (Proc.devRef .tc main_arg27) := keep_hostOps15 (W44 m ρ c) main_arg27 (by decide)
    _ = W43 m ρ c (Proc.devRef .tc main_arg27) := W44_of_ne m ρ c main_arg27 (by decide)
    _ = W42 m ρ c (Proc.devRef .tc main_arg27) := keep_hostOps14 (W42 m ρ c) main_arg27 (by decide)
    _ = W41 m ρ c (Proc.devRef .tc main_arg27) := W42_of_ne m ρ c main_arg27 (by decide)
    _ = W40 m ρ c (Proc.devRef .tc main_arg27) := keep_hostOps13_2 (W40 m ρ c) main_arg27 (by decide)
    _ = W39 m ρ c (Proc.devRef .tc main_arg27) := keep_hostOps13_1 (W39 m ρ c) main_arg27 (by decide)
    _ = W38 m ρ c (Proc.devRef .tc main_arg27) := keep_hostOps13 (W38 m ρ c) main_arg27 (by decide)
    _ = W37 m ρ c (Proc.devRef .tc main_arg27) := W38_of_ne m ρ c main_arg27 (by decide)
    _ = W36 m ρ c (Proc.devRef .tc main_arg27) := keep_hostOps12 (W36 m ρ c) main_arg27 (by decide)
    _ = W35 m ρ c (Proc.devRef .tc main_arg27) := W36_of_ne m ρ c main_arg27 (by decide)
    _ = W34 m ρ c (Proc.devRef .tc main_arg27) := keep_hostOps11_2 (W34 m ρ c) main_arg27 (by decide)
    _ = W33 m ρ c (Proc.devRef .tc main_arg27) := keep_hostOps11_1 (W33 m ρ c) main_arg27 (by decide)
    _ = W32 m ρ c (Proc.devRef .tc main_arg27) := keep_hostOps11 (W32 m ρ c) main_arg27 (by decide)
    _ = W31 m ρ c (Proc.devRef .tc main_arg27) := W32_of_ne m ρ c main_arg27 (by decide)
    _ = W30 m ρ c (Proc.devRef .tc main_arg27) := keep_hostOps10 (W30 m ρ c) main_arg27 (by decide)
    _ = W29 m ρ c (Proc.devRef .tc main_arg27) := W30_of_ne m ρ c main_arg27 (by decide)
    _ = W28 m ρ c (Proc.devRef .tc main_arg27) := keep_hostOps9_2 (W28 m ρ c) main_arg27 (by decide)
    _ = W27 m ρ c (Proc.devRef .tc main_arg27) := keep_hostOps9_1 (W27 m ρ c) main_arg27 (by decide)
    _ = W26 m ρ c (Proc.devRef .tc main_arg27) := keep_hostOps9 (W26 m ρ c) main_arg27 (by decide)
    _ = W25 m ρ c (Proc.devRef .tc main_arg27) := W26_of_ne m ρ c main_arg27 (by decide)
    _ = W24 m ρ c (Proc.devRef .tc main_arg27) := keep_hostOps8 (W24 m ρ c) main_arg27 (by decide)
    _ = W23 m ρ c (Proc.devRef .tc main_arg27) := W24_of_ne m ρ c main_arg27 (by decide)
    _ = W22 m ρ c (Proc.devRef .tc main_arg27) := keep_hostOps7_2 (W22 m ρ c) main_arg27 (by decide)
    _ = W21 m ρ c (Proc.devRef .tc main_arg27) := keep_hostOps7_1 (W21 m ρ c) main_arg27 (by decide)
    _ = W20 m ρ c (Proc.devRef .tc main_arg27) := keep_hostOps7 (W20 m ρ c) main_arg27 (by decide)
    _ = W19 m ρ c (Proc.devRef .tc main_arg27) := W20_of_ne m ρ c main_arg27 (by decide)
    _ = W18 m ρ c (Proc.devRef .tc main_arg27) := keep_hostOps6 (W18 m ρ c) main_arg27 (by decide)
    _ = W17 m ρ c (Proc.devRef .tc main_arg27) := W18_of_ne m ρ c main_arg27 (by decide)
    _ = W16 m ρ c (Proc.devRef .tc main_arg27) := keep_hostOps5_2 (W16 m ρ c) main_arg27 (by decide)
    _ = W15 m ρ c (Proc.devRef .tc main_arg27) := keep_hostOps5_1 (W15 m ρ c) main_arg27 (by decide)
    _ = W14 m ρ c (Proc.devRef .tc main_arg27) := keep_hostOps5 (W14 m ρ c) main_arg27 (by decide)
    _ = W13 m ρ c (Proc.devRef .tc main_arg27) := W14_of_ne m ρ c main_arg27 (by decide)
    _ = W12 m ρ c (Proc.devRef .tc main_arg27) := keep_hostOps4 (W12 m ρ c) main_arg27 (by decide)
    _ = W11 m ρ c (Proc.devRef .tc main_arg27) := W12_of_ne m ρ c main_arg27 (by decide)
    _ = W10 m ρ c (Proc.devRef .tc main_arg27) := keep_hostOps3_2 (W10 m ρ c) main_arg27 (by decide)
    _ = W9 m ρ c (Proc.devRef .tc main_arg27) := keep_hostOps3_1 (W9 m ρ c) main_arg27 (by decide)
    _ = W8 m ρ c (Proc.devRef .tc main_arg27) := keep_hostOps3 (W8 m ρ c) main_arg27 (by decide)
    _ = W7 m ρ c (Proc.devRef .tc main_arg27) := W8_of_ne m ρ c main_arg27 (by decide)
    _ = W6 m ρ c (Proc.devRef .tc main_arg27) := keep_hostOps2 (W6 m ρ c) main_arg27 (by decide)
    _ = W5 m ρ c (Proc.devRef .tc main_arg27) := W6_of_ne m ρ c main_arg27 (by decide)
    _ = W4 m ρ c (Proc.devRef .tc main_arg27) := keep_hostOps1_2 (W4 m ρ c) main_arg27 (by decide)
    _ = W3 m ρ c (Proc.devRef .tc main_arg27) := keep_hostOps1_1 (W3 m ρ c) main_arg27 (by decide)
    _ = W2 m ρ c (Proc.devRef .tc main_arg27) := keep_hostOps1 (W2 m ρ c) main_arg27 (by decide)
    _ = W1 m ρ c (Proc.devRef .tc main_arg27) := W2_of_ne m ρ c main_arg27 (by decide)
    _ = W0 m ρ c (Proc.devRef .tc main_arg27) := keep_hostOps0 (W0 m ρ c) main_arg27 (by decide)
    _ = m ((c : Thread nD τ).loc main_arg27) := rfl

theorem arg28_at48 (c : Dev nD) : W48 m ρ c (Proc.devRef .tc main_arg28) = m ((c : Thread nD τ).loc main_arg28) :=
  calc W48 m ρ c (Proc.devRef .tc main_arg28)
    _ = W47 m ρ c (Proc.devRef .tc main_arg28) := W48_of_ne m ρ c main_arg28 (by decide)
    _ = W46 m ρ c (Proc.devRef .tc main_arg28) := keep_hostOps15_2 (W46 m ρ c) main_arg28 (by decide)
    _ = W45 m ρ c (Proc.devRef .tc main_arg28) := keep_hostOps15_1 (W45 m ρ c) main_arg28 (by decide)
    _ = W44 m ρ c (Proc.devRef .tc main_arg28) := keep_hostOps15 (W44 m ρ c) main_arg28 (by decide)
    _ = W43 m ρ c (Proc.devRef .tc main_arg28) := W44_of_ne m ρ c main_arg28 (by decide)
    _ = W42 m ρ c (Proc.devRef .tc main_arg28) := keep_hostOps14 (W42 m ρ c) main_arg28 (by decide)
    _ = W41 m ρ c (Proc.devRef .tc main_arg28) := W42_of_ne m ρ c main_arg28 (by decide)
    _ = W40 m ρ c (Proc.devRef .tc main_arg28) := keep_hostOps13_2 (W40 m ρ c) main_arg28 (by decide)
    _ = W39 m ρ c (Proc.devRef .tc main_arg28) := keep_hostOps13_1 (W39 m ρ c) main_arg28 (by decide)
    _ = W38 m ρ c (Proc.devRef .tc main_arg28) := keep_hostOps13 (W38 m ρ c) main_arg28 (by decide)
    _ = W37 m ρ c (Proc.devRef .tc main_arg28) := W38_of_ne m ρ c main_arg28 (by decide)
    _ = W36 m ρ c (Proc.devRef .tc main_arg28) := keep_hostOps12 (W36 m ρ c) main_arg28 (by decide)
    _ = W35 m ρ c (Proc.devRef .tc main_arg28) := W36_of_ne m ρ c main_arg28 (by decide)
    _ = W34 m ρ c (Proc.devRef .tc main_arg28) := keep_hostOps11_2 (W34 m ρ c) main_arg28 (by decide)
    _ = W33 m ρ c (Proc.devRef .tc main_arg28) := keep_hostOps11_1 (W33 m ρ c) main_arg28 (by decide)
    _ = W32 m ρ c (Proc.devRef .tc main_arg28) := keep_hostOps11 (W32 m ρ c) main_arg28 (by decide)
    _ = W31 m ρ c (Proc.devRef .tc main_arg28) := W32_of_ne m ρ c main_arg28 (by decide)
    _ = W30 m ρ c (Proc.devRef .tc main_arg28) := keep_hostOps10 (W30 m ρ c) main_arg28 (by decide)
    _ = W29 m ρ c (Proc.devRef .tc main_arg28) := W30_of_ne m ρ c main_arg28 (by decide)
    _ = W28 m ρ c (Proc.devRef .tc main_arg28) := keep_hostOps9_2 (W28 m ρ c) main_arg28 (by decide)
    _ = W27 m ρ c (Proc.devRef .tc main_arg28) := keep_hostOps9_1 (W27 m ρ c) main_arg28 (by decide)
    _ = W26 m ρ c (Proc.devRef .tc main_arg28) := keep_hostOps9 (W26 m ρ c) main_arg28 (by decide)
    _ = W25 m ρ c (Proc.devRef .tc main_arg28) := W26_of_ne m ρ c main_arg28 (by decide)
    _ = W24 m ρ c (Proc.devRef .tc main_arg28) := keep_hostOps8 (W24 m ρ c) main_arg28 (by decide)
    _ = W23 m ρ c (Proc.devRef .tc main_arg28) := W24_of_ne m ρ c main_arg28 (by decide)
    _ = W22 m ρ c (Proc.devRef .tc main_arg28) := keep_hostOps7_2 (W22 m ρ c) main_arg28 (by decide)
    _ = W21 m ρ c (Proc.devRef .tc main_arg28) := keep_hostOps7_1 (W21 m ρ c) main_arg28 (by decide)
    _ = W20 m ρ c (Proc.devRef .tc main_arg28) := keep_hostOps7 (W20 m ρ c) main_arg28 (by decide)
    _ = W19 m ρ c (Proc.devRef .tc main_arg28) := W20_of_ne m ρ c main_arg28 (by decide)
    _ = W18 m ρ c (Proc.devRef .tc main_arg28) := keep_hostOps6 (W18 m ρ c) main_arg28 (by decide)
    _ = W17 m ρ c (Proc.devRef .tc main_arg28) := W18_of_ne m ρ c main_arg28 (by decide)
    _ = W16 m ρ c (Proc.devRef .tc main_arg28) := keep_hostOps5_2 (W16 m ρ c) main_arg28 (by decide)
    _ = W15 m ρ c (Proc.devRef .tc main_arg28) := keep_hostOps5_1 (W15 m ρ c) main_arg28 (by decide)
    _ = W14 m ρ c (Proc.devRef .tc main_arg28) := keep_hostOps5 (W14 m ρ c) main_arg28 (by decide)
    _ = W13 m ρ c (Proc.devRef .tc main_arg28) := W14_of_ne m ρ c main_arg28 (by decide)
    _ = W12 m ρ c (Proc.devRef .tc main_arg28) := keep_hostOps4 (W12 m ρ c) main_arg28 (by decide)
    _ = W11 m ρ c (Proc.devRef .tc main_arg28) := W12_of_ne m ρ c main_arg28 (by decide)
    _ = W10 m ρ c (Proc.devRef .tc main_arg28) := keep_hostOps3_2 (W10 m ρ c) main_arg28 (by decide)
    _ = W9 m ρ c (Proc.devRef .tc main_arg28) := keep_hostOps3_1 (W9 m ρ c) main_arg28 (by decide)
    _ = W8 m ρ c (Proc.devRef .tc main_arg28) := keep_hostOps3 (W8 m ρ c) main_arg28 (by decide)
    _ = W7 m ρ c (Proc.devRef .tc main_arg28) := W8_of_ne m ρ c main_arg28 (by decide)
    _ = W6 m ρ c (Proc.devRef .tc main_arg28) := keep_hostOps2 (W6 m ρ c) main_arg28 (by decide)
    _ = W5 m ρ c (Proc.devRef .tc main_arg28) := W6_of_ne m ρ c main_arg28 (by decide)
    _ = W4 m ρ c (Proc.devRef .tc main_arg28) := keep_hostOps1_2 (W4 m ρ c) main_arg28 (by decide)
    _ = W3 m ρ c (Proc.devRef .tc main_arg28) := keep_hostOps1_1 (W3 m ρ c) main_arg28 (by decide)
    _ = W2 m ρ c (Proc.devRef .tc main_arg28) := keep_hostOps1 (W2 m ρ c) main_arg28 (by decide)
    _ = W1 m ρ c (Proc.devRef .tc main_arg28) := W2_of_ne m ρ c main_arg28 (by decide)
    _ = W0 m ρ c (Proc.devRef .tc main_arg28) := keep_hostOps0 (W0 m ρ c) main_arg28 (by decide)
    _ = m ((c : Thread nD τ).loc main_arg28) := rfl

theorem arg29_at48 (c : Dev nD) : W48 m ρ c (Proc.devRef .tc main_arg29) = m ((c : Thread nD τ).loc main_arg29) :=
  calc W48 m ρ c (Proc.devRef .tc main_arg29)
    _ = W47 m ρ c (Proc.devRef .tc main_arg29) := W48_of_ne m ρ c main_arg29 (by decide)
    _ = W46 m ρ c (Proc.devRef .tc main_arg29) := keep_hostOps15_2 (W46 m ρ c) main_arg29 (by decide)
    _ = W45 m ρ c (Proc.devRef .tc main_arg29) := keep_hostOps15_1 (W45 m ρ c) main_arg29 (by decide)
    _ = W44 m ρ c (Proc.devRef .tc main_arg29) := keep_hostOps15 (W44 m ρ c) main_arg29 (by decide)
    _ = W43 m ρ c (Proc.devRef .tc main_arg29) := W44_of_ne m ρ c main_arg29 (by decide)
    _ = W42 m ρ c (Proc.devRef .tc main_arg29) := keep_hostOps14 (W42 m ρ c) main_arg29 (by decide)
    _ = W41 m ρ c (Proc.devRef .tc main_arg29) := W42_of_ne m ρ c main_arg29 (by decide)
    _ = W40 m ρ c (Proc.devRef .tc main_arg29) := keep_hostOps13_2 (W40 m ρ c) main_arg29 (by decide)
    _ = W39 m ρ c (Proc.devRef .tc main_arg29) := keep_hostOps13_1 (W39 m ρ c) main_arg29 (by decide)
    _ = W38 m ρ c (Proc.devRef .tc main_arg29) := keep_hostOps13 (W38 m ρ c) main_arg29 (by decide)
    _ = W37 m ρ c (Proc.devRef .tc main_arg29) := W38_of_ne m ρ c main_arg29 (by decide)
    _ = W36 m ρ c (Proc.devRef .tc main_arg29) := keep_hostOps12 (W36 m ρ c) main_arg29 (by decide)
    _ = W35 m ρ c (Proc.devRef .tc main_arg29) := W36_of_ne m ρ c main_arg29 (by decide)
    _ = W34 m ρ c (Proc.devRef .tc main_arg29) := keep_hostOps11_2 (W34 m ρ c) main_arg29 (by decide)
    _ = W33 m ρ c (Proc.devRef .tc main_arg29) := keep_hostOps11_1 (W33 m ρ c) main_arg29 (by decide)
    _ = W32 m ρ c (Proc.devRef .tc main_arg29) := keep_hostOps11 (W32 m ρ c) main_arg29 (by decide)
    _ = W31 m ρ c (Proc.devRef .tc main_arg29) := W32_of_ne m ρ c main_arg29 (by decide)
    _ = W30 m ρ c (Proc.devRef .tc main_arg29) := keep_hostOps10 (W30 m ρ c) main_arg29 (by decide)
    _ = W29 m ρ c (Proc.devRef .tc main_arg29) := W30_of_ne m ρ c main_arg29 (by decide)
    _ = W28 m ρ c (Proc.devRef .tc main_arg29) := keep_hostOps9_2 (W28 m ρ c) main_arg29 (by decide)
    _ = W27 m ρ c (Proc.devRef .tc main_arg29) := keep_hostOps9_1 (W27 m ρ c) main_arg29 (by decide)
    _ = W26 m ρ c (Proc.devRef .tc main_arg29) := keep_hostOps9 (W26 m ρ c) main_arg29 (by decide)
    _ = W25 m ρ c (Proc.devRef .tc main_arg29) := W26_of_ne m ρ c main_arg29 (by decide)
    _ = W24 m ρ c (Proc.devRef .tc main_arg29) := keep_hostOps8 (W24 m ρ c) main_arg29 (by decide)
    _ = W23 m ρ c (Proc.devRef .tc main_arg29) := W24_of_ne m ρ c main_arg29 (by decide)
    _ = W22 m ρ c (Proc.devRef .tc main_arg29) := keep_hostOps7_2 (W22 m ρ c) main_arg29 (by decide)
    _ = W21 m ρ c (Proc.devRef .tc main_arg29) := keep_hostOps7_1 (W21 m ρ c) main_arg29 (by decide)
    _ = W20 m ρ c (Proc.devRef .tc main_arg29) := keep_hostOps7 (W20 m ρ c) main_arg29 (by decide)
    _ = W19 m ρ c (Proc.devRef .tc main_arg29) := W20_of_ne m ρ c main_arg29 (by decide)
    _ = W18 m ρ c (Proc.devRef .tc main_arg29) := keep_hostOps6 (W18 m ρ c) main_arg29 (by decide)
    _ = W17 m ρ c (Proc.devRef .tc main_arg29) := W18_of_ne m ρ c main_arg29 (by decide)
    _ = W16 m ρ c (Proc.devRef .tc main_arg29) := keep_hostOps5_2 (W16 m ρ c) main_arg29 (by decide)
    _ = W15 m ρ c (Proc.devRef .tc main_arg29) := keep_hostOps5_1 (W15 m ρ c) main_arg29 (by decide)
    _ = W14 m ρ c (Proc.devRef .tc main_arg29) := keep_hostOps5 (W14 m ρ c) main_arg29 (by decide)
    _ = W13 m ρ c (Proc.devRef .tc main_arg29) := W14_of_ne m ρ c main_arg29 (by decide)
    _ = W12 m ρ c (Proc.devRef .tc main_arg29) := keep_hostOps4 (W12 m ρ c) main_arg29 (by decide)
    _ = W11 m ρ c (Proc.devRef .tc main_arg29) := W12_of_ne m ρ c main_arg29 (by decide)
    _ = W10 m ρ c (Proc.devRef .tc main_arg29) := keep_hostOps3_2 (W10 m ρ c) main_arg29 (by decide)
    _ = W9 m ρ c (Proc.devRef .tc main_arg29) := keep_hostOps3_1 (W9 m ρ c) main_arg29 (by decide)
    _ = W8 m ρ c (Proc.devRef .tc main_arg29) := keep_hostOps3 (W8 m ρ c) main_arg29 (by decide)
    _ = W7 m ρ c (Proc.devRef .tc main_arg29) := W8_of_ne m ρ c main_arg29 (by decide)
    _ = W6 m ρ c (Proc.devRef .tc main_arg29) := keep_hostOps2 (W6 m ρ c) main_arg29 (by decide)
    _ = W5 m ρ c (Proc.devRef .tc main_arg29) := W6_of_ne m ρ c main_arg29 (by decide)
    _ = W4 m ρ c (Proc.devRef .tc main_arg29) := keep_hostOps1_2 (W4 m ρ c) main_arg29 (by decide)
    _ = W3 m ρ c (Proc.devRef .tc main_arg29) := keep_hostOps1_1 (W3 m ρ c) main_arg29 (by decide)
    _ = W2 m ρ c (Proc.devRef .tc main_arg29) := keep_hostOps1 (W2 m ρ c) main_arg29 (by decide)
    _ = W1 m ρ c (Proc.devRef .tc main_arg29) := W2_of_ne m ρ c main_arg29 (by decide)
    _ = W0 m ρ c (Proc.devRef .tc main_arg29) := keep_hostOps0 (W0 m ρ c) main_arg29 (by decide)
    _ = m ((c : Thread nD τ).loc main_arg29) := rfl

/-! ## The argument arrays at boundary 50: as launched -/

theorem arg26_at50 (c : Dev nD) : W50 m ρ c (Proc.devRef .tc main_arg26) = m ((c : Thread nD τ).loc main_arg26) :=
  calc W50 m ρ c (Proc.devRef .tc main_arg26)
    _ = W49 m ρ c (Proc.devRef .tc main_arg26) := (W50_arr m ρ c 1).trans (((dat16 (V49 m ρ) c).arrAt_in 1 rfl _).trans (A_eq16 (V49 m ρ) c 1))
    _ = W48 m ρ c (Proc.devRef .tc main_arg26) := keep_hostOps16 (W48 m ρ c) main_arg26 (by decide)
    _ = m ((c : Thread nD τ).loc main_arg26) := arg26_at48 m ρ c

theorem arg27_at50 (c : Dev nD) : W50 m ρ c (Proc.devRef .tc main_arg27) = m ((c : Thread nD τ).loc main_arg27) :=
  calc W50 m ρ c (Proc.devRef .tc main_arg27)
    _ = W49 m ρ c (Proc.devRef .tc main_arg27) := W50_of_ne m ρ c main_arg27 (by decide)
    _ = W48 m ρ c (Proc.devRef .tc main_arg27) := keep_hostOps16 (W48 m ρ c) main_arg27 (by decide)
    _ = m ((c : Thread nD τ).loc main_arg27) := arg27_at48 m ρ c

theorem arg28_at50 (c : Dev nD) : W50 m ρ c (Proc.devRef .tc main_arg28) = m ((c : Thread nD τ).loc main_arg28) :=
  calc W50 m ρ c (Proc.devRef .tc main_arg28)
    _ = W49 m ρ c (Proc.devRef .tc main_arg28) := (W50_arr m ρ c 4).trans (((dat16 (V49 m ρ) c).arrAt_in 4 rfl _).trans (A_eq16 (V49 m ρ) c 4))
    _ = W48 m ρ c (Proc.devRef .tc main_arg28) := keep_hostOps16 (W48 m ρ c) main_arg28 (by decide)
    _ = m ((c : Thread nD τ).loc main_arg28) := arg28_at48 m ρ c

theorem arg29_at50 (c : Dev nD) : W50 m ρ c (Proc.devRef .tc main_arg29) = m ((c : Thread nD τ).loc main_arg29) :=
  calc W50 m ρ c (Proc.devRef .tc main_arg29)
    _ = W49 m ρ c (Proc.devRef .tc main_arg29) := W50_of_ne m ρ c main_arg29 (by decide)
    _ = W48 m ρ c (Proc.devRef .tc main_arg29) := keep_hostOps16 (W48 m ρ c) main_arg29 (by decide)
    _ = m ((c : Thread nD τ).loc main_arg29) := arg29_at48 m ρ c

/-! ## A layer's result where a later region reads it: as its region left it -/

theorem v79_at48 (c : Dev nD) : W48 m ρ c (Proc.devRef .tc main_v79) = W12 m ρ c (Proc.devRef .tc main_v79) :=
  calc W48 m ρ c (Proc.devRef .tc main_v79)
    _ = W47 m ρ c (Proc.devRef .tc main_v79) := W48_of_ne m ρ c main_v79 (by decide)
    _ = W46 m ρ c (Proc.devRef .tc main_v79) := keep_hostOps15_2 (W46 m ρ c) main_v79 (by decide)
    _ = W45 m ρ c (Proc.devRef .tc main_v79) := keep_hostOps15_1 (W45 m ρ c) main_v79 (by decide)
    _ = W44 m ρ c (Proc.devRef .tc main_v79) := keep_hostOps15 (W44 m ρ c) main_v79 (by decide)
    _ = W43 m ρ c (Proc.devRef .tc main_v79) := W44_of_ne m ρ c main_v79 (by decide)
    _ = W42 m ρ c (Proc.devRef .tc main_v79) := keep_hostOps14 (W42 m ρ c) main_v79 (by decide)
    _ = W41 m ρ c (Proc.devRef .tc main_v79) := W42_of_ne m ρ c main_v79 (by decide)
    _ = W40 m ρ c (Proc.devRef .tc main_v79) := keep_hostOps13_2 (W40 m ρ c) main_v79 (by decide)
    _ = W39 m ρ c (Proc.devRef .tc main_v79) := keep_hostOps13_1 (W39 m ρ c) main_v79 (by decide)
    _ = W38 m ρ c (Proc.devRef .tc main_v79) := keep_hostOps13 (W38 m ρ c) main_v79 (by decide)
    _ = W37 m ρ c (Proc.devRef .tc main_v79) := W38_of_ne m ρ c main_v79 (by decide)
    _ = W36 m ρ c (Proc.devRef .tc main_v79) := keep_hostOps12 (W36 m ρ c) main_v79 (by decide)
    _ = W35 m ρ c (Proc.devRef .tc main_v79) := W36_of_ne m ρ c main_v79 (by decide)
    _ = W34 m ρ c (Proc.devRef .tc main_v79) := keep_hostOps11_2 (W34 m ρ c) main_v79 (by decide)
    _ = W33 m ρ c (Proc.devRef .tc main_v79) := keep_hostOps11_1 (W33 m ρ c) main_v79 (by decide)
    _ = W32 m ρ c (Proc.devRef .tc main_v79) := keep_hostOps11 (W32 m ρ c) main_v79 (by decide)
    _ = W31 m ρ c (Proc.devRef .tc main_v79) := W32_of_ne m ρ c main_v79 (by decide)
    _ = W30 m ρ c (Proc.devRef .tc main_v79) := keep_hostOps10 (W30 m ρ c) main_v79 (by decide)
    _ = W29 m ρ c (Proc.devRef .tc main_v79) := W30_of_ne m ρ c main_v79 (by decide)
    _ = W28 m ρ c (Proc.devRef .tc main_v79) := keep_hostOps9_2 (W28 m ρ c) main_v79 (by decide)
    _ = W27 m ρ c (Proc.devRef .tc main_v79) := keep_hostOps9_1 (W27 m ρ c) main_v79 (by decide)
    _ = W26 m ρ c (Proc.devRef .tc main_v79) := keep_hostOps9 (W26 m ρ c) main_v79 (by decide)
    _ = W25 m ρ c (Proc.devRef .tc main_v79) := W26_of_ne m ρ c main_v79 (by decide)
    _ = W24 m ρ c (Proc.devRef .tc main_v79) := keep_hostOps8 (W24 m ρ c) main_v79 (by decide)
    _ = W23 m ρ c (Proc.devRef .tc main_v79) := W24_of_ne m ρ c main_v79 (by decide)
    _ = W22 m ρ c (Proc.devRef .tc main_v79) := keep_hostOps7_2 (W22 m ρ c) main_v79 (by decide)
    _ = W21 m ρ c (Proc.devRef .tc main_v79) := keep_hostOps7_1 (W21 m ρ c) main_v79 (by decide)
    _ = W20 m ρ c (Proc.devRef .tc main_v79) := keep_hostOps7 (W20 m ρ c) main_v79 (by decide)
    _ = W19 m ρ c (Proc.devRef .tc main_v79) := W20_of_ne m ρ c main_v79 (by decide)
    _ = W18 m ρ c (Proc.devRef .tc main_v79) := keep_hostOps6 (W18 m ρ c) main_v79 (by decide)
    _ = W17 m ρ c (Proc.devRef .tc main_v79) := W18_of_ne m ρ c main_v79 (by decide)
    _ = W16 m ρ c (Proc.devRef .tc main_v79) := keep_hostOps5_2 (W16 m ρ c) main_v79 (by decide)
    _ = W15 m ρ c (Proc.devRef .tc main_v79) := keep_hostOps5_1 (W15 m ρ c) main_v79 (by decide)
    _ = W14 m ρ c (Proc.devRef .tc main_v79) := keep_hostOps5 (W14 m ρ c) main_v79 (by decide)
    _ = W13 m ρ c (Proc.devRef .tc main_v79) := W14_of_ne m ρ c main_v79 (by decide)
    _ = W12 m ρ c (Proc.devRef .tc main_v79) := keep_hostOps4 (W12 m ρ c) main_v79 (by decide)

theorem v159_at48 (c : Dev nD) : W48 m ρ c (Proc.devRef .tc main_v159) = W24 m ρ c (Proc.devRef .tc main_v159) :=
  calc W48 m ρ c (Proc.devRef .tc main_v159)
    _ = W47 m ρ c (Proc.devRef .tc main_v159) := W48_of_ne m ρ c main_v159 (by decide)
    _ = W46 m ρ c (Proc.devRef .tc main_v159) := keep_hostOps15_2 (W46 m ρ c) main_v159 (by decide)
    _ = W45 m ρ c (Proc.devRef .tc main_v159) := keep_hostOps15_1 (W45 m ρ c) main_v159 (by decide)
    _ = W44 m ρ c (Proc.devRef .tc main_v159) := keep_hostOps15 (W44 m ρ c) main_v159 (by decide)
    _ = W43 m ρ c (Proc.devRef .tc main_v159) := W44_of_ne m ρ c main_v159 (by decide)
    _ = W42 m ρ c (Proc.devRef .tc main_v159) := keep_hostOps14 (W42 m ρ c) main_v159 (by decide)
    _ = W41 m ρ c (Proc.devRef .tc main_v159) := W42_of_ne m ρ c main_v159 (by decide)
    _ = W40 m ρ c (Proc.devRef .tc main_v159) := keep_hostOps13_2 (W40 m ρ c) main_v159 (by decide)
    _ = W39 m ρ c (Proc.devRef .tc main_v159) := keep_hostOps13_1 (W39 m ρ c) main_v159 (by decide)
    _ = W38 m ρ c (Proc.devRef .tc main_v159) := keep_hostOps13 (W38 m ρ c) main_v159 (by decide)
    _ = W37 m ρ c (Proc.devRef .tc main_v159) := W38_of_ne m ρ c main_v159 (by decide)
    _ = W36 m ρ c (Proc.devRef .tc main_v159) := keep_hostOps12 (W36 m ρ c) main_v159 (by decide)
    _ = W35 m ρ c (Proc.devRef .tc main_v159) := W36_of_ne m ρ c main_v159 (by decide)
    _ = W34 m ρ c (Proc.devRef .tc main_v159) := keep_hostOps11_2 (W34 m ρ c) main_v159 (by decide)
    _ = W33 m ρ c (Proc.devRef .tc main_v159) := keep_hostOps11_1 (W33 m ρ c) main_v159 (by decide)
    _ = W32 m ρ c (Proc.devRef .tc main_v159) := keep_hostOps11 (W32 m ρ c) main_v159 (by decide)
    _ = W31 m ρ c (Proc.devRef .tc main_v159) := W32_of_ne m ρ c main_v159 (by decide)
    _ = W30 m ρ c (Proc.devRef .tc main_v159) := keep_hostOps10 (W30 m ρ c) main_v159 (by decide)
    _ = W29 m ρ c (Proc.devRef .tc main_v159) := W30_of_ne m ρ c main_v159 (by decide)
    _ = W28 m ρ c (Proc.devRef .tc main_v159) := keep_hostOps9_2 (W28 m ρ c) main_v159 (by decide)
    _ = W27 m ρ c (Proc.devRef .tc main_v159) := keep_hostOps9_1 (W27 m ρ c) main_v159 (by decide)
    _ = W26 m ρ c (Proc.devRef .tc main_v159) := keep_hostOps9 (W26 m ρ c) main_v159 (by decide)
    _ = W25 m ρ c (Proc.devRef .tc main_v159) := W26_of_ne m ρ c main_v159 (by decide)
    _ = W24 m ρ c (Proc.devRef .tc main_v159) := keep_hostOps8 (W24 m ρ c) main_v159 (by decide)

theorem v239_at50 (c : Dev nD) : W50 m ρ c (Proc.devRef .tc main_v239) = W36 m ρ c (Proc.devRef .tc main_v239) :=
  calc W50 m ρ c (Proc.devRef .tc main_v239)
    _ = W49 m ρ c (Proc.devRef .tc main_v239) := W50_of_ne m ρ c main_v239 (by decide)
    _ = W48 m ρ c (Proc.devRef .tc main_v239) := keep_hostOps16 (W48 m ρ c) main_v239 (by decide)
    _ = W47 m ρ c (Proc.devRef .tc main_v239) := W48_of_ne m ρ c main_v239 (by decide)
    _ = W46 m ρ c (Proc.devRef .tc main_v239) := keep_hostOps15_2 (W46 m ρ c) main_v239 (by decide)
    _ = W45 m ρ c (Proc.devRef .tc main_v239) := keep_hostOps15_1 (W45 m ρ c) main_v239 (by decide)
    _ = W44 m ρ c (Proc.devRef .tc main_v239) := keep_hostOps15 (W44 m ρ c) main_v239 (by decide)
    _ = W43 m ρ c (Proc.devRef .tc main_v239) := W44_of_ne m ρ c main_v239 (by decide)
    _ = W42 m ρ c (Proc.devRef .tc main_v239) := keep_hostOps14 (W42 m ρ c) main_v239 (by decide)
    _ = W41 m ρ c (Proc.devRef .tc main_v239) := W42_of_ne m ρ c main_v239 (by decide)
    _ = W40 m ρ c (Proc.devRef .tc main_v239) := keep_hostOps13_2 (W40 m ρ c) main_v239 (by decide)
    _ = W39 m ρ c (Proc.devRef .tc main_v239) := keep_hostOps13_1 (W39 m ρ c) main_v239 (by decide)
    _ = W38 m ρ c (Proc.devRef .tc main_v239) := keep_hostOps13 (W38 m ρ c) main_v239 (by decide)
    _ = W37 m ρ c (Proc.devRef .tc main_v239) := W38_of_ne m ρ c main_v239 (by decide)
    _ = W36 m ρ c (Proc.devRef .tc main_v239) := keep_hostOps12 (W36 m ρ c) main_v239 (by decide)

theorem v319_at50 (c : Dev nD) : W50 m ρ c (Proc.devRef .tc main_v319) = W48 m ρ c (Proc.devRef .tc main_v319) :=
  calc W50 m ρ c (Proc.devRef .tc main_v319)
    _ = W49 m ρ c (Proc.devRef .tc main_v319) := W50_of_ne m ρ c main_v319 (by decide)
    _ = W48 m ρ c (Proc.devRef .tc main_v319) := keep_hostOps16 (W48 m ρ c) main_v319 (by decide)

theorem v322_at52 (c : Dev nD) : W52 m ρ c (Proc.devRef .tc main_v322) = W50 m ρ c (Proc.devRef .tc main_v322) :=
  calc W52 m ρ c (Proc.devRef .tc main_v322)
    _ = W51 m ρ c (Proc.devRef .tc main_v322) := W52_of_ne m ρ c main_v322 (by decide)
    _ = W50 m ρ c (Proc.devRef .tc main_v322) := keep_hostOps17 (W50 m ρ c) main_v322 (by decide)

theorem v322_at53 (c : Dev nD) : W53 m ρ c (Proc.devRef .tc main_v322) = W50 m ρ c (Proc.devRef .tc main_v322) :=
  calc W53 m ρ c (Proc.devRef .tc main_v322)
    _ = W52 m ρ c (Proc.devRef .tc main_v322) := (W53_arr m ρ c 0).trans (((dat18 (V52 m ρ) c).arrAt_in 0 rfl _).trans (A_eq18 (V52 m ρ) c 0))
    _ = W50 m ρ c (Proc.devRef .tc main_v322) := v322_at52 m ρ c

theorem v325_at53 (c : Dev nD) : W53 m ρ c (Proc.devRef .tc main_v325) = W52 m ρ c (Proc.devRef .tc main_v325) :=
  calc W53 m ρ c (Proc.devRef .tc main_v325)
    _ = W52 m ρ c (Proc.devRef .tc main_v325) := (W53_arr m ρ c 1).trans (((dat18 (V52 m ρ) c).arrAt_in 1 rfl _).trans (A_eq18 (V52 m ρ) c 1))
end Cert.KernelIdeal.Carry
-- ==== Proof.FinalK.lean ====
/-
  The kernel's three results as the composite functions of its argument arrays: each layer's boundary lemma composed
  along the program — an argument array is never written, so every boundary holds it as launched, and a layer's output
  array is held unchanged until the region that reads it —, then the two gate regions and the similarity region.
-/
import proofs.«406409_j38250978738663_3_alg».proof.Proof.FrameKI
import proofs.«406409_j38250978738663_3_alg».proof.Proof.Spec
import proofs.«406409_j38250978738663_3_alg».proof.Proof.LayerK0
import proofs.«406409_j38250978738663_3_alg».proof.Proof.LayerK1
import proofs.«406409_j38250978738663_3_alg».proof.Proof.LayerK2
import proofs.«406409_j38250978738663_3_alg».proof.Proof.LayerK3
import proofs.«406409_j38250978738663_3_alg».proof.Proof.LayerK4
import proofs.«406409_j38250978738663_3_alg».proof.Proof.LayerK5
import proofs.«406409_j38250978738663_3_alg».proof.Proof.LayerK6
import proofs.«406409_j38250978738663_3_alg».proof.Proof.LayerK7
import proofs.«406409_j38250978738663_3_alg».proof.Proof.RegionGate16
import proofs.«406409_j38250978738663_3_alg».proof.Proof.RegionGate17
import proofs.«406409_j38250978738663_3_alg».proof.Proof.RegionSim18
import proofs.«406409_j38250978738663_3_alg».proof.Proof.Carry
import Idealize.ShloMosaic.Lib.StableHlo.Run

set_option maxRecDepth 16384

noncomputable section

namespace Cert.KernelIdeal.FinalValue

open Cert.KernelIdeal Cert.KernelIdeal.Gen Cert.KernelIdeal.GenP Idealize.ShloMosaic Idealize.ShloMosaic.TcCoe Idealize.ShloMosaic.StableHlo Cert.Spec
open Cert.KernelIdeal.LayerValue Cert.KernelIdeal.Carry

variable (m : (ℓ : Loc nD τ sig) → Buf (Elt Ideal) ℓ) (ρ : Dev nD → PrngReg) (c : Dev nD)

/-! ## The eight layers, each over the launch contents -/

/-- Layer 0: the first layer of its branch, over the launch contents. -/
theorem out0 : W6 (F := Ideal) m ρ c (Proc.devRef .tc main_v39)
    = layerKMI (xwMI (m ((c : Thread nD τ).loc main_arg0)) (m ((c : Thread nD τ).loc main_arg10))) (m ((c : Thread nD τ).loc main_arg11)) (m ((c : Thread nD τ).loc main_arg2)) (m ((c : Thread nD τ).loc main_arg3)) := by
  rw [layer0 m ρ c]

/-- Layer 1: the second layer of its branch, over the first one's output. -/
theorem out1 : W12 (F := Ideal) m ρ c (Proc.devRef .tc main_v79)
    = twoKMI (m ((c : Thread nD τ).loc main_arg0)) (m ((c : Thread nD τ).loc main_arg10)) (m ((c : Thread nD τ).loc main_arg11)) (m ((c : Thread nD τ).loc main_arg12)) (m ((c : Thread nD τ).loc main_arg13)) (m ((c : Thread nD τ).loc main_arg2)) (m ((c : Thread nD τ).loc main_arg3)) := by
  rw [layer1 m ρ c, out0 m ρ c, arg12_at6 m ρ c, arg13_at6 m ρ c, arg2_at6 m ρ c, arg3_at6 m ρ c]
  rfl

/-- Layer 2: the first layer of its branch, over the launch contents. -/
theorem out2 : W18 (F := Ideal) m ρ c (Proc.devRef .tc main_v119)
    = layerKMI (xwMI (m ((c : Thread nD τ).loc main_arg0)) (m ((c : Thread nD τ).loc main_arg14))) (m ((c : Thread nD τ).loc main_arg15)) (m ((c : Thread nD τ).loc main_arg4)) (m ((c : Thread nD τ).loc main_arg5)) := by
  rw [layer2 m ρ c, arg0_at12 m ρ c, arg14_at12 m ρ c, arg15_at12 m ρ c, arg4_at12 m ρ c, arg5_at12 m ρ c]

/-- Layer 3: the second layer of its branch, over the first one's output. -/
theorem out3 : W24 (F := Ideal) m ρ c (Proc.devRef .tc main_v159)
    = twoKMI (m ((c : Thread nD τ).loc main_arg0)) (m ((c : Thread nD τ).loc main_arg14)) (m ((c : Thread nD τ).loc main_arg15)) (m ((c : Thread nD τ).loc main_arg16)) (m ((c : Thread nD τ).loc main_arg17)) (m ((c : Thread nD τ).loc main_arg4)) (m ((c : Thread nD τ).loc main_arg5)) := by
  rw [layer3 m ρ c, out2 m ρ c, arg16_at18 m ρ c, arg17_at18 m ρ c, arg4_at18 m ρ c, arg5_at18 m ρ c]
  rfl

/-- Layer 4: the first layer of its branch, over the launch contents. -/
theorem out4 : W30 (F := Ideal) m ρ c (Proc.devRef .tc main_v199)
    = layerKDIS (xwDIS (m ((c : Thread nD τ).loc main_arg1)) (m ((c : Thread nD τ).loc main_arg18))) (m ((c : Thread nD τ).loc main_arg19)) (m ((c : Thread nD τ).loc main_arg6)) (m ((c : Thread nD τ).loc main_arg7)) := by
  rw [layer4 m ρ c, arg1_at24 m ρ c, arg18_at24 m ρ c, arg19_at24 m ρ c, arg6_at24 m ρ c, arg7_at24 m ρ c]

/-- Layer 5: the second layer of its branch, over the first one's output. -/
theorem out5 : W36 (F := Ideal) m ρ c (Proc.devRef .tc main_v239)
    = twoKDIS (m ((c : Thread nD τ).loc main_arg1)) (m ((c : Thread nD τ).loc main_arg18)) (m ((c : Thread nD τ).loc main_arg19)) (m ((c : Thread nD τ).loc main_arg20)) (m ((c : Thread nD τ).loc main_arg21)) (m ((c : Thread nD τ).loc main_arg6)) (m ((c : Thread nD τ).loc main_arg7)) := by
  rw [layer5 m ρ c, out4 m ρ c, arg20_at30 m ρ c, arg21_at30 m ρ c, arg6_at30 m ρ c, arg7_at30 m ρ c]
  rfl

/-- Layer 6: the first layer of its branch, over the launch contents. -/
theorem out6 : W42 (F := Ideal) m ρ c (Proc.devRef .tc main_v279)
    = layerKDIS (xwDIS (m ((c : Thread nD τ).loc main_arg1)) (m ((c : Thread nD τ).loc main_arg22))) (m ((c : Thread nD τ).loc main_arg23)) (m ((c : Thread nD τ).loc main_arg8)) (m ((c : Thread nD τ).loc main_arg9)) := by
  rw [layer6 m ρ c, arg1_at36 m ρ c, arg22_at36 m ρ c, arg23_at36 m ρ c, arg8_at36 m ρ c, arg9_at36 m ρ c]

/-- Layer 7: the second layer of its branch, over the first one's output. -/
theorem out7 : W48 (F := Ideal) m ρ c (Proc.devRef .tc main_v319)
    = twoKDIS (m ((c : Thread nD τ).loc main_arg1)) (m ((c : Thread nD τ).loc main_arg22)) (m ((c : Thread nD τ).loc main_arg23)) (m ((c : Thread nD τ).loc main_arg24)) (m ((c : Thread nD τ).loc main_arg25)) (m ((c : Thread nD τ).loc main_arg8)) (m ((c : Thread nD τ).loc main_arg9)) := by
  rw [layer7 m ρ c, out6 m ρ c, arg24_at42 m ρ c, arg25_at42 m ρ c, arg8_at42 m ρ c, arg9_at42 m ρ c]
  rfl

/-! ## The gate regions: at a gate's entry the two branches' outputs are as their layers left them, the head weights as
    launched, and the two bias rows reshaped by the stretch before it -/

theorem gate16_in_f : V49 (F := Ideal) m ρ c main_v79 = W12 m ρ c (Proc.devRef .tc main_v79) := by
  show StableHlo.after hostOps16 (W48 m ρ c) (Proc.devRef .tc main_v79) = _
  after_results_simp
  exact v79_at48 m ρ c
theorem gate16_in_g : V49 (F := Ideal) m ρ c main_v159 = W24 m ρ c (Proc.devRef .tc main_v159) := by
  show StableHlo.after hostOps16 (W48 m ρ c) (Proc.devRef .tc main_v159) = _
  after_results_simp
  exact v159_at48 m ρ c
theorem gate16_in_Wf : V49 (F := Ideal) m ρ c main_arg26 = (m ((c : Thread nD τ).loc main_arg26)) := by
  show StableHlo.after hostOps16 (W48 m ρ c) (Proc.devRef .tc main_arg26) = _
  after_results_simp
  exact arg26_at48 m ρ c
theorem gate16_in_Wg : V49 (F := Ideal) m ρ c main_arg28 = (m ((c : Thread nD τ).loc main_arg28)) := by
  show StableHlo.after hostOps16 (W48 m ρ c) (Proc.devRef .tc main_arg28) = _
  after_results_simp
  exact arg28_at48 m ρ c
theorem gate16_in_bf : V49 (F := Ideal) m ρ c main_v320 = rowK (m ((c : Thread nD τ).loc main_arg27)) := by
  show StableHlo.after hostOps16 (W48 m ρ c) (Proc.devRef .tc main_v320) = _
  after_results_simp
  rw [arg27_at48 m ρ c]
  rfl
theorem gate16_in_bg : V49 (F := Ideal) m ρ c main_v321 = rowK (m ((c : Thread nD τ).loc main_arg29)) := by
  show StableHlo.after hostOps16 (W48 m ρ c) (Proc.devRef .tc main_v321) = _
  after_results_simp
  rw [arg29_at48 m ρ c]
  rfl

/-- Gate region 16's array: the gated heads over the 12000-node branches. -/
theorem miFea_val : W50 (F := Ideal) m ρ c (Proc.devRef .tc main_v322)
    = miFeaK (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg26)) (m ((c : Thread nD τ).loc main_arg27)) (m ((c : Thread nD τ).loc main_arg28)) (m ((c : Thread nD τ).loc main_arg29)) := by
  refine (W50_arr m ρ c 6).trans ?_
  rw [RegionValue.gate16 (V49 m ρ) c, gate16_in_f, gate16_in_g, gate16_in_Wf, gate16_in_Wg, gate16_in_bf, gate16_in_bg,
    out1 m ρ c, out3 m ρ c]
  rfl

theorem gate17_in_f : V51 (F := Ideal) m ρ c main_v239 = W36 m ρ c (Proc.devRef .tc main_v239) := by
  show StableHlo.after hostOps17 (W50 m ρ c) (Proc.devRef .tc main_v239) = _
  after_results_simp
  exact v239_at50 m ρ c
theorem gate17_in_g : V51 (F := Ideal) m ρ c main_v319 = W48 m ρ c (Proc.devRef .tc main_v319) := by
  show StableHlo.after hostOps17 (W50 m ρ c) (Proc.devRef .tc main_v319) = _
  after_results_simp
  exact v319_at50 m ρ c
theorem gate17_in_Wf : V51 (F := Ideal) m ρ c main_arg26 = (m ((c : Thread nD τ).loc main_arg26)) := by
  show StableHlo.after hostOps17 (W50 m ρ c) (Proc.devRef .tc main_arg26) = _
  after_results_simp
  exact arg26_at50 m ρ c
theorem gate17_in_Wg : V51 (F := Ideal) m ρ c main_arg28 = (m ((c : Thread nD τ).loc main_arg28)) := by
  show StableHlo.after hostOps17 (W50 m ρ c) (Proc.devRef .tc main_arg28) = _
  after_results_simp
  exact arg28_at50 m ρ c
theorem gate17_in_bf : V51 (F := Ideal) m ρ c main_v323 = rowK (m ((c : Thread nD τ).loc main_arg27)) := by
  show StableHlo.after hostOps17 (W50 m ρ c) (Proc.devRef .tc main_v323) = _
  after_results_simp
  rw [arg27_at50 m ρ c]
  rfl
theorem gate17_in_bg : V51 (F := Ideal) m ρ c main_v324 = rowK (m ((c : Thread nD τ).loc main_arg29)) := by
  show StableHlo.after hostOps17 (W50 m ρ c) (Proc.devRef .tc main_v324) = _
  after_results_simp
  rw [arg29_at50 m ρ c]
  rfl

/-- Gate region 17's array: the gated heads over the 6000-node branches. -/
theorem disFea_val : W52 (F := Ideal) m ρ c (Proc.devRef .tc main_v325)
    = disFeaK (m ((c : Thread nD τ).loc main_arg1)) (m ((c : Thread nD τ).loc main_arg6)) (m ((c : Thread nD τ).loc main_arg7)) (m ((c : Thread nD τ).loc main_arg8)) (m ((c : Thread nD τ).loc main_arg9)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) := by
  refine (W52_arr m ρ c 6).trans ?_
  rw [RegionValue.gate17 (V51 m ρ) c, gate17_in_f, gate17_in_g, gate17_in_Wf, gate17_in_Wg, gate17_in_bf, gate17_in_bg,
    out5 m ρ c, out7 m ρ c]
  rfl

/-! ## The three results at the last boundary -/

/-- The second result: the first gate's array, held through the last two regions. -/
theorem res_miFea : W53 (F := Ideal) m ρ c (Proc.devRef .tc main_v322)
    = miFeaK (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg26)) (m ((c : Thread nD τ).loc main_arg27)) (m ((c : Thread nD τ).loc main_arg28)) (m ((c : Thread nD τ).loc main_arg29)) :=
  (v322_at53 m ρ c).trans (miFea_val m ρ c)
/-- The third result: the second gate's array, held through the last region. -/
theorem res_disFea : W53 (F := Ideal) m ρ c (Proc.devRef .tc main_v325)
    = disFeaK (m ((c : Thread nD τ).loc main_arg1)) (m ((c : Thread nD τ).loc main_arg6)) (m ((c : Thread nD τ).loc main_arg7)) (m ((c : Thread nD τ).loc main_arg8)) (m ((c : Thread nD τ).loc main_arg9)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) :=
  (v325_at53 m ρ c).trans (disFea_val m ρ c)
/-- The first result: the similarity region's array. -/
theorem res_sim : W53 (F := Ideal) m ρ c (Proc.devRef .tc main_v326)
    = sim (miFeaK (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg26)) (m ((c : Thread nD τ).loc main_arg27)) (m ((c : Thread nD τ).loc main_arg28)) (m ((c : Thread nD τ).loc main_arg29)))
        (disFeaK (m ((c : Thread nD τ).loc main_arg1)) (m ((c : Thread nD τ).loc main_arg6)) (m ((c : Thread nD τ).loc main_arg7)) (m ((c : Thread nD τ).loc main_arg8)) (m ((c : Thread nD τ).loc main_arg9)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29))) := by
  refine (W53_arr m ρ c 2).trans ?_
  rw [RegionValue.sim18 (V52 m ρ) c]
  show sim (W52 m ρ c (Proc.devRef .tc main_v322)) (W52 m ρ c (Proc.devRef .tc main_v325)) = _
  rw [v322_at52 m ρ c, miFea_val m ρ c, disFea_val m ρ c]

end Cert.KernelIdeal.FinalValue

end
-- ==== Proof.RefOps.lean ====
/-
  The reference's @main as nine stretches of host operations, in program order: stretch `Lk` (k = 0 … 7) is the k-th
  graph-convolution layer (its 60 operations, the relu call's three included) and `L8` the last 26 (the linear heads, the
  two gates, the transpose and the similarity product). Beside each stretch: every operation touches TensorCore
  references only, and none allocates a buffer.
-/
import proofs.«406409_j38250978738663_3_alg».proof.Proof.Gen.ReferenceIdeal
import Idealize.ShloMosaic.Lib.StableHlo.Run

set_option maxRecDepth 8192

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 60 of @main. -/
abbrev L0 : List (HloOp τ sig (Elt F)) :=
  [ unary main_arg2 main_v0 ((extractStridedSlice S1x384000 ![0, 0] · slices_S2x384000_S1x384000_0_0) : (⟨S2x384000, .i32⟩ : BufTy).Contents (Elt F) → (⟨S1x384000, .i32⟩ : BufTy).Contents (Elt F)),
    reshape main_v0 main_v1 rfl shapeCasts_S1x384000_S384000,
    unary main_arg2 main_v2 ((extractStridedSlice S1x384000 ![1, 0] · slices_S2x384000_S1x384000_1_0) : (⟨S2x384000, .i32⟩ : BufTy).Contents (Elt F) → (⟨S1x384000, .i32⟩ : BufTy).Contents (Elt F)),
    reshape main_v2 main_v3 rfl shapeCasts_S1x384000_S384000,
    binary main_arg0 main_arg10 main_v4 ((fun l r => Host.dotGeneral dot_S12000x128_S128x128_S12000x128_1_0_0_1_n_n none l r) : (⟨S12000x128, .f32⟩ : BufTy).Contents (Elt F) → (⟨S128x128, .f32⟩ : BufTy).Contents (Elt F) → (⟨S12000x128, .f32⟩ : BufTy).Contents (Elt F)),
    nullary main_cst (constant S_ .f32 0x00000000#32),
    unary main_cst main_v5 (broadcastInDim S12000 ![] bcast_S_S12000 : (⟨S_, .f32⟩ : BufTy).Contents (Elt F) → (⟨S12000, .f32⟩ : BufTy).Contents (Elt F)),
    unary main_v3 main_v6 (broadcastInDim S384000x1 ![0] bcast_S384000_S384000x1_0 : (⟨S384000, .i32⟩ : BufTy).Contents (Elt F) → (⟨S384000x1, .i32⟩ : BufTy).Contents (Elt F)),
    ternary main_v5 main_v6 main_arg3 main_v7 ((fun x i u => Host.scatterAdd scatter_S12000_S384000x1_S384000_n_0_0_1 x i u) : (⟨S12000, .f32⟩ : BufTy).Contents (Elt F) → (⟨S384000x1, .i32⟩ : BufTy).Contents (Elt F) → (⟨S384000, .f32⟩ : BufTy).Contents (Elt F) → (⟨S12000, .f32⟩ : BufTy).Contents (Elt F)),
    nullary main_cst_0 (constant S_ .f32 0x3F800000#32),
    unary main_cst_0 main_v8 (broadcastInDim S12000 ![] bcast_S_S12000 : (⟨S_, .f32⟩ : BufTy).Contents (Elt F) → (⟨S12000, .f32⟩ : BufTy).Contents (Elt F)),
    binary main_v7 main_v8 main_v9 (addf : (⟨S12000, .f32⟩ : BufTy).Contents (Elt F) → (⟨S12000, .f32⟩ : BufTy).Contents (Elt F) → (⟨S12000, .f32⟩ : BufTy).Contents (Elt F)),
    unary main_v9 main_v10 (Host.rsqrt : (⟨S12000, .f32⟩ : BufTy).Contents (Elt F) → (⟨S12000, .f32⟩ : BufTy).Contents (Elt F)),
    nullary main_c (constantI S_ 32 0#32),
    unary main_c main_v11 (broadcastInDim S384000 ![] bcast_S_S384000 : (⟨S_, .i32⟩ : BufTy).Contents (Elt F) → (⟨S384000, .i32⟩ : BufTy).Contents (Elt F)),
    binary main_v1 main_v11 main_v12 (cmpi .slt : (⟨S384000, .i32⟩ : BufTy).Contents (Elt F) → (⟨S384000, .i32⟩ : BufTy).Contents (Elt F) → (⟨S384000, .i1⟩ : BufTy).Contents (Elt F)),
    nullary main_c_1 (constantI S_ 32 12000#32),
    unary main_c_1 main_v13 (broadcastInDim S384000 ![] bcast_S_S384000 : (⟨S_, .i32⟩ : BufTy).Contents (Elt F) → (⟨S384000, .i32⟩ : BufTy).Contents (Elt F)),
    binary main_v1 main_v13 main_v14 (addi : (⟨S384000, .i32⟩ : BufTy).Contents (Elt F) → (⟨S384000, .i32⟩ : BufTy).Contents (Elt F) → (⟨S384000, .i32⟩ : BufTy).Contents (Elt F)),
    ternary main_v12 main_v14 main_v1 main_v15 (select : (⟨S384000, .i1⟩ : BufTy).Contents (Elt F) → (⟨S384000, .i32⟩ : BufTy).Contents (Elt F) → (⟨S384000, .i32⟩ : BufTy).Contents (Elt F) → (⟨S384000, .i32⟩ : BufTy).Contents (Elt F)),
    unary main_v15 main_v16 (broadcastInDim S384000x1 ![0] bcast_S384000_S384000x1_0 : (⟨S384000, .i32⟩ : BufTy).Contents (Elt F) → (⟨S384000x1, .i32⟩ : BufTy).Contents (Elt F)),
    binary main_v10 main_v16 main_v17 ((fun x i => Host.gather gather_S12000_S384000x1_S384000_n_0_n_n_0_1_1 x i) : (⟨S12000, .f32⟩ : BufTy).Contents (Elt F) → (⟨S384000x1, .i32⟩ : BufTy).Contents (Elt F) → (⟨S384000, .f32⟩ : BufTy).Contents (Elt F)),
    binary main_v17 main_arg3 main_v18 (mulf : (⟨S384000, .f32⟩ : BufTy).Contents (Elt F) → (⟨S384000, .f32⟩ : BufTy).Contents (Elt F) → (⟨S384000, .f32⟩ : BufTy).Contents (Elt F)),
    nullary main_c_2 (constantI S_ 32 0#32),
    unary main_c_2 main_v19 (broadcastInDim S384000 ![] bcast_S_S384000 : (⟨S_, .i32⟩ : BufTy).Contents (Elt F) → (⟨S384000, .i32⟩ : BufTy).Contents (Elt F)),
    binary main_v3 main_v19 main_v20 (cmpi .slt : (⟨S384000, .i32⟩ : BufTy).Contents (Elt F) → (⟨S384000, .i32⟩ : BufTy).Contents (Elt F) → (⟨S384000, .i1⟩ : BufTy).Contents (Elt F)),
    nullary main_c_3 (constantI S_ 32 12000#32),
    unary main_c_3 main_v21 (broadcastInDim S384000 ![] bcast_S_S384000 : (⟨S_, .i32⟩ : BufTy).Contents (Elt F) → (⟨S384000, .i32⟩ : BufTy).Contents (Elt F)),
    binary main_v3 main_v21 main_v22 (addi : (⟨S384000, .i32⟩ : BufTy).Contents (Elt F) → (⟨S384000, .i32⟩ : BufTy).Contents (Elt F) → (⟨S384000, .i32⟩ : BufTy).Contents (Elt F)),
    ternary main_v20 main_v22 main_v3 main_v23 (select : (⟨S384000, .i1⟩ : BufTy).Contents (Elt F) → (⟨S384000, .i32⟩ : BufTy).Contents (Elt F) → (⟨S384000, .i32⟩ : BufTy).Contents (Elt F) → (⟨S384000, .i32⟩ : BufTy).Contents (Elt F)),
    unary main_v23 main_v24 (broadcastInDim S384000x1 ![0] bcast_S384000_S384000x1_0 : (⟨S384000, .i32⟩ : BufTy).Contents (Elt F) → (⟨S384000x1, .i32⟩ : BufTy).Contents (Elt F)),
    binary main_v10 main_v24 main_v25 ((fun x i => Host.gather gather_S12000_S384000x1_S384000_n_0_n_n_0_1_1 x i) : (⟨S12000, .f32⟩ : BufTy).Contents (Elt F) → (⟨S384000x1, .i32⟩ : BufTy).Contents (Elt F) → (⟨S384000, .f32⟩ : BufTy).Contents (Elt F)),
    binary main_v18 main_v25 main_v26 (mulf : (⟨S384000, .f32⟩ : BufTy).Contents (Elt F) → (⟨S384000, .f32⟩ : BufTy).Contents (Elt F) → (⟨S384000, .f32⟩ : BufTy).Contents (Elt F)),
    unary main_v26 main_v27 (broadcastInDim S384000x1 ![0] bcast_S384000_S384000x1_0 : (⟨S384000, .f32⟩ : BufTy).Contents (Elt F) → (⟨S384000x1, .f32⟩ : BufTy).Contents (Elt F)),
    nullary main_c_4 (constantI S_ 32 0#32),
    unary main_c_4 main_v28 (broadcastInDim S384000 ![] bcast_S_S384000 : (⟨S_, .i32⟩ : BufTy).Contents (Elt F) → (⟨S384000, .i32⟩ : BufTy).Contents (Elt F)),
    binary main_v1 main_v28 main_v29 (cmpi .slt : (⟨S384000, .i32⟩ : BufTy).Contents (Elt F) → (⟨S384000, .i32⟩ : BufTy).Contents (Elt F) → (⟨S384000, .i1⟩ : BufTy).Contents (Elt F)),
    nullary main_c_5 (constantI S_ 32 12000#32),
    unary main_c_5 main_v30 (broadcastInDim S384000 ![] bcast_S_S384000 : (⟨S_, .i32⟩ : BufTy).Contents (Elt F) → (⟨S384000, .i32⟩ : BufTy).Contents (Elt F)),
    binary main_v1 main_v30 main_v31 (addi : (⟨S384000, .i32⟩ : BufTy).Contents (Elt F) → (⟨S384000, .i32⟩ : BufTy).Contents (Elt F) → (⟨S384000, .i32⟩ : BufTy).Contents (Elt F)),
    ternary main_v29 main_v31 main_v1 main_v32 (select : (⟨S384000, .i1⟩ : BufTy).Contents (Elt F) → (⟨S384000, .i32⟩ : BufTy).Contents (Elt F) → (⟨S384000, .i32⟩ : BufTy).Contents (Elt F) → (⟨S384000, .i32⟩ : BufTy).Contents (Elt F)),
    unary main_v32 main_v33 (broadcastInDim S384000x1 ![0] bcast_S384000_S384000x1_0 : (⟨S384000, .i32⟩ : BufTy).Contents (Elt F) → (⟨S384000x1, .i32⟩ : BufTy).Contents (Elt F)),
    binary main_v4 main_v33 main_v34 ((fun x i => Host.gather gather_S12000x128_S384000x1_S384000x128_1_0_n_n_0_1_1128 x i) : (⟨S12000x128, .f32⟩ : BufTy).Contents (Elt F) → (⟨S384000x1, .i32⟩ : BufTy).Contents (Elt F) → (⟨S384000x128, .f32⟩ : BufTy).Contents (Elt F)),
    unary main_v27 main_v35 (broadcastInDim S384000x128 ![0, 1] bcast_S384000x1_S384000x128_0_1 : (⟨S384000x1, .f32⟩ : BufTy).Contents (Elt F) → (⟨S384000x128, .f32⟩ : BufTy).Contents (Elt F)),
    binary main_v35 main_v34 main_v36 (mulf : (⟨S384000x128, .f32⟩ : BufTy).Contents (Elt F) → (⟨S384000x128, .f32⟩ : BufTy).Contents (Elt F) → (⟨S384000x128, .f32⟩ : BufTy).Contents (Elt F)),
    nullary main_cst_6 (constant S_ .f32 0x00000000#32),
    unary main_cst_6 main_v37 (broadcastInDim S12000x128 ![] bcast_S_S12000x128 : (⟨S_, .f32⟩ : BufTy).Contents (Elt F) → (⟨S12000x128, .f32⟩ : BufTy).Contents (Elt F)),
    unary main_v3 main_v38 (broadcastInDim S384000x1 ![0] bcast_S384000_S384000x1_0 : (⟨S384000, .i32⟩ : BufTy).Contents (Elt F) → (⟨S384000x1, .i32⟩ : BufTy).Contents (Elt F)),
    ternary main_v37 main_v38 main_v36 main_v39 ((fun x i u => Host.scatterAdd scatter_S12000x128_S384000x1_S384000x128_1_0_0_1 x i u) : (⟨S12000x128, .f32⟩ : BufTy).Contents (Elt F) → (⟨S384000x1, .i32⟩ : BufTy).Contents (Elt F) → (⟨S384000x128, .f32⟩ : BufTy).Contents (Elt F) → (⟨S12000x128, .f32⟩ : BufTy).Contents (Elt F)),
    binary main_v10 main_v10 main_v40 (mulf : (⟨S12000, .f32⟩ : BufTy).Contents (Elt F) → (⟨S12000, .f32⟩ : BufTy).Contents (Elt F) → (⟨S12000, .f32⟩ : BufTy).Contents (Elt F)),
    unary main_v40 main_v41 (broadcastInDim S12000x1 ![0] bcast_S12000_S12000x1_0 : (⟨S12000, .f32⟩ : BufTy).Contents (Elt F) → (⟨S12000x1, .f32⟩ : BufTy).Contents (Elt F)),
    unary main_v41 main_v42 (broadcastInDim S12000x128 ![0, 1] bcast_S12000x1_S12000x128_0_1 : (⟨S12000x1, .f32⟩ : BufTy).Contents (Elt F) → (⟨S12000x128, .f32⟩ : BufTy).Contents (Elt F)),
    binary main_v42 main_v4 main_v43 (mulf : (⟨S12000x128, .f32⟩ : BufTy).Contents (Elt F) → (⟨S12000x128, .f32⟩ : BufTy).Contents (Elt F) → (⟨S12000x128, .f32⟩ : BufTy).Contents (Elt F)),
    binary main_v39 main_v43 main_v44 (addf : (⟨S12000x128, .f32⟩ : BufTy).Contents (Elt F) → (⟨S12000x128, .f32⟩ : BufTy).Contents (Elt F) → (⟨S12000x128, .f32⟩ : BufTy).Contents (Elt F)),
    unary main_arg11 main_v45 (broadcastInDim S1x128 ![1] bcast_S128_S1x128_1 : (⟨S128, .f32⟩ : BufTy).Contents (Elt F) → (⟨S1x128, .f32⟩ : BufTy).Contents (Elt F)),
    unary main_v45 main_v46 (broadcastInDim S12000x128 ![0, 1] bcast_S1x128_S12000x128_0_1 : (⟨S1x128, .f32⟩ : BufTy).Contents (Elt F) → (⟨S12000x128, .f32⟩ : BufTy).Contents (Elt F)),
    binary main_v44 main_v46 main_v47 (addf : (⟨S12000x128, .f32⟩ : BufTy).Contents (Elt F) → (⟨S12000x128, .f32⟩ : BufTy).Contents (Elt F) → (⟨S12000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S12000x128, .f32⟩) main_call0_v0) (broadcastInDim S12000x128 ![] bcast_S_S12000x128),
    TRef.binary (TRef.of (T := ⟨S12000x128, .f32⟩) main_v47) (TRef.of (T := ⟨S12000x128, .f32⟩) main_call0_v0) (TRef.of (T := ⟨S12000x128, .f32⟩) main_v48) maximumf ]
theorem L0_sub : (L0 : List (HloOp τ sig (Elt F))).Forall fun op => op.bufs ⊆ tcRefs τ sig :=
  ⟨unary_bufs_sub .., reshape_bufs_sub .., unary_bufs_sub .., reshape_bufs_sub .., binary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub ..⟩
theorem L0_fresh : ∀ op ∈ (L0 : List (HloOp τ sig (Elt F))), op.fresh = ∅ := by
  intro _ h; (repeat (cases h with | head => rfl | tail _ h => ?_)); exact nomatch h

/-- Operations 61 … 120 of @main. -/
abbrev L1 : List (HloOp τ sig (Elt F)) :=
  [ unary main_arg2 main_v49 ((extractStridedSlice S1x384000 ![0, 0] · slices_S2x384000_S1x384000_0_0) : (⟨S2x384000, .i32⟩ : BufTy).Contents (Elt F) → (⟨S1x384000, .i32⟩ : BufTy).Contents (Elt F)),
    reshape main_v49 main_v50 rfl shapeCasts_S1x384000_S384000,
    unary main_arg2 main_v51 ((extractStridedSlice S1x384000 ![1, 0] · slices_S2x384000_S1x384000_1_0) : (⟨S2x384000, .i32⟩ : BufTy).Contents (Elt F) → (⟨S1x384000, .i32⟩ : BufTy).Contents (Elt F)),
    reshape main_v51 main_v52 rfl shapeCasts_S1x384000_S384000,
    binary main_v48 main_arg12 main_v53 ((fun l r => Host.dotGeneral dot_S12000x128_S128x128_S12000x128_1_0_0_1_n_n none l r) : (⟨S12000x128, .f32⟩ : BufTy).Contents (Elt F) → (⟨S128x128, .f32⟩ : BufTy).Contents (Elt F) → (⟨S12000x128, .f32⟩ : BufTy).Contents (Elt F)),
    nullary main_cst_7 (constant S_ .f32 0x00000000#32),
    unary main_cst_7 main_v54 (broadcastInDim S12000 ![] bcast_S_S12000 : (⟨S_, .f32⟩ : BufTy).Contents (Elt F) → (⟨S12000, .f32⟩ : BufTy).Contents (Elt F)),
    unary main_v52 main_v55 (broadcastInDim S384000x1 ![0] bcast_S384000_S384000x1_0 : (⟨S384000, .i32⟩ : BufTy).Contents (Elt F) → (⟨S384000x1, .i32⟩ : BufTy).Contents (Elt F)),
    ternary main_v54 main_v55 main_arg3 main_v56 ((fun x i u => Host.scatterAdd scatter_S12000_S384000x1_S384000_n_0_0_1 x i u) : (⟨S12000, .f32⟩ : BufTy).Contents (Elt F) → (⟨S384000x1, .i32⟩ : BufTy).Contents (Elt F) → (⟨S384000, .f32⟩ : BufTy).Contents (Elt F) → (⟨S12000, .f32⟩ : BufTy).Contents (Elt F)),
    nullary main_cst_8 (constant S_ .f32 0x3F800000#32),
    unary main_cst_8 main_v57 (broadcastInDim S12000 ![] bcast_S_S12000 : (⟨S_, .f32⟩ : BufTy).Contents (Elt F) → (⟨S12000, .f32⟩ : BufTy).Contents (Elt F)),
    binary main_v56 main_v57 main_v58 (addf : (⟨S12000, .f32⟩ : BufTy).Contents (Elt F) → (⟨S12000, .f32⟩ : BufTy).Contents (Elt F) → (⟨S12000, .f32⟩ : BufTy).Contents (Elt F)),
    unary main_v58 main_v59 (Host.rsqrt : (⟨S12000, .f32⟩ : BufTy).Contents (Elt F) → (⟨S12000, .f32⟩ : BufTy).Contents (Elt F)),
    nullary main_c_9 (constantI S_ 32 0#32),
    unary main_c_9 main_v60 (broadcastInDim S384000 ![] bcast_S_S384000 : (⟨S_, .i32⟩ : BufTy).Contents (Elt F) → (⟨S384000, .i32⟩ : BufTy).Contents (Elt F)),
    binary main_v50 main_v60 main_v61 (cmpi .slt : (⟨S384000, .i32⟩ : BufTy).Contents (Elt F) → (⟨S384000, .i32⟩ : BufTy).Contents (Elt F) → (⟨S384000, .i1⟩ : BufTy).Contents (Elt F)),
    nullary main_c_10 (constantI S_ 32 12000#32),
    unary main_c_10 main_v62 (broadcastInDim S384000 ![] bcast_S_S384000 : (⟨S_, .i32⟩ : BufTy).Contents (Elt F) → (⟨S384000, .i32⟩ : BufTy).Contents (Elt F)),
    binary main_v50 main_v62 main_v63 (addi : (⟨S384000, .i32⟩ : BufTy).Contents (Elt F) → (⟨S384000, .i32⟩ : BufTy).Contents (Elt F) → (⟨S384000, .i32⟩ : BufTy).Contents (Elt F)),
    ternary main_v61 main_v63 main_v50 main_v64 (select : (⟨S384000, .i1⟩ : BufTy).Contents (Elt F) → (⟨S384000, .i32⟩ : BufTy).Contents (Elt F) → (⟨S384000, .i32⟩ : BufTy).Contents (Elt F) → (⟨S384000, .i32⟩ : BufTy).Contents (Elt F)),
    unary main_v64 main_v65 (broadcastInDim S384000x1 ![0] bcast_S384000_S384000x1_0 : (⟨S384000, .i32⟩ : BufTy).Contents (Elt F) → (⟨S384000x1, .i32⟩ : BufTy).Contents (Elt F)),
    binary main_v59 main_v65 main_v66 ((fun x i => Host.gather gather_S12000_S384000x1_S384000_n_0_n_n_0_1_1 x i) : (⟨S12000, .f32⟩ : BufTy).Contents (Elt F) → (⟨S384000x1, .i32⟩ : BufTy).Contents (Elt F) → (⟨S384000, .f32⟩ : BufTy).Contents (Elt F)),
    binary main_v66 main_arg3 main_v67 (mulf : (⟨S384000, .f32⟩ : BufTy).Contents (Elt F) → (⟨S384000, .f32⟩ : BufTy).Contents (Elt F) → (⟨S384000, .f32⟩ : BufTy).Contents (Elt F)),
    nullary main_c_11 (constantI S_ 32 0#32),
    unary main_c_11 main_v68 (broadcastInDim S384000 ![] bcast_S_S384000 : (⟨S_, .i32⟩ : BufTy).Contents (Elt F) → (⟨S384000, .i32⟩ : BufTy).Contents (Elt F)),
    binary main_v52 main_v68 main_v69 (cmpi .slt : (⟨S384000, .i32⟩ : BufTy).Contents (Elt F) → (⟨S384000, .i32⟩ : BufTy).Contents (Elt F) → (⟨S384000, .i1⟩ : BufTy).Contents (Elt F)),
    nullary main_c_12 (constantI S_ 32 12000#32),
    unary main_c_12 main_v70 (broadcastInDim S384000 ![] bcast_S_S384000 : (⟨S_, .i32⟩ : BufTy).Contents (Elt F) → (⟨S384000, .i32⟩ : BufTy).Contents (Elt F)),
    binary main_v52 main_v70 main_v71 (addi : (⟨S384000, .i32⟩ : BufTy).Contents (Elt F) → (⟨S384000, .i32⟩ : BufTy).Contents (Elt F) → (⟨S384000, .i32⟩ : BufTy).Contents (Elt F)),
    ternary main_v69 main_v71 main_v52 main_v72 (select : (⟨S384000, .i1⟩ : BufTy).Contents (Elt F) → (⟨S384000, .i32⟩ : BufTy).Contents (Elt F) → (⟨S384000, .i32⟩ : BufTy).Contents (Elt F) → (⟨S384000, .i32⟩ : BufTy).Contents (Elt F)),
    unary main_v72 main_v73 (broadcastInDim S384000x1 ![0] bcast_S384000_S384000x1_0 : (⟨S384000, .i32⟩ : BufTy).Contents (Elt F) → (⟨S384000x1, .i32⟩ : BufTy).Contents (Elt F)),
    binary main_v59 main_v73 main_v74 ((fun x i => Host.gather gather_S12000_S384000x1_S384000_n_0_n_n_0_1_1 x i) : (⟨S12000, .f32⟩ : BufTy).Contents (Elt F) → (⟨S384000x1, .i32⟩ : BufTy).Contents (Elt F) → (⟨S384000, .f32⟩ : BufTy).Contents (Elt F)),
    binary main_v67 main_v74 main_v75 (mulf : (⟨S384000, .f32⟩ : BufTy).Contents (Elt F) → (⟨S384000, .f32⟩ : BufTy).Contents (Elt F) → (⟨S384000, .f32⟩ : BufTy).Contents (Elt F)),
    unary main_v75 main_v76 (broadcastInDim S384000x1 ![0] bcast_S384000_S384000x1_0 : (⟨S384000, .f32⟩ : BufTy).Contents (Elt F) → (⟨S384000x1, .f32⟩ : BufTy).Contents (Elt F)),
    nullary main_c_13 (constantI S_ 32 0#32),
    unary main_c_13 main_v77 (broadcastInDim S384000 ![] bcast_S_S384000 : (⟨S_, .i32⟩ : BufTy).Contents (Elt F) → (⟨S384000, .i32⟩ : BufTy).Contents (Elt F)),
    binary main_v50 main_v77 main_v78 (cmpi .slt : (⟨S384000, .i32⟩ : BufTy).Contents (Elt F) → (⟨S384000, .i32⟩ : BufTy).Contents (Elt F) → (⟨S384000, .i1⟩ : BufTy).Contents (Elt F)),
    nullary main_c_14 (constantI S_ 32 12000#32),
    unary main_c_14 main_v79 (broadcastInDim S384000 ![] bcast_S_S384000 : (⟨S_, .i32⟩ : BufTy).Contents (Elt F) → (⟨S384000, .i32⟩ : BufTy).Contents (Elt F)),
    binary main_v50 main_v79 main_v80 (addi : (⟨S384000, .i32⟩ : BufTy).Contents (Elt F) → (⟨S384000, .i32⟩ : BufTy).Contents (Elt F) → (⟨S384000, .i32⟩ : BufTy).Contents (Elt F)),
    ternary main_v78 main_v80 main_v50 main_v81 (select : (⟨S384000, .i1⟩ : BufTy).Contents (Elt F) → (⟨S384000, .i32⟩ : BufTy).Contents (Elt F) → (⟨S384000, .i32⟩ : BufTy).Contents (Elt F) → (⟨S384000, .i32⟩ : BufTy).Contents (Elt F)),
    unary main_v81 main_v82 (broadcastInDim S384000x1 ![0] bcast_S384000_S384000x1_0 : (⟨S384000, .i32⟩ : BufTy).Contents (Elt F) → (⟨S384000x1, .i32⟩ : BufTy).Contents (Elt F)),
    binary main_v53 main_v82 main_v83 ((fun x i => Host.gather gather_S12000x128_S384000x1_S384000x128_1_0_n_n_0_1_1128 x i) : (⟨S12000x128, .f32⟩ : BufTy).Contents (Elt F) → (⟨S384000x1, .i32⟩ : BufTy).Contents (Elt F) → (⟨S384000x128, .f32⟩ : BufTy).Contents (Elt F)),
    unary main_v76 main_v84 (broadcastInDim S384000x128 ![0, 1] bcast_S384000x1_S384000x128_0_1 : (⟨S384000x1, .f32⟩ : BufTy).Contents (Elt F) → (⟨S384000x128, .f32⟩ : BufTy).Contents (Elt F)),
    binary main_v84 main_v83 main_v85 (mulf : (⟨S384000x128, .f32⟩ : BufTy).Contents (Elt F) → (⟨S384000x128, .f32⟩ : BufTy).Contents (Elt F) → (⟨S384000x128, .f32⟩ : BufTy).Contents (Elt F)),
    nullary main_cst_15 (constant S_ .f32 0x00000000#32),
    unary main_cst_15 main_v86 (broadcastInDim S12000x128 ![] bcast_S_S12000x128 : (⟨S_, .f32⟩ : BufTy).Contents (Elt F) → (⟨S12000x128, .f32⟩ : BufTy).Contents (Elt F)),
    unary main_v52 main_v87 (broadcastInDim S384000x1 ![0] bcast_S384000_S384000x1_0 : (⟨S384000, .i32⟩ : BufTy).Contents (Elt F) → (⟨S384000x1, .i32⟩ : BufTy).Contents (Elt F)),
    ternary main_v86 main_v87 main_v85 main_v88 ((fun x i u => Host.scatterAdd scatter_S12000x128_S384000x1_S384000x128_1_0_0_1 x i u) : (⟨S12000x128, .f32⟩ : BufTy).Contents (Elt F) → (⟨S384000x1, .i32⟩ : BufTy).Contents (Elt F) → (⟨S384000x128, .f32⟩ : BufTy).Contents (Elt F) → (⟨S12000x128, .f32⟩ : BufTy).Contents (Elt F)),
    binary main_v59 main_v59 main_v89 (mulf : (⟨S12000, .f32⟩ : BufTy).Contents (Elt F) → (⟨S12000, .f32⟩ : BufTy).Contents (Elt F) → (⟨S12000, .f32⟩ : BufTy).Contents (Elt F)),
    unary main_v89 main_v90 (broadcastInDim S12000x1 ![0] bcast_S12000_S12000x1_0 : (⟨S12000, .f32⟩ : BufTy).Contents (Elt F) → (⟨S12000x1, .f32⟩ : BufTy).Contents (Elt F)),
    unary main_v90 main_v91 (broadcastInDim S12000x128 ![0, 1] bcast_S12000x1_S12000x128_0_1 : (⟨S12000x1, .f32⟩ : BufTy).Contents (Elt F) → (⟨S12000x128, .f32⟩ : BufTy).Contents (Elt F)),
    binary main_v91 main_v53 main_v92 (mulf : (⟨S12000x128, .f32⟩ : BufTy).Contents (Elt F) → (⟨S12000x128, .f32⟩ : BufTy).Contents (Elt F) → (⟨S12000x128, .f32⟩ : BufTy).Contents (Elt F)),
    binary main_v88 main_v92 main_v93 (addf : (⟨S12000x128, .f32⟩ : BufTy).Contents (Elt F) → (⟨S12000x128, .f32⟩ : BufTy).Contents (Elt F) → (⟨S12000x128, .f32⟩ : BufTy).Contents (Elt F)),
    unary main_arg13 main_v94 (broadcastInDim S1x128 ![1] bcast_S128_S1x128_1 : (⟨S128, .f32⟩ : BufTy).Contents (Elt F) → (⟨S1x128, .f32⟩ : BufTy).Contents (Elt F)),
    unary main_v94 main_v95 (broadcastInDim S12000x128 ![0, 1] bcast_S1x128_S12000x128_0_1 : (⟨S1x128, .f32⟩ : BufTy).Contents (Elt F) → (⟨S12000x128, .f32⟩ : BufTy).Contents (Elt F)),
    binary main_v93 main_v95 main_v96 (addf : (⟨S12000x128, .f32⟩ : BufTy).Contents (Elt F) → (⟨S12000x128, .f32⟩ : BufTy).Contents (Elt F) → (⟨S12000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S12000x128, .f32⟩) main_call1_v0) (broadcastInDim S12000x128 ![] bcast_S_S12000x128),
    TRef.binary (TRef.of (T := ⟨S12000x128, .f32⟩) main_v96) (TRef.of (T := ⟨S12000x128, .f32⟩) main_call1_v0) (TRef.of (T := ⟨S12000x128, .f32⟩) main_v97) maximumf ]
theorem L1_sub : (L1 : List (HloOp τ sig (Elt F))).Forall fun op => op.bufs ⊆ tcRefs τ sig :=
  ⟨unary_bufs_sub .., reshape_bufs_sub .., unary_bufs_sub .., reshape_bufs_sub .., binary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub ..⟩
theorem L1_fresh : ∀ op ∈ (L1 : List (HloOp τ sig (Elt F))), op.fresh = ∅ := by
  intro _ h; (repeat (cases h with | head => rfl | tail _ h => ?_)); exact nomatch h

/-- Operations 121 … 180 of @main. -/
abbrev L2 : List (HloOp τ sig (Elt F)) :=
  [ unary main_arg4 main_v98 ((extractStridedSlice S1x384000 ![0, 0] · slices_S2x384000_S1x384000_0_0) : (⟨S2x384000, .i32⟩ : BufTy).Contents (Elt F) → (⟨S1x384000, .i32⟩ : BufTy).Contents (Elt F)),
    reshape main_v98 main_v99 rfl shapeCasts_S1x384000_S384000,
    unary main_arg4 main_v100 ((extractStridedSlice S1x384000 ![1, 0] · slices_S2x384000_S1x384000_1_0) : (⟨S2x384000, .i32⟩ : BufTy).Contents (Elt F) → (⟨S1x384000, .i32⟩ : BufTy).Contents (Elt F)),
    reshape main_v100 main_v101 rfl shapeCasts_S1x384000_S384000,
    binary main_arg0 main_arg14 main_v102 ((fun l r => Host.dotGeneral dot_S12000x128_S128x128_S12000x128_1_0_0_1_n_n none l r) : (⟨S12000x128, .f32⟩ : BufTy).Contents (Elt F) → (⟨S128x128, .f32⟩ : BufTy).Contents (Elt F) → (⟨S12000x128, .f32⟩ : BufTy).Contents (Elt F)),
    nullary main_cst_16 (constant S_ .f32 0x00000000#32),
    unary main_cst_16 main_v103 (broadcastInDim S12000 ![] bcast_S_S12000 : (⟨S_, .f32⟩ : BufTy).Contents (Elt F) → (⟨S12000, .f32⟩ : BufTy).Contents (Elt F)),
    unary main_v101 main_v104 (broadcastInDim S384000x1 ![0] bcast_S384000_S384000x1_0 : (⟨S384000, .i32⟩ : BufTy).Contents (Elt F) → (⟨S384000x1, .i32⟩ : BufTy).Contents (Elt F)),
    ternary main_v103 main_v104 main_arg5 main_v105 ((fun x i u => Host.scatterAdd scatter_S12000_S384000x1_S384000_n_0_0_1 x i u) : (⟨S12000, .f32⟩ : BufTy).Contents (Elt F) → (⟨S384000x1, .i32⟩ : BufTy).Contents (Elt F) → (⟨S384000, .f32⟩ : BufTy).Contents (Elt F) → (⟨S12000, .f32⟩ : BufTy).Contents (Elt F)),
    nullary main_cst_17 (constant S_ .f32 0x3F800000#32),
    unary main_cst_17 main_v106 (broadcastInDim S12000 ![] bcast_S_S12000 : (⟨S_, .f32⟩ : BufTy).Contents (Elt F) → (⟨S12000, .f32⟩ : BufTy).Contents (Elt F)),
    binary main_v105 main_v106 main_v107 (addf : (⟨S12000, .f32⟩ : BufTy).Contents (Elt F) → (⟨S12000, .f32⟩ : BufTy).Contents (Elt F) → (⟨S12000, .f32⟩ : BufTy).Contents (Elt F)),
    unary main_v107 main_v108 (Host.rsqrt : (⟨S12000, .f32⟩ : BufTy).Contents (Elt F) → (⟨S12000, .f32⟩ : BufTy).Contents (Elt F)),
    nullary main_c_18 (constantI S_ 32 0#32),
    unary main_c_18 main_v109 (broadcastInDim S384000 ![] bcast_S_S384000 : (⟨S_, .i32⟩ : BufTy).Contents (Elt F) → (⟨S384000, .i32⟩ : BufTy).Contents (Elt F)),
    binary main_v99 main_v109 main_v110 (cmpi .slt : (⟨S384000, .i32⟩ : BufTy).Contents (Elt F) → (⟨S384000, .i32⟩ : BufTy).Contents (Elt F) → (⟨S384000, .i1⟩ : BufTy).Contents (Elt F)),
    nullary main_c_19 (constantI S_ 32 12000#32),
    unary main_c_19 main_v111 (broadcastInDim S384000 ![] bcast_S_S384000 : (⟨S_, .i32⟩ : BufTy).Contents (Elt F) → (⟨S384000, .i32⟩ : BufTy).Contents (Elt F)),
    binary main_v99 main_v111 main_v112 (addi : (⟨S384000, .i32⟩ : BufTy).Contents (Elt F) → (⟨S384000, .i32⟩ : BufTy).Contents (Elt F) → (⟨S384000, .i32⟩ : BufTy).Contents (Elt F)),
    ternary main_v110 main_v112 main_v99 main_v113 (select : (⟨S384000, .i1⟩ : BufTy).Contents (Elt F) → (⟨S384000, .i32⟩ : BufTy).Contents (Elt F) → (⟨S384000, .i32⟩ : BufTy).Contents (Elt F) → (⟨S384000, .i32⟩ : BufTy).Contents (Elt F)),
    unary main_v113 main_v114 (broadcastInDim S384000x1 ![0] bcast_S384000_S384000x1_0 : (⟨S384000, .i32⟩ : BufTy).Contents (Elt F) → (⟨S384000x1, .i32⟩ : BufTy).Contents (Elt F)),
    binary main_v108 main_v114 main_v115 ((fun x i => Host.gather gather_S12000_S384000x1_S384000_n_0_n_n_0_1_1 x i) : (⟨S12000, .f32⟩ : BufTy).Contents (Elt F) → (⟨S384000x1, .i32⟩ : BufTy).Contents (Elt F) → (⟨S384000, .f32⟩ : BufTy).Contents (Elt F)),
    binary main_v115 main_arg5 main_v116 (mulf : (⟨S384000, .f32⟩ : BufTy).Contents (Elt F) → (⟨S384000, .f32⟩ : BufTy).Contents (Elt F) → (⟨S384000, .f32⟩ : BufTy).Contents (Elt F)),
    nullary main_c_20 (constantI S_ 32 0#32),
    unary main_c_20 main_v117 (broadcastInDim S384000 ![] bcast_S_S384000 : (⟨S_, .i32⟩ : BufTy).Contents (Elt F) → (⟨S384000, .i32⟩ : BufTy).Contents (Elt F)),
    binary main_v101 main_v117 main_v118 (cmpi .slt : (⟨S384000, .i32⟩ : BufTy).Contents (Elt F) → (⟨S384000, .i32⟩ : BufTy).Contents (Elt F) → (⟨S384000, .i1⟩ : BufTy).Contents (Elt F)),
    nullary main_c_21 (constantI S_ 32 12000#32),
    unary main_c_21 main_v119 (broadcastInDim S384000 ![] bcast_S_S384000 : (⟨S_, .i32⟩ : BufTy).Contents (Elt F) → (⟨S384000, .i32⟩ : BufTy).Contents (Elt F)),
    binary main_v101 main_v119 main_v120 (addi : (⟨S384000, .i32⟩ : BufTy).Contents (Elt F) → (⟨S384000, .i32⟩ : BufTy).Contents (Elt F) → (⟨S384000, .i32⟩ : BufTy).Contents (Elt F)),
    ternary main_v118 main_v120 main_v101 main_v121 (select : (⟨S384000, .i1⟩ : BufTy).Contents (Elt F) → (⟨S384000, .i32⟩ : BufTy).Contents (Elt F) → (⟨S384000, .i32⟩ : BufTy).Contents (Elt F) → (⟨S384000, .i32⟩ : BufTy).Contents (Elt F)),
    unary main_v121 main_v122 (broadcastInDim S384000x1 ![0] bcast_S384000_S384000x1_0 : (⟨S384000, .i32⟩ : BufTy).Contents (Elt F) → (⟨S384000x1, .i32⟩ : BufTy).Contents (Elt F)),
    binary main_v108 main_v122 main_v123 ((fun x i => Host.gather gather_S12000_S384000x1_S384000_n_0_n_n_0_1_1 x i) : (⟨S12000, .f32⟩ : BufTy).Contents (Elt F) → (⟨S384000x1, .i32⟩ : BufTy).Contents (Elt F) → (⟨S384000, .f32⟩ : BufTy).Contents (Elt F)),
    binary main_v116 main_v123 main_v124 (mulf : (⟨S384000, .f32⟩ : BufTy).Contents (Elt F) → (⟨S384000, .f32⟩ : BufTy).Contents (Elt F) → (⟨S384000, .f32⟩ : BufTy).Contents (Elt F)),
    unary main_v124 main_v125 (broadcastInDim S384000x1 ![0] bcast_S384000_S384000x1_0 : (⟨S384000, .f32⟩ : BufTy).Contents (Elt F) → (⟨S384000x1, .f32⟩ : BufTy).Contents (Elt F)),
    nullary main_c_22 (constantI S_ 32 0#32),
    unary main_c_22 main_v126 (broadcastInDim S384000 ![] bcast_S_S384000 : (⟨S_, .i32⟩ : BufTy).Contents (Elt F) → (⟨S384000, .i32⟩ : BufTy).Contents (Elt F)),
    binary main_v99 main_v126 main_v127 (cmpi .slt : (⟨S384000, .i32⟩ : BufTy).Contents (Elt F) → (⟨S384000, .i32⟩ : BufTy).Contents (Elt F) → (⟨S384000, .i1⟩ : BufTy).Contents (Elt F)),
    nullary main_c_23 (constantI S_ 32 12000#32),
    unary main_c_23 main_v128 (broadcastInDim S384000 ![] bcast_S_S384000 : (⟨S_, .i32⟩ : BufTy).Contents (Elt F) → (⟨S384000, .i32⟩ : BufTy).Contents (Elt F)),
    binary main_v99 main_v128 main_v129 (addi : (⟨S384000, .i32⟩ : BufTy).Contents (Elt F) → (⟨S384000, .i32⟩ : BufTy).Contents (Elt F) → (⟨S384000, .i32⟩ : BufTy).Contents (Elt F)),
    ternary main_v127 main_v129 main_v99 main_v130 (select : (⟨S384000, .i1⟩ : BufTy).Contents (Elt F) → (⟨S384000, .i32⟩ : BufTy).Contents (Elt F) → (⟨S384000, .i32⟩ : BufTy).Contents (Elt F) → (⟨S384000, .i32⟩ : BufTy).Contents (Elt F)),
    unary main_v130 main_v131 (broadcastInDim S384000x1 ![0] bcast_S384000_S384000x1_0 : (⟨S384000, .i32⟩ : BufTy).Contents (Elt F) → (⟨S384000x1, .i32⟩ : BufTy).Contents (Elt F)),
    binary main_v102 main_v131 main_v132 ((fun x i => Host.gather gather_S12000x128_S384000x1_S384000x128_1_0_n_n_0_1_1128 x i) : (⟨S12000x128, .f32⟩ : BufTy).Contents (Elt F) → (⟨S384000x1, .i32⟩ : BufTy).Contents (Elt F) → (⟨S384000x128, .f32⟩ : BufTy).Contents (Elt F)),
    unary main_v125 main_v133 (broadcastInDim S384000x128 ![0, 1] bcast_S384000x1_S384000x128_0_1 : (⟨S384000x1, .f32⟩ : BufTy).Contents (Elt F) → (⟨S384000x128, .f32⟩ : BufTy).Contents (Elt F)),
    binary main_v133 main_v132 main_v134 (mulf : (⟨S384000x128, .f32⟩ : BufTy).Contents (Elt F) → (⟨S384000x128, .f32⟩ : BufTy).Contents (Elt F) → (⟨S384000x128, .f32⟩ : BufTy).Contents (Elt F)),
    nullary main_cst_24 (constant S_ .f32 0x00000000#32),
    unary main_cst_24 main_v135 (broadcastInDim S12000x128 ![] bcast_S_S12000x128 : (⟨S_, .f32⟩ : BufTy).Contents (Elt F) → (⟨S12000x128, .f32⟩ : BufTy).Contents (Elt F)),
    unary main_v101 main_v136 (broadcastInDim S384000x1 ![0] bcast_S384000_S384000x1_0 : (⟨S384000, .i32⟩ : BufTy).Contents (Elt F) → (⟨S384000x1, .i32⟩ : BufTy).Contents (Elt F)),
    ternary main_v135 main_v136 main_v134 main_v137 ((fun x i u => Host.scatterAdd scatter_S12000x128_S384000x1_S384000x128_1_0_0_1 x i u) : (⟨S12000x128, .f32⟩ : BufTy).Contents (Elt F) → (⟨S384000x1, .i32⟩ : BufTy).Contents (Elt F) → (⟨S384000x128, .f32⟩ : BufTy).Contents (Elt F) → (⟨S12000x128, .f32⟩ : BufTy).Contents (Elt F)),
    binary main_v108 main_v108 main_v138 (mulf : (⟨S12000, .f32⟩ : BufTy).Contents (Elt F) → (⟨S12000, .f32⟩ : BufTy).Contents (Elt F) → (⟨S12000, .f32⟩ : BufTy).Contents (Elt F)),
    unary main_v138 main_v139 (broadcastInDim S12000x1 ![0] bcast_S12000_S12000x1_0 : (⟨S12000, .f32⟩ : BufTy).Contents (Elt F) → (⟨S12000x1, .f32⟩ : BufTy).Contents (Elt F)),
    unary main_v139 main_v140 (broadcastInDim S12000x128 ![0, 1] bcast_S12000x1_S12000x128_0_1 : (⟨S12000x1, .f32⟩ : BufTy).Contents (Elt F) → (⟨S12000x128, .f32⟩ : BufTy).Contents (Elt F)),
    binary main_v140 main_v102 main_v141 (mulf : (⟨S12000x128, .f32⟩ : BufTy).Contents (Elt F) → (⟨S12000x128, .f32⟩ : BufTy).Contents (Elt F) → (⟨S12000x128, .f32⟩ : BufTy).Contents (Elt F)),
    binary main_v137 main_v141 main_v142 (addf : (⟨S12000x128, .f32⟩ : BufTy).Contents (Elt F) → (⟨S12000x128, .f32⟩ : BufTy).Contents (Elt F) → (⟨S12000x128, .f32⟩ : BufTy).Contents (Elt F)),
    unary main_arg15 main_v143 (broadcastInDim S1x128 ![1] bcast_S128_S1x128_1 : (⟨S128, .f32⟩ : BufTy).Contents (Elt F) → (⟨S1x128, .f32⟩ : BufTy).Contents (Elt F)),
    unary main_v143 main_v144 (broadcastInDim S12000x128 ![0, 1] bcast_S1x128_S12000x128_0_1 : (⟨S1x128, .f32⟩ : BufTy).Contents (Elt F) → (⟨S12000x128, .f32⟩ : BufTy).Contents (Elt F)),
    binary main_v142 main_v144 main_v145 (addf : (⟨S12000x128, .f32⟩ : BufTy).Contents (Elt F) → (⟨S12000x128, .f32⟩ : BufTy).Contents (Elt F) → (⟨S12000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S12000x128, .f32⟩) main_call2_v0) (broadcastInDim S12000x128 ![] bcast_S_S12000x128),
    TRef.binary (TRef.of (T := ⟨S12000x128, .f32⟩) main_v145) (TRef.of (T := ⟨S12000x128, .f32⟩) main_call2_v0) (TRef.of (T := ⟨S12000x128, .f32⟩) main_v146) maximumf ]
theorem L2_sub : (L2 : List (HloOp τ sig (Elt F))).Forall fun op => op.bufs ⊆ tcRefs τ sig :=
  ⟨unary_bufs_sub .., reshape_bufs_sub .., unary_bufs_sub .., reshape_bufs_sub .., binary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub ..⟩
theorem L2_fresh : ∀ op ∈ (L2 : List (HloOp τ sig (Elt F))), op.fresh = ∅ := by
  intro _ h; (repeat (cases h with | head => rfl | tail _ h => ?_)); exact nomatch h

/-- Operations 181 … 240 of @main. -/
abbrev L3 : List (HloOp τ sig (Elt F)) :=
  [ unary main_arg4 main_v147 ((extractStridedSlice S1x384000 ![0, 0] · slices_S2x384000_S1x384000_0_0) : (⟨S2x384000, .i32⟩ : BufTy).Contents (Elt F) → (⟨S1x384000, .i32⟩ : BufTy).Contents (Elt F)),
    reshape main_v147 main_v148 rfl shapeCasts_S1x384000_S384000,
    unary main_arg4 main_v149 ((extractStridedSlice S1x384000 ![1, 0] · slices_S2x384000_S1x384000_1_0) : (⟨S2x384000, .i32⟩ : BufTy).Contents (Elt F) → (⟨S1x384000, .i32⟩ : BufTy).Contents (Elt F)),
    reshape main_v149 main_v150 rfl shapeCasts_S1x384000_S384000,
    binary main_v146 main_arg16 main_v151 ((fun l r => Host.dotGeneral dot_S12000x128_S128x128_S12000x128_1_0_0_1_n_n none l r) : (⟨S12000x128, .f32⟩ : BufTy).Contents (Elt F) → (⟨S128x128, .f32⟩ : BufTy).Contents (Elt F) → (⟨S12000x128, .f32⟩ : BufTy).Contents (Elt F)),
    nullary main_cst_25 (constant S_ .f32 0x00000000#32),
    unary main_cst_25 main_v152 (broadcastInDim S12000 ![] bcast_S_S12000 : (⟨S_, .f32⟩ : BufTy).Contents (Elt F) → (⟨S12000, .f32⟩ : BufTy).Contents (Elt F)),
    unary main_v150 main_v153 (broadcastInDim S384000x1 ![0] bcast_S384000_S384000x1_0 : (⟨S384000, .i32⟩ : BufTy).Contents (Elt F) → (⟨S384000x1, .i32⟩ : BufTy).Contents (Elt F)),
    ternary main_v152 main_v153 main_arg5 main_v154 ((fun x i u => Host.scatterAdd scatter_S12000_S384000x1_S384000_n_0_0_1 x i u) : (⟨S12000, .f32⟩ : BufTy).Contents (Elt F) → (⟨S384000x1, .i32⟩ : BufTy).Contents (Elt F) → (⟨S384000, .f32⟩ : BufTy).Contents (Elt F) → (⟨S12000, .f32⟩ : BufTy).Contents (Elt F)),
    nullary main_cst_26 (constant S_ .f32 0x3F800000#32),
    unary main_cst_26 main_v155 (broadcastInDim S12000 ![] bcast_S_S12000 : (⟨S_, .f32⟩ : BufTy).Contents (Elt F) → (⟨S12000, .f32⟩ : BufTy).Contents (Elt F)),
    binary main_v154 main_v155 main_v156 (addf : (⟨S12000, .f32⟩ : BufTy).Contents (Elt F) → (⟨S12000, .f32⟩ : BufTy).Contents (Elt F) → (⟨S12000, .f32⟩ : BufTy).Contents (Elt F)),
    unary main_v156 main_v157 (Host.rsqrt : (⟨S12000, .f32⟩ : BufTy).Contents (Elt F) → (⟨S12000, .f32⟩ : BufTy).Contents (Elt F)),
    nullary main_c_27 (constantI S_ 32 0#32),
    unary main_c_27 main_v158 (broadcastInDim S384000 ![] bcast_S_S384000 : (⟨S_, .i32⟩ : BufTy).Contents (Elt F) → (⟨S384000, .i32⟩ : BufTy).Contents (Elt F)),
    binary main_v148 main_v158 main_v159 (cmpi .slt : (⟨S384000, .i32⟩ : BufTy).Contents (Elt F) → (⟨S384000, .i32⟩ : BufTy).Contents (Elt F) → (⟨S384000, .i1⟩ : BufTy).Contents (Elt F)),
    nullary main_c_28 (constantI S_ 32 12000#32),
    unary main_c_28 main_v160 (broadcastInDim S384000 ![] bcast_S_S384000 : (⟨S_, .i32⟩ : BufTy).Contents (Elt F) → (⟨S384000, .i32⟩ : BufTy).Contents (Elt F)),
    binary main_v148 main_v160 main_v161 (addi : (⟨S384000, .i32⟩ : BufTy).Contents (Elt F) → (⟨S384000, .i32⟩ : BufTy).Contents (Elt F) → (⟨S384000, .i32⟩ : BufTy).Contents (Elt F)),
    ternary main_v159 main_v161 main_v148 main_v162 (select : (⟨S384000, .i1⟩ : BufTy).Contents (Elt F) → (⟨S384000, .i32⟩ : BufTy).Contents (Elt F) → (⟨S384000, .i32⟩ : BufTy).Contents (Elt F) → (⟨S384000, .i32⟩ : BufTy).Contents (Elt F)),
    unary main_v162 main_v163 (broadcastInDim S384000x1 ![0] bcast_S384000_S384000x1_0 : (⟨S384000, .i32⟩ : BufTy).Contents (Elt F) → (⟨S384000x1, .i32⟩ : BufTy).Contents (Elt F)),
    binary main_v157 main_v163 main_v164 ((fun x i => Host.gather gather_S12000_S384000x1_S384000_n_0_n_n_0_1_1 x i) : (⟨S12000, .f32⟩ : BufTy).Contents (Elt F) → (⟨S384000x1, .i32⟩ : BufTy).Contents (Elt F) → (⟨S384000, .f32⟩ : BufTy).Contents (Elt F)),
    binary main_v164 main_arg5 main_v165 (mulf : (⟨S384000, .f32⟩ : BufTy).Contents (Elt F) → (⟨S384000, .f32⟩ : BufTy).Contents (Elt F) → (⟨S384000, .f32⟩ : BufTy).Contents (Elt F)),
    nullary main_c_29 (constantI S_ 32 0#32),
    unary main_c_29 main_v166 (broadcastInDim S384000 ![] bcast_S_S384000 : (⟨S_, .i32⟩ : BufTy).Contents (Elt F) → (⟨S384000, .i32⟩ : BufTy).Contents (Elt F)),
    binary main_v150 main_v166 main_v167 (cmpi .slt : (⟨S384000, .i32⟩ : BufTy).Contents (Elt F) → (⟨S384000, .i32⟩ : BufTy).Contents (Elt F) → (⟨S384000, .i1⟩ : BufTy).Contents (Elt F)),
    nullary main_c_30 (constantI S_ 32 12000#32),
    unary main_c_30 main_v168 (broadcastInDim S384000 ![] bcast_S_S384000 : (⟨S_, .i32⟩ : BufTy).Contents (Elt F) → (⟨S384000, .i32⟩ : BufTy).Contents (Elt F)),
    binary main_v150 main_v168 main_v169 (addi : (⟨S384000, .i32⟩ : BufTy).Contents (Elt F) → (⟨S384000, .i32⟩ : BufTy).Contents (Elt F) → (⟨S384000, .i32⟩ : BufTy).Contents (Elt F)),
    ternary main_v167 main_v169 main_v150 main_v170 (select : (⟨S384000, .i1⟩ : BufTy).Contents (Elt F) → (⟨S384000, .i32⟩ : BufTy).Contents (Elt F) → (⟨S384000, .i32⟩ : BufTy).Contents (Elt F) → (⟨S384000, .i32⟩ : BufTy).Contents (Elt F)),
    unary main_v170 main_v171 (broadcastInDim S384000x1 ![0] bcast_S384000_S384000x1_0 : (⟨S384000, .i32⟩ : BufTy).Contents (Elt F) → (⟨S384000x1, .i32⟩ : BufTy).Contents (Elt F)),
    binary main_v157 main_v171 main_v172 ((fun x i => Host.gather gather_S12000_S384000x1_S384000_n_0_n_n_0_1_1 x i) : (⟨S12000, .f32⟩ : BufTy).Contents (Elt F) → (⟨S384000x1, .i32⟩ : BufTy).Contents (Elt F) → (⟨S384000, .f32⟩ : BufTy).Contents (Elt F)),
    binary main_v165 main_v172 main_v173 (mulf : (⟨S384000, .f32⟩ : BufTy).Contents (Elt F) → (⟨S384000, .f32⟩ : BufTy).Contents (Elt F) → (⟨S384000, .f32⟩ : BufTy).Contents (Elt F)),
    unary main_v173 main_v174 (broadcastInDim S384000x1 ![0] bcast_S384000_S384000x1_0 : (⟨S384000, .f32⟩ : BufTy).Contents (Elt F) → (⟨S384000x1, .f32⟩ : BufTy).Contents (Elt F)),
    nullary main_c_31 (constantI S_ 32 0#32),
    unary main_c_31 main_v175 (broadcastInDim S384000 ![] bcast_S_S384000 : (⟨S_, .i32⟩ : BufTy).Contents (Elt F) → (⟨S384000, .i32⟩ : BufTy).Contents (Elt F)),
    binary main_v148 main_v175 main_v176 (cmpi .slt : (⟨S384000, .i32⟩ : BufTy).Contents (Elt F) → (⟨S384000, .i32⟩ : BufTy).Contents (Elt F) → (⟨S384000, .i1⟩ : BufTy).Contents (Elt F)),
    nullary main_c_32 (constantI S_ 32 12000#32),
    unary main_c_32 main_v177 (broadcastInDim S384000 ![] bcast_S_S384000 : (⟨S_, .i32⟩ : BufTy).Contents (Elt F) → (⟨S384000, .i32⟩ : BufTy).Contents (Elt F)),
    binary main_v148 main_v177 main_v178 (addi : (⟨S384000, .i32⟩ : BufTy).Contents (Elt F) → (⟨S384000, .i32⟩ : BufTy).Contents (Elt F) → (⟨S384000, .i32⟩ : BufTy).Contents (Elt F)),
    ternary main_v176 main_v178 main_v148 main_v179 (select : (⟨S384000, .i1⟩ : BufTy).Contents (Elt F) → (⟨S384000, .i32⟩ : BufTy).Contents (Elt F) → (⟨S384000, .i32⟩ : BufTy).Contents (Elt F) → (⟨S384000, .i32⟩ : BufTy).Contents (Elt F)),
    unary main_v179 main_v180 (broadcastInDim S384000x1 ![0] bcast_S384000_S384000x1_0 : (⟨S384000, .i32⟩ : BufTy).Contents (Elt F) → (⟨S384000x1, .i32⟩ : BufTy).Contents (Elt F)),
    binary main_v151 main_v180 main_v181 ((fun x i => Host.gather gather_S12000x128_S384000x1_S384000x128_1_0_n_n_0_1_1128 x i) : (⟨S12000x128, .f32⟩ : BufTy).Contents (Elt F) → (⟨S384000x1, .i32⟩ : BufTy).Contents (Elt F) → (⟨S384000x128, .f32⟩ : BufTy).Contents (Elt F)),
    unary main_v174 main_v182 (broadcastInDim S384000x128 ![0, 1] bcast_S384000x1_S384000x128_0_1 : (⟨S384000x1, .f32⟩ : BufTy).Contents (Elt F) → (⟨S384000x128, .f32⟩ : BufTy).Contents (Elt F)),
    binary main_v182 main_v181 main_v183 (mulf : (⟨S384000x128, .f32⟩ : BufTy).Contents (Elt F) → (⟨S384000x128, .f32⟩ : BufTy).Contents (Elt F) → (⟨S384000x128, .f32⟩ : BufTy).Contents (Elt F)),
    nullary main_cst_33 (constant S_ .f32 0x00000000#32),
    unary main_cst_33 main_v184 (broadcastInDim S12000x128 ![] bcast_S_S12000x128 : (⟨S_, .f32⟩ : BufTy).Contents (Elt F) → (⟨S12000x128, .f32⟩ : BufTy).Contents (Elt F)),
    unary main_v150 main_v185 (broadcastInDim S384000x1 ![0] bcast_S384000_S384000x1_0 : (⟨S384000, .i32⟩ : BufTy).Contents (Elt F) → (⟨S384000x1, .i32⟩ : BufTy).Contents (Elt F)),
    ternary main_v184 main_v185 main_v183 main_v186 ((fun x i u => Host.scatterAdd scatter_S12000x128_S384000x1_S384000x128_1_0_0_1 x i u) : (⟨S12000x128, .f32⟩ : BufTy).Contents (Elt F) → (⟨S384000x1, .i32⟩ : BufTy).Contents (Elt F) → (⟨S384000x128, .f32⟩ : BufTy).Contents (Elt F) → (⟨S12000x128, .f32⟩ : BufTy).Contents (Elt F)),
    binary main_v157 main_v157 main_v187 (mulf : (⟨S12000, .f32⟩ : BufTy).Contents (Elt F) → (⟨S12000, .f32⟩ : BufTy).Contents (Elt F) → (⟨S12000, .f32⟩ : BufTy).Contents (Elt F)),
    unary main_v187 main_v188 (broadcastInDim S12000x1 ![0] bcast_S12000_S12000x1_0 : (⟨S12000, .f32⟩ : BufTy).Contents (Elt F) → (⟨S12000x1, .f32⟩ : BufTy).Contents (Elt F)),
    unary main_v188 main_v189 (broadcastInDim S12000x128 ![0, 1] bcast_S12000x1_S12000x128_0_1 : (⟨S12000x1, .f32⟩ : BufTy).Contents (Elt F) → (⟨S12000x128, .f32⟩ : BufTy).Contents (Elt F)),
    binary main_v189 main_v151 main_v190 (mulf : (⟨S12000x128, .f32⟩ : BufTy).Contents (Elt F) → (⟨S12000x128, .f32⟩ : BufTy).Contents (Elt F) → (⟨S12000x128, .f32⟩ : BufTy).Contents (Elt F)),
    binary main_v186 main_v190 main_v191 (addf : (⟨S12000x128, .f32⟩ : BufTy).Contents (Elt F) → (⟨S12000x128, .f32⟩ : BufTy).Contents (Elt F) → (⟨S12000x128, .f32⟩ : BufTy).Contents (Elt F)),
    unary main_arg17 main_v192 (broadcastInDim S1x128 ![1] bcast_S128_S1x128_1 : (⟨S128, .f32⟩ : BufTy).Contents (Elt F) → (⟨S1x128, .f32⟩ : BufTy).Contents (Elt F)),
    unary main_v192 main_v193 (broadcastInDim S12000x128 ![0, 1] bcast_S1x128_S12000x128_0_1 : (⟨S1x128, .f32⟩ : BufTy).Contents (Elt F) → (⟨S12000x128, .f32⟩ : BufTy).Contents (Elt F)),
    binary main_v191 main_v193 main_v194 (addf : (⟨S12000x128, .f32⟩ : BufTy).Contents (Elt F) → (⟨S12000x128, .f32⟩ : BufTy).Contents (Elt F) → (⟨S12000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S12000x128, .f32⟩) main_call3_v0) (broadcastInDim S12000x128 ![] bcast_S_S12000x128),
    TRef.binary (TRef.of (T := ⟨S12000x128, .f32⟩) main_v194) (TRef.of (T := ⟨S12000x128, .f32⟩) main_call3_v0) (TRef.of (T := ⟨S12000x128, .f32⟩) main_v195) maximumf ]
theorem L3_sub : (L3 : List (HloOp τ sig (Elt F))).Forall fun op => op.bufs ⊆ tcRefs τ sig :=
  ⟨unary_bufs_sub .., reshape_bufs_sub .., unary_bufs_sub .., reshape_bufs_sub .., binary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub ..⟩
theorem L3_fresh : ∀ op ∈ (L3 : List (HloOp τ sig (Elt F))), op.fresh = ∅ := by
  intro _ h; (repeat (cases h with | head => rfl | tail _ h => ?_)); exact nomatch h

/-- Operations 241 … 300 of @main. -/
abbrev L4 : List (HloOp τ sig (Elt F)) :=
  [ unary main_arg6 main_v196 ((extractStridedSlice S1x192000 ![0, 0] · slices_S2x192000_S1x192000_0_0) : (⟨S2x192000, .i32⟩ : BufTy).Contents (Elt F) → (⟨S1x192000, .i32⟩ : BufTy).Contents (Elt F)),
    reshape main_v196 main_v197 rfl shapeCasts_S1x192000_S192000,
    unary main_arg6 main_v198 ((extractStridedSlice S1x192000 ![1, 0] · slices_S2x192000_S1x192000_1_0) : (⟨S2x192000, .i32⟩ : BufTy).Contents (Elt F) → (⟨S1x192000, .i32⟩ : BufTy).Contents (Elt F)),
    reshape main_v198 main_v199 rfl shapeCasts_S1x192000_S192000,
    binary main_arg1 main_arg18 main_v200 ((fun l r => Host.dotGeneral dot_S6000x128_S128x128_S6000x128_1_0_0_1_n_n none l r) : (⟨S6000x128, .f32⟩ : BufTy).Contents (Elt F) → (⟨S128x128, .f32⟩ : BufTy).Contents (Elt F) → (⟨S6000x128, .f32⟩ : BufTy).Contents (Elt F)),
    nullary main_cst_34 (constant S_ .f32 0x00000000#32),
    unary main_cst_34 main_v201 (broadcastInDim S6000 ![] bcast_S_S6000 : (⟨S_, .f32⟩ : BufTy).Contents (Elt F) → (⟨S6000, .f32⟩ : BufTy).Contents (Elt F)),
    unary main_v199 main_v202 (broadcastInDim S192000x1 ![0] bcast_S192000_S192000x1_0 : (⟨S192000, .i32⟩ : BufTy).Contents (Elt F) → (⟨S192000x1, .i32⟩ : BufTy).Contents (Elt F)),
    ternary main_v201 main_v202 main_arg7 main_v203 ((fun x i u => Host.scatterAdd scatter_S6000_S192000x1_S192000_n_0_0_1 x i u) : (⟨S6000, .f32⟩ : BufTy).Contents (Elt F) → (⟨S192000x1, .i32⟩ : BufTy).Contents (Elt F) → (⟨S192000, .f32⟩ : BufTy).Contents (Elt F) → (⟨S6000, .f32⟩ : BufTy).Contents (Elt F)),
    nullary main_cst_35 (constant S_ .f32 0x3F800000#32),
    unary main_cst_35 main_v204 (broadcastInDim S6000 ![] bcast_S_S6000 : (⟨S_, .f32⟩ : BufTy).Contents (Elt F) → (⟨S6000, .f32⟩ : BufTy).Contents (Elt F)),
    binary main_v203 main_v204 main_v205 (addf : (⟨S6000, .f32⟩ : BufTy).Contents (Elt F) → (⟨S6000, .f32⟩ : BufTy).Contents (Elt F) → (⟨S6000, .f32⟩ : BufTy).Contents (Elt F)),
    unary main_v205 main_v206 (Host.rsqrt : (⟨S6000, .f32⟩ : BufTy).Contents (Elt F) → (⟨S6000, .f32⟩ : BufTy).Contents (Elt F)),
    nullary main_c_36 (constantI S_ 32 0#32),
    unary main_c_36 main_v207 (broadcastInDim S192000 ![] bcast_S_S192000 : (⟨S_, .i32⟩ : BufTy).Contents (Elt F) → (⟨S192000, .i32⟩ : BufTy).Contents (Elt F)),
    binary main_v197 main_v207 main_v208 (cmpi .slt : (⟨S192000, .i32⟩ : BufTy).Contents (Elt F) → (⟨S192000, .i32⟩ : BufTy).Contents (Elt F) → (⟨S192000, .i1⟩ : BufTy).Contents (Elt F)),
    nullary main_c_37 (constantI S_ 32 6000#32),
    unary main_c_37 main_v209 (broadcastInDim S192000 ![] bcast_S_S192000 : (⟨S_, .i32⟩ : BufTy).Contents (Elt F) → (⟨S192000, .i32⟩ : BufTy).Contents (Elt F)),
    binary main_v197 main_v209 main_v210 (addi : (⟨S192000, .i32⟩ : BufTy).Contents (Elt F) → (⟨S192000, .i32⟩ : BufTy).Contents (Elt F) → (⟨S192000, .i32⟩ : BufTy).Contents (Elt F)),
    ternary main_v208 main_v210 main_v197 main_v211 (select : (⟨S192000, .i1⟩ : BufTy).Contents (Elt F) → (⟨S192000, .i32⟩ : BufTy).Contents (Elt F) → (⟨S192000, .i32⟩ : BufTy).Contents (Elt F) → (⟨S192000, .i32⟩ : BufTy).Contents (Elt F)),
    unary main_v211 main_v212 (broadcastInDim S192000x1 ![0] bcast_S192000_S192000x1_0 : (⟨S192000, .i32⟩ : BufTy).Contents (Elt F) → (⟨S192000x1, .i32⟩ : BufTy).Contents (Elt F)),
    binary main_v206 main_v212 main_v213 ((fun x i => Host.gather gather_S6000_S192000x1_S192000_n_0_n_n_0_1_1 x i) : (⟨S6000, .f32⟩ : BufTy).Contents (Elt F) → (⟨S192000x1, .i32⟩ : BufTy).Contents (Elt F) → (⟨S192000, .f32⟩ : BufTy).Contents (Elt F)),
    binary main_v213 main_arg7 main_v214 (mulf : (⟨S192000, .f32⟩ : BufTy).Contents (Elt F) → (⟨S192000, .f32⟩ : BufTy).Contents (Elt F) → (⟨S192000, .f32⟩ : BufTy).Contents (Elt F)),
    nullary main_c_38 (constantI S_ 32 0#32),
    unary main_c_38 main_v215 (broadcastInDim S192000 ![] bcast_S_S192000 : (⟨S_, .i32⟩ : BufTy).Contents (Elt F) → (⟨S192000, .i32⟩ : BufTy).Contents (Elt F)),
    binary main_v199 main_v215 main_v216 (cmpi .slt : (⟨S192000, .i32⟩ : BufTy).Contents (Elt F) → (⟨S192000, .i32⟩ : BufTy).Contents (Elt F) → (⟨S192000, .i1⟩ : BufTy).Contents (Elt F)),
    nullary main_c_39 (constantI S_ 32 6000#32),
    unary main_c_39 main_v217 (broadcastInDim S192000 ![] bcast_S_S192000 : (⟨S_, .i32⟩ : BufTy).Contents (Elt F) → (⟨S192000, .i32⟩ : BufTy).Contents (Elt F)),
    binary main_v199 main_v217 main_v218 (addi : (⟨S192000, .i32⟩ : BufTy).Contents (Elt F) → (⟨S192000, .i32⟩ : BufTy).Contents (Elt F) → (⟨S192000, .i32⟩ : BufTy).Contents (Elt F)),
    ternary main_v216 main_v218 main_v199 main_v219 (select : (⟨S192000, .i1⟩ : BufTy).Contents (Elt F) → (⟨S192000, .i32⟩ : BufTy).Contents (Elt F) → (⟨S192000, .i32⟩ : BufTy).Contents (Elt F) → (⟨S192000, .i32⟩ : BufTy).Contents (Elt F)),
    unary main_v219 main_v220 (broadcastInDim S192000x1 ![0] bcast_S192000_S192000x1_0 : (⟨S192000, .i32⟩ : BufTy).Contents (Elt F) → (⟨S192000x1, .i32⟩ : BufTy).Contents (Elt F)),
    binary main_v206 main_v220 main_v221 ((fun x i => Host.gather gather_S6000_S192000x1_S192000_n_0_n_n_0_1_1 x i) : (⟨S6000, .f32⟩ : BufTy).Contents (Elt F) → (⟨S192000x1, .i32⟩ : BufTy).Contents (Elt F) → (⟨S192000, .f32⟩ : BufTy).Contents (Elt F)),
    binary main_v214 main_v221 main_v222 (mulf : (⟨S192000, .f32⟩ : BufTy).Contents (Elt F) → (⟨S192000, .f32⟩ : BufTy).Contents (Elt F) → (⟨S192000, .f32⟩ : BufTy).Contents (Elt F)),
    unary main_v222 main_v223 (broadcastInDim S192000x1 ![0] bcast_S192000_S192000x1_0 : (⟨S192000, .f32⟩ : BufTy).Contents (Elt F) → (⟨S192000x1, .f32⟩ : BufTy).Contents (Elt F)),
    nullary main_c_40 (constantI S_ 32 0#32),
    unary main_c_40 main_v224 (broadcastInDim S192000 ![] bcast_S_S192000 : (⟨S_, .i32⟩ : BufTy).Contents (Elt F) → (⟨S192000, .i32⟩ : BufTy).Contents (Elt F)),
    binary main_v197 main_v224 main_v225 (cmpi .slt : (⟨S192000, .i32⟩ : BufTy).Contents (Elt F) → (⟨S192000, .i32⟩ : BufTy).Contents (Elt F) → (⟨S192000, .i1⟩ : BufTy).Contents (Elt F)),
    nullary main_c_41 (constantI S_ 32 6000#32),
    unary main_c_41 main_v226 (broadcastInDim S192000 ![] bcast_S_S192000 : (⟨S_, .i32⟩ : BufTy).Contents (Elt F) → (⟨S192000, .i32⟩ : BufTy).Contents (Elt F)),
    binary main_v197 main_v226 main_v227 (addi : (⟨S192000, .i32⟩ : BufTy).Contents (Elt F) → (⟨S192000, .i32⟩ : BufTy).Contents (Elt F) → (⟨S192000, .i32⟩ : BufTy).Contents (Elt F)),
    ternary main_v225 main_v227 main_v197 main_v228 (select : (⟨S192000, .i1⟩ : BufTy).Contents (Elt F) → (⟨S192000, .i32⟩ : BufTy).Contents (Elt F) → (⟨S192000, .i32⟩ : BufTy).Contents (Elt F) → (⟨S192000, .i32⟩ : BufTy).Contents (Elt F)),
    unary main_v228 main_v229 (broadcastInDim S192000x1 ![0] bcast_S192000_S192000x1_0 : (⟨S192000, .i32⟩ : BufTy).Contents (Elt F) → (⟨S192000x1, .i32⟩ : BufTy).Contents (Elt F)),
    binary main_v200 main_v229 main_v230 ((fun x i => Host.gather gather_S6000x128_S192000x1_S192000x128_1_0_n_n_0_1_1128 x i) : (⟨S6000x128, .f32⟩ : BufTy).Contents (Elt F) → (⟨S192000x1, .i32⟩ : BufTy).Contents (Elt F) → (⟨S192000x128, .f32⟩ : BufTy).Contents (Elt F)),
    unary main_v223 main_v231 (broadcastInDim S192000x128 ![0, 1] bcast_S192000x1_S192000x128_0_1 : (⟨S192000x1, .f32⟩ : BufTy).Contents (Elt F) → (⟨S192000x128, .f32⟩ : BufTy).Contents (Elt F)),
    binary main_v231 main_v230 main_v232 (mulf : (⟨S192000x128, .f32⟩ : BufTy).Contents (Elt F) → (⟨S192000x128, .f32⟩ : BufTy).Contents (Elt F) → (⟨S192000x128, .f32⟩ : BufTy).Contents (Elt F)),
    nullary main_cst_42 (constant S_ .f32 0x00000000#32),
    unary main_cst_42 main_v233 (broadcastInDim S6000x128 ![] bcast_S_S6000x128 : (⟨S_, .f32⟩ : BufTy).Contents (Elt F) → (⟨S6000x128, .f32⟩ : BufTy).Contents (Elt F)),
    unary main_v199 main_v234 (broadcastInDim S192000x1 ![0] bcast_S192000_S192000x1_0 : (⟨S192000, .i32⟩ : BufTy).Contents (Elt F) → (⟨S192000x1, .i32⟩ : BufTy).Contents (Elt F)),
    ternary main_v233 main_v234 main_v232 main_v235 ((fun x i u => Host.scatterAdd scatter_S6000x128_S192000x1_S192000x128_1_0_0_1 x i u) : (⟨S6000x128, .f32⟩ : BufTy).Contents (Elt F) → (⟨S192000x1, .i32⟩ : BufTy).Contents (Elt F) → (⟨S192000x128, .f32⟩ : BufTy).Contents (Elt F) → (⟨S6000x128, .f32⟩ : BufTy).Contents (Elt F)),
    binary main_v206 main_v206 main_v236 (mulf : (⟨S6000, .f32⟩ : BufTy).Contents (Elt F) → (⟨S6000, .f32⟩ : BufTy).Contents (Elt F) → (⟨S6000, .f32⟩ : BufTy).Contents (Elt F)),
    unary main_v236 main_v237 (broadcastInDim S6000x1 ![0] bcast_S6000_S6000x1_0 : (⟨S6000, .f32⟩ : BufTy).Contents (Elt F) → (⟨S6000x1, .f32⟩ : BufTy).Contents (Elt F)),
    unary main_v237 main_v238 (broadcastInDim S6000x128 ![0, 1] bcast_S6000x1_S6000x128_0_1 : (⟨S6000x1, .f32⟩ : BufTy).Contents (Elt F) → (⟨S6000x128, .f32⟩ : BufTy).Contents (Elt F)),
    binary main_v238 main_v200 main_v239 (mulf : (⟨S6000x128, .f32⟩ : BufTy).Contents (Elt F) → (⟨S6000x128, .f32⟩ : BufTy).Contents (Elt F) → (⟨S6000x128, .f32⟩ : BufTy).Contents (Elt F)),
    binary main_v235 main_v239 main_v240 (addf : (⟨S6000x128, .f32⟩ : BufTy).Contents (Elt F) → (⟨S6000x128, .f32⟩ : BufTy).Contents (Elt F) → (⟨S6000x128, .f32⟩ : BufTy).Contents (Elt F)),
    unary main_arg19 main_v241 (broadcastInDim S1x128 ![1] bcast_S128_S1x128_1 : (⟨S128, .f32⟩ : BufTy).Contents (Elt F) → (⟨S1x128, .f32⟩ : BufTy).Contents (Elt F)),
    unary main_v241 main_v242 (broadcastInDim S6000x128 ![0, 1] bcast_S1x128_S6000x128_0_1 : (⟨S1x128, .f32⟩ : BufTy).Contents (Elt F) → (⟨S6000x128, .f32⟩ : BufTy).Contents (Elt F)),
    binary main_v240 main_v242 main_v243 (addf : (⟨S6000x128, .f32⟩ : BufTy).Contents (Elt F) → (⟨S6000x128, .f32⟩ : BufTy).Contents (Elt F) → (⟨S6000x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S6000x128, .f32⟩) main_call4_v0) (broadcastInDim S6000x128 ![] bcast_S_S6000x128),
    TRef.binary (TRef.of (T := ⟨S6000x128, .f32⟩) main_v243) (TRef.of (T := ⟨S6000x128, .f32⟩) main_call4_v0) (TRef.of (T := ⟨S6000x128, .f32⟩) main_v244) maximumf ]
theorem L4_sub : (L4 : List (HloOp τ sig (Elt F))).Forall fun op => op.bufs ⊆ tcRefs τ sig :=
  ⟨unary_bufs_sub .., reshape_bufs_sub .., unary_bufs_sub .., reshape_bufs_sub .., binary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub ..⟩
theorem L4_fresh : ∀ op ∈ (L4 : List (HloOp τ sig (Elt F))), op.fresh = ∅ := by
  intro _ h; (repeat (cases h with | head => rfl | tail _ h => ?_)); exact nomatch h

/-- Operations 301 … 360 of @main. -/
abbrev L5 : List (HloOp τ sig (Elt F)) :=
  [ unary main_arg6 main_v245 ((extractStridedSlice S1x192000 ![0, 0] · slices_S2x192000_S1x192000_0_0) : (⟨S2x192000, .i32⟩ : BufTy).Contents (Elt F) → (⟨S1x192000, .i32⟩ : BufTy).Contents (Elt F)),
    reshape main_v245 main_v246 rfl shapeCasts_S1x192000_S192000,
    unary main_arg6 main_v247 ((extractStridedSlice S1x192000 ![1, 0] · slices_S2x192000_S1x192000_1_0) : (⟨S2x192000, .i32⟩ : BufTy).Contents (Elt F) → (⟨S1x192000, .i32⟩ : BufTy).Contents (Elt F)),
    reshape main_v247 main_v248 rfl shapeCasts_S1x192000_S192000,
    binary main_v244 main_arg20 main_v249 ((fun l r => Host.dotGeneral dot_S6000x128_S128x128_S6000x128_1_0_0_1_n_n none l r) : (⟨S6000x128, .f32⟩ : BufTy).Contents (Elt F) → (⟨S128x128, .f32⟩ : BufTy).Contents (Elt F) → (⟨S6000x128, .f32⟩ : BufTy).Contents (Elt F)),
    nullary main_cst_43 (constant S_ .f32 0x00000000#32),
    unary main_cst_43 main_v250 (broadcastInDim S6000 ![] bcast_S_S6000 : (⟨S_, .f32⟩ : BufTy).Contents (Elt F) → (⟨S6000, .f32⟩ : BufTy).Contents (Elt F)),
    unary main_v248 main_v251 (broadcastInDim S192000x1 ![0] bcast_S192000_S192000x1_0 : (⟨S192000, .i32⟩ : BufTy).Contents (Elt F) → (⟨S192000x1, .i32⟩ : BufTy).Contents (Elt F)),
    ternary main_v250 main_v251 main_arg7 main_v252 ((fun x i u => Host.scatterAdd scatter_S6000_S192000x1_S192000_n_0_0_1 x i u) : (⟨S6000, .f32⟩ : BufTy).Contents (Elt F) → (⟨S192000x1, .i32⟩ : BufTy).Contents (Elt F) → (⟨S192000, .f32⟩ : BufTy).Contents (Elt F) → (⟨S6000, .f32⟩ : BufTy).Contents (Elt F)),
    nullary main_cst_44 (constant S_ .f32 0x3F800000#32),
    unary main_cst_44 main_v253 (broadcastInDim S6000 ![] bcast_S_S6000 : (⟨S_, .f32⟩ : BufTy).Contents (Elt F) → (⟨S6000, .f32⟩ : BufTy).Contents (Elt F)),
    binary main_v252 main_v253 main_v254 (addf : (⟨S6000, .f32⟩ : BufTy).Contents (Elt F) → (⟨S6000, .f32⟩ : BufTy).Contents (Elt F) → (⟨S6000, .f32⟩ : BufTy).Contents (Elt F)),
    unary main_v254 main_v255 (Host.rsqrt : (⟨S6000, .f32⟩ : BufTy).Contents (Elt F) → (⟨S6000, .f32⟩ : BufTy).Contents (Elt F)),
    nullary main_c_45 (constantI S_ 32 0#32),
    unary main_c_45 main_v256 (broadcastInDim S192000 ![] bcast_S_S192000 : (⟨S_, .i32⟩ : BufTy).Contents (Elt F) → (⟨S192000, .i32⟩ : BufTy).Contents (Elt F)),
    binary main_v246 main_v256 main_v257 (cmpi .slt : (⟨S192000, .i32⟩ : BufTy).Contents (Elt F) → (⟨S192000, .i32⟩ : BufTy).Contents (Elt F) → (⟨S192000, .i1⟩ : BufTy).Contents (Elt F)),
    nullary main_c_46 (constantI S_ 32 6000#32),
    unary main_c_46 main_v258 (broadcastInDim S192000 ![] bcast_S_S192000 : (⟨S_, .i32⟩ : BufTy).Contents (Elt F) → (⟨S192000, .i32⟩ : BufTy).Contents (Elt F)),
    binary main_v246 main_v258 main_v259 (addi : (⟨S192000, .i32⟩ : BufTy).Contents (Elt F) → (⟨S192000, .i32⟩ : BufTy).Contents (Elt F) → (⟨S192000, .i32⟩ : BufTy).Contents (Elt F)),
    ternary main_v257 main_v259 main_v246 main_v260 (select : (⟨S192000, .i1⟩ : BufTy).Contents (Elt F) → (⟨S192000, .i32⟩ : BufTy).Contents (Elt F) → (⟨S192000, .i32⟩ : BufTy).Contents (Elt F) → (⟨S192000, .i32⟩ : BufTy).Contents (Elt F)),
    unary main_v260 main_v261 (broadcastInDim S192000x1 ![0] bcast_S192000_S192000x1_0 : (⟨S192000, .i32⟩ : BufTy).Contents (Elt F) → (⟨S192000x1, .i32⟩ : BufTy).Contents (Elt F)),
    binary main_v255 main_v261 main_v262 ((fun x i => Host.gather gather_S6000_S192000x1_S192000_n_0_n_n_0_1_1 x i) : (⟨S6000, .f32⟩ : BufTy).Contents (Elt F) → (⟨S192000x1, .i32⟩ : BufTy).Contents (Elt F) → (⟨S192000, .f32⟩ : BufTy).Contents (Elt F)),
    binary main_v262 main_arg7 main_v263 (mulf : (⟨S192000, .f32⟩ : BufTy).Contents (Elt F) → (⟨S192000, .f32⟩ : BufTy).Contents (Elt F) → (⟨S192000, .f32⟩ : BufTy).Contents (Elt F)),
    nullary main_c_47 (constantI S_ 32 0#32),
    unary main_c_47 main_v264 (broadcastInDim S192000 ![] bcast_S_S192000 : (⟨S_, .i32⟩ : BufTy).Contents (Elt F) → (⟨S192000, .i32⟩ : BufTy).Contents (Elt F)),
    binary main_v248 main_v264 main_v265 (cmpi .slt : (⟨S192000, .i32⟩ : BufTy).Contents (Elt F) → (⟨S192000, .i32⟩ : BufTy).Contents (Elt F) → (⟨S192000, .i1⟩ : BufTy).Contents (Elt F)),
    nullary main_c_48 (constantI S_ 32 6000#32),
    unary main_c_48 main_v266 (broadcastInDim S192000 ![] bcast_S_S192000 : (⟨S_, .i32⟩ : BufTy).Contents (Elt F) → (⟨S192000, .i32⟩ : BufTy).Contents (Elt F)),
    binary main_v248 main_v266 main_v267 (addi : (⟨S192000, .i32⟩ : BufTy).Contents (Elt F) → (⟨S192000, .i32⟩ : BufTy).Contents (Elt F) → (⟨S192000, .i32⟩ : BufTy).Contents (Elt F)),
    ternary main_v265 main_v267 main_v248 main_v268 (select : (⟨S192000, .i1⟩ : BufTy).Contents (Elt F) → (⟨S192000, .i32⟩ : BufTy).Contents (Elt F) → (⟨S192000, .i32⟩ : BufTy).Contents (Elt F) → (⟨S192000, .i32⟩ : BufTy).Contents (Elt F)),
    unary main_v268 main_v269 (broadcastInDim S192000x1 ![0] bcast_S192000_S192000x1_0 : (⟨S192000, .i32⟩ : BufTy).Contents (Elt F) → (⟨S192000x1, .i32⟩ : BufTy).Contents (Elt F)),
    binary main_v255 main_v269 main_v270 ((fun x i => Host.gather gather_S6000_S192000x1_S192000_n_0_n_n_0_1_1 x i) : (⟨S6000, .f32⟩ : BufTy).Contents (Elt F) → (⟨S192000x1, .i32⟩ : BufTy).Contents (Elt F) → (⟨S192000, .f32⟩ : BufTy).Contents (Elt F)),
    binary main_v263 main_v270 main_v271 (mulf : (⟨S192000, .f32⟩ : BufTy).Contents (Elt F) → (⟨S192000, .f32⟩ : BufTy).Contents (Elt F) → (⟨S192000, .f32⟩ : BufTy).Contents (Elt F)),
    unary main_v271 main_v272 (broadcastInDim S192000x1 ![0] bcast_S192000_S192000x1_0 : (⟨S192000, .f32⟩ : BufTy).Contents (Elt F) → (⟨S192000x1, .f32⟩ : BufTy).Contents (Elt F)),
    nullary main_c_49 (constantI S_ 32 0#32),
    unary main_c_49 main_v273 (broadcastInDim S192000 ![] bcast_S_S192000 : (⟨S_, .i32⟩ : BufTy).Contents (Elt F) → (⟨S192000, .i32⟩ : BufTy).Contents (Elt F)),
    binary main_v246 main_v273 main_v274 (cmpi .slt : (⟨S192000, .i32⟩ : BufTy).Contents (Elt F) → (⟨S192000, .i32⟩ : BufTy).Contents (Elt F) → (⟨S192000, .i1⟩ : BufTy).Contents (Elt F)),
    nullary main_c_50 (constantI S_ 32 6000#32),
    unary main_c_50 main_v275 (broadcastInDim S192000 ![] bcast_S_S192000 : (⟨S_, .i32⟩ : BufTy).Contents (Elt F) → (⟨S192000, .i32⟩ : BufTy).Contents (Elt F)),
    binary main_v246 main_v275 main_v276 (addi : (⟨S192000, .i32⟩ : BufTy).Contents (Elt F) → (⟨S192000, .i32⟩ : BufTy).Contents (Elt F) → (⟨S192000, .i32⟩ : BufTy).Contents (Elt F)),
    ternary main_v274 main_v276 main_v246 main_v277 (select : (⟨S192000, .i1⟩ : BufTy).Contents (Elt F) → (⟨S192000, .i32⟩ : BufTy).Contents (Elt F) → (⟨S192000, .i32⟩ : BufTy).Contents (Elt F) → (⟨S192000, .i32⟩ : BufTy).Contents (Elt F)),
    unary main_v277 main_v278 (broadcastInDim S192000x1 ![0] bcast_S192000_S192000x1_0 : (⟨S192000, .i32⟩ : BufTy).Contents (Elt F) → (⟨S192000x1, .i32⟩ : BufTy).Contents (Elt F)),
    binary main_v249 main_v278 main_v279 ((fun x i => Host.gather gather_S6000x128_S192000x1_S192000x128_1_0_n_n_0_1_1128 x i) : (⟨S6000x128, .f32⟩ : BufTy).Contents (Elt F) → (⟨S192000x1, .i32⟩ : BufTy).Contents (Elt F) → (⟨S192000x128, .f32⟩ : BufTy).Contents (Elt F)),
    unary main_v272 main_v280 (broadcastInDim S192000x128 ![0, 1] bcast_S192000x1_S192000x128_0_1 : (⟨S192000x1, .f32⟩ : BufTy).Contents (Elt F) → (⟨S192000x128, .f32⟩ : BufTy).Contents (Elt F)),
    binary main_v280 main_v279 main_v281 (mulf : (⟨S192000x128, .f32⟩ : BufTy).Contents (Elt F) → (⟨S192000x128, .f32⟩ : BufTy).Contents (Elt F) → (⟨S192000x128, .f32⟩ : BufTy).Contents (Elt F)),
    nullary main_cst_51 (constant S_ .f32 0x00000000#32),
    unary main_cst_51 main_v282 (broadcastInDim S6000x128 ![] bcast_S_S6000x128 : (⟨S_, .f32⟩ : BufTy).Contents (Elt F) → (⟨S6000x128, .f32⟩ : BufTy).Contents (Elt F)),
    unary main_v248 main_v283 (broadcastInDim S192000x1 ![0] bcast_S192000_S192000x1_0 : (⟨S192000, .i32⟩ : BufTy).Contents (Elt F) → (⟨S192000x1, .i32⟩ : BufTy).Contents (Elt F)),
    ternary main_v282 main_v283 main_v281 main_v284 ((fun x i u => Host.scatterAdd scatter_S6000x128_S192000x1_S192000x128_1_0_0_1 x i u) : (⟨S6000x128, .f32⟩ : BufTy).Contents (Elt F) → (⟨S192000x1, .i32⟩ : BufTy).Contents (Elt F) → (⟨S192000x128, .f32⟩ : BufTy).Contents (Elt F) → (⟨S6000x128, .f32⟩ : BufTy).Contents (Elt F)),
    binary main_v255 main_v255 main_v285 (mulf : (⟨S6000, .f32⟩ : BufTy).Contents (Elt F) → (⟨S6000, .f32⟩ : BufTy).Contents (Elt F) → (⟨S6000, .f32⟩ : BufTy).Contents (Elt F)),
    unary main_v285 main_v286 (broadcastInDim S6000x1 ![0] bcast_S6000_S6000x1_0 : (⟨S6000, .f32⟩ : BufTy).Contents (Elt F) → (⟨S6000x1, .f32⟩ : BufTy).Contents (Elt F)),
    unary main_v286 main_v287 (broadcastInDim S6000x128 ![0, 1] bcast_S6000x1_S6000x128_0_1 : (⟨S6000x1, .f32⟩ : BufTy).Contents (Elt F) → (⟨S6000x128, .f32⟩ : BufTy).Contents (Elt F)),
    binary main_v287 main_v249 main_v288 (mulf : (⟨S6000x128, .f32⟩ : BufTy).Contents (Elt F) → (⟨S6000x128, .f32⟩ : BufTy).Contents (Elt F) → (⟨S6000x128, .f32⟩ : BufTy).Contents (Elt F)),
    binary main_v284 main_v288 main_v289 (addf : (⟨S6000x128, .f32⟩ : BufTy).Contents (Elt F) → (⟨S6000x128, .f32⟩ : BufTy).Contents (Elt F) → (⟨S6000x128, .f32⟩ : BufTy).Contents (Elt F)),
    unary main_arg21 main_v290 (broadcastInDim S1x128 ![1] bcast_S128_S1x128_1 : (⟨S128, .f32⟩ : BufTy).Contents (Elt F) → (⟨S1x128, .f32⟩ : BufTy).Contents (Elt F)),
    unary main_v290 main_v291 (broadcastInDim S6000x128 ![0, 1] bcast_S1x128_S6000x128_0_1 : (⟨S1x128, .f32⟩ : BufTy).Contents (Elt F) → (⟨S6000x128, .f32⟩ : BufTy).Contents (Elt F)),
    binary main_v289 main_v291 main_v292 (addf : (⟨S6000x128, .f32⟩ : BufTy).Contents (Elt F) → (⟨S6000x128, .f32⟩ : BufTy).Contents (Elt F) → (⟨S6000x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S6000x128, .f32⟩) main_call5_v0) (broadcastInDim S6000x128 ![] bcast_S_S6000x128),
    TRef.binary (TRef.of (T := ⟨S6000x128, .f32⟩) main_v292) (TRef.of (T := ⟨S6000x128, .f32⟩) main_call5_v0) (TRef.of (T := ⟨S6000x128, .f32⟩) main_v293) maximumf ]
theorem L5_sub : (L5 : List (HloOp τ sig (Elt F))).Forall fun op => op.bufs ⊆ tcRefs τ sig :=
  ⟨unary_bufs_sub .., reshape_bufs_sub .., unary_bufs_sub .., reshape_bufs_sub .., binary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub ..⟩
theorem L5_fresh : ∀ op ∈ (L5 : List (HloOp τ sig (Elt F))), op.fresh = ∅ := by
  intro _ h; (repeat (cases h with | head => rfl | tail _ h => ?_)); exact nomatch h

/-- Operations 361 … 420 of @main. -/
abbrev L6 : List (HloOp τ sig (Elt F)) :=
  [ unary main_arg8 main_v294 ((extractStridedSlice S1x192000 ![0, 0] · slices_S2x192000_S1x192000_0_0) : (⟨S2x192000, .i32⟩ : BufTy).Contents (Elt F) → (⟨S1x192000, .i32⟩ : BufTy).Contents (Elt F)),
    reshape main_v294 main_v295 rfl shapeCasts_S1x192000_S192000,
    unary main_arg8 main_v296 ((extractStridedSlice S1x192000 ![1, 0] · slices_S2x192000_S1x192000_1_0) : (⟨S2x192000, .i32⟩ : BufTy).Contents (Elt F) → (⟨S1x192000, .i32⟩ : BufTy).Contents (Elt F)),
    reshape main_v296 main_v297 rfl shapeCasts_S1x192000_S192000,
    binary main_arg1 main_arg22 main_v298 ((fun l r => Host.dotGeneral dot_S6000x128_S128x128_S6000x128_1_0_0_1_n_n none l r) : (⟨S6000x128, .f32⟩ : BufTy).Contents (Elt F) → (⟨S128x128, .f32⟩ : BufTy).Contents (Elt F) → (⟨S6000x128, .f32⟩ : BufTy).Contents (Elt F)),
    nullary main_cst_52 (constant S_ .f32 0x00000000#32),
    unary main_cst_52 main_v299 (broadcastInDim S6000 ![] bcast_S_S6000 : (⟨S_, .f32⟩ : BufTy).Contents (Elt F) → (⟨S6000, .f32⟩ : BufTy).Contents (Elt F)),
    unary main_v297 main_v300 (broadcastInDim S192000x1 ![0] bcast_S192000_S192000x1_0 : (⟨S192000, .i32⟩ : BufTy).Contents (Elt F) → (⟨S192000x1, .i32⟩ : BufTy).Contents (Elt F)),
    ternary main_v299 main_v300 main_arg9 main_v301 ((fun x i u => Host.scatterAdd scatter_S6000_S192000x1_S192000_n_0_0_1 x i u) : (⟨S6000, .f32⟩ : BufTy).Contents (Elt F) → (⟨S192000x1, .i32⟩ : BufTy).Contents (Elt F) → (⟨S192000, .f32⟩ : BufTy).Contents (Elt F) → (⟨S6000, .f32⟩ : BufTy).Contents (Elt F)),
    nullary main_cst_53 (constant S_ .f32 0x3F800000#32),
    unary main_cst_53 main_v302 (broadcastInDim S6000 ![] bcast_S_S6000 : (⟨S_, .f32⟩ : BufTy).Contents (Elt F) → (⟨S6000, .f32⟩ : BufTy).Contents (Elt F)),
    binary main_v301 main_v302 main_v303 (addf : (⟨S6000, .f32⟩ : BufTy).Contents (Elt F) → (⟨S6000, .f32⟩ : BufTy).Contents (Elt F) → (⟨S6000, .f32⟩ : BufTy).Contents (Elt F)),
    unary main_v303 main_v304 (Host.rsqrt : (⟨S6000, .f32⟩ : BufTy).Contents (Elt F) → (⟨S6000, .f32⟩ : BufTy).Contents (Elt F)),
    nullary main_c_54 (constantI S_ 32 0#32),
    unary main_c_54 main_v305 (broadcastInDim S192000 ![] bcast_S_S192000 : (⟨S_, .i32⟩ : BufTy).Contents (Elt F) → (⟨S192000, .i32⟩ : BufTy).Contents (Elt F)),
    binary main_v295 main_v305 main_v306 (cmpi .slt : (⟨S192000, .i32⟩ : BufTy).Contents (Elt F) → (⟨S192000, .i32⟩ : BufTy).Contents (Elt F) → (⟨S192000, .i1⟩ : BufTy).Contents (Elt F)),
    nullary main_c_55 (constantI S_ 32 6000#32),
    unary main_c_55 main_v307 (broadcastInDim S192000 ![] bcast_S_S192000 : (⟨S_, .i32⟩ : BufTy).Contents (Elt F) → (⟨S192000, .i32⟩ : BufTy).Contents (Elt F)),
    binary main_v295 main_v307 main_v308 (addi : (⟨S192000, .i32⟩ : BufTy).Contents (Elt F) → (⟨S192000, .i32⟩ : BufTy).Contents (Elt F) → (⟨S192000, .i32⟩ : BufTy).Contents (Elt F)),
    ternary main_v306 main_v308 main_v295 main_v309 (select : (⟨S192000, .i1⟩ : BufTy).Contents (Elt F) → (⟨S192000, .i32⟩ : BufTy).Contents (Elt F) → (⟨S192000, .i32⟩ : BufTy).Contents (Elt F) → (⟨S192000, .i32⟩ : BufTy).Contents (Elt F)),
    unary main_v309 main_v310 (broadcastInDim S192000x1 ![0] bcast_S192000_S192000x1_0 : (⟨S192000, .i32⟩ : BufTy).Contents (Elt F) → (⟨S192000x1, .i32⟩ : BufTy).Contents (Elt F)),
    binary main_v304 main_v310 main_v311 ((fun x i => Host.gather gather_S6000_S192000x1_S192000_n_0_n_n_0_1_1 x i) : (⟨S6000, .f32⟩ : BufTy).Contents (Elt F) → (⟨S192000x1, .i32⟩ : BufTy).Contents (Elt F) → (⟨S192000, .f32⟩ : BufTy).Contents (Elt F)),
    binary main_v311 main_arg9 main_v312 (mulf : (⟨S192000, .f32⟩ : BufTy).Contents (Elt F) → (⟨S192000, .f32⟩ : BufTy).Contents (Elt F) → (⟨S192000, .f32⟩ : BufTy).Contents (Elt F)),
    nullary main_c_56 (constantI S_ 32 0#32),
    unary main_c_56 main_v313 (broadcastInDim S192000 ![] bcast_S_S192000 : (⟨S_, .i32⟩ : BufTy).Contents (Elt F) → (⟨S192000, .i32⟩ : BufTy).Contents (Elt F)),
    binary main_v297 main_v313 main_v314 (cmpi .slt : (⟨S192000, .i32⟩ : BufTy).Contents (Elt F) → (⟨S192000, .i32⟩ : BufTy).Contents (Elt F) → (⟨S192000, .i1⟩ : BufTy).Contents (Elt F)),
    nullary main_c_57 (constantI S_ 32 6000#32),
    unary main_c_57 main_v315 (broadcastInDim S192000 ![] bcast_S_S192000 : (⟨S_, .i32⟩ : BufTy).Contents (Elt F) → (⟨S192000, .i32⟩ : BufTy).Contents (Elt F)),
    binary main_v297 main_v315 main_v316 (addi : (⟨S192000, .i32⟩ : BufTy).Contents (Elt F) → (⟨S192000, .i32⟩ : BufTy).Contents (Elt F) → (⟨S192000, .i32⟩ : BufTy).Contents (Elt F)),
    ternary main_v314 main_v316 main_v297 main_v317 (select : (⟨S192000, .i1⟩ : BufTy).Contents (Elt F) → (⟨S192000, .i32⟩ : BufTy).Contents (Elt F) → (⟨S192000, .i32⟩ : BufTy).Contents (Elt F) → (⟨S192000, .i32⟩ : BufTy).Contents (Elt F)),
    unary main_v317 main_v318 (broadcastInDim S192000x1 ![0] bcast_S192000_S192000x1_0 : (⟨S192000, .i32⟩ : BufTy).Contents (Elt F) → (⟨S192000x1, .i32⟩ : BufTy).Contents (Elt F)),
    binary main_v304 main_v318 main_v319 ((fun x i => Host.gather gather_S6000_S192000x1_S192000_n_0_n_n_0_1_1 x i) : (⟨S6000, .f32⟩ : BufTy).Contents (Elt F) → (⟨S192000x1, .i32⟩ : BufTy).Contents (Elt F) → (⟨S192000, .f32⟩ : BufTy).Contents (Elt F)),
    binary main_v312 main_v319 main_v320 (mulf : (⟨S192000, .f32⟩ : BufTy).Contents (Elt F) → (⟨S192000, .f32⟩ : BufTy).Contents (Elt F) → (⟨S192000, .f32⟩ : BufTy).Contents (Elt F)),
    unary main_v320 main_v321 (broadcastInDim S192000x1 ![0] bcast_S192000_S192000x1_0 : (⟨S192000, .f32⟩ : BufTy).Contents (Elt F) → (⟨S192000x1, .f32⟩ : BufTy).Contents (Elt F)),
    nullary main_c_58 (constantI S_ 32 0#32),
    unary main_c_58 main_v322 (broadcastInDim S192000 ![] bcast_S_S192000 : (⟨S_, .i32⟩ : BufTy).Contents (Elt F) → (⟨S192000, .i32⟩ : BufTy).Contents (Elt F)),
    binary main_v295 main_v322 main_v323 (cmpi .slt : (⟨S192000, .i32⟩ : BufTy).Contents (Elt F) → (⟨S192000, .i32⟩ : BufTy).Contents (Elt F) → (⟨S192000, .i1⟩ : BufTy).Contents (Elt F)),
    nullary main_c_59 (constantI S_ 32 6000#32),
    unary main_c_59 main_v324 (broadcastInDim S192000 ![] bcast_S_S192000 : (⟨S_, .i32⟩ : BufTy).Contents (Elt F) → (⟨S192000, .i32⟩ : BufTy).Contents (Elt F)),
    binary main_v295 main_v324 main_v325 (addi : (⟨S192000, .i32⟩ : BufTy).Contents (Elt F) → (⟨S192000, .i32⟩ : BufTy).Contents (Elt F) → (⟨S192000, .i32⟩ : BufTy).Contents (Elt F)),
    ternary main_v323 main_v325 main_v295 main_v326 (select : (⟨S192000, .i1⟩ : BufTy).Contents (Elt F) → (⟨S192000, .i32⟩ : BufTy).Contents (Elt F) → (⟨S192000, .i32⟩ : BufTy).Contents (Elt F) → (⟨S192000, .i32⟩ : BufTy).Contents (Elt F)),
    unary main_v326 main_v327 (broadcastInDim S192000x1 ![0] bcast_S192000_S192000x1_0 : (⟨S192000, .i32⟩ : BufTy).Contents (Elt F) → (⟨S192000x1, .i32⟩ : BufTy).Contents (Elt F)),
    binary main_v298 main_v327 main_v328 ((fun x i => Host.gather gather_S6000x128_S192000x1_S192000x128_1_0_n_n_0_1_1128 x i) : (⟨S6000x128, .f32⟩ : BufTy).Contents (Elt F) → (⟨S192000x1, .i32⟩ : BufTy).Contents (Elt F) → (⟨S192000x128, .f32⟩ : BufTy).Contents (Elt F)),
    unary main_v321 main_v329 (broadcastInDim S192000x128 ![0, 1] bcast_S192000x1_S192000x128_0_1 : (⟨S192000x1, .f32⟩ : BufTy).Contents (Elt F) → (⟨S192000x128, .f32⟩ : BufTy).Contents (Elt F)),
    binary main_v329 main_v328 main_v330 (mulf : (⟨S192000x128, .f32⟩ : BufTy).Contents (Elt F) → (⟨S192000x128, .f32⟩ : BufTy).Contents (Elt F) → (⟨S192000x128, .f32⟩ : BufTy).Contents (Elt F)),
    nullary main_cst_60 (constant S_ .f32 0x00000000#32),
    unary main_cst_60 main_v331 (broadcastInDim S6000x128 ![] bcast_S_S6000x128 : (⟨S_, .f32⟩ : BufTy).Contents (Elt F) → (⟨S6000x128, .f32⟩ : BufTy).Contents (Elt F)),
    unary main_v297 main_v332 (broadcastInDim S192000x1 ![0] bcast_S192000_S192000x1_0 : (⟨S192000, .i32⟩ : BufTy).Contents (Elt F) → (⟨S192000x1, .i32⟩ : BufTy).Contents (Elt F)),
    ternary main_v331 main_v332 main_v330 main_v333 ((fun x i u => Host.scatterAdd scatter_S6000x128_S192000x1_S192000x128_1_0_0_1 x i u) : (⟨S6000x128, .f32⟩ : BufTy).Contents (Elt F) → (⟨S192000x1, .i32⟩ : BufTy).Contents (Elt F) → (⟨S192000x128, .f32⟩ : BufTy).Contents (Elt F) → (⟨S6000x128, .f32⟩ : BufTy).Contents (Elt F)),
    binary main_v304 main_v304 main_v334 (mulf : (⟨S6000, .f32⟩ : BufTy).Contents (Elt F) → (⟨S6000, .f32⟩ : BufTy).Contents (Elt F) → (⟨S6000, .f32⟩ : BufTy).Contents (Elt F)),
    unary main_v334 main_v335 (broadcastInDim S6000x1 ![0] bcast_S6000_S6000x1_0 : (⟨S6000, .f32⟩ : BufTy).Contents (Elt F) → (⟨S6000x1, .f32⟩ : BufTy).Contents (Elt F)),
    unary main_v335 main_v336 (broadcastInDim S6000x128 ![0, 1] bcast_S6000x1_S6000x128_0_1 : (⟨S6000x1, .f32⟩ : BufTy).Contents (Elt F) → (⟨S6000x128, .f32⟩ : BufTy).Contents (Elt F)),
    binary main_v336 main_v298 main_v337 (mulf : (⟨S6000x128, .f32⟩ : BufTy).Contents (Elt F) → (⟨S6000x128, .f32⟩ : BufTy).Contents (Elt F) → (⟨S6000x128, .f32⟩ : BufTy).Contents (Elt F)),
    binary main_v333 main_v337 main_v338 (addf : (⟨S6000x128, .f32⟩ : BufTy).Contents (Elt F) → (⟨S6000x128, .f32⟩ : BufTy).Contents (Elt F) → (⟨S6000x128, .f32⟩ : BufTy).Contents (Elt F)),
    unary main_arg23 main_v339 (broadcastInDim S1x128 ![1] bcast_S128_S1x128_1 : (⟨S128, .f32⟩ : BufTy).Contents (Elt F) → (⟨S1x128, .f32⟩ : BufTy).Contents (Elt F)),
    unary main_v339 main_v340 (broadcastInDim S6000x128 ![0, 1] bcast_S1x128_S6000x128_0_1 : (⟨S1x128, .f32⟩ : BufTy).Contents (Elt F) → (⟨S6000x128, .f32⟩ : BufTy).Contents (Elt F)),
    binary main_v338 main_v340 main_v341 (addf : (⟨S6000x128, .f32⟩ : BufTy).Contents (Elt F) → (⟨S6000x128, .f32⟩ : BufTy).Contents (Elt F) → (⟨S6000x128, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S6000x128, .f32⟩) main_call6_v0) (broadcastInDim S6000x128 ![] bcast_S_S6000x128),
    TRef.binary (TRef.of (T := ⟨S6000x128, .f32⟩) main_v341) (TRef.of (T := ⟨S6000x128, .f32⟩) main_call6_v0) (TRef.of (T := ⟨S6000x128, .f32⟩) main_v342) maximumf ]
theorem L6_sub : (L6 : List (HloOp τ sig (Elt F))).Forall fun op => op.bufs ⊆ tcRefs τ sig :=
  ⟨unary_bufs_sub .., reshape_bufs_sub .., unary_bufs_sub .., reshape_bufs_sub .., binary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub ..⟩
theorem L6_fresh : ∀ op ∈ (L6 : List (HloOp τ sig (Elt F))), op.fresh = ∅ := by
  intro _ h; (repeat (cases h with | head => rfl | tail _ h => ?_)); exact nomatch h

/-- Operations 421 … 480 of @main. -/
abbrev L7 : List (HloOp τ sig (Elt F)) :=
  [ unary main_arg8 main_v343 ((extractStridedSlice S1x192000 ![0, 0] · slices_S2x192000_S1x192000_0_0) : (⟨S2x192000, .i32⟩ : BufTy).Contents (Elt F) → (⟨S1x192000, .i32⟩ : BufTy).Contents (Elt F)),
    reshape main_v343 main_v344 rfl shapeCasts_S1x192000_S192000,
    unary main_arg8 main_v345 ((extractStridedSlice S1x192000 ![1, 0] · slices_S2x192000_S1x192000_1_0) : (⟨S2x192000, .i32⟩ : BufTy).Contents (Elt F) → (⟨S1x192000, .i32⟩ : BufTy).Contents (Elt F)),
    reshape main_v345 main_v346 rfl shapeCasts_S1x192000_S192000,
    binary main_v342 main_arg24 main_v347 ((fun l r => Host.dotGeneral dot_S6000x128_S128x128_S6000x128_1_0_0_1_n_n none l r) : (⟨S6000x128, .f32⟩ : BufTy).Contents (Elt F) → (⟨S128x128, .f32⟩ : BufTy).Contents (Elt F) → (⟨S6000x128, .f32⟩ : BufTy).Contents (Elt F)),
    nullary main_cst_61 (constant S_ .f32 0x00000000#32),
    unary main_cst_61 main_v348 (broadcastInDim S6000 ![] bcast_S_S6000 : (⟨S_, .f32⟩ : BufTy).Contents (Elt F) → (⟨S6000, .f32⟩ : BufTy).Contents (Elt F)),
    unary main_v346 main_v349 (broadcastInDim S192000x1 ![0] bcast_S192000_S192000x1_0 : (⟨S192000, .i32⟩ : BufTy).Contents (Elt F) → (⟨S192000x1, .i32⟩ : BufTy).Contents (Elt F)),
    ternary main_v348 main_v349 main_arg9 main_v350 ((fun x i u => Host.scatterAdd scatter_S6000_S192000x1_S192000_n_0_0_1 x i u) : (⟨S6000, .f32⟩ : BufTy).Contents (Elt F) → (⟨S192000x1, .i32⟩ : BufTy).Contents (Elt F) → (⟨S192000, .f32⟩ : BufTy).Contents (Elt F) → (⟨S6000, .f32⟩ : BufTy).Contents (Elt F)),
    nullary main_cst_62 (constant S_ .f32 0x3F800000#32),
    unary main_cst_62 main_v351 (broadcastInDim S6000 ![] bcast_S_S6000 : (⟨S_, .f32⟩ : BufTy).Contents (Elt F) → (⟨S6000, .f32⟩ : BufTy).Contents (Elt F)),
    binary main_v350 main_v351 main_v352 (addf : (⟨S6000, .f32⟩ : BufTy).Contents (Elt F) → (⟨S6000, .f32⟩ : BufTy).Contents (Elt F) → (⟨S6000, .f32⟩ : BufTy).Contents (Elt F)),
    unary main_v352 main_v353 (Host.rsqrt : (⟨S6000, .f32⟩ : BufTy).Contents (Elt F) → (⟨S6000, .f32⟩ : BufTy).Contents (Elt F)),
    nullary main_c_63 (constantI S_ 32 0#32),
    unary main_c_63 main_v354 (broadcastInDim S192000 ![] bcast_S_S192000 : (⟨S_, .i32⟩ : BufTy).Contents (Elt F) → (⟨S192000, .i32⟩ : BufTy).Contents (Elt F)),
    binary main_v344 main_v354 main_v355 (cmpi .slt : (⟨S192000, .i32⟩ : BufTy).Contents (Elt F) → (⟨S192000, .i32⟩ : BufTy).Contents (Elt F) → (⟨S192000, .i1⟩ : BufTy).Contents (Elt F)),
    nullary main_c_64 (constantI S_ 32 6000#32),
    unary main_c_64 main_v356 (broadcastInDim S192000 ![] bcast_S_S192000 : (⟨S_, .i32⟩ : BufTy).Contents (Elt F) → (⟨S192000, .i32⟩ : BufTy).Contents (Elt F)),
    binary main_v344 main_v356 main_v357 (addi : (⟨S192000, .i32⟩ : BufTy).Contents (Elt F) → (⟨S192000, .i32⟩ : BufTy).Contents (Elt F) → (⟨S192000, .i32⟩ : BufTy).Contents (Elt F)),
    ternary main_v355 main_v357 main_v344 main_v358 (select : (⟨S192000, .i1⟩ : BufTy).Contents (Elt F) → (⟨S192000, .i32⟩ : BufTy).Contents (Elt F) → (⟨S192000, .i32⟩ : BufTy).Contents (Elt F) → (⟨S192000, .i32⟩ : BufTy).Contents (Elt F)),
    unary main_v358 main_v359 (broadcastInDim S192000x1 ![0] bcast_S192000_S192000x1_0 : (⟨S192000, .i32⟩ : BufTy).Contents (Elt F) → (⟨S192000x1, .i32⟩ : BufTy).Contents (Elt F)),
    binary main_v353 main_v359 main_v360 ((fun x i => Host.gather gather_S6000_S192000x1_S192000_n_0_n_n_0_1_1 x i) : (⟨S6000, .f32⟩ : BufTy).Contents (Elt F) → (⟨S192000x1, .i32⟩ : BufTy).Contents (Elt F) → (⟨S192000, .f32⟩ : BufTy).Contents (Elt F)),
    binary main_v360 main_arg9 main_v361 (mulf : (⟨S192000, .f32⟩ : BufTy).Contents (Elt F) → (⟨S192000, .f32⟩ : BufTy).Contents (Elt F) → (⟨S192000, .f32⟩ : BufTy).Contents (Elt F)),
    nullary main_c_65 (constantI S_ 32 0#32),
    unary main_c_65 main_v362 (broadcastInDim S192000 ![] bcast_S_S192000 : (⟨S_, .i32⟩ : BufTy).Contents (Elt F) → (⟨S192000, .i32⟩ : BufTy).Contents (Elt F)),
    binary main_v346 main_v362 main_v363 (cmpi .slt : (⟨S192000, .i32⟩ : BufTy).Contents (Elt F) → (⟨S192000, .i32⟩ : BufTy).Contents (Elt F) → (⟨S192000, .i1⟩ : BufTy).Contents (Elt F)),
    nullary main_c_66 (constantI S_ 32 6000#32),
    unary main_c_66 main_v364 (broadcastInDim S192000 ![] bcast_S_S192000 : (⟨S_, .i32⟩ : BufTy).Contents (Elt F) → (⟨S192000, .i32⟩ : BufTy).Contents (Elt F)),
    binary main_v346 main_v364 main_v365 (addi : (⟨S192000, .i32⟩ : BufTy).Contents (Elt F) → (⟨S192000, .i32⟩ : BufTy).Contents (Elt F) → (⟨S192000, .i32⟩ : BufTy).Contents (Elt F)),
    ternary main_v363 main_v365 main_v346 main_v366 (select : (⟨S192000, .i1⟩ : BufTy).Contents (Elt F) → (⟨S192000, .i32⟩ : BufTy).Contents (Elt F) → (⟨S192000, .i32⟩ : BufTy).Contents (Elt F) → (⟨S192000, .i32⟩ : BufTy).Contents (Elt F)),
    unary main_v366 main_v367 (broadcastInDim S192000x1 ![0] bcast_S192000_S192000x1_0 : (⟨S192000, .i32⟩ : BufTy).Contents (Elt F) → (⟨S192000x1, .i32⟩ : BufTy).Contents (Elt F)),
    binary main_v353 main_v367 main_v368 ((fun x i => Host.gather gather_S6000_S192000x1_S192000_n_0_n_n_0_1_1 x i) : (⟨S6000, .f32⟩ : BufTy).Contents (Elt F) → (⟨S192000x1, .i32⟩ : BufTy).Contents (Elt F) → (⟨S192000, .f32⟩ : BufTy).Contents (Elt F)),
    binary main_v361 main_v368 main_v369 (mulf : (⟨S192000, .f32⟩ : BufTy).Contents (Elt F) → (⟨S192000, .f32⟩ : BufTy).Contents (Elt F) → (⟨S192000, .f32⟩ : BufTy).Contents (Elt F)),
    unary main_v369 main_v370 (broadcastInDim S192000x1 ![0] bcast_S192000_S192000x1_0 : (⟨S192000, .f32⟩ : BufTy).Contents (Elt F) → (⟨S192000x1, .f32⟩ : BufTy).Contents (Elt F)),
    nullary main_c_67 (constantI S_ 32 0#32),
    unary main_c_67 main_v371 (broadcastInDim S192000 ![] bcast_S_S192000 : (⟨S_, .i32⟩ : BufTy).Contents (Elt F) → (⟨S192000, .i32⟩ : BufTy).Contents (Elt F)),
    binary main_v344 main_v371 main_v372 (cmpi .slt : (⟨S192000, .i32⟩ : BufTy).Contents (Elt F) → (⟨S192000, .i32⟩ : BufTy).Contents (Elt F) → (⟨S192000, .i1⟩ : BufTy).Contents (Elt F)),
    nullary main_c_68 (constantI S_ 32 6000#32),
    unary main_c_68 main_v373 (broadcastInDim S192000 ![] bcast_S_S192000 : (⟨S_, .i32⟩ : BufTy).Contents (Elt F) → (⟨S192000, .i32⟩ : BufTy).Contents (Elt F)),
    binary main_v344 main_v373 main_v374 (addi : (⟨S192000, .i32⟩ : BufTy).Contents (Elt F) → (⟨S192000, .i32⟩ : BufTy).Contents (Elt F) → (⟨S192000, .i32⟩ : BufTy).Contents (Elt F)),
    ternary main_v372 main_v374 main_v344 main_v375 (select : (⟨S192000, .i1⟩ : BufTy).Contents (Elt F) → (⟨S192000, .i32⟩ : BufTy).Contents (Elt F) → (⟨S192000, .i32⟩ : BufTy).Contents (Elt F) → (⟨S192000, .i32⟩ : BufTy).Contents (Elt F)),
    unary main_v375 main_v376 (broadcastInDim S192000x1 ![0] bcast_S192000_S192000x1_0 : (⟨S192000, .i32⟩ : BufTy).Contents (Elt F) → (⟨S192000x1, .i32⟩ : BufTy).Contents (Elt F)),
    binary main_v347 main_v376 main_v377 ((fun x i => Host.gather gather_S6000x128_S192000x1_S192000x128_1_0_n_n_0_1_1128 x i) : (⟨S6000x128, .f32⟩ : BufTy).Contents (Elt F) → (⟨S192000x1, .i32⟩ : BufTy).Contents (Elt F) → (⟨S192000x128, .f32⟩ : BufTy).Contents (Elt F)),
    unary main_v370 main_v378 (broadcastInDim S192000x128 ![0, 1] bcast_S192000x1_S192000x128_0_1 : (⟨S192000x1, .f32⟩ : BufTy).Contents (Elt F) → (⟨S192000x128, .f32⟩ : BufTy).Contents (Elt F)),
    binary main_v378 main_v377 main_v379 (mulf : (⟨S192000x128, .f32⟩ : BufTy).Contents (Elt F) → (⟨S192000x128, .f32⟩ : BufTy).Contents (Elt F) → (⟨S192000x128, .f32⟩ : BufTy).Contents (Elt F)),
    nullary main_cst_69 (constant S_ .f32 0x00000000#32),
    unary main_cst_69 main_v380 (broadcastInDim S6000x128 ![] bcast_S_S6000x128 : (⟨S_, .f32⟩ : BufTy).Contents (Elt F) → (⟨S6000x128, .f32⟩ : BufTy).Contents (Elt F)),
    unary main_v346 main_v381 (broadcastInDim S192000x1 ![0] bcast_S192000_S192000x1_0 : (⟨S192000, .i32⟩ : BufTy).Contents (Elt F) → (⟨S192000x1, .i32⟩ : BufTy).Contents (Elt F)),
    ternary main_v380 main_v381 main_v379 main_v382 ((fun x i u => Host.scatterAdd scatter_S6000x128_S192000x1_S192000x128_1_0_0_1 x i u) : (⟨S6000x128, .f32⟩ : BufTy).Contents (Elt F) → (⟨S192000x1, .i32⟩ : BufTy).Contents (Elt F) → (⟨S192000x128, .f32⟩ : BufTy).Contents (Elt F) → (⟨S6000x128, .f32⟩ : BufTy).Contents (Elt F)),
    binary main_v353 main_v353 main_v383 (mulf : (⟨S6000, .f32⟩ : BufTy).Contents (Elt F) → (⟨S6000, .f32⟩ : BufTy).Contents (Elt F) → (⟨S6000, .f32⟩ : BufTy).Contents (Elt F)),
    unary main_v383 main_v384 (broadcastInDim S6000x1 ![0] bcast_S6000_S6000x1_0 : (⟨S6000, .f32⟩ : BufTy).Contents (Elt F) → (⟨S6000x1, .f32⟩ : BufTy).Contents (Elt F)),
    unary main_v384 main_v385 (broadcastInDim S6000x128 ![0, 1] bcast_S6000x1_S6000x128_0_1 : (⟨S6000x1, .f32⟩ : BufTy).Contents (Elt F) → (⟨S6000x128, .f32⟩ : BufTy).Contents (Elt F)),
    binary main_v385 main_v347 main_v386 (mulf : (⟨S6000x128, .f32⟩ : BufTy).Contents (Elt F) → (⟨S6000x128, .f32⟩ : BufTy).Contents (Elt F) → (⟨S6000x128, .f32⟩ : BufTy).Contents (Elt F)),
    binary main_v382 main_v386 main_v387 (addf : (⟨S6000x128, .f32⟩ : BufTy).Contents (Elt F) → (⟨S6000x128, .f32⟩ : BufTy).Contents (Elt F) → (⟨S6000x128, .f32⟩ : BufTy).Contents (Elt F)),
    unary main_arg25 main_v388 (broadcastInDim S1x128 ![1] bcast_S128_S1x128_1 : (⟨S128, .f32⟩ : BufTy).Contents (Elt F) → (⟨S1x128, .f32⟩ : BufTy).Contents (Elt F)),
    unary main_v388 main_v389 (broadcastInDim S6000x128 ![0, 1] bcast_S1x128_S6000x128_0_1 : (⟨S1x128, .f32⟩ : BufTy).Contents (Elt F) → (⟨S6000x128, .f32⟩ : BufTy).Contents (Elt F)),
    binary main_v387 main_v389 main_v390 (addf : (⟨S6000x128, .f32⟩ : BufTy).Contents (Elt F) → (⟨S6000x128, .f32⟩ : BufTy).Contents (Elt F) → (⟨S6000x128, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S6000x128, .f32⟩) main_call7_v0) (broadcastInDim S6000x128 ![] bcast_S_S6000x128),
    TRef.binary (TRef.of (T := ⟨S6000x128, .f32⟩) main_v390) (TRef.of (T := ⟨S6000x128, .f32⟩) main_call7_v0) (TRef.of (T := ⟨S6000x128, .f32⟩) main_v391) maximumf ]
theorem L7_sub : (L7 : List (HloOp τ sig (Elt F))).Forall fun op => op.bufs ⊆ tcRefs τ sig :=
  ⟨unary_bufs_sub .., reshape_bufs_sub .., unary_bufs_sub .., reshape_bufs_sub .., binary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub ..⟩
theorem L7_fresh : ∀ op ∈ (L7 : List (HloOp τ sig (Elt F))), op.fresh = ∅ := by
  intro _ h; (repeat (cases h with | head => rfl | tail _ h => ?_)); exact nomatch h

/-- Operations 481 … 506 of @main. -/
abbrev L8 : List (HloOp τ sig (Elt F)) :=
  [ binary main_v97 main_arg26 main_v392 ((fun l r => Host.dotGeneral dot_S12000x128_S128x128_S12000x128_1_0_0_1_n_n none l r) : (⟨S12000x128, .f32⟩ : BufTy).Contents (Elt F) → (⟨S128x128, .f32⟩ : BufTy).Contents (Elt F) → (⟨S12000x128, .f32⟩ : BufTy).Contents (Elt F)),
    unary main_arg27 main_v393 (broadcastInDim S1x128 ![1] bcast_S128_S1x128_1 : (⟨S128, .f32⟩ : BufTy).Contents (Elt F) → (⟨S1x128, .f32⟩ : BufTy).Contents (Elt F)),
    unary main_v393 main_v394 (broadcastInDim S12000x128 ![0, 1] bcast_S1x128_S12000x128_0_1 : (⟨S1x128, .f32⟩ : BufTy).Contents (Elt F) → (⟨S12000x128, .f32⟩ : BufTy).Contents (Elt F)),
    binary main_v392 main_v394 main_v395 (addf : (⟨S12000x128, .f32⟩ : BufTy).Contents (Elt F) → (⟨S12000x128, .f32⟩ : BufTy).Contents (Elt F) → (⟨S12000x128, .f32⟩ : BufTy).Contents (Elt F)),
    binary main_v195 main_arg28 main_v396 ((fun l r => Host.dotGeneral dot_S12000x128_S128x128_S12000x128_1_0_0_1_n_n none l r) : (⟨S12000x128, .f32⟩ : BufTy).Contents (Elt F) → (⟨S128x128, .f32⟩ : BufTy).Contents (Elt F) → (⟨S12000x128, .f32⟩ : BufTy).Contents (Elt F)),
    unary main_arg29 main_v397 (broadcastInDim S1x128 ![1] bcast_S128_S1x128_1 : (⟨S128, .f32⟩ : BufTy).Contents (Elt F) → (⟨S1x128, .f32⟩ : BufTy).Contents (Elt F)),
    unary main_v397 main_v398 (broadcastInDim S12000x128 ![0, 1] bcast_S1x128_S12000x128_0_1 : (⟨S1x128, .f32⟩ : BufTy).Contents (Elt F) → (⟨S12000x128, .f32⟩ : BufTy).Contents (Elt F)),
    binary main_v396 main_v398 main_v399 (addf : (⟨S12000x128, .f32⟩ : BufTy).Contents (Elt F) → (⟨S12000x128, .f32⟩ : BufTy).Contents (Elt F) → (⟨S12000x128, .f32⟩ : BufTy).Contents (Elt F)),
    binary main_v293 main_arg26 main_v400 ((fun l r => Host.dotGeneral dot_S6000x128_S128x128_S6000x128_1_0_0_1_n_n none l r) : (⟨S6000x128, .f32⟩ : BufTy).Contents (Elt F) → (⟨S128x128, .f32⟩ : BufTy).Contents (Elt F) → (⟨S6000x128, .f32⟩ : BufTy).Contents (Elt F)),
    unary main_arg27 main_v401 (broadcastInDim S1x128 ![1] bcast_S128_S1x128_1 : (⟨S128, .f32⟩ : BufTy).Contents (Elt F) → (⟨S1x128, .f32⟩ : BufTy).Contents (Elt F)),
    unary main_v401 main_v402 (broadcastInDim S6000x128 ![0, 1] bcast_S1x128_S6000x128_0_1 : (⟨S1x128, .f32⟩ : BufTy).Contents (Elt F) → (⟨S6000x128, .f32⟩ : BufTy).Contents (Elt F)),
    binary main_v400 main_v402 main_v403 (addf : (⟨S6000x128, .f32⟩ : BufTy).Contents (Elt F) → (⟨S6000x128, .f32⟩ : BufTy).Contents (Elt F) → (⟨S6000x128, .f32⟩ : BufTy).Contents (Elt F)),
    binary main_v391 main_arg28 main_v404 ((fun l r => Host.dotGeneral dot_S6000x128_S128x128_S6000x128_1_0_0_1_n_n none l r) : (⟨S6000x128, .f32⟩ : BufTy).Contents (Elt F) → (⟨S128x128, .f32⟩ : BufTy).Contents (Elt F) → (⟨S6000x128, .f32⟩ : BufTy).Contents (Elt F)),
    unary main_arg29 main_v405 (broadcastInDim S1x128 ![1] bcast_S128_S1x128_1 : (⟨S128, .f32⟩ : BufTy).Contents (Elt F) → (⟨S1x128, .f32⟩ : BufTy).Contents (Elt F)),
    unary main_v405 main_v406 (broadcastInDim S6000x128 ![0, 1] bcast_S1x128_S6000x128_0_1 : (⟨S1x128, .f32⟩ : BufTy).Contents (Elt F) → (⟨S6000x128, .f32⟩ : BufTy).Contents (Elt F)),
    binary main_v404 main_v406 main_v407 (addf : (⟨S6000x128, .f32⟩ : BufTy).Contents (Elt F) → (⟨S6000x128, .f32⟩ : BufTy).Contents (Elt F) → (⟨S6000x128, .f32⟩ : BufTy).Contents (Elt F)),
    nullary main_cst_70 (constant S_ .f32 0x00000000#32),
    unary main_cst_70 main_v408 (broadcastInDim S12000x128 ![] bcast_S_S12000x128 : (⟨S_, .f32⟩ : BufTy).Contents (Elt F) → (⟨S12000x128, .f32⟩ : BufTy).Contents (Elt F)),
    binary main_v395 main_v408 main_v409 (cmpf .ogt : (⟨S12000x128, .f32⟩ : BufTy).Contents (Elt F) → (⟨S12000x128, .f32⟩ : BufTy).Contents (Elt F) → (⟨S12000x128, .i1⟩ : BufTy).Contents (Elt F)),
    TRef.ternary (TRef.of (T := ⟨S12000x128, .i1⟩) main_v409) (TRef.of (T := ⟨S12000x128, .f32⟩) main_v395) (TRef.of (T := ⟨S12000x128, .f32⟩) main_v399) (TRef.of (T := ⟨S12000x128, .f32⟩) main_v410) select,
    nullary main_cst_71 (constant S_ .f32 0x00000000#32),
    unary main_cst_71 main_v411 (broadcastInDim S6000x128 ![] bcast_S_S6000x128 : (⟨S_, .f32⟩ : BufTy).Contents (Elt F) → (⟨S6000x128, .f32⟩ : BufTy).Contents (Elt F)),
    binary main_v403 main_v411 main_v412 (cmpf .ogt : (⟨S6000x128, .f32⟩ : BufTy).Contents (Elt F) → (⟨S6000x128, .f32⟩ : BufTy).Contents (Elt F) → (⟨S6000x128, .i1⟩ : BufTy).Contents (Elt F)),
    TRef.ternary (TRef.of (T := ⟨S6000x128, .i1⟩) main_v412) (TRef.of (T := ⟨S6000x128, .f32⟩) main_v403) (TRef.of (T := ⟨S6000x128, .f32⟩) main_v407) (TRef.of (T := ⟨S6000x128, .f32⟩) main_v413) select,
    unary main_v413 main_v414 ((transpose S128x6000 [1, 0] · transposes_S6000x128_S128x6000_1_0) : (⟨S6000x128, .f32⟩ : BufTy).Contents (Elt F) → (⟨S128x6000, .f32⟩ : BufTy).Contents (Elt F)),
    binary main_v410 main_v414 main_v415 ((fun l r => Host.dotGeneral dot_S12000x128_S128x6000_S12000x6000_1_0_0_1_n_n none l r) : (⟨S12000x128, .f32⟩ : BufTy).Contents (Elt F) → (⟨S128x6000, .f32⟩ : BufTy).Contents (Elt F) → (⟨S12000x6000, .f32⟩ : BufTy).Contents (Elt F)) ]
theorem L8_sub : (L8 : List (HloOp τ sig (Elt F))).Forall fun op => op.bufs ⊆ tcRefs τ sig :=
  ⟨binary_bufs_sub .., unary_bufs_sub .., unary_bufs_sub .., binary_bufs_sub .., binary_bufs_sub .., unary_bufs_sub .., unary_bufs_sub .., binary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., ternary_bufs_sub .., nullary_bufs_sub .., unary_bufs_sub .., binary_bufs_sub .., ternary_bufs_sub .., unary_bufs_sub .., binary_bufs_sub ..⟩
theorem L8_fresh : ∀ op ∈ (L8 : List (HloOp τ sig (Elt F))), op.fresh = ∅ := by
  intro _ h; (repeat (cases h with | head => rfl | tail _ h => ?_)); exact nomatch h

end Cert.ReferenceIdeal.HandRun

end
-- ==== Proof.RefRunHand.lean ====
/-
  The reference's run, by hand: @main is the nine stretches of RefOps.lean in a row, so every weakly fair execution of it
  terminates with each TensorCore buffer at the fold of those operations' results over the launch contents
  (Lib/StableHlo/Run.lean `run_seq`); each stretch touches TensorCore references only and allocates nothing, hence so
  does their concatenation.
-/
import proofs.«406409_j38250978738663_3_alg».proof.Proof.RefOps

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's 506 operations: the nine stretches, in order. -/
abbrev ops : List (HloOp τ sig (Elt F)) := L0 ++ (L1 ++ (L2 ++ (L3 ++ (L4 ++ (L5 ++ (L6 ++ (L7 ++ L8)))))))

set_option maxRecDepth 65536 in
set_option maxHeartbeats 40000000 in
/-- @main is that line of operations (its statements one `hlo` step each, a called function's body in its call's place). -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  refine List.forall_iff_forall_mem.mpr fun op h => ?_
  simp only [ops, List.mem_append] at h
  rcases h with h | h | h | h | h | h | h | h | h
  exacts [List.forall_iff_forall_mem.mp L0_sub op h, List.forall_iff_forall_mem.mp L1_sub op h,
    List.forall_iff_forall_mem.mp L2_sub op h, List.forall_iff_forall_mem.mp L3_sub op h,
    List.forall_iff_forall_mem.mp L4_sub op h, List.forall_iff_forall_mem.mp L5_sub op h,
    List.forall_iff_forall_mem.mp L6_sub op h, List.forall_iff_forall_mem.mp L7_sub op h,
    List.forall_iff_forall_mem.mp L8_sub op h]

theorem ops_fresh : ∀ op ∈ (ops : List (HloOp τ sig (Elt F))), op.fresh = ∅ := by
  intro op h
  simp only [ops, List.mem_append] at h
  rcases h with h | h | h | h | h | h | h | h | h
  exacts [L0_fresh op h, L1_fresh op h, L2_fresh op h, L3_fresh op h, L4_fresh op h, L5_fresh op h, L6_fresh op h,
    L7_fresh op h, L8_fresh op h]

/-- On every device, for any float values, from any memory with zero counters: every weakly fair execution of @main
    terminates with each TensorCore buffer at the fold of the operations' results over its launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => ops_fresh)

end Cert.ReferenceIdeal.HandRun

end
-- ==== Proof.RefWrites.lean ====
/-
  What each stretch of the reference's @main writes: stretch `Lk`'s result references as one literal list `Wk`, and that
  every operation of the stretch writes into it (each operation writes its one result reference). A reference outside
  the list therefore keeps its contents through the stretch (Lib/StableHlo/Run.lean `after_of_writes_sub`).
-/
import proofs.«406409_j38250978738663_3_alg».proof.Proof.RefOps

set_option maxRecDepth 8192

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The references stretch `L0` writes, in program order. -/
abbrev W0 : List (Ref sig .tc) :=
  [
    main_v0, main_v1, main_v2, main_v3, main_v4, main_cst, main_v5, main_v6, main_v7, main_cst_0, main_v8, main_v9,
    main_v10, main_c, main_v11, main_v12, main_c_1, main_v13, main_v14, main_v15, main_v16, main_v17, main_v18, main_c_2,
    main_v19, main_v20, main_c_3, main_v21, main_v22, main_v23, main_v24, main_v25, main_v26, main_v27, main_c_4, main_v28,
    main_v29, main_c_5, main_v30, main_v31, main_v32, main_v33, main_v34, main_v35, main_v36, main_cst_6, main_v37, main_v38,
    main_v39, main_v40, main_v41, main_v42, main_v43, main_v44, main_v45, main_v46, main_v47, main_call0_cst, main_call0_v0, main_v48 ]
theorem L0_writes : (L0 : List (HloOp τ sig (Elt F))).Forall fun op => op.writes ⊆ (W0.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- The references stretch `L1` writes, in program order. -/
abbrev W1 : List (Ref sig .tc) :=
  [
    main_v49, main_v50, main_v51, main_v52, main_v53, main_cst_7, main_v54, main_v55, main_v56, main_cst_8, main_v57, main_v58,
    main_v59, main_c_9, main_v60, main_v61, main_c_10, main_v62, main_v63, main_v64, main_v65, main_v66, main_v67, main_c_11,
    main_v68, main_v69, main_c_12, main_v70, main_v71, main_v72, main_v73, main_v74, main_v75, main_v76, main_c_13, main_v77,
    main_v78, main_c_14, main_v79, main_v80, main_v81, main_v82, main_v83, main_v84, main_v85, main_cst_15, main_v86, main_v87,
    main_v88, main_v89, main_v90, main_v91, main_v92, main_v93, main_v94, main_v95, main_v96, main_call1_cst, main_call1_v0, main_v97 ]
theorem L1_writes : (L1 : List (HloOp τ sig (Elt F))).Forall fun op => op.writes ⊆ (W1.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- The references stretch `L2` writes, in program order. -/
abbrev W2 : List (Ref sig .tc) :=
  [
    main_v98, main_v99, main_v100, main_v101, main_v102, main_cst_16, main_v103, main_v104, main_v105, main_cst_17, main_v106, main_v107,
    main_v108, main_c_18, main_v109, main_v110, main_c_19, main_v111, main_v112, main_v113, main_v114, main_v115, main_v116, main_c_20,
    main_v117, main_v118, main_c_21, main_v119, main_v120, main_v121, main_v122, main_v123, main_v124, main_v125, main_c_22, main_v126,
    main_v127, main_c_23, main_v128, main_v129, main_v130, main_v131, main_v132, main_v133, main_v134, main_cst_24, main_v135, main_v136,
    main_v137, main_v138, main_v139, main_v140, main_v141, main_v142, main_v143, main_v144, main_v145, main_call2_cst, main_call2_v0, main_v146 ]
theorem L2_writes : (L2 : List (HloOp τ sig (Elt F))).Forall fun op => op.writes ⊆ (W2.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- The references stretch `L3` writes, in program order. -/
abbrev W3 : List (Ref sig .tc) :=
  [
    main_v147, main_v148, main_v149, main_v150, main_v151, main_cst_25, main_v152, main_v153, main_v154, main_cst_26, main_v155, main_v156,
    main_v157, main_c_27, main_v158, main_v159, main_c_28, main_v160, main_v161, main_v162, main_v163, main_v164, main_v165, main_c_29,
    main_v166, main_v167, main_c_30, main_v168, main_v169, main_v170, main_v171, main_v172, main_v173, main_v174, main_c_31, main_v175,
    main_v176, main_c_32, main_v177, main_v178, main_v179, main_v180, main_v181, main_v182, main_v183, main_cst_33, main_v184, main_v185,
    main_v186, main_v187, main_v188, main_v189, main_v190, main_v191, main_v192, main_v193, main_v194, main_call3_cst, main_call3_v0, main_v195 ]
theorem L3_writes : (L3 : List (HloOp τ sig (Elt F))).Forall fun op => op.writes ⊆ (W3.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- The references stretch `L4` writes, in program order. -/
abbrev W4 : List (Ref sig .tc) :=
  [
    main_v196, main_v197, main_v198, main_v199, main_v200, main_cst_34, main_v201, main_v202, main_v203, main_cst_35, main_v204, main_v205,
    main_v206, main_c_36, main_v207, main_v208, main_c_37, main_v209, main_v210, main_v211, main_v212, main_v213, main_v214, main_c_38,
    main_v215, main_v216, main_c_39, main_v217, main_v218, main_v219, main_v220, main_v221, main_v222, main_v223, main_c_40, main_v224,
    main_v225, main_c_41, main_v226, main_v227, main_v228, main_v229, main_v230, main_v231, main_v232, main_cst_42, main_v233, main_v234,
    main_v235, main_v236, main_v237, main_v238, main_v239, main_v240, main_v241, main_v242, main_v243, main_call4_cst, main_call4_v0, main_v244 ]
theorem L4_writes : (L4 : List (HloOp τ sig (Elt F))).Forall fun op => op.writes ⊆ (W4.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- The references stretch `L5` writes, in program order. -/
abbrev W5 : List (Ref sig .tc) :=
  [
    main_v245, main_v246, main_v247, main_v248, main_v249, main_cst_43, main_v250, main_v251, main_v252, main_cst_44, main_v253, main_v254,
    main_v255, main_c_45, main_v256, main_v257, main_c_46, main_v258, main_v259, main_v260, main_v261, main_v262, main_v263, main_c_47,
    main_v264, main_v265, main_c_48, main_v266, main_v267, main_v268, main_v269, main_v270, main_v271, main_v272, main_c_49, main_v273,
    main_v274, main_c_50, main_v275, main_v276, main_v277, main_v278, main_v279, main_v280, main_v281, main_cst_51, main_v282, main_v283,
    main_v284, main_v285, main_v286, main_v287, main_v288, main_v289, main_v290, main_v291, main_v292, main_call5_cst, main_call5_v0, main_v293 ]
theorem L5_writes : (L5 : List (HloOp τ sig (Elt F))).Forall fun op => op.writes ⊆ (W5.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- The references stretch `L6` writes, in program order. -/
abbrev W6 : List (Ref sig .tc) :=
  [
    main_v294, main_v295, main_v296, main_v297, main_v298, main_cst_52, main_v299, main_v300, main_v301, main_cst_53, main_v302, main_v303,
    main_v304, main_c_54, main_v305, main_v306, main_c_55, main_v307, main_v308, main_v309, main_v310, main_v311, main_v312, main_c_56,
    main_v313, main_v314, main_c_57, main_v315, main_v316, main_v317, main_v318, main_v319, main_v320, main_v321, main_c_58, main_v322,
    main_v323, main_c_59, main_v324, main_v325, main_v326, main_v327, main_v328, main_v329, main_v330, main_cst_60, main_v331, main_v332,
    main_v333, main_v334, main_v335, main_v336, main_v337, main_v338, main_v339, main_v340, main_v341, main_call6_cst, main_call6_v0, main_v342 ]
theorem L6_writes : (L6 : List (HloOp τ sig (Elt F))).Forall fun op => op.writes ⊆ (W6.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- The references stretch `L7` writes, in program order. -/
abbrev W7 : List (Ref sig .tc) :=
  [
    main_v343, main_v344, main_v345, main_v346, main_v347, main_cst_61, main_v348, main_v349, main_v350, main_cst_62, main_v351, main_v352,
    main_v353, main_c_63, main_v354, main_v355, main_c_64, main_v356, main_v357, main_v358, main_v359, main_v360, main_v361, main_c_65,
    main_v362, main_v363, main_c_66, main_v364, main_v365, main_v366, main_v367, main_v368, main_v369, main_v370, main_c_67, main_v371,
    main_v372, main_c_68, main_v373, main_v374, main_v375, main_v376, main_v377, main_v378, main_v379, main_cst_69, main_v380, main_v381,
    main_v382, main_v383, main_v384, main_v385, main_v386, main_v387, main_v388, main_v389, main_v390, main_call7_cst, main_call7_v0, main_v391 ]
theorem L7_writes : (L7 : List (HloOp τ sig (Elt F))).Forall fun op => op.writes ⊆ (W7.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- The references stretch `L8` writes, in program order. -/
abbrev W8 : List (Ref sig .tc) :=
  [
    main_v392, main_v393, main_v394, main_v395, main_v396, main_v397, main_v398, main_v399, main_v400, main_v401, main_v402, main_v403,
    main_v404, main_v405, main_v406, main_v407, main_cst_70, main_v408, main_v409, main_v410, main_cst_71, main_v411, main_v412, main_v413,
    main_v414, main_v415 ]
theorem L8_writes : (L8 : List (HloOp τ sig (Elt F))).Forall fun op => op.writes ⊆ (W8.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

end Cert.ReferenceIdeal.HandRun

end
-- ==== Proof.RefLayersMI.lean ====
/-
  What each of the four graph-convolution stretches on the 12000-node graphs leaves at its output reference, from ANY
  contents `V` it is entered with: the reference's layer function of SpecMI.lean (`layerRMI` of the product `xwMI`) at
  `V`'s contents of the stretch's five operands (features, weight, bias, edge list, edge weights). The stretch's sixty
  operations ARE that function's text in order: the two rows of the edge list, the product, the degree scatter and its
  inverse square root, the three index wraps and gathers, the normalisation, the aggregation scatter, the self-loop term,
  the bias broadcast in two steps, and the relu call's maximum with a broadcast zero.
-/
import proofs.«406409_j38250978738663_3_alg».proof.Proof.RefOps
import proofs.«406409_j38250978738663_3_alg».proof.Proof.Spec

set_option maxRecDepth 8192
-- one theorem at a time: each comparison below holds a few GiB while it runs
set_option Elab.async false

noncomputable section

namespace Cert.ReferenceIdeal.HandRun

open Cert.ReferenceIdeal Cert.ReferenceIdeal.Gen Idealize.ShloMosaic Idealize.ShloMosaic.TcCoe Idealize.SL.Sem
  Idealize.ShloMosaic.StableHlo Cert.Spec

/-- Reads a stretch's fold at one reference, operation by operation, down to the contents the stretch was entered with;
    removes the identity transports that an inlined call's typed references leave around its operands and result; what
    is left is the Spec's function written out, up to the two programs' own names for the same shapes, shape facts and
    gather, scatter and contraction records. -/
local macro "stretch_value" : tactic =>
  `(tactic| (after_results_simp; simp only [TRef.ofBuf, TRef.toBuf, cast_eq]; rfl))

set_option maxHeartbeats 2000000 in
/-- Stretch `L0` leaves at its output the 12000-node layer of its five operands. -/
theorem layer0 (V : Valuation τ sig (Elt Ideal)) :
    after (L0 (F := Ideal)) V (Proc.devRef .tc main_v48)
      = layerRMI (xwMI (V (Proc.devRef .tc main_arg0)) (V (Proc.devRef .tc main_arg10))) (V (Proc.devRef .tc main_arg11))
          (V (Proc.devRef .tc main_arg2)) (V (Proc.devRef .tc main_arg3)) := by
  dsimp only [L0]
  stretch_value

set_option maxHeartbeats 2000000 in
/-- Stretch `L1` leaves at its output the 12000-node layer of its five operands. -/
theorem layer1 (V : Valuation τ sig (Elt Ideal)) :
    after (L1 (F := Ideal)) V (Proc.devRef .tc main_v97)
      = layerRMI (xwMI (V (Proc.devRef .tc main_v48)) (V (Proc.devRef .tc main_arg12))) (V (Proc.devRef .tc main_arg13))
          (V (Proc.devRef .tc main_arg2)) (V (Proc.devRef .tc main_arg3)) := by
  dsimp only [L1]
  stretch_value

set_option maxHeartbeats 2000000 in
/-- Stretch `L2` leaves at its output the 12000-node layer of its five operands. -/
theorem layer2 (V : Valuation τ sig (Elt Ideal)) :
    after (L2 (F := Ideal)) V (Proc.devRef .tc main_v146)
      = layerRMI (xwMI (V (Proc.devRef .tc main_arg0)) (V (Proc.devRef .tc main_arg14))) (V (Proc.devRef .tc main_arg15))
          (V (Proc.devRef .tc main_arg4)) (V (Proc.devRef .tc main_arg5)) := by
  dsimp only [L2]
  stretch_value

set_option maxHeartbeats 2000000 in
/-- Stretch `L3` leaves at its output the 12000-node layer of its five operands. -/
theorem layer3 (V : Valuation τ sig (Elt Ideal)) :
    after (L3 (F := Ideal)) V (Proc.devRef .tc main_v195)
      = layerRMI (xwMI (V (Proc.devRef .tc main_v146)) (V (Proc.devRef .tc main_arg16))) (V (Proc.devRef .tc main_arg17))
          (V (Proc.devRef .tc main_arg4)) (V (Proc.devRef .tc main_arg5)) := by
  dsimp only [L3]
  stretch_value

end Cert.ReferenceIdeal.HandRun

end
-- ==== Proof.RefLayersDIS.lean ====
/-
  What each of the four graph-convolution stretches on the 6000-node graphs leaves at its output reference, from ANY
  contents `V` it is entered with: the reference's layer function of SpecDIS.lean (`layerRDIS` of the product `xwDIS`) at
  `V`'s contents of the stretch's five operands (features, weight, bias, edge list, edge weights). The stretch's sixty
  operations ARE that function's text in order: the two rows of the edge list, the product, the degree scatter and its
  inverse square root, the three index wraps and gathers, the normalisation, the aggregation scatter, the self-loop term,
  the bias broadcast in two steps, and the relu call's maximum with a broadcast zero.
-/
import proofs.«406409_j38250978738663_3_alg».proof.Proof.RefOps
import proofs.«406409_j38250978738663_3_alg».proof.Proof.Spec

set_option maxRecDepth 8192
-- one theorem at a time: each comparison below holds a few GiB while it runs
set_option Elab.async false

noncomputable section

namespace Cert.ReferenceIdeal.HandRun

open Cert.ReferenceIdeal Cert.ReferenceIdeal.Gen Idealize.ShloMosaic Idealize.ShloMosaic.TcCoe Idealize.SL.Sem
  Idealize.ShloMosaic.StableHlo Cert.Spec

/-- Reads a stretch's fold at one reference, operation by operation, down to the contents the stretch was entered with;
    removes the identity transports that an inlined call's typed references leave around its operands and result; what
    is left is the Spec's function written out, up to the two programs' own names for the same shapes, shape facts and
    gather, scatter and contraction records. -/
local macro "stretch_value" : tactic =>
  `(tactic| (after_results_simp; simp only [TRef.ofBuf, TRef.toBuf, cast_eq]; rfl))

set_option maxHeartbeats 2000000 in
/-- Stretch `L4` leaves at its output the 6000-node layer of its five operands. -/
theorem layer4 (V : Valuation τ sig (Elt Ideal)) :
    after (L4 (F := Ideal)) V (Proc.devRef .tc main_v244)
      = layerRDIS (xwDIS (V (Proc.devRef .tc main_arg1)) (V (Proc.devRef .tc main_arg18))) (V (Proc.devRef .tc main_arg19))
          (V (Proc.devRef .tc main_arg6)) (V (Proc.devRef .tc main_arg7)) := by
  dsimp only [L4]
  stretch_value

set_option maxHeartbeats 2000000 in
/-- Stretch `L5` leaves at its output the 6000-node layer of its five operands. -/
theorem layer5 (V : Valuation τ sig (Elt Ideal)) :
    after (L5 (F := Ideal)) V (Proc.devRef .tc main_v293)
      = layerRDIS (xwDIS (V (Proc.devRef .tc main_v244)) (V (Proc.devRef .tc main_arg20))) (V (Proc.devRef .tc main_arg21))
          (V (Proc.devRef .tc main_arg6)) (V (Proc.devRef .tc main_arg7)) := by
  dsimp only [L5]
  stretch_value

set_option maxHeartbeats 2000000 in
/-- Stretch `L6` leaves at its output the 6000-node layer of its five operands. -/
theorem layer6 (V : Valuation τ sig (Elt Ideal)) :
    after (L6 (F := Ideal)) V (Proc.devRef .tc main_v342)
      = layerRDIS (xwDIS (V (Proc.devRef .tc main_arg1)) (V (Proc.devRef .tc main_arg22))) (V (Proc.devRef .tc main_arg23))
          (V (Proc.devRef .tc main_arg8)) (V (Proc.devRef .tc main_arg9)) := by
  dsimp only [L6]
  stretch_value

set_option maxHeartbeats 2000000 in
/-- Stretch `L7` leaves at its output the 6000-node layer of its five operands. -/
theorem layer7 (V : Valuation τ sig (Elt Ideal)) :
    after (L7 (F := Ideal)) V (Proc.devRef .tc main_v391)
      = layerRDIS (xwDIS (V (Proc.devRef .tc main_v342)) (V (Proc.devRef .tc main_arg24))) (V (Proc.devRef .tc main_arg25))
          (V (Proc.devRef .tc main_arg8)) (V (Proc.devRef .tc main_arg9)) := by
  dsimp only [L7]
  stretch_value

end Cert.ReferenceIdeal.HandRun

end
-- ==== Proof.RefHeads.lean ====
/-
  What the last stretch `L8` leaves, from ANY contents `V` it is entered with: at `main_v410` the gated pair of linear
  heads over the two 12000-node branches' outputs (`main_v97`, `main_v195`), at `main_v413` the same over the two
  6000-node branches' outputs (`main_v293`, `main_v391`) with the same head weights, and at `main_v415` their similarity
  `a · bᵀ`. A head is `x · W` plus the bias broadcast in two steps; a gate is `where (a > 0, a, b)`, its select an inlined
  call's one operation.
-/
import proofs.«406409_j38250978738663_3_alg».proof.Proof.RefOps
import proofs.«406409_j38250978738663_3_alg».proof.Proof.Spec

set_option maxRecDepth 8192
-- one theorem at a time: each comparison below holds a few GiB while it runs
set_option Elab.async false

noncomputable section

namespace Cert.ReferenceIdeal.HandRun

open Cert.ReferenceIdeal Cert.ReferenceIdeal.Gen Idealize.ShloMosaic Idealize.ShloMosaic.TcCoe Idealize.SL.Sem
  Idealize.ShloMosaic.StableHlo Cert.Spec

/-- Reads a stretch's fold at one reference, operation by operation, down to the contents the stretch was entered with;
    removes the identity transports that an inlined call's typed references leave around its operands and result; what
    is left is the Spec's function written out, up to the two programs' own names for the same shapes, shape facts and
    gather, scatter and contraction records. -/
local macro "stretch_value" : tactic =>
  `(tactic| (after_results_simp; simp only [TRef.ofBuf, TRef.toBuf, cast_eq]; rfl))
/-- The gated heads of the 12000-node set, at `V`'s contents. -/
abbrev miGate (V : Valuation τ sig (Elt Ideal)) : C Cert.KernelIdeal.S12000x128 .f32 :=
  gateMI (headMI (V (Proc.devRef .tc main_v97)) (V (Proc.devRef .tc main_arg26)) (rowR (V (Proc.devRef .tc main_arg27))))
    (headMI (V (Proc.devRef .tc main_v195)) (V (Proc.devRef .tc main_arg28)) (rowR (V (Proc.devRef .tc main_arg29))))
/-- The gated heads of the 6000-node set, at `V`'s contents. -/
abbrev disGate (V : Valuation τ sig (Elt Ideal)) : C Cert.KernelIdeal.S6000x128 .f32 :=
  gateDIS (headDIS (V (Proc.devRef .tc main_v293)) (V (Proc.devRef .tc main_arg26)) (rowR (V (Proc.devRef .tc main_arg27))))
    (headDIS (V (Proc.devRef .tc main_v391)) (V (Proc.devRef .tc main_arg28)) (rowR (V (Proc.devRef .tc main_arg29))))

set_option maxHeartbeats 2000000 in
theorem heads_mi (V : Valuation τ sig (Elt Ideal)) :
    after (L8 (F := Ideal)) V (Proc.devRef .tc main_v410) = miGate V := by
  dsimp only [L8]
  stretch_value

set_option maxHeartbeats 2000000 in
theorem heads_dis (V : Valuation τ sig (Elt Ideal)) :
    after (L8 (F := Ideal)) V (Proc.devRef .tc main_v413) = disGate V := by
  dsimp only [L8]
  stretch_value

set_option maxHeartbeats 2000000 in
theorem heads_sim (V : Valuation τ sig (Elt Ideal)) :
    after (L8 (F := Ideal)) V (Proc.devRef .tc main_v415) = sim (miGate V) (disGate V) := by
  dsimp only [L8]
  stretch_value

end Cert.ReferenceIdeal.HandRun

end
-- ==== Proof.RefLayers.lean ====
/-
  The reference's results: what the fold of @main's 506 operations leaves at the three references the claim reads and
  at the thirty arguments, from ANY contents `W` — the Spec's whole-array functions of `W`'s argument arrays.

  The fold over nine stretches in a row is the fold of each over what the one before left (`after_append`). A stretch
  leaves at its output reference its layer function of what it was entered with (RefLayersMI.lean, RefLayersDIS.lean,
  RefHeads.lean) and leaves alone every reference it does not write (RefWrites.lean). So: no stretch writes an argument;
  each branch's first layer reads arguments only and its second reads the first's output and arguments; the four branch
  outputs `main_v97`, `main_v195`, `main_v293`, `main_v391` are not written again before the last stretch, which
  computes the two gated pairs of heads and their similarity from them and from the four head arguments.
-/
import proofs.«406409_j38250978738663_3_alg».proof.Proof.RefRunHand
import proofs.«406409_j38250978738663_3_alg».proof.Proof.Spec
import proofs.«406409_j38250978738663_3_alg».proof.Proof.RefWrites
import proofs.«406409_j38250978738663_3_alg».proof.Proof.RefLayersMI
import proofs.«406409_j38250978738663_3_alg».proof.Proof.RefLayersDIS
import proofs.«406409_j38250978738663_3_alg».proof.Proof.RefHeads
import Idealize.ShloMosaic.Lib.Pipeline.Frame

set_option maxRecDepth 8192

noncomputable section

namespace Cert.ReferenceIdeal.HandRun

open Cert.ReferenceIdeal Cert.ReferenceIdeal.Gen Idealize.ShloMosaic Idealize.ShloMosaic.TcCoe Idealize.SL.Sem
  Idealize.ShloMosaic.StableHlo Cert.Spec

/-! ## A reference a stretch does not write keeps its contents through it -/

theorem keep0 (V : Valuation τ sig (Elt Ideal)) {r : Ref sig .tc} (h : r ∉ W0) :
    after (L0 (F := Ideal)) V (Proc.devRef .tc r) = V (Proc.devRef .tc r) := after_of_writes_sub L0 V L0_writes h
theorem keep1 (V : Valuation τ sig (Elt Ideal)) {r : Ref sig .tc} (h : r ∉ W1) :
    after (L1 (F := Ideal)) V (Proc.devRef .tc r) = V (Proc.devRef .tc r) := after_of_writes_sub L1 V L1_writes h
theorem keep2 (V : Valuation τ sig (Elt Ideal)) {r : Ref sig .tc} (h : r ∉ W2) :
    after (L2 (F := Ideal)) V (Proc.devRef .tc r) = V (Proc.devRef .tc r) := after_of_writes_sub L2 V L2_writes h
theorem keep3 (V : Valuation τ sig (Elt Ideal)) {r : Ref sig .tc} (h : r ∉ W3) :
    after (L3 (F := Ideal)) V (Proc.devRef .tc r) = V (Proc.devRef .tc r) := after_of_writes_sub L3 V L3_writes h
theorem keep4 (V : Valuation τ sig (Elt Ideal)) {r : Ref sig .tc} (h : r ∉ W4) :
    after (L4 (F := Ideal)) V (Proc.devRef .tc r) = V (Proc.devRef .tc r) := after_of_writes_sub L4 V L4_writes h
theorem keep5 (V : Valuation τ sig (Elt Ideal)) {r : Ref sig .tc} (h : r ∉ W5) :
    after (L5 (F := Ideal)) V (Proc.devRef .tc r) = V (Proc.devRef .tc r) := after_of_writes_sub L5 V L5_writes h
theorem keep6 (V : Valuation τ sig (Elt Ideal)) {r : Ref sig .tc} (h : r ∉ W6) :
    after (L6 (F := Ideal)) V (Proc.devRef .tc r) = V (Proc.devRef .tc r) := after_of_writes_sub L6 V L6_writes h
theorem keep7 (V : Valuation τ sig (Elt Ideal)) {r : Ref sig .tc} (h : r ∉ W7) :
    after (L7 (F := Ideal)) V (Proc.devRef .tc r) = V (Proc.devRef .tc r) := after_of_writes_sub L7 V L7_writes h
theorem keep8 (V : Valuation τ sig (Elt Ideal)) {r : Ref sig .tc} (h : r ∉ W8) :
    after (L8 (F := Ideal)) V (Proc.devRef .tc r) = V (Proc.devRef .tc r) := after_of_writes_sub L8 V L8_writes h

/-! ## The contents at the eight boundaries between stretches -/

variable (W : Valuation τ sig (Elt Ideal))

/-- The contents after the first 1 stretch. -/
def V1 : Valuation τ sig (Elt Ideal) := after (L0 (F := Ideal)) W
/-- The contents after the first 2 stretches. -/
def V2 : Valuation τ sig (Elt Ideal) := after (L1 (F := Ideal)) (V1 W)
/-- The contents after the first 3 stretches. -/
def V3 : Valuation τ sig (Elt Ideal) := after (L2 (F := Ideal)) (V2 W)
/-- The contents after the first 4 stretches. -/
def V4 : Valuation τ sig (Elt Ideal) := after (L3 (F := Ideal)) (V3 W)
/-- The contents after the first 5 stretches. -/
def V5 : Valuation τ sig (Elt Ideal) := after (L4 (F := Ideal)) (V4 W)
/-- The contents after the first 6 stretches. -/
def V6 : Valuation τ sig (Elt Ideal) := after (L5 (F := Ideal)) (V5 W)
/-- The contents after the first 7 stretches. -/
def V7 : Valuation τ sig (Elt Ideal) := after (L6 (F := Ideal)) (V6 W)
/-- The contents after the first 8 stretches. -/
def V8 : Valuation τ sig (Elt Ideal) := after (L7 (F := Ideal)) (V7 W)

/-- The whole fold is the last stretch's over what the first eight leave. -/
theorem after_ops : after (ops (F := Ideal)) W = after (L8 (F := Ideal)) (V8 W) := by
  simp only [ops, StableHlo.after_append]
  rfl

/-! ## A reference none of the first `k` stretches writes is at its launch contents at boundary `k` -/

theorem V1_keep (r : Ref sig .tc) (h0 : r ∉ W0 := by decide) : V1 W (Proc.devRef .tc r) = W (Proc.devRef .tc r) := keep0 W h0
theorem V2_keep (r : Ref sig .tc) (h0 : r ∉ W0 := by decide) (h1 : r ∉ W1 := by decide) :
    V2 W (Proc.devRef .tc r) = W (Proc.devRef .tc r) := (keep1 (V1 W) h1).trans (V1_keep W r h0)
theorem V3_keep (r : Ref sig .tc) (h0 : r ∉ W0 := by decide) (h1 : r ∉ W1 := by decide) (h2 : r ∉ W2 := by decide) :
    V3 W (Proc.devRef .tc r) = W (Proc.devRef .tc r) := (keep2 (V2 W) h2).trans (V2_keep W r h0 h1)
theorem V4_keep (r : Ref sig .tc) (h0 : r ∉ W0 := by decide) (h1 : r ∉ W1 := by decide) (h2 : r ∉ W2 := by decide) (h3 : r ∉ W3 := by decide) :
    V4 W (Proc.devRef .tc r) = W (Proc.devRef .tc r) := (keep3 (V3 W) h3).trans (V3_keep W r h0 h1 h2)
theorem V5_keep (r : Ref sig .tc) (h0 : r ∉ W0 := by decide) (h1 : r ∉ W1 := by decide) (h2 : r ∉ W2 := by decide) (h3 : r ∉ W3 := by decide) (h4 : r ∉ W4 := by decide) :
    V5 W (Proc.devRef .tc r) = W (Proc.devRef .tc r) := (keep4 (V4 W) h4).trans (V4_keep W r h0 h1 h2 h3)
theorem V6_keep (r : Ref sig .tc) (h0 : r ∉ W0 := by decide) (h1 : r ∉ W1 := by decide) (h2 : r ∉ W2 := by decide) (h3 : r ∉ W3 := by decide) (h4 : r ∉ W4 := by decide) (h5 : r ∉ W5 := by decide) :
    V6 W (Proc.devRef .tc r) = W (Proc.devRef .tc r) := (keep5 (V5 W) h5).trans (V5_keep W r h0 h1 h2 h3 h4)
theorem V7_keep (r : Ref sig .tc) (h0 : r ∉ W0 := by decide) (h1 : r ∉ W1 := by decide) (h2 : r ∉ W2 := by decide) (h3 : r ∉ W3 := by decide) (h4 : r ∉ W4 := by decide) (h5 : r ∉ W5 := by decide) (h6 : r ∉ W6 := by decide) :
    V7 W (Proc.devRef .tc r) = W (Proc.devRef .tc r) := (keep6 (V6 W) h6).trans (V6_keep W r h0 h1 h2 h3 h4 h5)
theorem V8_keep (r : Ref sig .tc) (h0 : r ∉ W0 := by decide) (h1 : r ∉ W1 := by decide) (h2 : r ∉ W2 := by decide) (h3 : r ∉ W3 := by decide) (h4 : r ∉ W4 := by decide) (h5 : r ∉ W5 := by decide) (h6 : r ∉ W6 := by decide) (h7 : r ∉ W7 := by decide) :
    V8 W (Proc.devRef .tc r) = W (Proc.devRef .tc r) := (keep7 (V7 W) h7).trans (V7_keep W r h0 h1 h2 h3 h4 h5 h6)

/-- A reference no stretch writes is at its launch contents at the end. -/
theorem ops_keep (r : Ref sig .tc) (h0 : r ∉ W0 := by decide) (h1 : r ∉ W1 := by decide) (h2 : r ∉ W2 := by decide) (h3 : r ∉ W3 := by decide) (h4 : r ∉ W4 := by decide) (h5 : r ∉ W5 := by decide) (h6 : r ∉ W6 := by decide) (h7 : r ∉ W7 := by decide) (h8 : r ∉ W8 := by decide) :
    after (ops (F := Ideal)) W (Proc.devRef .tc r) = W (Proc.devRef .tc r) := by
  rw [after_ops, keep8 (V8 W) h8]
  exact V8_keep W r h0 h1 h2 h3 h4 h5 h6 h7

/-! ## The four branches: two stacked layers each -/

/-- After stretch `L0`: the first layer of its branch, at the launch contents. -/
theorem V1_main_v48 : V1 W (Proc.devRef .tc main_v48)
    = layerRMI (xwMI (W (Proc.devRef .tc main_arg0)) (W (Proc.devRef .tc main_arg10))) (W (Proc.devRef .tc main_arg11)) (W (Proc.devRef .tc main_arg2)) (W (Proc.devRef .tc main_arg3)) := by
  unfold V1
  rw [layer0]
/-- After stretch `L1`: the branch's two stacked layers, at the launch contents. -/
theorem V2_main_v97 : V2 W (Proc.devRef .tc main_v97)
    = twoRMI (W (Proc.devRef .tc main_arg0)) (W (Proc.devRef .tc main_arg10)) (W (Proc.devRef .tc main_arg11)) (W (Proc.devRef .tc main_arg12)) (W (Proc.devRef .tc main_arg13))
        (W (Proc.devRef .tc main_arg2)) (W (Proc.devRef .tc main_arg3)) := by
  unfold V2 twoRMI
  rw [layer1, V1_main_v48, V1_keep W main_arg12, V1_keep W main_arg13, V1_keep W main_arg2, V1_keep W main_arg3]
/-- After stretch `L2`: the first layer of its branch, at the launch contents. -/
theorem V3_main_v146 : V3 W (Proc.devRef .tc main_v146)
    = layerRMI (xwMI (W (Proc.devRef .tc main_arg0)) (W (Proc.devRef .tc main_arg14))) (W (Proc.devRef .tc main_arg15)) (W (Proc.devRef .tc main_arg4)) (W (Proc.devRef .tc main_arg5)) := by
  unfold V3
  rw [layer2, V2_keep W main_arg0, V2_keep W main_arg14, V2_keep W main_arg15, V2_keep W main_arg4, V2_keep W main_arg5]
/-- After stretch `L3`: the branch's two stacked layers, at the launch contents. -/
theorem V4_main_v195 : V4 W (Proc.devRef .tc main_v195)
    = twoRMI (W (Proc.devRef .tc main_arg0)) (W (Proc.devRef .tc main_arg14)) (W (Proc.devRef .tc main_arg15)) (W (Proc.devRef .tc main_arg16)) (W (Proc.devRef .tc main_arg17))
        (W (Proc.devRef .tc main_arg4)) (W (Proc.devRef .tc main_arg5)) := by
  unfold V4 twoRMI
  rw [layer3, V3_main_v146, V3_keep W main_arg16, V3_keep W main_arg17, V3_keep W main_arg4, V3_keep W main_arg5]
/-- After stretch `L4`: the first layer of its branch, at the launch contents. -/
theorem V5_main_v244 : V5 W (Proc.devRef .tc main_v244)
    = layerRDIS (xwDIS (W (Proc.devRef .tc main_arg1)) (W (Proc.devRef .tc main_arg18))) (W (Proc.devRef .tc main_arg19)) (W (Proc.devRef .tc main_arg6)) (W (Proc.devRef .tc main_arg7)) := by
  unfold V5
  rw [layer4, V4_keep W main_arg1, V4_keep W main_arg18, V4_keep W main_arg19, V4_keep W main_arg6, V4_keep W main_arg7]
/-- After stretch `L5`: the branch's two stacked layers, at the launch contents. -/
theorem V6_main_v293 : V6 W (Proc.devRef .tc main_v293)
    = twoRDIS (W (Proc.devRef .tc main_arg1)) (W (Proc.devRef .tc main_arg18)) (W (Proc.devRef .tc main_arg19)) (W (Proc.devRef .tc main_arg20)) (W (Proc.devRef .tc main_arg21))
        (W (Proc.devRef .tc main_arg6)) (W (Proc.devRef .tc main_arg7)) := by
  unfold V6 twoRDIS
  rw [layer5, V5_main_v244, V5_keep W main_arg20, V5_keep W main_arg21, V5_keep W main_arg6, V5_keep W main_arg7]
/-- After stretch `L6`: the first layer of its branch, at the launch contents. -/
theorem V7_main_v342 : V7 W (Proc.devRef .tc main_v342)
    = layerRDIS (xwDIS (W (Proc.devRef .tc main_arg1)) (W (Proc.devRef .tc main_arg22))) (W (Proc.devRef .tc main_arg23)) (W (Proc.devRef .tc main_arg8)) (W (Proc.devRef .tc main_arg9)) := by
  unfold V7
  rw [layer6, V6_keep W main_arg1, V6_keep W main_arg22, V6_keep W main_arg23, V6_keep W main_arg8, V6_keep W main_arg9]
/-- After stretch `L7`: the branch's two stacked layers, at the launch contents. -/
theorem V8_main_v391 : V8 W (Proc.devRef .tc main_v391)
    = twoRDIS (W (Proc.devRef .tc main_arg1)) (W (Proc.devRef .tc main_arg22)) (W (Proc.devRef .tc main_arg23)) (W (Proc.devRef .tc main_arg24)) (W (Proc.devRef .tc main_arg25))
        (W (Proc.devRef .tc main_arg8)) (W (Proc.devRef .tc main_arg9)) := by
  unfold V8 twoRDIS
  rw [layer7, V7_main_v342, V7_keep W main_arg24, V7_keep W main_arg25, V7_keep W main_arg8, V7_keep W main_arg9]

/-! ## The branch outputs reach the last stretch unchanged -/

/-- `main_v97` is not written after stretch `L1`. -/
theorem V8_main_v97_eq : V8 W (Proc.devRef .tc main_v97) = V2 W (Proc.devRef .tc main_v97) := by
  unfold V8 V7 V6 V5 V4 V3
  rw [keep7 _ (r := main_v97) (by decide), keep6 _ (r := main_v97) (by decide), keep5 _ (r := main_v97) (by decide), keep4 _ (r := main_v97) (by decide), keep3 _ (r := main_v97) (by decide), keep2 _ (r := main_v97) (by decide)]
/-- `main_v195` is not written after stretch `L3`. -/
theorem V8_main_v195_eq : V8 W (Proc.devRef .tc main_v195) = V4 W (Proc.devRef .tc main_v195) := by
  unfold V8 V7 V6 V5
  rw [keep7 _ (r := main_v195) (by decide), keep6 _ (r := main_v195) (by decide), keep5 _ (r := main_v195) (by decide), keep4 _ (r := main_v195) (by decide)]
/-- `main_v293` is not written after stretch `L5`. -/
theorem V8_main_v293_eq : V8 W (Proc.devRef .tc main_v293) = V6 W (Proc.devRef .tc main_v293) := by
  unfold V8 V7
  rw [keep7 _ (r := main_v293) (by decide), keep6 _ (r := main_v293) (by decide)]

/-! ## The gated heads at the last boundary are the Spec's feature functions of the launch contents -/

theorem miGate_V8 : miGate (V8 W)
    = miFeaR (W (Proc.devRef .tc main_arg0)) (W (Proc.devRef .tc main_arg2)) (W (Proc.devRef .tc main_arg3)) (W (Proc.devRef .tc main_arg4)) (W (Proc.devRef .tc main_arg5))
      (W (Proc.devRef .tc main_arg10)) (W (Proc.devRef .tc main_arg11)) (W (Proc.devRef .tc main_arg12)) (W (Proc.devRef .tc main_arg13)) (W (Proc.devRef .tc main_arg14)) (W (Proc.devRef .tc main_arg15))
      (W (Proc.devRef .tc main_arg16)) (W (Proc.devRef .tc main_arg17)) (W (Proc.devRef .tc main_arg26)) (W (Proc.devRef .tc main_arg27)) (W (Proc.devRef .tc main_arg28)) (W (Proc.devRef .tc main_arg29)) := by
  unfold miGate miFeaR
  rw [V8_main_v97_eq, V2_main_v97, V8_main_v195_eq, V4_main_v195, V8_keep W main_arg26, V8_keep W main_arg27,
    V8_keep W main_arg28, V8_keep W main_arg29]

theorem disGate_V8 : disGate (V8 W)
    = disFeaR (W (Proc.devRef .tc main_arg1)) (W (Proc.devRef .tc main_arg6)) (W (Proc.devRef .tc main_arg7)) (W (Proc.devRef .tc main_arg8)) (W (Proc.devRef .tc main_arg9))
      (W (Proc.devRef .tc main_arg18)) (W (Proc.devRef .tc main_arg19)) (W (Proc.devRef .tc main_arg20)) (W (Proc.devRef .tc main_arg21)) (W (Proc.devRef .tc main_arg22)) (W (Proc.devRef .tc main_arg23))
      (W (Proc.devRef .tc main_arg24)) (W (Proc.devRef .tc main_arg25)) (W (Proc.devRef .tc main_arg26)) (W (Proc.devRef .tc main_arg27)) (W (Proc.devRef .tc main_arg28)) (W (Proc.devRef .tc main_arg29)) := by
  unfold disGate disFeaR
  rw [V8_main_v293_eq, V6_main_v293, V8_main_v391, V8_keep W main_arg26, V8_keep W main_arg27,
    V8_keep W main_arg28, V8_keep W main_arg29]

/-! ## The results -/

theorem res_miFea : after (ops (F := Ideal)) W (Proc.devRef .tc main_v410)
    = miFeaR (W (Proc.devRef .tc main_arg0)) (W (Proc.devRef .tc main_arg2)) (W (Proc.devRef .tc main_arg3)) (W (Proc.devRef .tc main_arg4)) (W (Proc.devRef .tc main_arg5))
      (W (Proc.devRef .tc main_arg10)) (W (Proc.devRef .tc main_arg11)) (W (Proc.devRef .tc main_arg12)) (W (Proc.devRef .tc main_arg13)) (W (Proc.devRef .tc main_arg14)) (W (Proc.devRef .tc main_arg15))
      (W (Proc.devRef .tc main_arg16)) (W (Proc.devRef .tc main_arg17)) (W (Proc.devRef .tc main_arg26)) (W (Proc.devRef .tc main_arg27)) (W (Proc.devRef .tc main_arg28)) (W (Proc.devRef .tc main_arg29)) := by
  rw [after_ops, heads_mi, miGate_V8]

theorem res_disFea : after (ops (F := Ideal)) W (Proc.devRef .tc main_v413)
    = disFeaR (W (Proc.devRef .tc main_arg1)) (W (Proc.devRef .tc main_arg6)) (W (Proc.devRef .tc main_arg7)) (W (Proc.devRef .tc main_arg8)) (W (Proc.devRef .tc main_arg9))
      (W (Proc.devRef .tc main_arg18)) (W (Proc.devRef .tc main_arg19)) (W (Proc.devRef .tc main_arg20)) (W (Proc.devRef .tc main_arg21)) (W (Proc.devRef .tc main_arg22)) (W (Proc.devRef .tc main_arg23))
      (W (Proc.devRef .tc main_arg24)) (W (Proc.devRef .tc main_arg25)) (W (Proc.devRef .tc main_arg26)) (W (Proc.devRef .tc main_arg27)) (W (Proc.devRef .tc main_arg28)) (W (Proc.devRef .tc main_arg29)) := by
  rw [after_ops, heads_dis, disGate_V8]

theorem res_sim : after (ops (F := Ideal)) W (Proc.devRef .tc main_v415)
    = sim
      (miFeaR (W (Proc.devRef .tc main_arg0)) (W (Proc.devRef .tc main_arg2)) (W (Proc.devRef .tc main_arg3)) (W (Proc.devRef .tc main_arg4)) (W (Proc.devRef .tc main_arg5))
        (W (Proc.devRef .tc main_arg10)) (W (Proc.devRef .tc main_arg11)) (W (Proc.devRef .tc main_arg12)) (W (Proc.devRef .tc main_arg13)) (W (Proc.devRef .tc main_arg14)) (W (Proc.devRef .tc main_arg15))
        (W (Proc.devRef .tc main_arg16)) (W (Proc.devRef .tc main_arg17)) (W (Proc.devRef .tc main_arg26)) (W (Proc.devRef .tc main_arg27)) (W (Proc.devRef .tc main_arg28)) (W (Proc.devRef .tc main_arg29)))
      (disFeaR (W (Proc.devRef .tc main_arg1)) (W (Proc.devRef .tc main_arg6)) (W (Proc.devRef .tc main_arg7)) (W (Proc.devRef .tc main_arg8)) (W (Proc.devRef .tc main_arg9))
        (W (Proc.devRef .tc main_arg18)) (W (Proc.devRef .tc main_arg19)) (W (Proc.devRef .tc main_arg20)) (W (Proc.devRef .tc main_arg21)) (W (Proc.devRef .tc main_arg22)) (W (Proc.devRef .tc main_arg23))
        (W (Proc.devRef .tc main_arg24)) (W (Proc.devRef .tc main_arg25)) (W (Proc.devRef .tc main_arg26)) (W (Proc.devRef .tc main_arg27)) (W (Proc.devRef .tc main_arg28)) (W (Proc.devRef .tc main_arg29))) := by
  rw [after_ops, heads_sim, miGate_V8, disGate_V8]

/-! ## No operation writes an argument -/

theorem res_arg0 : after (ops (F := Ideal)) W (Proc.devRef .tc main_arg0) = W (Proc.devRef .tc main_arg0) := ops_keep W main_arg0
theorem res_arg1 : after (ops (F := Ideal)) W (Proc.devRef .tc main_arg1) = W (Proc.devRef .tc main_arg1) := ops_keep W main_arg1
theorem res_arg2 : after (ops (F := Ideal)) W (Proc.devRef .tc main_arg2) = W (Proc.devRef .tc main_arg2) := ops_keep W main_arg2
theorem res_arg3 : after (ops (F := Ideal)) W (Proc.devRef .tc main_arg3) = W (Proc.devRef .tc main_arg3) := ops_keep W main_arg3
theorem res_arg4 : after (ops (F := Ideal)) W (Proc.devRef .tc main_arg4) = W (Proc.devRef .tc main_arg4) := ops_keep W main_arg4
theorem res_arg5 : after (ops (F := Ideal)) W (Proc.devRef .tc main_arg5) = W (Proc.devRef .tc main_arg5) := ops_keep W main_arg5
theorem res_arg6 : after (ops (F := Ideal)) W (Proc.devRef .tc main_arg6) = W (Proc.devRef .tc main_arg6) := ops_keep W main_arg6
theorem res_arg7 : after (ops (F := Ideal)) W (Proc.devRef .tc main_arg7) = W (Proc.devRef .tc main_arg7) := ops_keep W main_arg7
theorem res_arg8 : after (ops (F := Ideal)) W (Proc.devRef .tc main_arg8) = W (Proc.devRef .tc main_arg8) := ops_keep W main_arg8
theorem res_arg9 : after (ops (F := Ideal)) W (Proc.devRef .tc main_arg9) = W (Proc.devRef .tc main_arg9) := ops_keep W main_arg9
theorem res_arg10 : after (ops (F := Ideal)) W (Proc.devRef .tc main_arg10) = W (Proc.devRef .tc main_arg10) := ops_keep W main_arg10
theorem res_arg11 : after (ops (F := Ideal)) W (Proc.devRef .tc main_arg11) = W (Proc.devRef .tc main_arg11) := ops_keep W main_arg11
theorem res_arg12 : after (ops (F := Ideal)) W (Proc.devRef .tc main_arg12) = W (Proc.devRef .tc main_arg12) := ops_keep W main_arg12
theorem res_arg13 : after (ops (F := Ideal)) W (Proc.devRef .tc main_arg13) = W (Proc.devRef .tc main_arg13) := ops_keep W main_arg13
theorem res_arg14 : after (ops (F := Ideal)) W (Proc.devRef .tc main_arg14) = W (Proc.devRef .tc main_arg14) := ops_keep W main_arg14
theorem res_arg15 : after (ops (F := Ideal)) W (Proc.devRef .tc main_arg15) = W (Proc.devRef .tc main_arg15) := ops_keep W main_arg15
theorem res_arg16 : after (ops (F := Ideal)) W (Proc.devRef .tc main_arg16) = W (Proc.devRef .tc main_arg16) := ops_keep W main_arg16
theorem res_arg17 : after (ops (F := Ideal)) W (Proc.devRef .tc main_arg17) = W (Proc.devRef .tc main_arg17) := ops_keep W main_arg17
theorem res_arg18 : after (ops (F := Ideal)) W (Proc.devRef .tc main_arg18) = W (Proc.devRef .tc main_arg18) := ops_keep W main_arg18
theorem res_arg19 : after (ops (F := Ideal)) W (Proc.devRef .tc main_arg19) = W (Proc.devRef .tc main_arg19) := ops_keep W main_arg19
theorem res_arg20 : after (ops (F := Ideal)) W (Proc.devRef .tc main_arg20) = W (Proc.devRef .tc main_arg20) := ops_keep W main_arg20
theorem res_arg21 : after (ops (F := Ideal)) W (Proc.devRef .tc main_arg21) = W (Proc.devRef .tc main_arg21) := ops_keep W main_arg21
theorem res_arg22 : after (ops (F := Ideal)) W (Proc.devRef .tc main_arg22) = W (Proc.devRef .tc main_arg22) := ops_keep W main_arg22
theorem res_arg23 : after (ops (F := Ideal)) W (Proc.devRef .tc main_arg23) = W (Proc.devRef .tc main_arg23) := ops_keep W main_arg23
theorem res_arg24 : after (ops (F := Ideal)) W (Proc.devRef .tc main_arg24) = W (Proc.devRef .tc main_arg24) := ops_keep W main_arg24
theorem res_arg25 : after (ops (F := Ideal)) W (Proc.devRef .tc main_arg25) = W (Proc.devRef .tc main_arg25) := ops_keep W main_arg25
theorem res_arg26 : after (ops (F := Ideal)) W (Proc.devRef .tc main_arg26) = W (Proc.devRef .tc main_arg26) := ops_keep W main_arg26
theorem res_arg27 : after (ops (F := Ideal)) W (Proc.devRef .tc main_arg27) = W (Proc.devRef .tc main_arg27) := ops_keep W main_arg27
theorem res_arg28 : after (ops (F := Ideal)) W (Proc.devRef .tc main_arg28) = W (Proc.devRef .tc main_arg28) := ops_keep W main_arg28
theorem res_arg29 : after (ops (F := Ideal)) W (Proc.devRef .tc main_arg29) = W (Proc.devRef .tc main_arg29) := ops_keep W main_arg29

end Cert.ReferenceIdeal.HandRun

end
-- ==== Proof.RefValue.lean ====
/-
  The reference's run with its three results named: each result buffer ends at the reference's form of the composite
  functions of Spec.lean applied to the argument arrays (RefLayers.lean reads the fold of the operations stretch by
  stretch), and the arguments end as launched.
-/
import proofs.«406409_j38250978738663_3_alg».proof.Proof.RefLayers
import proofs.«406409_j38250978738663_3_alg».proof.Proof.Spec

set_option maxRecDepth 16384

noncomputable section

namespace Cert.Spec

open Idealize.ShloMosaic Idealize.ShloMosaic.TcCoe Idealize.SL.Sem Cert.ReferenceIdeal.HandRun

/-- Every weakly fair execution of the reference's @main terminates with the three results at the composites of the
    launch contents of its arguments, and the arguments unchanged. -/
theorem ref_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v415) = sim (miFeaR (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))) (disFeaR (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)))
      ∧ r.2.mem ((c.tc : Thread Cert.ReferenceIdeal.nD Cert.ReferenceIdeal.τ).loc Cert.ReferenceIdeal.main_v410) = miFeaR (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))
      ∧ r.2.mem ((c.tc : Thread Cert.ReferenceIdeal.nD Cert.ReferenceIdeal.τ).loc Cert.ReferenceIdeal.main_v413) = disFeaR (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)) :=
  (θ_run Cert.ReferenceIdeal.defs _ _).mono (fun r h c =>
    ⟨(h c Cert.ReferenceIdeal.main_v415).trans (res_sim _), (h c Cert.ReferenceIdeal.main_v410).trans (res_miFea _),
      (h c Cert.ReferenceIdeal.main_v413).trans (res_disFea _),
      (h c Cert.ReferenceIdeal.main_arg0).trans (res_arg0 _),
      (h c Cert.ReferenceIdeal.main_arg1).trans (res_arg1 _),
      (h c Cert.ReferenceIdeal.main_arg2).trans (res_arg2 _),
      (h c Cert.ReferenceIdeal.main_arg3).trans (res_arg3 _),
      (h c Cert.ReferenceIdeal.main_arg4).trans (res_arg4 _),
      (h c Cert.ReferenceIdeal.main_arg5).trans (res_arg5 _),
      (h c Cert.ReferenceIdeal.main_arg6).trans (res_arg6 _),
      (h c Cert.ReferenceIdeal.main_arg7).trans (res_arg7 _),
      (h c Cert.ReferenceIdeal.main_arg8).trans (res_arg8 _),
      (h c Cert.ReferenceIdeal.main_arg9).trans (res_arg9 _),
      (h c Cert.ReferenceIdeal.main_arg10).trans (res_arg10 _),
      (h c Cert.ReferenceIdeal.main_arg11).trans (res_arg11 _),
      (h c Cert.ReferenceIdeal.main_arg12).trans (res_arg12 _),
      (h c Cert.ReferenceIdeal.main_arg13).trans (res_arg13 _),
      (h c Cert.ReferenceIdeal.main_arg14).trans (res_arg14 _),
      (h c Cert.ReferenceIdeal.main_arg15).trans (res_arg15 _),
      (h c Cert.ReferenceIdeal.main_arg16).trans (res_arg16 _),
      (h c Cert.ReferenceIdeal.main_arg17).trans (res_arg17 _),
      (h c Cert.ReferenceIdeal.main_arg18).trans (res_arg18 _),
      (h c Cert.ReferenceIdeal.main_arg19).trans (res_arg19 _),
      (h c Cert.ReferenceIdeal.main_arg20).trans (res_arg20 _),
      (h c Cert.ReferenceIdeal.main_arg21).trans (res_arg21 _),
      (h c Cert.ReferenceIdeal.main_arg22).trans (res_arg22 _),
      (h c Cert.ReferenceIdeal.main_arg23).trans (res_arg23 _),
      (h c Cert.ReferenceIdeal.main_arg24).trans (res_arg24 _),
      (h c Cert.ReferenceIdeal.main_arg25).trans (res_arg25 _),
      (h c Cert.ReferenceIdeal.main_arg26).trans (res_arg26 _),
      (h c Cert.ReferenceIdeal.main_arg27).trans (res_arg27 _),
      (h c Cert.ReferenceIdeal.main_arg28).trans (res_arg28 _),
      (h c Cert.ReferenceIdeal.main_arg29).trans (res_arg29 _)⟩)
    (Cert.ReferenceIdeal.HandRun.run (F := Ideal) m ρ)

end Cert.Spec

end
-- ==== Proof.BiasRow.lean ====
/-
  A `[128]` vector laid out as a `[1, 128]` row in two ways: reshaped (the same elements in row-major order under the
  longer shape), and broadcast along a new leading axis of extent one. Either way the row reads, at `(0, q)`, the vector
  at `q`: they are one row.
-/
import proofs.«406409_j38250978738663_3_alg».proof.Proof.SpecBase
import Idealize.ShloMosaic.Lib.Pipeline.Value

noncomputable section

namespace Cert.Spec

open Idealize.ShloMosaic Idealize.ShloMosaic.TcCoe
open Cert.KernelIdeal Cert.KernelIdeal.Facts₀ Cert.KernelIdeal.Facts

/-- The reshape of a vector to a one-row table is its broadcast to that table. Index by index: the reshape adds a leading
    unit axis, so it reads the vector at the remaining coordinate; the broadcast keeps the vector's one axis (of extent
    128, not one) on the table's second axis, so it reads the same coordinate. -/
theorem rowK_eq_rowR (b : C S128 .f32) : shapeCast S1x128 b shapeCasts_S128_S1x128 = broadcastInDim Cert.ReferenceIdeal.S1x128 ![1] Cert.ReferenceIdeal.Facts₀.bcast_S128_S1x128_1 b := by
  funext j
  refine (shapeCast_addUnit_apply ![128] b shapeCasts_S128_S1x128 j).trans ?_
  refine (broadcastInDim_apply _ Cert.ReferenceIdeal.Facts₀.bcast_S128_S1x128_1 b j (fun a => j a.succ) (fun a => ?_)).symm
  have ha : a = 0 := Subsingleton.elim _ _
  subst ha
  rfl

end Cert.Spec

end
-- ==== Proof.TakeBase.lean ====
/-
  Two facts about a mask, at any shapes. A reduction by `and`, started at 1, over words that are all 1 is 1 at every
  result index; and a select whose mask is 1 everywhere is its first branch.
-/
import Idealize.ShloMosaic.PureOps.Reduce

namespace Cert.Spec

open Idealize.ShloMosaic

/-- A reduction by `and` from 1 over words that are all 1 is 1 at every result index: the reduction at `j` is a left
    fold over a list of operand indices, and `1 and 1 = 1` at every step. -/
theorem reduce_andi_of_all {s t u : Shape} {axes : List (Fin s.rank)} (x : s.Idx → BitVec 1) (init : u.Idx → BitVec 1)
    (hr : s.ReducesTo axes t) (hu : 0 < u.numel) (hinit : init (Shape.Idx.first hu) = 1#1) (hx : ∀ i, x i = 1#1) (j : t.Idx) :
    Host.reduce IntOp.andi x init hr hu j = 1#1 := by
  rw [Host.reduce_eq_foldl, hinit]
  generalize (((List.finRange s.numel).map s.rowMajor.symm).filter fun i => hr.drop i = j) = l
  induction l with
  | nil => rfl
  | cons a l ih => rw [List.foldl_cons, hx a]; exact ih

/-- A select whose mask, broadcast from a smaller shape, is 1 at every index of that shape takes its first branch
    everywhere: a broadcast reads its operand at some index, whichever it is. -/
theorem select_bcast_one {s t : Shape} {α : Type} (dims : Fin s.rank → Fin t.rank) (hb : s.BroadcastsInDim t dims) (m : IVec s 1)
    (hm : ∀ j, m j = 1#1) (a b : t.Idx → α) : select (broadcastInDim t dims hb m) a b = a := by
  funext i
  show Scalar.select (m _) (a i) (b i) = a i
  rw [hm]; rfl

end Cert.Spec
-- ==== Proof.TakeMI.lean ====
/-
  On the 12000-node graphs (384000 edges): where every row index is below 12000, the fill-gather is the plain gather,
  the two bias rows are one row, and so the two forms of the layer are one function.

  The fill-gather selects, row by row, between the gathered row and a NaN row, on a mask that is the `and` (over an
  axis of extent one) of the two range tests `0 ≤ index` and `index ≤ 11999` of the wrapped index. An index word below
  12000 is non-negative as a signed word, so the wrap leaves it alone and both tests hold; the mask is 1 at every row
  and the select never takes the fill.
-/
import proofs.«406409_j38250978738663_3_alg».proof.Proof.SpecMI
import proofs.«406409_j38250978738663_3_alg».proof.Proof.BiasRow
import proofs.«406409_j38250978738663_3_alg».proof.Proof.TakeBase
import Idealize.ShloMosaic.Lib.StableHlo.Predicate
import Idealize.ShloMosaic.Lib.Affine

noncomputable section

namespace Cert.Spec

open Idealize.ShloMosaic Idealize.ShloMosaic.TcCoe
open Cert.KernelIdeal Cert.KernelIdeal.Facts₀ Cert.KernelIdeal.Facts

/-- A word below 12000 is non-negative as a signed word (it is below 2³¹): the wrap of negative indices leaves it alone. -/
theorem wrapMI_apply (row : C S384000 .i32) (p : S384000.Idx) (hp : (row p).toNat < 12000) : wrapMI row p = row p := by
  show Scalar.select (IntOp.cmpi .slt (row p) 0#32) (IntOp.addi (row p) 12000#32) (row p) = row p
  have hn : ¬ IntOp.cmpi .slt (row p) 0#32 = 1#1 := by
    rw [StableHlo.Predicate.slt_iff_toNat (by omega) (by decide)]; exact Nat.not_lt_zero _
  exact if_neg hn

/-- A word below 12000 passes both range tests: small non-negative words order as their values. -/
theorem inRangeMI (v : BitVec 32) (hv : v.toNat < 12000) :
    IntOp.andi (IntOp.cmpi .sge v 0#32) (IntOp.cmpi .sle v 11999#32) = 1#1 := by
  rw [IntOp.andi_eq_one, StableHlo.Predicate.sge_iff_toNat (by omega) (by decide),
    StableHlo.Predicate.sle_iff_toNat (by omega) (by decide)]
  exact ⟨Nat.zero_le _, by show v.toNat ≤ 11999; omega⟩

/-- Where every row index is below 12000 the fill-gather is the plain gather: the mask is 1 at every row. At a row, the
    mask is the reduction by `and` of the one-column table of range tests; each entry of that table is the two tests of
    the wrapped index of its row, the constants being broadcast scalars. -/
theorem takeMI_eq (xw : C S12000x128 .f32) (row : C S384000 .i32)
    (h : ∀ j : S384000.Idx, (row j).toNat < 12000) : takeMI xw row = gatherMI xw row := by
  unfold takeMI
  apply select_bcast_one
  intro j
  apply reduce_andi_of_all
  · rfl
  intro k
  show IntOp.andi (IntOp.cmpi .sge (wrapMI row _) 0#32) (IntOp.cmpi .sle (wrapMI row _) 11999#32) = 1#1
  rw [wrapMI_apply row _ (h _)]
  exact inRangeMI _ (h _)

/-- The bias as the `[12000, 128]` table both forms add: the two `[1, 128]` rows it is broadcast from are one row. -/
theorem biasRowMI (b : C S128 .f32) : broadcastInDim Cert.ReferenceIdeal.S12000x128 ![0, 1] Cert.ReferenceIdeal.Facts₀.bcast_S1x128_S12000x128_0_1 (shapeCast S1x128 b shapeCasts_S128_S1x128) = broadcastInDim Cert.ReferenceIdeal.S12000x128 ![0, 1] Cert.ReferenceIdeal.Facts₀.bcast_S1x128_S12000x128_0_1 (broadcastInDim Cert.ReferenceIdeal.S1x128 ![1] Cert.ReferenceIdeal.Facts₀.bcast_S128_S1x128_1 b) := by
  rw [rowK_eq_rowR b]

/-- The two forms of the layer agree where every source index is below 12000: they differ in the gather and in the bias
    row only, and those are equal by the two facts above; the shared chain is never opened. -/
theorem layerKMI_eq (xw : C S12000x128 .f32) (b : C S128 .f32) (e : C S2x384000 .i32) (w : C S384000 .f32)
    (h : ∀ j : S384000.Idx, (rowMI e j).toNat < 12000) : layerKMI xw b e w = layerRMI xw b e w := by
  unfold layerKMI layerRMI
  rw [takeMI_eq xw (rowMI e) h, biasRowMI b]

end Cert.Spec

end
-- ==== Proof.TakeDIS.lean ====
/-
  On the 6000-node graphs (192000 edges): where every row index is below 6000, the fill-gather is the plain gather,
  the two bias rows are one row, and so the two forms of the layer are one function.

  The fill-gather selects, row by row, between the gathered row and a NaN row, on a mask that is the `and` (over an
  axis of extent one) of the two range tests `0 ≤ index` and `index ≤ 5999` of the wrapped index. An index word below
  6000 is non-negative as a signed word, so the wrap leaves it alone and both tests hold; the mask is 1 at every row
  and the select never takes the fill.
-/
import proofs.«406409_j38250978738663_3_alg».proof.Proof.SpecDIS
import proofs.«406409_j38250978738663_3_alg».proof.Proof.BiasRow
import proofs.«406409_j38250978738663_3_alg».proof.Proof.TakeBase
import Idealize.ShloMosaic.Lib.StableHlo.Predicate
import Idealize.ShloMosaic.Lib.Affine

noncomputable section

namespace Cert.Spec

open Idealize.ShloMosaic Idealize.ShloMosaic.TcCoe
open Cert.KernelIdeal Cert.KernelIdeal.Facts₀ Cert.KernelIdeal.Facts

/-- A word below 6000 is non-negative as a signed word (it is below 2³¹): the wrap of negative indices leaves it alone. -/
theorem wrapDIS_apply (row : C S192000 .i32) (p : S192000.Idx) (hp : (row p).toNat < 6000) : wrapDIS row p = row p := by
  show Scalar.select (IntOp.cmpi .slt (row p) 0#32) (IntOp.addi (row p) 6000#32) (row p) = row p
  have hn : ¬ IntOp.cmpi .slt (row p) 0#32 = 1#1 := by
    rw [StableHlo.Predicate.slt_iff_toNat (by omega) (by decide)]; exact Nat.not_lt_zero _
  exact if_neg hn

/-- A word below 6000 passes both range tests: small non-negative words order as their values. -/
theorem inRangeDIS (v : BitVec 32) (hv : v.toNat < 6000) :
    IntOp.andi (IntOp.cmpi .sge v 0#32) (IntOp.cmpi .sle v 5999#32) = 1#1 := by
  rw [IntOp.andi_eq_one, StableHlo.Predicate.sge_iff_toNat (by omega) (by decide),
    StableHlo.Predicate.sle_iff_toNat (by omega) (by decide)]
  exact ⟨Nat.zero_le _, by show v.toNat ≤ 5999; omega⟩

/-- Where every row index is below 6000 the fill-gather is the plain gather: the mask is 1 at every row. At a row, the
    mask is the reduction by `and` of the one-column table of range tests; each entry of that table is the two tests of
    the wrapped index of its row, the constants being broadcast scalars. -/
theorem takeDIS_eq (xw : C S6000x128 .f32) (row : C S192000 .i32)
    (h : ∀ j : S192000.Idx, (row j).toNat < 6000) : takeDIS xw row = gatherDIS xw row := by
  unfold takeDIS
  apply select_bcast_one
  intro j
  apply reduce_andi_of_all
  · rfl
  intro k
  show IntOp.andi (IntOp.cmpi .sge (wrapDIS row _) 0#32) (IntOp.cmpi .sle (wrapDIS row _) 5999#32) = 1#1
  rw [wrapDIS_apply row _ (h _)]
  exact inRangeDIS _ (h _)

/-- The bias as the `[6000, 128]` table both forms add: the two `[1, 128]` rows it is broadcast from are one row. -/
theorem biasRowDIS (b : C S128 .f32) : broadcastInDim Cert.ReferenceIdeal.S6000x128 ![0, 1] Cert.ReferenceIdeal.Facts₀.bcast_S1x128_S6000x128_0_1 (shapeCast S1x128 b shapeCasts_S128_S1x128) = broadcastInDim Cert.ReferenceIdeal.S6000x128 ![0, 1] Cert.ReferenceIdeal.Facts₀.bcast_S1x128_S6000x128_0_1 (broadcastInDim Cert.ReferenceIdeal.S1x128 ![1] Cert.ReferenceIdeal.Facts₀.bcast_S128_S1x128_1 b) := by
  rw [rowK_eq_rowR b]

/-- The two forms of the layer agree where every source index is below 6000: they differ in the gather and in the bias
    row only, and those are equal by the two facts above; the shared chain is never opened. -/
theorem layerKDIS_eq (xw : C S6000x128 .f32) (b : C S128 .f32) (e : C S2x192000 .i32) (w : C S192000 .f32)
    (h : ∀ j : S192000.Idx, (rowDIS e j).toNat < 6000) : layerKDIS xw b e w = layerRDIS xw b e w := by
  unfold layerKDIS layerRDIS
  rw [takeDIS_eq xw (rowDIS e) h, biasRowDIS b]

end Cert.Spec

end
-- ==== Proof.Bridge.lean ====
/-
  The kernel's form of every composite equals the reference's form once the source-node indices are in range: the
  fill-gather never fills (TakeMI / TakeDIS), and a bias vector reshaped to a row is the vector broadcast to a row.
-/
import proofs.«406409_j38250978738663_3_alg».proof.Proof.Spec
import proofs.«406409_j38250978738663_3_alg».proof.Proof.TakeMI
import proofs.«406409_j38250978738663_3_alg».proof.Proof.TakeDIS

noncomputable section

namespace Cert.Spec

open Idealize.ShloMosaic Idealize.ShloMosaic.TcCoe
open Cert.KernelIdeal Cert.KernelIdeal.Facts₀ Cert.KernelIdeal.Facts

theorem rowK_eq (b : C S128 .f32) : rowK b = rowR b := rowK_eq_rowR b

theorem twoKMI_eq (x : C S12000x128 .f32) (W1 : C S128x128 .f32) (b1 : C S128 .f32) (W2 : C S128x128 .f32) (b2 : C S128 .f32)
    (e : C S2x384000 .i32) (w : C S384000 .f32) (h : ∀ j : S384000.Idx, (rowMI e j).toNat < 12000) :
    twoKMI x W1 b1 W2 b2 e w = twoRMI x W1 b1 W2 b2 e w := by
  unfold twoKMI twoRMI
  rw [layerKMI_eq _ _ _ _ h, layerKMI_eq _ _ _ _ h]

theorem twoKDIS_eq (x : C S6000x128 .f32) (W1 : C S128x128 .f32) (b1 : C S128 .f32) (W2 : C S128x128 .f32) (b2 : C S128 .f32)
    (e : C S2x192000 .i32) (w : C S192000 .f32) (h : ∀ j : S192000.Idx, (rowDIS e j).toNat < 6000) :
    twoKDIS x W1 b1 W2 b2 e w = twoRDIS x W1 b1 W2 b2 e w := by
  unfold twoKDIS twoRDIS
  rw [layerKDIS_eq _ _ _ _ h, layerKDIS_eq _ _ _ _ h]

theorem miFeaK_eq (a0 : C S12000x128 .f32) (a2 : C S2x384000 .i32) (a3 : C S384000 .f32) (a4 : C S2x384000 .i32) (a5 : C S384000 .f32) (a10 : C S128x128 .f32) (a11 : C S128 .f32) (a12 : C S128x128 .f32) (a13 : C S128 .f32) (a14 : C S128x128 .f32) (a15 : C S128 .f32) (a16 : C S128x128 .f32) (a17 : C S128 .f32) (a26 : C S128x128 .f32) (a27 : C S128 .f32) (a28 : C S128x128 .f32) (a29 : C S128 .f32)
    (h2 : ∀ j : S384000.Idx, (rowMI a2 j).toNat < 12000) (h4 : ∀ j : S384000.Idx, (rowMI a4 j).toNat < 12000) :
    miFeaK a0 a2 a3 a4 a5 a10 a11 a12 a13 a14 a15 a16 a17 a26 a27 a28 a29 = miFeaR a0 a2 a3 a4 a5 a10 a11 a12 a13 a14 a15 a16 a17 a26 a27 a28 a29 := by
  unfold miFeaK miFeaR
  rw [twoKMI_eq _ _ _ _ _ _ _ h2, twoKMI_eq _ _ _ _ _ _ _ h4, rowK_eq, rowK_eq]

theorem disFeaK_eq (a1 : C S6000x128 .f32) (a6 : C S2x192000 .i32) (a7 : C S192000 .f32) (a8 : C S2x192000 .i32) (a9 : C S192000 .f32) (a18 : C S128x128 .f32) (a19 : C S128 .f32) (a20 : C S128x128 .f32) (a21 : C S128 .f32) (a22 : C S128x128 .f32) (a23 : C S128 .f32) (a24 : C S128x128 .f32) (a25 : C S128 .f32) (a26 : C S128x128 .f32) (a27 : C S128 .f32) (a28 : C S128x128 .f32) (a29 : C S128 .f32)
    (h6 : ∀ j : S192000.Idx, (rowDIS a6 j).toNat < 6000) (h8 : ∀ j : S192000.Idx, (rowDIS a8 j).toNat < 6000) :
    disFeaK a1 a6 a7 a8 a9 a18 a19 a20 a21 a22 a23 a24 a25 a26 a27 a28 a29 = disFeaR a1 a6 a7 a8 a9 a18 a19 a20 a21 a22 a23 a24 a25 a26 a27 a28 a29 := by
  unfold disFeaK disFeaR
  rw [twoKDIS_eq _ _ _ _ _ _ _ h6, twoKDIS_eq _ _ _ _ _ _ _ h8, rowK_eq, rowK_eq]

end Cert.Spec

end
-- ==== Proof.PreRows.lean ====
/-
  The claim's precondition, decoded where the proof needs it: row 0 of each of the four edge lists holds node indices
  in range.

  The precondition is one `i1` scalar, an `and` of conjuncts each of the form `jnp.all (p)`: first the finiteness of the
  float inputs, then, last and so outermost, for each edge list `e` the pair `jnp.all (e[0] ≥ 0)`, `jnp.all (e[0] < n)`
  (signed comparisons; `n` = 12000 on the 12000-node graphs, 6000 on the 6000-node graphs). The claim says the scalar is 1.
  An `and` that is 1 has both operands 1; a reduction by `and` that is 1 met a 1 at every element; a scalar broadcast
  reads the scalar everywhere; and a 32-bit word that is ≥ 0 and < n signed is below n unsigned, because a nonnegative
  signed value is the unsigned value. The finiteness conjuncts are never opened: they stay one unnamed scalar.
-/
import proofs.«406409_j38250978738663_3_alg».proof.Defs
import proofs.«406409_j38250978738663_3_alg».proof.Proof.Gen.Pre_finite_inputs
import proofs.«406409_j38250978738663_3_alg».proof.Proof.Spec
import Idealize.ShloMosaic.Lib.ReduceAll
import Idealize.ShloMosaic.Lib.StableHlo.Predicate

noncomputable section

namespace Cert.Spec

open Idealize.ShloMosaic Idealize.ShloMosaic.TcCoe Idealize.SL.Sem Idealize.ShloMosaic.StableHlo

namespace PreRows

/-! ## Words and masks -/

/-- A signed 32-bit word that is at least 0 and below `N` (itself below 2³¹) has unsigned value below `N`:
    a nonnegative signed value is the unsigned value. -/
theorem toNat_lt_of_signed (x : BitVec 32) (N : ℕ) (hN : N < 2 ^ 31)
    (h0 : IntOp.cmpi .sge x 0#32 = 1#1) (h1 : IntOp.cmpi .slt x (BitVec.ofNat 32 N) = 1#1) : x.toNat < N := by
  rw [IntOp.cmpi_sge] at h0
  rw [IntOp.cmpi_slt, Predicate.toInt_ofNat_small N hN] at h1
  have z : (0#32).toInt = 0 := by decide
  rw [z] at h0
  have e := BitVec.toInt_eq_toNat_cond x
  split at e <;> omega

/-- An elementwise `and` of two `i1` arrays is all ones exactly when both are. -/
theorem andi_ones {s : Shape} (x y : IVec s 1) :
    andi x y = (fun _ => 1#1) ↔ x = (fun _ => 1#1) ∧ y = (fun _ => 1#1) := by
  constructor
  · intro h
    exact ⟨funext fun i => (IntOp.andi_eq_one.1 (congrFun h i)).1, funext fun i => (IntOp.andi_eq_one.1 (congrFun h i)).2⟩
  · rintro ⟨rfl, rfl⟩
    funext i
    exact IntOp.andi_eq_one.2 ⟨rfl, rfl⟩

section Decode

open Cert.Pre_finite_inputs Cert.Pre_finite_inputs.Facts

variable [Cert.Pre_finite_inputs.Facts]

/-- The scalar shape has one index. -/
instance : Subsingleton S_.Idx := ⟨fun a b => funext fun d => d.elim0⟩

/-- `jnp.all (v ⋈ k)` as printed: the reduction by `and`, from 1, of the elementwise signed comparison of the words of
    `v` with the scalar `k` broadcast. -/
def All (p : CmpIPredicate) {s : Shape} {axes : List (Fin s.rank)} (hb : S_.BroadcastsInDim s ![])
    (hr : s.ReducesTo axes S_) (v : IVec s 32) (k : IVec S_ 32) : IVec S_ 1 :=
  Host.reduce IntOp.andi (cmpi p v (broadcastInDim s ![] hb k)) (constantI S_ 1 1#1) hr h_S_

/-- Where `jnp.all (v ⋈ k)` is 1, every word of `v` compares so with the scalar. -/
theorem All.apply {p : CmpIPredicate} {s : Shape} {axes : List (Fin s.rank)} {hb : S_.BroadcastsInDim s ![]}
    {hr : s.ReducesTo axes S_} {v : IVec s 32} {k : BitVec 32}
    (h : All p hb hr v (constantI S_ 32 k) = fun _ => 1#1) (j : s.Idx) : IntOp.cmpi p (v j) k = 1#1 := by
  have a := Host.reduce_andi_all _ _ hr h_S_ (Shape.Idx.first h_S_) (congrFun h _) j
  simpa only [cmpi, Predicate.bcast_scalar hb h_S_, constantI] using a

/-- `jnp.all (v ≥ 0) & jnp.all (v < N)`: every word of `v` has unsigned value below `N`. -/
theorem lt_of_All {s : Shape} {axes : List (Fin s.rank)} {hb : S_.BroadcastsInDim s ![]} {hr : s.ReducesTo axes S_}
    {v : IVec s 32} (N : ℕ) (hN : N < 2 ^ 31) (hge : All .sge hb hr v (constantI S_ 32 0#32) = fun _ => 1#1)
    (hlt : All .slt hb hr v (constantI S_ 32 (BitVec.ofNat 32 N)) = fun _ => 1#1) (j : s.Idx) : (v j).toNat < N :=
  toNat_lt_of_signed _ N hN (All.apply hge j) (All.apply hlt j)

/-! ## Row 0 of an edge list, as the precondition slices and reshapes it -/

/-- Row 0 of a `[2, 384000]` edge list. -/
def r384 (e : IVec S2x384000 32) : IVec S384000 32 :=
  shapeCast S384000 (extractStridedSlice S1x384000 ![0, 0] e slices_S2x384000_S1x384000_0_0) shapeCasts_S1x384000_S384000
/-- Row 0 of a `[2, 192000]` edge list. -/
def r192 (e : IVec S2x192000 32) : IVec S192000 32 :=
  shapeCast S192000 (extractStridedSlice S1x192000 ![0, 0] e slices_S2x192000_S1x192000_0_0) shapeCasts_S1x192000_S192000

/-! ## The precondition's last eight conjuncts, part by part (each equation is the part's text unfolded) -/

variable {F : FTy → Type} [FloatOps F]

theorem part10_eq (v170 : IVec S_ 1) (v172 : IVec S192000 32) (c64 : IVec S_ 32) :
    fn_part10 (F := F) v170 v172 c64 = andi v170 (All .slt bcast_S_S192000 reducesTo_S192000_S_d0 v172 c64) := rfl

theorem part9_eq (a6 a8 : IVec S2x192000 32) (v152 : IVec S_ 1) (v154 : IVec S192000 32) (c58 : IVec S_ 32) :
    fn_part9 (F := F) a6 a8 v152 v154 c58
      = andi (andi (andi (andi v152 (All .sge bcast_S_S192000 reducesTo_S192000_S_d0 v154 c58))
          (All .slt bcast_S_S192000 reducesTo_S192000_S_d0 (r192 a6) (constantI S_ 32 6000#32)))
          (All .sge bcast_S_S192000 reducesTo_S192000_S_d0 (r192 a8) (constantI S_ 32 0#32)))
          (All .slt bcast_S_S192000 reducesTo_S192000_S_d0 (r192 a8) (constantI S_ 32 6000#32)) := rfl

theorem part8_eq (a4 : IVec S2x384000 32) (a6 a8 : IVec S2x192000 32) (v134 : IVec S_ 1) (v136 : IVec S384000 32)
    (c52 : IVec S_ 32) :
    fn_part8 (F := F) a4 a6 a8 v134 v136 c52
      = fn_part9 (F := F) a6 a8
          (andi (andi (andi v134 (All .slt bcast_S_S384000 reducesTo_S384000_S_d0 v136 c52))
            (All .sge bcast_S_S384000 reducesTo_S384000_S_d0 (r384 a4) (constantI S_ 32 0#32)))
            (All .slt bcast_S_S384000 reducesTo_S384000_S_d0 (r384 a4) (constantI S_ 32 12000#32)))
          (r192 a6) (constantI S_ 32 0#32) := rfl

/-- Part 7 opens with the last two finiteness conjuncts; what they and the earlier parts accumulate stays one unnamed
    `i1` scalar `X`. -/
theorem part7_eq (a2 a4 : IVec S2x384000 32) (a6 a8 : IVec S2x192000 32) (a29 : FVec F S128 .f32) (v118 : IVec S_ 1)
    (v119 : FVec F S128x128 .f32) :
    ∃ X : IVec S_ 1, fn_part7 (F := F) a2 a4 a6 a8 a29 v118 v119
      = fn_part8 (F := F) a4 a6 a8 (andi X (All .sge bcast_S_S384000 reducesTo_S384000_S_d0 (r384 a2) (constantI S_ 32 0#32)))
          (r384 a2) (constantI S_ 32 12000#32) := ⟨_, rfl⟩

/-- From part 7 on: all ones says row 0 of each of the four edge lists holds node indices in range. -/
theorem part7_rows {a2 a4 : IVec S2x384000 32} {a6 a8 : IVec S2x192000 32} {a29 : FVec F S128 .f32} {v118 : IVec S_ 1}
    {v119 : FVec F S128x128 .f32} (h : fn_part7 (F := F) a2 a4 a6 a8 a29 v118 v119 = fun _ => 1#1) :
    (∀ j, (r384 a2 j).toNat < 12000) ∧ (∀ j, (r384 a4 j).toNat < 12000)
      ∧ (∀ j, (r192 a6 j).toNat < 6000) ∧ (∀ j, (r192 a8 j).toNat < 6000) := by
  obtain ⟨X, e⟩ := part7_eq a2 a4 a6 a8 a29 v118 v119
  rw [e, part8_eq, part9_eq] at h
  simp only [andi_ones] at h
  obtain ⟨⟨⟨⟨⟨⟨⟨⟨-, g2⟩, l2⟩, g4⟩, l4⟩, g6⟩, l6⟩, g8⟩, l8⟩ := h
  exact ⟨lt_of_All 12000 (by decide) g2 l2, lt_of_All 12000 (by decide) g4 l4,
    lt_of_All 6000 (by decide) g6 l6, lt_of_All 6000 (by decide) g8 l8⟩

/-- The whole precondition: parts 1 to 6 (finiteness of the float inputs) only feed part 7's two scalars. -/
theorem fn_rows
    {a0 : FVec F S12000x128 .f32} {a1 : FVec F S6000x128 .f32} {a2 : IVec S2x384000 32}
    {a3 : FVec F S384000 .f32} {a4 : IVec S2x384000 32} {a5 : FVec F S384000 .f32} {a6 : IVec S2x192000 32}
    {a7 : FVec F S192000 .f32} {a8 : IVec S2x192000 32} {a9 : FVec F S192000 .f32} {a10 : FVec F S128x128 .f32}
    {a11 : FVec F S128 .f32} {a12 : FVec F S128x128 .f32} {a13 : FVec F S128 .f32} {a14 : FVec F S128x128 .f32}
    {a15 : FVec F S128 .f32} {a16 : FVec F S128x128 .f32} {a17 : FVec F S128 .f32} {a18 : FVec F S128x128 .f32}
    {a19 : FVec F S128 .f32} {a20 : FVec F S128x128 .f32} {a21 : FVec F S128 .f32} {a22 : FVec F S128x128 .f32}
    {a23 : FVec F S128 .f32} {a24 : FVec F S128x128 .f32} {a25 : FVec F S128 .f32} {a26 : FVec F S128x128 .f32}
    {a27 : FVec F S128 .f32} {a28 : FVec F S128x128 .f32} {a29 : FVec F S128 .f32}
    (h : fn (F := F)
        a0 a1 a2 a3 a4 a5 a6 a7 a8 a9 a10 a11 a12 a13 a14 a15 a16 a17 a18 a19 a20 a21 a22 a23 a24 a25 a26 a27
        a28 a29 = fun _ => 1#1) :
    (∀ j, (r384 a2 j).toNat < 12000) ∧ (∀ j, (r384 a4 j).toNat < 12000)
      ∧ (∀ j, (r192 a6 j).toNat < 6000) ∧ (∀ j, (r192 a8 j).toNat < 6000) := by
  have e : ∃ (b : FVec F S128 .f32) (v : IVec S_ 1) (w : FVec F S128x128 .f32),
      fn (F := F)
        a0 a1 a2 a3 a4 a5 a6 a7 a8 a9 a10 a11 a12 a13 a14 a15 a16 a17 a18 a19 a20 a21 a22 a23 a24 a25 a26 a27
        a28 a29
        = fn_part7 (F := F) a2 a4 a6 a8 b v w := ⟨_, _, _, rfl⟩
  obtain ⟨b, v, w, e⟩ := e
  exact part7_rows (e ▸ h)

end Decode

end PreRows

/-! ## The claim's precondition, read on each device -/

/-- Under the claim's precondition, on every device, row 0 of each of the four edge lists holds node indices in
    range. The two sides slice and reshape by the same operations over shape facts of the same propositions. -/
theorem rows_in_range (m : (ℓ : Loc Cert.KernelIdeal.nD Cert.KernelIdeal.τ Cert.KernelIdeal.sig) → Buf (Elt Ideal) ℓ)
    (h : Cert.Pre_KernelIdeal m) (c : Dev Cert.KernelIdeal.nD) :
    (∀ j, (rowMI (m ((c.tc : Thread Cert.KernelIdeal.nD Cert.KernelIdeal.τ).loc Cert.KernelIdeal.main_arg2)) j).toNat < 12000)
    ∧ (∀ j, (rowMI (m ((c.tc : Thread _ _).loc Cert.KernelIdeal.main_arg4)) j).toNat < 12000)
    ∧ (∀ j, (rowDIS (m ((c.tc : Thread _ _).loc Cert.KernelIdeal.main_arg6)) j).toNat < 6000)
    ∧ (∀ j, (rowDIS (m ((c.tc : Thread _ _).loc Cert.KernelIdeal.main_arg8)) j).toNat < 6000) :=
  PreRows.fn_rows (F := Ideal) (h c)

end Cert.Spec

end
-- ==== Proof.lean ====
/-
  The certificate of the graph-convolution kernel against its jnp reference, over the extended reals.

  Both programs compute, for four (graph, weights) pairs, two stacked graph-convolution layers
  `max (Â·(x·W) + b, 0)` (Â the symmetrically normalised weighted adjacency with self loops), gate two linear heads of
  the results per node set, and end with the similarity `mi_fea · dis_feaᵀ`. The kernel's program tiles the dense
  products and the pointwise last line of each layer into nineteen pipelined regions and keeps the edge-wise
  gather / scatter-add on the host, exactly as the reference has it — except that it reads the source rows with a
  gather that fills a NaN at an out-of-range index. So the two results agree wherever every source index lies in
  `[0, n)`, which the precondition states; nothing else of the precondition is used (the sums are reassociated only).

  The frames of the two kernel programs are the generated ones; the reference's frame is its run (the fold of its host
  operations, taken in nine stretches) with the results dropped; `preserves` has no entry. For `algebraic`: the kernel's run is re-posted with its result buffers
  at the last boundary's contents (KernelRun.lean), those contents are the composite functions of Spec.lean in the
  kernel's form (FinalK.lean, over the per-region arrays RegionXw* / RegionFin* / RegionGate* / RegionSim18 and the
  per-layer boundary lemmas LayerK*), the reference's run ends at the same composites in its own form (RefValue.lean),
  and the two forms agree under the precondition (Bridge.lean, PreRows.lean).
-/
import proofs.«406409_j38250978738663_3_alg».proof.Defs
import proofs.«406409_j38250978738663_3_alg».proof.Proof.Gen.Kernel
import proofs.«406409_j38250978738663_3_alg».proof.Proof.Gen.Kernel.Skeleton
import proofs.«406409_j38250978738663_3_alg».proof.Proof.Gen.Kernel.Launch
import proofs.«406409_j38250978738663_3_alg».proof.Proof.Gen.Kernel.Points
import proofs.«406409_j38250978738663_3_alg».proof.Proof.FrameK
import proofs.«406409_j38250978738663_3_alg».proof.Proof.Gen.KernelIdeal
import proofs.«406409_j38250978738663_3_alg».proof.Proof.Gen.KernelIdeal.Skeleton
import proofs.«406409_j38250978738663_3_alg».proof.Proof.Gen.KernelIdeal.Launch
import proofs.«406409_j38250978738663_3_alg».proof.Proof.Gen.KernelIdeal.Points
import proofs.«406409_j38250978738663_3_alg».proof.Proof.FrameKI
import proofs.«406409_j38250978738663_3_alg».proof.Proof.Gen.ReferenceIdeal
import proofs.«406409_j38250978738663_3_alg».proof.Proof.Gen.Pre_finite_inputs
import proofs.«406409_j38250978738663_3_alg».proof.Proof.KernelRun
import proofs.«406409_j38250978738663_3_alg».proof.Proof.FinalK
import proofs.«406409_j38250978738663_3_alg».proof.Proof.RefValue
import proofs.«406409_j38250978738663_3_alg».proof.Proof.Bridge
import proofs.«406409_j38250978738663_3_alg».proof.Proof.PreRows
import Idealize.ShloMosaic.Adequacy
import Idealize.ShloMosaic.Init

set_option maxRecDepth 16384

noncomputable section

namespace Cert.Proof

open Idealize.ShloMosaic Idealize.SL.Sem Cert.Spec

theorem frame_k : Cert.frame_Kernel := fun m ρ _ => Cert.Kernel.GenP.frame m ρ
theorem frame_ki : Cert.frame_KernelIdeal := fun m ρ _ => Cert.KernelIdeal.GenP.frame m ρ
/-- The reference's frame: its run, the three results dropped. -/
theorem frame_ri : Cert.frame_ReferenceIdeal := fun m ρ _ =>
  (θ_run Cert.ReferenceIdeal.defs _ _).mono (fun _ h c => (h c).2.2.2) (ref_run m ρ)

/-- The kernel's run with its three results at the reference's form of the composites of ITS OWN argument arrays. -/
theorem kernel_run (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v326) = sim (miFeaR (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))) (disFeaR (m ((c.tc : Thread Cert.KernelIdeal.nD Cert.KernelIdeal.τ).loc Cert.KernelIdeal.main_arg1)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)))
      ∧ r.2.mem ((c.tc : Thread Cert.KernelIdeal.nD Cert.KernelIdeal.τ).loc Cert.KernelIdeal.main_v322) = miFeaR (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))
      ∧ r.2.mem ((c.tc : Thread Cert.KernelIdeal.nD Cert.KernelIdeal.τ).loc Cert.KernelIdeal.main_v325) = disFeaR (m ((c.tc : Thread Cert.KernelIdeal.nD Cert.KernelIdeal.τ).loc Cert.KernelIdeal.main_arg1)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)) := by
  refine (θ_run Cert.KernelIdeal.defs _ _).mono (fun r h c => ?_) (Cert.KernelIdeal.ValueRun.run_values (F := Ideal) m ρ)
  obtain ⟨h2, h4, h6, h8⟩ := rows_in_range m hpre c
  obtain ⟨r0, r1, r2, rest⟩ := h c
  refine ⟨r0.trans ?_, r1.trans ?_, r2.trans ?_, rest⟩
  · rw [Cert.KernelIdeal.FinalValue.res_sim m ρ c, miFeaK_eq _ _ _ _ _ _ _ _ _ _ _ _ _ _ _ _ _ h2 h4, disFeaK_eq _ _ _ _ _ _ _ _ _ _ _ _ _ _ _ _ _ h6 h8]
  · rw [Cert.KernelIdeal.FinalValue.res_miFea m ρ c, miFeaK_eq _ _ _ _ _ _ _ _ _ _ _ _ _ _ _ _ _ h2 h4]
  · rw [Cert.KernelIdeal.FinalValue.res_disFea m ρ c, disFeaK_eq _ _ _ _ _ _ _ _ _ _ _ _ _ _ _ _ _ h6 h8]

set_option maxHeartbeats 4000000 in
/-- Both programs end at the same composites of argument arrays that agree: a composite is a function of the argument
    arrays, so equal arguments give equal values, argument by argument. -/
theorem algebraic : Cert.algebraic_KernelIdeal_ReferenceIdeal := by
  intro m ρ m' ρ' hpre hagree
  refine ⟨_, _, _, kernel_run m ρ hpre, ?_⟩
  refine (θ_run Cert.ReferenceIdeal.defs _ _).mono (fun r h c => ?_) (ref_run m' ρ')
  obtain ⟨r0, r1, r2, rest⟩ := h c
  obtain ⟨e0, e1, e2, e3, e4, e5, e6, e7, e8, e9, e10, e11, e12, e13, e14, e15, e16, e17, e18, e19, e20, e21, e22, e23, e24, e25, e26, e27, e28, e29⟩ := hagree c
  have hmi := (congr (congr (congr (congr (congr (congr (congr (congr (congr (congr (congr (congr (congr (congr (congr (congr (congrArg miFeaR e0) e2) e3) e4) e5) e10) e11) e12) e13) e14) e15) e16) e17) e26) e27) e28) e29)
  have hdis := (congr (congr (congr (congr (congr (congr (congr (congr (congr (congr (congr (congr (congr (congr (congr (congr (congrArg disFeaR e1) e6) e7) e8) e9) e18) e19) e20) e21) e22) e23) e24) e25) e26) e27) e28) e29)
  exact ⟨r0.trans (congr (congrArg sim hmi) hdis), r1.trans hmi, r2.trans hdis, rest⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
